-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v590)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v590) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v789) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x739 : Shape := ⟨2, ![10000, 739]⟩
abbrev S2x320000 : Shape := ⟨2, ![2, 320000]⟩
abbrev S10000 : Shape := ⟨1, ![10000]⟩
abbrev S739x64 : Shape := ⟨2, ![739, 64]⟩
abbrev S64 : Shape := ⟨1, ![64]⟩
abbrev S64x64 : Shape := ⟨2, ![64, 64]⟩
abbrev S9x1x64 : Shape := ⟨3, ![9, 1, 64]⟩
abbrev S1x64 : Shape := ⟨2, ![1, 64]⟩
abbrev S1 : Shape := ⟨1, ![1]⟩
abbrev S9x1x128 : Shape := ⟨3, ![9, 1, 128]⟩
abbrev S9x1 : Shape := ⟨2, ![9, 1]⟩
abbrev S64x1 : Shape := ⟨2, ![64, 1]⟩
abbrev S_ : Shape := ⟨0, ![]⟩

class Facts : Prop where
  bcast_S_S10000x739 : S_.BroadcastsInDim S10000x739 (![] : Fin 0 → Fin S10000x739.rank)
  reducesTo_S10000x739_S_d0_1 : S10000x739.ReducesTo [0, 1] S_
  h_S_ : 0 < S_.numel
  bcast_S_S739x64 : S_.BroadcastsInDim S739x64 (![] : Fin 0 → Fin S739x64.rank)
  reducesTo_S739x64_S_d0_1 : S739x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S9x1x64 : S_.BroadcastsInDim S9x1x64 (![] : Fin 0 → Fin S9x1x64.rank)
  reducesTo_S9x1x64_S_d0_1_2 : S9x1x64.ReducesTo [0, 1, 2] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S9x1x128 : S_.BroadcastsInDim S9x1x128 (![] : Fin 0 → Fin S9x1x128.rank)
  reducesTo_S9x1x128_S_d0_1_2 : S9x1x128.ReducesTo [0, 1, 2] S_
  bcast_S_S9x1 : S_.BroadcastsInDim S9x1 (![] : Fin 0 → Fin S9x1.rank)
  reducesTo_S9x1_S_d0_1 : S9x1.ReducesTo [0, 1] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S1 .f32) (main_arg10 : FVec F S9x1x128 .f32) (main_arg11 : FVec F S9x1 .f32) (main_arg12 : FVec F S64x1 .f32) (main_arg13 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S9x1x128 .f32 := Host.absf main_arg10
  let main_cst_14 : FVec F S_ .f32 := constant S_ .f32 0x7F800000#32
  let main_v40 : FVec F S9x1x128 .f32 := broadcastInDim S9x1x128 ![] bcast_S_S9x1x128 main_cst_14
  let main_v41 : IVec S9x1x128 1 := cmpf .olt main_v39 main_v40
  let main_c_15 : IVec S_ 1 := constantI S_ 1 1#1
  let main_v42 : IVec S_ 1 := (fun x v => Host.reduce IntOp.andi x v reducesTo_S9x1x128_S_d0_1_2 h_S_) main_v41 main_c_15
  let main_v43 : IVec S_ 1 := andi main_v38 main_v42
  let main_v44 : FVec F S9x1 .f32 := Host.absf main_arg11
  let main_cst_16 : FVec F S_ .f32 := constant S_ .f32 0x7F800000#32
  let main_v45 : FVec F S9x1 .f32 := broadcastInDim S9x1 ![] bcast_S_S9x1 main_cst_16
  let main_v46 : IVec S9x1 1 := cmpf .olt main_v44 main_v45
  let main_c_17 : IVec S_ 1 := constantI S_ 1 1#1
  let main_v47 : IVec S_ 1 := (fun x v => Host.reduce IntOp.andi x v reducesTo_S9x1_S_d0_1 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S64 .f32) (main_arg7 : FVec F S9x1x64 .f32) (main_arg8 : FVec F S1x64 .f32) (main_arg9 : FVec F S1 .f32) (main_arg10 : FVec F S9x1x128 .f32) (main_arg11 : FVec F S9x1 .f32) (main_arg12 : FVec F S64x1 .f32) (main_arg13 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S9x1x64 .f32 := Host.absf main_arg7
  let main_cst_8 : FVec F S_ .f32 := constant S_ .f32 0x7F800000#32
  let main_v25 : FVec F S9x1x64 .f32 := broadcastInDim S9x1x64 ![] bcast_S_S9x1x64 main_cst_8
  let main_v26 : IVec S9x1x64 1 := cmpf .olt main_v24 main_v25
  let main_c_9 : IVec S_ 1 := constantI S_ 1 1#1
  let main_v27 : IVec S_ 1 := (fun x v => Host.reduce IntOp.andi x v reducesTo_S9x1x64_S_d0_1_2 h_S_) main_v26 main_c_9
  let main_v28 : IVec S_ 1 := andi main_v23 main_v27
  let main_v29 : FVec F S1x64 .f32 := Host.absf main_arg8
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S10000x739 .f32) (main_arg1 : IVec S2x320000 32) (main_arg2 : IVec S10000 32) (main_arg3 : FVec F S739x64 .f32) (main_arg4 : FVec F S64 .f32) (main_arg5 : FVec F S64x64 .f32) (main_arg6 : FVec F S64 .f32) (main_arg7 : FVec F S9x1x64 .f32) (main_arg8 : FVec F S1x64 .f32) (main_arg9 : FVec F S1 .f32) (main_arg10 : FVec F S9x1x128 .f32) (main_arg11 : FVec F S9x1 .f32) (main_arg12 : FVec F S64x1 .f32) (main_arg13 : FVec F S1 .f32) : IVec S_ 1 :=
  let main_v0 : FVec F S10000x739 .f32 := Host.absf main_arg0
  let main_cst : FVec F S_ .f32 := constant S_ .f32 0x7F800000#32
  let main_v1 : FVec F S10000x739 .f32 := broadcastInDim S10000x739 ![] bcast_S_S10000x739 main_cst
  let main_v2 : IVec S10000x739 1 := cmpf .olt main_v0 main_v1
  let main_c : IVec S_ 1 := constantI S_ 1 1#1
  let main_v3 : IVec S_ 1 := (fun x v => Host.reduce IntOp.andi x v reducesTo_S10000x739_S_d0_1 h_S_) main_v2 main_c
  let main_v4 : FVec F S739x64 .f32 := Host.absf main_arg3
  let main_cst_0 : FVec F S_ .f32 := constant S_ .f32 0x7F800000#32
  let main_v5 : FVec F S739x64 .f32 := broadcastInDim S739x64 ![] bcast_S_S739x64 main_cst_0
  let main_v6 : IVec S739x64 1 := cmpf .olt main_v4 main_v5
  let main_c_1 : IVec S_ 1 := constantI S_ 1 1#1
  let main_v7 : IVec S_ 1 := (fun x v => Host.reduce IntOp.andi x v reducesTo_S739x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_v13 main_v16
-- ==== Kernel.lean ====
abbrev S10000x739 : Shape := ⟨2, ![10000, 739]⟩
abbrev S2x320000 : Shape := ⟨2, ![2, 320000]⟩
abbrev S10000 : Shape := ⟨1, ![10000]⟩
abbrev S739x64 : Shape := ⟨2, ![739, 64]⟩
abbrev S64 : Shape := ⟨1, ![64]⟩
abbrev S64x64 : Shape := ⟨2, ![64, 64]⟩
abbrev S9x1x64 : Shape := ⟨3, ![9, 1, 64]⟩
abbrev S1x64 : Shape := ⟨2, ![1, 64]⟩
abbrev S1 : Shape := ⟨1, ![1]⟩
abbrev S9x1x128 : Shape := ⟨3, ![9, 1, 128]⟩
abbrev S9x1 : Shape := ⟨2, ![9, 1]⟩
abbrev S64x1 : Shape := ⟨2, ![64, 1]⟩
abbrev S1x320000 : Shape := ⟨2, ![1, 320000]⟩
abbrev S320000 : Shape := ⟨1, ![320000]⟩
abbrev S1x1 : Shape := ⟨2, ![1, 1]⟩
abbrev S10000x64 : Shape := ⟨2, ![10000, 64]⟩
abbrev S1000x739 : Shape := ⟨2, ![1000, 739]⟩
abbrev S1000x64 : Shape := ⟨2, ![1000, 64]⟩
abbrev S1000 : Shape := ⟨1, ![1000]⟩
abbrev S1000x1 : Shape := ⟨2, ![1000, 1]⟩
abbrev S_ : Shape := ⟨0, ![]⟩
abbrev S320000x1 : Shape := ⟨2, ![320000, 1]⟩
abbrev S320000x64 : Shape := ⟨2, ![320000, 64]⟩
abbrev S1x1x64 : Shape := ⟨3, ![1, 1, 64]⟩
abbrev S8000x64 : Shape := ⟨2, ![8000, 64]⟩
abbrev S8000x1 : Shape := ⟨2, ![8000, 1]⟩
abbrev S8000 : Shape := ⟨1, ![8000]⟩
abbrev S10000x1 : Shape := ⟨2, ![10000, 1]⟩
abbrev S1x1x128 : Shape := ⟨3, ![1, 1, 128]⟩
abbrev S1x128 : Shape := ⟨2, ![1, 128]⟩
abbrev S1000x128 : Shape := ⟨2, ![1000, 128]⟩

abbrev nBuf : Space → Nat
  | .hbm => 745
  | .vmem => 147
  | .smem => 0
  | _ => 0

abbrev hbmTy0_0 (i : Nat) : BufTy := match i % 128 with
  | 0 => ⟨S10000x739, .f32⟩
  | 1 => ⟨S2x320000, .i32⟩
  | 2 => ⟨S10000, .i32⟩
  | 3 => ⟨S739x64, .f32⟩
  | 4 => ⟨S64, .f32⟩
  | 5 => ⟨S64x64, .f32⟩
  | 6 => ⟨S64, .f32⟩
  | 7 => ⟨S9x1x64, .f32⟩
  | 8 => ⟨S1x64, .f32⟩
  | 9 => ⟨S1, .f32⟩
  | 10 => ⟨S9x1x128, .f32⟩
  | 11 => ⟨S9x1, .f32⟩
  | 12 => ⟨S64x1, .f32⟩
  | 13 => ⟨S1, .f32⟩
  | 14 => ⟨S1x320000, .i32⟩
  | 15 => ⟨S320000, .i32⟩
  | 16 => ⟨S1x320000, .i32⟩
  | 17 => ⟨S320000, .i32⟩
  | 18 => ⟨S1x64, .f32⟩
  | 19 => ⟨S1x64, .f32⟩
  | 20 => ⟨S1x1, .f32⟩
  | 21 => ⟨S10000x64, .f32⟩
  | 22 => ⟨S10000x64, .f32⟩
  | 23 => ⟨S_, .f32⟩
  | 24 => ⟨S10000x64, .f32⟩
  | 25 => ⟨S10000x64, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x64, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x64, .f32⟩
  | 44 => ⟨S320000x64, .f32⟩
  | 45 => ⟨S1x1x64, .f32⟩
  | 46 => ⟨S1x64, .f32⟩
  | 47 => ⟨S320000x1, .f32⟩
  | 48 => ⟨S320000, .f32⟩
  | 49 => ⟨S_, .f32⟩
  | 50 => ⟨S10000, .f32⟩
  | 51 => ⟨S320000x1, .i32⟩
  | 52 => ⟨S10000, .f32⟩
  | 53 => ⟨S_, .f32⟩
  | 54 => ⟨S10000, .f32⟩
  | 55 => ⟨S10000, .f32⟩
  | 56 => ⟨S_, .f32⟩
  | 57 => ⟨S10000, .f32⟩
  | 58 => ⟨S10000, .f32⟩
  | 59 => ⟨S10000x1, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x64, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x1, .f32⟩
  | 78 => ⟨S320000x1, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x1, .f32⟩
  | 88 => ⟨S320000x1, .f32⟩
  | 89 => ⟨S320000x64, .f32⟩
  | 90 => ⟨S320000x64, .f32⟩
  | 91 => ⟨S_, .f32⟩
  | 92 => ⟨S10000x64, .f32⟩
  | 93 => ⟨S320000x1, .i32⟩
  | 94 => ⟨S10000x64, .f32⟩
  | 95 => ⟨S1x1x128, .f32⟩
  | 96 => ⟨S1x128, .f32⟩
  | 97 => ⟨S1x1, .f32⟩
  | 98 => ⟨S1, .f32⟩
  | 99 => ⟨S1x1, .f32⟩
  | 100 => ⟨S10000x64, .f32⟩
  | 101 => ⟨S_, .f32⟩
  | 102 => ⟨S10000x64, .f32⟩
  | 103 => ⟨S10000x64, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x64, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x64, .f32⟩
  | 122 => ⟨S320000x64, .f32⟩
  | 123 => ⟨S1x1x64, .f32⟩
  | 124 => ⟨S1x64, .f32⟩
  | 125 => ⟨S320000x1, .f32⟩
  | 126 => ⟨S320000, .f32⟩
  | 127 => ⟨S_, .f32⟩
  | _ => ⟨S10000x739, .f32⟩

abbrev hbmTy0_1 (i : Nat) : BufTy := match i % 128 with
  | 0 => ⟨S10000, .f32⟩
  | 1 => ⟨S320000x1, .i32⟩
  | 2 => ⟨S10000, .f32⟩
  | 3 => ⟨S_, .f32⟩
  | 4 => ⟨S10000, .f32⟩
  | 5 => ⟨S10000, .f32⟩
  | 6 => ⟨S_, .f32⟩
  | 7 => ⟨S10000, .f32⟩
  | 8 => ⟨S10000, .f32⟩
  | 9 => ⟨S10000x1, .f32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S320000x64, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x1, .f32⟩
  | 28 => ⟨S320000x1, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x1, .f32⟩
  | 38 => ⟨S320000x1, .f32⟩
  | 39 => ⟨S320000x64, .f32⟩
  | 40 => ⟨S320000x64, .f32⟩
  | 41 => ⟨S_, .f32⟩
  | 42 => ⟨S10000x64, .f32⟩
  | 43 => ⟨S320000x1, .i32⟩
  | 44 => ⟨S10000x64, .f32⟩
  | 45 => ⟨S1x1x128, .f32⟩
  | 46 => ⟨S1x128, .f32⟩
  | 47 => ⟨S1x1, .f32⟩
  | 48 => ⟨S1, .f32⟩
  | 49 => ⟨S1x1, .f32⟩
  | 50 => ⟨S10000x64, .f32⟩
  | 51 => ⟨S_, .f32⟩
  | 52 => ⟨S10000x64, .f32⟩
  | 53 => ⟨S10000x64, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000x64, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x64, .f32⟩
  | 72 => ⟨S320000x64, .f32⟩
  | 73 => ⟨S1x1x64, .f32⟩
  | 74 => ⟨S1x64, .f32⟩
  | 75 => ⟨S320000x1, .f32⟩
  | 76 => ⟨S320000, .f32⟩
  | 77 => ⟨S_, .f32⟩
  | 78 => ⟨S10000, .f32⟩
  | 79 => ⟨S320000x1, .i32⟩
  | 80 => ⟨S10000, .f32⟩
  | 81 => ⟨S_, .f32⟩
  | 82 => ⟨S10000, .f32⟩
  | 83 => ⟨S10000, .f32⟩
  | 84 => ⟨S_, .f32⟩
  | 85 => ⟨S10000, .f32⟩
  | 86 => ⟨S10000, .f32⟩
  | 87 => ⟨S10000x1, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x64, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x1, .f32⟩
  | 106 => ⟨S320000x1, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x1, .f32⟩
  | 116 => ⟨S320000x1, .f32⟩
  | 117 => ⟨S320000x64, .f32⟩
  | 118 => ⟨S320000x64, .f32⟩
  | 119 => ⟨S_, .f32⟩
  | 120 => ⟨S10000x64, .f32⟩
  | 121 => ⟨S320000x1, .i32⟩
  | 122 => ⟨S10000x64, .f32⟩
  | 123 => ⟨S1x1x128, .f32⟩
  | 124 => ⟨S1x128, .f32⟩
  | 125 => ⟨S1x1, .f32⟩
  | 126 => ⟨S1, .f32⟩
  | 127 => ⟨S1x1, .f32⟩
  | _ => ⟨S10000x739, .f32⟩

abbrev hbmTy0_2 (i : Nat) : BufTy := match i % 128 with
  | 0 => ⟨S10000x64, .f32⟩
  | 1 => ⟨S_, .f32⟩
  | 2 => ⟨S10000x64, .f32⟩
  | 3 => ⟨S10000x64, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000x64, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x64, .f32⟩
  | 22 => ⟨S320000x64, .f32⟩
  | 23 => ⟨S1x1x64, .f32⟩
  | 24 => ⟨S1x64, .f32⟩
  | 25 => ⟨S320000x1, .f32⟩
  | 26 => ⟨S320000, .f32⟩
  | 27 => ⟨S_, .f32⟩
  | 28 => ⟨S10000, .f32⟩
  | 29 => ⟨S320000x1, .i32⟩
  | 30 => ⟨S10000, .f32⟩
  | 31 => ⟨S_, .f32⟩
  | 32 => ⟨S10000, .f32⟩
  | 33 => ⟨S10000, .f32⟩
  | 34 => ⟨S_, .f32⟩
  | 35 => ⟨S10000, .f32⟩
  | 36 => ⟨S10000, .f32⟩
  | 37 => ⟨S10000x1, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x64, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x1, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x1, .f32⟩
  | 66 => ⟨S320000x1, .f32⟩
  | 67 => ⟨S320000x64, .f32⟩
  | 68 => ⟨S320000x64, .f32⟩
  | 69 => ⟨S_, .f32⟩
  | 70 => ⟨S10000x64, .f32⟩
  | 71 => ⟨S320000x1, .i32⟩
  | 72 => ⟨S10000x64, .f32⟩
  | 73 => ⟨S1x1x128, .f32⟩
  | 74 => ⟨S1x128, .f32⟩
  | 75 => ⟨S1x1, .f32⟩
  | 76 => ⟨S1, .f32⟩
  | 77 => ⟨S1x1, .f32⟩
  | 78 => ⟨S10000x64, .f32⟩
  | 79 => ⟨S_, .f32⟩
  | 80 => ⟨S10000x64, .f32⟩
  | 81 => ⟨S10000x64, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x64, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x64, .f32⟩
  | 100 => ⟨S320000x64, .f32⟩
  | 101 => ⟨S1x1x64, .f32⟩
  | 102 => ⟨S1x64, .f32⟩
  | 103 => ⟨S320000x1, .f32⟩
  | 104 => ⟨S320000, .f32⟩
  | 105 => ⟨S_, .f32⟩
  | 106 => ⟨S10000, .f32⟩
  | 107 => ⟨S320000x1, .i32⟩
  | 108 => ⟨S10000, .f32⟩
  | 109 => ⟨S_, .f32⟩
  | 110 => ⟨S10000, .f32⟩
  | 111 => ⟨S10000, .f32⟩
  | 112 => ⟨S_, .f32⟩
  | 113 => ⟨S10000, .f32⟩
  | 114 => ⟨S10000, .f32⟩
  | 115 => ⟨S10000x1, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x64, .f32⟩
  | 125 => ⟨S_, .i32⟩
  | 126 => ⟨S320000, .i32⟩
  | 127 => ⟨S320000, .i1⟩
  | _ => ⟨S10000x739, .f32⟩

abbrev hbmTy0_3 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000x1, .f32⟩
  | 6 => ⟨S320000x1, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000x1, .f32⟩
  | 16 => ⟨S320000x1, .f32⟩
  | 17 => ⟨S320000x64, .f32⟩
  | 18 => ⟨S320000x64, .f32⟩
  | 19 => ⟨S_, .f32⟩
  | 20 => ⟨S10000x64, .f32⟩
  | 21 => ⟨S320000x1, .i32⟩
  | 22 => ⟨S10000x64, .f32⟩
  | 23 => ⟨S1x1x128, .f32⟩
  | 24 => ⟨S1x128, .f32⟩
  | 25 => ⟨S1x1, .f32⟩
  | 26 => ⟨S1, .f32⟩
  | 27 => ⟨S1x1, .f32⟩
  | 28 => ⟨S10000x64, .f32⟩
  | 29 => ⟨S_, .f32⟩
  | 30 => ⟨S10000x64, .f32⟩
  | 31 => ⟨S10000x64, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x64, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x64, .f32⟩
  | 50 => ⟨S320000x64, .f32⟩
  | 51 => ⟨S1x1x64, .f32⟩
  | 52 => ⟨S1x64, .f32⟩
  | 53 => ⟨S320000x1, .f32⟩
  | 54 => ⟨S320000, .f32⟩
  | 55 => ⟨S_, .f32⟩
  | 56 => ⟨S10000, .f32⟩
  | 57 => ⟨S320000x1, .i32⟩
  | 58 => ⟨S10000, .f32⟩
  | 59 => ⟨S_, .f32⟩
  | 60 => ⟨S10000, .f32⟩
  | 61 => ⟨S10000, .f32⟩
  | 62 => ⟨S_, .f32⟩
  | 63 => ⟨S10000, .f32⟩
  | 64 => ⟨S10000, .f32⟩
  | 65 => ⟨S10000x1, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x64, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x1, .f32⟩
  | 84 => ⟨S320000x1, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x1, .f32⟩
  | 94 => ⟨S320000x1, .f32⟩
  | 95 => ⟨S320000x64, .f32⟩
  | 96 => ⟨S320000x64, .f32⟩
  | 97 => ⟨S_, .f32⟩
  | 98 => ⟨S10000x64, .f32⟩
  | 99 => ⟨S320000x1, .i32⟩
  | 100 => ⟨S10000x64, .f32⟩
  | 101 => ⟨S1x1x128, .f32⟩
  | 102 => ⟨S1x128, .f32⟩
  | 103 => ⟨S1x1, .f32⟩
  | 104 => ⟨S1, .f32⟩
  | 105 => ⟨S1x1, .f32⟩
  | 106 => ⟨S10000x64, .f32⟩
  | 107 => ⟨S_, .f32⟩
  | 108 => ⟨S10000x64, .f32⟩
  | 109 => ⟨S10000x64, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x64, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x64, .f32⟩
  | _ => ⟨S10000x739, .f32⟩

abbrev hbmTy0_4 (i : Nat) : BufTy := match i % 128 with
  | 0 => ⟨S320000x64, .f32⟩
  | 1 => ⟨S1x1x64, .f32⟩
  | 2 => ⟨S1x64, .f32⟩
  | 3 => ⟨S320000x1, .f32⟩
  | 4 => ⟨S320000, .f32⟩
  | 5 => ⟨S_, .f32⟩
  | 6 => ⟨S10000, .f32⟩
  | 7 => ⟨S320000x1, .i32⟩
  | 8 => ⟨S10000, .f32⟩
  | 9 => ⟨S_, .f32⟩
  | 10 => ⟨S10000, .f32⟩
  | 11 => ⟨S10000, .f32⟩
  | 12 => ⟨S_, .f32⟩
  | 13 => ⟨S10000, .f32⟩
  | 14 => ⟨S10000, .f32⟩
  | 15 => ⟨S10000x1, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x64, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x1, .f32⟩
  | 34 => ⟨S320000x1, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x1, .f32⟩
  | 44 => ⟨S320000x1, .f32⟩
  | 45 => ⟨S320000x64, .f32⟩
  | 46 => ⟨S320000x64, .f32⟩
  | 47 => ⟨S_, .f32⟩
  | 48 => ⟨S10000x64, .f32⟩
  | 49 => ⟨S320000x1, .i32⟩
  | 50 => ⟨S10000x64, .f32⟩
  | 51 => ⟨S1x1x128, .f32⟩
  | 52 => ⟨S1x128, .f32⟩
  | 53 => ⟨S1x1, .f32⟩
  | 54 => ⟨S1, .f32⟩
  | 55 => ⟨S1x1, .f32⟩
  | 56 => ⟨S10000x64, .f32⟩
  | 57 => ⟨S_, .f32⟩
  | 58 => ⟨S10000x64, .f32⟩
  | 59 => ⟨S10000x64, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x64, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x64, .f32⟩
  | 78 => ⟨S320000x64, .f32⟩
  | 79 => ⟨S1x1x64, .f32⟩
  | 80 => ⟨S1x64, .f32⟩
  | 81 => ⟨S320000x1, .f32⟩
  | 82 => ⟨S320000, .f32⟩
  | 83 => ⟨S_, .f32⟩
  | 84 => ⟨S10000, .f32⟩
  | 85 => ⟨S320000x1, .i32⟩
  | 86 => ⟨S10000, .f32⟩
  | 87 => ⟨S_, .f32⟩
  | 88 => ⟨S10000, .f32⟩
  | 89 => ⟨S10000, .f32⟩
  | 90 => ⟨S_, .f32⟩
  | 91 => ⟨S10000, .f32⟩
  | 92 => ⟨S10000, .f32⟩
  | 93 => ⟨S10000x1, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x64, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x1, .f32⟩
  | 112 => ⟨S320000x1, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x1, .f32⟩
  | 122 => ⟨S320000x1, .f32⟩
  | 123 => ⟨S320000x64, .f32⟩
  | 124 => ⟨S320000x64, .f32⟩
  | 125 => ⟨S_, .f32⟩
  | 126 => ⟨S10000x64, .f32⟩
  | 127 => ⟨S320000x1, .i32⟩
  | _ => ⟨S10000x739, .f32⟩

abbrev hbmTy0_5 (i : Nat) : BufTy := match i % 128 with
  | 0 => ⟨S10000x64, .f32⟩
  | 1 => ⟨S1x1x128, .f32⟩
  | 2 => ⟨S1x128, .f32⟩
  | 3 => ⟨S1x1, .f32⟩
  | 4 => ⟨S1, .f32⟩
  | 5 => ⟨S1x1, .f32⟩
  | 6 => ⟨S10000x64, .f32⟩
  | 7 => ⟨S_, .f32⟩
  | 8 => ⟨S10000x64, .f32⟩
  | 9 => ⟨S10000x64, .f32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S320000x64, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x64, .f32⟩
  | 28 => ⟨S320000x64, .f32⟩
  | 29 => ⟨S1x1x64, .f32⟩
  | 30 => ⟨S1x64, .f32⟩
  | 31 => ⟨S320000x1, .f32⟩
  | 32 => ⟨S320000, .f32⟩
  | 33 => ⟨S_, .f32⟩
  | 34 => ⟨S10000, .f32⟩
  | 35 => ⟨S320000x1, .i32⟩
  | 36 => ⟨S10000, .f32⟩
  | 37 => ⟨S_, .f32⟩
  | 38 => ⟨S10000, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x64, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x1, .f32⟩
  | 62 => ⟨S320000x1, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x1, .f32⟩
  | 72 => ⟨S320000x1, .f32⟩
  | 73 => ⟨S320000x64, .f32⟩
  | 74 => ⟨S320000x64, .f32⟩
  | 75 => ⟨S_, .f32⟩
  | 76 => ⟨S10000x64, .f32⟩
  | 77 => ⟨S320000x1, .i32⟩
  | 78 => ⟨S10000x64, .f32⟩
  | 79 => ⟨S1x1x128, .f32⟩
  | 80 => ⟨S1x128, .f32⟩
  | 81 => ⟨S1x1, .f32⟩
  | 82 => ⟨S1, .f32⟩
  | 83 => ⟨S1x1, .f32⟩
  | 84 => ⟨S10000x64, .f32⟩
  | 85 => ⟨S_, .f32⟩
  | 86 => ⟨S64x64, .f32⟩
  | 87 => ⟨S10000x1, .i32⟩
  | 88 => ⟨S64x64, .f32⟩
  | 89 => ⟨S_, .f32⟩
  | 90 => ⟨S10000, .f32⟩
  | 91 => ⟨S_, .f32⟩
  | 92 => ⟨S64, .f32⟩
  | 93 => ⟨S10000x1, .i32⟩
  | 94 => ⟨S64, .f32⟩
  | 95 => ⟨S_, .f32⟩
  | 96 => ⟨S64, .f32⟩
  | 97 => ⟨S64, .f32⟩
  | 98 => ⟨S64x1, .f32⟩
  | 99 => ⟨S64x64, .f32⟩
  | 100 => ⟨S64x64, .f32⟩
  | 101 => ⟨S64x1, .f32⟩
  | 102 => ⟨S1x1, .f32⟩
  | 103 => ⟨S64x1, .f32⟩
  | 104 => ⟨S64x1, .f32⟩
  | _ => ⟨S10000x739, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x739, .f32⟩

abbrev vmemTy0_0 (i : Nat) : BufTy := match i % 128 with
  | 0 => ⟨S1000x739, .f32⟩
  | 1 => ⟨S1000x739, .f32⟩
  | 2 => ⟨S739x64, .f32⟩
  | 3 => ⟨S1x64, .f32⟩
  | 4 => ⟨S64x64, .f32⟩
  | 5 => ⟨S1x64, .f32⟩
  | 6 => ⟨S1x64, .f32⟩
  | 7 => ⟨S1x1, .f32⟩
  | 8 => ⟨S1000x64, .f32⟩
  | 9 => ⟨S1000x64, .f32⟩
  | 10 => ⟨S1000x64, .f32⟩
  | 11 => ⟨S1000x64, .f32⟩
  | 12 => ⟨S8000x64, .f32⟩
  | 13 => ⟨S8000x64, .f32⟩
  | 14 => ⟨S1x64, .f32⟩
  | 15 => ⟨S8000x1, .f32⟩
  | 16 => ⟨S8000x1, .f32⟩
  | 17 => ⟨S1000x64, .f32⟩
  | 18 => ⟨S1000x64, .f32⟩
  | 19 => ⟨S1000x64, .f32⟩
  | 20 => ⟨S1000x64, .f32⟩
  | 21 => ⟨S1000x64, .f32⟩
  | 22 => ⟨S1000x64, .f32⟩
  | 23 => ⟨S1x128, .f32⟩
  | 24 => ⟨S1x1, .f32⟩
  | 25 => ⟨S1000x64, .f32⟩
  | 26 => ⟨S1000x64, .f32⟩
  | 27 => ⟨S8000x64, .f32⟩
  | 28 => ⟨S8000x64, .f32⟩
  | 29 => ⟨S1x64, .f32⟩
  | 30 => ⟨S8000x1, .f32⟩
  | 31 => ⟨S8000x1, .f32⟩
  | 32 => ⟨S1000x64, .f32⟩
  | 33 => ⟨S1000x64, .f32⟩
  | 34 => ⟨S1000x64, .f32⟩
  | 35 => ⟨S1000x64, .f32⟩
  | 36 => ⟨S1000x64, .f32⟩
  | 37 => ⟨S1000x64, .f32⟩
  | 38 => ⟨S1x128, .f32⟩
  | 39 => ⟨S1x1, .f32⟩
  | 40 => ⟨S1000x64, .f32⟩
  | 41 => ⟨S1000x64, .f32⟩
  | 42 => ⟨S8000x64, .f32⟩
  | 43 => ⟨S8000x64, .f32⟩
  | 44 => ⟨S1x64, .f32⟩
  | 45 => ⟨S8000x1, .f32⟩
  | 46 => ⟨S8000x1, .f32⟩
  | 47 => ⟨S1000x64, .f32⟩
  | 48 => ⟨S1000x64, .f32⟩
  | 49 => ⟨S1000x64, .f32⟩
  | 50 => ⟨S1000x64, .f32⟩
  | 51 => ⟨S1000x64, .f32⟩
  | 52 => ⟨S1000x64, .f32⟩
  | 53 => ⟨S1x128, .f32⟩
  | 54 => ⟨S1x1, .f32⟩
  | 55 => ⟨S1000x64, .f32⟩
  | 56 => ⟨S1000x64, .f32⟩
  | 57 => ⟨S8000x64, .f32⟩
  | 58 => ⟨S8000x64, .f32⟩
  | 59 => ⟨S1x64, .f32⟩
  | 60 => ⟨S8000x1, .f32⟩
  | 61 => ⟨S8000x1, .f32⟩
  | 62 => ⟨S1000x64, .f32⟩
  | 63 => ⟨S1000x64, .f32⟩
  | 64 => ⟨S1000x64, .f32⟩
  | 65 => ⟨S1000x64, .f32⟩
  | 66 => ⟨S1000x64, .f32⟩
  | 67 => ⟨S1000x64, .f32⟩
  | 68 => ⟨S1x128, .f32⟩
  | 69 => ⟨S1x1, .f32⟩
  | 70 => ⟨S1000x64, .f32⟩
  | 71 => ⟨S1000x64, .f32⟩
  | 72 => ⟨S8000x64, .f32⟩
  | 73 => ⟨S8000x64, .f32⟩
  | 74 => ⟨S1x64, .f32⟩
  | 75 => ⟨S8000x1, .f32⟩
  | 76 => ⟨S8000x1, .f32⟩
  | 77 => ⟨S1000x64, .f32⟩
  | 78 => ⟨S1000x64, .f32⟩
  | 79 => ⟨S1000x64, .f32⟩
  | 80 => ⟨S1000x64, .f32⟩
  | 81 => ⟨S1000x64, .f32⟩
  | 82 => ⟨S1000x64, .f32⟩
  | 83 => ⟨S1x128, .f32⟩
  | 84 => ⟨S1x1, .f32⟩
  | 85 => ⟨S1000x64, .f32⟩
  | 86 => ⟨S1000x64, .f32⟩
  | 87 => ⟨S8000x64, .f32⟩
  | 88 => ⟨S8000x64, .f32⟩
  | 89 => ⟨S1x64, .f32⟩
  | 90 => ⟨S8000x1, .f32⟩
  | 91 => ⟨S8000x1, .f32⟩
  | 92 => ⟨S1000x64, .f32⟩
  | 93 => ⟨S1000x64, .f32⟩
  | 94 => ⟨S1000x64, .f32⟩
  | 95 => ⟨S1000x64, .f32⟩
  | 96 => ⟨S1000x64, .f32⟩
  | 97 => ⟨S1000x64, .f32⟩
  | 98 => ⟨S1x128, .f32⟩
  | 99 => ⟨S1x1, .f32⟩
  | 100 => ⟨S1000x64, .f32⟩
  | 101 => ⟨S1000x64, .f32⟩
  | 102 => ⟨S8000x64, .f32⟩
  | 103 => ⟨S8000x64, .f32⟩
  | 104 => ⟨S1x64, .f32⟩
  | 105 => ⟨S8000x1, .f32⟩
  | 106 => ⟨S8000x1, .f32⟩
  | 107 => ⟨S1000x64, .f32⟩
  | 108 => ⟨S1000x64, .f32⟩
  | 109 => ⟨S1000x64, .f32⟩
  | 110 => ⟨S1000x64, .f32⟩
  | 111 => ⟨S1000x64, .f32⟩
  | 112 => ⟨S1000x64, .f32⟩
  | 113 => ⟨S1x128, .f32⟩
  | 114 => ⟨S1x1, .f32⟩
  | 115 => ⟨S1000x64, .f32⟩
  | 116 => ⟨S1000x64, .f32⟩
  | 117 => ⟨S8000x64, .f32⟩
  | 118 => ⟨S8000x64, .f32⟩
  | 119 => ⟨S1x64, .f32⟩
  | 120 => ⟨S8000x1, .f32⟩
  | 121 => ⟨S8000x1, .f32⟩
  | 122 => ⟨S1000x64, .f32⟩
  | 123 => ⟨S1000x64, .f32⟩
  | 124 => ⟨S1000x64, .f32⟩
  | 125 => ⟨S1000x64, .f32⟩
  | 126 => ⟨S1000x64, .f32⟩
  | 127 => ⟨S1000x64, .f32⟩
  | _ => ⟨S10000x739, .f32⟩

abbrev vmemTy0_1 (i : Nat) : BufTy := match i % 128 with
  | 0 => ⟨S1x128, .f32⟩
  | 1 => ⟨S1x1, .f32⟩
  | 2 => ⟨S1000x64, .f32⟩
  | 3 => ⟨S1000x64, .f32⟩
  | 4 => ⟨S8000x64, .f32⟩
  | 5 => ⟨S8000x64, .f32⟩
  | 6 => ⟨S1x64, .f32⟩
  | 7 => ⟨S8000x1, .f32⟩
  | 8 => ⟨S8000x1, .f32⟩
  | 9 => ⟨S1000x64, .f32⟩
  | 10 => ⟨S1000x64, .f32⟩
  | 11 => ⟨S1000x64, .f32⟩
  | 12 => ⟨S1000x64, .f32⟩
  | 13 => ⟨S1000x64, .f32⟩
  | 14 => ⟨S1000x64, .f32⟩
  | 15 => ⟨S1x128, .f32⟩
  | 16 => ⟨S1x1, .f32⟩
  | 17 => ⟨S1000x64, .f32⟩
  | 18 => ⟨S1000x64, .f32⟩
  | _ => ⟨S10000x739, .f32⟩

abbrev vmemTy (i : Nat) : BufTy := match i / 128 with
  | 0 => vmemTy0_0 i
  | 1 => vmemTy0_1 i
  | _ => ⟨S10000x739, .f32⟩

abbrev bufTy : (tb : Table) → Fin (tcTables nBuf tb) → BufTy
  | .hbm, ⟨i, _⟩ => hbmTy i
  | .local _ .vmem, ⟨i, _⟩ => vmemTy i
  | _, _ => ⟨S10000x739, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 147 → Bool
  | ⟨i, _⟩ => dmaSemScopedAt i

abbrev sig : RefSig :=
  ofTc nBuf bufTy 0 147 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_c_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_c_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_16 : Ref sig .tc := ⟨.hbm, 113, rfl⟩
abbrev main_v80 : Ref sig .tc := ⟨.hbm, 114, rfl⟩
abbrev main_v81 : Ref sig .tc := ⟨.hbm, 115, rfl⟩
abbrev main_c_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_21 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_23 : Ref sig .tc := ⟨.hbm, 147, rfl⟩
abbrev main_v107 : Ref sig .tc := ⟨.hbm, 148, rfl⟩
abbrev main_v108 : Ref sig .tc := ⟨.hbm, 149, rfl⟩
abbrev main_c_24 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_25 : Ref sig .tc := ⟨.hbm, 157, rfl⟩
abbrev main_v115 : Ref sig .tc := ⟨.hbm, 158, rfl⟩
abbrev main_v116 : Ref sig .tc := ⟨.hbm, 159, rfl⟩
abbrev main_c_26 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_27 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_28 : Ref sig .tc := ⟨.hbm, 179, rfl⟩
abbrev main_v134 : Ref sig .tc := ⟨.hbm, 180, rfl⟩
abbrev main_v135 : Ref sig .tc := ⟨.hbm, 181, rfl⟩
abbrev main_c_29 : Ref sig .tc := ⟨.hbm, 182, rfl⟩
abbrev main_v136 : Ref sig .tc := ⟨.hbm, 183, rfl⟩
abbrev main_v137 : Ref sig .tc := ⟨.hbm, 184, rfl⟩
abbrev main_c_30 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_c_31 : Ref sig .tc := ⟨.hbm, 191, rfl⟩
abbrev main_v143 : Ref sig .tc := ⟨.hbm, 192, rfl⟩
abbrev main_v144 : Ref sig .tc := ⟨.hbm, 193, rfl⟩
abbrev main_c_32 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_33 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_34 : Ref sig .tc := ⟨.hbm, 209, rfl⟩
abbrev main_v158 : Ref sig .tc := ⟨.hbm, 210, rfl⟩
abbrev main_v159 : Ref sig .tc := ⟨.hbm, 211, rfl⟩
abbrev main_cst_35 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_36 : Ref sig .tc := ⟨.hbm, 216, rfl⟩
abbrev main_v163 : Ref sig .tc := ⟨.hbm, 217, rfl⟩
abbrev main_v164 : Ref sig .tc := ⟨.hbm, 218, rfl⟩
abbrev main_c_37 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_38 : Ref sig .tc := ⟨.hbm, 225, rfl⟩
abbrev main_v170 : Ref sig .tc := ⟨.hbm, 226, rfl⟩
abbrev main_v171 : Ref sig .tc := ⟨.hbm, 227, rfl⟩
abbrev main_c_39 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_c_40 : Ref sig .tc := ⟨.hbm, 235, rfl⟩
abbrev main_v178 : Ref sig .tc := ⟨.hbm, 236, rfl⟩
abbrev main_v179 : Ref sig .tc := ⟨.hbm, 237, rfl⟩
abbrev main_c_41 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_cst_42 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_43 : Ref sig .tc := ⟨.hbm, 257, rfl⟩
abbrev main_v197 : Ref sig .tc := ⟨.hbm, 258, rfl⟩
abbrev main_v198 : Ref sig .tc := ⟨.hbm, 259, rfl⟩
abbrev main_c_44 : Ref sig .tc := ⟨.hbm, 260, rfl⟩
abbrev main_v199 : Ref sig .tc := ⟨.hbm, 261, rfl⟩
abbrev main_v200 : Ref sig .tc := ⟨.hbm, 262, rfl⟩
abbrev main_c_45 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_c_46 : Ref sig .tc := ⟨.hbm, 269, rfl⟩
abbrev main_v206 : Ref sig .tc := ⟨.hbm, 270, rfl⟩
abbrev main_v207 : Ref sig .tc := ⟨.hbm, 271, rfl⟩
abbrev main_c_47 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_cst_48 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_cst_49 : Ref sig .tc := ⟨.hbm, 287, rfl⟩
abbrev main_v221 : Ref sig .tc := ⟨.hbm, 288, rfl⟩
abbrev main_v222 : Ref sig .tc := ⟨.hbm, 289, rfl⟩
abbrev main_cst_50 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_c_51 : Ref sig .tc := ⟨.hbm, 294, rfl⟩
abbrev main_v226 : Ref sig .tc := ⟨.hbm, 295, rfl⟩
abbrev main_v227 : Ref sig .tc := ⟨.hbm, 296, rfl⟩
abbrev main_c_52 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_c_53 : Ref sig .tc := ⟨.hbm, 303, rfl⟩
abbrev main_v233 : Ref sig .tc := ⟨.hbm, 304, rfl⟩
abbrev main_v234 : Ref sig .tc := ⟨.hbm, 305, rfl⟩
abbrev main_c_54 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_c_55 : Ref sig .tc := ⟨.hbm, 313, rfl⟩
abbrev main_v241 : Ref sig .tc := ⟨.hbm, 314, rfl⟩
abbrev main_v242 : Ref sig .tc := ⟨.hbm, 315, rfl⟩
abbrev main_c_56 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_cst_57 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_cst_58 : Ref sig .tc := ⟨.hbm, 335, rfl⟩
abbrev main_v260 : Ref sig .tc := ⟨.hbm, 336, rfl⟩
abbrev main_v261 : Ref sig .tc := ⟨.hbm, 337, rfl⟩
abbrev main_c_59 : Ref sig .tc := ⟨.hbm, 338, rfl⟩
abbrev main_v262 : Ref sig .tc := ⟨.hbm, 339, rfl⟩
abbrev main_v263 : Ref sig .tc := ⟨.hbm, 340, rfl⟩
abbrev main_c_60 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_c_61 : Ref sig .tc := ⟨.hbm, 347, rfl⟩
abbrev main_v269 : Ref sig .tc := ⟨.hbm, 348, rfl⟩
abbrev main_v270 : Ref sig .tc := ⟨.hbm, 349, rfl⟩
abbrev main_c_62 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_cst_63 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_cst_64 : Ref sig .tc := ⟨.hbm, 365, rfl⟩
abbrev main_v284 : Ref sig .tc := ⟨.hbm, 366, rfl⟩
abbrev main_v285 : Ref sig .tc := ⟨.hbm, 367, rfl⟩
abbrev main_cst_65 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_c_66 : Ref sig .tc := ⟨.hbm, 372, rfl⟩
abbrev main_v289 : Ref sig .tc := ⟨.hbm, 373, rfl⟩
abbrev main_v290 : Ref sig .tc := ⟨.hbm, 374, rfl⟩
abbrev main_c_67 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_c_68 : Ref sig .tc := ⟨.hbm, 381, rfl⟩
abbrev main_v296 : Ref sig .tc := ⟨.hbm, 382, rfl⟩
abbrev main_v297 : Ref sig .tc := ⟨.hbm, 383, rfl⟩
abbrev main_c_69 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_c_70 : Ref sig .tc := ⟨.hbm, 391, rfl⟩
abbrev main_v304 : Ref sig .tc := ⟨.hbm, 392, rfl⟩
abbrev main_v305 : Ref sig .tc := ⟨.hbm, 393, rfl⟩
abbrev main_c_71 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_cst_72 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_cst_73 : Ref sig .tc := ⟨.hbm, 413, rfl⟩
abbrev main_v323 : Ref sig .tc := ⟨.hbm, 414, rfl⟩
abbrev main_v324 : Ref sig .tc := ⟨.hbm, 415, rfl⟩
abbrev main_c_74 : Ref sig .tc := ⟨.hbm, 416, rfl⟩
abbrev main_v325 : Ref sig .tc := ⟨.hbm, 417, rfl⟩
abbrev main_v326 : Ref sig .tc := ⟨.hbm, 418, rfl⟩
abbrev main_c_75 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_c_76 : Ref sig .tc := ⟨.hbm, 425, rfl⟩
abbrev main_v332 : Ref sig .tc := ⟨.hbm, 426, rfl⟩
abbrev main_v333 : Ref sig .tc := ⟨.hbm, 427, rfl⟩
abbrev main_c_77 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_cst_78 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_cst_79 : Ref sig .tc := ⟨.hbm, 443, rfl⟩
abbrev main_v347 : Ref sig .tc := ⟨.hbm, 444, rfl⟩
abbrev main_v348 : Ref sig .tc := ⟨.hbm, 445, rfl⟩
abbrev main_cst_80 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_c_81 : Ref sig .tc := ⟨.hbm, 450, rfl⟩
abbrev main_v352 : Ref sig .tc := ⟨.hbm, 451, rfl⟩
abbrev main_v353 : Ref sig .tc := ⟨.hbm, 452, rfl⟩
abbrev main_c_82 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_c_83 : Ref sig .tc := ⟨.hbm, 459, rfl⟩
abbrev main_v359 : Ref sig .tc := ⟨.hbm, 460, rfl⟩
abbrev main_v360 : Ref sig .tc := ⟨.hbm, 461, rfl⟩
abbrev main_c_84 : Ref sig .tc := ⟨.hbm, 462, rfl⟩
abbrev main_v361 : Ref sig .tc := ⟨.hbm, 463, rfl⟩
abbrev main_v362 : Ref sig .tc := ⟨.hbm, 464, rfl⟩
abbrev main_v363 : Ref sig .tc := ⟨.hbm, 465, rfl⟩
abbrev main_v364 : Ref sig .tc := ⟨.hbm, 466, rfl⟩
abbrev main_v365 : Ref sig .tc := ⟨.hbm, 467, rfl⟩
abbrev main_v366 : Ref sig .tc := ⟨.hbm, 468, rfl⟩
abbrev main_c_85 : Ref sig .tc := ⟨.hbm, 469, rfl⟩
abbrev main_v367 : Ref sig .tc := ⟨.hbm, 470, rfl⟩
abbrev main_v368 : Ref sig .tc := ⟨.hbm, 471, rfl⟩
abbrev main_c_86 : Ref sig .tc := ⟨.hbm, 472, rfl⟩
abbrev main_v369 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_cst_87 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_v380 : Ref sig .tc := ⟨.hbm, 485, rfl⟩
abbrev main_v381 : Ref sig .tc := ⟨.hbm, 486, rfl⟩
abbrev main_v382 : Ref sig .tc := ⟨.hbm, 487, rfl⟩
abbrev main_v383 : Ref sig .tc := ⟨.hbm, 488, rfl⟩
abbrev main_v384 : Ref sig .tc := ⟨.hbm, 489, rfl⟩
abbrev main_v385 : Ref sig .tc := ⟨.hbm, 490, rfl⟩
abbrev main_cst_88 : Ref sig .tc := ⟨.hbm, 491, rfl⟩
abbrev main_v386 : Ref sig .tc := ⟨.hbm, 492, rfl⟩
abbrev main_v387 : Ref sig .tc := ⟨.hbm, 493, rfl⟩
abbrev main_c_89 : Ref sig .tc := ⟨.hbm, 494, rfl⟩
abbrev main_v388 : Ref sig .tc := ⟨.hbm, 495, rfl⟩
abbrev main_v389 : Ref sig .tc := ⟨.hbm, 496, rfl⟩
abbrev main_c_90 : Ref sig .tc := ⟨.hbm, 497, rfl⟩
abbrev main_v390 : Ref sig .tc := ⟨.hbm, 498, rfl⟩
abbrev main_v391 : Ref sig .tc := ⟨.hbm, 499, rfl⟩
abbrev main_v392 : Ref sig .tc := ⟨.hbm, 500, rfl⟩
abbrev main_v393 : Ref sig .tc := ⟨.hbm, 501, rfl⟩
abbrev main_v394 : Ref sig .tc := ⟨.hbm, 502, rfl⟩
abbrev main_c_91 : Ref sig .tc := ⟨.hbm, 503, rfl⟩
abbrev main_v395 : Ref sig .tc := ⟨.hbm, 504, rfl⟩
abbrev main_v396 : Ref sig .tc := ⟨.hbm, 505, rfl⟩
abbrev main_c_92 : Ref sig .tc := ⟨.hbm, 506, rfl⟩
abbrev main_v397 : Ref sig .tc := ⟨.hbm, 507, rfl⟩
abbrev main_v398 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_v406 : Ref sig .tc := ⟨.hbm, 516, rfl⟩
abbrev main_cst_93 : Ref sig .tc := ⟨.hbm, 517, rfl⟩
abbrev main_v407 : Ref sig .tc := ⟨.hbm, 518, rfl⟩
abbrev main_v408 : Ref sig .tc := ⟨.hbm, 519, rfl⟩
abbrev main_v409 : Ref sig .tc := ⟨.hbm, 520, rfl⟩
abbrev main_cst_94 : Ref sig .tc := ⟨.hbm, 521, rfl⟩
abbrev main_v410 : Ref sig .tc := ⟨.hbm, 522, rfl⟩
abbrev main_v411 : Ref sig .tc := ⟨.hbm, 523, rfl⟩
abbrev main_cst_95 : Ref sig .tc := ⟨.hbm, 524, rfl⟩
abbrev main_v412 : Ref sig .tc := ⟨.hbm, 525, rfl⟩
abbrev main_v413 : Ref sig .tc := ⟨.hbm, 526, rfl⟩
abbrev main_v414 : Ref sig .tc := ⟨.hbm, 527, rfl⟩
abbrev main_c_96 : Ref sig .tc := ⟨.hbm, 528, rfl⟩
abbrev main_v415 : Ref sig .tc := ⟨.hbm, 529, rfl⟩
abbrev main_v416 : Ref sig .tc := ⟨.hbm, 530, rfl⟩
abbrev main_c_97 : Ref sig .tc := ⟨.hbm, 531, rfl⟩
abbrev main_v417 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_98 : Ref sig .tc := ⟨.hbm, 537, rfl⟩
abbrev main_v422 : Ref sig .tc := ⟨.hbm, 538, rfl⟩
abbrev main_v423 : Ref sig .tc := ⟨.hbm, 539, rfl⟩
abbrev main_c_99 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_c_100 : Ref sig .tc := ⟨.hbm, 547, rfl⟩
abbrev main_v430 : Ref sig .tc := ⟨.hbm, 548, rfl⟩
abbrev main_v431 : Ref sig .tc := ⟨.hbm, 549, rfl⟩
abbrev main_c_101 : Ref sig .tc := ⟨.hbm, 550, rfl⟩
abbrev main_v432 : Ref sig .tc := ⟨.hbm, 551, rfl⟩
abbrev main_v433 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_v438 : Ref sig .tc := ⟨.hbm, 557, rfl⟩
abbrev main_v439 : Ref sig .tc := ⟨.hbm, 558, rfl⟩
abbrev main_cst_102 : Ref sig .tc := ⟨.hbm, 559, rfl⟩
abbrev main_v440 : Ref sig .tc := ⟨.hbm, 560, rfl⟩
abbrev main_v441 : Ref sig .tc := ⟨.hbm, 561, rfl⟩
abbrev main_v442 : Ref sig .tc := ⟨.hbm, 562, rfl⟩
abbrev main_v443 : Ref sig .tc := ⟨.hbm, 563, rfl⟩
abbrev main_v444 : Ref sig .tc := ⟨.hbm, 564, rfl⟩
abbrev main_v445 : Ref sig .tc := ⟨.hbm, 565, rfl⟩
abbrev main_v446 : Ref sig .tc := ⟨.hbm, 566, rfl⟩
abbrev main_v447 : Ref sig .tc := ⟨.hbm, 567, rfl⟩
abbrev main_v448 : Ref sig .tc := ⟨.hbm, 568, rfl⟩
abbrev main_cst_103 : Ref sig .tc := ⟨.hbm, 569, rfl⟩
abbrev main_v449 : Ref sig .tc := ⟨.hbm, 570, rfl⟩
abbrev main_v450 : Ref sig .tc := ⟨.hbm, 571, rfl⟩
abbrev main_c_104 : Ref sig .tc := ⟨.hbm, 572, rfl⟩
abbrev main_v451 : Ref sig .tc := ⟨.hbm, 573, rfl⟩
abbrev main_v452 : Ref sig .tc := ⟨.hbm, 574, rfl⟩
abbrev main_c_105 : Ref sig .tc := ⟨.hbm, 575, rfl⟩
abbrev main_v453 : Ref sig .tc := ⟨.hbm, 576, rfl⟩
abbrev main_v454 : Ref sig .tc := ⟨.hbm, 577, rfl⟩
abbrev main_v455 : Ref sig .tc := ⟨.hbm, 578, rfl⟩
abbrev main_v456 : Ref sig .tc := ⟨.hbm, 579, rfl⟩
abbrev main_v457 : Ref sig .tc := ⟨.hbm, 580, rfl⟩
abbrev main_c_106 : Ref sig .tc := ⟨.hbm, 581, rfl⟩
abbrev main_v458 : Ref sig .tc := ⟨.hbm, 582, rfl⟩
abbrev main_v459 : Ref sig .tc := ⟨.hbm, 583, rfl⟩
abbrev main_c_107 : Ref sig .tc := ⟨.hbm, 584, rfl⟩
abbrev main_v460 : Ref sig .tc := ⟨.hbm, 585, rfl⟩
abbrev main_v461 : Ref sig .tc := ⟨.hbm, 586, rfl⟩
abbrev main_v462 : Ref sig .tc := ⟨.hbm, 587, rfl⟩
abbrev main_v463 : Ref sig .tc := ⟨.hbm, 588, rfl⟩
abbrev main_v464 : Ref sig .tc := ⟨.hbm, 589, rfl⟩
abbrev main_v465 : Ref sig .tc := ⟨.hbm, 590, rfl⟩
abbrev main_v466 : Ref sig .tc := ⟨.hbm, 591, rfl⟩
abbrev main_v467 : Ref sig .tc := ⟨.hbm, 592, rfl⟩
abbrev main_v468 : Ref sig .tc := ⟨.hbm, 593, rfl⟩
abbrev main_v469 : Ref sig .tc := ⟨.hbm, 594, rfl⟩
abbrev main_cst_108 : Ref sig .tc := ⟨.hbm, 595, rfl⟩
abbrev main_v470 : Ref sig .tc := ⟨.hbm, 596, rfl⟩
abbrev main_v471 : Ref sig .tc := ⟨.hbm, 597, rfl⟩
abbrev main_v472 : Ref sig .tc := ⟨.hbm, 598, rfl⟩
abbrev main_cst_109 : Ref sig .tc := ⟨.hbm, 599, rfl⟩
abbrev main_v473 : Ref sig .tc := ⟨.hbm, 600, rfl⟩
abbrev main_v474 : Ref sig .tc := ⟨.hbm, 601, rfl⟩
abbrev main_cst_110 : Ref sig .tc := ⟨.hbm, 602, rfl⟩
abbrev main_v475 : Ref sig .tc := ⟨.hbm, 603, rfl⟩
abbrev main_v476 : Ref sig .tc := ⟨.hbm, 604, rfl⟩
abbrev main_v477 : Ref sig .tc := ⟨.hbm, 605, rfl⟩
abbrev main_c_111 : Ref sig .tc := ⟨.hbm, 606, rfl⟩
abbrev main_v478 : Ref sig .tc := ⟨.hbm, 607, rfl⟩
abbrev main_v479 : Ref sig .tc := ⟨.hbm, 608, rfl⟩
abbrev main_c_112 : Ref sig .tc := ⟨.hbm, 609, rfl⟩
abbrev main_v480 : Ref sig .tc := ⟨.hbm, 610, rfl⟩
abbrev main_v481 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_c_113 : Ref sig .tc := ⟨.hbm, 615, rfl⟩
abbrev main_v485 : Ref sig .tc := ⟨.hbm, 616, rfl⟩
abbrev main_v486 : Ref sig .tc := ⟨.hbm, 617, rfl⟩
abbrev main_c_114 : Ref sig .tc := ⟨.hbm, 618, rfl⟩
abbrev main_v487 : Ref sig .tc := ⟨.hbm, 619, rfl⟩
abbrev main_v488 : Ref sig .tc := ⟨.hbm, 620, rfl⟩
abbrev main_v489 : Ref sig .tc := ⟨.hbm, 621, rfl⟩
abbrev main_v490 : Ref sig .tc := ⟨.hbm, 622, rfl⟩
abbrev main_v491 : Ref sig .tc := ⟨.hbm, 623, rfl⟩
abbrev main_v492 : Ref sig .tc := ⟨.hbm, 624, rfl⟩
abbrev main_c_115 : Ref sig .tc := ⟨.hbm, 625, rfl⟩
abbrev main_v493 : Ref sig .tc := ⟨.hbm, 626, rfl⟩
abbrev main_v494 : Ref sig .tc := ⟨.hbm, 627, rfl⟩
abbrev main_c_116 : Ref sig .tc := ⟨.hbm, 628, rfl⟩
abbrev main_v495 : Ref sig .tc := ⟨.hbm, 629, rfl⟩
abbrev main_v496 : Ref sig .tc := ⟨.hbm, 630, rfl⟩
abbrev main_v497 : Ref sig .tc := ⟨.hbm, 631, rfl⟩
abbrev main_v498 : Ref sig .tc := ⟨.hbm, 632, rfl⟩
abbrev main_v499 : Ref sig .tc := ⟨.hbm, 633, rfl⟩
abbrev main_v500 : Ref sig .tc := ⟨.hbm, 634, rfl⟩
abbrev main_v501 : Ref sig .tc := ⟨.hbm, 635, rfl⟩
abbrev main_v502 : Ref sig .tc := ⟨.hbm, 636, rfl⟩
abbrev main_cst_117 : Ref sig .tc := ⟨.hbm, 637, rfl⟩
abbrev main_v503 : Ref sig .tc := ⟨.hbm, 638, rfl⟩
abbrev main_v504 : Ref sig .tc := ⟨.hbm, 639, rfl⟩
abbrev main_v505 : Ref sig .tc := ⟨.hbm, 640, rfl⟩
abbrev main_v506 : Ref sig .tc := ⟨.hbm, 641, rfl⟩
abbrev main_v507 : Ref sig .tc := ⟨.hbm, 642, rfl⟩
abbrev main_v508 : Ref sig .tc := ⟨.hbm, 643, rfl⟩
abbrev main_v509 : Ref sig .tc := ⟨.hbm, 644, rfl⟩
abbrev main_v510 : Ref sig .tc := ⟨.hbm, 645, rfl⟩
abbrev main_v511 : Ref sig .tc := ⟨.hbm, 646, rfl⟩
abbrev main_cst_118 : Ref sig .tc := ⟨.hbm, 647, rfl⟩
abbrev main_v512 : Ref sig .tc := ⟨.hbm, 648, rfl⟩
abbrev main_v513 : Ref sig .tc := ⟨.hbm, 649, rfl⟩
abbrev main_c_119 : Ref sig .tc := ⟨.hbm, 650, rfl⟩
abbrev main_v514 : Ref sig .tc := ⟨.hbm, 651, rfl⟩
abbrev main_v515 : Ref sig .tc := ⟨.hbm, 652, rfl⟩
abbrev main_c_120 : Ref sig .tc := ⟨.hbm, 653, rfl⟩
abbrev main_v516 : Ref sig .tc := ⟨.hbm, 654, rfl⟩
abbrev main_v517 : Ref sig .tc := ⟨.hbm, 655, rfl⟩
abbrev main_v518 : Ref sig .tc := ⟨.hbm, 656, rfl⟩
abbrev main_v519 : Ref sig .tc := ⟨.hbm, 657, rfl⟩
abbrev main_v520 : Ref sig .tc := ⟨.hbm, 658, rfl⟩
abbrev main_c_121 : Ref sig .tc := ⟨.hbm, 659, rfl⟩
abbrev main_v521 : Ref sig .tc := ⟨.hbm, 660, rfl⟩
abbrev main_v522 : Ref sig .tc := ⟨.hbm, 661, rfl⟩
abbrev main_c_122 : Ref sig .tc := ⟨.hbm, 662, rfl⟩
abbrev main_v523 : Ref sig .tc := ⟨.hbm, 663, rfl⟩
abbrev main_v524 : Ref sig .tc := ⟨.hbm, 664, rfl⟩
abbrev main_v525 : Ref sig .tc := ⟨.hbm, 665, rfl⟩
abbrev main_v526 : Ref sig .tc := ⟨.hbm, 666, rfl⟩
abbrev main_v527 : Ref sig .tc := ⟨.hbm, 667, rfl⟩
abbrev main_v528 : Ref sig .tc := ⟨.hbm, 668, rfl⟩
abbrev main_v529 : Ref sig .tc := ⟨.hbm, 669, rfl⟩
abbrev main_v530 : Ref sig .tc := ⟨.hbm, 670, rfl⟩
abbrev main_v531 : Ref sig .tc := ⟨.hbm, 671, rfl⟩
abbrev main_v532 : Ref sig .tc := ⟨.hbm, 672, rfl⟩
abbrev main_cst_123 : Ref sig .tc := ⟨.hbm, 673, rfl⟩
abbrev main_v533 : Ref sig .tc := ⟨.hbm, 674, rfl⟩
abbrev main_v534 : Ref sig .tc := ⟨.hbm, 675, rfl⟩
abbrev main_v535 : Ref sig .tc := ⟨.hbm, 676, rfl⟩
abbrev main_cst_124 : Ref sig .tc := ⟨.hbm, 677, rfl⟩
abbrev main_v536 : Ref sig .tc := ⟨.hbm, 678, rfl⟩
abbrev main_v537 : Ref sig .tc := ⟨.hbm, 679, rfl⟩
abbrev main_cst_125 : Ref sig .tc := ⟨.hbm, 680, rfl⟩
abbrev main_v538 : Ref sig .tc := ⟨.hbm, 681, rfl⟩
abbrev main_v539 : Ref sig .tc := ⟨.hbm, 682, rfl⟩
abbrev main_v540 : Ref sig .tc := ⟨.hbm, 683, rfl⟩
abbrev main_c_126 : Ref sig .tc := ⟨.hbm, 684, rfl⟩
abbrev main_v541 : Ref sig .tc := ⟨.hbm, 685, rfl⟩
abbrev main_v542 : Ref sig .tc := ⟨.hbm, 686, rfl⟩
abbrev main_c_127 : Ref sig .tc := ⟨.hbm, 687, rfl⟩
abbrev main_v543 : Ref sig .tc := ⟨.hbm, 688, rfl⟩
abbrev main_v544 : Ref sig .tc := ⟨.hbm, 689, rfl⟩
abbrev main_v545 : Ref sig .tc := ⟨.hbm, 690, rfl⟩
abbrev main_v546 : Ref sig .tc := ⟨.hbm, 691, rfl⟩
abbrev main_v547 : Ref sig .tc := ⟨.hbm, 692, rfl⟩
abbrev main_c_128 : Ref sig .tc := ⟨.hbm, 693, rfl⟩
abbrev main_v548 : Ref sig .tc := ⟨.hbm, 694, rfl⟩
abbrev main_v549 : Ref sig .tc := ⟨.hbm, 695, rfl⟩
abbrev main_c_129 : Ref sig .tc := ⟨.hbm, 696, rfl⟩
abbrev main_v550 : Ref sig .tc := ⟨.hbm, 697, rfl⟩
abbrev main_v551 : Ref sig .tc := ⟨.hbm, 698, rfl⟩
abbrev main_v552 : Ref sig .tc := ⟨.hbm, 699, rfl⟩
abbrev main_v553 : Ref sig .tc := ⟨.hbm, 700, rfl⟩
abbrev main_v554 : Ref sig .tc := ⟨.hbm, 701, rfl⟩
abbrev main_v555 : Ref sig .tc := ⟨.hbm, 702, rfl⟩
abbrev main_c_130 : Ref sig .tc := ⟨.hbm, 703, rfl⟩
abbrev main_v556 : Ref sig .tc := ⟨.hbm, 704, rfl⟩
abbrev main_v557 : Ref sig .tc := ⟨.hbm, 705, rfl⟩
abbrev main_c_131 : Ref sig .tc := ⟨.hbm, 706, rfl⟩
abbrev main_v558 : Ref sig .tc := ⟨.hbm, 707, rfl⟩
abbrev main_v559 : Ref sig .tc := ⟨.hbm, 708, rfl⟩
abbrev main_v560 : Ref sig .tc := ⟨.hbm, 709, rfl⟩
abbrev main_v561 : Ref sig .tc := ⟨.hbm, 710, rfl⟩
abbrev main_v562 : Ref sig .tc := ⟨.hbm, 711, rfl⟩
abbrev main_v563 : Ref sig .tc := ⟨.hbm, 712, rfl⟩
abbrev main_v564 : Ref sig .tc := ⟨.hbm, 713, rfl⟩
abbrev main_v565 : Ref sig .tc := ⟨.hbm, 714, rfl⟩
abbrev main_cst_132 : Ref sig .tc := ⟨.hbm, 715, rfl⟩
abbrev main_v566 : Ref sig .tc := ⟨.hbm, 716, rfl⟩
abbrev main_v567 : Ref sig .tc := ⟨.hbm, 717, rfl⟩
abbrev main_v568 : Ref sig .tc := ⟨.hbm, 718, rfl⟩
abbrev main_v569 : Ref sig .tc := ⟨.hbm, 719, rfl⟩
abbrev main_v570 : Ref sig .tc := ⟨.hbm, 720, rfl⟩
abbrev main_v571 : Ref sig .tc := ⟨.hbm, 721, rfl⟩
abbrev main_v572 : Ref sig .tc := ⟨.hbm, 722, rfl⟩
abbrev main_v573 : Ref sig .tc := ⟨.hbm, 723, rfl⟩
abbrev main_v574 : Ref sig .tc := ⟨.hbm, 724, rfl⟩
abbrev main_cst_133 : Ref sig .tc := ⟨.hbm, 725, rfl⟩
abbrev main_v575 : Ref sig .tc := ⟨.hbm, 726, rfl⟩
abbrev main_v576 : Ref sig .tc := ⟨.hbm, 727, rfl⟩
abbrev main_v577 : Ref sig .tc := ⟨.hbm, 728, rfl⟩
abbrev main_cst_134 : Ref sig .tc := ⟨.hbm, 729, rfl⟩
abbrev main_v578 : Ref sig .tc := ⟨.hbm, 730, rfl⟩
abbrev main_cst_135 : Ref sig .tc := ⟨.hbm, 731, rfl⟩
abbrev main_v579 : Ref sig .tc := ⟨.hbm, 732, rfl⟩
abbrev main_v580 : Ref sig .tc := ⟨.hbm, 733, rfl⟩
abbrev main_v581 : Ref sig .tc := ⟨.hbm, 734, rfl⟩
abbrev main_cst_136 : Ref sig .tc := ⟨.hbm, 735, rfl⟩
abbrev main_v582 : Ref sig .tc := ⟨.hbm, 736, rfl⟩
abbrev main_v583 : Ref sig .tc := ⟨.hbm, 737, rfl⟩
abbrev main_v584 : Ref sig .tc := ⟨.hbm, 738, rfl⟩
abbrev main_v585 : Ref sig .tc := ⟨.hbm, 739, rfl⟩
abbrev main_v586 : Ref sig .tc := ⟨.hbm, 740, rfl⟩
abbrev main_v587 : Ref sig .tc := ⟨.hbm, 741, rfl⟩
abbrev main_v588 : Ref sig .tc := ⟨.hbm, 742, rfl⟩
abbrev main_v589 : Ref sig .tc := ⟨.hbm, 743, rfl⟩
abbrev main_v590 : Ref sig .tc := ⟨.hbm, 744, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg2_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg2_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg2_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg1_1 : Ref sig .tc := ⟨.vmem, 80, rfl⟩
abbrev cc10_stg2_0 : Ref sig .tc := ⟨.vmem, 81, rfl⟩
abbrev cc10_stg2_1 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg5_0 : Ref sig .tc := ⟨.vmem, 85, rfl⟩
abbrev cc10_stg5_1 : Ref sig .tc := ⟨.vmem, 86, rfl⟩
abbrev cc11_stg0_0 : Ref sig .tc := ⟨.vmem, 87, rfl⟩
abbrev cc11_stg0_1 : Ref sig .tc := ⟨.vmem, 88, rfl⟩
abbrev cc11_stg1_0 : Ref sig .tc := ⟨.vmem, 89, rfl⟩
abbrev cc11_stg2_0 : Ref sig .tc := ⟨.vmem, 90, rfl⟩
abbrev cc11_stg2_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg2_1 : Ref sig .tc := ⟨.vmem, 97, rfl⟩
abbrev cc12_stg3_0 : Ref sig .tc := ⟨.vmem, 98, rfl⟩
abbrev cc12_stg4_0 : Ref sig .tc := ⟨.vmem, 99, rfl⟩
abbrev cc12_stg5_0 : Ref sig .tc := ⟨.vmem, 100, rfl⟩
abbrev cc12_stg5_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg2_0 : Ref sig .tc := ⟨.vmem, 105, rfl⟩
abbrev cc13_stg2_1 : Ref sig .tc := ⟨.vmem, 106, rfl⟩
abbrev cc14_stg0_0 : Ref sig .tc := ⟨.vmem, 107, rfl⟩
abbrev cc14_stg0_1 : Ref sig .tc := ⟨.vmem, 108, rfl⟩
abbrev cc14_stg1_0 : Ref sig .tc := ⟨.vmem, 109, rfl⟩
abbrev cc14_stg1_1 : Ref sig .tc := ⟨.vmem, 110, rfl⟩
abbrev cc14_stg2_0 : Ref sig .tc := ⟨.vmem, 111, rfl⟩
abbrev cc14_stg2_1 : Ref sig .tc := ⟨.vmem, 112, rfl⟩
abbrev cc14_stg3_0 : Ref sig .tc := ⟨.vmem, 113, rfl⟩
abbrev cc14_stg4_0 : Ref sig .tc := ⟨.vmem, 114, rfl⟩
abbrev cc14_stg5_0 : Ref sig .tc := ⟨.vmem, 115, rfl⟩
abbrev cc14_stg5_1 : Ref sig .tc := ⟨.vmem, 116, rfl⟩
abbrev cc15_stg0_0 : Ref sig .tc := ⟨.vmem, 117, rfl⟩
abbrev cc15_stg0_1 : Ref sig .tc := ⟨.vmem, 118, rfl⟩
abbrev cc15_stg1_0 : Ref sig .tc := ⟨.vmem, 119, rfl⟩
abbrev cc15_stg2_0 : Ref sig .tc := ⟨.vmem, 120, rfl⟩
abbrev cc15_stg2_1 : Ref sig .tc := ⟨.vmem, 121, rfl⟩
abbrev cc16_stg0_0 : Ref sig .tc := ⟨.vmem, 122, rfl⟩
abbrev cc16_stg0_1 : Ref sig .tc := ⟨.vmem, 123, rfl⟩
abbrev cc16_stg1_0 : Ref sig .tc := ⟨.vmem, 124, rfl⟩
abbrev cc16_stg1_1 : Ref sig .tc := ⟨.vmem, 125, rfl⟩
abbrev cc16_stg2_0 : Ref sig .tc := ⟨.vmem, 126, rfl⟩
abbrev cc16_stg2_1 : Ref sig .tc := ⟨.vmem, 127, rfl⟩
abbrev cc16_stg3_0 : Ref sig .tc := ⟨.vmem, 128, rfl⟩
abbrev cc16_stg4_0 : Ref sig .tc := ⟨.vmem, 129, rfl⟩
abbrev cc16_stg5_0 : Ref sig .tc := ⟨.vmem, 130, rfl⟩
abbrev cc16_stg5_1 : Ref sig .tc := ⟨.vmem, 131, rfl⟩
abbrev cc17_stg0_0 : Ref sig .tc := ⟨.vmem, 132, rfl⟩
abbrev cc17_stg0_1 : Ref sig .tc := ⟨.vmem, 133, rfl⟩
abbrev cc17_stg1_0 : Ref sig .tc := ⟨.vmem, 134, rfl⟩
abbrev cc17_stg2_0 : Ref sig .tc := ⟨.vmem, 135, rfl⟩
abbrev cc17_stg2_1 : Ref sig .tc := ⟨.vmem, 136, rfl⟩
abbrev cc18_stg0_0 : Ref sig .tc := ⟨.vmem, 137, rfl⟩
abbrev cc18_stg0_1 : Ref sig .tc := ⟨.vmem, 138, rfl⟩
abbrev cc18_stg1_0 : Ref sig .tc := ⟨.vmem, 139, rfl⟩
abbrev cc18_stg1_1 : Ref sig .tc := ⟨.vmem, 140, rfl⟩
abbrev cc18_stg2_0 : Ref sig .tc := ⟨.vmem, 141, rfl⟩
abbrev cc18_stg2_1 : Ref sig .tc := ⟨.vmem, 142, rfl⟩
abbrev cc18_stg3_0 : Ref sig .tc := ⟨.vmem, 143, rfl⟩
abbrev cc18_stg4_0 : Ref sig .tc := ⟨.vmem, 144, rfl⟩
abbrev cc18_stg5_0 : Ref sig .tc := ⟨.vmem, 145, rfl⟩
abbrev cc18_stg5_1 : Ref sig .tc := ⟨.vmem, 146, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem2_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem5_0 : DmaSem sig := 55
abbrev cc6_sem5_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem2_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem2_1 : DmaSem sig := 76
abbrev cc10_sem0_0 : DmaSem sig := 77
abbrev cc10_sem0_1 : DmaSem sig := 78
abbrev cc10_sem1_0 : DmaSem sig := 79
abbrev cc10_sem1_1 : DmaSem sig := 80
abbrev cc10_sem2_0 : DmaSem sig := 81
abbrev cc10_sem2_1 : DmaSem sig := 82
abbrev cc10_sem3_0 : DmaSem sig := 83
abbrev cc10_sem4_0 : DmaSem sig := 84
abbrev cc10_sem5_0 : DmaSem sig := 85
abbrev cc10_sem5_1 : DmaSem sig := 86
abbrev cc11_sem0_0 : DmaSem sig := 87
abbrev cc11_sem0_1 : DmaSem sig := 88
abbrev cc11_sem1_0 : DmaSem sig := 89
abbrev cc11_sem2_0 : DmaSem sig := 90
abbrev cc11_sem2_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97
abbrev cc12_sem3_0 : DmaSem sig := 98
abbrev cc12_sem4_0 : DmaSem sig := 99
abbrev cc12_sem5_0 : DmaSem sig := 100
abbrev cc12_sem5_1 : DmaSem sig := 101
abbrev cc13_sem0_0 : DmaSem sig := 102
abbrev cc13_sem0_1 : DmaSem sig := 103
abbrev cc13_sem1_0 : DmaSem sig := 104
abbrev cc13_sem2_0 : DmaSem sig := 105
abbrev cc13_sem2_1 : DmaSem sig := 106
abbrev cc14_sem0_0 : DmaSem sig := 107
abbrev cc14_sem0_1 : DmaSem sig := 108
abbrev cc14_sem1_0 : DmaSem sig := 109
abbrev cc14_sem1_1 : DmaSem sig := 110
abbrev cc14_sem2_0 : DmaSem sig := 111
abbrev cc14_sem2_1 : DmaSem sig := 112
abbrev cc14_sem3_0 : DmaSem sig := 113
abbrev cc14_sem4_0 : DmaSem sig := 114
abbrev cc14_sem5_0 : DmaSem sig := 115
abbrev cc14_sem5_1 : DmaSem sig := 116
abbrev cc15_sem0_0 : DmaSem sig := 117
abbrev cc15_sem0_1 : DmaSem sig := 118
abbrev cc15_sem1_0 : DmaSem sig := 119
abbrev cc15_sem2_0 : DmaSem sig := 120
abbrev cc15_sem2_1 : DmaSem sig := 121
abbrev cc16_sem0_0 : DmaSem sig := 122
abbrev cc16_sem0_1 : DmaSem sig := 123
abbrev cc16_sem1_0 : DmaSem sig := 124
abbrev cc16_sem1_1 : DmaSem sig := 125
abbrev cc16_sem2_0 : DmaSem sig := 126
abbrev cc16_sem2_1 : DmaSem sig := 127
abbrev cc16_sem3_0 : DmaSem sig := 128
abbrev cc16_sem4_0 : DmaSem sig := 129
abbrev cc16_sem5_0 : DmaSem sig := 130
abbrev cc16_sem5_1 : DmaSem sig := 131
abbrev cc17_sem0_0 : DmaSem sig := 132
abbrev cc17_sem0_1 : DmaSem sig := 133
abbrev cc17_sem1_0 : DmaSem sig := 134
abbrev cc17_sem2_0 : DmaSem sig := 135
abbrev cc17_sem2_1 : DmaSem sig := 136
abbrev cc18_sem0_0 : DmaSem sig := 137
abbrev cc18_sem0_1 : DmaSem sig := 138
abbrev cc18_sem1_0 : DmaSem sig := 139
abbrev cc18_sem1_1 : DmaSem sig := 140
abbrev cc18_sem2_0 : DmaSem sig := 141
abbrev cc18_sem2_1 : DmaSem sig := 142
abbrev cc18_sem3_0 : DmaSem sig := 143
abbrev cc18_sem4_0 : DmaSem sig := 144
abbrev cc18_sem5_0 : DmaSem sig := 145
abbrev cc18_sem5_1 : DmaSem sig := 146

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x739 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S739x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S8000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S8000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S1000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S8000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S1000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![40], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S8000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S1000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x1 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S1000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![40], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S8000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S1000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S1000x64 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![40], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S8000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S8000x1 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S1000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1000x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S1000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x1 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S1000x64 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S64_S1x64 : S64.ShapeCasts S1x64
  shapeCasts_S1_S1x1 : S1.ShapeCasts S1x1
  inb_S1000x739_S1000x739_0_0 : ∀ a, (![0, 0] : Fin 2 → Nat) a + S1000x739.size a ≤ S1000x739.size a
  h_S1000x739 : 0 < S1000x739.numel
  bitsLt_bf16_f32 : FTy.bits .bf16 < FTy.bits .f32
  inb_S739x64_S739x64_0_0 : ∀ a, (![0, 0] : Fin 2 → Nat) a + S739x64.size a ≤ S739x64.size a
  h_S739x64 : 0 < S739x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  inb_S1000x64_S1000x64_0_0 : ∀ a, (![0, 0] : Fin 2 → Nat) a + S1000x64.size a ≤ S1000x64.size a
  h_S1000x64 : 0 < S1000x64.numel
  reduces_S1000x64_S1000 : S1000x64.Reduces [1] S1000
  shapeCasts_S1000_S1000x1 : S1000.ShapeCasts S1000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  broadcasts_S1000x1_S1000x64 : S1000x1.Broadcasts S1000x64
  bcast_S_S10000x64 : S_.BroadcastsInDim S10000x64 (![] : Fin 0 → Fin S10000x64.rank)
  bcast_S_S320000 : S_.BroadcastsInDim S320000 (![] : Fin 0 → Fin S320000.rank)
  bcast_S320000_S320000x1_0 : S320000.BroadcastsInDim S320000x1 (![0] : Fin 1 → Fin S320000x1.rank)
  slices_S9x1x64_S1x1x64_0_0_0 : S9x1x64.Slices ![0, 0, 0] S1x1x64
  shapeCasts_S1x1x64_S1x64 : S1x1x64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S320000x1_S320000 : S320000x1.ShapeCasts S320000
  bcast_S_S10000 : S_.BroadcastsInDim S10000 (![] : Fin 0 → Fin S10000.rank)
  shapeCasts_S10000_S10000x1 : S10000.ShapeCasts S10000x1
  bcast_S320000x1_S320000x64_0_1 : S320000x1.BroadcastsInDim S320000x64 (![0, 1] : Fin 2 → Fin S320000x64.rank)
  slices_S9x1x128_S1x1x128_0_0_0 : S9x1x128.Slices ![0, 0, 0] S1x1x128
  shapeCasts_S1x1x128_S1x128 : S1x1x128.ShapeCasts S1x128
  slices_S9x1_S1x1_0_0 : S9x1.Slices ![0, 0] S1x1
  shapeCasts_S1x1_S1 : S1x1.ShapeCasts S1
  shapeCasts_S1000x64_S1000x64 : S1000x64.ShapeCasts S1000x64
  concatenates_S1000x64_S1000x64_S1000x128_d1 : Shape.Concatenates [S1000x64, S1000x64] S1000x128 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  slices_S9x1x64_S1x1x64_1_0_0 : S9x1x64.Slices ![1, 0, 0] S1x1x64
  slices_S9x1x128_S1x1x128_1_0_0 : S9x1x128.Slices ![1, 0, 0] S1x1x128
  slices_S9x1_S1x1_1_0 : S9x1.Slices ![1, 0] S1x1
  slices_S9x1x64_S1x1x64_2_0_0 : S9x1x64.Slices ![2, 0, 0] S1x1x64
  slices_S9x1x128_S1x1x128_2_0_0 : S9x1x128.Slices ![2, 0, 0] S1x1x128
  slices_S9x1_S1x1_2_0 : S9x1.Slices ![2, 0] S1x1
  slices_S9x1x64_S1x1x64_3_0_0 : S9x1x64.Slices ![3, 0, 0] S1x1x64
  slices_S9x1x128_S1x1x128_3_0_0 : S9x1x128.Slices ![3, 0, 0] S1x1x128
  slices_S9x1_S1x1_3_0 : S9x1.Slices ![3, 0] S1x1
  slices_S9x1x64_S1x1x64_4_0_0 : S9x1x64.Slices ![4, 0, 0] S1x1x64
  slices_S9x1x128_S1x1x128_4_0_0 : S9x1x128.Slices ![4, 0, 0] S1x1x128
  slices_S9x1_S1x1_4_0 : S9x1.Slices ![4, 0] S1x1
  slices_S9x1x64_S1x1x64_5_0_0 : S9x1x64.Slices ![5, 0, 0] S1x1x64
  slices_S9x1x128_S1x1x128_5_0_0 : S9x1x128.Slices ![5, 0, 0] S1x1x128
  slices_S9x1_S1x1_5_0 : S9x1.Slices ![5, 0] S1x1
  slices_S9x1x64_S1x1x64_6_0_0 : S9x1x64.Slices ![6, 0, 0] S1x1x64
  slices_S9x1x128_S1x1x128_6_0_0 : S9x1x128.Slices ![6, 0, 0] S1x1x128
  slices_S9x1_S1x1_6_0 : S9x1.Slices ![6, 0] S1x1
  slices_S9x1x64_S1x1x64_7_0_0 : S9x1x64.Slices ![7, 0, 0] S1x1x64
  slices_S9x1x128_S1x1x128_7_0_0 : S9x1x128.Slices ![7, 0, 0] S1x1x128
  slices_S9x1_S1x1_7_0 : S9x1.Slices ![7, 0] S1x1
  slices_S9x1x64_S1x1x64_8_0_0 : S9x1x64.Slices ![8, 0, 0] S1x1x64
  slices_S9x1x128_S1x1x128_8_0_0 : S9x1x128.Slices ![8, 0, 0] S1x1x128
  slices_S9x1_S1x1_8_0 : S9x1.Slices ![8, 0] S1x1
  bcast_S_S64x64 : S_.BroadcastsInDim S64x64 (![] : Fin 0 → Fin S64x64.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S1000x739_S739x64_S1000x64_1_0_0_1_n_n_wf : DotDims.WF S1000x739 S739x64 S1000x64 [1] [0] [0] [1] [] []
  dot_S1000x64_S64x64_S1000x64_1_0_0_1_n_n_wf : DotDims.WF S1000x64 S64x64 S1000x64 [1] [0] [0] [1] [] []
  gather_S10000x64_S320000x1_S320000x64_1_0_n_n_0_1_164_wf : GatherDims.WF S10000x64 S320000x1 S320000x64 [1] [0] [] [0] [] 1 ![1, 64]
  scatter_S10000_S320000x1_S320000_n_0_0_1_wf : ScatterDims.WF S10000 S320000x1 S320000 [] [0] [0] 1
  gather_S10000x1_S320000x1_S320000x1_1_0_n_n_0_1_11_wf : GatherDims.WF S10000x1 S320000x1 S320000x1 [1] [0] [] [0] [] 1 ![1, 1]
  scatter_S10000x64_S320000x1_S320000x64_1_0_0_1_wf : ScatterDims.WF S10000x64 S320000x1 S320000x64 [1] [0] [0] 1
  scatter_S64x64_S10000x1_S10000x64_1_0_0_1_wf : ScatterDims.WF S64x64 S10000x1 S10000x64 [1] [0] [0] 1
  scatter_S64_S10000x1_S10000_n_0_0_1_wf : ScatterDims.WF S64 S10000x1 S10000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x739.size a ≤ S10000x739.size a
  hwx0_0 : ∀ i : grid0.Coords, EltTy.bits .f32 = 32 ∨ (Rect.block (s := S10000x739) S1000x739.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S739x64.size a ≤ S739x64.size a
  hwx0_1 : ∀ i : grid0.Coords, EltTy.bits .f32 = 32 ∨ (Rect.block (s := S739x64) S739x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S10000x64.size a
  hwx0_7 : ∀ i : grid0.Coords, EltTy.bits .f32 = 32 ∨ (Rect.block (s := S10000x64) S1000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x64.size a ≤ S10000x64.size a
  hwx0_8 : ∀ i : grid0.Coords, EltTy.bits .f32 = 32 ∨ (Rect.block (s := S10000x64) S1000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S320000x64.size a
  hwx1_0 : ∀ i : grid1.Coords, EltTy.bits .f32 = 32 ∨ (Rect.block (s := S320000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S320000x1.size a
  hwx1_2 : ∀ i : grid1.Coords, EltTy.bits .f32 = 32 ∨ (Rect.block (s := S320000x1) S8000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S10000x64.size a
  hwx2_0 : ∀ i : grid2.Coords, EltTy.bits .f32 = 32 ∨ (Rect.block (s := S10000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S10000x64.size a
  hwx2_1 : ∀ i : grid2.Coords, EltTy.bits .f32 = 32 ∨ (Rect.block (s := S10000x64) S1000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S10000x64.size a
  hwx2_2 : ∀ i : grid2.Coords, EltTy.bits .f32 = 32 ∨ (Rect.block (s := S10000x64) S1000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S10000x64.size a
  hwx2_5 : ∀ i : grid2.Coords, EltTy.bits .f32 = 32 ∨ (Rect.block (s := S10000x64) S1000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S320000x64.size a
  hwx3_0 : ∀ i : grid3.Coords, EltTy.bits .f32 = 32 ∨ (Rect.block (s := S320000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S320000x1.size a
  hwx3_2 : ∀ i : grid3.Coords, EltTy.bits .f32 = 32 ∨ (Rect.block (s := S320000x1) S8000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S10000x64.size a
  hwx4_0 : ∀ i : grid4.Coords, EltTy.bits .f32 = 32 ∨ (Rect.block (s := S10000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x64.size a ≤ S10000x64.size a
  hwx4_1 : ∀ i : grid4.Coords, EltTy.bits .f32 = 32 ∨ (Rect.block (s := S10000x64) S1000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x64.size a ≤ S10000x64.size a
  hwx4_2 : ∀ i : grid4.Coords, EltTy.bits .f32 = 32 ∨ (Rect.block (s := S10000x64) S1000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x64.size a ≤ S10000x64.size a
  hwx4_5 : ∀ i : grid4.Coords, EltTy.bits .f32 = 32 ∨ (Rect.block (s := S10000x64) S1000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S320000x64.size a
  hwx5_0 : ∀ i : grid5.Coords, EltTy.bits .f32 = 32 ∨ (Rect.block (s := S320000x64) S8000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S320000x1.size a
  hwx5_2 : ∀ i : grid5.Coords, EltTy.bits .f32 = 32 ∨ (Rect.block (s := S320000x1) S8000x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S10000x64.size a
  hwx6_0 : ∀ i : grid6.Coords, EltTy.bits .f32 = 32 ∨ (Rect.block (s := S10000x64) S1000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x64.size a ≤ S10000x64.size a
  hwx6_1 : ∀ i : grid6.Coords, EltTy.bits .f32 = 32 ∨ (Rect.block (s := S10000x64) S1000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x64.size a ≤ S10000x64.size a
  hwx6_2 : ∀ i : grid6.Coords, EltTy.bits .f32 = 32 ∨ (Rect.block (s := S10000x64) S1000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x64.size a ≤ S10000x64.size a
  hwx6_5 : ∀ i : grid6.Coords, EltTy.bits .f32 = 32 ∨ (Rect.block (s := S10000x64) S1000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S320000x64.size a
  hwx7_0 : ∀ i : grid7.Coords, EltTy.bits .f32 = 32 ∨ (Rect.block (s := S320000x64) S8000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x1.size a ≤ S320000x1.size a
  hwx7_2 : ∀ i : grid7.Coords, EltTy.bits .f32 = 32 ∨ (Rect.block (s := S320000x1) S8000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x64.size a ≤ S10000x64.size a
  hwx8_0 : ∀ i : grid8.Coords, EltTy.bits .f32 = 32 ∨ (Rect.block (s := S10000x64) S1000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x64.size a ≤ S10000x64.size a
  hwx8_1 : ∀ i : grid8.Coords, EltTy.bits .f32 = 32 ∨ (Rect.block (s := S10000x64) S1000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x64.size a ≤ S10000x64.size a
  hwx8_2 : ∀ i : grid8.Coords, EltTy.bits .f32 = 32 ∨ (Rect.block (s := S10000x64) S1000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x64.size a ≤ S10000x64.size a
  hwx8_5 : ∀ i : grid8.Coords, EltTy.bits .f32 = 32 ∨ (Rect.block (s := S10000x64) S1000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S320000x64.size a
  hwx9_0 : ∀ i : grid9.Coords, EltTy.bits .f32 = 32 ∨ (Rect.block (s := S320000x64) S8000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x1.size a ≤ S320000x1.size a
  hwx9_2 : ∀ i : grid9.Coords, EltTy.bits .f32 = 32 ∨ (Rect.block (s := S320000x1) S8000x1.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x64.size a ≤ S10000x64.size a
  hwx10_0 : ∀ i : grid10.Coords, EltTy.bits .f32 = 32 ∨ (Rect.block (s := S10000x64) S1000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1000x64.size a ≤ S10000x64.size a
  hwx10_1 : ∀ i : grid10.Coords, EltTy.bits .f32 = 32 ∨ (Rect.block (s := S10000x64) S1000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x64.size a ≤ S10000x64.size a
  hwx10_2 : ∀ i : grid10.Coords, EltTy.bits .f32 = 32 ∨ (Rect.block (s := S10000x64) S1000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1000x64.size a ≤ S10000x64.size a
  hwx10_5 : ∀ i : grid10.Coords, EltTy.bits .f32 = 32 ∨ (Rect.block (s := S10000x64) S1000x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x64.size a ≤ S320000x64.size a
  hwx11_0 : ∀ i : grid11.Coords, EltTy.bits .f32 = 32 ∨ (Rect.block (s := S320000x64) S8000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8000x1.size a ≤ S320000x1.size a
  hwx11_2 : ∀ i : grid11.Coords, EltTy.bits .f32 = 32 ∨ (Rect.block (s := S320000x1) S8000x1.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x64.size a ≤ S10000x64.size a
  hwx12_0 : ∀ i : grid12.Coords, EltTy.bits .f32 = 32 ∨ (Rect.block (s := S10000x64) S1000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1000x64.size a ≤ S10000x64.size a
  hwx12_1 : ∀ i : grid12.Coords, EltTy.bits .f32 = 32 ∨ (Rect.block (s := S10000x64) S1000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1000x64.size a ≤ S10000x64.size a
  hwx12_2 : ∀ i : grid12.Coords, EltTy.bits .f32 = 32 ∨ (Rect.block (s := S10000x64) S1000x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1.size a ≤ S1x1.size a
  hwx12_4 : ∀ i : grid12.Coords, EltTy.bits .f32 = 32 ∨ (Rect.block (s := S1x1) S1x1.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1000x64.size a ≤ S10000x64.size a
  hwx12_5 : ∀ i : grid12.Coords, EltTy.bits .f32 = 32 ∨ (Rect.block (s := S10000x64) S1000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x64.size a ≤ S320000x64.size a
  hwx13_0 : ∀ i : grid13.Coords, EltTy.bits .f32 = 32 ∨ (Rect.block (s := S320000x64) S8000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8000x1.size a ≤ S320000x1.size a
  hwx13_2 : ∀ i : grid13.Coords, EltTy.bits .f32 = 32 ∨ (Rect.block (s := S320000x1) S8000x1.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1000x64.size a ≤ S10000x64.size a
  hwx14_0 : ∀ i : grid14.Coords, EltTy.bits .f32 = 32 ∨ (Rect.block (s := S10000x64) S1000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1000x64.size a ≤ S10000x64.size a
  hwx14_1 : ∀ i : grid14.Coords, EltTy.bits .f32 = 32 ∨ (Rect.block (s := S10000x64) S1000x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1000x64.size a ≤ S10000x64.size a
  hwx14_2 : ∀ i : grid14.Coords, EltTy.bits .f32 = 32 ∨ (Rect.block (s := S10000x64) S1000x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x1.size a ≤ S1x1.size a
  hwx14_4 : ∀ i : grid14.Coords, EltTy.bits .f32 = 32 ∨ (Rect.block (s := S1x1) S1x1.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S1000x64.size a ≤ S10000x64.size a
  hwx14_5 : ∀ i : grid14.Coords, EltTy.bits .f32 = 32 ∨ (Rect.block (s := S10000x64) S1000x64.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8000x64.size a ≤ S320000x64.size a
  hwx15_0 : ∀ i : grid15.Coords, EltTy.bits .f32 = 32 ∨ (Rect.block (s := S320000x64) S8000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8000x1.size a ≤ S320000x1.size a
  hwx15_2 : ∀ i : grid15.Coords, EltTy.bits .f32 = 32 ∨ (Rect.block (s := S320000x1) S8000x1.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1000x64.size a ≤ S10000x64.size a
  hwx16_0 : ∀ i : grid16.Coords, EltTy.bits .f32 = 32 ∨ (Rect.block (s := S10000x64) S1000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1000x64.size a ≤ S10000x64.size a
  hwx16_1 : ∀ i : grid16.Coords, EltTy.bits .f32 = 32 ∨ (Rect.block (s := S10000x64) S1000x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1000x64.size a ≤ S10000x64.size a
  hwx16_2 : ∀ i : grid16.Coords, EltTy.bits .f32 = 32 ∨ (Rect.block (s := S10000x64) S1000x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x1.size a ≤ S1x1.size a
  hwx16_4 : ∀ i : grid16.Coords, EltTy.bits .f32 = 32 ∨ (Rect.block (s := S1x1) S1x1.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S1000x64.size a ≤ S10000x64.size a
  hwx16_5 : ∀ i : grid16.Coords, EltTy.bits .f32 = 32 ∨ (Rect.block (s := S10000x64) S1000x64.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8000x64.size a ≤ S320000x64.size a
  hwx17_0 : ∀ i : grid17.Coords, EltTy.bits .f32 = 32 ∨ (Rect.block (s := S320000x64) S8000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x64.size a ≤ S1x64.size a
  hwx17_1 : ∀ i : grid17.Coords, EltTy.bits .f32 = 32 ∨ (Rect.block (s := S1x64) S1x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S8000x1.size a ≤ S320000x1.size a
  hwx17_2 : ∀ i : grid17.Coords, EltTy.bits .f32 = 32 ∨ (Rect.block (s := S320000x1) S8000x1.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1000x64.size a ≤ S10000x64.size a
  hwx18_0 : ∀ i : grid18.Coords, EltTy.bits .f32 = 32 ∨ (Rect.block (s := S10000x64) S1000x64.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1000x64.size a ≤ S10000x64.size a
  hwx18_1 : ∀ i : grid18.Coords, EltTy.bits .f32 = 32 ∨ (Rect.block (s := S10000x64) S1000x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1000x64.size a ≤ S10000x64.size a
  hwx18_2 : ∀ i : grid18.Coords, EltTy.bits .f32 = 32 ∨ (Rect.block (s := S10000x64) S1000x64.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x1.size a ≤ S1x1.size a
  hwx18_4 : ∀ i : grid18.Coords, EltTy.bits .f32 = 32 ∨ (Rect.block (s := S1x1) S1x1.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S1000x64.size a ≤ S10000x64.size a
  hwx18_5 : ∀ i : grid18.Coords, EltTy.bits .f32 = 32 ∨ (Rect.block (s := S10000x64) S1000x64.size (cc18_transform_5 i) (hinb18_5 i)).WholeWords (EltTy.packing .f32)

variable [Facts₀]

def dot_S1000x739_S739x64_S1000x64_1_0_0_1_n_n : DotDims S1000x739 S739x64 S1000x64 where
  lhsContracting := [1]
  rhsContracting := [0]
  lhsNonContracting := [0]
  rhsNonContracting := [1]
  lhsBatch := []
  rhsBatch := []
  wf := dot_S1000x739_S739x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def scatter_S64x64_S10000x1_S10000x64_1_0_0_1 : ScatterDims S64x64 S10000x1 S10000x64 where
  updateWindowDims := [1]
  insertedWindowDims := [0]
  scatterDimsToOperandDims := [0]
  indexVectorDim := 1
  wf := scatter_S64x64_S10000x1_S10000x64_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S1000x739.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S739x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S8000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S1000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v87) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S8000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v127) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v129) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v132) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v133) S1000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v150) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v152) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v153) S8000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v190) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v133) S1000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v135) S1000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v192) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v195) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v196) S1000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v213) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v215) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v216) S8000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v253) S1000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v196) S1000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v198) S1000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v255) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v258) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v259) S1000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v276) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v278) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v279) S8000x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v316) S1000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v259) S1000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v261) S1000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v318) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v321) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v322) S1000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v339) S8000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v341) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v342) S8000x1.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v379) S1000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v322) S1000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v324) S1000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v381) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v384) S1x1.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v385) S1000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v402) S8000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v404) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v405) S8000x1.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v442) S1000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v385) S1000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v387) S1000x64.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v444) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v447) S1x1.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v448) S1000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v465) S8000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v467) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v468) S8000x1.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v505) S1000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v448) S1000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v450) S1000x64.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v507) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v510) S1x1.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v511) S1000x64.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v528) S8000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v530) S1x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v531) S8000x1.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v568) S1000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v511) S1000x64.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v513) S1000x64.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v570) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v573) S1x1.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v574) S1000x64.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

class Facts : Prop extends Facts₀ where

variable [Facts]
-- ==== ReferenceIdeal.lean ====
abbrev S10000x739 : Shape := ⟨2, ![10000, 739]⟩
abbrev S2x320000 : Shape := ⟨2, ![2, 320000]⟩
abbrev S10000 : Shape := ⟨1, ![10000]⟩
abbrev S739x64 : Shape := ⟨2, ![739, 64]⟩
abbrev S64 : Shape := ⟨1, ![64]⟩
abbrev S64x64 : Shape := ⟨2, ![64, 64]⟩
abbrev S9x1x64 : Shape := ⟨3, ![9, 1, 64]⟩
abbrev S1x64 : Shape := ⟨2, ![1, 64]⟩
abbrev S1 : Shape := ⟨1, ![1]⟩
abbrev S9x1x128 : Shape := ⟨3, ![9, 1, 128]⟩
abbrev S9x1 : Shape := ⟨2, ![9, 1]⟩
abbrev S64x1 : Shape := ⟨2, ![64, 1]⟩
abbrev S1x320000 : Shape := ⟨2, ![1, 320000]⟩
abbrev S320000 : Shape := ⟨1, ![320000]⟩
abbrev S10000x64 : Shape := ⟨2, ![10000, 64]⟩
abbrev S_ : Shape := ⟨0, ![]⟩
abbrev S10000x1x64 : Shape := ⟨3, ![10000, 1, 64]⟩
abbrev S1x1x64 : Shape := ⟨3, ![1, 1, 64]⟩
abbrev S10000x1 : Shape := ⟨2, ![10000, 1]⟩
abbrev S1x1 : Shape := ⟨2, ![1, 1]⟩
abbrev S10000x1x1 : Shape := ⟨3, ![10000, 1, 1]⟩
abbrev S320000x1 : Shape := ⟨2, ![320000, 1]⟩
abbrev S320000x1x64 : Shape := ⟨3, ![320000, 1, 64]⟩
abbrev S320000x1x1 : Shape := ⟨3, ![320000, 1, 1]⟩
abbrev S320000x64 : Shape := ⟨2, ![320000, 64]⟩
abbrev S10000x1x128 : Shape := ⟨3, ![10000, 1, 128]⟩
abbrev S1x1x128 : Shape := ⟨3, ![1, 1, 128]⟩
abbrev S1x128 : Shape := ⟨2, ![1, 128]⟩

abbrev nBuf : Space → Nat
  | .hbm => 1382
  | .vmem => 0
  | .smem => 0
  | _ => 0

abbrev hbmTy0_0 (i : Nat) : BufTy := match i % 128 with
  | 0 => ⟨S10000x739, .f32⟩
  | 1 => ⟨S2x320000, .i32⟩
  | 2 => ⟨S10000, .i32⟩
  | 3 => ⟨S739x64, .f32⟩
  | 4 => ⟨S64, .f32⟩
  | 5 => ⟨S64x64, .f32⟩
  | 6 => ⟨S64, .f32⟩
  | 7 => ⟨S9x1x64, .f32⟩
  | 8 => ⟨S1x64, .f32⟩
  | 9 => ⟨S1, .f32⟩
  | 10 => ⟨S9x1x128, .f32⟩
  | 11 => ⟨S9x1, .f32⟩
  | 12 => ⟨S64x1, .f32⟩
  | 13 => ⟨S1, .f32⟩
  | 14 => ⟨S1x320000, .i32⟩
  | 15 => ⟨S320000, .i32⟩
  | 16 => ⟨S1x320000, .i32⟩
  | 17 => ⟨S320000, .i32⟩
  | 18 => ⟨S10000x64, .f32⟩
  | 19 => ⟨S1x64, .f32⟩
  | 20 => ⟨S10000x64, .f32⟩
  | 21 => ⟨S10000x64, .f32⟩
  | 22 => ⟨S_, .f32⟩
  | 23 => ⟨S10000x64, .f32⟩
  | 24 => ⟨S10000x64, .i1⟩
  | 25 => ⟨S_, .f32⟩
  | 26 => ⟨S10000x64, .f32⟩
  | 27 => ⟨S10000x64, .i1⟩
  | 28 => ⟨S_, .f32⟩
  | 29 => ⟨S_, .f32⟩
  | 30 => ⟨S10000x64, .f32⟩
  | 31 => ⟨S10000x64, .f32⟩
  | 32 => ⟨S10000x64, .f32⟩
  | 33 => ⟨S_, .f32⟩
  | 34 => ⟨S10000x64, .f32⟩
  | 35 => ⟨S10000x64, .f32⟩
  | 36 => ⟨S10000x64, .f32⟩
  | 37 => ⟨S10000x64, .f32⟩
  | 38 => ⟨S1x64, .f32⟩
  | 39 => ⟨S10000x64, .f32⟩
  | 40 => ⟨S10000x64, .f32⟩
  | 41 => ⟨S10000x1x64, .f32⟩
  | 42 => ⟨S_, .f32⟩
  | 43 => ⟨S10000x1x64, .f32⟩
  | 44 => ⟨S10000x1x64, .i1⟩
  | 45 => ⟨S_, .f32⟩
  | 46 => ⟨S10000x1x64, .f32⟩
  | 47 => ⟨S10000x1x64, .i1⟩
  | 48 => ⟨S_, .f32⟩
  | 49 => ⟨S_, .f32⟩
  | 50 => ⟨S10000x1x64, .f32⟩
  | 51 => ⟨S10000x1x64, .f32⟩
  | 52 => ⟨S10000x1x64, .f32⟩
  | 53 => ⟨S_, .f32⟩
  | 54 => ⟨S10000x1x64, .f32⟩
  | 55 => ⟨S10000x1x64, .f32⟩
  | 56 => ⟨S10000x1x64, .f32⟩
  | 57 => ⟨S1x1x64, .f32⟩
  | 58 => ⟨S10000x1x64, .f32⟩
  | 59 => ⟨S10000x1x64, .f32⟩
  | 60 => ⟨S_, .f32⟩
  | 61 => ⟨S10000x1, .f32⟩
  | 62 => ⟨S1x1, .f32⟩
  | 63 => ⟨S10000x1, .f32⟩
  | 64 => ⟨S10000x1, .f32⟩
  | 65 => ⟨S10000x1x1, .f32⟩
  | 66 => ⟨S10000x1x64, .f32⟩
  | 67 => ⟨S10000x1x64, .f32⟩
  | 68 => ⟨S_, .f32⟩
  | 69 => ⟨S10000x1x64, .f32⟩
  | 70 => ⟨S10000x1x64, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x1x64, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x1x64, .f32⟩
  | 89 => ⟨S320000x1x64, .f32⟩
  | 90 => ⟨S_, .f32⟩
  | 91 => ⟨S320000x1x64, .f32⟩
  | 92 => ⟨S320000x1x64, .i1⟩
  | 93 => ⟨S_, .f32⟩
  | 94 => ⟨S320000x1x64, .f32⟩
  | 95 => ⟨S320000x1x64, .i1⟩
  | 96 => ⟨S_, .f32⟩
  | 97 => ⟨S_, .f32⟩
  | 98 => ⟨S320000x1x64, .f32⟩
  | 99 => ⟨S320000x1x64, .f32⟩
  | 100 => ⟨S320000x1x64, .f32⟩
  | 101 => ⟨S_, .f32⟩
  | 102 => ⟨S320000x1x64, .f32⟩
  | 103 => ⟨S320000x1x64, .f32⟩
  | 104 => ⟨S320000x1x64, .f32⟩
  | 105 => ⟨S1x1x64, .f32⟩
  | 106 => ⟨S1x64, .f32⟩
  | 107 => ⟨S1x1x64, .f32⟩
  | 108 => ⟨S320000x1x64, .f32⟩
  | 109 => ⟨S320000x1x64, .f32⟩
  | 110 => ⟨S_, .f32⟩
  | 111 => ⟨S320000x1, .f32⟩
  | 112 => ⟨S_, .f32⟩
  | 113 => ⟨S320000x1, .f32⟩
  | 114 => ⟨S320000x1, .f32⟩
  | 115 => ⟨S320000x1, .f32⟩
  | 116 => ⟨S320000x1, .f32⟩
  | 117 => ⟨S320000x1, .i1⟩
  | 118 => ⟨S320000x1, .f32⟩
  | 119 => ⟨S320000x1, .f32⟩
  | 120 => ⟨S320000x1, .f32⟩
  | 121 => ⟨S320000x1, .f32⟩
  | 122 => ⟨S320000x1, .f32⟩
  | 123 => ⟨S320000x1, .f32⟩
  | 124 => ⟨S320000x1, .f32⟩
  | 125 => ⟨S320000x1, .f32⟩
  | 126 => ⟨S_, .f32⟩
  | 127 => ⟨S320000x1, .f32⟩
  | _ => ⟨S10000x739, .f32⟩

abbrev hbmTy0_1 (i : Nat) : BufTy := match i % 128 with
  | 0 => ⟨S320000x1, .f32⟩
  | 1 => ⟨S_, .f32⟩
  | 2 => ⟨S10000x1, .f32⟩
  | 3 => ⟨S320000x1, .i32⟩
  | 4 => ⟨S10000x1, .f32⟩
  | 5 => ⟨S_, .f32⟩
  | 6 => ⟨S10000x1, .f32⟩
  | 7 => ⟨S10000x1, .f32⟩
  | 8 => ⟨S_, .f32⟩
  | 9 => ⟨S10000x1, .f32⟩
  | 10 => ⟨S10000x1, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x1, .f32⟩
  | 20 => ⟨S320000x1, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x1, .f32⟩
  | 30 => ⟨S320000x1, .f32⟩
  | 31 => ⟨S320000x1x1, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x64, .f32⟩
  | 41 => ⟨S320000x1x64, .f32⟩
  | 42 => ⟨S320000x1x64, .f32⟩
  | 43 => ⟨S320000x1x64, .f32⟩
  | 44 => ⟨S_, .f32⟩
  | 45 => ⟨S10000x1x64, .f32⟩
  | 46 => ⟨S320000x1, .i32⟩
  | 47 => ⟨S10000x1x64, .f32⟩
  | 48 => ⟨S10000x64, .f32⟩
  | 49 => ⟨S10000x1x64, .f32⟩
  | 50 => ⟨S10000x1x128, .f32⟩
  | 51 => ⟨S1x1x128, .f32⟩
  | 52 => ⟨S1x128, .f32⟩
  | 53 => ⟨S_, .f32⟩
  | 54 => ⟨S10000x1x128, .f32⟩
  | 55 => ⟨S10000x1x128, .i1⟩
  | 56 => ⟨S_, .f32⟩
  | 57 => ⟨S10000x1x128, .f32⟩
  | 58 => ⟨S10000x1x128, .i1⟩
  | 59 => ⟨S_, .f32⟩
  | 60 => ⟨S_, .f32⟩
  | 61 => ⟨S10000x1x128, .f32⟩
  | 62 => ⟨S10000x1x128, .f32⟩
  | 63 => ⟨S10000x1x128, .f32⟩
  | 64 => ⟨S_, .f32⟩
  | 65 => ⟨S10000x1x128, .f32⟩
  | 66 => ⟨S10000x1x128, .f32⟩
  | 67 => ⟨S10000x1x128, .f32⟩
  | 68 => ⟨S1x1x128, .f32⟩
  | 69 => ⟨S10000x1x128, .f32⟩
  | 70 => ⟨S10000x1x128, .f32⟩
  | 71 => ⟨S_, .f32⟩
  | 72 => ⟨S10000x1, .f32⟩
  | 73 => ⟨S1x1, .f32⟩
  | 74 => ⟨S1, .f32⟩
  | 75 => ⟨S1x1, .f32⟩
  | 76 => ⟨S10000x1, .f32⟩
  | 77 => ⟨S10000x1, .f32⟩
  | 78 => ⟨S10000x1x1, .f32⟩
  | 79 => ⟨S10000x1x64, .f32⟩
  | 80 => ⟨S10000x1x64, .f32⟩
  | 81 => ⟨S10000x1x64, .f32⟩
  | 82 => ⟨S_, .f32⟩
  | 83 => ⟨S10000x1x64, .f32⟩
  | 84 => ⟨S10000x1x64, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x1x64, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x1x64, .f32⟩
  | 103 => ⟨S320000x1x64, .f32⟩
  | 104 => ⟨S_, .f32⟩
  | 105 => ⟨S320000x1x64, .f32⟩
  | 106 => ⟨S320000x1x64, .i1⟩
  | 107 => ⟨S_, .f32⟩
  | 108 => ⟨S320000x1x64, .f32⟩
  | 109 => ⟨S320000x1x64, .i1⟩
  | 110 => ⟨S_, .f32⟩
  | 111 => ⟨S_, .f32⟩
  | 112 => ⟨S320000x1x64, .f32⟩
  | 113 => ⟨S320000x1x64, .f32⟩
  | 114 => ⟨S320000x1x64, .f32⟩
  | 115 => ⟨S_, .f32⟩
  | 116 => ⟨S320000x1x64, .f32⟩
  | 117 => ⟨S320000x1x64, .f32⟩
  | 118 => ⟨S320000x1x64, .f32⟩
  | 119 => ⟨S1x1x64, .f32⟩
  | 120 => ⟨S1x64, .f32⟩
  | 121 => ⟨S1x1x64, .f32⟩
  | 122 => ⟨S320000x1x64, .f32⟩
  | 123 => ⟨S320000x1x64, .f32⟩
  | 124 => ⟨S_, .f32⟩
  | 125 => ⟨S320000x1, .f32⟩
  | 126 => ⟨S_, .f32⟩
  | 127 => ⟨S320000x1, .f32⟩
  | _ => ⟨S10000x739, .f32⟩

abbrev hbmTy0_2 (i : Nat) : BufTy := match i % 128 with
  | 0 => ⟨S320000x1, .f32⟩
  | 1 => ⟨S320000x1, .f32⟩
  | 2 => ⟨S320000x1, .f32⟩
  | 3 => ⟨S320000x1, .i1⟩
  | 4 => ⟨S320000x1, .f32⟩
  | 5 => ⟨S320000x1, .f32⟩
  | 6 => ⟨S320000x1, .f32⟩
  | 7 => ⟨S320000x1, .f32⟩
  | 8 => ⟨S320000x1, .f32⟩
  | 9 => ⟨S320000x1, .f32⟩
  | 10 => ⟨S320000x1, .f32⟩
  | 11 => ⟨S320000x1, .f32⟩
  | 12 => ⟨S_, .f32⟩
  | 13 => ⟨S320000x1, .f32⟩
  | 14 => ⟨S320000x1, .f32⟩
  | 15 => ⟨S_, .f32⟩
  | 16 => ⟨S10000x1, .f32⟩
  | 17 => ⟨S320000x1, .i32⟩
  | 18 => ⟨S10000x1, .f32⟩
  | 19 => ⟨S_, .f32⟩
  | 20 => ⟨S10000x1, .f32⟩
  | 21 => ⟨S10000x1, .f32⟩
  | 22 => ⟨S_, .f32⟩
  | 23 => ⟨S10000x1, .f32⟩
  | 24 => ⟨S10000x1, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x1, .f32⟩
  | 34 => ⟨S320000x1, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x1, .f32⟩
  | 44 => ⟨S320000x1, .f32⟩
  | 45 => ⟨S320000x1x1, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000x64, .f32⟩
  | 55 => ⟨S320000x1x64, .f32⟩
  | 56 => ⟨S320000x1x64, .f32⟩
  | 57 => ⟨S320000x1x64, .f32⟩
  | 58 => ⟨S_, .f32⟩
  | 59 => ⟨S10000x1x64, .f32⟩
  | 60 => ⟨S320000x1, .i32⟩
  | 61 => ⟨S10000x1x64, .f32⟩
  | 62 => ⟨S10000x64, .f32⟩
  | 63 => ⟨S10000x1x64, .f32⟩
  | 64 => ⟨S10000x1x128, .f32⟩
  | 65 => ⟨S1x1x128, .f32⟩
  | 66 => ⟨S1x128, .f32⟩
  | 67 => ⟨S_, .f32⟩
  | 68 => ⟨S10000x1x128, .f32⟩
  | 69 => ⟨S10000x1x128, .i1⟩
  | 70 => ⟨S_, .f32⟩
  | 71 => ⟨S10000x1x128, .f32⟩
  | 72 => ⟨S10000x1x128, .i1⟩
  | 73 => ⟨S_, .f32⟩
  | 74 => ⟨S_, .f32⟩
  | 75 => ⟨S10000x1x128, .f32⟩
  | 76 => ⟨S10000x1x128, .f32⟩
  | 77 => ⟨S10000x1x128, .f32⟩
  | 78 => ⟨S_, .f32⟩
  | 79 => ⟨S10000x1x128, .f32⟩
  | 80 => ⟨S10000x1x128, .f32⟩
  | 81 => ⟨S10000x1x128, .f32⟩
  | 82 => ⟨S1x1x128, .f32⟩
  | 83 => ⟨S10000x1x128, .f32⟩
  | 84 => ⟨S10000x1x128, .f32⟩
  | 85 => ⟨S_, .f32⟩
  | 86 => ⟨S10000x1, .f32⟩
  | 87 => ⟨S1x1, .f32⟩
  | 88 => ⟨S1, .f32⟩
  | 89 => ⟨S1x1, .f32⟩
  | 90 => ⟨S10000x1, .f32⟩
  | 91 => ⟨S10000x1, .f32⟩
  | 92 => ⟨S10000x1x1, .f32⟩
  | 93 => ⟨S10000x1x64, .f32⟩
  | 94 => ⟨S10000x1x64, .f32⟩
  | 95 => ⟨S10000x1x64, .f32⟩
  | 96 => ⟨S_, .f32⟩
  | 97 => ⟨S10000x1x64, .f32⟩
  | 98 => ⟨S10000x1x64, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x1x64, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x1x64, .f32⟩
  | 117 => ⟨S320000x1x64, .f32⟩
  | 118 => ⟨S_, .f32⟩
  | 119 => ⟨S320000x1x64, .f32⟩
  | 120 => ⟨S320000x1x64, .i1⟩
  | 121 => ⟨S_, .f32⟩
  | 122 => ⟨S320000x1x64, .f32⟩
  | 123 => ⟨S320000x1x64, .i1⟩
  | 124 => ⟨S_, .f32⟩
  | 125 => ⟨S_, .f32⟩
  | 126 => ⟨S320000x1x64, .f32⟩
  | 127 => ⟨S320000x1x64, .f32⟩
  | _ => ⟨S10000x739, .f32⟩

abbrev hbmTy0_3 (i : Nat) : BufTy := match i % 128 with
  | 0 => ⟨S320000x1x64, .f32⟩
  | 1 => ⟨S_, .f32⟩
  | 2 => ⟨S320000x1x64, .f32⟩
  | 3 => ⟨S320000x1x64, .f32⟩
  | 4 => ⟨S320000x1x64, .f32⟩
  | 5 => ⟨S1x1x64, .f32⟩
  | 6 => ⟨S1x64, .f32⟩
  | 7 => ⟨S1x1x64, .f32⟩
  | 8 => ⟨S320000x1x64, .f32⟩
  | 9 => ⟨S320000x1x64, .f32⟩
  | 10 => ⟨S_, .f32⟩
  | 11 => ⟨S320000x1, .f32⟩
  | 12 => ⟨S_, .f32⟩
  | 13 => ⟨S320000x1, .f32⟩
  | 14 => ⟨S320000x1, .f32⟩
  | 15 => ⟨S320000x1, .f32⟩
  | 16 => ⟨S320000x1, .f32⟩
  | 17 => ⟨S320000x1, .i1⟩
  | 18 => ⟨S320000x1, .f32⟩
  | 19 => ⟨S320000x1, .f32⟩
  | 20 => ⟨S320000x1, .f32⟩
  | 21 => ⟨S320000x1, .f32⟩
  | 22 => ⟨S320000x1, .f32⟩
  | 23 => ⟨S320000x1, .f32⟩
  | 24 => ⟨S320000x1, .f32⟩
  | 25 => ⟨S320000x1, .f32⟩
  | 26 => ⟨S_, .f32⟩
  | 27 => ⟨S320000x1, .f32⟩
  | 28 => ⟨S320000x1, .f32⟩
  | 29 => ⟨S_, .f32⟩
  | 30 => ⟨S10000x1, .f32⟩
  | 31 => ⟨S320000x1, .i32⟩
  | 32 => ⟨S10000x1, .f32⟩
  | 33 => ⟨S_, .f32⟩
  | 34 => ⟨S10000x1, .f32⟩
  | 35 => ⟨S10000x1, .f32⟩
  | 36 => ⟨S_, .f32⟩
  | 37 => ⟨S10000x1, .f32⟩
  | 38 => ⟨S10000x1, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x1, .f32⟩
  | 48 => ⟨S320000x1, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x1, .f32⟩
  | 58 => ⟨S320000x1, .f32⟩
  | 59 => ⟨S320000x1x1, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x64, .f32⟩
  | 69 => ⟨S320000x1x64, .f32⟩
  | 70 => ⟨S320000x1x64, .f32⟩
  | 71 => ⟨S320000x1x64, .f32⟩
  | 72 => ⟨S_, .f32⟩
  | 73 => ⟨S10000x1x64, .f32⟩
  | 74 => ⟨S320000x1, .i32⟩
  | 75 => ⟨S10000x1x64, .f32⟩
  | 76 => ⟨S10000x64, .f32⟩
  | 77 => ⟨S10000x1x64, .f32⟩
  | 78 => ⟨S10000x1x128, .f32⟩
  | 79 => ⟨S1x1x128, .f32⟩
  | 80 => ⟨S1x128, .f32⟩
  | 81 => ⟨S_, .f32⟩
  | 82 => ⟨S10000x1x128, .f32⟩
  | 83 => ⟨S10000x1x128, .i1⟩
  | 84 => ⟨S_, .f32⟩
  | 85 => ⟨S10000x1x128, .f32⟩
  | 86 => ⟨S10000x1x128, .i1⟩
  | 87 => ⟨S_, .f32⟩
  | 88 => ⟨S_, .f32⟩
  | 89 => ⟨S10000x1x128, .f32⟩
  | 90 => ⟨S10000x1x128, .f32⟩
  | 91 => ⟨S10000x1x128, .f32⟩
  | 92 => ⟨S_, .f32⟩
  | 93 => ⟨S10000x1x128, .f32⟩
  | 94 => ⟨S10000x1x128, .f32⟩
  | 95 => ⟨S10000x1x128, .f32⟩
  | 96 => ⟨S1x1x128, .f32⟩
  | 97 => ⟨S10000x1x128, .f32⟩
  | 98 => ⟨S10000x1x128, .f32⟩
  | 99 => ⟨S_, .f32⟩
  | 100 => ⟨S10000x1, .f32⟩
  | 101 => ⟨S1x1, .f32⟩
  | 102 => ⟨S1, .f32⟩
  | 103 => ⟨S1x1, .f32⟩
  | 104 => ⟨S10000x1, .f32⟩
  | 105 => ⟨S10000x1, .f32⟩
  | 106 => ⟨S10000x1x1, .f32⟩
  | 107 => ⟨S10000x1x64, .f32⟩
  | 108 => ⟨S10000x1x64, .f32⟩
  | 109 => ⟨S10000x1x64, .f32⟩
  | 110 => ⟨S_, .f32⟩
  | 111 => ⟨S10000x1x64, .f32⟩
  | 112 => ⟨S10000x1x64, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x1x64, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10000x739, .f32⟩

abbrev hbmTy0_4 (i : Nat) : BufTy := match i % 128 with
  | 0 => ⟨S320000, .i32⟩
  | 1 => ⟨S320000x1, .i32⟩
  | 2 => ⟨S320000x1x64, .f32⟩
  | 3 => ⟨S320000x1x64, .f32⟩
  | 4 => ⟨S_, .f32⟩
  | 5 => ⟨S320000x1x64, .f32⟩
  | 6 => ⟨S320000x1x64, .i1⟩
  | 7 => ⟨S_, .f32⟩
  | 8 => ⟨S320000x1x64, .f32⟩
  | 9 => ⟨S320000x1x64, .i1⟩
  | 10 => ⟨S_, .f32⟩
  | 11 => ⟨S_, .f32⟩
  | 12 => ⟨S320000x1x64, .f32⟩
  | 13 => ⟨S320000x1x64, .f32⟩
  | 14 => ⟨S320000x1x64, .f32⟩
  | 15 => ⟨S_, .f32⟩
  | 16 => ⟨S320000x1x64, .f32⟩
  | 17 => ⟨S320000x1x64, .f32⟩
  | 18 => ⟨S320000x1x64, .f32⟩
  | 19 => ⟨S1x1x64, .f32⟩
  | 20 => ⟨S1x64, .f32⟩
  | 21 => ⟨S1x1x64, .f32⟩
  | 22 => ⟨S320000x1x64, .f32⟩
  | 23 => ⟨S320000x1x64, .f32⟩
  | 24 => ⟨S_, .f32⟩
  | 25 => ⟨S320000x1, .f32⟩
  | 26 => ⟨S_, .f32⟩
  | 27 => ⟨S320000x1, .f32⟩
  | 28 => ⟨S320000x1, .f32⟩
  | 29 => ⟨S320000x1, .f32⟩
  | 30 => ⟨S320000x1, .f32⟩
  | 31 => ⟨S320000x1, .i1⟩
  | 32 => ⟨S320000x1, .f32⟩
  | 33 => ⟨S320000x1, .f32⟩
  | 34 => ⟨S320000x1, .f32⟩
  | 35 => ⟨S320000x1, .f32⟩
  | 36 => ⟨S320000x1, .f32⟩
  | 37 => ⟨S320000x1, .f32⟩
  | 38 => ⟨S320000x1, .f32⟩
  | 39 => ⟨S320000x1, .f32⟩
  | 40 => ⟨S_, .f32⟩
  | 41 => ⟨S320000x1, .f32⟩
  | 42 => ⟨S320000x1, .f32⟩
  | 43 => ⟨S_, .f32⟩
  | 44 => ⟨S10000x1, .f32⟩
  | 45 => ⟨S320000x1, .i32⟩
  | 46 => ⟨S10000x1, .f32⟩
  | 47 => ⟨S_, .f32⟩
  | 48 => ⟨S10000x1, .f32⟩
  | 49 => ⟨S10000x1, .f32⟩
  | 50 => ⟨S_, .f32⟩
  | 51 => ⟨S10000x1, .f32⟩
  | 52 => ⟨S10000x1, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x1, .f32⟩
  | 62 => ⟨S320000x1, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x1, .f32⟩
  | 72 => ⟨S320000x1, .f32⟩
  | 73 => ⟨S320000x1x1, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000x64, .f32⟩
  | 83 => ⟨S320000x1x64, .f32⟩
  | 84 => ⟨S320000x1x64, .f32⟩
  | 85 => ⟨S320000x1x64, .f32⟩
  | 86 => ⟨S_, .f32⟩
  | 87 => ⟨S10000x1x64, .f32⟩
  | 88 => ⟨S320000x1, .i32⟩
  | 89 => ⟨S10000x1x64, .f32⟩
  | 90 => ⟨S10000x64, .f32⟩
  | 91 => ⟨S10000x1x64, .f32⟩
  | 92 => ⟨S10000x1x128, .f32⟩
  | 93 => ⟨S1x1x128, .f32⟩
  | 94 => ⟨S1x128, .f32⟩
  | 95 => ⟨S_, .f32⟩
  | 96 => ⟨S10000x1x128, .f32⟩
  | 97 => ⟨S10000x1x128, .i1⟩
  | 98 => ⟨S_, .f32⟩
  | 99 => ⟨S10000x1x128, .f32⟩
  | 100 => ⟨S10000x1x128, .i1⟩
  | 101 => ⟨S_, .f32⟩
  | 102 => ⟨S_, .f32⟩
  | 103 => ⟨S10000x1x128, .f32⟩
  | 104 => ⟨S10000x1x128, .f32⟩
  | 105 => ⟨S10000x1x128, .f32⟩
  | 106 => ⟨S_, .f32⟩
  | 107 => ⟨S10000x1x128, .f32⟩
  | 108 => ⟨S10000x1x128, .f32⟩
  | 109 => ⟨S10000x1x128, .f32⟩
  | 110 => ⟨S1x1x128, .f32⟩
  | 111 => ⟨S10000x1x128, .f32⟩
  | 112 => ⟨S10000x1x128, .f32⟩
  | 113 => ⟨S_, .f32⟩
  | 114 => ⟨S10000x1, .f32⟩
  | 115 => ⟨S1x1, .f32⟩
  | 116 => ⟨S1, .f32⟩
  | 117 => ⟨S1x1, .f32⟩
  | 118 => ⟨S10000x1, .f32⟩
  | 119 => ⟨S10000x1, .f32⟩
  | 120 => ⟨S10000x1x1, .f32⟩
  | 121 => ⟨S10000x1x64, .f32⟩
  | 122 => ⟨S10000x1x64, .f32⟩
  | 123 => ⟨S10000x1x64, .f32⟩
  | 124 => ⟨S_, .f32⟩
  | 125 => ⟨S10000x1x64, .f32⟩
  | 126 => ⟨S10000x1x64, .f32⟩
  | 127 => ⟨S_, .i32⟩
  | _ => ⟨S10000x739, .f32⟩

abbrev hbmTy0_5 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x1x64, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x1x64, .f32⟩
  | 17 => ⟨S320000x1x64, .f32⟩
  | 18 => ⟨S_, .f32⟩
  | 19 => ⟨S320000x1x64, .f32⟩
  | 20 => ⟨S320000x1x64, .i1⟩
  | 21 => ⟨S_, .f32⟩
  | 22 => ⟨S320000x1x64, .f32⟩
  | 23 => ⟨S320000x1x64, .i1⟩
  | 24 => ⟨S_, .f32⟩
  | 25 => ⟨S_, .f32⟩
  | 26 => ⟨S320000x1x64, .f32⟩
  | 27 => ⟨S320000x1x64, .f32⟩
  | 28 => ⟨S320000x1x64, .f32⟩
  | 29 => ⟨S_, .f32⟩
  | 30 => ⟨S320000x1x64, .f32⟩
  | 31 => ⟨S320000x1x64, .f32⟩
  | 32 => ⟨S320000x1x64, .f32⟩
  | 33 => ⟨S1x1x64, .f32⟩
  | 34 => ⟨S1x64, .f32⟩
  | 35 => ⟨S1x1x64, .f32⟩
  | 36 => ⟨S320000x1x64, .f32⟩
  | 37 => ⟨S320000x1x64, .f32⟩
  | 38 => ⟨S_, .f32⟩
  | 39 => ⟨S320000x1, .f32⟩
  | 40 => ⟨S_, .f32⟩
  | 41 => ⟨S320000x1, .f32⟩
  | 42 => ⟨S320000x1, .f32⟩
  | 43 => ⟨S320000x1, .f32⟩
  | 44 => ⟨S320000x1, .f32⟩
  | 45 => ⟨S320000x1, .i1⟩
  | 46 => ⟨S320000x1, .f32⟩
  | 47 => ⟨S320000x1, .f32⟩
  | 48 => ⟨S320000x1, .f32⟩
  | 49 => ⟨S320000x1, .f32⟩
  | 50 => ⟨S320000x1, .f32⟩
  | 51 => ⟨S320000x1, .f32⟩
  | 52 => ⟨S320000x1, .f32⟩
  | 53 => ⟨S320000x1, .f32⟩
  | 54 => ⟨S_, .f32⟩
  | 55 => ⟨S320000x1, .f32⟩
  | 56 => ⟨S320000x1, .f32⟩
  | 57 => ⟨S_, .f32⟩
  | 58 => ⟨S10000x1, .f32⟩
  | 59 => ⟨S320000x1, .i32⟩
  | 60 => ⟨S10000x1, .f32⟩
  | 61 => ⟨S_, .f32⟩
  | 62 => ⟨S10000x1, .f32⟩
  | 63 => ⟨S10000x1, .f32⟩
  | 64 => ⟨S_, .f32⟩
  | 65 => ⟨S10000x1, .f32⟩
  | 66 => ⟨S10000x1, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000x1, .f32⟩
  | 76 => ⟨S320000x1, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x1, .f32⟩
  | 86 => ⟨S320000x1, .f32⟩
  | 87 => ⟨S320000x1x1, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x64, .f32⟩
  | 97 => ⟨S320000x1x64, .f32⟩
  | 98 => ⟨S320000x1x64, .f32⟩
  | 99 => ⟨S320000x1x64, .f32⟩
  | 100 => ⟨S_, .f32⟩
  | 101 => ⟨S10000x1x64, .f32⟩
  | 102 => ⟨S320000x1, .i32⟩
  | 103 => ⟨S10000x1x64, .f32⟩
  | 104 => ⟨S10000x64, .f32⟩
  | 105 => ⟨S10000x1x64, .f32⟩
  | 106 => ⟨S10000x1x128, .f32⟩
  | 107 => ⟨S1x1x128, .f32⟩
  | 108 => ⟨S1x128, .f32⟩
  | 109 => ⟨S_, .f32⟩
  | 110 => ⟨S10000x1x128, .f32⟩
  | 111 => ⟨S10000x1x128, .i1⟩
  | 112 => ⟨S_, .f32⟩
  | 113 => ⟨S10000x1x128, .f32⟩
  | 114 => ⟨S10000x1x128, .i1⟩
  | 115 => ⟨S_, .f32⟩
  | 116 => ⟨S_, .f32⟩
  | 117 => ⟨S10000x1x128, .f32⟩
  | 118 => ⟨S10000x1x128, .f32⟩
  | 119 => ⟨S10000x1x128, .f32⟩
  | 120 => ⟨S_, .f32⟩
  | 121 => ⟨S10000x1x128, .f32⟩
  | 122 => ⟨S10000x1x128, .f32⟩
  | 123 => ⟨S10000x1x128, .f32⟩
  | 124 => ⟨S1x1x128, .f32⟩
  | 125 => ⟨S10000x1x128, .f32⟩
  | 126 => ⟨S10000x1x128, .f32⟩
  | 127 => ⟨S_, .f32⟩
  | _ => ⟨S10000x739, .f32⟩

abbrev hbmTy0_6 (i : Nat) : BufTy := match i % 128 with
  | 0 => ⟨S10000x1, .f32⟩
  | 1 => ⟨S1x1, .f32⟩
  | 2 => ⟨S1, .f32⟩
  | 3 => ⟨S1x1, .f32⟩
  | 4 => ⟨S10000x1, .f32⟩
  | 5 => ⟨S10000x1, .f32⟩
  | 6 => ⟨S10000x1x1, .f32⟩
  | 7 => ⟨S10000x1x64, .f32⟩
  | 8 => ⟨S10000x1x64, .f32⟩
  | 9 => ⟨S10000x1x64, .f32⟩
  | 10 => ⟨S_, .f32⟩
  | 11 => ⟨S10000x1x64, .f32⟩
  | 12 => ⟨S10000x1x64, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x1x64, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x1x64, .f32⟩
  | 31 => ⟨S320000x1x64, .f32⟩
  | 32 => ⟨S_, .f32⟩
  | 33 => ⟨S320000x1x64, .f32⟩
  | 34 => ⟨S320000x1x64, .i1⟩
  | 35 => ⟨S_, .f32⟩
  | 36 => ⟨S320000x1x64, .f32⟩
  | 37 => ⟨S320000x1x64, .i1⟩
  | 38 => ⟨S_, .f32⟩
  | 39 => ⟨S_, .f32⟩
  | 40 => ⟨S320000x1x64, .f32⟩
  | 41 => ⟨S320000x1x64, .f32⟩
  | 42 => ⟨S320000x1x64, .f32⟩
  | 43 => ⟨S_, .f32⟩
  | 44 => ⟨S320000x1x64, .f32⟩
  | 45 => ⟨S320000x1x64, .f32⟩
  | 46 => ⟨S320000x1x64, .f32⟩
  | 47 => ⟨S1x1x64, .f32⟩
  | 48 => ⟨S1x64, .f32⟩
  | 49 => ⟨S1x1x64, .f32⟩
  | 50 => ⟨S320000x1x64, .f32⟩
  | 51 => ⟨S320000x1x64, .f32⟩
  | 52 => ⟨S_, .f32⟩
  | 53 => ⟨S320000x1, .f32⟩
  | 54 => ⟨S_, .f32⟩
  | 55 => ⟨S320000x1, .f32⟩
  | 56 => ⟨S320000x1, .f32⟩
  | 57 => ⟨S320000x1, .f32⟩
  | 58 => ⟨S320000x1, .f32⟩
  | 59 => ⟨S320000x1, .i1⟩
  | 60 => ⟨S320000x1, .f32⟩
  | 61 => ⟨S320000x1, .f32⟩
  | 62 => ⟨S320000x1, .f32⟩
  | 63 => ⟨S320000x1, .f32⟩
  | 64 => ⟨S320000x1, .f32⟩
  | 65 => ⟨S320000x1, .f32⟩
  | 66 => ⟨S320000x1, .f32⟩
  | 67 => ⟨S320000x1, .f32⟩
  | 68 => ⟨S_, .f32⟩
  | 69 => ⟨S320000x1, .f32⟩
  | 70 => ⟨S320000x1, .f32⟩
  | 71 => ⟨S_, .f32⟩
  | 72 => ⟨S10000x1, .f32⟩
  | 73 => ⟨S320000x1, .i32⟩
  | 74 => ⟨S10000x1, .f32⟩
  | 75 => ⟨S_, .f32⟩
  | 76 => ⟨S10000x1, .f32⟩
  | 77 => ⟨S10000x1, .f32⟩
  | 78 => ⟨S_, .f32⟩
  | 79 => ⟨S10000x1, .f32⟩
  | 80 => ⟨S10000x1, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x1, .f32⟩
  | 90 => ⟨S320000x1, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x1, .f32⟩
  | 100 => ⟨S320000x1, .f32⟩
  | 101 => ⟨S320000x1x1, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000x64, .f32⟩
  | 111 => ⟨S320000x1x64, .f32⟩
  | 112 => ⟨S320000x1x64, .f32⟩
  | 113 => ⟨S320000x1x64, .f32⟩
  | 114 => ⟨S_, .f32⟩
  | 115 => ⟨S10000x1x64, .f32⟩
  | 116 => ⟨S320000x1, .i32⟩
  | 117 => ⟨S10000x1x64, .f32⟩
  | 118 => ⟨S10000x64, .f32⟩
  | 119 => ⟨S10000x1x64, .f32⟩
  | 120 => ⟨S10000x1x128, .f32⟩
  | 121 => ⟨S1x1x128, .f32⟩
  | 122 => ⟨S1x128, .f32⟩
  | 123 => ⟨S_, .f32⟩
  | 124 => ⟨S10000x1x128, .f32⟩
  | 125 => ⟨S10000x1x128, .i1⟩
  | 126 => ⟨S_, .f32⟩
  | 127 => ⟨S10000x1x128, .f32⟩
  | _ => ⟨S10000x739, .f32⟩

abbrev hbmTy0_7 (i : Nat) : BufTy := match i % 128 with
  | 0 => ⟨S10000x1x128, .i1⟩
  | 1 => ⟨S_, .f32⟩
  | 2 => ⟨S_, .f32⟩
  | 3 => ⟨S10000x1x128, .f32⟩
  | 4 => ⟨S10000x1x128, .f32⟩
  | 5 => ⟨S10000x1x128, .f32⟩
  | 6 => ⟨S_, .f32⟩
  | 7 => ⟨S10000x1x128, .f32⟩
  | 8 => ⟨S10000x1x128, .f32⟩
  | 9 => ⟨S10000x1x128, .f32⟩
  | 10 => ⟨S1x1x128, .f32⟩
  | 11 => ⟨S10000x1x128, .f32⟩
  | 12 => ⟨S10000x1x128, .f32⟩
  | 13 => ⟨S_, .f32⟩
  | 14 => ⟨S10000x1, .f32⟩
  | 15 => ⟨S1x1, .f32⟩
  | 16 => ⟨S1, .f32⟩
  | 17 => ⟨S1x1, .f32⟩
  | 18 => ⟨S10000x1, .f32⟩
  | 19 => ⟨S10000x1, .f32⟩
  | 20 => ⟨S10000x1x1, .f32⟩
  | 21 => ⟨S10000x1x64, .f32⟩
  | 22 => ⟨S10000x1x64, .f32⟩
  | 23 => ⟨S10000x1x64, .f32⟩
  | 24 => ⟨S_, .f32⟩
  | 25 => ⟨S10000x1x64, .f32⟩
  | 26 => ⟨S10000x1x64, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x1x64, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x1x64, .f32⟩
  | 45 => ⟨S320000x1x64, .f32⟩
  | 46 => ⟨S_, .f32⟩
  | 47 => ⟨S320000x1x64, .f32⟩
  | 48 => ⟨S320000x1x64, .i1⟩
  | 49 => ⟨S_, .f32⟩
  | 50 => ⟨S320000x1x64, .f32⟩
  | 51 => ⟨S320000x1x64, .i1⟩
  | 52 => ⟨S_, .f32⟩
  | 53 => ⟨S_, .f32⟩
  | 54 => ⟨S320000x1x64, .f32⟩
  | 55 => ⟨S320000x1x64, .f32⟩
  | 56 => ⟨S320000x1x64, .f32⟩
  | 57 => ⟨S_, .f32⟩
  | 58 => ⟨S320000x1x64, .f32⟩
  | 59 => ⟨S320000x1x64, .f32⟩
  | 60 => ⟨S320000x1x64, .f32⟩
  | 61 => ⟨S1x1x64, .f32⟩
  | 62 => ⟨S1x64, .f32⟩
  | 63 => ⟨S1x1x64, .f32⟩
  | 64 => ⟨S320000x1x64, .f32⟩
  | 65 => ⟨S320000x1x64, .f32⟩
  | 66 => ⟨S_, .f32⟩
  | 67 => ⟨S320000x1, .f32⟩
  | 68 => ⟨S_, .f32⟩
  | 69 => ⟨S320000x1, .f32⟩
  | 70 => ⟨S320000x1, .f32⟩
  | 71 => ⟨S320000x1, .f32⟩
  | 72 => ⟨S320000x1, .f32⟩
  | 73 => ⟨S320000x1, .i1⟩
  | 74 => ⟨S320000x1, .f32⟩
  | 75 => ⟨S320000x1, .f32⟩
  | 76 => ⟨S320000x1, .f32⟩
  | 77 => ⟨S320000x1, .f32⟩
  | 78 => ⟨S320000x1, .f32⟩
  | 79 => ⟨S320000x1, .f32⟩
  | 80 => ⟨S320000x1, .f32⟩
  | 81 => ⟨S320000x1, .f32⟩
  | 82 => ⟨S_, .f32⟩
  | 83 => ⟨S320000x1, .f32⟩
  | 84 => ⟨S320000x1, .f32⟩
  | 85 => ⟨S_, .f32⟩
  | 86 => ⟨S10000x1, .f32⟩
  | 87 => ⟨S320000x1, .i32⟩
  | 88 => ⟨S10000x1, .f32⟩
  | 89 => ⟨S_, .f32⟩
  | 90 => ⟨S10000x1, .f32⟩
  | 91 => ⟨S10000x1, .f32⟩
  | 92 => ⟨S_, .f32⟩
  | 93 => ⟨S10000x1, .f32⟩
  | 94 => ⟨S10000x1, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000x1, .f32⟩
  | 104 => ⟨S320000x1, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x1, .f32⟩
  | 114 => ⟨S320000x1, .f32⟩
  | 115 => ⟨S320000x1x1, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x64, .f32⟩
  | 125 => ⟨S320000x1x64, .f32⟩
  | 126 => ⟨S320000x1x64, .f32⟩
  | 127 => ⟨S320000x1x64, .f32⟩
  | _ => ⟨S10000x739, .f32⟩

abbrev hbmTy0_8 (i : Nat) : BufTy := match i % 128 with
  | 0 => ⟨S_, .f32⟩
  | 1 => ⟨S10000x1x64, .f32⟩
  | 2 => ⟨S320000x1, .i32⟩
  | 3 => ⟨S10000x1x64, .f32⟩
  | 4 => ⟨S10000x64, .f32⟩
  | 5 => ⟨S10000x1x64, .f32⟩
  | 6 => ⟨S10000x1x128, .f32⟩
  | 7 => ⟨S1x1x128, .f32⟩
  | 8 => ⟨S1x128, .f32⟩
  | 9 => ⟨S_, .f32⟩
  | 10 => ⟨S10000x1x128, .f32⟩
  | 11 => ⟨S10000x1x128, .i1⟩
  | 12 => ⟨S_, .f32⟩
  | 13 => ⟨S10000x1x128, .f32⟩
  | 14 => ⟨S10000x1x128, .i1⟩
  | 15 => ⟨S_, .f32⟩
  | 16 => ⟨S_, .f32⟩
  | 17 => ⟨S10000x1x128, .f32⟩
  | 18 => ⟨S10000x1x128, .f32⟩
  | 19 => ⟨S10000x1x128, .f32⟩
  | 20 => ⟨S_, .f32⟩
  | 21 => ⟨S10000x1x128, .f32⟩
  | 22 => ⟨S10000x1x128, .f32⟩
  | 23 => ⟨S10000x1x128, .f32⟩
  | 24 => ⟨S1x1x128, .f32⟩
  | 25 => ⟨S10000x1x128, .f32⟩
  | 26 => ⟨S10000x1x128, .f32⟩
  | 27 => ⟨S_, .f32⟩
  | 28 => ⟨S10000x1, .f32⟩
  | 29 => ⟨S1x1, .f32⟩
  | 30 => ⟨S1, .f32⟩
  | 31 => ⟨S1x1, .f32⟩
  | 32 => ⟨S10000x1, .f32⟩
  | 33 => ⟨S10000x1, .f32⟩
  | 34 => ⟨S10000x1x1, .f32⟩
  | 35 => ⟨S10000x1x64, .f32⟩
  | 36 => ⟨S10000x1x64, .f32⟩
  | 37 => ⟨S10000x1x64, .f32⟩
  | 38 => ⟨S_, .f32⟩
  | 39 => ⟨S10000x1x64, .f32⟩
  | 40 => ⟨S10000x1x64, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x1x64, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x1x64, .f32⟩
  | 59 => ⟨S320000x1x64, .f32⟩
  | 60 => ⟨S_, .f32⟩
  | 61 => ⟨S320000x1x64, .f32⟩
  | 62 => ⟨S320000x1x64, .i1⟩
  | 63 => ⟨S_, .f32⟩
  | 64 => ⟨S320000x1x64, .f32⟩
  | 65 => ⟨S320000x1x64, .i1⟩
  | 66 => ⟨S_, .f32⟩
  | 67 => ⟨S_, .f32⟩
  | 68 => ⟨S320000x1x64, .f32⟩
  | 69 => ⟨S320000x1x64, .f32⟩
  | 70 => ⟨S320000x1x64, .f32⟩
  | 71 => ⟨S_, .f32⟩
  | 72 => ⟨S320000x1x64, .f32⟩
  | 73 => ⟨S320000x1x64, .f32⟩
  | 74 => ⟨S320000x1x64, .f32⟩
  | 75 => ⟨S1x1x64, .f32⟩
  | 76 => ⟨S1x64, .f32⟩
  | 77 => ⟨S1x1x64, .f32⟩
  | 78 => ⟨S320000x1x64, .f32⟩
  | 79 => ⟨S320000x1x64, .f32⟩
  | 80 => ⟨S_, .f32⟩
  | 81 => ⟨S320000x1, .f32⟩
  | 82 => ⟨S_, .f32⟩
  | 83 => ⟨S320000x1, .f32⟩
  | 84 => ⟨S320000x1, .f32⟩
  | 85 => ⟨S320000x1, .f32⟩
  | 86 => ⟨S320000x1, .f32⟩
  | 87 => ⟨S320000x1, .i1⟩
  | 88 => ⟨S320000x1, .f32⟩
  | 89 => ⟨S320000x1, .f32⟩
  | 90 => ⟨S320000x1, .f32⟩
  | 91 => ⟨S320000x1, .f32⟩
  | 92 => ⟨S320000x1, .f32⟩
  | 93 => ⟨S320000x1, .f32⟩
  | 94 => ⟨S320000x1, .f32⟩
  | 95 => ⟨S320000x1, .f32⟩
  | 96 => ⟨S_, .f32⟩
  | 97 => ⟨S320000x1, .f32⟩
  | 98 => ⟨S320000x1, .f32⟩
  | 99 => ⟨S_, .f32⟩
  | 100 => ⟨S10000x1, .f32⟩
  | 101 => ⟨S320000x1, .i32⟩
  | 102 => ⟨S10000x1, .f32⟩
  | 103 => ⟨S_, .f32⟩
  | 104 => ⟨S10000x1, .f32⟩
  | 105 => ⟨S10000x1, .f32⟩
  | 106 => ⟨S_, .f32⟩
  | 107 => ⟨S10000x1, .f32⟩
  | 108 => ⟨S10000x1, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x1, .f32⟩
  | 118 => ⟨S320000x1, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x1, .f32⟩
  | _ => ⟨S10000x739, .f32⟩

abbrev hbmTy0_9 (i : Nat) : BufTy := match i % 128 with
  | 0 => ⟨S320000x1, .f32⟩
  | 1 => ⟨S320000x1x1, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x64, .f32⟩
  | 11 => ⟨S320000x1x64, .f32⟩
  | 12 => ⟨S320000x1x64, .f32⟩
  | 13 => ⟨S320000x1x64, .f32⟩
  | 14 => ⟨S_, .f32⟩
  | 15 => ⟨S10000x1x64, .f32⟩
  | 16 => ⟨S320000x1, .i32⟩
  | 17 => ⟨S10000x1x64, .f32⟩
  | 18 => ⟨S10000x64, .f32⟩
  | 19 => ⟨S10000x1x64, .f32⟩
  | 20 => ⟨S10000x1x128, .f32⟩
  | 21 => ⟨S1x1x128, .f32⟩
  | 22 => ⟨S1x128, .f32⟩
  | 23 => ⟨S_, .f32⟩
  | 24 => ⟨S10000x1x128, .f32⟩
  | 25 => ⟨S10000x1x128, .i1⟩
  | 26 => ⟨S_, .f32⟩
  | 27 => ⟨S10000x1x128, .f32⟩
  | 28 => ⟨S10000x1x128, .i1⟩
  | 29 => ⟨S_, .f32⟩
  | 30 => ⟨S_, .f32⟩
  | 31 => ⟨S10000x1x128, .f32⟩
  | 32 => ⟨S10000x1x128, .f32⟩
  | 33 => ⟨S10000x1x128, .f32⟩
  | 34 => ⟨S_, .f32⟩
  | 35 => ⟨S10000x1x128, .f32⟩
  | 36 => ⟨S10000x1x128, .f32⟩
  | 37 => ⟨S10000x1x128, .f32⟩
  | 38 => ⟨S1x1x128, .f32⟩
  | 39 => ⟨S10000x1x128, .f32⟩
  | 40 => ⟨S10000x1x128, .f32⟩
  | 41 => ⟨S_, .f32⟩
  | 42 => ⟨S10000x1, .f32⟩
  | 43 => ⟨S1x1, .f32⟩
  | 44 => ⟨S1, .f32⟩
  | 45 => ⟨S1x1, .f32⟩
  | 46 => ⟨S10000x1, .f32⟩
  | 47 => ⟨S10000x1, .f32⟩
  | 48 => ⟨S10000x1x1, .f32⟩
  | 49 => ⟨S10000x1x64, .f32⟩
  | 50 => ⟨S10000x1x64, .f32⟩
  | 51 => ⟨S10000x1x64, .f32⟩
  | 52 => ⟨S_, .f32⟩
  | 53 => ⟨S10000x1x64, .f32⟩
  | 54 => ⟨S10000x1x64, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x1x64, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x1x64, .f32⟩
  | 73 => ⟨S320000x1x64, .f32⟩
  | 74 => ⟨S_, .f32⟩
  | 75 => ⟨S320000x1x64, .f32⟩
  | 76 => ⟨S320000x1x64, .i1⟩
  | 77 => ⟨S_, .f32⟩
  | 78 => ⟨S320000x1x64, .f32⟩
  | 79 => ⟨S320000x1x64, .i1⟩
  | 80 => ⟨S_, .f32⟩
  | 81 => ⟨S_, .f32⟩
  | 82 => ⟨S320000x1x64, .f32⟩
  | 83 => ⟨S320000x1x64, .f32⟩
  | 84 => ⟨S320000x1x64, .f32⟩
  | 85 => ⟨S_, .f32⟩
  | 86 => ⟨S320000x1x64, .f32⟩
  | 87 => ⟨S320000x1x64, .f32⟩
  | 88 => ⟨S320000x1x64, .f32⟩
  | 89 => ⟨S1x1x64, .f32⟩
  | 90 => ⟨S1x64, .f32⟩
  | 91 => ⟨S1x1x64, .f32⟩
  | 92 => ⟨S320000x1x64, .f32⟩
  | 93 => ⟨S320000x1x64, .f32⟩
  | 94 => ⟨S_, .f32⟩
  | 95 => ⟨S320000x1, .f32⟩
  | 96 => ⟨S_, .f32⟩
  | 97 => ⟨S320000x1, .f32⟩
  | 98 => ⟨S320000x1, .f32⟩
  | 99 => ⟨S320000x1, .f32⟩
  | 100 => ⟨S320000x1, .f32⟩
  | 101 => ⟨S320000x1, .i1⟩
  | 102 => ⟨S320000x1, .f32⟩
  | 103 => ⟨S320000x1, .f32⟩
  | 104 => ⟨S320000x1, .f32⟩
  | 105 => ⟨S320000x1, .f32⟩
  | 106 => ⟨S320000x1, .f32⟩
  | 107 => ⟨S320000x1, .f32⟩
  | 108 => ⟨S320000x1, .f32⟩
  | 109 => ⟨S320000x1, .f32⟩
  | 110 => ⟨S_, .f32⟩
  | 111 => ⟨S320000x1, .f32⟩
  | 112 => ⟨S320000x1, .f32⟩
  | 113 => ⟨S_, .f32⟩
  | 114 => ⟨S10000x1, .f32⟩
  | 115 => ⟨S320000x1, .i32⟩
  | 116 => ⟨S10000x1, .f32⟩
  | 117 => ⟨S_, .f32⟩
  | 118 => ⟨S10000x1, .f32⟩
  | 119 => ⟨S10000x1, .f32⟩
  | 120 => ⟨S_, .f32⟩
  | 121 => ⟨S10000x1, .f32⟩
  | 122 => ⟨S10000x1, .f32⟩
  | 123 => ⟨S_, .i32⟩
  | 124 => ⟨S320000, .i32⟩
  | 125 => ⟨S320000, .i1⟩
  | 126 => ⟨S_, .i32⟩
  | 127 => ⟨S320000, .i32⟩
  | _ => ⟨S10000x739, .f32⟩

abbrev hbmTy0_10 (i : Nat) : BufTy := match i % 128 with
  | 0 => ⟨S320000, .i32⟩
  | 1 => ⟨S320000, .i32⟩
  | 2 => ⟨S320000x1, .i32⟩
  | 3 => ⟨S320000x1, .f32⟩
  | 4 => ⟨S320000x1, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x1, .f32⟩
  | 14 => ⟨S320000x1, .f32⟩
  | 15 => ⟨S320000x1x1, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x64, .f32⟩
  | 25 => ⟨S320000x1x64, .f32⟩
  | 26 => ⟨S320000x1x64, .f32⟩
  | 27 => ⟨S320000x1x64, .f32⟩
  | 28 => ⟨S_, .f32⟩
  | 29 => ⟨S10000x1x64, .f32⟩
  | 30 => ⟨S320000x1, .i32⟩
  | 31 => ⟨S10000x1x64, .f32⟩
  | 32 => ⟨S10000x64, .f32⟩
  | 33 => ⟨S10000x1x64, .f32⟩
  | 34 => ⟨S10000x1x128, .f32⟩
  | 35 => ⟨S1x1x128, .f32⟩
  | 36 => ⟨S1x128, .f32⟩
  | 37 => ⟨S_, .f32⟩
  | 38 => ⟨S10000x1x128, .f32⟩
  | 39 => ⟨S10000x1x128, .i1⟩
  | 40 => ⟨S_, .f32⟩
  | 41 => ⟨S10000x1x128, .f32⟩
  | 42 => ⟨S10000x1x128, .i1⟩
  | 43 => ⟨S_, .f32⟩
  | 44 => ⟨S_, .f32⟩
  | 45 => ⟨S10000x1x128, .f32⟩
  | 46 => ⟨S10000x1x128, .f32⟩
  | 47 => ⟨S10000x1x128, .f32⟩
  | 48 => ⟨S_, .f32⟩
  | 49 => ⟨S10000x1x128, .f32⟩
  | 50 => ⟨S10000x1x128, .f32⟩
  | 51 => ⟨S10000x1x128, .f32⟩
  | 52 => ⟨S1x1x128, .f32⟩
  | 53 => ⟨S10000x1x128, .f32⟩
  | 54 => ⟨S10000x1x128, .f32⟩
  | 55 => ⟨S_, .f32⟩
  | 56 => ⟨S10000x1, .f32⟩
  | 57 => ⟨S1x1, .f32⟩
  | 58 => ⟨S1, .f32⟩
  | 59 => ⟨S1x1, .f32⟩
  | 60 => ⟨S10000x1, .f32⟩
  | 61 => ⟨S10000x1, .f32⟩
  | 62 => ⟨S10000x1x1, .f32⟩
  | 63 => ⟨S10000x1x64, .f32⟩
  | 64 => ⟨S10000x1x64, .f32⟩
  | 65 => ⟨S10000x1x64, .f32⟩
  | 66 => ⟨S10000x64, .f32⟩
  | 67 => ⟨S_, .f32⟩
  | 68 => ⟨S10000x64, .f32⟩
  | 69 => ⟨S10000x64, .i1⟩
  | 70 => ⟨S_, .f32⟩
  | 71 => ⟨S10000x64, .f32⟩
  | 72 => ⟨S10000x64, .i1⟩
  | 73 => ⟨S_, .f32⟩
  | 74 => ⟨S_, .f32⟩
  | 75 => ⟨S10000x64, .f32⟩
  | 76 => ⟨S10000x64, .f32⟩
  | 77 => ⟨S10000x64, .f32⟩
  | 78 => ⟨S_, .f32⟩
  | 79 => ⟨S10000x64, .f32⟩
  | 80 => ⟨S10000x64, .f32⟩
  | 81 => ⟨S10000x64, .f32⟩
  | 82 => ⟨S_, .f32⟩
  | 83 => ⟨S64x64, .f32⟩
  | 84 => ⟨S10000x1, .i32⟩
  | 85 => ⟨S64x64, .f32⟩
  | 86 => ⟨S_, .f32⟩
  | 87 => ⟨S10000, .f32⟩
  | 88 => ⟨S_, .f32⟩
  | 89 => ⟨S64, .f32⟩
  | 90 => ⟨S10000x1, .i32⟩
  | 91 => ⟨S64, .f32⟩
  | 92 => ⟨S_, .f32⟩
  | 93 => ⟨S64, .f32⟩
  | 94 => ⟨S64, .f32⟩
  | 95 => ⟨S64x1, .f32⟩
  | 96 => ⟨S64x64, .f32⟩
  | 97 => ⟨S64x64, .f32⟩
  | 98 => ⟨S64x1, .f32⟩
  | 99 => ⟨S1x1, .f32⟩
  | 100 => ⟨S64x1, .f32⟩
  | 101 => ⟨S64x1, .f32⟩
  | _ => ⟨S10000x739, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S10000x739, .f32⟩

abbrev bufTy : (tb : Table) → Fin (tcTables nBuf tb) → BufTy
  | .hbm, ⟨i, _⟩ => hbmTy i
  | _, _ => ⟨S10000x739, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v4 : Ref sig .tc := ⟨.hbm, 31, rfl⟩
abbrev main_call0_v5 : Ref sig .tc := ⟨.hbm, 32, rfl⟩
abbrev main_call0_cst_2 : Ref sig .tc := ⟨.hbm, 33, rfl⟩
abbrev main_call0_v6 : Ref sig .tc := ⟨.hbm, 34, rfl⟩
abbrev main_call0_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_cst_1 : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_v4 : Ref sig .tc := ⟨.hbm, 51, rfl⟩
abbrev main_call1_v5 : Ref sig .tc := ⟨.hbm, 52, rfl⟩
abbrev main_call1_cst_2 : Ref sig .tc := ⟨.hbm, 53, rfl⟩
abbrev main_call1_v6 : Ref sig .tc := ⟨.hbm, 54, rfl⟩
abbrev main_call1_v7 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_0 : Ref sig .tc := ⟨.hbm, 68, rfl⟩
abbrev main_v25 : Ref sig .tc := ⟨.hbm, 69, rfl⟩
abbrev main_v26 : Ref sig .tc := ⟨.hbm, 70, rfl⟩
abbrev main_c : Ref sig .tc := ⟨.hbm, 71, rfl⟩
abbrev main_v27 : Ref sig .tc := ⟨.hbm, 72, rfl⟩
abbrev main_v28 : Ref sig .tc := ⟨.hbm, 73, rfl⟩
abbrev main_c_1 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_2 : Ref sig .tc := ⟨.hbm, 80, rfl⟩
abbrev main_v34 : Ref sig .tc := ⟨.hbm, 81, rfl⟩
abbrev main_v35 : Ref sig .tc := ⟨.hbm, 82, rfl⟩
abbrev main_c_3 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_4 : Ref sig .tc := ⟨.hbm, 110, rfl⟩
abbrev main_v48 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_v49 : Ref sig .tc := ⟨.hbm, 125, rfl⟩
abbrev main_cst_5 : Ref sig .tc := ⟨.hbm, 126, rfl⟩
abbrev main_v50 : Ref sig .tc := ⟨.hbm, 127, rfl⟩
abbrev main_v51 : Ref sig .tc := ⟨.hbm, 128, rfl⟩
abbrev main_cst_6 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_cst_7 : Ref sig .tc := ⟨.hbm, 133, rfl⟩
abbrev main_v55 : Ref sig .tc := ⟨.hbm, 134, rfl⟩
abbrev main_v56 : Ref sig .tc := ⟨.hbm, 135, rfl⟩
abbrev main_cst_8 : Ref sig .tc := ⟨.hbm, 136, rfl⟩
abbrev main_v57 : Ref sig .tc := ⟨.hbm, 137, rfl⟩
abbrev main_v58 : Ref sig .tc := ⟨.hbm, 138, rfl⟩
abbrev main_c_9 : Ref sig .tc := ⟨.hbm, 139, rfl⟩
abbrev main_v59 : Ref sig .tc := ⟨.hbm, 140, rfl⟩
abbrev main_v60 : Ref sig .tc := ⟨.hbm, 141, rfl⟩
abbrev main_c_10 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_c_11 : Ref sig .tc := ⟨.hbm, 149, rfl⟩
abbrev main_v67 : Ref sig .tc := ⟨.hbm, 150, rfl⟩
abbrev main_v68 : Ref sig .tc := ⟨.hbm, 151, rfl⟩
abbrev main_c_12 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_c_13 : Ref sig .tc := ⟨.hbm, 160, rfl⟩
abbrev main_v76 : Ref sig .tc := ⟨.hbm, 161, rfl⟩
abbrev main_v77 : Ref sig .tc := ⟨.hbm, 162, rfl⟩
abbrev main_c_14 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_cst_15 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_cst_1 : Ref sig .tc := ⟨.hbm, 187, rfl⟩
abbrev main_call4_call0_v0 : Ref sig .tc := ⟨.hbm, 188, rfl⟩
abbrev main_call4_call0_v1 : Ref sig .tc := ⟨.hbm, 189, rfl⟩
abbrev main_call4_v4 : Ref sig .tc := ⟨.hbm, 190, rfl⟩
abbrev main_call4_v5 : Ref sig .tc := ⟨.hbm, 191, rfl⟩
abbrev main_call4_cst_2 : Ref sig .tc := ⟨.hbm, 192, rfl⟩
abbrev main_call4_v6 : Ref sig .tc := ⟨.hbm, 193, rfl⟩
abbrev main_call4_v7 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_cst_16 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_cst_17 : Ref sig .tc := ⟨.hbm, 210, rfl⟩
abbrev main_v108 : Ref sig .tc := ⟨.hbm, 211, rfl⟩
abbrev main_v109 : Ref sig .tc := ⟨.hbm, 212, rfl⟩
abbrev main_c_18 : Ref sig .tc := ⟨.hbm, 213, rfl⟩
abbrev main_v110 : Ref sig .tc := ⟨.hbm, 214, rfl⟩
abbrev main_v111 : Ref sig .tc := ⟨.hbm, 215, rfl⟩
abbrev main_c_19 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_c_20 : Ref sig .tc := ⟨.hbm, 222, rfl⟩
abbrev main_v117 : Ref sig .tc := ⟨.hbm, 223, rfl⟩
abbrev main_v118 : Ref sig .tc := ⟨.hbm, 224, rfl⟩
abbrev main_c_21 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_call5_cst : Ref sig .tc := ⟨.hbm, 232, rfl⟩
abbrev main_call5_v0 : Ref sig .tc := ⟨.hbm, 233, rfl⟩
abbrev main_call5_v1 : Ref sig .tc := ⟨.hbm, 234, rfl⟩
abbrev main_call5_cst_0 : Ref sig .tc := ⟨.hbm, 235, rfl⟩
abbrev main_call5_v2 : Ref sig .tc := ⟨.hbm, 236, rfl⟩
abbrev main_call5_v3 : Ref sig .tc := ⟨.hbm, 237, rfl⟩
abbrev main_call5_cst_1 : Ref sig .tc := ⟨.hbm, 238, rfl⟩
abbrev main_call5_call0_v0 : Ref sig .tc := ⟨.hbm, 239, rfl⟩
abbrev main_call5_call0_v1 : Ref sig .tc := ⟨.hbm, 240, rfl⟩
abbrev main_call5_v4 : Ref sig .tc := ⟨.hbm, 241, rfl⟩
abbrev main_call5_v5 : Ref sig .tc := ⟨.hbm, 242, rfl⟩
abbrev main_call5_cst_2 : Ref sig .tc := ⟨.hbm, 243, rfl⟩
abbrev main_call5_v6 : Ref sig .tc := ⟨.hbm, 244, rfl⟩
abbrev main_call5_v7 : Ref sig .tc := ⟨.hbm, 245, rfl⟩
abbrev main_v125 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_22 : Ref sig .tc := ⟨.hbm, 252, rfl⟩
abbrev main_v131 : Ref sig .tc := ⟨.hbm, 253, rfl⟩
abbrev main_call6_cst : Ref sig .tc := ⟨.hbm, 254, rfl⟩
abbrev main_call6_v0 : Ref sig .tc := ⟨.hbm, 255, rfl⟩
abbrev main_call6_v1 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_v5 : Ref sig .tc := ⟨.hbm, 260, rfl⟩
abbrev main_call6_v6 : Ref sig .tc := ⟨.hbm, 261, rfl⟩
abbrev main_call6_v7 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_v11 : Ref sig .tc := ⟨.hbm, 266, rfl⟩
abbrev main_v132 : Ref sig .tc := ⟨.hbm, 267, rfl⟩
abbrev main_cst_23 : Ref sig .tc := ⟨.hbm, 268, rfl⟩
abbrev main_v133 : Ref sig .tc := ⟨.hbm, 269, rfl⟩
abbrev main_v134 : Ref sig .tc := ⟨.hbm, 270, rfl⟩
abbrev main_cst_24 : Ref sig .tc := ⟨.hbm, 271, rfl⟩
abbrev main_v135 : Ref sig .tc := ⟨.hbm, 272, rfl⟩
abbrev main_v136 : Ref sig .tc := ⟨.hbm, 273, rfl⟩
abbrev main_v137 : Ref sig .tc := ⟨.hbm, 274, rfl⟩
abbrev main_cst_25 : Ref sig .tc := ⟨.hbm, 275, rfl⟩
abbrev main_v138 : Ref sig .tc := ⟨.hbm, 276, rfl⟩
abbrev main_v139 : Ref sig .tc := ⟨.hbm, 277, rfl⟩
abbrev main_cst_26 : Ref sig .tc := ⟨.hbm, 278, rfl⟩
abbrev main_v140 : Ref sig .tc := ⟨.hbm, 279, rfl⟩
abbrev main_v141 : Ref sig .tc := ⟨.hbm, 280, rfl⟩
abbrev main_c_27 : Ref sig .tc := ⟨.hbm, 281, rfl⟩
abbrev main_v142 : Ref sig .tc := ⟨.hbm, 282, rfl⟩
abbrev main_v143 : Ref sig .tc := ⟨.hbm, 283, rfl⟩
abbrev main_c_28 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_c_29 : Ref sig .tc := ⟨.hbm, 291, rfl⟩
abbrev main_v150 : Ref sig .tc := ⟨.hbm, 292, rfl⟩
abbrev main_v151 : Ref sig .tc := ⟨.hbm, 293, rfl⟩
abbrev main_c_30 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_c_31 : Ref sig .tc := ⟨.hbm, 302, rfl⟩
abbrev main_v159 : Ref sig .tc := ⟨.hbm, 303, rfl⟩
abbrev main_v160 : Ref sig .tc := ⟨.hbm, 304, rfl⟩
abbrev main_c_32 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩
abbrev main_v164 : Ref sig .tc := ⟨.hbm, 309, rfl⟩
abbrev main_v165 : Ref sig .tc := ⟨.hbm, 310, rfl⟩
abbrev main_v166 : Ref sig .tc := ⟨.hbm, 311, rfl⟩
abbrev main_v167 : Ref sig .tc := ⟨.hbm, 312, rfl⟩
abbrev main_v168 : Ref sig .tc := ⟨.hbm, 313, rfl⟩
abbrev main_cst_33 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_v175 : Ref sig .tc := ⟨.hbm, 321, rfl⟩
abbrev main_v176 : Ref sig .tc := ⟨.hbm, 322, rfl⟩
abbrev main_call7_cst : Ref sig .tc := ⟨.hbm, 323, rfl⟩
abbrev main_call7_v0 : Ref sig .tc := ⟨.hbm, 324, rfl⟩
abbrev main_call7_v1 : Ref sig .tc := ⟨.hbm, 325, rfl⟩
abbrev main_call7_cst_0 : Ref sig .tc := ⟨.hbm, 326, rfl⟩
abbrev main_call7_v2 : Ref sig .tc := ⟨.hbm, 327, rfl⟩
abbrev main_call7_v3 : Ref sig .tc := ⟨.hbm, 328, rfl⟩
abbrev main_call7_cst_1 : Ref sig .tc := ⟨.hbm, 329, rfl⟩
abbrev main_call7_call0_v0 : Ref sig .tc := ⟨.hbm, 330, rfl⟩
abbrev main_call7_call0_v1 : Ref sig .tc := ⟨.hbm, 331, rfl⟩
abbrev main_call7_v4 : Ref sig .tc := ⟨.hbm, 332, rfl⟩
abbrev main_call7_v5 : Ref sig .tc := ⟨.hbm, 333, rfl⟩
abbrev main_call7_cst_2 : Ref sig .tc := ⟨.hbm, 334, rfl⟩
abbrev main_call7_v6 : Ref sig .tc := ⟨.hbm, 335, rfl⟩
abbrev main_call7_v7 : Ref sig .tc := ⟨.hbm, 336, rfl⟩
abbrev main_v177 : Ref sig .tc := ⟨.hbm, 337, rfl⟩
abbrev main_v178 : Ref sig .tc := ⟨.hbm, 338, rfl⟩
abbrev main_v179 : Ref sig .tc := ⟨.hbm, 339, rfl⟩
abbrev main_v180 : Ref sig .tc := ⟨.hbm, 340, rfl⟩
abbrev main_cst_34 : Ref sig .tc := ⟨.hbm, 341, rfl⟩
abbrev main_v181 : Ref sig .tc := ⟨.hbm, 342, rfl⟩
abbrev main_v182 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_v187 : Ref sig .tc := ⟨.hbm, 348, rfl⟩
abbrev main_v188 : Ref sig .tc := ⟨.hbm, 349, rfl⟩
abbrev main_v189 : Ref sig .tc := ⟨.hbm, 350, rfl⟩
abbrev main_v190 : Ref sig .tc := ⟨.hbm, 351, rfl⟩
abbrev main_cst_35 : Ref sig .tc := ⟨.hbm, 352, rfl⟩
abbrev main_v191 : Ref sig .tc := ⟨.hbm, 353, rfl⟩
abbrev main_v192 : Ref sig .tc := ⟨.hbm, 354, rfl⟩
abbrev main_c_36 : Ref sig .tc := ⟨.hbm, 355, rfl⟩
abbrev main_v193 : Ref sig .tc := ⟨.hbm, 356, rfl⟩
abbrev main_v194 : Ref sig .tc := ⟨.hbm, 357, rfl⟩
abbrev main_c_37 : Ref sig .tc := ⟨.hbm, 358, rfl⟩
abbrev main_v195 : Ref sig .tc := ⟨.hbm, 359, rfl⟩
abbrev main_v196 : Ref sig .tc := ⟨.hbm, 360, rfl⟩
abbrev main_v197 : Ref sig .tc := ⟨.hbm, 361, rfl⟩
abbrev main_v198 : Ref sig .tc := ⟨.hbm, 362, rfl⟩
abbrev main_v199 : Ref sig .tc := ⟨.hbm, 363, rfl⟩
abbrev main_c_38 : Ref sig .tc := ⟨.hbm, 364, rfl⟩
abbrev main_v200 : Ref sig .tc := ⟨.hbm, 365, rfl⟩
abbrev main_v201 : Ref sig .tc := ⟨.hbm, 366, rfl⟩
abbrev main_c_39 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_call8_cst : Ref sig .tc := ⟨.hbm, 374, rfl⟩
abbrev main_call8_v0 : Ref sig .tc := ⟨.hbm, 375, rfl⟩
abbrev main_call8_v1 : Ref sig .tc := ⟨.hbm, 376, rfl⟩
abbrev main_call8_cst_0 : Ref sig .tc := ⟨.hbm, 377, rfl⟩
abbrev main_call8_v2 : Ref sig .tc := ⟨.hbm, 378, rfl⟩
abbrev main_call8_v3 : Ref sig .tc := ⟨.hbm, 379, rfl⟩
abbrev main_call8_cst_1 : Ref sig .tc := ⟨.hbm, 380, rfl⟩
abbrev main_call8_call0_v0 : Ref sig .tc := ⟨.hbm, 381, rfl⟩
abbrev main_call8_call0_v1 : Ref sig .tc := ⟨.hbm, 382, rfl⟩
abbrev main_call8_v4 : Ref sig .tc := ⟨.hbm, 383, rfl⟩
abbrev main_call8_v5 : Ref sig .tc := ⟨.hbm, 384, rfl⟩
abbrev main_call8_cst_2 : Ref sig .tc := ⟨.hbm, 385, rfl⟩
abbrev main_call8_v6 : Ref sig .tc := ⟨.hbm, 386, rfl⟩
abbrev main_call8_v7 : Ref sig .tc := ⟨.hbm, 387, rfl⟩
abbrev main_v208 : Ref sig .tc := ⟨.hbm, 388, rfl⟩
abbrev main_v209 : Ref sig .tc := ⟨.hbm, 389, rfl⟩
abbrev main_v210 : Ref sig .tc := ⟨.hbm, 390, rfl⟩
abbrev main_v211 : Ref sig .tc := ⟨.hbm, 391, rfl⟩
abbrev main_v212 : Ref sig .tc := ⟨.hbm, 392, rfl⟩
abbrev main_v213 : Ref sig .tc := ⟨.hbm, 393, rfl⟩
abbrev main_cst_40 : Ref sig .tc := ⟨.hbm, 394, rfl⟩
abbrev main_v214 : Ref sig .tc := ⟨.hbm, 395, rfl⟩
abbrev main_call9_cst : Ref sig .tc := ⟨.hbm, 396, rfl⟩
abbrev main_call9_v0 : Ref sig .tc := ⟨.hbm, 397, rfl⟩
abbrev main_call9_v1 : Ref sig .tc := ⟨.hbm, 398, rfl⟩
abbrev main_call9_v2 : Ref sig .tc := ⟨.hbm, 399, rfl⟩
abbrev main_call9_v3 : Ref sig .tc := ⟨.hbm, 400, rfl⟩
abbrev main_call9_v4 : Ref sig .tc := ⟨.hbm, 401, rfl⟩
abbrev main_call9_v5 : Ref sig .tc := ⟨.hbm, 402, rfl⟩
abbrev main_call9_v6 : Ref sig .tc := ⟨.hbm, 403, rfl⟩
abbrev main_call9_v7 : Ref sig .tc := ⟨.hbm, 404, rfl⟩
abbrev main_call9_v8 : Ref sig .tc := ⟨.hbm, 405, rfl⟩
abbrev main_call9_v9 : Ref sig .tc := ⟨.hbm, 406, rfl⟩
abbrev main_call9_v10 : Ref sig .tc := ⟨.hbm, 407, rfl⟩
abbrev main_call9_v11 : Ref sig .tc := ⟨.hbm, 408, rfl⟩
abbrev main_v215 : Ref sig .tc := ⟨.hbm, 409, rfl⟩
abbrev main_cst_41 : Ref sig .tc := ⟨.hbm, 410, rfl⟩
abbrev main_v216 : Ref sig .tc := ⟨.hbm, 411, rfl⟩
abbrev main_v217 : Ref sig .tc := ⟨.hbm, 412, rfl⟩
abbrev main_cst_42 : Ref sig .tc := ⟨.hbm, 413, rfl⟩
abbrev main_v218 : Ref sig .tc := ⟨.hbm, 414, rfl⟩
abbrev main_v219 : Ref sig .tc := ⟨.hbm, 415, rfl⟩
abbrev main_v220 : Ref sig .tc := ⟨.hbm, 416, rfl⟩
abbrev main_cst_43 : Ref sig .tc := ⟨.hbm, 417, rfl⟩
abbrev main_v221 : Ref sig .tc := ⟨.hbm, 418, rfl⟩
abbrev main_v222 : Ref sig .tc := ⟨.hbm, 419, rfl⟩
abbrev main_cst_44 : Ref sig .tc := ⟨.hbm, 420, rfl⟩
abbrev main_v223 : Ref sig .tc := ⟨.hbm, 421, rfl⟩
abbrev main_v224 : Ref sig .tc := ⟨.hbm, 422, rfl⟩
abbrev main_c_45 : Ref sig .tc := ⟨.hbm, 423, rfl⟩
abbrev main_v225 : Ref sig .tc := ⟨.hbm, 424, rfl⟩
abbrev main_v226 : Ref sig .tc := ⟨.hbm, 425, rfl⟩
abbrev main_c_46 : Ref sig .tc := ⟨.hbm, 426, rfl⟩
abbrev main_v227 : Ref sig .tc := ⟨.hbm, 427, rfl⟩
abbrev main_v228 : Ref sig .tc := ⟨.hbm, 428, rfl⟩
abbrev main_v229 : Ref sig .tc := ⟨.hbm, 429, rfl⟩
abbrev main_v230 : Ref sig .tc := ⟨.hbm, 430, rfl⟩
abbrev main_v231 : Ref sig .tc := ⟨.hbm, 431, rfl⟩
abbrev main_v232 : Ref sig .tc := ⟨.hbm, 432, rfl⟩
abbrev main_c_47 : Ref sig .tc := ⟨.hbm, 433, rfl⟩
abbrev main_v233 : Ref sig .tc := ⟨.hbm, 434, rfl⟩
abbrev main_v234 : Ref sig .tc := ⟨.hbm, 435, rfl⟩
abbrev main_c_48 : Ref sig .tc := ⟨.hbm, 436, rfl⟩
abbrev main_v235 : Ref sig .tc := ⟨.hbm, 437, rfl⟩
abbrev main_v236 : Ref sig .tc := ⟨.hbm, 438, rfl⟩
abbrev main_v237 : Ref sig .tc := ⟨.hbm, 439, rfl⟩
abbrev main_v238 : Ref sig .tc := ⟨.hbm, 440, rfl⟩
abbrev main_v239 : Ref sig .tc := ⟨.hbm, 441, rfl⟩
abbrev main_v240 : Ref sig .tc := ⟨.hbm, 442, rfl⟩
abbrev main_v241 : Ref sig .tc := ⟨.hbm, 443, rfl⟩
abbrev main_c_49 : Ref sig .tc := ⟨.hbm, 444, rfl⟩
abbrev main_v242 : Ref sig .tc := ⟨.hbm, 445, rfl⟩
abbrev main_v243 : Ref sig .tc := ⟨.hbm, 446, rfl⟩
abbrev main_c_50 : Ref sig .tc := ⟨.hbm, 447, rfl⟩
abbrev main_v244 : Ref sig .tc := ⟨.hbm, 448, rfl⟩
abbrev main_v245 : Ref sig .tc := ⟨.hbm, 449, rfl⟩
abbrev main_v246 : Ref sig .tc := ⟨.hbm, 450, rfl⟩
abbrev main_v247 : Ref sig .tc := ⟨.hbm, 451, rfl⟩
abbrev main_v248 : Ref sig .tc := ⟨.hbm, 452, rfl⟩
abbrev main_v249 : Ref sig .tc := ⟨.hbm, 453, rfl⟩
abbrev main_v250 : Ref sig .tc := ⟨.hbm, 454, rfl⟩
abbrev main_v251 : Ref sig .tc := ⟨.hbm, 455, rfl⟩
abbrev main_cst_51 : Ref sig .tc := ⟨.hbm, 456, rfl⟩
abbrev main_v252 : Ref sig .tc := ⟨.hbm, 457, rfl⟩
abbrev main_v253 : Ref sig .tc := ⟨.hbm, 458, rfl⟩
abbrev main_v254 : Ref sig .tc := ⟨.hbm, 459, rfl⟩
abbrev main_v255 : Ref sig .tc := ⟨.hbm, 460, rfl⟩
abbrev main_v256 : Ref sig .tc := ⟨.hbm, 461, rfl⟩
abbrev main_v257 : Ref sig .tc := ⟨.hbm, 462, rfl⟩
abbrev main_v258 : Ref sig .tc := ⟨.hbm, 463, rfl⟩
abbrev main_v259 : Ref sig .tc := ⟨.hbm, 464, rfl⟩
abbrev main_call10_cst : Ref sig .tc := ⟨.hbm, 465, rfl⟩
abbrev main_call10_v0 : Ref sig .tc := ⟨.hbm, 466, rfl⟩
abbrev main_call10_v1 : Ref sig .tc := ⟨.hbm, 467, rfl⟩
abbrev main_call10_cst_0 : Ref sig .tc := ⟨.hbm, 468, rfl⟩
abbrev main_call10_v2 : Ref sig .tc := ⟨.hbm, 469, rfl⟩
abbrev main_call10_v3 : Ref sig .tc := ⟨.hbm, 470, rfl⟩
abbrev main_call10_cst_1 : Ref sig .tc := ⟨.hbm, 471, rfl⟩
abbrev main_call10_call0_v0 : Ref sig .tc := ⟨.hbm, 472, rfl⟩
abbrev main_call10_call0_v1 : Ref sig .tc := ⟨.hbm, 473, rfl⟩
abbrev main_call10_v4 : Ref sig .tc := ⟨.hbm, 474, rfl⟩
abbrev main_call10_v5 : Ref sig .tc := ⟨.hbm, 475, rfl⟩
abbrev main_call10_cst_2 : Ref sig .tc := ⟨.hbm, 476, rfl⟩
abbrev main_call10_v6 : Ref sig .tc := ⟨.hbm, 477, rfl⟩
abbrev main_call10_v7 : Ref sig .tc := ⟨.hbm, 478, rfl⟩
abbrev main_v260 : Ref sig .tc := ⟨.hbm, 479, rfl⟩
abbrev main_v261 : Ref sig .tc := ⟨.hbm, 480, rfl⟩
abbrev main_v262 : Ref sig .tc := ⟨.hbm, 481, rfl⟩
abbrev main_v263 : Ref sig .tc := ⟨.hbm, 482, rfl⟩
abbrev main_cst_52 : Ref sig .tc := ⟨.hbm, 483, rfl⟩
abbrev main_v264 : Ref sig .tc := ⟨.hbm, 484, rfl⟩
abbrev main_v265 : Ref sig .tc := ⟨.hbm, 485, rfl⟩
abbrev main_v266 : Ref sig .tc := ⟨.hbm, 486, rfl⟩
abbrev main_v267 : Ref sig .tc := ⟨.hbm, 487, rfl⟩
abbrev main_v268 : Ref sig .tc := ⟨.hbm, 488, rfl⟩
abbrev main_v269 : Ref sig .tc := ⟨.hbm, 489, rfl⟩
abbrev main_v270 : Ref sig .tc := ⟨.hbm, 490, rfl⟩
abbrev main_v271 : Ref sig .tc := ⟨.hbm, 491, rfl⟩
abbrev main_v272 : Ref sig .tc := ⟨.hbm, 492, rfl⟩
abbrev main_v273 : Ref sig .tc := ⟨.hbm, 493, rfl⟩
abbrev main_cst_53 : Ref sig .tc := ⟨.hbm, 494, rfl⟩
abbrev main_v274 : Ref sig .tc := ⟨.hbm, 495, rfl⟩
abbrev main_v275 : Ref sig .tc := ⟨.hbm, 496, rfl⟩
abbrev main_c_54 : Ref sig .tc := ⟨.hbm, 497, rfl⟩
abbrev main_v276 : Ref sig .tc := ⟨.hbm, 498, rfl⟩
abbrev main_v277 : Ref sig .tc := ⟨.hbm, 499, rfl⟩
abbrev main_c_55 : Ref sig .tc := ⟨.hbm, 500, rfl⟩
abbrev main_v278 : Ref sig .tc := ⟨.hbm, 501, rfl⟩
abbrev main_v279 : Ref sig .tc := ⟨.hbm, 502, rfl⟩
abbrev main_v280 : Ref sig .tc := ⟨.hbm, 503, rfl⟩
abbrev main_v281 : Ref sig .tc := ⟨.hbm, 504, rfl⟩
abbrev main_v282 : Ref sig .tc := ⟨.hbm, 505, rfl⟩
abbrev main_c_56 : Ref sig .tc := ⟨.hbm, 506, rfl⟩
abbrev main_v283 : Ref sig .tc := ⟨.hbm, 507, rfl⟩
abbrev main_v284 : Ref sig .tc := ⟨.hbm, 508, rfl⟩
abbrev main_c_57 : Ref sig .tc := ⟨.hbm, 509, rfl⟩
abbrev main_v285 : Ref sig .tc := ⟨.hbm, 510, rfl⟩
abbrev main_v286 : Ref sig .tc := ⟨.hbm, 511, rfl⟩
abbrev main_v287 : Ref sig .tc := ⟨.hbm, 512, rfl⟩
abbrev main_v288 : Ref sig .tc := ⟨.hbm, 513, rfl⟩
abbrev main_v289 : Ref sig .tc := ⟨.hbm, 514, rfl⟩
abbrev main_v290 : Ref sig .tc := ⟨.hbm, 515, rfl⟩
abbrev main_call11_cst : Ref sig .tc := ⟨.hbm, 516, rfl⟩
abbrev main_call11_v0 : Ref sig .tc := ⟨.hbm, 517, rfl⟩
abbrev main_call11_v1 : Ref sig .tc := ⟨.hbm, 518, rfl⟩
abbrev main_call11_cst_0 : Ref sig .tc := ⟨.hbm, 519, rfl⟩
abbrev main_call11_v2 : Ref sig .tc := ⟨.hbm, 520, rfl⟩
abbrev main_call11_v3 : Ref sig .tc := ⟨.hbm, 521, rfl⟩
abbrev main_call11_cst_1 : Ref sig .tc := ⟨.hbm, 522, rfl⟩
abbrev main_call11_call0_v0 : Ref sig .tc := ⟨.hbm, 523, rfl⟩
abbrev main_call11_call0_v1 : Ref sig .tc := ⟨.hbm, 524, rfl⟩
abbrev main_call11_v4 : Ref sig .tc := ⟨.hbm, 525, rfl⟩
abbrev main_call11_v5 : Ref sig .tc := ⟨.hbm, 526, rfl⟩
abbrev main_call11_cst_2 : Ref sig .tc := ⟨.hbm, 527, rfl⟩
abbrev main_call11_v6 : Ref sig .tc := ⟨.hbm, 528, rfl⟩
abbrev main_call11_v7 : Ref sig .tc := ⟨.hbm, 529, rfl⟩
abbrev main_v291 : Ref sig .tc := ⟨.hbm, 530, rfl⟩
abbrev main_v292 : Ref sig .tc := ⟨.hbm, 531, rfl⟩
abbrev main_v293 : Ref sig .tc := ⟨.hbm, 532, rfl⟩
abbrev main_v294 : Ref sig .tc := ⟨.hbm, 533, rfl⟩
abbrev main_v295 : Ref sig .tc := ⟨.hbm, 534, rfl⟩
abbrev main_v296 : Ref sig .tc := ⟨.hbm, 535, rfl⟩
abbrev main_cst_58 : Ref sig .tc := ⟨.hbm, 536, rfl⟩
abbrev main_v297 : Ref sig .tc := ⟨.hbm, 537, rfl⟩
abbrev main_call12_cst : Ref sig .tc := ⟨.hbm, 538, rfl⟩
abbrev main_call12_v0 : Ref sig .tc := ⟨.hbm, 539, rfl⟩
abbrev main_call12_v1 : Ref sig .tc := ⟨.hbm, 540, rfl⟩
abbrev main_call12_v2 : Ref sig .tc := ⟨.hbm, 541, rfl⟩
abbrev main_call12_v3 : Ref sig .tc := ⟨.hbm, 542, rfl⟩
abbrev main_call12_v4 : Ref sig .tc := ⟨.hbm, 543, rfl⟩
abbrev main_call12_v5 : Ref sig .tc := ⟨.hbm, 544, rfl⟩
abbrev main_call12_v6 : Ref sig .tc := ⟨.hbm, 545, rfl⟩
abbrev main_call12_v7 : Ref sig .tc := ⟨.hbm, 546, rfl⟩
abbrev main_call12_v8 : Ref sig .tc := ⟨.hbm, 547, rfl⟩
abbrev main_call12_v9 : Ref sig .tc := ⟨.hbm, 548, rfl⟩
abbrev main_call12_v10 : Ref sig .tc := ⟨.hbm, 549, rfl⟩
abbrev main_call12_v11 : Ref sig .tc := ⟨.hbm, 550, rfl⟩
abbrev main_v298 : Ref sig .tc := ⟨.hbm, 551, rfl⟩
abbrev main_cst_59 : Ref sig .tc := ⟨.hbm, 552, rfl⟩
abbrev main_v299 : Ref sig .tc := ⟨.hbm, 553, rfl⟩
abbrev main_v300 : Ref sig .tc := ⟨.hbm, 554, rfl⟩
abbrev main_cst_60 : Ref sig .tc := ⟨.hbm, 555, rfl⟩
abbrev main_v301 : Ref sig .tc := ⟨.hbm, 556, rfl⟩
abbrev main_v302 : Ref sig .tc := ⟨.hbm, 557, rfl⟩
abbrev main_v303 : Ref sig .tc := ⟨.hbm, 558, rfl⟩
abbrev main_cst_61 : Ref sig .tc := ⟨.hbm, 559, rfl⟩
abbrev main_v304 : Ref sig .tc := ⟨.hbm, 560, rfl⟩
abbrev main_v305 : Ref sig .tc := ⟨.hbm, 561, rfl⟩
abbrev main_cst_62 : Ref sig .tc := ⟨.hbm, 562, rfl⟩
abbrev main_v306 : Ref sig .tc := ⟨.hbm, 563, rfl⟩
abbrev main_v307 : Ref sig .tc := ⟨.hbm, 564, rfl⟩
abbrev main_c_63 : Ref sig .tc := ⟨.hbm, 565, rfl⟩
abbrev main_v308 : Ref sig .tc := ⟨.hbm, 566, rfl⟩
abbrev main_v309 : Ref sig .tc := ⟨.hbm, 567, rfl⟩
abbrev main_c_64 : Ref sig .tc := ⟨.hbm, 568, rfl⟩
abbrev main_v310 : Ref sig .tc := ⟨.hbm, 569, rfl⟩
abbrev main_v311 : Ref sig .tc := ⟨.hbm, 570, rfl⟩
abbrev main_v312 : Ref sig .tc := ⟨.hbm, 571, rfl⟩
abbrev main_v313 : Ref sig .tc := ⟨.hbm, 572, rfl⟩
abbrev main_v314 : Ref sig .tc := ⟨.hbm, 573, rfl⟩
abbrev main_v315 : Ref sig .tc := ⟨.hbm, 574, rfl⟩
abbrev main_c_65 : Ref sig .tc := ⟨.hbm, 575, rfl⟩
abbrev main_v316 : Ref sig .tc := ⟨.hbm, 576, rfl⟩
abbrev main_v317 : Ref sig .tc := ⟨.hbm, 577, rfl⟩
abbrev main_c_66 : Ref sig .tc := ⟨.hbm, 578, rfl⟩
abbrev main_v318 : Ref sig .tc := ⟨.hbm, 579, rfl⟩
abbrev main_v319 : Ref sig .tc := ⟨.hbm, 580, rfl⟩
abbrev main_v320 : Ref sig .tc := ⟨.hbm, 581, rfl⟩
abbrev main_v321 : Ref sig .tc := ⟨.hbm, 582, rfl⟩
abbrev main_v322 : Ref sig .tc := ⟨.hbm, 583, rfl⟩
abbrev main_v323 : Ref sig .tc := ⟨.hbm, 584, rfl⟩
abbrev main_v324 : Ref sig .tc := ⟨.hbm, 585, rfl⟩
abbrev main_c_67 : Ref sig .tc := ⟨.hbm, 586, rfl⟩
abbrev main_v325 : Ref sig .tc := ⟨.hbm, 587, rfl⟩
abbrev main_v326 : Ref sig .tc := ⟨.hbm, 588, rfl⟩
abbrev main_c_68 : Ref sig .tc := ⟨.hbm, 589, rfl⟩
abbrev main_v327 : Ref sig .tc := ⟨.hbm, 590, rfl⟩
abbrev main_v328 : Ref sig .tc := ⟨.hbm, 591, rfl⟩
abbrev main_v329 : Ref sig .tc := ⟨.hbm, 592, rfl⟩
abbrev main_v330 : Ref sig .tc := ⟨.hbm, 593, rfl⟩
abbrev main_v331 : Ref sig .tc := ⟨.hbm, 594, rfl⟩
abbrev main_v332 : Ref sig .tc := ⟨.hbm, 595, rfl⟩
abbrev main_v333 : Ref sig .tc := ⟨.hbm, 596, rfl⟩
abbrev main_v334 : Ref sig .tc := ⟨.hbm, 597, rfl⟩
abbrev main_cst_69 : Ref sig .tc := ⟨.hbm, 598, rfl⟩
abbrev main_v335 : Ref sig .tc := ⟨.hbm, 599, rfl⟩
abbrev main_v336 : Ref sig .tc := ⟨.hbm, 600, rfl⟩
abbrev main_v337 : Ref sig .tc := ⟨.hbm, 601, rfl⟩
abbrev main_v338 : Ref sig .tc := ⟨.hbm, 602, rfl⟩
abbrev main_v339 : Ref sig .tc := ⟨.hbm, 603, rfl⟩
abbrev main_v340 : Ref sig .tc := ⟨.hbm, 604, rfl⟩
abbrev main_v341 : Ref sig .tc := ⟨.hbm, 605, rfl⟩
abbrev main_v342 : Ref sig .tc := ⟨.hbm, 606, rfl⟩
abbrev main_call13_cst : Ref sig .tc := ⟨.hbm, 607, rfl⟩
abbrev main_call13_v0 : Ref sig .tc := ⟨.hbm, 608, rfl⟩
abbrev main_call13_v1 : Ref sig .tc := ⟨.hbm, 609, rfl⟩
abbrev main_call13_cst_0 : Ref sig .tc := ⟨.hbm, 610, rfl⟩
abbrev main_call13_v2 : Ref sig .tc := ⟨.hbm, 611, rfl⟩
abbrev main_call13_v3 : Ref sig .tc := ⟨.hbm, 612, rfl⟩
abbrev main_call13_cst_1 : Ref sig .tc := ⟨.hbm, 613, rfl⟩
abbrev main_call13_call0_v0 : Ref sig .tc := ⟨.hbm, 614, rfl⟩
abbrev main_call13_call0_v1 : Ref sig .tc := ⟨.hbm, 615, rfl⟩
abbrev main_call13_v4 : Ref sig .tc := ⟨.hbm, 616, rfl⟩
abbrev main_call13_v5 : Ref sig .tc := ⟨.hbm, 617, rfl⟩
abbrev main_call13_cst_2 : Ref sig .tc := ⟨.hbm, 618, rfl⟩
abbrev main_call13_v6 : Ref sig .tc := ⟨.hbm, 619, rfl⟩
abbrev main_call13_v7 : Ref sig .tc := ⟨.hbm, 620, rfl⟩
abbrev main_v343 : Ref sig .tc := ⟨.hbm, 621, rfl⟩
abbrev main_v344 : Ref sig .tc := ⟨.hbm, 622, rfl⟩
abbrev main_v345 : Ref sig .tc := ⟨.hbm, 623, rfl⟩
abbrev main_v346 : Ref sig .tc := ⟨.hbm, 624, rfl⟩
abbrev main_cst_70 : Ref sig .tc := ⟨.hbm, 625, rfl⟩
abbrev main_v347 : Ref sig .tc := ⟨.hbm, 626, rfl⟩
abbrev main_v348 : Ref sig .tc := ⟨.hbm, 627, rfl⟩
abbrev main_v349 : Ref sig .tc := ⟨.hbm, 628, rfl⟩
abbrev main_v350 : Ref sig .tc := ⟨.hbm, 629, rfl⟩
abbrev main_v351 : Ref sig .tc := ⟨.hbm, 630, rfl⟩
abbrev main_v352 : Ref sig .tc := ⟨.hbm, 631, rfl⟩
abbrev main_v353 : Ref sig .tc := ⟨.hbm, 632, rfl⟩
abbrev main_v354 : Ref sig .tc := ⟨.hbm, 633, rfl⟩
abbrev main_v355 : Ref sig .tc := ⟨.hbm, 634, rfl⟩
abbrev main_v356 : Ref sig .tc := ⟨.hbm, 635, rfl⟩
abbrev main_cst_71 : Ref sig .tc := ⟨.hbm, 636, rfl⟩
abbrev main_v357 : Ref sig .tc := ⟨.hbm, 637, rfl⟩
abbrev main_v358 : Ref sig .tc := ⟨.hbm, 638, rfl⟩
abbrev main_c_72 : Ref sig .tc := ⟨.hbm, 639, rfl⟩
abbrev main_v359 : Ref sig .tc := ⟨.hbm, 640, rfl⟩
abbrev main_v360 : Ref sig .tc := ⟨.hbm, 641, rfl⟩
abbrev main_c_73 : Ref sig .tc := ⟨.hbm, 642, rfl⟩
abbrev main_v361 : Ref sig .tc := ⟨.hbm, 643, rfl⟩
abbrev main_v362 : Ref sig .tc := ⟨.hbm, 644, rfl⟩
abbrev main_v363 : Ref sig .tc := ⟨.hbm, 645, rfl⟩
abbrev main_v364 : Ref sig .tc := ⟨.hbm, 646, rfl⟩
abbrev main_v365 : Ref sig .tc := ⟨.hbm, 647, rfl⟩
abbrev main_c_74 : Ref sig .tc := ⟨.hbm, 648, rfl⟩
abbrev main_v366 : Ref sig .tc := ⟨.hbm, 649, rfl⟩
abbrev main_v367 : Ref sig .tc := ⟨.hbm, 650, rfl⟩
abbrev main_c_75 : Ref sig .tc := ⟨.hbm, 651, rfl⟩
abbrev main_v368 : Ref sig .tc := ⟨.hbm, 652, rfl⟩
abbrev main_v369 : Ref sig .tc := ⟨.hbm, 653, rfl⟩
abbrev main_v370 : Ref sig .tc := ⟨.hbm, 654, rfl⟩
abbrev main_v371 : Ref sig .tc := ⟨.hbm, 655, rfl⟩
abbrev main_v372 : Ref sig .tc := ⟨.hbm, 656, rfl⟩
abbrev main_v373 : Ref sig .tc := ⟨.hbm, 657, rfl⟩
abbrev main_call14_cst : Ref sig .tc := ⟨.hbm, 658, rfl⟩
abbrev main_call14_v0 : Ref sig .tc := ⟨.hbm, 659, rfl⟩
abbrev main_call14_v1 : Ref sig .tc := ⟨.hbm, 660, rfl⟩
abbrev main_call14_cst_0 : Ref sig .tc := ⟨.hbm, 661, rfl⟩
abbrev main_call14_v2 : Ref sig .tc := ⟨.hbm, 662, rfl⟩
abbrev main_call14_v3 : Ref sig .tc := ⟨.hbm, 663, rfl⟩
abbrev main_call14_cst_1 : Ref sig .tc := ⟨.hbm, 664, rfl⟩
abbrev main_call14_call0_v0 : Ref sig .tc := ⟨.hbm, 665, rfl⟩
abbrev main_call14_call0_v1 : Ref sig .tc := ⟨.hbm, 666, rfl⟩
abbrev main_call14_v4 : Ref sig .tc := ⟨.hbm, 667, rfl⟩
abbrev main_call14_v5 : Ref sig .tc := ⟨.hbm, 668, rfl⟩
abbrev main_call14_cst_2 : Ref sig .tc := ⟨.hbm, 669, rfl⟩
abbrev main_call14_v6 : Ref sig .tc := ⟨.hbm, 670, rfl⟩
abbrev main_call14_v7 : Ref sig .tc := ⟨.hbm, 671, rfl⟩
abbrev main_v374 : Ref sig .tc := ⟨.hbm, 672, rfl⟩
abbrev main_v375 : Ref sig .tc := ⟨.hbm, 673, rfl⟩
abbrev main_v376 : Ref sig .tc := ⟨.hbm, 674, rfl⟩
abbrev main_v377 : Ref sig .tc := ⟨.hbm, 675, rfl⟩
abbrev main_v378 : Ref sig .tc := ⟨.hbm, 676, rfl⟩
abbrev main_v379 : Ref sig .tc := ⟨.hbm, 677, rfl⟩
abbrev main_cst_76 : Ref sig .tc := ⟨.hbm, 678, rfl⟩
abbrev main_v380 : Ref sig .tc := ⟨.hbm, 679, rfl⟩
abbrev main_call15_cst : Ref sig .tc := ⟨.hbm, 680, rfl⟩
abbrev main_call15_v0 : Ref sig .tc := ⟨.hbm, 681, rfl⟩
abbrev main_call15_v1 : Ref sig .tc := ⟨.hbm, 682, rfl⟩
abbrev main_call15_v2 : Ref sig .tc := ⟨.hbm, 683, rfl⟩
abbrev main_call15_v3 : Ref sig .tc := ⟨.hbm, 684, rfl⟩
abbrev main_call15_v4 : Ref sig .tc := ⟨.hbm, 685, rfl⟩
abbrev main_call15_v5 : Ref sig .tc := ⟨.hbm, 686, rfl⟩
abbrev main_call15_v6 : Ref sig .tc := ⟨.hbm, 687, rfl⟩
abbrev main_call15_v7 : Ref sig .tc := ⟨.hbm, 688, rfl⟩
abbrev main_call15_v8 : Ref sig .tc := ⟨.hbm, 689, rfl⟩
abbrev main_call15_v9 : Ref sig .tc := ⟨.hbm, 690, rfl⟩
abbrev main_call15_v10 : Ref sig .tc := ⟨.hbm, 691, rfl⟩
abbrev main_call15_v11 : Ref sig .tc := ⟨.hbm, 692, rfl⟩
abbrev main_v381 : Ref sig .tc := ⟨.hbm, 693, rfl⟩
abbrev main_cst_77 : Ref sig .tc := ⟨.hbm, 694, rfl⟩
abbrev main_v382 : Ref sig .tc := ⟨.hbm, 695, rfl⟩
abbrev main_v383 : Ref sig .tc := ⟨.hbm, 696, rfl⟩
abbrev main_cst_78 : Ref sig .tc := ⟨.hbm, 697, rfl⟩
abbrev main_v384 : Ref sig .tc := ⟨.hbm, 698, rfl⟩
abbrev main_v385 : Ref sig .tc := ⟨.hbm, 699, rfl⟩
abbrev main_v386 : Ref sig .tc := ⟨.hbm, 700, rfl⟩
abbrev main_cst_79 : Ref sig .tc := ⟨.hbm, 701, rfl⟩
abbrev main_v387 : Ref sig .tc := ⟨.hbm, 702, rfl⟩
abbrev main_v388 : Ref sig .tc := ⟨.hbm, 703, rfl⟩
abbrev main_cst_80 : Ref sig .tc := ⟨.hbm, 704, rfl⟩
abbrev main_v389 : Ref sig .tc := ⟨.hbm, 705, rfl⟩
abbrev main_v390 : Ref sig .tc := ⟨.hbm, 706, rfl⟩
abbrev main_c_81 : Ref sig .tc := ⟨.hbm, 707, rfl⟩
abbrev main_v391 : Ref sig .tc := ⟨.hbm, 708, rfl⟩
abbrev main_v392 : Ref sig .tc := ⟨.hbm, 709, rfl⟩
abbrev main_c_82 : Ref sig .tc := ⟨.hbm, 710, rfl⟩
abbrev main_v393 : Ref sig .tc := ⟨.hbm, 711, rfl⟩
abbrev main_v394 : Ref sig .tc := ⟨.hbm, 712, rfl⟩
abbrev main_v395 : Ref sig .tc := ⟨.hbm, 713, rfl⟩
abbrev main_v396 : Ref sig .tc := ⟨.hbm, 714, rfl⟩
abbrev main_v397 : Ref sig .tc := ⟨.hbm, 715, rfl⟩
abbrev main_v398 : Ref sig .tc := ⟨.hbm, 716, rfl⟩
abbrev main_c_83 : Ref sig .tc := ⟨.hbm, 717, rfl⟩
abbrev main_v399 : Ref sig .tc := ⟨.hbm, 718, rfl⟩
abbrev main_v400 : Ref sig .tc := ⟨.hbm, 719, rfl⟩
abbrev main_c_84 : Ref sig .tc := ⟨.hbm, 720, rfl⟩
abbrev main_v401 : Ref sig .tc := ⟨.hbm, 721, rfl⟩
abbrev main_v402 : Ref sig .tc := ⟨.hbm, 722, rfl⟩
abbrev main_v403 : Ref sig .tc := ⟨.hbm, 723, rfl⟩
abbrev main_v404 : Ref sig .tc := ⟨.hbm, 724, rfl⟩
abbrev main_v405 : Ref sig .tc := ⟨.hbm, 725, rfl⟩
abbrev main_v406 : Ref sig .tc := ⟨.hbm, 726, rfl⟩
abbrev main_v407 : Ref sig .tc := ⟨.hbm, 727, rfl⟩
abbrev main_c_85 : Ref sig .tc := ⟨.hbm, 728, rfl⟩
abbrev main_v408 : Ref sig .tc := ⟨.hbm, 729, rfl⟩
abbrev main_v409 : Ref sig .tc := ⟨.hbm, 730, rfl⟩
abbrev main_c_86 : Ref sig .tc := ⟨.hbm, 731, rfl⟩
abbrev main_v410 : Ref sig .tc := ⟨.hbm, 732, rfl⟩
abbrev main_v411 : Ref sig .tc := ⟨.hbm, 733, rfl⟩
abbrev main_v412 : Ref sig .tc := ⟨.hbm, 734, rfl⟩
abbrev main_v413 : Ref sig .tc := ⟨.hbm, 735, rfl⟩
abbrev main_v414 : Ref sig .tc := ⟨.hbm, 736, rfl⟩
abbrev main_v415 : Ref sig .tc := ⟨.hbm, 737, rfl⟩
abbrev main_v416 : Ref sig .tc := ⟨.hbm, 738, rfl⟩
abbrev main_v417 : Ref sig .tc := ⟨.hbm, 739, rfl⟩
abbrev main_cst_87 : Ref sig .tc := ⟨.hbm, 740, rfl⟩
abbrev main_v418 : Ref sig .tc := ⟨.hbm, 741, rfl⟩
abbrev main_v419 : Ref sig .tc := ⟨.hbm, 742, rfl⟩
abbrev main_v420 : Ref sig .tc := ⟨.hbm, 743, rfl⟩
abbrev main_v421 : Ref sig .tc := ⟨.hbm, 744, rfl⟩
abbrev main_v422 : Ref sig .tc := ⟨.hbm, 745, rfl⟩
abbrev main_v423 : Ref sig .tc := ⟨.hbm, 746, rfl⟩
abbrev main_v424 : Ref sig .tc := ⟨.hbm, 747, rfl⟩
abbrev main_v425 : Ref sig .tc := ⟨.hbm, 748, rfl⟩
abbrev main_call16_cst : Ref sig .tc := ⟨.hbm, 749, rfl⟩
abbrev main_call16_v0 : Ref sig .tc := ⟨.hbm, 750, rfl⟩
abbrev main_call16_v1 : Ref sig .tc := ⟨.hbm, 751, rfl⟩
abbrev main_call16_cst_0 : Ref sig .tc := ⟨.hbm, 752, rfl⟩
abbrev main_call16_v2 : Ref sig .tc := ⟨.hbm, 753, rfl⟩
abbrev main_call16_v3 : Ref sig .tc := ⟨.hbm, 754, rfl⟩
abbrev main_call16_cst_1 : Ref sig .tc := ⟨.hbm, 755, rfl⟩
abbrev main_call16_call0_v0 : Ref sig .tc := ⟨.hbm, 756, rfl⟩
abbrev main_call16_call0_v1 : Ref sig .tc := ⟨.hbm, 757, rfl⟩
abbrev main_call16_v4 : Ref sig .tc := ⟨.hbm, 758, rfl⟩
abbrev main_call16_v5 : Ref sig .tc := ⟨.hbm, 759, rfl⟩
abbrev main_call16_cst_2 : Ref sig .tc := ⟨.hbm, 760, rfl⟩
abbrev main_call16_v6 : Ref sig .tc := ⟨.hbm, 761, rfl⟩
abbrev main_call16_v7 : Ref sig .tc := ⟨.hbm, 762, rfl⟩
abbrev main_v426 : Ref sig .tc := ⟨.hbm, 763, rfl⟩
abbrev main_v427 : Ref sig .tc := ⟨.hbm, 764, rfl⟩
abbrev main_v428 : Ref sig .tc := ⟨.hbm, 765, rfl⟩
abbrev main_v429 : Ref sig .tc := ⟨.hbm, 766, rfl⟩
abbrev main_cst_88 : Ref sig .tc := ⟨.hbm, 767, rfl⟩
abbrev main_v430 : Ref sig .tc := ⟨.hbm, 768, rfl⟩
abbrev main_v431 : Ref sig .tc := ⟨.hbm, 769, rfl⟩
abbrev main_v432 : Ref sig .tc := ⟨.hbm, 770, rfl⟩
abbrev main_v433 : Ref sig .tc := ⟨.hbm, 771, rfl⟩
abbrev main_v434 : Ref sig .tc := ⟨.hbm, 772, rfl⟩
abbrev main_v435 : Ref sig .tc := ⟨.hbm, 773, rfl⟩
abbrev main_v436 : Ref sig .tc := ⟨.hbm, 774, rfl⟩
abbrev main_v437 : Ref sig .tc := ⟨.hbm, 775, rfl⟩
abbrev main_v438 : Ref sig .tc := ⟨.hbm, 776, rfl⟩
abbrev main_v439 : Ref sig .tc := ⟨.hbm, 777, rfl⟩
abbrev main_cst_89 : Ref sig .tc := ⟨.hbm, 778, rfl⟩
abbrev main_v440 : Ref sig .tc := ⟨.hbm, 779, rfl⟩
abbrev main_v441 : Ref sig .tc := ⟨.hbm, 780, rfl⟩
abbrev main_c_90 : Ref sig .tc := ⟨.hbm, 781, rfl⟩
abbrev main_v442 : Ref sig .tc := ⟨.hbm, 782, rfl⟩
abbrev main_v443 : Ref sig .tc := ⟨.hbm, 783, rfl⟩
abbrev main_c_91 : Ref sig .tc := ⟨.hbm, 784, rfl⟩
abbrev main_v444 : Ref sig .tc := ⟨.hbm, 785, rfl⟩
abbrev main_v445 : Ref sig .tc := ⟨.hbm, 786, rfl⟩
abbrev main_v446 : Ref sig .tc := ⟨.hbm, 787, rfl⟩
abbrev main_v447 : Ref sig .tc := ⟨.hbm, 788, rfl⟩
abbrev main_v448 : Ref sig .tc := ⟨.hbm, 789, rfl⟩
abbrev main_c_92 : Ref sig .tc := ⟨.hbm, 790, rfl⟩
abbrev main_v449 : Ref sig .tc := ⟨.hbm, 791, rfl⟩
abbrev main_v450 : Ref sig .tc := ⟨.hbm, 792, rfl⟩
abbrev main_c_93 : Ref sig .tc := ⟨.hbm, 793, rfl⟩
abbrev main_v451 : Ref sig .tc := ⟨.hbm, 794, rfl⟩
abbrev main_v452 : Ref sig .tc := ⟨.hbm, 795, rfl⟩
abbrev main_v453 : Ref sig .tc := ⟨.hbm, 796, rfl⟩
abbrev main_v454 : Ref sig .tc := ⟨.hbm, 797, rfl⟩
abbrev main_v455 : Ref sig .tc := ⟨.hbm, 798, rfl⟩
abbrev main_v456 : Ref sig .tc := ⟨.hbm, 799, rfl⟩
abbrev main_call17_cst : Ref sig .tc := ⟨.hbm, 800, rfl⟩
abbrev main_call17_v0 : Ref sig .tc := ⟨.hbm, 801, rfl⟩
abbrev main_call17_v1 : Ref sig .tc := ⟨.hbm, 802, rfl⟩
abbrev main_call17_cst_0 : Ref sig .tc := ⟨.hbm, 803, rfl⟩
abbrev main_call17_v2 : Ref sig .tc := ⟨.hbm, 804, rfl⟩
abbrev main_call17_v3 : Ref sig .tc := ⟨.hbm, 805, rfl⟩
abbrev main_call17_cst_1 : Ref sig .tc := ⟨.hbm, 806, rfl⟩
abbrev main_call17_call0_v0 : Ref sig .tc := ⟨.hbm, 807, rfl⟩
abbrev main_call17_call0_v1 : Ref sig .tc := ⟨.hbm, 808, rfl⟩
abbrev main_call17_v4 : Ref sig .tc := ⟨.hbm, 809, rfl⟩
abbrev main_call17_v5 : Ref sig .tc := ⟨.hbm, 810, rfl⟩
abbrev main_call17_cst_2 : Ref sig .tc := ⟨.hbm, 811, rfl⟩
abbrev main_call17_v6 : Ref sig .tc := ⟨.hbm, 812, rfl⟩
abbrev main_call17_v7 : Ref sig .tc := ⟨.hbm, 813, rfl⟩
abbrev main_v457 : Ref sig .tc := ⟨.hbm, 814, rfl⟩
abbrev main_v458 : Ref sig .tc := ⟨.hbm, 815, rfl⟩
abbrev main_v459 : Ref sig .tc := ⟨.hbm, 816, rfl⟩
abbrev main_v460 : Ref sig .tc := ⟨.hbm, 817, rfl⟩
abbrev main_v461 : Ref sig .tc := ⟨.hbm, 818, rfl⟩
abbrev main_v462 : Ref sig .tc := ⟨.hbm, 819, rfl⟩
abbrev main_cst_94 : Ref sig .tc := ⟨.hbm, 820, rfl⟩
abbrev main_v463 : Ref sig .tc := ⟨.hbm, 821, rfl⟩
abbrev main_call18_cst : Ref sig .tc := ⟨.hbm, 822, rfl⟩
abbrev main_call18_v0 : Ref sig .tc := ⟨.hbm, 823, rfl⟩
abbrev main_call18_v1 : Ref sig .tc := ⟨.hbm, 824, rfl⟩
abbrev main_call18_v2 : Ref sig .tc := ⟨.hbm, 825, rfl⟩
abbrev main_call18_v3 : Ref sig .tc := ⟨.hbm, 826, rfl⟩
abbrev main_call18_v4 : Ref sig .tc := ⟨.hbm, 827, rfl⟩
abbrev main_call18_v5 : Ref sig .tc := ⟨.hbm, 828, rfl⟩
abbrev main_call18_v6 : Ref sig .tc := ⟨.hbm, 829, rfl⟩
abbrev main_call18_v7 : Ref sig .tc := ⟨.hbm, 830, rfl⟩
abbrev main_call18_v8 : Ref sig .tc := ⟨.hbm, 831, rfl⟩
abbrev main_call18_v9 : Ref sig .tc := ⟨.hbm, 832, rfl⟩
abbrev main_call18_v10 : Ref sig .tc := ⟨.hbm, 833, rfl⟩
abbrev main_call18_v11 : Ref sig .tc := ⟨.hbm, 834, rfl⟩
abbrev main_v464 : Ref sig .tc := ⟨.hbm, 835, rfl⟩
abbrev main_cst_95 : Ref sig .tc := ⟨.hbm, 836, rfl⟩
abbrev main_v465 : Ref sig .tc := ⟨.hbm, 837, rfl⟩
abbrev main_v466 : Ref sig .tc := ⟨.hbm, 838, rfl⟩
abbrev main_cst_96 : Ref sig .tc := ⟨.hbm, 839, rfl⟩
abbrev main_v467 : Ref sig .tc := ⟨.hbm, 840, rfl⟩
abbrev main_v468 : Ref sig .tc := ⟨.hbm, 841, rfl⟩
abbrev main_v469 : Ref sig .tc := ⟨.hbm, 842, rfl⟩
abbrev main_cst_97 : Ref sig .tc := ⟨.hbm, 843, rfl⟩
abbrev main_v470 : Ref sig .tc := ⟨.hbm, 844, rfl⟩
abbrev main_v471 : Ref sig .tc := ⟨.hbm, 845, rfl⟩
abbrev main_cst_98 : Ref sig .tc := ⟨.hbm, 846, rfl⟩
abbrev main_v472 : Ref sig .tc := ⟨.hbm, 847, rfl⟩
abbrev main_v473 : Ref sig .tc := ⟨.hbm, 848, rfl⟩
abbrev main_c_99 : Ref sig .tc := ⟨.hbm, 849, rfl⟩
abbrev main_v474 : Ref sig .tc := ⟨.hbm, 850, rfl⟩
abbrev main_v475 : Ref sig .tc := ⟨.hbm, 851, rfl⟩
abbrev main_c_100 : Ref sig .tc := ⟨.hbm, 852, rfl⟩
abbrev main_v476 : Ref sig .tc := ⟨.hbm, 853, rfl⟩
abbrev main_v477 : Ref sig .tc := ⟨.hbm, 854, rfl⟩
abbrev main_v478 : Ref sig .tc := ⟨.hbm, 855, rfl⟩
abbrev main_v479 : Ref sig .tc := ⟨.hbm, 856, rfl⟩
abbrev main_v480 : Ref sig .tc := ⟨.hbm, 857, rfl⟩
abbrev main_v481 : Ref sig .tc := ⟨.hbm, 858, rfl⟩
abbrev main_c_101 : Ref sig .tc := ⟨.hbm, 859, rfl⟩
abbrev main_v482 : Ref sig .tc := ⟨.hbm, 860, rfl⟩
abbrev main_v483 : Ref sig .tc := ⟨.hbm, 861, rfl⟩
abbrev main_c_102 : Ref sig .tc := ⟨.hbm, 862, rfl⟩
abbrev main_v484 : Ref sig .tc := ⟨.hbm, 863, rfl⟩
abbrev main_v485 : Ref sig .tc := ⟨.hbm, 864, rfl⟩
abbrev main_v486 : Ref sig .tc := ⟨.hbm, 865, rfl⟩
abbrev main_v487 : Ref sig .tc := ⟨.hbm, 866, rfl⟩
abbrev main_v488 : Ref sig .tc := ⟨.hbm, 867, rfl⟩
abbrev main_v489 : Ref sig .tc := ⟨.hbm, 868, rfl⟩
abbrev main_v490 : Ref sig .tc := ⟨.hbm, 869, rfl⟩
abbrev main_c_103 : Ref sig .tc := ⟨.hbm, 870, rfl⟩
abbrev main_v491 : Ref sig .tc := ⟨.hbm, 871, rfl⟩
abbrev main_v492 : Ref sig .tc := ⟨.hbm, 872, rfl⟩
abbrev main_c_104 : Ref sig .tc := ⟨.hbm, 873, rfl⟩
abbrev main_v493 : Ref sig .tc := ⟨.hbm, 874, rfl⟩
abbrev main_v494 : Ref sig .tc := ⟨.hbm, 875, rfl⟩
abbrev main_v495 : Ref sig .tc := ⟨.hbm, 876, rfl⟩
abbrev main_v496 : Ref sig .tc := ⟨.hbm, 877, rfl⟩
abbrev main_v497 : Ref sig .tc := ⟨.hbm, 878, rfl⟩
abbrev main_v498 : Ref sig .tc := ⟨.hbm, 879, rfl⟩
abbrev main_v499 : Ref sig .tc := ⟨.hbm, 880, rfl⟩
abbrev main_v500 : Ref sig .tc := ⟨.hbm, 881, rfl⟩
abbrev main_cst_105 : Ref sig .tc := ⟨.hbm, 882, rfl⟩
abbrev main_v501 : Ref sig .tc := ⟨.hbm, 883, rfl⟩
abbrev main_v502 : Ref sig .tc := ⟨.hbm, 884, rfl⟩
abbrev main_v503 : Ref sig .tc := ⟨.hbm, 885, rfl⟩
abbrev main_v504 : Ref sig .tc := ⟨.hbm, 886, rfl⟩
abbrev main_v505 : Ref sig .tc := ⟨.hbm, 887, rfl⟩
abbrev main_v506 : Ref sig .tc := ⟨.hbm, 888, rfl⟩
abbrev main_v507 : Ref sig .tc := ⟨.hbm, 889, rfl⟩
abbrev main_v508 : Ref sig .tc := ⟨.hbm, 890, rfl⟩
abbrev main_call19_cst : Ref sig .tc := ⟨.hbm, 891, rfl⟩
abbrev main_call19_v0 : Ref sig .tc := ⟨.hbm, 892, rfl⟩
abbrev main_call19_v1 : Ref sig .tc := ⟨.hbm, 893, rfl⟩
abbrev main_call19_cst_0 : Ref sig .tc := ⟨.hbm, 894, rfl⟩
abbrev main_call19_v2 : Ref sig .tc := ⟨.hbm, 895, rfl⟩
abbrev main_call19_v3 : Ref sig .tc := ⟨.hbm, 896, rfl⟩
abbrev main_call19_cst_1 : Ref sig .tc := ⟨.hbm, 897, rfl⟩
abbrev main_call19_call0_v0 : Ref sig .tc := ⟨.hbm, 898, rfl⟩
abbrev main_call19_call0_v1 : Ref sig .tc := ⟨.hbm, 899, rfl⟩
abbrev main_call19_v4 : Ref sig .tc := ⟨.hbm, 900, rfl⟩
abbrev main_call19_v5 : Ref sig .tc := ⟨.hbm, 901, rfl⟩
abbrev main_call19_cst_2 : Ref sig .tc := ⟨.hbm, 902, rfl⟩
abbrev main_call19_v6 : Ref sig .tc := ⟨.hbm, 903, rfl⟩
abbrev main_call19_v7 : Ref sig .tc := ⟨.hbm, 904, rfl⟩
abbrev main_v509 : Ref sig .tc := ⟨.hbm, 905, rfl⟩
abbrev main_v510 : Ref sig .tc := ⟨.hbm, 906, rfl⟩
abbrev main_v511 : Ref sig .tc := ⟨.hbm, 907, rfl⟩
abbrev main_v512 : Ref sig .tc := ⟨.hbm, 908, rfl⟩
abbrev main_cst_106 : Ref sig .tc := ⟨.hbm, 909, rfl⟩
abbrev main_v513 : Ref sig .tc := ⟨.hbm, 910, rfl⟩
abbrev main_v514 : Ref sig .tc := ⟨.hbm, 911, rfl⟩
abbrev main_v515 : Ref sig .tc := ⟨.hbm, 912, rfl⟩
abbrev main_v516 : Ref sig .tc := ⟨.hbm, 913, rfl⟩
abbrev main_v517 : Ref sig .tc := ⟨.hbm, 914, rfl⟩
abbrev main_v518 : Ref sig .tc := ⟨.hbm, 915, rfl⟩
abbrev main_v519 : Ref sig .tc := ⟨.hbm, 916, rfl⟩
abbrev main_v520 : Ref sig .tc := ⟨.hbm, 917, rfl⟩
abbrev main_v521 : Ref sig .tc := ⟨.hbm, 918, rfl⟩
abbrev main_v522 : Ref sig .tc := ⟨.hbm, 919, rfl⟩
abbrev main_cst_107 : Ref sig .tc := ⟨.hbm, 920, rfl⟩
abbrev main_v523 : Ref sig .tc := ⟨.hbm, 921, rfl⟩
abbrev main_v524 : Ref sig .tc := ⟨.hbm, 922, rfl⟩
abbrev main_c_108 : Ref sig .tc := ⟨.hbm, 923, rfl⟩
abbrev main_v525 : Ref sig .tc := ⟨.hbm, 924, rfl⟩
abbrev main_v526 : Ref sig .tc := ⟨.hbm, 925, rfl⟩
abbrev main_c_109 : Ref sig .tc := ⟨.hbm, 926, rfl⟩
abbrev main_v527 : Ref sig .tc := ⟨.hbm, 927, rfl⟩
abbrev main_v528 : Ref sig .tc := ⟨.hbm, 928, rfl⟩
abbrev main_v529 : Ref sig .tc := ⟨.hbm, 929, rfl⟩
abbrev main_v530 : Ref sig .tc := ⟨.hbm, 930, rfl⟩
abbrev main_v531 : Ref sig .tc := ⟨.hbm, 931, rfl⟩
abbrev main_c_110 : Ref sig .tc := ⟨.hbm, 932, rfl⟩
abbrev main_v532 : Ref sig .tc := ⟨.hbm, 933, rfl⟩
abbrev main_v533 : Ref sig .tc := ⟨.hbm, 934, rfl⟩
abbrev main_c_111 : Ref sig .tc := ⟨.hbm, 935, rfl⟩
abbrev main_v534 : Ref sig .tc := ⟨.hbm, 936, rfl⟩
abbrev main_v535 : Ref sig .tc := ⟨.hbm, 937, rfl⟩
abbrev main_v536 : Ref sig .tc := ⟨.hbm, 938, rfl⟩
abbrev main_v537 : Ref sig .tc := ⟨.hbm, 939, rfl⟩
abbrev main_v538 : Ref sig .tc := ⟨.hbm, 940, rfl⟩
abbrev main_v539 : Ref sig .tc := ⟨.hbm, 941, rfl⟩
abbrev main_call20_cst : Ref sig .tc := ⟨.hbm, 942, rfl⟩
abbrev main_call20_v0 : Ref sig .tc := ⟨.hbm, 943, rfl⟩
abbrev main_call20_v1 : Ref sig .tc := ⟨.hbm, 944, rfl⟩
abbrev main_call20_cst_0 : Ref sig .tc := ⟨.hbm, 945, rfl⟩
abbrev main_call20_v2 : Ref sig .tc := ⟨.hbm, 946, rfl⟩
abbrev main_call20_v3 : Ref sig .tc := ⟨.hbm, 947, rfl⟩
abbrev main_call20_cst_1 : Ref sig .tc := ⟨.hbm, 948, rfl⟩
abbrev main_call20_call0_v0 : Ref sig .tc := ⟨.hbm, 949, rfl⟩
abbrev main_call20_call0_v1 : Ref sig .tc := ⟨.hbm, 950, rfl⟩
abbrev main_call20_v4 : Ref sig .tc := ⟨.hbm, 951, rfl⟩
abbrev main_call20_v5 : Ref sig .tc := ⟨.hbm, 952, rfl⟩
abbrev main_call20_cst_2 : Ref sig .tc := ⟨.hbm, 953, rfl⟩
abbrev main_call20_v6 : Ref sig .tc := ⟨.hbm, 954, rfl⟩
abbrev main_call20_v7 : Ref sig .tc := ⟨.hbm, 955, rfl⟩
abbrev main_v540 : Ref sig .tc := ⟨.hbm, 956, rfl⟩
abbrev main_v541 : Ref sig .tc := ⟨.hbm, 957, rfl⟩
abbrev main_v542 : Ref sig .tc := ⟨.hbm, 958, rfl⟩
abbrev main_v543 : Ref sig .tc := ⟨.hbm, 959, rfl⟩
abbrev main_v544 : Ref sig .tc := ⟨.hbm, 960, rfl⟩
abbrev main_v545 : Ref sig .tc := ⟨.hbm, 961, rfl⟩
abbrev main_cst_112 : Ref sig .tc := ⟨.hbm, 962, rfl⟩
abbrev main_v546 : Ref sig .tc := ⟨.hbm, 963, rfl⟩
abbrev main_call21_cst : Ref sig .tc := ⟨.hbm, 964, rfl⟩
abbrev main_call21_v0 : Ref sig .tc := ⟨.hbm, 965, rfl⟩
abbrev main_call21_v1 : Ref sig .tc := ⟨.hbm, 966, rfl⟩
abbrev main_call21_v2 : Ref sig .tc := ⟨.hbm, 967, rfl⟩
abbrev main_call21_v3 : Ref sig .tc := ⟨.hbm, 968, rfl⟩
abbrev main_call21_v4 : Ref sig .tc := ⟨.hbm, 969, rfl⟩
abbrev main_call21_v5 : Ref sig .tc := ⟨.hbm, 970, rfl⟩
abbrev main_call21_v6 : Ref sig .tc := ⟨.hbm, 971, rfl⟩
abbrev main_call21_v7 : Ref sig .tc := ⟨.hbm, 972, rfl⟩
abbrev main_call21_v8 : Ref sig .tc := ⟨.hbm, 973, rfl⟩
abbrev main_call21_v9 : Ref sig .tc := ⟨.hbm, 974, rfl⟩
abbrev main_call21_v10 : Ref sig .tc := ⟨.hbm, 975, rfl⟩
abbrev main_call21_v11 : Ref sig .tc := ⟨.hbm, 976, rfl⟩
abbrev main_v547 : Ref sig .tc := ⟨.hbm, 977, rfl⟩
abbrev main_cst_113 : Ref sig .tc := ⟨.hbm, 978, rfl⟩
abbrev main_v548 : Ref sig .tc := ⟨.hbm, 979, rfl⟩
abbrev main_v549 : Ref sig .tc := ⟨.hbm, 980, rfl⟩
abbrev main_cst_114 : Ref sig .tc := ⟨.hbm, 981, rfl⟩
abbrev main_v550 : Ref sig .tc := ⟨.hbm, 982, rfl⟩
abbrev main_v551 : Ref sig .tc := ⟨.hbm, 983, rfl⟩
abbrev main_v552 : Ref sig .tc := ⟨.hbm, 984, rfl⟩
abbrev main_cst_115 : Ref sig .tc := ⟨.hbm, 985, rfl⟩
abbrev main_v553 : Ref sig .tc := ⟨.hbm, 986, rfl⟩
abbrev main_v554 : Ref sig .tc := ⟨.hbm, 987, rfl⟩
abbrev main_cst_116 : Ref sig .tc := ⟨.hbm, 988, rfl⟩
abbrev main_v555 : Ref sig .tc := ⟨.hbm, 989, rfl⟩
abbrev main_v556 : Ref sig .tc := ⟨.hbm, 990, rfl⟩
abbrev main_c_117 : Ref sig .tc := ⟨.hbm, 991, rfl⟩
abbrev main_v557 : Ref sig .tc := ⟨.hbm, 992, rfl⟩
abbrev main_v558 : Ref sig .tc := ⟨.hbm, 993, rfl⟩
abbrev main_c_118 : Ref sig .tc := ⟨.hbm, 994, rfl⟩
abbrev main_v559 : Ref sig .tc := ⟨.hbm, 995, rfl⟩
abbrev main_v560 : Ref sig .tc := ⟨.hbm, 996, rfl⟩
abbrev main_v561 : Ref sig .tc := ⟨.hbm, 997, rfl⟩
abbrev main_v562 : Ref sig .tc := ⟨.hbm, 998, rfl⟩
abbrev main_v563 : Ref sig .tc := ⟨.hbm, 999, rfl⟩
abbrev main_v564 : Ref sig .tc := ⟨.hbm, 1000, rfl⟩
abbrev main_c_119 : Ref sig .tc := ⟨.hbm, 1001, rfl⟩
abbrev main_v565 : Ref sig .tc := ⟨.hbm, 1002, rfl⟩
abbrev main_v566 : Ref sig .tc := ⟨.hbm, 1003, rfl⟩
abbrev main_c_120 : Ref sig .tc := ⟨.hbm, 1004, rfl⟩
abbrev main_v567 : Ref sig .tc := ⟨.hbm, 1005, rfl⟩
abbrev main_v568 : Ref sig .tc := ⟨.hbm, 1006, rfl⟩
abbrev main_v569 : Ref sig .tc := ⟨.hbm, 1007, rfl⟩
abbrev main_v570 : Ref sig .tc := ⟨.hbm, 1008, rfl⟩
abbrev main_v571 : Ref sig .tc := ⟨.hbm, 1009, rfl⟩
abbrev main_v572 : Ref sig .tc := ⟨.hbm, 1010, rfl⟩
abbrev main_v573 : Ref sig .tc := ⟨.hbm, 1011, rfl⟩
abbrev main_c_121 : Ref sig .tc := ⟨.hbm, 1012, rfl⟩
abbrev main_v574 : Ref sig .tc := ⟨.hbm, 1013, rfl⟩
abbrev main_v575 : Ref sig .tc := ⟨.hbm, 1014, rfl⟩
abbrev main_c_122 : Ref sig .tc := ⟨.hbm, 1015, rfl⟩
abbrev main_v576 : Ref sig .tc := ⟨.hbm, 1016, rfl⟩
abbrev main_v577 : Ref sig .tc := ⟨.hbm, 1017, rfl⟩
abbrev main_v578 : Ref sig .tc := ⟨.hbm, 1018, rfl⟩
abbrev main_v579 : Ref sig .tc := ⟨.hbm, 1019, rfl⟩
abbrev main_v580 : Ref sig .tc := ⟨.hbm, 1020, rfl⟩
abbrev main_v581 : Ref sig .tc := ⟨.hbm, 1021, rfl⟩
abbrev main_v582 : Ref sig .tc := ⟨.hbm, 1022, rfl⟩
abbrev main_v583 : Ref sig .tc := ⟨.hbm, 1023, rfl⟩
abbrev main_cst_123 : Ref sig .tc := ⟨.hbm, 1024, rfl⟩
abbrev main_v584 : Ref sig .tc := ⟨.hbm, 1025, rfl⟩
abbrev main_v585 : Ref sig .tc := ⟨.hbm, 1026, rfl⟩
abbrev main_v586 : Ref sig .tc := ⟨.hbm, 1027, rfl⟩
abbrev main_v587 : Ref sig .tc := ⟨.hbm, 1028, rfl⟩
abbrev main_v588 : Ref sig .tc := ⟨.hbm, 1029, rfl⟩
abbrev main_v589 : Ref sig .tc := ⟨.hbm, 1030, rfl⟩
abbrev main_v590 : Ref sig .tc := ⟨.hbm, 1031, rfl⟩
abbrev main_v591 : Ref sig .tc := ⟨.hbm, 1032, rfl⟩
abbrev main_call22_cst : Ref sig .tc := ⟨.hbm, 1033, rfl⟩
abbrev main_call22_v0 : Ref sig .tc := ⟨.hbm, 1034, rfl⟩
abbrev main_call22_v1 : Ref sig .tc := ⟨.hbm, 1035, rfl⟩
abbrev main_call22_cst_0 : Ref sig .tc := ⟨.hbm, 1036, rfl⟩
abbrev main_call22_v2 : Ref sig .tc := ⟨.hbm, 1037, rfl⟩
abbrev main_call22_v3 : Ref sig .tc := ⟨.hbm, 1038, rfl⟩
abbrev main_call22_cst_1 : Ref sig .tc := ⟨.hbm, 1039, rfl⟩
abbrev main_call22_call0_v0 : Ref sig .tc := ⟨.hbm, 1040, rfl⟩
abbrev main_call22_call0_v1 : Ref sig .tc := ⟨.hbm, 1041, rfl⟩
abbrev main_call22_v4 : Ref sig .tc := ⟨.hbm, 1042, rfl⟩
abbrev main_call22_v5 : Ref sig .tc := ⟨.hbm, 1043, rfl⟩
abbrev main_call22_cst_2 : Ref sig .tc := ⟨.hbm, 1044, rfl⟩
abbrev main_call22_v6 : Ref sig .tc := ⟨.hbm, 1045, rfl⟩
abbrev main_call22_v7 : Ref sig .tc := ⟨.hbm, 1046, rfl⟩
abbrev main_v592 : Ref sig .tc := ⟨.hbm, 1047, rfl⟩
abbrev main_v593 : Ref sig .tc := ⟨.hbm, 1048, rfl⟩
abbrev main_v594 : Ref sig .tc := ⟨.hbm, 1049, rfl⟩
abbrev main_v595 : Ref sig .tc := ⟨.hbm, 1050, rfl⟩
abbrev main_cst_124 : Ref sig .tc := ⟨.hbm, 1051, rfl⟩
abbrev main_v596 : Ref sig .tc := ⟨.hbm, 1052, rfl⟩
abbrev main_v597 : Ref sig .tc := ⟨.hbm, 1053, rfl⟩
abbrev main_v598 : Ref sig .tc := ⟨.hbm, 1054, rfl⟩
abbrev main_v599 : Ref sig .tc := ⟨.hbm, 1055, rfl⟩
abbrev main_v600 : Ref sig .tc := ⟨.hbm, 1056, rfl⟩
abbrev main_v601 : Ref sig .tc := ⟨.hbm, 1057, rfl⟩
abbrev main_v602 : Ref sig .tc := ⟨.hbm, 1058, rfl⟩
abbrev main_v603 : Ref sig .tc := ⟨.hbm, 1059, rfl⟩
abbrev main_v604 : Ref sig .tc := ⟨.hbm, 1060, rfl⟩
abbrev main_v605 : Ref sig .tc := ⟨.hbm, 1061, rfl⟩
abbrev main_cst_125 : Ref sig .tc := ⟨.hbm, 1062, rfl⟩
abbrev main_v606 : Ref sig .tc := ⟨.hbm, 1063, rfl⟩
abbrev main_v607 : Ref sig .tc := ⟨.hbm, 1064, rfl⟩
abbrev main_c_126 : Ref sig .tc := ⟨.hbm, 1065, rfl⟩
abbrev main_v608 : Ref sig .tc := ⟨.hbm, 1066, rfl⟩
abbrev main_v609 : Ref sig .tc := ⟨.hbm, 1067, rfl⟩
abbrev main_c_127 : Ref sig .tc := ⟨.hbm, 1068, rfl⟩
abbrev main_v610 : Ref sig .tc := ⟨.hbm, 1069, rfl⟩
abbrev main_v611 : Ref sig .tc := ⟨.hbm, 1070, rfl⟩
abbrev main_v612 : Ref sig .tc := ⟨.hbm, 1071, rfl⟩
abbrev main_v613 : Ref sig .tc := ⟨.hbm, 1072, rfl⟩
abbrev main_v614 : Ref sig .tc := ⟨.hbm, 1073, rfl⟩
abbrev main_c_128 : Ref sig .tc := ⟨.hbm, 1074, rfl⟩
abbrev main_v615 : Ref sig .tc := ⟨.hbm, 1075, rfl⟩
abbrev main_v616 : Ref sig .tc := ⟨.hbm, 1076, rfl⟩
abbrev main_c_129 : Ref sig .tc := ⟨.hbm, 1077, rfl⟩
abbrev main_v617 : Ref sig .tc := ⟨.hbm, 1078, rfl⟩
abbrev main_v618 : Ref sig .tc := ⟨.hbm, 1079, rfl⟩
abbrev main_v619 : Ref sig .tc := ⟨.hbm, 1080, rfl⟩
abbrev main_v620 : Ref sig .tc := ⟨.hbm, 1081, rfl⟩
abbrev main_v621 : Ref sig .tc := ⟨.hbm, 1082, rfl⟩
abbrev main_v622 : Ref sig .tc := ⟨.hbm, 1083, rfl⟩
abbrev main_call23_cst : Ref sig .tc := ⟨.hbm, 1084, rfl⟩
abbrev main_call23_v0 : Ref sig .tc := ⟨.hbm, 1085, rfl⟩
abbrev main_call23_v1 : Ref sig .tc := ⟨.hbm, 1086, rfl⟩
abbrev main_call23_cst_0 : Ref sig .tc := ⟨.hbm, 1087, rfl⟩
abbrev main_call23_v2 : Ref sig .tc := ⟨.hbm, 1088, rfl⟩
abbrev main_call23_v3 : Ref sig .tc := ⟨.hbm, 1089, rfl⟩
abbrev main_call23_cst_1 : Ref sig .tc := ⟨.hbm, 1090, rfl⟩
abbrev main_call23_call0_v0 : Ref sig .tc := ⟨.hbm, 1091, rfl⟩
abbrev main_call23_call0_v1 : Ref sig .tc := ⟨.hbm, 1092, rfl⟩
abbrev main_call23_v4 : Ref sig .tc := ⟨.hbm, 1093, rfl⟩
abbrev main_call23_v5 : Ref sig .tc := ⟨.hbm, 1094, rfl⟩
abbrev main_call23_cst_2 : Ref sig .tc := ⟨.hbm, 1095, rfl⟩
abbrev main_call23_v6 : Ref sig .tc := ⟨.hbm, 1096, rfl⟩
abbrev main_call23_v7 : Ref sig .tc := ⟨.hbm, 1097, rfl⟩
abbrev main_v623 : Ref sig .tc := ⟨.hbm, 1098, rfl⟩
abbrev main_v624 : Ref sig .tc := ⟨.hbm, 1099, rfl⟩
abbrev main_v625 : Ref sig .tc := ⟨.hbm, 1100, rfl⟩
abbrev main_v626 : Ref sig .tc := ⟨.hbm, 1101, rfl⟩
abbrev main_v627 : Ref sig .tc := ⟨.hbm, 1102, rfl⟩
abbrev main_v628 : Ref sig .tc := ⟨.hbm, 1103, rfl⟩
abbrev main_cst_130 : Ref sig .tc := ⟨.hbm, 1104, rfl⟩
abbrev main_v629 : Ref sig .tc := ⟨.hbm, 1105, rfl⟩
abbrev main_call24_cst : Ref sig .tc := ⟨.hbm, 1106, rfl⟩
abbrev main_call24_v0 : Ref sig .tc := ⟨.hbm, 1107, rfl⟩
abbrev main_call24_v1 : Ref sig .tc := ⟨.hbm, 1108, rfl⟩
abbrev main_call24_v2 : Ref sig .tc := ⟨.hbm, 1109, rfl⟩
abbrev main_call24_v3 : Ref sig .tc := ⟨.hbm, 1110, rfl⟩
abbrev main_call24_v4 : Ref sig .tc := ⟨.hbm, 1111, rfl⟩
abbrev main_call24_v5 : Ref sig .tc := ⟨.hbm, 1112, rfl⟩
abbrev main_call24_v6 : Ref sig .tc := ⟨.hbm, 1113, rfl⟩
abbrev main_call24_v7 : Ref sig .tc := ⟨.hbm, 1114, rfl⟩
abbrev main_call24_v8 : Ref sig .tc := ⟨.hbm, 1115, rfl⟩
abbrev main_call24_v9 : Ref sig .tc := ⟨.hbm, 1116, rfl⟩
abbrev main_call24_v10 : Ref sig .tc := ⟨.hbm, 1117, rfl⟩
abbrev main_call24_v11 : Ref sig .tc := ⟨.hbm, 1118, rfl⟩
abbrev main_v630 : Ref sig .tc := ⟨.hbm, 1119, rfl⟩
abbrev main_cst_131 : Ref sig .tc := ⟨.hbm, 1120, rfl⟩
abbrev main_v631 : Ref sig .tc := ⟨.hbm, 1121, rfl⟩
abbrev main_v632 : Ref sig .tc := ⟨.hbm, 1122, rfl⟩
abbrev main_cst_132 : Ref sig .tc := ⟨.hbm, 1123, rfl⟩
abbrev main_v633 : Ref sig .tc := ⟨.hbm, 1124, rfl⟩
abbrev main_v634 : Ref sig .tc := ⟨.hbm, 1125, rfl⟩
abbrev main_v635 : Ref sig .tc := ⟨.hbm, 1126, rfl⟩
abbrev main_cst_133 : Ref sig .tc := ⟨.hbm, 1127, rfl⟩
abbrev main_v636 : Ref sig .tc := ⟨.hbm, 1128, rfl⟩
abbrev main_v637 : Ref sig .tc := ⟨.hbm, 1129, rfl⟩
abbrev main_cst_134 : Ref sig .tc := ⟨.hbm, 1130, rfl⟩
abbrev main_v638 : Ref sig .tc := ⟨.hbm, 1131, rfl⟩
abbrev main_v639 : Ref sig .tc := ⟨.hbm, 1132, rfl⟩
abbrev main_c_135 : Ref sig .tc := ⟨.hbm, 1133, rfl⟩
abbrev main_v640 : Ref sig .tc := ⟨.hbm, 1134, rfl⟩
abbrev main_v641 : Ref sig .tc := ⟨.hbm, 1135, rfl⟩
abbrev main_c_136 : Ref sig .tc := ⟨.hbm, 1136, rfl⟩
abbrev main_v642 : Ref sig .tc := ⟨.hbm, 1137, rfl⟩
abbrev main_v643 : Ref sig .tc := ⟨.hbm, 1138, rfl⟩
abbrev main_v644 : Ref sig .tc := ⟨.hbm, 1139, rfl⟩
abbrev main_v645 : Ref sig .tc := ⟨.hbm, 1140, rfl⟩
abbrev main_v646 : Ref sig .tc := ⟨.hbm, 1141, rfl⟩
abbrev main_v647 : Ref sig .tc := ⟨.hbm, 1142, rfl⟩
abbrev main_c_137 : Ref sig .tc := ⟨.hbm, 1143, rfl⟩
abbrev main_v648 : Ref sig .tc := ⟨.hbm, 1144, rfl⟩
abbrev main_v649 : Ref sig .tc := ⟨.hbm, 1145, rfl⟩
abbrev main_c_138 : Ref sig .tc := ⟨.hbm, 1146, rfl⟩
abbrev main_v650 : Ref sig .tc := ⟨.hbm, 1147, rfl⟩
abbrev main_v651 : Ref sig .tc := ⟨.hbm, 1148, rfl⟩
abbrev main_v652 : Ref sig .tc := ⟨.hbm, 1149, rfl⟩
abbrev main_v653 : Ref sig .tc := ⟨.hbm, 1150, rfl⟩
abbrev main_v654 : Ref sig .tc := ⟨.hbm, 1151, rfl⟩
abbrev main_v655 : Ref sig .tc := ⟨.hbm, 1152, rfl⟩
abbrev main_v656 : Ref sig .tc := ⟨.hbm, 1153, rfl⟩
abbrev main_c_139 : Ref sig .tc := ⟨.hbm, 1154, rfl⟩
abbrev main_v657 : Ref sig .tc := ⟨.hbm, 1155, rfl⟩
abbrev main_v658 : Ref sig .tc := ⟨.hbm, 1156, rfl⟩
abbrev main_c_140 : Ref sig .tc := ⟨.hbm, 1157, rfl⟩
abbrev main_v659 : Ref sig .tc := ⟨.hbm, 1158, rfl⟩
abbrev main_v660 : Ref sig .tc := ⟨.hbm, 1159, rfl⟩
abbrev main_v661 : Ref sig .tc := ⟨.hbm, 1160, rfl⟩
abbrev main_v662 : Ref sig .tc := ⟨.hbm, 1161, rfl⟩
abbrev main_v663 : Ref sig .tc := ⟨.hbm, 1162, rfl⟩
abbrev main_v664 : Ref sig .tc := ⟨.hbm, 1163, rfl⟩
abbrev main_v665 : Ref sig .tc := ⟨.hbm, 1164, rfl⟩
abbrev main_v666 : Ref sig .tc := ⟨.hbm, 1165, rfl⟩
abbrev main_cst_141 : Ref sig .tc := ⟨.hbm, 1166, rfl⟩
abbrev main_v667 : Ref sig .tc := ⟨.hbm, 1167, rfl⟩
abbrev main_v668 : Ref sig .tc := ⟨.hbm, 1168, rfl⟩
abbrev main_v669 : Ref sig .tc := ⟨.hbm, 1169, rfl⟩
abbrev main_v670 : Ref sig .tc := ⟨.hbm, 1170, rfl⟩
abbrev main_v671 : Ref sig .tc := ⟨.hbm, 1171, rfl⟩
abbrev main_v672 : Ref sig .tc := ⟨.hbm, 1172, rfl⟩
abbrev main_v673 : Ref sig .tc := ⟨.hbm, 1173, rfl⟩
abbrev main_v674 : Ref sig .tc := ⟨.hbm, 1174, rfl⟩
abbrev main_call25_cst : Ref sig .tc := ⟨.hbm, 1175, rfl⟩
abbrev main_call25_v0 : Ref sig .tc := ⟨.hbm, 1176, rfl⟩
abbrev main_call25_v1 : Ref sig .tc := ⟨.hbm, 1177, rfl⟩
abbrev main_call25_cst_0 : Ref sig .tc := ⟨.hbm, 1178, rfl⟩
abbrev main_call25_v2 : Ref sig .tc := ⟨.hbm, 1179, rfl⟩
abbrev main_call25_v3 : Ref sig .tc := ⟨.hbm, 1180, rfl⟩
abbrev main_call25_cst_1 : Ref sig .tc := ⟨.hbm, 1181, rfl⟩
abbrev main_call25_call0_v0 : Ref sig .tc := ⟨.hbm, 1182, rfl⟩
abbrev main_call25_call0_v1 : Ref sig .tc := ⟨.hbm, 1183, rfl⟩
abbrev main_call25_v4 : Ref sig .tc := ⟨.hbm, 1184, rfl⟩
abbrev main_call25_v5 : Ref sig .tc := ⟨.hbm, 1185, rfl⟩
abbrev main_call25_cst_2 : Ref sig .tc := ⟨.hbm, 1186, rfl⟩
abbrev main_call25_v6 : Ref sig .tc := ⟨.hbm, 1187, rfl⟩
abbrev main_call25_v7 : Ref sig .tc := ⟨.hbm, 1188, rfl⟩
abbrev main_v675 : Ref sig .tc := ⟨.hbm, 1189, rfl⟩
abbrev main_v676 : Ref sig .tc := ⟨.hbm, 1190, rfl⟩
abbrev main_v677 : Ref sig .tc := ⟨.hbm, 1191, rfl⟩
abbrev main_v678 : Ref sig .tc := ⟨.hbm, 1192, rfl⟩
abbrev main_cst_142 : Ref sig .tc := ⟨.hbm, 1193, rfl⟩
abbrev main_v679 : Ref sig .tc := ⟨.hbm, 1194, rfl⟩
abbrev main_v680 : Ref sig .tc := ⟨.hbm, 1195, rfl⟩
abbrev main_v681 : Ref sig .tc := ⟨.hbm, 1196, rfl⟩
abbrev main_v682 : Ref sig .tc := ⟨.hbm, 1197, rfl⟩
abbrev main_v683 : Ref sig .tc := ⟨.hbm, 1198, rfl⟩
abbrev main_v684 : Ref sig .tc := ⟨.hbm, 1199, rfl⟩
abbrev main_v685 : Ref sig .tc := ⟨.hbm, 1200, rfl⟩
abbrev main_v686 : Ref sig .tc := ⟨.hbm, 1201, rfl⟩
abbrev main_v687 : Ref sig .tc := ⟨.hbm, 1202, rfl⟩
abbrev main_v688 : Ref sig .tc := ⟨.hbm, 1203, rfl⟩
abbrev main_cst_143 : Ref sig .tc := ⟨.hbm, 1204, rfl⟩
abbrev main_v689 : Ref sig .tc := ⟨.hbm, 1205, rfl⟩
abbrev main_v690 : Ref sig .tc := ⟨.hbm, 1206, rfl⟩
abbrev main_c_144 : Ref sig .tc := ⟨.hbm, 1207, rfl⟩
abbrev main_v691 : Ref sig .tc := ⟨.hbm, 1208, rfl⟩
abbrev main_v692 : Ref sig .tc := ⟨.hbm, 1209, rfl⟩
abbrev main_c_145 : Ref sig .tc := ⟨.hbm, 1210, rfl⟩
abbrev main_v693 : Ref sig .tc := ⟨.hbm, 1211, rfl⟩
abbrev main_v694 : Ref sig .tc := ⟨.hbm, 1212, rfl⟩
abbrev main_v695 : Ref sig .tc := ⟨.hbm, 1213, rfl⟩
abbrev main_v696 : Ref sig .tc := ⟨.hbm, 1214, rfl⟩
abbrev main_v697 : Ref sig .tc := ⟨.hbm, 1215, rfl⟩
abbrev main_c_146 : Ref sig .tc := ⟨.hbm, 1216, rfl⟩
abbrev main_v698 : Ref sig .tc := ⟨.hbm, 1217, rfl⟩
abbrev main_v699 : Ref sig .tc := ⟨.hbm, 1218, rfl⟩
abbrev main_c_147 : Ref sig .tc := ⟨.hbm, 1219, rfl⟩
abbrev main_v700 : Ref sig .tc := ⟨.hbm, 1220, rfl⟩
abbrev main_v701 : Ref sig .tc := ⟨.hbm, 1221, rfl⟩
abbrev main_v702 : Ref sig .tc := ⟨.hbm, 1222, rfl⟩
abbrev main_v703 : Ref sig .tc := ⟨.hbm, 1223, rfl⟩
abbrev main_v704 : Ref sig .tc := ⟨.hbm, 1224, rfl⟩
abbrev main_v705 : Ref sig .tc := ⟨.hbm, 1225, rfl⟩
abbrev main_call26_cst : Ref sig .tc := ⟨.hbm, 1226, rfl⟩
abbrev main_call26_v0 : Ref sig .tc := ⟨.hbm, 1227, rfl⟩
abbrev main_call26_v1 : Ref sig .tc := ⟨.hbm, 1228, rfl⟩
abbrev main_call26_cst_0 : Ref sig .tc := ⟨.hbm, 1229, rfl⟩
abbrev main_call26_v2 : Ref sig .tc := ⟨.hbm, 1230, rfl⟩
abbrev main_call26_v3 : Ref sig .tc := ⟨.hbm, 1231, rfl⟩
abbrev main_call26_cst_1 : Ref sig .tc := ⟨.hbm, 1232, rfl⟩
abbrev main_call26_call0_v0 : Ref sig .tc := ⟨.hbm, 1233, rfl⟩
abbrev main_call26_call0_v1 : Ref sig .tc := ⟨.hbm, 1234, rfl⟩
abbrev main_call26_v4 : Ref sig .tc := ⟨.hbm, 1235, rfl⟩
abbrev main_call26_v5 : Ref sig .tc := ⟨.hbm, 1236, rfl⟩
abbrev main_call26_cst_2 : Ref sig .tc := ⟨.hbm, 1237, rfl⟩
abbrev main_call26_v6 : Ref sig .tc := ⟨.hbm, 1238, rfl⟩
abbrev main_call26_v7 : Ref sig .tc := ⟨.hbm, 1239, rfl⟩
abbrev main_v706 : Ref sig .tc := ⟨.hbm, 1240, rfl⟩
abbrev main_v707 : Ref sig .tc := ⟨.hbm, 1241, rfl⟩
abbrev main_v708 : Ref sig .tc := ⟨.hbm, 1242, rfl⟩
abbrev main_v709 : Ref sig .tc := ⟨.hbm, 1243, rfl⟩
abbrev main_v710 : Ref sig .tc := ⟨.hbm, 1244, rfl⟩
abbrev main_v711 : Ref sig .tc := ⟨.hbm, 1245, rfl⟩
abbrev main_cst_148 : Ref sig .tc := ⟨.hbm, 1246, rfl⟩
abbrev main_v712 : Ref sig .tc := ⟨.hbm, 1247, rfl⟩
abbrev main_call27_cst : Ref sig .tc := ⟨.hbm, 1248, rfl⟩
abbrev main_call27_v0 : Ref sig .tc := ⟨.hbm, 1249, rfl⟩
abbrev main_call27_v1 : Ref sig .tc := ⟨.hbm, 1250, rfl⟩
abbrev main_call27_v2 : Ref sig .tc := ⟨.hbm, 1251, rfl⟩
abbrev main_call27_v3 : Ref sig .tc := ⟨.hbm, 1252, rfl⟩
abbrev main_call27_v4 : Ref sig .tc := ⟨.hbm, 1253, rfl⟩
abbrev main_call27_v5 : Ref sig .tc := ⟨.hbm, 1254, rfl⟩
abbrev main_call27_v6 : Ref sig .tc := ⟨.hbm, 1255, rfl⟩
abbrev main_call27_v7 : Ref sig .tc := ⟨.hbm, 1256, rfl⟩
abbrev main_call27_v8 : Ref sig .tc := ⟨.hbm, 1257, rfl⟩
abbrev main_call27_v9 : Ref sig .tc := ⟨.hbm, 1258, rfl⟩
abbrev main_call27_v10 : Ref sig .tc := ⟨.hbm, 1259, rfl⟩
abbrev main_call27_v11 : Ref sig .tc := ⟨.hbm, 1260, rfl⟩
abbrev main_v713 : Ref sig .tc := ⟨.hbm, 1261, rfl⟩
abbrev main_cst_149 : Ref sig .tc := ⟨.hbm, 1262, rfl⟩
abbrev main_v714 : Ref sig .tc := ⟨.hbm, 1263, rfl⟩
abbrev main_v715 : Ref sig .tc := ⟨.hbm, 1264, rfl⟩
abbrev main_cst_150 : Ref sig .tc := ⟨.hbm, 1265, rfl⟩
abbrev main_v716 : Ref sig .tc := ⟨.hbm, 1266, rfl⟩
abbrev main_v717 : Ref sig .tc := ⟨.hbm, 1267, rfl⟩
abbrev main_v718 : Ref sig .tc := ⟨.hbm, 1268, rfl⟩
abbrev main_cst_151 : Ref sig .tc := ⟨.hbm, 1269, rfl⟩
abbrev main_v719 : Ref sig .tc := ⟨.hbm, 1270, rfl⟩
abbrev main_v720 : Ref sig .tc := ⟨.hbm, 1271, rfl⟩
abbrev main_cst_152 : Ref sig .tc := ⟨.hbm, 1272, rfl⟩
abbrev main_v721 : Ref sig .tc := ⟨.hbm, 1273, rfl⟩
abbrev main_v722 : Ref sig .tc := ⟨.hbm, 1274, rfl⟩
abbrev main_c_153 : Ref sig .tc := ⟨.hbm, 1275, rfl⟩
abbrev main_v723 : Ref sig .tc := ⟨.hbm, 1276, rfl⟩
abbrev main_v724 : Ref sig .tc := ⟨.hbm, 1277, rfl⟩
abbrev main_c_154 : Ref sig .tc := ⟨.hbm, 1278, rfl⟩
abbrev main_v725 : Ref sig .tc := ⟨.hbm, 1279, rfl⟩
abbrev main_v726 : Ref sig .tc := ⟨.hbm, 1280, rfl⟩
abbrev main_v727 : Ref sig .tc := ⟨.hbm, 1281, rfl⟩
abbrev main_v728 : Ref sig .tc := ⟨.hbm, 1282, rfl⟩
abbrev main_v729 : Ref sig .tc := ⟨.hbm, 1283, rfl⟩
abbrev main_v730 : Ref sig .tc := ⟨.hbm, 1284, rfl⟩
abbrev main_c_155 : Ref sig .tc := ⟨.hbm, 1285, rfl⟩
abbrev main_v731 : Ref sig .tc := ⟨.hbm, 1286, rfl⟩
abbrev main_v732 : Ref sig .tc := ⟨.hbm, 1287, rfl⟩
abbrev main_c_156 : Ref sig .tc := ⟨.hbm, 1288, rfl⟩
abbrev main_v733 : Ref sig .tc := ⟨.hbm, 1289, rfl⟩
abbrev main_v734 : Ref sig .tc := ⟨.hbm, 1290, rfl⟩
abbrev main_v735 : Ref sig .tc := ⟨.hbm, 1291, rfl⟩
abbrev main_v736 : Ref sig .tc := ⟨.hbm, 1292, rfl⟩
abbrev main_v737 : Ref sig .tc := ⟨.hbm, 1293, rfl⟩
abbrev main_v738 : Ref sig .tc := ⟨.hbm, 1294, rfl⟩
abbrev main_v739 : Ref sig .tc := ⟨.hbm, 1295, rfl⟩
abbrev main_c_157 : Ref sig .tc := ⟨.hbm, 1296, rfl⟩
abbrev main_v740 : Ref sig .tc := ⟨.hbm, 1297, rfl⟩
abbrev main_v741 : Ref sig .tc := ⟨.hbm, 1298, rfl⟩
abbrev main_c_158 : Ref sig .tc := ⟨.hbm, 1299, rfl⟩
abbrev main_v742 : Ref sig .tc := ⟨.hbm, 1300, rfl⟩
abbrev main_v743 : Ref sig .tc := ⟨.hbm, 1301, rfl⟩
abbrev main_v744 : Ref sig .tc := ⟨.hbm, 1302, rfl⟩
abbrev main_v745 : Ref sig .tc := ⟨.hbm, 1303, rfl⟩
abbrev main_v746 : Ref sig .tc := ⟨.hbm, 1304, rfl⟩
abbrev main_v747 : Ref sig .tc := ⟨.hbm, 1305, rfl⟩
abbrev main_v748 : Ref sig .tc := ⟨.hbm, 1306, rfl⟩
abbrev main_v749 : Ref sig .tc := ⟨.hbm, 1307, rfl⟩
abbrev main_cst_159 : Ref sig .tc := ⟨.hbm, 1308, rfl⟩
abbrev main_v750 : Ref sig .tc := ⟨.hbm, 1309, rfl⟩
abbrev main_v751 : Ref sig .tc := ⟨.hbm, 1310, rfl⟩
abbrev main_v752 : Ref sig .tc := ⟨.hbm, 1311, rfl⟩
abbrev main_v753 : Ref sig .tc := ⟨.hbm, 1312, rfl⟩
abbrev main_v754 : Ref sig .tc := ⟨.hbm, 1313, rfl⟩
abbrev main_v755 : Ref sig .tc := ⟨.hbm, 1314, rfl⟩
abbrev main_v756 : Ref sig .tc := ⟨.hbm, 1315, rfl⟩
abbrev main_v757 : Ref sig .tc := ⟨.hbm, 1316, rfl⟩
abbrev main_call28_cst : Ref sig .tc := ⟨.hbm, 1317, rfl⟩
abbrev main_call28_v0 : Ref sig .tc := ⟨.hbm, 1318, rfl⟩
abbrev main_call28_v1 : Ref sig .tc := ⟨.hbm, 1319, rfl⟩
abbrev main_call28_cst_0 : Ref sig .tc := ⟨.hbm, 1320, rfl⟩
abbrev main_call28_v2 : Ref sig .tc := ⟨.hbm, 1321, rfl⟩
abbrev main_call28_v3 : Ref sig .tc := ⟨.hbm, 1322, rfl⟩
abbrev main_call28_cst_1 : Ref sig .tc := ⟨.hbm, 1323, rfl⟩
abbrev main_call28_call0_v0 : Ref sig .tc := ⟨.hbm, 1324, rfl⟩
abbrev main_call28_call0_v1 : Ref sig .tc := ⟨.hbm, 1325, rfl⟩
abbrev main_call28_v4 : Ref sig .tc := ⟨.hbm, 1326, rfl⟩
abbrev main_call28_v5 : Ref sig .tc := ⟨.hbm, 1327, rfl⟩
abbrev main_call28_cst_2 : Ref sig .tc := ⟨.hbm, 1328, rfl⟩
abbrev main_call28_v6 : Ref sig .tc := ⟨.hbm, 1329, rfl⟩
abbrev main_call28_v7 : Ref sig .tc := ⟨.hbm, 1330, rfl⟩
abbrev main_v758 : Ref sig .tc := ⟨.hbm, 1331, rfl⟩
abbrev main_v759 : Ref sig .tc := ⟨.hbm, 1332, rfl⟩
abbrev main_v760 : Ref sig .tc := ⟨.hbm, 1333, rfl⟩
abbrev main_v761 : Ref sig .tc := ⟨.hbm, 1334, rfl⟩
abbrev main_cst_160 : Ref sig .tc := ⟨.hbm, 1335, rfl⟩
abbrev main_v762 : Ref sig .tc := ⟨.hbm, 1336, rfl⟩
abbrev main_v763 : Ref sig .tc := ⟨.hbm, 1337, rfl⟩
abbrev main_v764 : Ref sig .tc := ⟨.hbm, 1338, rfl⟩
abbrev main_v765 : Ref sig .tc := ⟨.hbm, 1339, rfl⟩
abbrev main_v766 : Ref sig .tc := ⟨.hbm, 1340, rfl⟩
abbrev main_v767 : Ref sig .tc := ⟨.hbm, 1341, rfl⟩
abbrev main_v768 : Ref sig .tc := ⟨.hbm, 1342, rfl⟩
abbrev main_v769 : Ref sig .tc := ⟨.hbm, 1343, rfl⟩
abbrev main_v770 : Ref sig .tc := ⟨.hbm, 1344, rfl⟩
abbrev main_v771 : Ref sig .tc := ⟨.hbm, 1345, rfl⟩
abbrev main_v772 : Ref sig .tc := ⟨.hbm, 1346, rfl⟩
abbrev main_call29_cst : Ref sig .tc := ⟨.hbm, 1347, rfl⟩
abbrev main_call29_v0 : Ref sig .tc := ⟨.hbm, 1348, rfl⟩
abbrev main_call29_v1 : Ref sig .tc := ⟨.hbm, 1349, rfl⟩
abbrev main_call29_cst_0 : Ref sig .tc := ⟨.hbm, 1350, rfl⟩
abbrev main_call29_v2 : Ref sig .tc := ⟨.hbm, 1351, rfl⟩
abbrev main_call29_v3 : Ref sig .tc := ⟨.hbm, 1352, rfl⟩
abbrev main_call29_cst_1 : Ref sig .tc := ⟨.hbm, 1353, rfl⟩
abbrev main_call29_call0_v0 : Ref sig .tc := ⟨.hbm, 1354, rfl⟩
abbrev main_call29_call0_v1 : Ref sig .tc := ⟨.hbm, 1355, rfl⟩
abbrev main_call29_v4 : Ref sig .tc := ⟨.hbm, 1356, rfl⟩
abbrev main_call29_v5 : Ref sig .tc := ⟨.hbm, 1357, rfl⟩
abbrev main_call29_cst_2 : Ref sig .tc := ⟨.hbm, 1358, rfl⟩
abbrev main_call29_v6 : Ref sig .tc := ⟨.hbm, 1359, rfl⟩
abbrev main_call29_v7 : Ref sig .tc := ⟨.hbm, 1360, rfl⟩
abbrev main_v773 : Ref sig .tc := ⟨.hbm, 1361, rfl⟩
abbrev main_cst_161 : Ref sig .tc := ⟨.hbm, 1362, rfl⟩
abbrev main_v774 : Ref sig .tc := ⟨.hbm, 1363, rfl⟩
abbrev main_v775 : Ref sig .tc := ⟨.hbm, 1364, rfl⟩
abbrev main_v776 : Ref sig .tc := ⟨.hbm, 1365, rfl⟩
abbrev main_cst_162 : Ref sig .tc := ⟨.hbm, 1366, rfl⟩
abbrev main_v777 : Ref sig .tc := ⟨.hbm, 1367, rfl⟩
abbrev main_cst_163 : Ref sig .tc := ⟨.hbm, 1368, rfl⟩
abbrev main_v778 : Ref sig .tc := ⟨.hbm, 1369, rfl⟩
abbrev main_v779 : Ref sig .tc := ⟨.hbm, 1370, rfl⟩
abbrev main_v780 : Ref sig .tc := ⟨.hbm, 1371, rfl⟩
abbrev main_cst_164 : Ref sig .tc := ⟨.hbm, 1372, rfl⟩
abbrev main_v781 : Ref sig .tc := ⟨.hbm, 1373, rfl⟩
abbrev main_v782 : Ref sig .tc := ⟨.hbm, 1374, rfl⟩
abbrev main_v783 : Ref sig .tc := ⟨.hbm, 1375, rfl⟩
abbrev main_v784 : Ref sig .tc := ⟨.hbm, 1376, rfl⟩
abbrev main_v785 : Ref sig .tc := ⟨.hbm, 1377, rfl⟩
abbrev main_v786 : Ref sig .tc := ⟨.hbm, 1378, rfl⟩
abbrev main_v787 : Ref sig .tc := ⟨.hbm, 1379, rfl⟩
abbrev main_v788 : Ref sig .tc := ⟨.hbm, 1380, rfl⟩
abbrev main_v789 : Ref sig .tc := ⟨.hbm, 1381, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  shapeCasts_S10000x64_S10000x1x64 : S10000x64.ShapeCasts S10000x1x64
  bcast_S_S10000x1x64 : S_.BroadcastsInDim S10000x1x64 (![] : Fin 0 → Fin S10000x1x64.rank)
  bcast_S1x64_S1x1x64_1_2 : S1x64.BroadcastsInDim S1x1x64 (![1, 2] : Fin 2 → Fin S1x1x64.rank)
  bcast_S1x1x64_S10000x1x64_0_1_2 : S1x1x64.BroadcastsInDim S10000x1x64 (![0, 1, 2] : Fin 3 → Fin S10000x1x64.rank)
  reducesTo_S10000x1x64_S10000x1_d2 : S10000x1x64.ReducesTo [2] S10000x1
  h_S_ : 0 < S_.numel
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S10000x1_S10000x1x1_0_1 : S10000x1.BroadcastsInDim S10000x1x1 (![0, 1] : Fin 2 → Fin S10000x1x1.rank)
  bcast_S10000x1x1_S10000x1x64_0_1_2 : S10000x1x1.BroadcastsInDim S10000x1x64 (![0, 1, 2] : Fin 3 → Fin S10000x1x64.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1x64 : S_.BroadcastsInDim S320000x1x64 (![] : Fin 0 → Fin S320000x1x64.rank)
  slices_S9x1x64_S1x1x64_0_0_0 : S9x1x64.Slices ![0, 0, 0] S1x1x64
  shapeCasts_S1x1x64_S1x64 : S1x1x64.ShapeCasts S1x64
  bcast_S1x1x64_S320000x1x64_0_1_2 : S1x1x64.BroadcastsInDim S320000x1x64 (![0, 1, 2] : Fin 3 → Fin S320000x1x64.rank)
  reducesTo_S320000x1x64_S320000x1_d2 : S320000x1x64.ReducesTo [2] S320000x1
  bcast_S_S320000x1 : S_.BroadcastsInDim S320000x1 (![] : Fin 0 → Fin S320000x1.rank)
  bcast_S_S10000x1 : S_.BroadcastsInDim S10000x1 (![] : Fin 0 → Fin S10000x1.rank)
  bcast_S320000x1_S320000x1x1_0_1 : S320000x1.BroadcastsInDim S320000x1x1 (![0, 1] : Fin 2 → Fin S320000x1x1.rank)
  shapeCasts_S320000x64_S320000x1x64 : S320000x64.ShapeCasts S320000x1x64
  bcast_S320000x1x1_S320000x1x64_0_1_2 : S320000x1x1.BroadcastsInDim S320000x1x64 (![0, 1, 2] : Fin 3 → Fin S320000x1x64.rank)
  shapeCasts_S10000x1x64_S10000x64 : S10000x1x64.ShapeCasts S10000x64
  concatenates_S10000x1x64_S10000x1x64_S10000x1x128_d2 : Shape.Concatenates [S10000x1x64, S10000x1x64] S10000x1x128 2
  slices_S9x1x128_S1x1x128_0_0_0 : S9x1x128.Slices ![0, 0, 0] S1x1x128
  shapeCasts_S1x1x128_S1x128 : S1x1x128.ShapeCasts S1x128
  bcast_S_S10000x1x128 : S_.BroadcastsInDim S10000x1x128 (![] : Fin 0 → Fin S10000x1x128.rank)
  bcast_S1x128_S1x1x128_1_2 : S1x128.BroadcastsInDim S1x1x128 (![1, 2] : Fin 2 → Fin S1x1x128.rank)
  bcast_S1x1x128_S10000x1x128_0_1_2 : S1x1x128.BroadcastsInDim S10000x1x128 (![0, 1, 2] : Fin 3 → Fin S10000x1x128.rank)
  reducesTo_S10000x1x128_S10000x1_d2 : S10000x1x128.ReducesTo [2] S10000x1
  slices_S9x1_S1x1_0_0 : S9x1.Slices ![0, 0] S1x1
  shapeCasts_S1x1_S1 : S1x1.ShapeCasts S1
  slices_S9x1x64_S1x1x64_1_0_0 : S9x1x64.Slices ![1, 0, 0] S1x1x64
  slices_S9x1x128_S1x1x128_1_0_0 : S9x1x128.Slices ![1, 0, 0] S1x1x128
  slices_S9x1_S1x1_1_0 : S9x1.Slices ![1, 0] S1x1
  slices_S9x1x64_S1x1x64_2_0_0 : S9x1x64.Slices ![2, 0, 0] S1x1x64
  slices_S9x1x128_S1x1x128_2_0_0 : S9x1x128.Slices ![2, 0, 0] S1x1x128
  slices_S9x1_S1x1_2_0 : S9x1.Slices ![2, 0] S1x1
  slices_S9x1x64_S1x1x64_3_0_0 : S9x1x64.Slices ![3, 0, 0] S1x1x64
  slices_S9x1x128_S1x1x128_3_0_0 : S9x1x128.Slices ![3, 0, 0] S1x1x128
  slices_S9x1_S1x1_3_0 : S9x1.Slices ![3, 0] S1x1
  slices_S9x1x64_S1x1x64_4_0_0 : S9x1x64.Slices ![4, 0, 0] S1x1x64
  slices_S9x1x128_S1x1x128_4_0_0 : S9x1x128.Slices ![4, 0, 0] S1x1x128
  slices_S9x1_S1x1_4_0 : S9x1.Slices ![4, 0] S1x1
  slices_S9x1x64_S1x1x64_5_0_0 : S9x1x64.Slices ![5, 0, 0] S1x1x64
  slices_S9x1x128_S1x1x128_5_0_0 : S9x1x128.Slices ![5, 0, 0] S1x1x128
  slices_S9x1_S1x1_5_0 : S9x1.Slices ![5, 0] S1x1
  slices_S9x1x64_S1x1x64_6_0_0 : S9x1x64.Slices ![6, 0, 0] S1x1x64
  slices_S9x1x128_S1x1x128_6_0_0 : S9x1x128.Slices ![6, 0, 0] S1x1x128
  slices_S9x1_S1x1_6_0 : S9x1.Slices ![6, 0] S1x1
  slices_S9x1x64_S1x1x64_7_0_0 : S9x1x64.Slices ![7, 0, 0] S1x1x64
  slices_S9x1x128_S1x1x128_7_0_0 : S9x1x128.Slices ![7, 0, 0] S1x1x128
  slices_S9x1_S1x1_7_0 : S9x1.Slices ![7, 0] S1x1
  slices_S9x1x64_S1x1x64_8_0_0 : S9x1x64.Slices ![8, 0, 0] S1x1x64
  slices_S9x1x128_S1x1x128_8_0_0 : S9x1x128.Slices ![8, 0, 0] S1x1x128
  slices_S9x1_S1x1_8_0 : S9x1.Slices ![8, 0] S1x1
  bcast_S_S64x64 : S_.BroadcastsInDim S64x64 (![] : Fin 0 → Fin S64x64.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x1_S64x1_0_1 : S1x1.BroadcastsInDim S64x1 (![0, 1] : Fin 2 → Fin S64x1.rank)
  dot_S10000x739_S739x64_S10000x64_1_0_0_1_n_n_wf : DotDims.WF S10000x739 S739x64 S10000x64 [1] [0] [0] [1] [] []
  dot_S10000x64_S64x64_S10000x64_1_0_0_1_n_n_wf : DotDims.WF S10000x64 S64x64 S10000x64 [1] [0] [0] [1] [] []
  gather_S10000x1x64_S320000x1_S320000x1x64_12_0_n_n_0_1_1164_wf : GatherDims.WF S10000x1x64 S320000x1 S320000x1x64 [1, 2] [0] [] [0] [] 1 ![1, 1, 64]
  scatter_S10000x1_S320000x1_S320000x1_1_0_0_1_wf : ScatterDims.WF S10000x1 S320000x1 S320000x1 [1] [0] [0] 1
  gather_S10000x1_S320000x1_S320000x1_1_0_n_n_0_1_11_wf : GatherDims.WF S10000x1 S320000x1 S320000x1 [1] [0] [] [0] [] 1 ![1, 1]
  gather_S10000x64_S320000x1_S320000x64_1_0_n_n_0_1_164_wf : GatherDims.WF S10000x64 S320000x1 S320000x64 [1] [0] [] [0] [] 1 ![1, 64]
  scatter_S10000x1x64_S320000x1_S320000x1x64_12_0_0_1_wf : ScatterDims.WF S10000x1x64 S320000x1 S320000x1x64 [1, 2] [0] [0] 1
  scatter_S64x64_S10000x1_S10000x64_1_0_0_1_wf : ScatterDims.WF S64x64 S10000x1 S10000x64 [1] [0] [0] 1
  scatter_S64_S10000x1_S10000_n_0_0_1_wf : ScatterDims.WF S64 S10000x1 S10000 [] [0] [0] 1
  dot_S64x64_S64x1_S64x1_1_0_0_1_n_n_wf : DotDims.WF S64x64 S64x1 S64x1 [1] [0] [0] [1] [] []

variable [Facts₀]

def dot_S10000x739_S739x64_S10000x64_1_0_0_1_n_n : DotDims S10000x739 S739x64 S10000x64 where
  lhsContracting := [1]
  rhsContracting := [0]
  lhsNonContracting := [0]
  rhsNonContracting := [1]
  lhsBatch := []
  rhsBatch := []
  wf := dot_S10000x739_S739x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x1x64_S320000x1_S320000x1x64_12_0_n_n_0_1_1164 : GatherDims S10000x1x64 S320000x1 S320000x1x64 where
  offsetDims := [1, 2]
  collapsedSliceDims := [0]
  operandBatchingDims := []
  startIndicesBatchingDims := []
  startIndexMap := [0]
  indexVectorDim := 1
  sliceSizes := ![1, 1, 64]
  wf := gather_S10000x1x64_S320000x1_S320000x1x64_12_0_n_n_0_1_1164_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x1x64_S320000x1_S320000x1x64_12_0_0_1 : ScatterDims S10000x1x64 S320000x1 S320000x1x64 where
  updateWindowDims := [1, 2]
  insertedWindowDims := [0]
  scatterDimsToOperandDims := [0]
  indexVectorDim := 1
  wf := scatter_S10000x1x64_S320000x1_S320000x1x64_12_0_0_1_wf
def scatter_S64x64_S10000x1_S10000x64_1_0_0_1 : ScatterDims S64x64 S10000x1 S10000x64 where
  updateWindowDims := [1]
  insertedWindowDims := [0]
  scatterDimsToOperandDims := [0]
  indexVectorDim := 1
  wf := scatter_S64x64_S10000x1_S10000x64_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
/-
  The mathematics both programs compute, as functions of whole arrays of extended reals, index by index.

  A node feature matrix `x : [10000, 739]` goes through two affine maps with an ELU between them (`specX0`), the
  result is gated by a learned score of its own ELU (`specZ0`); then nine rounds follow, each of which scores every
  edge by a softplus of a weighted sum of the ELU of the two end points' scaled states (`specA`), normalises and
  scatter-sums the source features along the edges (host operations, stated with the programs' own operations), and
  adds to the state the new features gated by a score of the ELU of `[features, scaled state]` (`specUpd`; the last
  round applies one more ELU, `specUpdLast`).

  Every function here is stated over LITERAL extents and explicit coordinates `(n : Fin 10000) (c : Fin 64)`, and
  turned into an array by `of2`, which reads a rank-2 index through its two coordinates.
-/
import Idealize.ShloMosaic.PureOps.Ideal
import Idealize.ShloMosaic.Lib.ValueIdx

noncomputable section

open scoped BigOperators

namespace Cert.Spec

open Idealize.ShloMosaic Idealize.ShloMosaic.ValueIdx

/-- An extended real, as the ideal instance's 32-bit float. -/
abbrev E : Type := Ideal .f32
/-- A rank-1 array of `n` extended reals. -/
abbrev V1 (n : Nat) : Type := FVec Ideal (⟨1, ![n]⟩ : Shape) .f32
/-- A rank-2 array of `n × m` extended reals. -/
abbrev V2 (n m : Nat) : Type := FVec Ideal (⟨2, ![n, m]⟩ : Shape) .f32
/-- A rank-3 array of `n × m × k` extended reals. -/
abbrev V3 (n m k : Nat) : Type := FVec Ideal (⟨3, ![n, m, k]⟩ : Shape) .f32

/-- A rank-2 array from a function of the two coordinates. -/
def of2 {n m : Nat} (f : Fin n → Fin m → E) : V2 n m := fun i => f ⟨(i 0).val, idx2_lt0 i⟩ ⟨(i 1).val, idx2_lt1 i⟩
/-- It reads back at the index built from two coordinates. -/
theorem of2_ix2 {n m : Nat} (f : Fin n → Fin m → E) (a : Fin n) (b : Fin m) : of2 f (ix2 a b) = f a b := rfl
/-- Two rank-2 arrays agree when they agree at every pair of coordinates. -/
theorem ext2 {n m : Nat} {u v : V2 n m} (h : ∀ (a : Fin n) (b : Fin m), u (ix2 a b) = v (ix2 a b)) : u = v := by
  funext i; rw [eq_ix2 i]; exact h _ _

/-- The words the programs share: zero, one, and the small constant added to every edge score. -/
def zeroE : E := Ideal.ofBits .f32 0x00000000#32
def oneE : E := Ideal.ofBits .f32 0x3F800000#32
def epsE : E := Ideal.ofBits .f32 0x358637BD#32

/-- ELU on the extended reals: `v` where `v > 0`, else `exp (min v 0) − 1`. -/
def eluS (v : E) : E :=
  Scalar.select (FloatOps.cmpf .ogt v zeroE) v (FloatOps.exp (min v zeroE) - oneE)

/-- Softplus on the extended reals, in the stable form `max x 0 + log1p (exp (−|x − 0|))`, guarded by a test
    `x − 0 ≠ x − 0` that no extended real passes. -/
def softplusS (x : E) : E :=
  Scalar.select (FloatOps.cmpf .one (x - zeroE) (x - zeroE)) (x + zeroE)
    (max x zeroE + FloatOps.log1p (FloatOps.exp (zeroE - FloatOps.absf (x - zeroE))))

/-! ## The first stage: two affine maps, and the gate of round zero -/

/-- `h1[n, k] = Σ_j x[n, j] · w0[j, k] + b0[0, k]`. -/
def h1At (x : V2 10000 739) (w0 : V2 739 64) (b0 : V2 1 64) (n : Fin 10000) (k : Fin 64) : E :=
  (∑ j : Fin 739, x (ix2 n j) * w0 (ix2 j k)) + b0 (ix2 0 k)
/-- `h2[n, c] = Σ_k elu (h1[n, k]) · w1[k, c] + b1[0, c]`. -/
def h2At (x : V2 10000 739) (w0 : V2 739 64) (b0 : V2 1 64) (w1 : V2 64 64) (b1 : V2 1 64) (n : Fin 10000) (c : Fin 64) : E :=
  (∑ k : Fin 64, eluS (h1At x w0 b0 n k) * w1 (ix2 k c)) + b1 (ix2 0 c)
/-- The node features after the first stage. -/
def specX0 (x : V2 10000 739) (w0 : V2 739 64) (b0 : V2 1 64) (w1 : V2 64 64) (b1 : V2 1 64) : V2 10000 64 :=
  of2 (h2At x w0 b0 w1 b1)
/-- A node's gate: `Σ_k att[0, k] · elu (h[n, k]) + bias[0, 0]`. -/
def gateAt (h : V2 10000 64) (att : V2 1 64) (bias : V2 1 1) (n : Fin 10000) : E :=
  (∑ k : Fin 64, att (ix2 0 k) * eluS (h (ix2 n k))) + bias (ix2 0 0)
/-- The state after round zero: the features times their gate. -/
def specZ0 (h : V2 10000 64) (att : V2 1 64) (bias : V2 1 1) : V2 10000 64 :=
  of2 fun n c => h (ix2 n c) * gateAt h att bias n

/-! ## A round's edge scores -/

/-- `a[e, 0] = softplus (Σ_k att[0, k] · elu (zsum[e, k])) + ε`. -/
def specA (zsum : V2 320000 64) (att : V2 1 64) : V2 320000 1 :=
  of2 fun e _ => softplusS (∑ k : Fin 64, att (ix2 0 k) * eluS (zsum (ix2 e k))) + epsE

/-! ## A round's state update -/

/-- `[x, zs]` along the second axis, at `(n, k)`, `k < 128`. -/
def catAt (x zs : V2 10000 64) (n : Fin 10000) (k : Fin 128) : E :=
  if h : k.val < 64 then x (ix2 n ⟨k.val, h⟩) else zs (ix2 n ⟨k.val - 64, by omega⟩)
/-- A node's gate over `[x, zs]`: `Σ_k att[0, k] · elu ([x, zs][n, k]) + bias[0, 0]`. -/
def gate2At (x zs : V2 10000 64) (att : V2 1 128) (bias : V2 1 1) (n : Fin 10000) : E :=
  (∑ k : Fin 128, att (ix2 0 k) * eluS (catAt x zs n k)) + bias (ix2 0 0)
/-- The state after a round: `z + x · gate`. -/
def specUpd (x z zs : V2 10000 64) (att : V2 1 128) (bias : V2 1 1) : V2 10000 64 :=
  of2 fun n c => z (ix2 n c) + x (ix2 n c) * gate2At x zs att bias n
/-- The last round's, with the closing ELU. -/
def specUpdLast (x z zs : V2 10000 64) (att : V2 1 128) (bias : V2 1 1) : V2 10000 64 :=
  of2 fun n c => eluS (z (ix2 n c) + x (ix2 n c) * gate2At x zs att bias n)

end Cert.Spec

end
-- ==== Proof.KReg0Pay.lean ====
/-
  The first region's arithmetic, index by index, at the extended reals.

  A block of 1000 rows `x` of the node features goes through `h1 = x · w0 + b0`, an ELU, and `h2 = elu h1 · w1 + b1`;
  the first output stores `h2`, the second `h2` times the row's gate `Σ_k att[0, k] · elu (h2[·, k]) + bias`.
  Here: the two matrix products read at `(p, q)` as sums over the shared coordinate; a lane sum kept as a column and
  spread back over the lanes; the stored values at `(p, q)` as those sums; and, where a block's row `p` is row `n` of the
  whole array, the stored values at `(p, q)` as the specification's at `(n, q)`.
-/
import proofs.«404001_j15436112461850_3_alg».proof.Proof.Gen.KernelIdeal.Skeleton
import proofs.«404001_j15436112461850_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KReg0

open Idealize.ShloMosaic Idealize.ShloMosaic.ValueIdx
open Cert.KernelIdeal Cert.KernelIdeal.Gen
open Cert.Spec (eluS specX0 specZ0 h1At h2At gateAt of2 of2_ix2 V2)

/-! ## The two matrix products at an index -/

-- The operands' indices at output index `i` and shared coordinate `q`, axis by axis: the left operand is read at
-- `(i 0, q)`, the right at `(q, i 1)` — first for the `[1000, 739] × [739, 64]` product, further down for `[1000, 64] × [64, 64]`.
theorem lhs_dotA_0 (i : S1000x64.Idx) (q : dot_S1000x739_S739x64_S1000x64_1_0_0_1_n_n.contr.Idx) :
    (dot_S1000x739_S739x64_S1000x64_1_0_0_1_n_n.lhsIdx i q 0).val = (i 0).val := by
  unfold DotDims.lhsIdx
  rw [dif_neg (show ¬(0 : Fin S1000x739.rank) ∈ dot_S1000x739_S739x64_S1000x64_1_0_0_1_n_n.lhsBatch by decide), dif_pos (show (0 : Fin S1000x739.rank) ∈ dot_S1000x739_S739x64_S1000x64_1_0_0_1_n_n.lhsNonContracting by decide)]
  rfl
theorem lhs_dotA_1 (i : S1000x64.Idx) (q : dot_S1000x739_S739x64_S1000x64_1_0_0_1_n_n.contr.Idx) :
    (dot_S1000x739_S739x64_S1000x64_1_0_0_1_n_n.lhsIdx i q 1).val = (q ⟨0, by decide⟩).val :=
  dot_S1000x739_S739x64_S1000x64_1_0_0_1_n_n.lhsIdx_val_of_single rfl i q
theorem rhs_dotA_0 (i : S1000x64.Idx) (q : dot_S1000x739_S739x64_S1000x64_1_0_0_1_n_n.contr.Idx) :
    (dot_S1000x739_S739x64_S1000x64_1_0_0_1_n_n.rhsIdx i q 0).val = (q ⟨0, by decide⟩).val :=
  dot_S1000x739_S739x64_S1000x64_1_0_0_1_n_n.rhsIdx_val_of_single rfl i q
theorem rhs_dotA_1 (i : S1000x64.Idx) (q : dot_S1000x739_S739x64_S1000x64_1_0_0_1_n_n.contr.Idx) :
    (dot_S1000x739_S739x64_S1000x64_1_0_0_1_n_n.rhsIdx i q 1).val = (i 1).val := by
  unfold DotDims.rhsIdx
  rw [dif_neg (show ¬(1 : Fin S739x64.rank) ∈ dot_S1000x739_S739x64_S1000x64_1_0_0_1_n_n.rhsBatch by decide), dif_pos (show (1 : Fin S739x64.rank) ∈ dot_S1000x739_S739x64_S1000x64_1_0_0_1_n_n.rhsNonContracting by decide)]
  rfl

/-- The first product into a zero accumulator, at row `p` and column `q`: the sum over the 739 shared coordinates. -/
theorem matmulA_apply (a : FVec Ideal S1000x739 .bf16) (b : FVec Ideal S739x64 .bf16) (p : Fin 1000) (q : Fin 64) :
    matmul dot_S1000x739_S739x64_S1000x64_1_0_0_1_n_n none a b (constant (F := Ideal) S1000x64 .f32 0x00000000#32) (ix2 p q)
      = ∑ j : Fin 739, a (ix2 p j) * b (ix2 j q) := by
  simp only [matmul]
  rw [Ideal.matmul_constant_zero_apply, ← Equiv.sum_comp (contrEquiv1 dot_S1000x739_S739x64_S1000x64_1_0_0_1_n_n 739 rfl rfl).symm]
  refine Finset.sum_congr rfl fun k _ => ?_
  have hk := contrEquiv1_symm_val dot_S1000x739_S739x64_S1000x64_1_0_0_1_n_n 739 rfl rfl k
  have el : dot_S1000x739_S739x64_S1000x64_1_0_0_1_n_n.lhsIdx (ix2 p q) ((contrEquiv1 dot_S1000x739_S739x64_S1000x64_1_0_0_1_n_n 739 rfl rfl).symm k) = ix2 p k := funext fun a => Fin.ext (by
    match a with
    | ⟨0, _⟩ => exact lhs_dotA_0 _ _
    | ⟨1, _⟩ => exact (lhs_dotA_1 _ _).trans hk)
  have er : dot_S1000x739_S739x64_S1000x64_1_0_0_1_n_n.rhsIdx (ix2 p q) ((contrEquiv1 dot_S1000x739_S739x64_S1000x64_1_0_0_1_n_n 739 rfl rfl).symm k) = ix2 k q := funext fun a => Fin.ext (by
    match a with
    | ⟨0, _⟩ => exact (rhs_dotA_0 _ _).trans hk
    | ⟨1, _⟩ => exact rhs_dotA_1 _ _)
  rw [el, er]

theorem lhs_dotB_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_dotB_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs_dotB_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs_dotB_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The second product into a zero accumulator, at row `p` and column `q`: the sum over the 64 shared coordinates. -/
theorem matmulB_apply (a : FVec Ideal S1000x64 .bf16) (b : FVec Ideal S64x64 .bf16) (p : Fin 1000) (q : Fin 64) :
    matmul dot_S1000x64_S64x64_S1000x64_1_0_0_1_n_n none a b (constant (F := Ideal) S1000x64 .f32 0x00000000#32) (ix2 p q)
      = ∑ k : Fin 64, a (ix2 p k) * b (ix2 k q) := by
  simp only [matmul]
  rw [Ideal.matmul_constant_zero_apply, ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 p q) ((contrEquiv1 dot_S1000x64_S64x64_S1000x64_1_0_0_1_n_n 64 rfl rfl).symm k) = ix2 p k := funext fun a => Fin.ext (by
    match a with
    | ⟨0, _⟩ => exact lhs_dotB_0 _ _
    | ⟨1, _⟩ => exact (lhs_dotB_1 _ _).trans hk)
  have er : dot_S1000x64_S64x64_S1000x64_1_0_0_1_n_n.rhsIdx (ix2 p q) ((contrEquiv1 dot_S1000x64_S64x64_S1000x64_1_0_0_1_n_n 64 rfl rfl).symm k) = ix2 k q := funext fun a => Fin.ext (by
    match a with
    | ⟨0, _⟩ => exact (rhs_dotB_0 _ _).trans hk
    | ⟨1, _⟩ => exact rhs_dotB_1 _ _)
  rw [el, er]

/-! ## The column forms: a lane sum kept as a column, and a column spread over the lanes -/

/-- An `[a]` array cast to a column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `[1000, 64]` block at row `p`: the sum over the 64 lanes. -/
theorem laneSum_apply (src : FVec Ideal S1000x64 .f32) (h : S1000x64.Reduces [1] S1000) (hφ : FKind.Formats .f32)
    (hacc : (0x00000000#32 : BitVec 32) = 0x00000000#32) (p : Fin 1000) :
    multiReduction (F := Ideal) .add [1] S1000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The body's arithmetic at an index -/

/-- The body's ELU on a whole block: where the entry exceeds zero the entry, else `exp (min entry 0) − 1`. -/
def eluV (v : FVec Ideal S1000x64 .f32) : FVec Ideal S1000x64 .f32 :=
  select (cmpf .ogt v (broadcast S1000x64 (Scalar.ofBits .f32 0x00000000#32)))
    v (subf (exp (minimumf v (broadcast S1000x64 (Scalar.ofBits .f32 0x00000000#32)))) (broadcast S1000x64 (Scalar.ofBits .f32 0x3F800000#32)))

/-- At an index it is the scalar ELU of the entry. -/
theorem eluV_apply (v : FVec Ideal S1000x64 .f32) (i : S1000x64.Idx) : eluV v i = eluS (v i) := rfl

/-- The first affine map on a block: the block's rows against the weights, plus the bias row. -/
def affA (x0 : Vec Ideal S1000x739 .f32) (x1 : Vec Ideal S739x64 .f32) (x2 : Vec Ideal S1x64 .f32) : FVec Ideal S1000x64 .f32 :=
  addf (matmul dot_S1000x739_S739x64_S1000x64_1_0_0_1_n_n none (truncf .bf16 x0 bitsLt_bf16_f32) (truncf .bf16 x1 bitsLt_bf16_f32) (constant S1000x64 .f32 0x00000000#32))
    (broadcastTo S1000x64 (shapeCast S1x64 x2 shapeCasts_S1x64_S1x64) broadcasts_S1x64_S1000x64)

/-- The second affine map on a block. -/
def affB (h : FVec Ideal S1000x64 .f32) (x3 : Vec Ideal S64x64 .f32) (x4 : Vec Ideal S1x64 .f32) : FVec Ideal S1000x64 .f32 :=
  addf (matmul dot_S1000x64_S64x64_S1000x64_1_0_0_1_n_n none (truncf .bf16 h bitsLt_bf16_f32) (truncf .bf16 x3 bitsLt_bf16_f32) (constant S1000x64 .f32 0x00000000#32))
    (broadcastTo S1000x64 (shapeCast S1x64 x4 shapeCasts_S1x64_S1x64) broadcasts_S1x64_S1000x64)

/-- The stored features are the second map of the ELU of the first. -/
theorem pay2_eq (x0 : Vec Ideal S1000x739 .f32) (x1 : Vec Ideal S739x64 .f32) (x2 : Vec Ideal S1x64 .f32) (x3 : Vec Ideal S64x64 .f32) (x4 : Vec Ideal S1x64 .f32) :
    k0_pay2 (F := Ideal) x0 x1 x2 x3 x4 = affB (eluV (affA x0 x1 x2)) x3 x4 := rfl

theorem affA_apply (x0 : Vec Ideal S1000x739 .f32) (x1 : Vec Ideal S739x64 .f32) (x2 : Vec Ideal S1x64 .f32) (p : Fin 1000) (k : Fin 64) :
    affA x0 x1 x2 (ix2 p k) = (∑ j : Fin 739, x0 (ix2 p j) * x1 (ix2 j k)) + x2 (ix2 (0 : Fin 1) k) := by
  unfold affA
  rw [addf_apply, matmulA_apply, broadcastTo_1b_ab_apply, shapeCast_self]
  rfl

theorem affB_apply (h : FVec Ideal S1000x64 .f32) (x3 : Vec Ideal S64x64 .f32) (x4 : Vec Ideal S1x64 .f32) (p : Fin 1000) (q : Fin 64) :
    affB h x3 x4 (ix2 p q) = (∑ k : Fin 64, h (ix2 p k) * x3 (ix2 k q)) + x4 (ix2 (0 : Fin 1) q) := by
  unfold affB
  rw [addf_apply, matmulB_apply, broadcastTo_1b_ab_apply, shapeCast_self]
  rfl

/-- THE STORED FEATURES AT `(p, q)`. -/
theorem pay2_apply (x0 : Vec Ideal S1000x739 .f32) (x1 : Vec Ideal S739x64 .f32) (x2 : Vec Ideal S1x64 .f32) (x3 : Vec Ideal S64x64 .f32) (x4 : Vec Ideal S1x64 .f32) (p : Fin 1000) (q : Fin 64) :
    k0_pay2 (F := Ideal) x0 x1 x2 x3 x4 (ix2 p q)
      = (∑ k : Fin 64, eluS ((∑ j : Fin 739, x0 (ix2 p j) * x1 (ix2 j k)) + x2 (ix2 (0 : Fin 1) k)) * x3 (ix2 k q)) + x4 (ix2 (0 : Fin 1) q) := by
  rw [pay2_eq, affB_apply]
  refine congrArg (· + x4 (ix2 (0 : Fin 1) q)) (Finset.sum_congr rfl fun k _ => ?_)
  rw [eluV_apply, affA_apply]

/-- The ELU of the stored features, as the gate reads it. -/
theorem pay3_eq (x0 : Vec Ideal S1000x739 .f32) (x1 : Vec Ideal S739x64 .f32) (x2 : Vec Ideal S1x64 .f32) (x3 : Vec Ideal S64x64 .f32) (x4 : Vec Ideal S1x64 .f32) :
    k0_pay3 (F := Ideal) x0 x1 x2 x3 x4 = eluV (k0_pay2 (F := Ideal) x0 x1 x2 x3 x4) := rfl

/-- The gate vector spread over the rows, at `(p, q)`. -/
theorem pay4_apply (x5 : Vec Ideal S1x64 .f32) (p : Fin 1000) (q : Fin 64) :
    k0_pay4 (F := Ideal) x5 (ix2 p q) = x5 (ix2 (0 : Fin 1) q) := by
  unfold k0_pay4
  exact broadcastTo_1b_ab_apply x5 _ p q

/-- THE GATED FEATURES AT `(p, q)`: the features times the row's gate, the lane sum of the gate vector against the ELU plus the gate's bias. -/
theorem pay1_apply (v24 v33 v35 : FVec Ideal S1000x64 .f32) (v39 : Vec Ideal S1x1 .f32) (p : Fin 1000) (q : Fin 64) :
    k0_pay1 (F := Ideal) v24 v33 v35 v39 (ix2 p q)
      = v24 (ix2 p q) * ((∑ k : Fin 64, v35 (ix2 p k) * v33 (ix2 p k)) + v39 (ix2 (0 : Fin 1) (0 : Fin 1))) := by
  unfold k0_pay1
  refine congrArg (v24 (ix2 p q) * ·) ?_
  refine (broadcastTo_a1_ab_apply _ _ p q).trans ?_
  refine congrArg₂ (· + ·) ?_ ?_
  · refine (shapeCast_a_a1_apply _ _ p (0 : Fin 1)).trans ?_
    exact laneSum_apply (mulf v35 v33) _ _ _ p
  · refine (broadcastTo_1b_ab_apply _ _ p (0 : Fin 1)).trans ?_
    rw [shapeCast_self]

/-! ## A block of rows against the whole arrays -/

/-- Where row `p` of the block `x0` is row `n` of the array `A0`, the stored features at `(p, q)` are the
    specification's at `(n, q)`. -/
theorem feat_rows (x0 : Vec Ideal S1000x739 .f32) (w0 : Vec Ideal S739x64 .f32) (b0 : Vec Ideal S1x64 .f32) (w1 : Vec Ideal S64x64 .f32) (b1 : Vec Ideal S1x64 .f32)
    (A0 : V2 10000 739) (n : Fin 10000) (p : Fin 1000) (h0 : ∀ j : Fin 739, x0 (ix2 p j) = A0 (ix2 n j)) (q : Fin 64) :
    k0_pay2 (F := Ideal) x0 w0 b0 w1 b1 (ix2 p q) = specX0 A0 w0 b0 w1 b1 (ix2 n q) := by
  refine (pay2_apply x0 w0 b0 w1 b1 p q).trans ?_
  show _ = h2At A0 w0 b0 w1 b1 n q
  unfold h2At h1At
  simp only [h0]

/-- Where row `p` of the three blocks is the features', their ELU's and the gate vector's at row `n`, the gated
    features at `(p, q)` are the specification's at `(n, q)`. -/
theorem gated_rows (f e a : FVec Ideal S1000x64 .f32) (g : Vec Ideal S1x1 .f32) (H : V2 10000 64) (att : Vec Ideal S1x64 .f32)
    (n : Fin 10000) (p : Fin 1000) (hf : ∀ q : Fin 64, f (ix2 p q) = H (ix2 n q))
    (he : ∀ k : Fin 64, e (ix2 p k) = eluS (H (ix2 n k))) (ha : ∀ k : Fin 64, a (ix2 p k) = att (ix2 (0 : Fin 1) k)) (q : Fin 64) :
    k0_pay1 (F := Ideal) f e a g (ix2 p q) = specZ0 H att g (ix2 n q) := by
  refine (pay1_apply f e a g p q).trans ?_
  show _ = H (ix2 n q) * gateAt H att g n
  unfold gateAt
  simp only [hf, he, ha]

end Cert.KernelIdeal.KReg0

end
-- ==== Proof.KReg0.lean ====
/-
  The first region's two output arrays, as whole-array functions of the arrays the region finds.

  The grid has ten points; point `t` reads rows `1000 t … 1000 t + 999` of the node features and the whole of the two weight
  matrices, the two bias rows, the gate vector and the gate's bias, and writes rows `1000 t … 1000 t + 999` of both outputs.
  Here: each window's block as that part of its array; what the body leaves in the two output buffers as those rows of
  the specification's features and gated features; the block each point writes back; the ten blocks cover the
  `[10000, 64]` arrays; so the arrays end holding the specification's two functions.
-/
import proofs.«404001_j15436112461850_3_alg».proof.Proof.KReg0Pay
import proofs.«404001_j15436112461850_3_alg».proof.Proof.FrameKI.R0
import Idealize.ShloMosaic.Lib.Pipeline.Value

set_option maxRecDepth 16384

noncomputable section

open scoped BigOperators

namespace Cert.KernelIdeal.KReg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Spec (eluS specX0 specZ0 h1At h2At gateAt of2 of2_ix2 V2)

variable (V : (c : Dev nD) → (b : Ref sig .tc) → Buf (Elt Ideal) ((c : Thread nD τ).loc b))

/-! ## What the body leaves in the two output buffers, against the whole arrays -/

/-- The zero offsets of every whole-block access. -/
theorem zero_offsets : (![0, 0] : Fin 2 → Nat) = fun _ => 0 := funext fun a => by fin_cases a <;> rfl

/-- Where the input block `x0` is rows `r … r + 999` of the array `A0`, the first output's buffer holds rows
    `r … r + 999` of the first stage's features. -/
theorem feat_buffer (x0 : Vec Ideal S1000x739 .f32) (x1 : Vec Ideal S739x64 .f32) (x2 : Vec Ideal S1x64 .f32) (x3 : Vec Ideal S64x64 .f32) (x4 : Vec Ideal S1x64 .f32) (x5 : Vec Ideal S1x64 .f32) (x6 : Vec Ideal S1x1 .f32)
    (A0 : V2 10000 739) (A1 : V2 739 64) (A2 : V2 1 64) (A3 : V2 64 64) (A4 : V2 1 64) (r : Nat) (hr : r + 1000 ≤ 10000)
    (h0 : ∀ (p : Fin 1000) (j : Fin 739), x0 (ix2 p j) = A0 (ix2 (⟨r + p.val, by have := p.isLt; omega⟩ : Fin 10000) j))
    (h1 : x1 = A1) (h2 : x2 = A2) (h3 : x3 = A3) (h4 : x4 = A4) (p : Fin 1000) (q : Fin 64) :
    Gen.out0_7 (F := Ideal) x0 x1 x2 x3 x4 x5 x6 (ix2 p q) = specX0 A0 A1 A2 A3 A4 (ix2 (⟨r + p.val, by have := p.isLt; omega⟩ : Fin 10000) q) := by
  subst h1 h2 h3 h4
  unfold Gen.out0_7
  rw [View.canon_unit_zero zero_offsets]
  simp only [View.ld_unit_zero (S := S1000x739) zero_offsets, View.ld_unit_zero (S := S739x64) zero_offsets, View.ld_unit_zero (S := S1x64) zero_offsets, View.ld_unit_zero (S := S64x64) zero_offsets]
  exact feat_rows x0 x1 x2 x3 x4 A0 _ p (h0 p) q

/-- … and the second output's buffer rows `r … r + 999` of the gated features. -/
theorem gated_buffer (x0 : Vec Ideal S1000x739 .f32) (x1 : Vec Ideal S739x64 .f32) (x2 : Vec Ideal S1x64 .f32) (x3 : Vec Ideal S64x64 .f32) (x4 : Vec Ideal S1x64 .f32) (x5 : Vec Ideal S1x64 .f32) (x6 : Vec Ideal S1x1 .f32)
    (A0 : V2 10000 739) (A1 : V2 739 64) (A2 : V2 1 64) (A3 : V2 64 64) (A4 : V2 1 64) (A5 : V2 1 64) (A6 : V2 1 1) (r : Nat) (hr : r + 1000 ≤ 10000)
    (h0 : ∀ (p : Fin 1000) (j : Fin 739), x0 (ix2 p j) = A0 (ix2 (⟨r + p.val, by have := p.isLt; omega⟩ : Fin 10000) j))
    (h1 : x1 = A1) (h2 : x2 = A2) (h3 : x3 = A3) (h4 : x4 = A4) (h5 : x5 = A5) (h6 : x6 = A6) (p : Fin 1000) (q : Fin 64) :
    Gen.out0_8 (F := Ideal) x0 x1 x2 x3 x4 x5 x6 (ix2 p q)
      = specZ0 (specX0 A0 A1 A2 A3 A4) A5 A6 (ix2 (⟨r + p.val, by have := p.isLt; omega⟩ : Fin 10000) q) := by
  subst h1 h2 h3 h4 h5 h6
  unfold Gen.out0_8
  rw [View.canon_unit_zero zero_offsets]
  simp only [View.ld_unit_zero (S := S1000x739) zero_offsets, View.ld_unit_zero (S := S739x64) zero_offsets, View.ld_unit_zero (S := S1x64) zero_offsets, View.ld_unit_zero (S := S64x64) zero_offsets, View.ld_unit_zero (S := S1x1) zero_offsets]
  refine gated_rows (k0_pay2 (F := Ideal) x0 x1 x2 x3 x4) (k0_pay3 (F := Ideal) x0 x1 x2 x3 x4) (k0_pay4 (F := Ideal) x5) x6 (specX0 A0 x1 x2 x3 x4) x5 _ p
    (fun q' => feat_rows x0 x1 x2 x3 x4 A0 _ p (h0 p) q') (fun k => ?_) (fun k => pay4_apply x5 p k) q
  rw [pay3_eq, eluV_apply, feat_rows x0 x1 x2 x3 x4 A0 _ p (h0 p) k]

/-! ## The windows' blocks as parts of the arrays -/

/-- The block indices over the grid: the three row windows move with the point, the six small windows stay at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- A point's rows end inside the array. -/
theorem rows_le (t : Fin cfg0.N) : t.val * 1000 + 1000 ≤ 10000 := by
  have := t.isLt; have hN : cfg0.N = 10 := N_0; omega

/-- The input block at point `t` is rows `1000 t … 1000 t + 999` of the node features. -/
theorem iblk_0_apply (c : Dev nD) (t : Fin cfg0.N) (p : Fin 1000) (j : Fin 739) :
    (Gen.iblk0 (F := Ideal) V c 0 t : Vec Ideal S1000x739 .f32) (ix2 p j)
      = (V c main_arg0 : V2 10000 739) (ix2 (⟨t.val * 1000 + p.val, by have := rows_le t; have := p.isLt; omega⟩ : Fin 10000) j) := by
  obtain ⟨e0, e1, -⟩ := index_facts t
  unfold Gen.iblk0
  rw [View.read_apply]
  show V c main_arg0 (((cfg0.win 0).blk t).view.emb (ix2 p j)) = V c main_arg0 _
  congr 1
  funext a
  apply Fin.ext
  match a with
  | ⟨0, _⟩ => show win0_0.index t (0 : Fin 2) * 1000 + 1 * p.val = t.val * 1000 + p.val; omega
  | ⟨1, _⟩ => show win0_0.index t (1 : Fin 2) * 739 + 1 * j.val = j.val; omega

/-- The block of window 1 at every point is the whole of the first weights. -/
theorem iblk_1_eq (c : Dev nD) (t : Fin cfg0.N) : (Gen.iblk0 (F := Ideal) V c 1 t : Vec Ideal S739x64 .f32) = (V c main_arg3 : V2 739 64) := by
  obtain ⟨-, -, ea, eb, -, -, -, -, -, -, -, -, -, -, -, -, -, -⟩ := index_facts t
  funext y
  unfold Gen.iblk0
  rw [View.read_apply]
  show V c main_arg3 (((cfg0.win 1).blk t).view.emb y) = V c main_arg3 y
  congr 1
  funext a
  apply Fin.ext
  match a with
  | ⟨0, _⟩ => show win0_1.index t (0 : Fin 2) * 739 + 1 * (y 0).val = (y 0).val; omega
  | ⟨1, _⟩ => show win0_1.index t (1 : Fin 2) * 64 + 1 * (y 1).val = (y 1).val; omega

/-- The block of window 2 at every point is the whole of the first bias. -/
theorem iblk_2_eq (c : Dev nD) (t : Fin cfg0.N) : (Gen.iblk0 (F := Ideal) V c 2 t : Vec Ideal S1x64 .f32) = (V c main_v4 : V2 1 64) := by
  obtain ⟨-, -, -, -, ea, eb, -, -, -, -, -, -, -, -, -, -, -, -⟩ := index_facts t
  funext y
  unfold Gen.iblk0
  rw [View.read_apply]
  show V c main_v4 (((cfg0.win 2).blk t).view.emb y) = V c main_v4 y
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The block of window 3 at every point is the whole of the second weights. -/
theorem iblk_3_eq (c : Dev nD) (t : Fin cfg0.N) : (Gen.iblk0 (F := Ideal) V c 3 t : Vec Ideal S64x64 .f32) = (V c main_arg5 : V2 64 64) := by
  obtain ⟨-, -, -, -, -, -, ea, eb, -, -, -, -, -, -, -, -, -, -⟩ := index_facts t
  funext y
  unfold Gen.iblk0
  rw [View.read_apply]
  show V c main_arg5 (((cfg0.win 3).blk t).view.emb y) = V c main_arg5 y
  congr 1
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The block of window 4 at every point is the whole of the second bias. -/
theorem iblk_4_eq (c : Dev nD) (t : Fin cfg0.N) : (Gen.iblk0 (F := Ideal) V c 4 t : Vec Ideal S1x64 .f32) = (V c main_v5 : V2 1 64) := by
  obtain ⟨-, -, -, -, -, -, -, -, ea, eb, -, -, -, -, -, -, -, -⟩ := index_facts t
  funext y
  unfold Gen.iblk0
  rw [View.read_apply]
  show V c main_v5 (((cfg0.win 4).blk t).view.emb y) = V c main_v5 y
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The block of window 5 at every point is the whole of the gate vector. -/
theorem iblk_5_eq (c : Dev nD) (t : Fin cfg0.N) : (Gen.iblk0 (F := Ideal) V c 5 t : Vec Ideal S1x64 .f32) = (V c main_arg8 : V2 1 64) := by
  obtain ⟨-, -, -, -, -, -, -, -, -, -, ea, eb, -, -, -, -, -, -⟩ := index_facts t
  funext y
  unfold Gen.iblk0
  rw [View.read_apply]
  show V c main_arg8 (((cfg0.win 5).blk t).view.emb y) = V c main_arg8 y
  congr 1
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The block of window 6 at every point is the whole of the gate's bias. -/
theorem iblk_6_eq (c : Dev nD) (t : Fin cfg0.N) : (Gen.iblk0 (F := Ideal) V c 6 t : Vec Ideal S1x1 .f32) = (V c main_v6 : V2 1 1) := by
  obtain ⟨-, -, -, -, -, -, -, -, -, -, -, -, ea, eb, -, -, -, -⟩ := index_facts t
  funext y
  unfold Gen.iblk0
  rw [View.read_apply]
  show V c main_v6 (((cfg0.win 6).blk t).view.emb y) = V c main_v6 y
  congr 1
  funext a
  apply Fin.ext
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Output window 7's block at point `t`, read off any contents `G` of its array, is rows `1000 t … 1000 t + 999` of `G`. -/
theorem blk_7_read (G : V2 10000 64) (t : Fin cfg0.N) (p : Fin 1000) (q : Fin 64) :
    (((cfg0.win 7).blk t).view.read (Elt Ideal) G : Vec Ideal S1000x64 .f32) (ix2 p q)
      = G (ix2 (⟨t.val * 1000 + p.val, by have := rows_le t; have := p.isLt; omega⟩ : Fin 10000) q) := by
  obtain ⟨-, -, -, -, -, -, -, -, -, -, -, -, -, -, ea, eb, -, -⟩ := index_facts t
  rw [View.read_apply]
  show G (((cfg0.win 7).blk t).view.emb (ix2 p q)) = G _
  congr 1
  funext a
  apply Fin.ext
  match a with
  | ⟨0, _⟩ => show win0_7.index t (0 : Fin 2) * 1000 + 1 * p.val = t.val * 1000 + p.val; omega
  | ⟨1, _⟩ => show win0_7.index t (1 : Fin 2) * 64 + 1 * q.val = q.val; omega

/-- An index of the array is in point `t`'s block of window 7 iff each coordinate is in the block's range on its axis. -/
theorem mem_blk_7 (t : Fin cfg0.N) (i : S10000x64.Idx) :
    i ∈ ((cfg0.win 7).blk t).view.set ↔ ∀ a : Fin 2, win0_7.index t a * S1000x64.size a ≤ (i a).val ∧ (i a).val < win0_7.index t a * S1000x64.size a + S1000x64.size a := by
  show i ∈ ((View.whole main_v7_0).slice (win0_7.rect t)).set ↔ _
  rw [View.set_slice_whole, Rect.mem_set_unit]
  exact Iff.rfl

/-- Every row of the array is in the block of the point its thousand names, and every point writes its block back. -/
theorem cover_7 (i : S10000x64.Idx) : ∃ t : Fin cfg0.N, (cfg0.win 7).flush t = true ∧ i ∈ ((cfg0.win 7).blk t).view.set := by
  have hi0 : (i 0).val < 10000 := (i 0).isLt
  have hi1 : (i 1).val < 64 := (i 1).isLt
  have hN : cfg0.N = 10 := N_0
  obtain ⟨t, ht⟩ : ∃ t : Fin cfg0.N, t.val = (i 0).val / 1000 := ⟨⟨(i 0).val / 1000, by omega⟩, rfl⟩
  obtain ⟨-, -, -, -, -, -, -, -, -, -, -, -, -, -, ea, eb, -, -⟩ := index_facts t
  refine ⟨t, flush0_7 t, ?_⟩
  rw [mem_blk_7]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 64 ≤ (i 1).val ∧ (i 1).val < win0_7.index t (1 : Fin 2) * 64 + 64; omega

/-- Output window 8's block at point `t`, read off any contents `G` of its array, is rows `1000 t … 1000 t + 999` of `G`. -/
theorem blk_8_read (G : V2 10000 64) (t : Fin cfg0.N) (p : Fin 1000) (q : Fin 64) :
    (((cfg0.win 8).blk t).view.read (Elt Ideal) G : Vec Ideal S1000x64 .f32) (ix2 p q)
      = G (ix2 (⟨t.val * 1000 + p.val, by have := rows_le t; have := p.isLt; omega⟩ : Fin 10000) q) := by
  obtain ⟨-, -, -, -, -, -, -, -, -, -, -, -, -, -, -, -, ea, eb⟩ := index_facts t
  rw [View.read_apply]
  show G (((cfg0.win 8).blk t).view.emb (ix2 p q)) = G _
  congr 1
  funext a
  apply Fin.ext
  match a with
  | ⟨0, _⟩ => show win0_8.index t (0 : Fin 2) * 1000 + 1 * p.val = t.val * 1000 + p.val; omega
  | ⟨1, _⟩ => show win0_8.index t (1 : Fin 2) * 64 + 1 * q.val = q.val; omega

/-- An index of the array is in point `t`'s block of window 8 iff each coordinate is in the block's range on its axis. -/
theorem mem_blk_8 (t : Fin cfg0.N) (i : S10000x64.Idx) :
    i ∈ ((cfg0.win 8).blk t).view.set ↔ ∀ a : Fin 2, win0_8.index t a * S1000x64.size a ≤ (i a).val ∧ (i a).val < win0_8.index t a * S1000x64.size a + S1000x64.size a := by
  show i ∈ ((View.whole main_v7_1).slice (win0_8.rect t)).set ↔ _
  rw [View.set_slice_whole, Rect.mem_set_unit]
  exact Iff.rfl

/-- Every row of the array is in the block of the point its thousand names, and every point writes its block back. -/
theorem cover_8 (i : S10000x64.Idx) : ∃ t : Fin cfg0.N, (cfg0.win 8).flush t = true ∧ i ∈ ((cfg0.win 8).blk t).view.set := by
  have hi0 : (i 0).val < 10000 := (i 0).isLt
  have hi1 : (i 1).val < 64 := (i 1).isLt
  have hN : cfg0.N = 10 := N_0
  obtain ⟨t, ht⟩ : ∃ t : Fin cfg0.N, t.val = (i 0).val / 1000 := ⟨⟨(i 0).val / 1000, by omega⟩, rfl⟩
  obtain ⟨-, -, -, -, -, -, -, -, -, -, -, -, -, -, -, -, ea, eb⟩ := index_facts t
  refine ⟨t, flush0_8 t, ?_⟩
  rw [mem_blk_8]
  intro a
  match a with
  | ⟨0, _⟩ => show win0_8.index t (0 : Fin 2) * 1000 ≤ (i 0).val ∧ (i 0).val < win0_8.index t (0 : Fin 2) * 1000 + 1000; omega
  | ⟨1, _⟩ => show win0_8.index t (1 : Fin 2) * 64 ≤ (i 1).val ∧ (i 1).val < win0_8.index t (1 : Fin 2) * 64 + 64; omega

/-! ## What a point writes back, and the arrays after the region -/

/-- The first stage's features of the arrays the region finds. -/
abbrev featArr (c : Dev nD) : V2 10000 64 :=
  specX0 (V c main_arg0) (V c main_arg3) (V c main_v4) (V c main_arg5) (V c main_v5)

/-- Their gated form: the state after round zero. -/
abbrev gatedArr (c : Dev nD) : V2 10000 64 :=
  specZ0 (featArr V c) (V c main_arg8) (V c main_v6)

/-- WHAT POINT `t` WRITES BACK to the first output is rows `1000 t … 1000 t + 999` of the features. -/
theorem flushed_7 (c : Dev nD) (t : Fin cfg0.N) :
    (Gen.dat0 (F := Ideal) V c).flushed 7 t = ((cfg0.win 7).blk t).view.read (Elt Ideal) (featArr V c) := by
  show (cfg0.win 7).cut (grid0.coords t) ((Gen.dat0 (F := Ideal) V c).after 7 t) = _
  rw [Gen.after0_7]
  refine funext fun (y : S1000x64.Idx) => ?_
  obtain ⟨p, q, rfl⟩ : ∃ (p : Fin 1000) (q : Fin 64), y = ix2 p q := ⟨y 0, y 1, eq_ix2 y⟩
  refine Eq.trans ?_ (blk_7_read (featArr V c) t p q).symm
  exact feat_buffer (Gen.iblk0 (F := Ideal) V c 0 t) (Gen.iblk0 (F := Ideal) V c 1 t) (Gen.iblk0 (F := Ideal) V c 2 t)
    (Gen.iblk0 (F := Ideal) V c 3 t) (Gen.iblk0 (F := Ideal) V c 4 t) (Gen.iblk0 (F := Ideal) V c 5 t) (Gen.iblk0 (F := Ideal) V c 6 t)
    (V c main_arg0) (V c main_arg3) (V c main_v4) (V c main_arg5) (V c main_v5) (t.val * 1000) (rows_le t)
    (fun p j => iblk_0_apply V c t p j) (iblk_1_eq V c t) (iblk_2_eq V c t) (iblk_3_eq V c t) (iblk_4_eq V c t) p q

/-- … and to the second output rows `1000 t … 1000 t + 999` of the gated features. -/
theorem flushed_8 (c : Dev nD) (t : Fin cfg0.N) :
    (Gen.dat0 (F := Ideal) V c).flushed 8 t = ((cfg0.win 8).blk t).view.read (Elt Ideal) (gatedArr V c) := by
  show (cfg0.win 8).cut (grid0.coords t) ((Gen.dat0 (F := Ideal) V c).after 8 t) = _
  rw [Gen.after0_8]
  refine funext fun (y : S1000x64.Idx) => ?_
  obtain ⟨p, q, rfl⟩ : ∃ (p : Fin 1000) (q : Fin 64), y = ix2 p q := ⟨y 0, y 1, eq_ix2 y⟩
  refine Eq.trans ?_ (blk_8_read (gatedArr V c) t p q).symm
  exact gated_buffer (Gen.iblk0 (F := Ideal) V c 0 t) (Gen.iblk0 (F := Ideal) V c 1 t) (Gen.iblk0 (F := Ideal) V c 2 t)
    (Gen.iblk0 (F := Ideal) V c 3 t) (Gen.iblk0 (F := Ideal) V c 4 t) (Gen.iblk0 (F := Ideal) V c 5 t) (Gen.iblk0 (F := Ideal) V c 6 t)
    (V c main_arg0) (V c main_arg3) (V c main_v4) (V c main_arg5) (V c main_v5) (V c main_arg8) (V c main_v6) (t.val * 1000) (rows_le t)
    (fun p j => iblk_0_apply V c t p j) (iblk_1_eq V c t) (iblk_2_eq V c t) (iblk_3_eq V c t) (iblk_4_eq V c t) (iblk_5_eq V c t) (iblk_6_eq V c t) p q

/-- THE FIRST OUTPUT ARRAY after the region: the first stage's features of the arrays the region found. -/
theorem arr0_7 (c : Dev nD) :
    (Gen.dat0 (F := Ideal) V c).arrAt 7 cfg0.N
      = Cert.Spec.specX0 (V c main_arg0) (V c main_arg3) (V c main_v4) (V c main_arg5) (V c main_v5) :=
  (Gen.dat0 (F := Ideal) V c).arrAt_eq_of_cover 7 (featArr V c) (fun t _ => flushed_7 V c t) cover_7

/-- THE SECOND OUTPUT ARRAY after the region: those features, each row times its gate. -/
theorem arr0_8 (c : Dev nD) :
    (Gen.dat0 (F := Ideal) V c).arrAt 8 cfg0.N
      = Cert.Spec.specZ0 (Cert.Spec.specX0 (V c main_arg0) (V c main_arg3) (V c main_v4) (V c main_arg5) (V c main_v5)) (V c main_arg8) (V c main_v6) :=
  (Gen.dat0 (F := Ideal) V c).arrAt_eq_of_cover 8 (gatedArr V c) (fun t _ => flushed_8 V c t) cover_8

end Cert.KernelIdeal.KReg0

end
-- ==== Proof.KGlue.lean ====
/-
  The host operations of the kernel program between its calls, as pure functions of arrays at the ideal instance,
  written with the program's own operations and dimension records, so that each stretch's result read off the
  program is one of these terms by computation.

  A round takes the node features `X` and the state `Z` (both `[10000, 64]`), the edge end points `src`, `dst`
  (`[320000]` words) and the round's three parameter arrays. It scales the state, adds the scaled states of each
  edge's two end points (`kZsum`), scores the edges (`Spec.specA`), sums the scores arriving at each node
  (`kAdj`), takes the inverse square root of that degree (`kInv`), weighs each edge by both end points' (`kNa`),
  scatter-sums the weighted source features (`kX`), and updates the state (`Spec.specUpd`).
-/
import proofs.«404001_j15436112461850_3_alg».proof.KernelIdeal
import proofs.«404001_j15436112461850_3_alg».proof.Proof.Gen.KernelIdeal
import proofs.«404001_j15436112461850_3_alg».proof.Proof.Spec

noncomputable section

namespace Cert.KernelIdeal.KGlue

open Idealize.ShloMosaic Cert.KernelIdeal Cert.KernelIdeal.Facts₀ Cert.KernelIdeal.Facts

/-- Arrays at the ideal instance over the program's shapes. -/
abbrev A (s : Shape) : Type := FVec Ideal s .f32
/-- Arrays of 32-bit words. -/
abbrev W (s : Shape) : Type := IVec s 32

/-! ## What the first stretch prepares -/

/-- Row `0` of the edge list: every edge's source node. -/
def kSrc (ei : W S2x320000) : W S320000 :=
  shapeCast S320000 (extractStridedSlice S1x320000 ![0, 0] ei slices_S2x320000_S1x320000_0_0) shapeCasts_S1x320000_S320000
/-- Row `1`: every edge's destination node. -/
def kDst (ei : W S2x320000) : W S320000 :=
  shapeCast S320000 (extractStridedSlice S1x320000 ![1, 0] ei slices_S2x320000_S1x320000_1_0) shapeCasts_S1x320000_S320000
/-- A bias vector `[64]` as a row `[1, 64]`. -/
def kRow (b : A S64) : A S1x64 := shapeCast S1x64 b shapeCasts_S64_S1x64
/-- The one-element bias `[1]` as `[1, 1]`. -/
def kOne (b : A S1) : A S1x1 := shapeCast S1x1 b shapeCasts_S1_S1x1

/-- The round's parameter arrays cut out of the stacked ones: row `i` of `[9, 1, 64]`, of `[9, 1, 128]`, of `[9, 1]`. -/
def kAtt (i : Nat) (h : S9x1x64.Slices ![i, 0, 0] S1x1x64) (a7 : A S9x1x64) : A S1x64 :=
  shapeCast S1x64 (extractStridedSlice S1x1x64 ![i, 0, 0] a7 h) shapeCasts_S1x1x64_S1x64
def kHatt (i : Nat) (h : S9x1x128.Slices ![i, 0, 0] S1x1x128) (a10 : A S9x1x128) : A S1x128 :=
  shapeCast S1x128 (extractStridedSlice S1x1x128 ![i, 0, 0] a10 h) shapeCasts_S1x1x128_S1x128
def kHb (i : Nat) (h : S9x1.Slices ![i, 0] S1x1) (a11 : A S9x1) : A S1x1 :=
  shapeCast S1x1 (shapeCast S1 (extractStridedSlice S1x1 ![i, 0] a11 h) shapeCasts_S1x1_S1) shapeCasts_S1_S1x1

/-! ## A round's host operations -/

/-- A node index that may be negative counts from the end: `i + 10000` where `i < 0`; then as a column of start
    indices `[320000, 1]`. -/
def wrapIx (v : W S320000) : W S320000x1 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)
/-- The destinations as a column of scatter indices, not wrapped. -/
def colIx (v : W S320000) : W S320000x1 := broadcastInDim S320000x1 ![0] bcast_S320000_S320000x1_0 v

/-- The state times the round's constant `w`. -/
def kZs (w : BitVec 32) (z : A S10000x64) : A S10000x64 :=
  mulf z (broadcastInDim S10000x64 ![] bcast_S_S10000x64 (constant S_ .f32 w))
/-- Rows of a `[10000, 64]` array at the edges' nodes. -/
def kRows (x : A S10000x64) (v : W S320000) : A S320000x64 :=
  Host.gather gather_S10000x64_S320000x1_S320000x64_1_0_n_n_0_1_164 x (wrapIx v)
/-- Entries of a `[10000, 1]` column at the edges' nodes. -/
def kCol (x : A S10000x1) (v : W S320000) : A S320000x1 :=
  Host.gather gather_S10000x1_S320000x1_S320000x1_1_0_n_n_0_1_11 x (wrapIx v)
/-- Each edge's sum of its two end points' scaled states. -/
def kZsum (zs : A S10000x64) (src dst : W S320000) : A S320000x64 := addf (kRows zs src) (kRows zs dst)
/-- Each node's sum of the scores of the edges arriving at it. -/
def kAdj (a : A S320000x1) (dst : W S320000) : A S10000 :=
  Host.scatterAdd scatter_S10000_S320000x1_S320000_n_0_0_1
    (broadcastInDim S10000 ![] bcast_S_S10000 (constant S_ .f32 0x00000000#32)) (colIx dst)
    (shapeCast S320000 a shapeCasts_S320000x1_S320000)
/-- `max (adj, 1e-32) ^ (−1/2)`, as a column. -/
def kInv (adj : A S10000) : A S10000x1 :=
  shapeCast S10000x1
    (Host.powf (maximumf adj (broadcastInDim S10000 ![] bcast_S_S10000 (constant S_ .f32 0x0A4FB11F#32)))
      (broadcastInDim S10000 ![] bcast_S_S10000 (constant S_ .f32 0xBF000000#32)))
    shapeCasts_S10000_S10000x1
/-- Each edge's weight: `inv[src] · a · inv[dst]`. -/
def kNa (inv : A S10000x1) (a : A S320000x1) (src dst : W S320000) : A S320000x1 :=
  mulf (mulf (kCol inv src) a) (kCol inv dst)
/-- The new node features: at each node the sum over arriving edges of the source's features times the weight. -/
def kX (x : A S10000x64) (na : A S320000x1) (src dst : W S320000) : A S10000x64 :=
  Host.scatterAdd scatter_S10000x64_S320000x1_S320000x64_1_0_0_1
    (broadcastInDim S10000x64 ![] bcast_S_S10000x64 (constant S_ .f32 0x00000000#32)) (colIx dst)
    (mulf (kRows x src) (broadcastInDim S320000x64 ![0, 1] bcast_S320000x1_S320000x64_0_1 na))

/-- The new features of a round. -/
def kXNew (w : BitVec 32) (att : A S1x64) (src dst : W S320000) (X Z : A S10000x64) : A S10000x64 :=
  let a := Cert.Spec.specA (kZsum (kZs w Z) src dst) att
  kX X (kNa (kInv (kAdj a dst)) a src dst) src dst
/-- The new state of a round. -/
def kZNew (w : BitVec 32) (att : A S1x64) (hatt : A S1x128) (hb : A S1x1) (src dst : W S320000) (X Z : A S10000x64) :
    A S10000x64 :=
  Cert.Spec.specUpd (kXNew w att src dst X Z) Z (kZs w Z) hatt hb
/-- The last round's, with the closing ELU. -/
def kZLast (w : BitVec 32) (att : A S1x64) (hatt : A S1x128) (hb : A S1x1) (src dst : W S320000) (X Z : A S10000x64) :
    A S10000x64 :=
  Cert.Spec.specUpdLast (kXNew w att src dst X Z) Z (kZs w Z) hatt hb

/-! ## The readout -/

/-- Mean over each graph's nodes, then the linear head: `(Σ_{batch = g} zf) / max (count, 1) · w + b`. -/
def kOut (zf : A S10000x64) (batch : W S10000) (wh : A S64x1) (bh : A S1) : A S64x1 :=
  addf
    (Host.dotGeneral dot_S64x64_S64x1_S64x1_1_0_0_1_n_n none
      (Host.divf
        (Host.scatterAdd scatter_S64x64_S10000x1_S10000x64_1_0_0_1
          (broadcastInDim S64x64 ![] bcast_S_S64x64 (constant S_ .f32 0x00000000#32))
          (broadcastInDim S10000x1 ![0] bcast_S10000_S10000x1_0 batch) zf)
        (broadcastInDim S64x64 ![0, 1] bcast_S64x1_S64x64_0_1
          (broadcastInDim S64x1 ![0] bcast_S64_S64x1_0
            (maximumf
              (Host.scatterAdd scatter_S64_S10000x1_S10000_n_0_0_1
                (broadcastInDim S64 ![] bcast_S_S64 (constant S_ .f32 0x00000000#32))
                (broadcastInDim S10000x1 ![0] bcast_S10000_S10000x1_0 batch)
                (broadcastInDim S10000 ![] bcast_S_S10000 (constant S_ .f32 0x3F800000#32)))
              (broadcastInDim S64 ![] bcast_S_S64 (constant S_ .f32 0x3F800000#32))))))
      wh)
    (broadcastInDim S64x1 ![0, 1] bcast_S1x1_S64x1_0_1 (broadcastInDim S1x1 ![1] bcast_S1_S1x1_1 bh))

/-! ## The whole program as one function of its arguments -/

/-- A round's parameters: its constant, the edge-score vector, the gate vector and the gate bias. -/
structure KP where
  w : BitVec 32
  att : A S1x64
  hatt : A S1x128
  hb : A S1x1

/-- One round on the pair (features, state). -/
def kStep (src dst : W S320000) (s : A S10000x64 × A S10000x64) (p : KP) : A S10000x64 × A S10000x64 :=
  (kXNew p.w p.att src dst s.1 s.2, kZNew p.w p.att p.hatt p.hb src dst s.1 s.2)

/-- The first eight rounds' parameters, in order. -/
def kParams (a7 : A S9x1x64) (a10 : A S9x1x128) (a11 : A S9x1) : List KP :=
  [ ⟨0x3F317220#32, kAtt 0 slices_S9x1x64_S1x1x64_0_0_0 a7, kHatt 0 slices_S9x1x128_S1x1x128_0_0_0 a10, kHb 0 slices_S9x1_S1x1_0_0 a11⟩,
    ⟨0x3ECF9936#32, kAtt 1 slices_S9x1x64_S1x1x64_1_0_0 a7, kHatt 1 slices_S9x1x128_S1x1x128_1_0_0 a10, kHb 1 slices_S9x1_S1x1_1_0 a11⟩,
    ⟨0x3E934B2A#32, kAtt 2 slices_S9x1x64_S1x1x64_2_0_0 a7, kHatt 2 slices_S9x1x128_S1x1x128_2_0_0 a10, kHb 2 slices_S9x1_S1x1_2_0 a11⟩,
    ⟨0x3E647FF4#32, kAtt 3 slices_S9x1x64_S1x1x64_3_0_0 a7, kHatt 3 slices_S9x1x128_S1x1x128_3_0_0 a10, kHb 3 slices_S9x1_S1x1_3_0 a11⟩,
    ⟨0x3E3AB2B8#32, kAtt 4 slices_S9x1x64_S1x1x64_4_0_0 a7, kHatt 4 slices_S9x1x128_S1x1x128_4_0_0 a10, kHb 4 slices_S9x1_S1x1_4_0 a11⟩,
    ⟨0x3E1DD9E7#32, kAtt 5 slices_S9x1x64_S1x1x64_5_0_0 a7, kHatt 5 slices_S9x1x128_S1x1x128_5_0_0 a10, kHb 5 slices_S9x1_S1x1_5_0 a11⟩,
    ⟨0x3E08BCAF#32, kAtt 6 slices_S9x1x64_S1x1x64_6_0_0 a7, kHatt 6 slices_S9x1x128_S1x1x128_6_0_0 a10, kHb 6 slices_S9x1_S1x1_6_0 a11⟩,
    ⟨0x3DF138B3#32, kAtt 7 slices_S9x1x64_S1x1x64_7_0_0 a7, kHatt 7 slices_S9x1x128_S1x1x128_7_0_0 a10, kHb 7 slices_S9x1_S1x1_7_0 a11⟩ ]
/-- The ninth round's. -/
def kLastP (a7 : A S9x1x64) (a10 : A S9x1x128) (a11 : A S9x1) : KP :=
  ⟨0x3DD7C7BA#32, kAtt 8 slices_S9x1x64_S1x1x64_8_0_0 a7, kHatt 8 slices_S9x1x128_S1x1x128_8_0_0 a10, kHb 8 slices_S9x1_S1x1_8_0 a11⟩

/-- The program's result as a function of its fourteen argument arrays. -/
def kVal (x : A S10000x739) (ei : W S2x320000) (batch : W S10000) (w0 : A S739x64) (b0 : A S64) (w1 : A S64x64) (b1 : A S64)
    (a7 : A S9x1x64) (att0 : A S1x64) (bias0 : A S1) (a10 : A S9x1x128) (a11 : A S9x1) (wh : A S64x1) (bh : A S1) : A S64x1 :=
  let X0 := Cert.Spec.specX0 x w0 (kRow b0) w1 (kRow b1)
  let s := (kParams a7 a10 a11).foldl (kStep (kSrc ei) (kDst ei)) (X0, Cert.Spec.specZ0 X0 att0 (kOne bias0))
  kOut (kZLast (kLastP a7 a10 a11).w (kLastP a7 a10 a11).att (kLastP a7 a10 a11).hatt (kLastP a7 a10 a11).hb (kSrc ei) (kDst ei) s.1 s.2)
    batch wh bh

end Cert.KernelIdeal.KGlue

end
-- ==== Proof.KFoldInit.lean ====
/-
  The program's first stretch of host operations and its first call, read off the program's own operations: from
  the launch contents to the contents at the first round's entry.

  The stretch cuts the two rows out of the edge list (`main_v1`, `main_v3`: every edge's source and destination),
  and reshapes the two bias vectors into rows (`main_v4`, `main_v5`) and the one-element bias into a 1x1 array
  (`main_v6`). The call leaves the node features after the two affine maps in `main_v7_0` and the state after round
  zero in `main_v7_1`.

  As in the rounds' modules everything is about ANY buffer contents `U` at the launch and `U'` after the call; what
  the call leaves is taken as hypotheses (`hx`, `hz`: its two output arrays; `hn`: every buffer that is not one of
  its arrays is left alone). The stretch writes the buffers of index 14 to 20 and no other (`h0_keep`).
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.Init

open Idealize.ShloMosaic Idealize.ShloMosaic.TcCoe Cert.KernelIdeal Cert.KernelIdeal.Gen Cert.KernelIdeal.KGlue

/-! ## The first stretch -/

/-- Every edge's source node. -/
theorem h0_src (V : Valuation τ sig (Elt Ideal)) :
    StableHlo.after (hostOps0 (F := Ideal)) V (Proc.devRef .tc main_v1) = kSrc (V (Proc.devRef .tc main_arg1)) := by
  dsimp only [hostOps0]; after_results; rfl

/-- Every edge's destination node. -/
theorem h0_dst (V : Valuation τ sig (Elt Ideal)) :
    StableHlo.after (hostOps0 (F := Ideal)) V (Proc.devRef .tc main_v3) = kDst (V (Proc.devRef .tc main_arg1)) := by
  dsimp only [hostOps0]; after_results; rfl

/-- The first affine map's bias as a row. -/
theorem h0_b0 (V : Valuation τ sig (Elt Ideal)) :
    StableHlo.after (hostOps0 (F := Ideal)) V (Proc.devRef .tc main_v4) = kRow (V (Proc.devRef .tc main_arg4)) := by
  dsimp only [hostOps0]; after_results; rfl

/-- The second affine map's bias as a row. -/
theorem h0_b1 (V : Valuation τ sig (Elt Ideal)) :
    StableHlo.after (hostOps0 (F := Ideal)) V (Proc.devRef .tc main_v5) = kRow (V (Proc.devRef .tc main_arg6)) := by
  dsimp only [hostOps0]; after_results; rfl

/-- Round zero's gate bias as a 1x1 array. -/
theorem h0_one (V : Valuation τ sig (Elt Ideal)) :
    StableHlo.after (hostOps0 (F := Ideal)) V (Proc.devRef .tc main_v6) = kOne (V (Proc.devRef .tc main_arg9)) := by
  dsimp only [hostOps0]; after_results; rfl

/-- The stretch writes no buffer of index below 14: the fourteen arguments are left alone. -/
theorem h0_keep (V : Valuation τ sig (Elt Ideal)) (r : Ref sig .tc) (h : r.idx.val < 14) :
    StableHlo.after (hostOps0 (F := Ideal)) V (Proc.devRef .tc r) = V (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The contents at the first round's entry -/

/-- After the first call: the features and the state are the first stage's functions of the launch contents of the
    arguments, the edge end points are the two rows of the edge list, and the six arguments later stretches read
    (the graph of each node, the three stacked parameter arrays, the head's weights and bias) are as launched. -/
theorem init (U U' : Valuation τ sig (Elt Ideal))
    (hx : U' (Proc.devRef .tc main_v7_0)
      = Cert.Spec.specX0 (StableHlo.after (hostOps0 (F := Ideal)) U (Proc.devRef .tc main_arg0))
          (StableHlo.after (hostOps0 (F := Ideal)) U (Proc.devRef .tc main_arg3))
          (StableHlo.after (hostOps0 (F := Ideal)) U (Proc.devRef .tc main_v4))
          (StableHlo.after (hostOps0 (F := Ideal)) U (Proc.devRef .tc main_arg5))
          (StableHlo.after (hostOps0 (F := Ideal)) U (Proc.devRef .tc main_v5)))
    (hz : U' (Proc.devRef .tc main_v7_1)
      = Cert.Spec.specZ0
          (Cert.Spec.specX0 (StableHlo.after (hostOps0 (F := Ideal)) U (Proc.devRef .tc main_arg0))
            (StableHlo.after (hostOps0 (F := Ideal)) U (Proc.devRef .tc main_arg3))
            (StableHlo.after (hostOps0 (F := Ideal)) U (Proc.devRef .tc main_v4))
            (StableHlo.after (hostOps0 (F := Ideal)) U (Proc.devRef .tc main_arg5))
            (StableHlo.after (hostOps0 (F := Ideal)) U (Proc.devRef .tc main_v5)))
          (StableHlo.after (hostOps0 (F := Ideal)) U (Proc.devRef .tc main_arg8))
          (StableHlo.after (hostOps0 (F := Ideal)) U (Proc.devRef .tc main_v6)))
    (hn : ∀ b : Ref sig .tc, (∀ w, Pipeline.arrRef spec0 w ≠ b) →
      U' (Proc.devRef .tc b) = StableHlo.after (hostOps0 (F := Ideal)) U (Proc.devRef .tc b)) :
    U' (Proc.devRef .tc main_v7_0)
        = Cert.Spec.specX0 (U (Proc.devRef .tc main_arg0)) (U (Proc.devRef .tc main_arg3)) (kRow (U (Proc.devRef .tc main_arg4)))
            (U (Proc.devRef .tc main_arg5)) (kRow (U (Proc.devRef .tc main_arg6)))
      ∧ U' (Proc.devRef .tc main_v7_1)
        = Cert.Spec.specZ0
            (Cert.Spec.specX0 (U (Proc.devRef .tc main_arg0)) (U (Proc.devRef .tc main_arg3)) (kRow (U (Proc.devRef .tc main_arg4)))
              (U (Proc.devRef .tc main_arg5)) (kRow (U (Proc.devRef .tc main_arg6))))
            (U (Proc.devRef .tc main_arg8)) (kOne (U (Proc.devRef .tc main_arg9)))
      ∧ U' (Proc.devRef .tc main_v1) = kSrc (U (Proc.devRef .tc main_arg1))
      ∧ U' (Proc.devRef .tc main_v3) = kDst (U (Proc.devRef .tc main_arg1))
      ∧ U' (Proc.devRef .tc main_arg2) = U (Proc.devRef .tc main_arg2)
      ∧ U' (Proc.devRef .tc main_arg7) = U (Proc.devRef .tc main_arg7)
      ∧ U' (Proc.devRef .tc main_arg10) = U (Proc.devRef .tc main_arg10)
      ∧ U' (Proc.devRef .tc main_arg11) = U (Proc.devRef .tc main_arg11)
      ∧ U' (Proc.devRef .tc main_arg12) = U (Proc.devRef .tc main_arg12)
      ∧ U' (Proc.devRef .tc main_arg13) = U (Proc.devRef .tc main_arg13) := by
  have eX : Cert.Spec.specX0 (StableHlo.after (hostOps0 (F := Ideal)) U (Proc.devRef .tc main_arg0))
        (StableHlo.after (hostOps0 (F := Ideal)) U (Proc.devRef .tc main_arg3))
        (StableHlo.after (hostOps0 (F := Ideal)) U (Proc.devRef .tc main_v4))
        (StableHlo.after (hostOps0 (F := Ideal)) U (Proc.devRef .tc main_arg5))
        (StableHlo.after (hostOps0 (F := Ideal)) U (Proc.devRef .tc main_v5))
      = Cert.Spec.specX0 (U (Proc.devRef .tc main_arg0)) (U (Proc.devRef .tc main_arg3)) (kRow (U (Proc.devRef .tc main_arg4)))
          (U (Proc.devRef .tc main_arg5)) (kRow (U (Proc.devRef .tc main_arg6))) := by
    rw [h0_keep U main_arg0 (by decide), h0_keep U main_arg3 (by decide), h0_b0, h0_keep U main_arg5 (by decide), h0_b1]
  refine ⟨hx.trans eX, ?_, (hn main_v1 (by decide)).trans (h0_src U), (hn main_v3 (by decide)).trans (h0_dst U),
    (hn main_arg2 (by decide)).trans (h0_keep U main_arg2 (by decide)),
    (hn main_arg7 (by decide)).trans (h0_keep U main_arg7 (by decide)),
    (hn main_arg10 (by decide)).trans (h0_keep U main_arg10 (by decide)),
    (hn main_arg11 (by decide)).trans (h0_keep U main_arg11 (by decide)),
    (hn main_arg12 (by decide)).trans (h0_keep U main_arg12 (by decide)),
    (hn main_arg13 (by decide)).trans (h0_keep U main_arg13 (by decide))⟩
  rw [hz, eX, h0_keep U main_arg8 (by decide), h0_one]

end Cert.KernelIdeal.KFold.Init

end
-- ==== Proof.KFoldOut.lean ====
/-
  The program's last stretch of host operations, read off the program's own operations: the readout. From the
  state after the ninth round (`main_v574`), the graph of each node (`main_arg2`) and the head's weights and bias
  (`main_arg12`, `main_arg13`) it makes the result `main_v590`: the mean of the state over each graph's nodes,
  through the linear head. Stated about ANY buffer contents `V` the stretch starts from.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.Out

open Idealize.ShloMosaic Idealize.ShloMosaic.TcCoe Cert.KernelIdeal Cert.KernelIdeal.Gen Cert.KernelIdeal.KGlue

/-- The result buffer after the last stretch is the readout of the final state. -/
theorem h19_out (V : Valuation τ sig (Elt Ideal)) :
    StableHlo.after (hostOps19 (F := Ideal)) V (Proc.devRef .tc main_v590)
      = kOut (V (Proc.devRef .tc main_v574)) (V (Proc.devRef .tc main_arg2)) (V (Proc.devRef .tc main_arg12))
          (V (Proc.devRef .tc main_arg13)) := by
  dsimp only [hostOps19]; after_results_simp; rfl

end Cert.KernelIdeal.KFold.Out

end
-- ==== Proof.KReg1.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R1
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg1

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k1_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k1_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg1.N) (p : Fin 8000) (k : Fin 64) (i : S320000x64.Idx)
    (hi0 : (i 0).val = t.val * 8000 + p.val) (hi1 : (i 1).val = k.val) :
    (iblk1 V c 0 t : Vec Ideal S8000x64 .f32) (ix2 p k) = (V c main_v24 : S320000x64.Idx → Elt Ideal .f32) i := by
  obtain ⟨e0, e1, -⟩ := block_indices t
  unfold iblk1
  rw [View.read_apply]
  show V c main_v24 _ = V c main_v24 _
  congr 1
  funext a
  apply Fin.ext
  match a with
  | ⟨0, _⟩ => show win1_0.index t (0 : Fin 2) * 8000 + 1 * p.val = (i 0).val; rw [e0, hi0]; omega
  | ⟨1, _⟩ => show win1_0.index t (1 : Fin 2) * 64 + 1 * k.val = (i 1).val; rw [e1, hi1]; omega

/-- Every point's block of the attention vector is the whole vector. -/
theorem attblock_apply (c : Dev nD) (t : Fin cfg1.N) (k : Fin 64) :
    (iblk1 V c 1 t : Vec Ideal S1x64 .f32) (ix2 0 k) = (V c main_v26 : S1x64.Idx → Elt Ideal .f32) (ix2 0 k) := by
  obtain ⟨-, -, e0, e1, -⟩ := block_indices t
  unfold iblk1
  rw [View.read_apply]
  show V c main_v26 _ = V c main_v26 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * k.val = k.val; rw [e1]; omega

/-- WHAT POINT `t` WRITES BACK is block `t` of the edge scores of the arrays as the region finds them. -/
theorem flushed_eq (c : Dev nD) (t : Fin cfg1.N) :
    (dat1 (F := Ideal) V c).flushed 2 t
      = ((cfg1.win 2).blk t).view.read (Elt Ideal) (specA (V c main_v24) (V c main_v26)) := by
  show (cfg1.win 2).cut (grid1.coords t) ((dat1 V c).after 2 t) = _
  rw [after1_2]
  unfold out1_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg1.win 2).xinj (grid1.coords t) j = ix2 (⟨(j 0).val, h0⟩ : Fin 8000) (⟨(j 1).val, h1⟩ : Fin 1) :=
    funext fun a => Fin.ext (match a with | ⟨0, _⟩ => rfl | ⟨1, _⟩ => rfl)
  show k1_pay1 (F := Ideal) (iblk1 V c 0 t) (iblk1 V c 1 t) ((cfg1.win 2).xinj (grid1.coords t) j)
    = specA (V c main_v24) (V c main_v26) (((cfg1.win 2).blk t).view.emb j)
  rw [hx]
  refine (pay_apply (iblk1 V c 0 t) (iblk1 V c 1 t) ⟨(j 0).val, h0⟩ ⟨(j 1).val, h1⟩).trans ?_
  refine Eq.trans ?_ (specA_apply (V c main_v24) (V c main_v26) (((cfg1.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win1_2.index t (0 : Fin 2) * 8000 + 1 * (j 0).val = t.val * 8000 + (j 0).val
  rw [e0]; omega

/-- An edge is in point `t`'s block iff its row is among the block's 8000. -/
theorem mem_block (t : Fin cfg1.N) (i : S320000x1.Idx) :
    i ∈ ((cfg1.win 2).blk t).view.set
      ↔ ∀ a : Fin 2, win1_2.index t a * S8000x1.size a ≤ (i a).val ∧ (i a).val < win1_2.index t a * S8000x1.size a + S8000x1.size a := by
  show i ∈ ((View.whole main_v27).slice (win1_2.rect t)).set ↔ _
  rw [View.set_slice_whole, Rect.mem_set_unit]
  exact Iff.rfl

/-- Every edge is in the block of the point its row falls to: row `r` in block `r / 8000`. -/
theorem covered (i : S320000x1.Idx) :
    ∃ t : Fin cfg1.N, (cfg1.win 2).flush t = true ∧ i ∈ ((cfg1.win 2).blk t).view.set := by
  have hi0 : (i 0).val < 320000 := (i 0).isLt
  have hi1 : (i 1).val < 1 := (i 1).isLt
  have hN : cfg1.N = 40 := N_1
  let t : Fin cfg1.N := ⟨(i 0).val / 8000, by rw [hN]; omega⟩
  obtain ⟨-, -, -, -, e0, e1⟩ := block_indices t
  have ht : t.val = (i 0).val / 8000 := rfl
  refine ⟨t, flush1_2 t, ?_⟩
  rw [mem_block]
  intro a
  match a with
  | ⟨0, _⟩ =>
    show win1_2.index t (0 : Fin 2) * 8000 ≤ (i 0).val ∧ (i 0).val < win1_2.index t (0 : Fin 2) * 8000 + 8000
    rw [e0, ht]; omega
  | ⟨1, _⟩ =>
    show win1_2.index t (1 : Fin 2) * 1 ≤ (i 1).val ∧ (i 1).val < win1_2.index t (1 : Fin 2) * 1 + 1
    rw [e1]; omega

/-- THE ARRAY of edge scores after the region: the specification's function of the two arrays the region read. -/
theorem arr1_2 (c : Dev nD) :
    (Gen.dat1 (F := Ideal) V c).arrAt 2 cfg1.N = Cert.Spec.specA (V c main_v24) (V c main_v26) :=
  (dat1 (F := Ideal) V c).arrAt_eq_of_cover 2 (specA (V c main_v24) (V c main_v26)) (fun t _ => flushed_eq V c t) covered

end Cert.KernelIdeal.KReg1

end
-- ==== Proof.KUpdPay.lean ====
/-
  The state-update body's stored value, read index by index, and over a block of rows.

  The body takes a block of 1000 rows of the new features `x`, of the state `z` and of the scaled state `zs`, a row
  `att` of 128 weights and one `bias`, and stores `z + x · gate`, a row's gate being
  `Σ_k att[0, k] · elu ([x, zs][p, k]) + bias[0, 0]` over the 128 columns of `[x, zs]` (the last round stores the ELU of
  that). Here: the ELU, the concatenation, the lane sum and the column broadcasts each read at an index; the stored
  value at `(p, q)` (`pay_at`, `pay_at_last`); and, the blocks being rows `1000 t … 1000 t + 999` of arrays of 10000
  rows, the stored block as the same rows of the specification's update of the whole arrays (`pay_rows`,
  `pay_rows_last`). The eight ordinary rounds store one and the same term, so the block statement is made for any
  function equal to the first round's (`pay_rows_of`).
-/
import proofs.«404001_j15436112461850_3_alg».proof.Proof.Gen.KernelIdeal.Skeleton
import proofs.«404001_j15436112461850_3_alg».proof.Proof.Spec
import Idealize.ShloMosaic.Lib.Pipeline.Value
import Idealize.ShloMosaic.Lib.ValueIdx
import Idealize.ShloMosaic.PureOps.Ideal.Laws

noncomputable section

namespace Cert.KernelIdeal.KUpd
open Cert.KernelIdeal Cert.KernelIdeal.Gen
open Idealize.ShloMosaic Idealize.ShloMosaic.ValueIdx
open scoped BigOperators
open Cert.Spec (E V2 eluS)

/-- The body's ELU (the select of `g` and `exp (min g 0) − 1` on `g > 0`) read at an index is the scalar ELU of the element. -/
theorem elu_at {s : Shape} (g : FVec Ideal s .f32) (i : s.Idx) :
    select (cmpf .ogt g (broadcast s (Scalar.ofBits .f32 0x00000000#32))) g
      (subf (exp (minimumf g (broadcast s (Scalar.ofBits .f32 0x00000000#32)))) (broadcast s (Scalar.ofBits .f32 0x3F800000#32))) i
      = eluS (g i) := rfl

/-- Two row blocks side by side, read at `(p, k)`: the first for `k < 64`, the second at `k − 64` otherwise. -/
def catB (x zs : V2 1000 64) (p : Fin 1000) (k : Fin 128) : E :=
  if h : k.val < 64 then x (ix2 p ⟨k.val, h⟩) else zs (ix2 p ⟨k.val - 64, by omega⟩)

/-- The concatenation along the columns, read at `(p, k)`. -/
theorem cat_at (x zs : FVec Ideal S1000x64 .f32) (h : Shape.Concatenates [S1000x64, S1000x64] S1000x128 1) (p : Fin 1000) (k : Fin 128) :
    concatenate S1000x128 1 [⟨S1000x64, x⟩, ⟨S1000x64, zs⟩] h (ix2 p k) = catB x zs p k := by
  unfold catB
  split
  · next hk =>
    exact concatenate_pair_apply_left 1 x zs h (ix2 p k) rfl (ix2 p ⟨k.val, hk⟩)
      (fun b => by match b with | ⟨0, _⟩ => rfl | ⟨1, _⟩ => rfl)
  · next hk =>
    exact concatenate_pair_apply_right 1 x zs h (ix2 p k) rfl rfl (ix2 p ⟨k.val - 64, by omega⟩)
      (fun b hb => by match b with | ⟨0, _⟩ => rfl | ⟨1, _⟩ => exact absurd rfl hb)
      (by show (k.val - 64) + 64 = k.val; omega)

/-- A one-axis reduction's inserted index over the row `p`, at lane `k`, is `(p, k)`. -/
theorem lift_row (h : S1000x128.Reduces [1] S1000) (p : Fin 1000) (k : Fin (S1000x128.size 1)) :
    h.lift (ix1 p) k = (ix2 p (⟨k.val, k.isLt⟩ : Fin 128) : S1000x128.Idx) := by
  funext c; apply Fin.ext
  match c with
  | ⟨0, _⟩ => rfl
  | ⟨1, _⟩ => rfl

/-- The sum over the 128 lanes of a row, read at the row. -/
theorem lanesum_at (src : FVec Ideal S1000x128 .f32) (h : S1000x128.Reduces [1] S1000) (hφ : FKind.Formats .f32)
    (hacc : (0x00000000#32 : BitVec 32) = 0x00000000#32) (p : Fin 1000) :
    multiReduction .add [1] S1000 src 0x00000000#32 h hφ hacc (ix1 p) = ∑ k : Fin 128, src (ix2 p k) :=
  (Ideal.multiReduction_add_single src 0x00000000#32 h hφ hacc (ix1 p)).trans
    (Finset.sum_congr rfl fun k _ => by rw [lift_row]; exact rfl)

/-- The gate of a row of the block: `Σ_k att[0, k] · elu ([x, zs][p, k]) + bias[0, 0]`. -/
def gateB (x zs : V2 1000 64) (att : V2 1 128) (bias : V2 1 1) (p : Fin 1000) : E :=
  (∑ k : Fin 128, att (ix2 0 k) * eluS (catB x zs p k)) + bias (ix2 0 0)

/-- THE STORED VALUE AT AN INDEX: `z + x · gate` of the row. -/
theorem pay_at (x zs : Vec Ideal S1000x64 .f32) (att : Vec Ideal S1x128 .f32) (bias : Vec Ideal S1x1 .f32) (z : Vec Ideal S1000x64 .f32)
    (p : Fin 1000) (q : Fin 64) :
    Gen.k2_pay1 (F := Ideal) x zs att bias z (ix2 p q) = z (ix2 p q) + x (ix2 p q) * gateB x zs att bias p := by
  unfold Gen.k2_pay1
  simp only [shapeCast_self]
  rw [addf_apply, mulf_apply]
  rw [broadcastTo_apply _ broadcasts_S1000x1_S1000x64 (ix2 p q) (ix2 p 0)
    (fun a => by match a with | ⟨0, _⟩ => rfl | ⟨1, _⟩ => rfl)]
  rw [addf_apply]
  rw [shapeCast_apply _ shapeCasts_S1000_S1000x1 (ix2 p 0) (ix1 p)
    (by rw [Shape.rowMajor_val_one, Shape.rowMajor_val_two]; show p.val = p.val * 1 + 0; omega)]
  rw [broadcastTo_apply _ broadcasts_S1x1_S1000x1 (ix2 p 0) (ix2 0 0)
    (fun a => by match a with | ⟨0, _⟩ => rfl | ⟨1, _⟩ => rfl)]
  unfold gateB
  refine congrArg (fun g => z (ix2 p q) + x (ix2 p q) * (g + bias (ix2 0 0))) ?_
  refine (lanesum_at _ _ _ _ p).trans (Finset.sum_congr rfl fun k _ => ?_)
  rw [mulf_apply, elu_at, cat_at]
  rw [broadcastTo_apply _ broadcasts_S1x128_S1000x128 (ix2 p k) (ix2 0 k)
    (fun a => by match a with | ⟨0, _⟩ => rfl | ⟨1, _⟩ => rfl)]
  simp only [shapeCast_self]

/-- THE LAST ROUND'S STORED VALUE AT AN INDEX: the ELU of `z + x · gate` of the row. -/
theorem pay_at_last (x zs : Vec Ideal S1000x64 .f32) (att : Vec Ideal S1x128 .f32) (bias : Vec Ideal S1x1 .f32) (z : Vec Ideal S1000x64 .f32)
    (p : Fin 1000) (q : Fin 64) :
    Gen.k18_pay1 (F := Ideal) x zs att bias z (ix2 p q) = eluS (z (ix2 p q) + x (ix2 p q) * gateB x zs att bias p) := by
  unfold Gen.k18_pay1
  simp only [shapeCast_self]
  rw [elu_at]
  refine congrArg eluS ?_
  rw [addf_apply, mulf_apply]
  rw [broadcastTo_apply _ broadcasts_S1000x1_S1000x64 (ix2 p q) (ix2 p 0)
    (fun a => by match a with | ⟨0, _⟩ => rfl | ⟨1, _⟩ => rfl)]
  rw [addf_apply]
  rw [shapeCast_apply _ shapeCasts_S1000_S1000x1 (ix2 p 0) (ix1 p)
    (by rw [Shape.rowMajor_val_one, Shape.rowMajor_val_two]; show p.val = p.val * 1 + 0; omega)]
  rw [broadcastTo_apply _ broadcasts_S1x1_S1000x1 (ix2 p 0) (ix2 0 0)
    (fun a => by match a with | ⟨0, _⟩ => rfl | ⟨1, _⟩ => rfl)]
  unfold gateB
  refine congrArg (fun g => z (ix2 p q) + x (ix2 p q) * (g + bias (ix2 0 0))) ?_
  refine (lanesum_at _ _ _ _ p).trans (Finset.sum_congr rfl fun k _ => ?_)
  rw [mulf_apply, elu_at, cat_at]
  rw [broadcastTo_apply _ broadcasts_S1x128_S1000x128 (ix2 p k) (ix2 0 k)
    (fun a => by match a with | ⟨0, _⟩ => rfl | ⟨1, _⟩ => rfl)]
  simp only [shapeCast_self]

/-! ## A block of rows of arrays of 10000 rows -/

/-- Row `1000 t + p`. -/
def rowOf (t : Fin 10) (p : Fin 1000) : Fin 10000 := ⟨t.val * 1000 + p.val, by have := t.isLt; have := p.isLt; omega⟩

/-- Rows `1000 t … 1000 t + 999` of an array of 10000 rows. -/
def rows (A : V2 10000 64) (t : Fin 10) : V2 1000 64 :=
  fun j => A (ix2 ⟨t.val * 1000 + (j 0).val, by have := idx2_lt0 j; have := t.isLt; omega⟩ ⟨(j 1).val, idx2_lt1 j⟩)

/-- They read the array at row `1000 t + p`. -/
theorem rows_at (A : V2 10000 64) (t : Fin 10) (p : Fin 1000) (q : Fin 64) : rows A t (ix2 p q) = A (ix2 (rowOf t p) q) := rfl

/-- The two blocks of rows side by side are the rows of the two arrays side by side. -/
theorem cat_rows (X ZS : V2 10000 64) (t : Fin 10) (p : Fin 1000) (k : Fin 128) :
    catB (rows X t) (rows ZS t) p k = Cert.Spec.catAt X ZS (rowOf t p) k := by
  unfold catB Cert.Spec.catAt
  by_cases h : k.val < 64
  · rw [dif_pos h, dif_pos h]; exact rows_at X t p ⟨k.val, h⟩
  · rw [dif_neg h, dif_neg h]; exact rows_at ZS t p ⟨k.val - 64, by omega⟩

/-- A block row's gate is the array row's. -/
theorem gate_rows (X ZS : V2 10000 64) (att : V2 1 128) (bias : V2 1 1) (t : Fin 10) (p : Fin 1000) :
    gateB (rows X t) (rows ZS t) att bias p = Cert.Spec.gate2At X ZS att bias (rowOf t p) := by
  unfold gateB Cert.Spec.gate2At
  refine congrArg (fun s => s + bias (ix2 0 0)) (Finset.sum_congr rfl fun k _ => ?_)
  rw [cat_rows]

/-- The update of the whole arrays, read in the block of rows. -/
theorem upd_rows_at (X Z ZS : V2 10000 64) (att : V2 1 128) (bias : V2 1 1) (t : Fin 10) (p : Fin 1000) (q : Fin 64) :
    rows (Cert.Spec.specUpd X Z ZS att bias) t (ix2 p q)
      = Z (ix2 (rowOf t p) q) + X (ix2 (rowOf t p) q) * Cert.Spec.gate2At X ZS att bias (rowOf t p) := by
  rw [rows_at]; unfold Cert.Spec.specUpd; rw [Cert.Spec.of2_ix2]

/-- The last round's likewise. -/
theorem updLast_rows_at (X Z ZS : V2 10000 64) (att : V2 1 128) (bias : V2 1 1) (t : Fin 10) (p : Fin 1000) (q : Fin 64) :
    rows (Cert.Spec.specUpdLast X Z ZS att bias) t (ix2 p q)
      = eluS (Z (ix2 (rowOf t p) q) + X (ix2 (rowOf t p) q) * Cert.Spec.gate2At X ZS att bias (rowOf t p)) := by
  rw [rows_at]; unfold Cert.Spec.specUpdLast; rw [Cert.Spec.of2_ix2]

/-- THE BLOCK OF ROWS: the stored block over rows `1000 t …` of the arrays is rows `1000 t …` of the update. -/
theorem pay_rows (X Z ZS : V2 10000 64) (att : V2 1 128) (bias : V2 1 1) (t : Fin 10) :
    Gen.k2_pay1 (F := Ideal) (rows X t) (rows ZS t) att bias (rows Z t) = rows (Cert.Spec.specUpd X Z ZS att bias) t := by
  funext j
  obtain ⟨p, q, rfl⟩ : ∃ (p : Fin 1000) (q : Fin 64), j = ix2 p q := ⟨j 0, j 1, eq_ix2 j⟩
  rw [pay_at, upd_rows_at, gate_rows, rows_at, rows_at]

/-- The same for any function that is the first round's stored value: every ordinary round's is, being the same term. -/
theorem pay_rows_of (pay : Vec Ideal S1000x64 .f32 → Vec Ideal S1000x64 .f32 → Vec Ideal S1x128 .f32 → Vec Ideal S1x1 .f32 → Vec Ideal S1000x64 .f32 → FVec Ideal S1000x64 .f32)
    (h : pay = Gen.k2_pay1 (F := Ideal)) (X Z ZS : V2 10000 64) (att : V2 1 128) (bias : V2 1 1) (t : Fin 10) :
    pay (rows X t) (rows ZS t) att bias (rows Z t) = rows (Cert.Spec.specUpd X Z ZS att bias) t := by
  subst h; exact pay_rows X Z ZS att bias t

/-- THE LAST ROUND'S BLOCK OF ROWS. -/
theorem pay_rows_last (X Z ZS : V2 10000 64) (att : V2 1 128) (bias : V2 1 1) (t : Fin 10) :
    Gen.k18_pay1 (F := Ideal) (rows X t) (rows ZS t) att bias (rows Z t) = rows (Cert.Spec.specUpdLast X Z ZS att bias) t := by
  funext j
  obtain ⟨p, q, rfl⟩ : ∃ (p : Fin 1000) (q : Fin 64), j = ix2 p q := ⟨j 0, j 1, eq_ix2 j⟩
  rw [pay_at_last, updLast_rows_at, gate_rows, rows_at, rows_at]

end Cert.KernelIdeal.KUpd

end
-- ==== Proof.KReg2.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R2
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg2
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg2.N) : Fin 10 := ⟨t.val, lt_of_lt_of_eq t.isLt N_2⟩

/-- The index maps, decided over the ten grid points: the row-block windows sit at block `(t, 0)`, the two small
    windows at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `1000 t …` of its array. -/
theorem blk0_rows (c : Dev nD) (t : Fin cfg2.N) : Gen.iblk2 V c 0 t = rows (V c main_v64) (pt t) := by
  obtain ⟨e0, e1, -⟩ := idx_facts t
  funext j
  unfold Gen.iblk2
  rw [View.read_apply]
  show V c main_v64 (((cfg2.win 0).blk t).view.emb j) = V c main_v64 _
  congr 1
  funext a; apply Fin.ext
  match a with
  | ⟨0, _⟩ => show win2_0.index t (0 : Fin 2) * 1000 + 1 * (j 0).val = t.val * 1000 + (j 0).val; rw [e0]; omega
  | ⟨1, _⟩ => show win2_0.index t (1 : Fin 2) * 64 + 1 * (j 1).val = (j 1).val; rw [e1]; omega

/-- Window 1's block at point `t` is rows `1000 t …` of its array. -/
theorem blk1_rows (c : Dev nD) (t : Fin cfg2.N) : Gen.iblk2 V c 1 t = rows (V c main_v7_1) (pt t) := by
  obtain ⟨-, -, e0, e1, -⟩ := idx_facts t
  funext j
  unfold Gen.iblk2
  rw [View.read_apply]
  show V c main_v7_1 (((cfg2.win 1).blk t).view.emb j) = V c main_v7_1 _
  congr 1
  funext a; apply Fin.ext
  match a with
  | ⟨0, _⟩ => show win2_1.index t (0 : Fin 2) * 1000 + 1 * (j 0).val = t.val * 1000 + (j 0).val; rw [e0]; omega
  | ⟨1, _⟩ => show win2_1.index t (1 : Fin 2) * 64 + 1 * (j 1).val = (j 1).val; rw [e1]; omega

/-- Window 2's block at point `t` is rows `1000 t …` of its array. -/
theorem blk2_rows (c : Dev nD) (t : Fin cfg2.N) : Gen.iblk2 V c 2 t = rows (V c main_v9) (pt t) := by
  obtain ⟨-, -, -, -, e0, e1, -⟩ := idx_facts t
  funext j
  unfold Gen.iblk2
  rw [View.read_apply]
  show V c main_v9 (((cfg2.win 2).blk t).view.emb j) = V c main_v9 _
  congr 1
  funext a; apply Fin.ext
  match a with
  | ⟨0, _⟩ => show win2_2.index t (0 : Fin 2) * 1000 + 1 * (j 0).val = t.val * 1000 + (j 0).val; rw [e0]; omega
  | ⟨1, _⟩ => show win2_2.index t (1 : Fin 2) * 64 + 1 * (j 1).val = (j 1).val; rw [e1]; omega

/-- Window 3's block at every point is its whole one-row array. -/
theorem blk3_whole (c : Dev nD) (t : Fin cfg2.N) : Gen.iblk2 V c 3 t = V c main_v66 := by
  obtain ⟨-, -, -, -, -, -, e0, e1, -⟩ := idx_facts t
  funext j
  unfold Gen.iblk2
  rw [View.read_apply]
  show V c main_v66 (((cfg2.win 3).blk t).view.emb j) = V c main_v66 j
  congr 1
  funext a; apply Fin.ext
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- Window 4's block at every point is its whole one-element array. -/
theorem blk4_whole (c : Dev nD) (t : Fin cfg2.N) : Gen.iblk2 V c 4 t = V c main_v69 := by
  obtain ⟨-, -, -, -, -, -, -, -, e0, e1, -⟩ := idx_facts t
  funext j
  unfold Gen.iblk2
  rw [View.read_apply]
  show V c main_v69 (((cfg2.win 4).blk t).view.emb j) = V c main_v69 j
  congr 1
  funext a; apply Fin.ext
  match a with
  | ⟨0, _⟩ => show win2_4.index t (0 : Fin 2) * 1 + 1 * (j 0).val = (j 0).val; rw [e0]; omega
  | ⟨1, _⟩ => show win2_4.index t (1 : Fin 2) * 1 + 1 * (j 1).val = (j 1).val; rw [e1]; omega

/-- The output window's block at point `t`, read off any array `G`, is rows `1000 t …` of `G`. -/
theorem out_rows (t : Fin cfg2.N) (G : V2 10000 64) : ((cfg2.win 5).blk t).view.read (Elt Ideal) G = rows G (pt t) := by
  obtain ⟨-, -, -, -, -, -, -, -, -, -, e0, e1⟩ := idx_facts t
  funext j
  rw [View.read_apply]
  show G (((cfg2.win 5).blk t).view.emb j) = G _
  congr 1
  funext a; apply Fin.ext
  match a with
  | ⟨0, _⟩ => show win2_5.index t (0 : Fin 2) * 1000 + 1 * (j 0).val = t.val * 1000 + (j 0).val; rw [e0]; omega
  | ⟨1, _⟩ => show win2_5.index t (1 : Fin 2) * 64 + 1 * (j 1).val = (j 1).val; rw [e1]; omega

/-- The output window is uncut: what a write-back moves of a staging buffer's contents is all of them. -/
theorem cut_id (t : Fin cfg2.N) (P : FVec Ideal S1000x64 .f32) : (cfg2.win 5).cut (grid2.coords t) P = P := rfl

/-- WHAT POINT `t` WRITES BACK is block `t` of the update of the arrays as the region finds them. -/
theorem flushed_eq (c : Dev nD) (t : Fin cfg2.N) :
    (Gen.dat2 (F := Ideal) V c).flushed 5 t = ((cfg2.win 5).blk t).view.read (Elt Ideal)
      (Cert.Spec.specUpd (V c main_v64) (V c main_v7_1) (V c main_v9) (V c main_v66) (V c main_v69)) := by
  show (cfg2.win 5).cut (grid2.coords t) ((Gen.dat2 V c).after 5 t) = _
  rw [Gen.after2_5]
  unfold Gen.out2_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k2_pay1 (F := Ideal)) rfl _ _ _ _ _ _)

/-- An index of the array is in point `t`'s block iff each coordinate is in the block's range on its axis. -/
theorem mem_blk (t : Fin cfg2.N) (i : S10000x64.Idx) :
    i ∈ ((cfg2.win 5).blk t).view.set ↔ ∀ a : Fin 2, win2_5.index t a * S1000x64.size a ≤ (i a).val ∧ (i a).val < win2_5.index t a * S1000x64.size a + S1000x64.size a := by
  show i ∈ ((View.whole main_v70).slice (win2_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg2.N, (cfg2.win 5).flush t = true ∧ i ∈ ((cfg2.win 5).blk t).view.set := by
  have hi0 : (i 0).val < 10000 := (i 0).isLt
  have hi1 : (i 1).val < 64 := (i 1).isLt
  have ht : (i 0).val / 1000 < cfg2.N := by rw [show cfg2.N = 10 from N_2]; omega
  obtain ⟨-, -, -, -, -, -, -, -, -, -, e0, e1⟩ := idx_facts ⟨(i 0).val / 1000, ht⟩
  refine ⟨⟨(i 0).val / 1000, ht⟩, Gen.flush2_5 _, ?_⟩
  rw [mem_blk]
  intro a
  match a with
  | ⟨0, _⟩ =>
    show win2_5.index ⟨(i 0).val / 1000, ht⟩ (0 : Fin 2) * 1000 ≤ (i 0).val ∧ (i 0).val < win2_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win2_5.index ⟨(i 0).val / 1000, ht⟩ (1 : Fin 2) * 64 ≤ (i 1).val ∧ (i 1).val < win2_5.index ⟨(i 0).val / 1000, ht⟩ (1 : Fin 2) * 64 + 64
    rw [e1]; omega

/-- THE ARRAY AFTER THE REGION: the update of the region's input arrays, whole. -/
theorem arr2_5 (c : Dev nD) : (Gen.dat2 (F := Ideal) V c).arrAt 5 cfg2.N
    = Cert.Spec.specUpd (V c main_v64) (V c main_v7_1) (V c main_v9) (V c main_v66) (V c main_v69) :=
  (Gen.dat2 (F := Ideal) V c).arrAt_eq_of_cover 5 _ (fun t _ => flushed_eq V c t) cover

end Cert.KernelIdeal.KReg2

end
-- ==== Proof.KFoldL0.lean ====
/-
  Round 1 of the nine rounds, read off the program's own operations: from the buffer contents at the round's entry
  (features in `main_v7_0`, state in `main_v7_1`, the edge end points in `main_v1` and `main_v3`) to those at its
  exit (new features in `main_v64`, new state in `main_v70`).

  The round is two stretches of host operations around two calls. The first stretch scales the state (`main_v9`),
  sums the scaled states of each edge's end points (`main_v24`) and cuts the round's score vector out of the stacked
  one (`main_v26`); the first call scores the edges (`main_v27`); the second stretch normalises the scores by the
  in-degrees, scatter-sums the weighted source features (`main_v64`) and cuts out the gate vector and bias
  (`main_v66`, `main_v69`); the second call updates the state (`main_v70`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L0

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps1 (F := Ideal)) V (Proc.devRef .tc main_v9)
      = kZs 0x3F317220#32 (V (Proc.devRef .tc main_v7_1)) := by
  dsimp only [hostOps1]; after_results_simp; rfl

/-- Each edge's sum of its end points' scaled states. -/
theorem hA_zsum (V : Valuation τ sig (Elt Ideal)) :
    StableHlo.after (hostOps1 (F := Ideal)) V (Proc.devRef .tc main_v24)
      = kZsum (kZs 0x3F317220#32 (V (Proc.devRef .tc main_v7_1))) (V (Proc.devRef .tc main_v1)) (V (Proc.devRef .tc main_v3)) := by
  dsimp only [hostOps1]; after_results_simp; rfl

/-- The round's score vector. -/
theorem hA_att (V : Valuation τ sig (Elt Ideal)) :
    StableHlo.after (hostOps1 (F := Ideal)) V (Proc.devRef .tc main_v26)
      = kAtt 0 Facts₀.slices_S9x1x64_S1x1x64_0_0_0 (V (Proc.devRef .tc main_arg7)) := by
  dsimp only [hostOps1]; after_results_simp; rfl

/-- The stretch writes no buffer of index below 23. -/
theorem hA_keep (V : Valuation τ sig (Elt Ideal)) (r : Ref sig .tc) (h : r.idx.val < 23) :
    StableHlo.after (hostOps1 (F := Ideal)) V (Proc.devRef .tc r) = V (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps2 (F := Ideal)) V (Proc.devRef .tc main_v64)
      = kX (V (Proc.devRef .tc main_v7_0))
          (kNa (kInv (kAdj (V (Proc.devRef .tc main_v27)) (V (Proc.devRef .tc main_v3)))) (V (Proc.devRef .tc main_v27))
            (V (Proc.devRef .tc main_v1)) (V (Proc.devRef .tc main_v3)))
          (V (Proc.devRef .tc main_v1)) (V (Proc.devRef .tc main_v3)) := by
  dsimp only [hostOps2]; after_results_simp; rfl

set_option maxHeartbeats 1000000 in
/-- The round's gate vector. -/
theorem hB_hatt (V : Valuation τ sig (Elt Ideal)) :
    StableHlo.after (hostOps2 (F := Ideal)) V (Proc.devRef .tc main_v66)
      = kHatt 0 Facts₀.slices_S9x1x128_S1x1x128_0_0_0 (V (Proc.devRef .tc main_arg10)) := by
  dsimp only [hostOps2]; after_results_simp; rfl

set_option maxHeartbeats 1000000 in
/-- The round's gate bias. -/
theorem hB_hb (V : Valuation τ sig (Elt Ideal)) :
    StableHlo.after (hostOps2 (F := Ideal)) V (Proc.devRef .tc main_v69)
      = kHb 0 Facts₀.slices_S9x1_S1x1_0_0 (V (Proc.devRef .tc main_arg11)) := by
  dsimp only [hostOps2]; after_results_simp; rfl

set_option maxHeartbeats 1000000 in
/-- The stretch writes no buffer of index below 48. -/
theorem hB_keep (V : Valuation τ sig (Elt Ideal)) (r : Ref sig .tc) (h : r.idx.val < 48) :
    StableHlo.after (hostOps2 (F := Ideal)) V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec1 w ≠ r := by
  have key : ∀ w, ¬ (Pipeline.arrRef spec1 w).idx.val < 21 := by decide
  exact fun w e => key w (by rw [e]; exact h)

/-- No array of the second call has an index below 21. -/
theorem lowB (r : Ref sig .tc) (h : r.idx.val < 21) : ∀ w, Pipeline.arrRef spec2 w ≠ r := by
  have key : ∀ w, ¬ (Pipeline.arrRef spec2 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v27)
      = Cert.Spec.specA (StableHlo.after (hostOps1 (F := Ideal)) U (Proc.devRef .tc main_v24))
          (StableHlo.after (hostOps1 (F := Ideal)) U (Proc.devRef .tc main_v26)))
    (hna : ∀ b : Ref sig .tc, (∀ w, Pipeline.arrRef spec1 w ≠ b) →
      U' (Proc.devRef .tc b) = StableHlo.after (hostOps1 (F := Ideal)) U (Proc.devRef .tc b))
    (hz : U'' (Proc.devRef .tc main_v70)
      = Cert.Spec.specUpd (StableHlo.after (hostOps2 (F := Ideal)) U' (Proc.devRef .tc main_v64))
          (StableHlo.after (hostOps2 (F := Ideal)) U' (Proc.devRef .tc main_v7_1))
          (StableHlo.after (hostOps2 (F := Ideal)) U' (Proc.devRef .tc main_v9))
          (StableHlo.after (hostOps2 (F := Ideal)) U' (Proc.devRef .tc main_v66))
          (StableHlo.after (hostOps2 (F := Ideal)) U' (Proc.devRef .tc main_v69)))
    (hx : U'' (Proc.devRef .tc main_v64) = StableHlo.after (hostOps2 (F := Ideal)) U' (Proc.devRef .tc main_v64))
    (hnb : ∀ b : Ref sig .tc, (∀ w, Pipeline.arrRef spec2 w ≠ b) →
      U'' (Proc.devRef .tc b) = StableHlo.after (hostOps2 (F := Ideal)) U' (Proc.devRef .tc b)) :
    U'' (Proc.devRef .tc main_v64)
        = kXNew 0x3F317220#32 (kAtt 0 Facts₀.slices_S9x1x64_S1x1x64_0_0_0 (U (Proc.devRef .tc main_arg7)))
            (U (Proc.devRef .tc main_v1)) (U (Proc.devRef .tc main_v3))
            (U (Proc.devRef .tc main_v7_0)) (U (Proc.devRef .tc main_v7_1))
      ∧ U'' (Proc.devRef .tc main_v70)
        = kZNew 0x3F317220#32 (kAtt 0 Facts₀.slices_S9x1x64_S1x1x64_0_0_0 (U (Proc.devRef .tc main_arg7)))
            (kHatt 0 Facts₀.slices_S9x1x128_S1x1x128_0_0_0 (U (Proc.devRef .tc main_arg10)))
            (kHb 0 Facts₀.slices_S9x1_S1x1_0_0 (U (Proc.devRef .tc main_arg11)))
            (U (Proc.devRef .tc main_v1)) (U (Proc.devRef .tc main_v3))
            (U (Proc.devRef .tc main_v7_0)) (U (Proc.devRef .tc main_v7_1))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v7_0) = U (Proc.devRef .tc main_v7_0) :=
    (hna main_v7_0 (by decide)).trans (hA_keep U main_v7_0 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v27)
      = Cert.Spec.specA (kZsum (kZs 0x3F317220#32 (U (Proc.devRef .tc main_v7_1))) (U (Proc.devRef .tc main_v1)) (U (Proc.devRef .tc main_v3)))
          (kAtt 0 Facts₀.slices_S9x1x64_S1x1x64_0_0_0 (U (Proc.devRef .tc main_arg7))) := by
    rw [ha, hA_zsum, hA_att]
  -- what the second call finds
  have ez : StableHlo.after (hostOps2 (F := Ideal)) U' (Proc.devRef .tc main_v7_1) = U (Proc.devRef .tc main_v7_1) :=
    (hB_keep U' main_v7_1 (by decide)).trans ((hna main_v7_1 (by decide)).trans (hA_keep U main_v7_1 (by decide)))
  have ezs : StableHlo.after (hostOps2 (F := Ideal)) U' (Proc.devRef .tc main_v9)
      = kZs 0x3F317220#32 (U (Proc.devRef .tc main_v7_1)) :=
    (hB_keep U' main_v9 (by decide)).trans ((hna main_v9 (by decide)).trans (hA_zs U))
  have eX : StableHlo.after (hostOps2 (F := Ideal)) U' (Proc.devRef .tc main_v64)
      = kXNew 0x3F317220#32 (kAtt 0 Facts₀.slices_S9x1x64_S1x1x64_0_0_0 (U (Proc.devRef .tc main_arg7)))
          (U (Proc.devRef .tc main_v1)) (U (Proc.devRef .tc main_v3))
          (U (Proc.devRef .tc main_v7_0)) (U (Proc.devRef .tc main_v7_1)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L0

end
-- ==== Proof.KFoldLow.lean ====
/-
  The buffers every round reads and none writes: the two rows of the edge list as prepared by the program's first
  stretch (`main_v1`, `main_v3`) and six of the arguments (the graph of each node, the three stacked parameter
  arrays, the head's weights and bias). `Low` says that buffer contents `U` have them at given values; it passes from
  one boundary of the program to a later one when every buffer of index below 21 is the same at both.
-/
import proofs.«404001_j15436112461850_3_alg».proof.Proof.KGlue
import proofs.«404001_j15436112461850_3_alg».proof.Proof.Gen.KernelIdeal.Launch

noncomputable section

namespace Cert.KernelIdeal.KFold

open Idealize.ShloMosaic Idealize.ShloMosaic.TcCoe Cert.KernelIdeal Cert.KernelIdeal.Gen Cert.KernelIdeal.KGlue

/-- The edge end points are the rows of the edge list `e1`, and the six arguments are `b2`, `b7`, `b10`, `b11`,
    `b12`, `b13`. -/
structure Low (e1 : KGlue.W S2x320000) (b2 : KGlue.W S10000) (b7 : A S9x1x64) (b10 : A S9x1x128) (b11 : A S9x1)
    (b12 : A S64x1) (b13 : A S1) (U : Valuation τ sig (Elt Ideal)) : Prop where
  hsrc : U (Proc.devRef .tc main_v1) = kSrc e1
  hdst : U (Proc.devRef .tc main_v3) = kDst e1
  h2 : U (Proc.devRef .tc main_arg2) = b2
  h7 : U (Proc.devRef .tc main_arg7) = b7
  h10 : U (Proc.devRef .tc main_arg10) = b10
  h11 : U (Proc.devRef .tc main_arg11) = b11
  h12 : U (Proc.devRef .tc main_arg12) = b12
  h13 : U (Proc.devRef .tc main_arg13) = b13

/-- It passes to contents that agree on the buffers of index below 21. -/
theorem Low.of_same {e1 : KGlue.W S2x320000} {b2 : KGlue.W S10000} {b7 : A S9x1x64} {b10 : A S9x1x128} {b11 : A S9x1}
    {b12 : A S64x1} {b13 : A S1} {U U' : Valuation τ sig (Elt Ideal)} (h : Low e1 b2 b7 b10 b11 b12 b13 U)
    (hs : ∀ r : Ref sig .tc, r.idx.val < 21 → U' (Proc.devRef .tc r) = U (Proc.devRef .tc r)) :
    Low e1 b2 b7 b10 b11 b12 b13 U' :=
  ⟨(hs main_v1 (by decide)).trans h.hsrc, (hs main_v3 (by decide)).trans h.hdst,
   (hs main_arg2 (by decide)).trans h.h2, (hs main_arg7 (by decide)).trans h.h7,
   (hs main_arg10 (by decide)).trans h.h10, (hs main_arg11 (by decide)).trans h.h11,
   (hs main_arg12 (by decide)).trans h.h12, (hs main_arg13 (by decide)).trans h.h13⟩

end Cert.KernelIdeal.KFold

end
-- ==== Proof.KFoldS0.lean ====
/-
  Round 1 of the nine rounds on the program's own run: the round's module is about any buffer contents; here they
  are the contents at the program's boundaries — `W2` at the round's entry, `W4` after its first call, `W6` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg1
import proofs.«404001_j15436112461850_3_alg».proof.Proof.KReg2
import proofs.«404001_j15436112461850_3_alg».proof.Proof.KFoldL0
import proofs.«404001_j15436112461850_3_alg».proof.Proof.KFoldLow

set_option maxRecDepth 16384

noncomputable section

namespace Cert.KernelIdeal.KFold.S0

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W2 m ρ c (Proc.devRef .tc main_v7_0) = s.1) (hZ : W2 m ρ c (Proc.devRef .tc main_v7_1) = s.2)
    (hl : Low e1 b2 b7 b10 b11 b12 b13 (W2 m ρ c)) :
    W6 m ρ c (Proc.devRef .tc main_v64)
        = kXNew 0x3F317220#32 (kAtt 0 Facts₀.slices_S9x1x64_S1x1x64_0_0_0 b7) (kSrc e1) (kDst e1) s.1 s.2
      ∧ W6 m ρ c (Proc.devRef .tc main_v70)
        = kZNew 0x3F317220#32 (kAtt 0 Facts₀.slices_S9x1x64_S1x1x64_0_0_0 b7)
            (kHatt 0 Facts₀.slices_S9x1x128_S1x1x128_0_0_0 b10) (kHb 0 Facts₀.slices_S9x1_S1x1_0_0 b11)
            (kSrc e1) (kDst e1) s.1 s.2
      ∧ Low e1 b2 b7 b10 b11 b12 b13 (W6 m ρ c) := by
  have R := L0.round (W2 m ρ c) (W4 m ρ c) (W6 m ρ c)
    ((W4_arr m ρ c 2).trans (KReg1.arr1_2 (V3 m ρ) c))
    (fun b hb => W4_of_ne m ρ c b hb)
    ((W6_arr m ρ c 5).trans (KReg2.arr2_5 (V5 m ρ) c))
    ((W6_arr m ρ c 0).trans (((dat2 (V5 m ρ) c).arrAt_in 0 rfl _).trans (A_eq2 (V5 m ρ) c 0)))
    (fun b hb => W6_of_ne m ρ c b hb)
  rw [hl.h7, hl.hsrc, hl.hdst, hl.h10, hl.h11, hX, hZ] at R
  exact ⟨R.1, R.2.1, hl.of_same R.2.2⟩

end Cert.KernelIdeal.KFold.S0

end
-- ==== Proof.KReg3.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R3
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg3

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k3_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k3_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg3.N) (p : Fin 8000) (k : Fin 64) (i : S320000x64.Idx)
    (hi0 : (i 0).val = t.val * 8000 + p.val) (hi1 : (i 1).val = k.val) :
    (iblk3 V c 0 t : Vec Ideal S8000x64 .f32) (ix2 p k) = (V c main_v87 : S320000x64.Idx → Elt Ideal .f32) i := by
  obtain ⟨e0, e1, -⟩ := block_indices t
  unfold iblk3
  rw [View.read_apply]
  show V c main_v87 _ = V c main_v87 _
  congr 1
  funext a
  apply Fin.ext
  match a with
  | ⟨0, _⟩ => show win3_0.index t (0 : Fin 2) * 8000 + 1 * p.val = (i 0).val; rw [e0, hi0]; omega
  | ⟨1, _⟩ => show win3_0.index t (1 : Fin 2) * 64 + 1 * k.val = (i 1).val; rw [e1, hi1]; omega

/-- Every point's block of the attention vector is the whole vector. -/
theorem attblock_apply (c : Dev nD) (t : Fin cfg3.N) (k : Fin 64) :
    (iblk3 V c 1 t : Vec Ideal S1x64 .f32) (ix2 0 k) = (V c main_v89 : S1x64.Idx → Elt Ideal .f32) (ix2 0 k) := by
  obtain ⟨-, -, e0, e1, -⟩ := block_indices t
  unfold iblk3
  rw [View.read_apply]
  show V c main_v89 _ = V c main_v89 _
  congr 1
  funext a
  apply Fin.ext
  match a with
  | ⟨0, _⟩ => show win3_1.index t (0 : Fin 2) * 1 + 1 * 0 = 0; rw [e0]
  | ⟨1, _⟩ => show win3_1.index t (1 : Fin 2) * 64 + 1 * k.val = k.val; rw [e1]; omega

/-- WHAT POINT `t` WRITES BACK is block `t` of the edge scores of the arrays as the region finds them. -/
theorem flushed_eq (c : Dev nD) (t : Fin cfg3.N) :
    (dat3 (F := Ideal) V c).flushed 2 t
      = ((cfg3.win 2).blk t).view.read (Elt Ideal) (specA (V c main_v87) (V c main_v89)) := by
  show (cfg3.win 2).cut (grid3.coords t) ((dat3 V c).after 2 t) = _
  rw [after3_2]
  unfold out3_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg3.win 2).xinj (grid3.coords t) j = ix2 (⟨(j 0).val, h0⟩ : Fin 8000) (⟨(j 1).val, h1⟩ : Fin 1) :=
    funext fun a => Fin.ext (match a with | ⟨0, _⟩ => rfl | ⟨1, _⟩ => rfl)
  show k3_pay1 (F := Ideal) (iblk3 V c 0 t) (iblk3 V c 1 t) ((cfg3.win 2).xinj (grid3.coords t) j)
    = specA (V c main_v87) (V c main_v89) (((cfg3.win 2).blk t).view.emb j)
  rw [hx]
  refine (pay_apply (iblk3 V c 0 t) (iblk3 V c 1 t) ⟨(j 0).val, h0⟩ ⟨(j 1).val, h1⟩).trans ?_
  refine Eq.trans ?_ (specA_apply (V c main_v87) (V c main_v89) (((cfg3.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win3_2.index t (0 : Fin 2) * 8000 + 1 * (j 0).val = t.val * 8000 + (j 0).val
  rw [e0]; omega

/-- An edge is in point `t`'s block iff its row is among the block's 8000. -/
theorem mem_block (t : Fin cfg3.N) (i : S320000x1.Idx) :
    i ∈ ((cfg3.win 2).blk t).view.set
      ↔ ∀ a : Fin 2, win3_2.index t a * S8000x1.size a ≤ (i a).val ∧ (i a).val < win3_2.index t a * S8000x1.size a + S8000x1.size a := by
  show i ∈ ((View.whole main_v90).slice (win3_2.rect t)).set ↔ _
  rw [View.set_slice_whole, Rect.mem_set_unit]
  exact Iff.rfl

/-- Every edge is in the block of the point its row falls to: row `r` in block `r / 8000`. -/
theorem covered (i : S320000x1.Idx) :
    ∃ t : Fin cfg3.N, (cfg3.win 2).flush t = true ∧ i ∈ ((cfg3.win 2).blk t).view.set := by
  have hi0 : (i 0).val < 320000 := (i 0).isLt
  have hi1 : (i 1).val < 1 := (i 1).isLt
  have hN : cfg3.N = 40 := N_3
  let t : Fin cfg3.N := ⟨(i 0).val / 8000, by rw [hN]; omega⟩
  obtain ⟨-, -, -, -, e0, e1⟩ := block_indices t
  have ht : t.val = (i 0).val / 8000 := rfl
  refine ⟨t, flush3_2 t, ?_⟩
  rw [mem_block]
  intro a
  match a with
  | ⟨0, _⟩ =>
    show win3_2.index t (0 : Fin 2) * 8000 ≤ (i 0).val ∧ (i 0).val < win3_2.index t (0 : Fin 2) * 8000 + 8000
    rw [e0, ht]; omega
  | ⟨1, _⟩ =>
    show win3_2.index t (1 : Fin 2) * 1 ≤ (i 1).val ∧ (i 1).val < win3_2.index t (1 : Fin 2) * 1 + 1
    rw [e1]; omega

/-- THE ARRAY of edge scores after the region: the specification's function of the two arrays the region read. -/
theorem arr3_2 (c : Dev nD) :
    (Gen.dat3 (F := Ideal) V c).arrAt 2 cfg3.N = Cert.Spec.specA (V c main_v87) (V c main_v89) :=
  (dat3 (F := Ideal) V c).arrAt_eq_of_cover 2 (specA (V c main_v87) (V c main_v89)) (fun t _ => flushed_eq V c t) covered

end Cert.KernelIdeal.KReg3

end
-- ==== Proof.KReg4.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R4
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg4
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg4.N) : Fin 10 := ⟨t.val, lt_of_lt_of_eq t.isLt N_4⟩

/-- The index maps, decided over the ten grid points: the row-block windows sit at block `(t, 0)`, the two small
    windows at `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point `t` is rows `1000 t …` of its array. -/
theorem blk0_rows (c : Dev nD) (t : Fin cfg4.N) : Gen.iblk4 V c 0 t = rows (V c main_v127) (pt t) := by
  obtain ⟨e0, e1, -⟩ := idx_facts t
  funext j
  unfold Gen.iblk4
  rw [View.read_apply]
  show V c main_v127 (((cfg4.win 0).blk t).view.emb j) = V c main_v127 _
  congr 1
  funext a; apply Fin.ext
  match a with
  | ⟨0, _⟩ => show win4_0.index t (0 : Fin 2) * 1000 + 1 * (j 0).val = t.val * 1000 + (j 0).val; rw [e0]; omega
  | ⟨1, _⟩ => show win4_0.index t (1 : Fin 2) * 64 + 1 * (j 1).val = (j 1).val; rw [e1]; omega

/-- Window 1's block at point `t` is rows `1000 t …` of its array. -/
theorem blk1_rows (c : Dev nD) (t : Fin cfg4.N) : Gen.iblk4 V c 1 t = rows (V c main_v70) (pt t) := by
  obtain ⟨-, -, e0, e1, -⟩ := idx_facts t
  funext j
  unfold Gen.iblk4
  rw [View.read_apply]
  show V c main_v70 (((cfg4.win 1).blk t).view.emb j) = V c main_v70 _
  congr 1
  funext a; apply Fin.ext
  match a with
  | ⟨0, _⟩ => show win4_1.index t (0 : Fin 2) * 1000 + 1 * (j 0).val = t.val * 1000 + (j 0).val; rw [e0]; omega
  | ⟨1, _⟩ => show win4_1.index t (1 : Fin 2) * 64 + 1 * (j 1).val = (j 1).val; rw [e1]; omega

/-- Window 2's block at point `t` is rows `1000 t …` of its array. -/
theorem blk2_rows (c : Dev nD) (t : Fin cfg4.N) : Gen.iblk4 V c 2 t = rows (V c main_v72) (pt t) := by
  obtain ⟨-, -, -, -, e0, e1, -⟩ := idx_facts t
  funext j
  unfold Gen.iblk4
  rw [View.read_apply]
  show V c main_v72 (((cfg4.win 2).blk t).view.emb j) = V c main_v72 _
  congr 1
  funext a; apply Fin.ext
  match a with
  | ⟨0, _⟩ => show win4_2.index t (0 : Fin 2) * 1000 + 1 * (j 0).val = t.val * 1000 + (j 0).val; rw [e0]; omega
  | ⟨1, _⟩ => show win4_2.index t (1 : Fin 2) * 64 + 1 * (j 1).val = (j 1).val; rw [e1]; omega

/-- Window 3's block at every point is its whole one-row array. -/
theorem blk3_whole (c : Dev nD) (t : Fin cfg4.N) : Gen.iblk4 V c 3 t = V c main_v129 := by
  obtain ⟨-, -, -, -, -, -, e0, e1, -⟩ := idx_facts t
  funext j
  unfold Gen.iblk4
  rw [View.read_apply]
  show V c main_v129 (((cfg4.win 3).blk t).view.emb j) = V c main_v129 j
  congr 1
  funext a; apply Fin.ext
  match a with
  | ⟨0, _⟩ => show win4_3.index t (0 : Fin 2) * 1 + 1 * (j 0).val = (j 0).val; rw [e0]; omega
  | ⟨1, _⟩ => show win4_3.index t (1 : Fin 2) * 128 + 1 * (j 1).val = (j 1).val; rw [e1]; omega

/-- Window 4's block at every point is its whole one-element array. -/
theorem blk4_whole (c : Dev nD) (t : Fin cfg4.N) : Gen.iblk4 V c 4 t = V c main_v132 := by
  obtain ⟨-, -, -, -, -, -, -, -, e0, e1, -⟩ := idx_facts t
  funext j
  unfold Gen.iblk4
  rw [View.read_apply]
  show V c main_v132 (((cfg4.win 4).blk t).view.emb j) = V c main_v132 j
  congr 1
  funext a; apply Fin.ext
  match a with
  | ⟨0, _⟩ => show win4_4.index t (0 : Fin 2) * 1 + 1 * (j 0).val = (j 0).val; rw [e0]; omega
  | ⟨1, _⟩ => show win4_4.index t (1 : Fin 2) * 1 + 1 * (j 1).val = (j 1).val; rw [e1]; omega

/-- The output window's block at point `t`, read off any array `G`, is rows `1000 t …` of `G`. -/
theorem out_rows (t : Fin cfg4.N) (G : V2 10000 64) : ((cfg4.win 5).blk t).view.read (Elt Ideal) G = rows G (pt t) := by
  obtain ⟨-, -, -, -, -, -, -, -, -, -, e0, e1⟩ := idx_facts t
  funext j
  rw [View.read_apply]
  show G (((cfg4.win 5).blk t).view.emb j) = G _
  congr 1
  funext a; apply Fin.ext
  match a with
  | ⟨0, _⟩ => show win4_5.index t (0 : Fin 2) * 1000 + 1 * (j 0).val = t.val * 1000 + (j 0).val; rw [e0]; omega
  | ⟨1, _⟩ => show win4_5.index t (1 : Fin 2) * 64 + 1 * (j 1).val = (j 1).val; rw [e1]; omega

/-- The output window is uncut: what a write-back moves of a staging buffer's contents is all of them. -/
theorem cut_id (t : Fin cfg4.N) (P : FVec Ideal S1000x64 .f32) : (cfg4.win 5).cut (grid4.coords t) P = P := rfl

/-- WHAT POINT `t` WRITES BACK is block `t` of the update of the arrays as the region finds them. -/
theorem flushed_eq (c : Dev nD) (t : Fin cfg4.N) :
    (Gen.dat4 (F := Ideal) V c).flushed 5 t = ((cfg4.win 5).blk t).view.read (Elt Ideal)
      (Cert.Spec.specUpd (V c main_v127) (V c main_v70) (V c main_v72) (V c main_v129) (V c main_v132)) := by
  show (cfg4.win 5).cut (grid4.coords t) ((Gen.dat4 V c).after 5 t) = _
  rw [Gen.after4_5]
  unfold Gen.out4_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k4_pay1 (F := Ideal)) rfl _ _ _ _ _ _)

/-- An index of the array is in point `t`'s block iff each coordinate is in the block's range on its axis. -/
theorem mem_blk (t : Fin cfg4.N) (i : S10000x64.Idx) :
    i ∈ ((cfg4.win 5).blk t).view.set ↔ ∀ a : Fin 2, win4_5.index t a * S1000x64.size a ≤ (i a).val ∧ (i a).val < win4_5.index t a * S1000x64.size a + S1000x64.size a := by
  show i ∈ ((View.whole main_v133).slice (win4_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg4.N, (cfg4.win 5).flush t = true ∧ i ∈ ((cfg4.win 5).blk t).view.set := by
  have hi0 : (i 0).val < 10000 := (i 0).isLt
  have hi1 : (i 1).val < 64 := (i 1).isLt
  have ht : (i 0).val / 1000 < cfg4.N := by rw [show cfg4.N = 10 from N_4]; omega
  obtain ⟨-, -, -, -, -, -, -, -, -, -, e0, e1⟩ := idx_facts ⟨(i 0).val / 1000, ht⟩
  refine ⟨⟨(i 0).val / 1000, ht⟩, Gen.flush4_5 _, ?_⟩
  rw [mem_blk]
  intro a
  match a with
  | ⟨0, _⟩ =>
    show win4_5.index ⟨(i 0).val / 1000, ht⟩ (0 : Fin 2) * 1000 ≤ (i 0).val ∧ (i 0).val < win4_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win4_5.index ⟨(i 0).val / 1000, ht⟩ (1 : Fin 2) * 64 ≤ (i 1).val ∧ (i 1).val < win4_5.index ⟨(i 0).val / 1000, ht⟩ (1 : Fin 2) * 64 + 64
    rw [e1]; omega

/-- THE ARRAY AFTER THE REGION: the update of the region's input arrays, whole. -/
theorem arr4_5 (c : Dev nD) : (Gen.dat4 (F := Ideal) V c).arrAt 5 cfg4.N
    = Cert.Spec.specUpd (V c main_v127) (V c main_v70) (V c main_v72) (V c main_v129) (V c main_v132) :=
  (Gen.dat4 (F := Ideal) V c).arrAt_eq_of_cover 5 _ (fun t _ => flushed_eq V c t) cover

end Cert.KernelIdeal.KReg4

end
-- ==== Proof.KFoldL1.lean ====
/-
  Round 2 of the nine rounds, read off the program's own operations: from the buffer contents at the round's entry
  (features in `main_v64`, state in `main_v70`, the edge end points in `main_v1` and `main_v3`) to those at its
  exit (new features in `main_v127`, new state in `main_v133`).

  The round is two stretches of host operations around two calls. The first stretch scales the state (`main_v72`),
  sums the scaled states of each edge's end points (`main_v87`) and cuts the round's score vector out of the stacked
  one (`main_v89`); the first call scores the edges (`main_v90`); the second stretch normalises the scores by the
  in-degrees, scatter-sums the weighted source features (`main_v127`) and cuts out the gate vector and bias
  (`main_v129`, `main_v132`); the second call updates the state (`main_v133`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L1

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps3 (F := Ideal)) V (Proc.devRef .tc main_v72)
      = kZs 0x3ECF9936#32 (V (Proc.devRef .tc main_v70)) := by
  dsimp only [hostOps3]; after_results_simp; rfl

/-- Each edge's sum of its end points' scaled states. -/
theorem hA_zsum (V : Valuation τ sig (Elt Ideal)) :
    StableHlo.after (hostOps3 (F := Ideal)) V (Proc.devRef .tc main_v87)
      = kZsum (kZs 0x3ECF9936#32 (V (Proc.devRef .tc main_v70))) (V (Proc.devRef .tc main_v1)) (V (Proc.devRef .tc main_v3)) := by
  dsimp only [hostOps3]; after_results_simp; rfl

/-- The round's score vector. -/
theorem hA_att (V : Valuation τ sig (Elt Ideal)) :
    StableHlo.after (hostOps3 (F := Ideal)) V (Proc.devRef .tc main_v89)
      = kAtt 1 Facts₀.slices_S9x1x64_S1x1x64_1_0_0 (V (Proc.devRef .tc main_arg7)) := by
  dsimp only [hostOps3]; after_results_simp; rfl

/-- The stretch writes no buffer of index below 101. -/
theorem hA_keep (V : Valuation τ sig (Elt Ideal)) (r : Ref sig .tc) (h : r.idx.val < 101) :
    StableHlo.after (hostOps3 (F := Ideal)) V (Proc.devRef .tc r) = V (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps4 (F := Ideal)) V (Proc.devRef .tc main_v127)
      = kX (V (Proc.devRef .tc main_v64))
          (kNa (kInv (kAdj (V (Proc.devRef .tc main_v90)) (V (Proc.devRef .tc main_v3)))) (V (Proc.devRef .tc main_v90))
            (V (Proc.devRef .tc main_v1)) (V (Proc.devRef .tc main_v3)))
          (V (Proc.devRef .tc main_v1)) (V (Proc.devRef .tc main_v3)) := by
  dsimp only [hostOps4]; after_results_simp; rfl

set_option maxHeartbeats 1000000 in
/-- The round's gate vector. -/
theorem hB_hatt (V : Valuation τ sig (Elt Ideal)) :
    StableHlo.after (hostOps4 (F := Ideal)) V (Proc.devRef .tc main_v129)
      = kHatt 1 Facts₀.slices_S9x1x128_S1x1x128_1_0_0 (V (Proc.devRef .tc main_arg10)) := by
  dsimp only [hostOps4]; after_results_simp; rfl

set_option maxHeartbeats 1000000 in
/-- The round's gate bias. -/
theorem hB_hb (V : Valuation τ sig (Elt Ideal)) :
    StableHlo.after (hostOps4 (F := Ideal)) V (Proc.devRef .tc main_v132)
      = kHb 1 Facts₀.slices_S9x1_S1x1_1_0 (V (Proc.devRef .tc main_arg11)) := by
  dsimp only [hostOps4]; after_results_simp; rfl

set_option maxHeartbeats 1000000 in
/-- The stretch writes no buffer of index below 126. -/
theorem hB_keep (V : Valuation τ sig (Elt Ideal)) (r : Ref sig .tc) (h : r.idx.val < 126) :
    StableHlo.after (hostOps4 (F := Ideal)) V (Proc.devRef .tc r) = V (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec3 w ≠ r := by
  have key : ∀ w, ¬ (Pipeline.arrRef spec3 w).idx.val < 21 := by decide
  exact fun w e => key w (by rw [e]; exact h)

/-- No array of the second call has an index below 21. -/
theorem lowB (r : Ref sig .tc) (h : r.idx.val < 21) : ∀ w, Pipeline.arrRef spec4 w ≠ r := by
  have key : ∀ w, ¬ (Pipeline.arrRef spec4 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v90)
      = Cert.Spec.specA (StableHlo.after (hostOps3 (F := Ideal)) U (Proc.devRef .tc main_v87))
          (StableHlo.after (hostOps3 (F := Ideal)) U (Proc.devRef .tc main_v89)))
    (hna : ∀ b : Ref sig .tc, (∀ w, Pipeline.arrRef spec3 w ≠ b) →
      U' (Proc.devRef .tc b) = StableHlo.after (hostOps3 (F := Ideal)) U (Proc.devRef .tc b))
    (hz : U'' (Proc.devRef .tc main_v133)
      = Cert.Spec.specUpd (StableHlo.after (hostOps4 (F := Ideal)) U' (Proc.devRef .tc main_v127))
          (StableHlo.after (hostOps4 (F := Ideal)) U' (Proc.devRef .tc main_v70))
          (StableHlo.after (hostOps4 (F := Ideal)) U' (Proc.devRef .tc main_v72))
          (StableHlo.after (hostOps4 (F := Ideal)) U' (Proc.devRef .tc main_v129))
          (StableHlo.after (hostOps4 (F := Ideal)) U' (Proc.devRef .tc main_v132)))
    (hx : U'' (Proc.devRef .tc main_v127) = StableHlo.after (hostOps4 (F := Ideal)) U' (Proc.devRef .tc main_v127))
    (hnb : ∀ b : Ref sig .tc, (∀ w, Pipeline.arrRef spec4 w ≠ b) →
      U'' (Proc.devRef .tc b) = StableHlo.after (hostOps4 (F := Ideal)) U' (Proc.devRef .tc b)) :
    U'' (Proc.devRef .tc main_v127)
        = kXNew 0x3ECF9936#32 (kAtt 1 Facts₀.slices_S9x1x64_S1x1x64_1_0_0 (U (Proc.devRef .tc main_arg7)))
            (U (Proc.devRef .tc main_v1)) (U (Proc.devRef .tc main_v3))
            (U (Proc.devRef .tc main_v64)) (U (Proc.devRef .tc main_v70))
      ∧ U'' (Proc.devRef .tc main_v133)
        = kZNew 0x3ECF9936#32 (kAtt 1 Facts₀.slices_S9x1x64_S1x1x64_1_0_0 (U (Proc.devRef .tc main_arg7)))
            (kHatt 1 Facts₀.slices_S9x1x128_S1x1x128_1_0_0 (U (Proc.devRef .tc main_arg10)))
            (kHb 1 Facts₀.slices_S9x1_S1x1_1_0 (U (Proc.devRef .tc main_arg11)))
            (U (Proc.devRef .tc main_v1)) (U (Proc.devRef .tc main_v3))
            (U (Proc.devRef .tc main_v64)) (U (Proc.devRef .tc main_v70))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v64) = U (Proc.devRef .tc main_v64) :=
    (hna main_v64 (by decide)).trans (hA_keep U main_v64 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v90)
      = Cert.Spec.specA (kZsum (kZs 0x3ECF9936#32 (U (Proc.devRef .tc main_v70))) (U (Proc.devRef .tc main_v1)) (U (Proc.devRef .tc main_v3)))
          (kAtt 1 Facts₀.slices_S9x1x64_S1x1x64_1_0_0 (U (Proc.devRef .tc main_arg7))) := by
    rw [ha, hA_zsum, hA_att]
  -- what the second call finds
  have ez : StableHlo.after (hostOps4 (F := Ideal)) U' (Proc.devRef .tc main_v70) = U (Proc.devRef .tc main_v70) :=
    (hB_keep U' main_v70 (by decide)).trans ((hna main_v70 (by decide)).trans (hA_keep U main_v70 (by decide)))
  have ezs : StableHlo.after (hostOps4 (F := Ideal)) U' (Proc.devRef .tc main_v72)
      = kZs 0x3ECF9936#32 (U (Proc.devRef .tc main_v70)) :=
    (hB_keep U' main_v72 (by decide)).trans ((hna main_v72 (by decide)).trans (hA_zs U))
  have eX : StableHlo.after (hostOps4 (F := Ideal)) U' (Proc.devRef .tc main_v127)
      = kXNew 0x3ECF9936#32 (kAtt 1 Facts₀.slices_S9x1x64_S1x1x64_1_0_0 (U (Proc.devRef .tc main_arg7)))
          (U (Proc.devRef .tc main_v1)) (U (Proc.devRef .tc main_v3))
          (U (Proc.devRef .tc main_v64)) (U (Proc.devRef .tc main_v70)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L1

end
-- ==== Proof.KFoldS1.lean ====
/-
  Round 2 of the nine rounds on the program's own run: the round's module is about any buffer contents; here they
  are the contents at the program's boundaries — `W6` at the round's entry, `W8` after its first call, `W10` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg3
import proofs.«404001_j15436112461850_3_alg».proof.Proof.KReg4
import proofs.«404001_j15436112461850_3_alg».proof.Proof.KFoldL1
import proofs.«404001_j15436112461850_3_alg».proof.Proof.KFoldLow

set_option maxRecDepth 16384

noncomputable section

namespace Cert.KernelIdeal.KFold.S1

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W6 m ρ c (Proc.devRef .tc main_v64) = s.1) (hZ : W6 m ρ c (Proc.devRef .tc main_v70) = s.2)
    (hl : Low e1 b2 b7 b10 b11 b12 b13 (W6 m ρ c)) :
    W10 m ρ c (Proc.devRef .tc main_v127)
        = kXNew 0x3ECF9936#32 (kAtt 1 Facts₀.slices_S9x1x64_S1x1x64_1_0_0 b7) (kSrc e1) (kDst e1) s.1 s.2
      ∧ W10 m ρ c (Proc.devRef .tc main_v133)
        = kZNew 0x3ECF9936#32 (kAtt 1 Facts₀.slices_S9x1x64_S1x1x64_1_0_0 b7)
            (kHatt 1 Facts₀.slices_S9x1x128_S1x1x128_1_0_0 b10) (kHb 1 Facts₀.slices_S9x1_S1x1_1_0 b11)
            (kSrc e1) (kDst e1) s.1 s.2
      ∧ Low e1 b2 b7 b10 b11 b12 b13 (W10 m ρ c) := by
  have R := L1.round (W6 m ρ c) (W8 m ρ c) (W10 m ρ c)
    ((W8_arr m ρ c 2).trans (KReg3.arr3_2 (V7 m ρ) c))
    (fun b hb => W8_of_ne m ρ c b hb)
    ((W10_arr m ρ c 5).trans (KReg4.arr4_5 (V9 m ρ) c))
    ((W10_arr m ρ c 0).trans (((dat4 (V9 m ρ) c).arrAt_in 0 rfl _).trans (A_eq4 (V9 m ρ) c 0)))
    (fun b hb => W10_of_ne m ρ c b hb)
  rw [hl.h7, hl.hsrc, hl.hdst, hl.h10, hl.h11, hX, hZ] at R
  exact ⟨R.1, R.2.1, hl.of_same R.2.2⟩

end Cert.KernelIdeal.KFold.S1

end
-- ==== Proof.KReg5.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R5
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg5

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k5_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k5_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg5.N) (p : Fin 8000) (k : Fin 64) (i : S320000x64.Idx)
    (hi0 : (i 0).val = t.val * 8000 + p.val) (hi1 : (i 1).val = k.val) :
    (iblk5 V c 0 t : Vec Ideal S8000x64 .f32) (ix2 p k) = (V c main_v150 : S320000x64.Idx → Elt Ideal .f32) i := by
  obtain ⟨e0, e1, -⟩ := block_indices t
  unfold iblk5
  rw [View.read_apply]
  show V c main_v150 _ = V c main_v150 _
  congr 1
  funext a
  apply Fin.ext
  match a with
  | ⟨0, _⟩ => show win5_0.index t (0 : Fin 2) * 8000 + 1 * p.val = (i 0).val; rw [e0, hi0]; omega
  | ⟨1, _⟩ => show win5_0.index t (1 : Fin 2) * 64 + 1 * k.val = (i 1).val; rw [e1, hi1]; omega

/-- Every point's block of the attention vector is the whole vector. -/
theorem attblock_apply (c : Dev nD) (t : Fin cfg5.N) (k : Fin 64) :
    (iblk5 V c 1 t : Vec Ideal S1x64 .f32) (ix2 0 k) = (V c main_v152 : S1x64.Idx → Elt Ideal .f32) (ix2 0 k) := by
  obtain ⟨-, -, e0, e1, -⟩ := block_indices t
  unfold iblk5
  rw [View.read_apply]
  show V c main_v152 _ = V c main_v152 _
  congr 1
  funext a
  apply Fin.ext
  match a with
  | ⟨0, _⟩ => show win5_1.index t (0 : Fin 2) * 1 + 1 * 0 = 0; rw [e0]
  | ⟨1, _⟩ => show win5_1.index t (1 : Fin 2) * 64 + 1 * k.val = k.val; rw [e1]; omega

/-- WHAT POINT `t` WRITES BACK is block `t` of the edge scores of the arrays as the region finds them. -/
theorem flushed_eq (c : Dev nD) (t : Fin cfg5.N) :
    (dat5 (F := Ideal) V c).flushed 2 t
      = ((cfg5.win 2).blk t).view.read (Elt Ideal) (specA (V c main_v150) (V c main_v152)) := by
  show (cfg5.win 2).cut (grid5.coords t) ((dat5 V c).after 2 t) = _
  rw [after5_2]
  unfold out5_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg5.win 2).xinj (grid5.coords t) j = ix2 (⟨(j 0).val, h0⟩ : Fin 8000) (⟨(j 1).val, h1⟩ : Fin 1) :=
    funext fun a => Fin.ext (match a with | ⟨0, _⟩ => rfl | ⟨1, _⟩ => rfl)
  show k5_pay1 (F := Ideal) (iblk5 V c 0 t) (iblk5 V c 1 t) ((cfg5.win 2).xinj (grid5.coords t) j)
    = specA (V c main_v150) (V c main_v152) (((cfg5.win 2).blk t).view.emb j)
  rw [hx]
  refine (pay_apply (iblk5 V c 0 t) (iblk5 V c 1 t) ⟨(j 0).val, h0⟩ ⟨(j 1).val, h1⟩).trans ?_
  refine Eq.trans ?_ (specA_apply (V c main_v150) (V c main_v152) (((cfg5.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win5_2.index t (0 : Fin 2) * 8000 + 1 * (j 0).val = t.val * 8000 + (j 0).val
  rw [e0]; omega

/-- An edge is in point `t`'s block iff its row is among the block's 8000. -/
theorem mem_block (t : Fin cfg5.N) (i : S320000x1.Idx) :
    i ∈ ((cfg5.win 2).blk t).view.set
      ↔ ∀ a : Fin 2, win5_2.index t a * S8000x1.size a ≤ (i a).val ∧ (i a).val < win5_2.index t a * S8000x1.size a + S8000x1.size a := by
  show i ∈ ((View.whole main_v153).slice (win5_2.rect t)).set ↔ _
  rw [View.set_slice_whole, Rect.mem_set_unit]
  exact Iff.rfl

/-- Every edge is in the block of the point its row falls to: row `r` in block `r / 8000`. -/
theorem covered (i : S320000x1.Idx) :
    ∃ t : Fin cfg5.N, (cfg5.win 2).flush t = true ∧ i ∈ ((cfg5.win 2).blk t).view.set := by
  have hi0 : (i 0).val < 320000 := (i 0).isLt
  have hi1 : (i 1).val < 1 := (i 1).isLt
  have hN : cfg5.N = 40 := N_5
  let t : Fin cfg5.N := ⟨(i 0).val / 8000, by rw [hN]; omega⟩
  obtain ⟨-, -, -, -, e0, e1⟩ := block_indices t
  have ht : t.val = (i 0).val / 8000 := rfl
  refine ⟨t, flush5_2 t, ?_⟩
  rw [mem_block]
  intro a
  match a with
  | ⟨0, _⟩ =>
    show win5_2.index t (0 : Fin 2) * 8000 ≤ (i 0).val ∧ (i 0).val < win5_2.index t (0 : Fin 2) * 8000 + 8000
    rw [e0, ht]; omega
  | ⟨1, _⟩ =>
    show win5_2.index t (1 : Fin 2) * 1 ≤ (i 1).val ∧ (i 1).val < win5_2.index t (1 : Fin 2) * 1 + 1
    rw [e1]; omega

/-- THE ARRAY of edge scores after the region: the specification's function of the two arrays the region read. -/
theorem arr5_2 (c : Dev nD) :
    (Gen.dat5 (F := Ideal) V c).arrAt 2 cfg5.N = Cert.Spec.specA (V c main_v150) (V c main_v152) :=
  (dat5 (F := Ideal) V c).arrAt_eq_of_cover 2 (specA (V c main_v150) (V c main_v152)) (fun t _ => flushed_eq V c t) covered

end Cert.KernelIdeal.KReg5

end
-- ==== Proof.KReg6.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R6
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg6
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg6.N) : Fin 10 := ⟨t.val, lt_of_lt_of_eq t.isLt N_6⟩

/-- The index maps, decided over the ten grid points: the row-block windows sit at block `(t, 0)`, the two small
    windows at `(0, 0)`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Window 0's block at point `t` is rows `1000 t …` of its array. -/
theorem blk0_rows (c : Dev nD) (t : Fin cfg6.N) : Gen.iblk6 V c 0 t = rows (V c main_v190) (pt t) := by
  obtain ⟨e0, e1, -⟩ := idx_facts t
  funext j
  unfold Gen.iblk6
  rw [View.read_apply]
  show V c main_v190 (((cfg6.win 0).blk t).view.emb j) = V c main_v190 _
  congr 1
  funext a; apply Fin.ext
  match a with
  | ⟨0, _⟩ => show win6_0.index t (0 : Fin 2) * 1000 + 1 * (j 0).val = t.val * 1000 + (j 0).val; rw [e0]; omega
  | ⟨1, _⟩ => show win6_0.index t (1 : Fin 2) * 64 + 1 * (j 1).val = (j 1).val; rw [e1]; omega

/-- Window 1's block at point `t` is rows `1000 t …` of its array. -/
theorem blk1_rows (c : Dev nD) (t : Fin cfg6.N) : Gen.iblk6 V c 1 t = rows (V c main_v133) (pt t) := by
  obtain ⟨-, -, e0, e1, -⟩ := idx_facts t
  funext j
  unfold Gen.iblk6
  rw [View.read_apply]
  show V c main_v133 (((cfg6.win 1).blk t).view.emb j) = V c main_v133 _
  congr 1
  funext a; apply Fin.ext
  match a with
  | ⟨0, _⟩ => show win6_1.index t (0 : Fin 2) * 1000 + 1 * (j 0).val = t.val * 1000 + (j 0).val; rw [e0]; omega
  | ⟨1, _⟩ => show win6_1.index t (1 : Fin 2) * 64 + 1 * (j 1).val = (j 1).val; rw [e1]; omega

/-- Window 2's block at point `t` is rows `1000 t …` of its array. -/
theorem blk2_rows (c : Dev nD) (t : Fin cfg6.N) : Gen.iblk6 V c 2 t = rows (V c main_v135) (pt t) := by
  obtain ⟨-, -, -, -, e0, e1, -⟩ := idx_facts t
  funext j
  unfold Gen.iblk6
  rw [View.read_apply]
  show V c main_v135 (((cfg6.win 2).blk t).view.emb j) = V c main_v135 _
  congr 1
  funext a; apply Fin.ext
  match a with
  | ⟨0, _⟩ => show win6_2.index t (0 : Fin 2) * 1000 + 1 * (j 0).val = t.val * 1000 + (j 0).val; rw [e0]; omega
  | ⟨1, _⟩ => show win6_2.index t (1 : Fin 2) * 64 + 1 * (j 1).val = (j 1).val; rw [e1]; omega

/-- Window 3's block at every point is its whole one-row array. -/
theorem blk3_whole (c : Dev nD) (t : Fin cfg6.N) : Gen.iblk6 V c 3 t = V c main_v192 := by
  obtain ⟨-, -, -, -, -, -, e0, e1, -⟩ := idx_facts t
  funext j
  unfold Gen.iblk6
  rw [View.read_apply]
  show V c main_v192 (((cfg6.win 3).blk t).view.emb j) = V c main_v192 j
  congr 1
  funext a; apply Fin.ext
  match a with
  | ⟨0, _⟩ => show win6_3.index t (0 : Fin 2) * 1 + 1 * (j 0).val = (j 0).val; rw [e0]; omega
  | ⟨1, _⟩ => show win6_3.index t (1 : Fin 2) * 128 + 1 * (j 1).val = (j 1).val; rw [e1]; omega

/-- Window 4's block at every point is its whole one-element array. -/
theorem blk4_whole (c : Dev nD) (t : Fin cfg6.N) : Gen.iblk6 V c 4 t = V c main_v195 := by
  obtain ⟨-, -, -, -, -, -, -, -, e0, e1, -⟩ := idx_facts t
  funext j
  unfold Gen.iblk6
  rw [View.read_apply]
  show V c main_v195 (((cfg6.win 4).blk t).view.emb j) = V c main_v195 j
  congr 1
  funext a; apply Fin.ext
  match a with
  | ⟨0, _⟩ => show win6_4.index t (0 : Fin 2) * 1 + 1 * (j 0).val = (j 0).val; rw [e0]; omega
  | ⟨1, _⟩ => show win6_4.index t (1 : Fin 2) * 1 + 1 * (j 1).val = (j 1).val; rw [e1]; omega

/-- The output window's block at point `t`, read off any array `G`, is rows `1000 t …` of `G`. -/
theorem out_rows (t : Fin cfg6.N) (G : V2 10000 64) : ((cfg6.win 5).blk t).view.read (Elt Ideal) G = rows G (pt t) := by
  obtain ⟨-, -, -, -, -, -, -, -, -, -, e0, e1⟩ := idx_facts t
  funext j
  rw [View.read_apply]
  show G (((cfg6.win 5).blk t).view.emb j) = G _
  congr 1
  funext a; apply Fin.ext
  match a with
  | ⟨0, _⟩ => show win6_5.index t (0 : Fin 2) * 1000 + 1 * (j 0).val = t.val * 1000 + (j 0).val; rw [e0]; omega
  | ⟨1, _⟩ => show win6_5.index t (1 : Fin 2) * 64 + 1 * (j 1).val = (j 1).val; rw [e1]; omega

/-- The output window is uncut: what a write-back moves of a staging buffer's contents is all of them. -/
theorem cut_id (t : Fin cfg6.N) (P : FVec Ideal S1000x64 .f32) : (cfg6.win 5).cut (grid6.coords t) P = P := rfl

/-- WHAT POINT `t` WRITES BACK is block `t` of the update of the arrays as the region finds them. -/
theorem flushed_eq (c : Dev nD) (t : Fin cfg6.N) :
    (Gen.dat6 (F := Ideal) V c).flushed 5 t = ((cfg6.win 5).blk t).view.read (Elt Ideal)
      (Cert.Spec.specUpd (V c main_v190) (V c main_v133) (V c main_v135) (V c main_v192) (V c main_v195)) := by
  show (cfg6.win 5).cut (grid6.coords t) ((Gen.dat6 V c).after 5 t) = _
  rw [Gen.after6_5]
  unfold Gen.out6_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k6_pay1 (F := Ideal)) rfl _ _ _ _ _ _)

/-- An index of the array is in point `t`'s block iff each coordinate is in the block's range on its axis. -/
theorem mem_blk (t : Fin cfg6.N) (i : S10000x64.Idx) :
    i ∈ ((cfg6.win 5).blk t).view.set ↔ ∀ a : Fin 2, win6_5.index t a * S1000x64.size a ≤ (i a).val ∧ (i a).val < win6_5.index t a * S1000x64.size a + S1000x64.size a := by
  show i ∈ ((View.whole main_v196).slice (win6_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg6.N, (cfg6.win 5).flush t = true ∧ i ∈ ((cfg6.win 5).blk t).view.set := by
  have hi0 : (i 0).val < 10000 := (i 0).isLt
  have hi1 : (i 1).val < 64 := (i 1).isLt
  have ht : (i 0).val / 1000 < cfg6.N := by rw [show cfg6.N = 10 from N_6]; omega
  obtain ⟨-, -, -, -, -, -, -, -, -, -, e0, e1⟩ := idx_facts ⟨(i 0).val / 1000, ht⟩
  refine ⟨⟨(i 0).val / 1000, ht⟩, Gen.flush6_5 _, ?_⟩
  rw [mem_blk]
  intro a
  match a with
  | ⟨0, _⟩ =>
    show win6_5.index ⟨(i 0).val / 1000, ht⟩ (0 : Fin 2) * 1000 ≤ (i 0).val ∧ (i 0).val < win6_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win6_5.index ⟨(i 0).val / 1000, ht⟩ (1 : Fin 2) * 64 ≤ (i 1).val ∧ (i 1).val < win6_5.index ⟨(i 0).val / 1000, ht⟩ (1 : Fin 2) * 64 + 64
    rw [e1]; omega

/-- THE ARRAY AFTER THE REGION: the update of the region's input arrays, whole. -/
theorem arr6_5 (c : Dev nD) : (Gen.dat6 (F := Ideal) V c).arrAt 5 cfg6.N
    = Cert.Spec.specUpd (V c main_v190) (V c main_v133) (V c main_v135) (V c main_v192) (V c main_v195) :=
  (Gen.dat6 (F := Ideal) V c).arrAt_eq_of_cover 5 _ (fun t _ => flushed_eq V c t) cover

end Cert.KernelIdeal.KReg6

end
-- ==== Proof.KFoldL2.lean ====
/-
  Round 3 of the nine rounds, read off the program's own operations: from the buffer contents at the round's entry
  (features in `main_v127`, state in `main_v133`, the edge end points in `main_v1` and `main_v3`) to those at its
  exit (new features in `main_v190`, new state in `main_v196`).

  The round is two stretches of host operations around two calls. The first stretch scales the state (`main_v135`),
  sums the scaled states of each edge's end points (`main_v150`) and cuts the round's score vector out of the stacked
  one (`main_v152`); the first call scores the edges (`main_v153`); the second stretch normalises the scores by the
  in-degrees, scatter-sums the weighted source features (`main_v190`) and cuts out the gate vector and bias
  (`main_v192`, `main_v195`); the second call updates the state (`main_v196`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L2

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps5 (F := Ideal)) V (Proc.devRef .tc main_v135)
      = kZs 0x3E934B2A#32 (V (Proc.devRef .tc main_v133)) := by
  dsimp only [hostOps5]; after_results_simp; rfl

/-- Each edge's sum of its end points' scaled states. -/
theorem hA_zsum (V : Valuation τ sig (Elt Ideal)) :
    StableHlo.after (hostOps5 (F := Ideal)) V (Proc.devRef .tc main_v150)
      = kZsum (kZs 0x3E934B2A#32 (V (Proc.devRef .tc main_v133))) (V (Proc.devRef .tc main_v1)) (V (Proc.devRef .tc main_v3)) := by
  dsimp only [hostOps5]; after_results_simp; rfl

/-- The round's score vector. -/
theorem hA_att (V : Valuation τ sig (Elt Ideal)) :
    StableHlo.after (hostOps5 (F := Ideal)) V (Proc.devRef .tc main_v152)
      = kAtt 2 Facts₀.slices_S9x1x64_S1x1x64_2_0_0 (V (Proc.devRef .tc main_arg7)) := by
  dsimp only [hostOps5]; after_results_simp; rfl

/-- The stretch writes no buffer of index below 179. -/
theorem hA_keep (V : Valuation τ sig (Elt Ideal)) (r : Ref sig .tc) (h : r.idx.val < 179) :
    StableHlo.after (hostOps5 (F := Ideal)) V (Proc.devRef .tc r) = V (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps6 (F := Ideal)) V (Proc.devRef .tc main_v190)
      = kX (V (Proc.devRef .tc main_v127))
          (kNa (kInv (kAdj (V (Proc.devRef .tc main_v153)) (V (Proc.devRef .tc main_v3)))) (V (Proc.devRef .tc main_v153))
            (V (Proc.devRef .tc main_v1)) (V (Proc.devRef .tc main_v3)))
          (V (Proc.devRef .tc main_v1)) (V (Proc.devRef .tc main_v3)) := by
  dsimp only [hostOps6]; after_results_simp; rfl

set_option maxHeartbeats 1000000 in
/-- The round's gate vector. -/
theorem hB_hatt (V : Valuation τ sig (Elt Ideal)) :
    StableHlo.after (hostOps6 (F := Ideal)) V (Proc.devRef .tc main_v192)
      = kHatt 2 Facts₀.slices_S9x1x128_S1x1x128_2_0_0 (V (Proc.devRef .tc main_arg10)) := by
  dsimp only [hostOps6]; after_results_simp; rfl

set_option maxHeartbeats 1000000 in
/-- The round's gate bias. -/
theorem hB_hb (V : Valuation τ sig (Elt Ideal)) :
    StableHlo.after (hostOps6 (F := Ideal)) V (Proc.devRef .tc main_v195)
      = kHb 2 Facts₀.slices_S9x1_S1x1_2_0 (V (Proc.devRef .tc main_arg11)) := by
  dsimp only [hostOps6]; after_results_simp; rfl

set_option maxHeartbeats 1000000 in
/-- The stretch writes no buffer of index below 204. -/
theorem hB_keep (V : Valuation τ sig (Elt Ideal)) (r : Ref sig .tc) (h : r.idx.val < 204) :
    StableHlo.after (hostOps6 (F := Ideal)) V (Proc.devRef .tc r) = V (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec5 w ≠ r := by
  have key : ∀ w, ¬ (Pipeline.arrRef spec5 w).idx.val < 21 := by decide
  exact fun w e => key w (by rw [e]; exact h)

/-- No array of the second call has an index below 21. -/
theorem lowB (r : Ref sig .tc) (h : r.idx.val < 21) : ∀ w, Pipeline.arrRef spec6 w ≠ r := by
  have key : ∀ w, ¬ (Pipeline.arrRef spec6 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v153)
      = Cert.Spec.specA (StableHlo.after (hostOps5 (F := Ideal)) U (Proc.devRef .tc main_v150))
          (StableHlo.after (hostOps5 (F := Ideal)) U (Proc.devRef .tc main_v152)))
    (hna : ∀ b : Ref sig .tc, (∀ w, Pipeline.arrRef spec5 w ≠ b) →
      U' (Proc.devRef .tc b) = StableHlo.after (hostOps5 (F := Ideal)) U (Proc.devRef .tc b))
    (hz : U'' (Proc.devRef .tc main_v196)
      = Cert.Spec.specUpd (StableHlo.after (hostOps6 (F := Ideal)) U' (Proc.devRef .tc main_v190))
          (StableHlo.after (hostOps6 (F := Ideal)) U' (Proc.devRef .tc main_v133))
          (StableHlo.after (hostOps6 (F := Ideal)) U' (Proc.devRef .tc main_v135))
          (StableHlo.after (hostOps6 (F := Ideal)) U' (Proc.devRef .tc main_v192))
          (StableHlo.after (hostOps6 (F := Ideal)) U' (Proc.devRef .tc main_v195)))
    (hx : U'' (Proc.devRef .tc main_v190) = StableHlo.after (hostOps6 (F := Ideal)) U' (Proc.devRef .tc main_v190))
    (hnb : ∀ b : Ref sig .tc, (∀ w, Pipeline.arrRef spec6 w ≠ b) →
      U'' (Proc.devRef .tc b) = StableHlo.after (hostOps6 (F := Ideal)) U' (Proc.devRef .tc b)) :
    U'' (Proc.devRef .tc main_v190)
        = kXNew 0x3E934B2A#32 (kAtt 2 Facts₀.slices_S9x1x64_S1x1x64_2_0_0 (U (Proc.devRef .tc main_arg7)))
            (U (Proc.devRef .tc main_v1)) (U (Proc.devRef .tc main_v3))
            (U (Proc.devRef .tc main_v127)) (U (Proc.devRef .tc main_v133))
      ∧ U'' (Proc.devRef .tc main_v196)
        = kZNew 0x3E934B2A#32 (kAtt 2 Facts₀.slices_S9x1x64_S1x1x64_2_0_0 (U (Proc.devRef .tc main_arg7)))
            (kHatt 2 Facts₀.slices_S9x1x128_S1x1x128_2_0_0 (U (Proc.devRef .tc main_arg10)))
            (kHb 2 Facts₀.slices_S9x1_S1x1_2_0 (U (Proc.devRef .tc main_arg11)))
            (U (Proc.devRef .tc main_v1)) (U (Proc.devRef .tc main_v3))
            (U (Proc.devRef .tc main_v127)) (U (Proc.devRef .tc main_v133))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v127) = U (Proc.devRef .tc main_v127) :=
    (hna main_v127 (by decide)).trans (hA_keep U main_v127 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v153)
      = Cert.Spec.specA (kZsum (kZs 0x3E934B2A#32 (U (Proc.devRef .tc main_v133))) (U (Proc.devRef .tc main_v1)) (U (Proc.devRef .tc main_v3)))
          (kAtt 2 Facts₀.slices_S9x1x64_S1x1x64_2_0_0 (U (Proc.devRef .tc main_arg7))) := by
    rw [ha, hA_zsum, hA_att]
  -- what the second call finds
  have ez : StableHlo.after (hostOps6 (F := Ideal)) U' (Proc.devRef .tc main_v133) = U (Proc.devRef .tc main_v133) :=
    (hB_keep U' main_v133 (by decide)).trans ((hna main_v133 (by decide)).trans (hA_keep U main_v133 (by decide)))
  have ezs : StableHlo.after (hostOps6 (F := Ideal)) U' (Proc.devRef .tc main_v135)
      = kZs 0x3E934B2A#32 (U (Proc.devRef .tc main_v133)) :=
    (hB_keep U' main_v135 (by decide)).trans ((hna main_v135 (by decide)).trans (hA_zs U))
  have eX : StableHlo.after (hostOps6 (F := Ideal)) U' (Proc.devRef .tc main_v190)
      = kXNew 0x3E934B2A#32 (kAtt 2 Facts₀.slices_S9x1x64_S1x1x64_2_0_0 (U (Proc.devRef .tc main_arg7)))
          (U (Proc.devRef .tc main_v1)) (U (Proc.devRef .tc main_v3))
          (U (Proc.devRef .tc main_v127)) (U (Proc.devRef .tc main_v133)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L2

end
-- ==== Proof.KFoldS2.lean ====
/-
  Round 3 of the nine rounds on the program's own run: the round's module is about any buffer contents; here they
  are the contents at the program's boundaries — `W10` at the round's entry, `W12` after its first call, `W14` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg5
import proofs.«404001_j15436112461850_3_alg».proof.Proof.KReg6
import proofs.«404001_j15436112461850_3_alg».proof.Proof.KFoldL2
import proofs.«404001_j15436112461850_3_alg».proof.Proof.KFoldLow

set_option maxRecDepth 16384

noncomputable section

namespace Cert.KernelIdeal.KFold.S2

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W10 m ρ c (Proc.devRef .tc main_v127) = s.1) (hZ : W10 m ρ c (Proc.devRef .tc main_v133) = s.2)
    (hl : Low e1 b2 b7 b10 b11 b12 b13 (W10 m ρ c)) :
    W14 m ρ c (Proc.devRef .tc main_v190)
        = kXNew 0x3E934B2A#32 (kAtt 2 Facts₀.slices_S9x1x64_S1x1x64_2_0_0 b7) (kSrc e1) (kDst e1) s.1 s.2
      ∧ W14 m ρ c (Proc.devRef .tc main_v196)
        = kZNew 0x3E934B2A#32 (kAtt 2 Facts₀.slices_S9x1x64_S1x1x64_2_0_0 b7)
            (kHatt 2 Facts₀.slices_S9x1x128_S1x1x128_2_0_0 b10) (kHb 2 Facts₀.slices_S9x1_S1x1_2_0 b11)
            (kSrc e1) (kDst e1) s.1 s.2
      ∧ Low e1 b2 b7 b10 b11 b12 b13 (W14 m ρ c) := by
  have R := L2.round (W10 m ρ c) (W12 m ρ c) (W14 m ρ c)
    ((W12_arr m ρ c 2).trans (KReg5.arr5_2 (V11 m ρ) c))
    (fun b hb => W12_of_ne m ρ c b hb)
    ((W14_arr m ρ c 5).trans (KReg6.arr6_5 (V13 m ρ) c))
    ((W14_arr m ρ c 0).trans (((dat6 (V13 m ρ) c).arrAt_in 0 rfl _).trans (A_eq6 (V13 m ρ) c 0)))
    (fun b hb => W14_of_ne m ρ c b hb)
  rw [hl.h7, hl.hsrc, hl.hdst, hl.h10, hl.h11, hX, hZ] at R
  exact ⟨R.1, R.2.1, hl.of_same R.2.2⟩

end Cert.KernelIdeal.KFold.S2

end
-- ==== Proof.KReg7.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R7
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg7

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k7_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k7_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg7.N) (p : Fin 8000) (k : Fin 64) (i : S320000x64.Idx)
    (hi0 : (i 0).val = t.val * 8000 + p.val) (hi1 : (i 1).val = k.val) :
    (iblk7 V c 0 t : Vec Ideal S8000x64 .f32) (ix2 p k) = (V c main_v213 : S320000x64.Idx → Elt Ideal .f32) i := by
  obtain ⟨e0, e1, -⟩ := block_indices t
  unfold iblk7
  rw [View.read_apply]
  show V c main_v213 _ = V c main_v213 _
  congr 1
  funext a
  apply Fin.ext
  match a with
  | ⟨0, _⟩ => show win7_0.index t (0 : Fin 2) * 8000 + 1 * p.val = (i 0).val; rw [e0, hi0]; omega
  | ⟨1, _⟩ => show win7_0.index t (1 : Fin 2) * 64 + 1 * k.val = (i 1).val; rw [e1, hi1]; omega

/-- Every point's block of the attention vector is the whole vector. -/
theorem attblock_apply (c : Dev nD) (t : Fin cfg7.N) (k : Fin 64) :
    (iblk7 V c 1 t : Vec Ideal S1x64 .f32) (ix2 0 k) = (V c main_v215 : S1x64.Idx → Elt Ideal .f32) (ix2 0 k) := by
  obtain ⟨-, -, e0, e1, -⟩ := block_indices t
  unfold iblk7
  rw [View.read_apply]
  show V c main_v215 _ = V c main_v215 _
  congr 1
  funext a
  apply Fin.ext
  match a with
  | ⟨0, _⟩ => show win7_1.index t (0 : Fin 2) * 1 + 1 * 0 = 0; rw [e0]
  | ⟨1, _⟩ => show win7_1.index t (1 : Fin 2) * 64 + 1 * k.val = k.val; rw [e1]; omega

/-- WHAT POINT `t` WRITES BACK is block `t` of the edge scores of the arrays as the region finds them. -/
theorem flushed_eq (c : Dev nD) (t : Fin cfg7.N) :
    (dat7 (F := Ideal) V c).flushed 2 t
      = ((cfg7.win 2).blk t).view.read (Elt Ideal) (specA (V c main_v213) (V c main_v215)) := by
  show (cfg7.win 2).cut (grid7.coords t) ((dat7 V c).after 2 t) = _
  rw [after7_2]
  unfold out7_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg7.win 2).xinj (grid7.coords t) j = ix2 (⟨(j 0).val, h0⟩ : Fin 8000) (⟨(j 1).val, h1⟩ : Fin 1) :=
    funext fun a => Fin.ext (match a with | ⟨0, _⟩ => rfl | ⟨1, _⟩ => rfl)
  show k7_pay1 (F := Ideal) (iblk7 V c 0 t) (iblk7 V c 1 t) ((cfg7.win 2).xinj (grid7.coords t) j)
    = specA (V c main_v213) (V c main_v215) (((cfg7.win 2).blk t).view.emb j)
  rw [hx]
  refine (pay_apply (iblk7 V c 0 t) (iblk7 V c 1 t) ⟨(j 0).val, h0⟩ ⟨(j 1).val, h1⟩).trans ?_
  refine Eq.trans ?_ (specA_apply (V c main_v213) (V c main_v215) (((cfg7.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win7_2.index t (0 : Fin 2) * 8000 + 1 * (j 0).val = t.val * 8000 + (j 0).val
  rw [e0]; omega

/-- An edge is in point `t`'s block iff its row is among the block's 8000. -/
theorem mem_block (t : Fin cfg7.N) (i : S320000x1.Idx) :
    i ∈ ((cfg7.win 2).blk t).view.set
      ↔ ∀ a : Fin 2, win7_2.index t a * S8000x1.size a ≤ (i a).val ∧ (i a).val < win7_2.index t a * S8000x1.size a + S8000x1.size a := by
  show i ∈ ((View.whole main_v216).slice (win7_2.rect t)).set ↔ _
  rw [View.set_slice_whole, Rect.mem_set_unit]
  exact Iff.rfl

/-- Every edge is in the block of the point its row falls to: row `r` in block `r / 8000`. -/
theorem covered (i : S320000x1.Idx) :
    ∃ t : Fin cfg7.N, (cfg7.win 2).flush t = true ∧ i ∈ ((cfg7.win 2).blk t).view.set := by
  have hi0 : (i 0).val < 320000 := (i 0).isLt
  have hi1 : (i 1).val < 1 := (i 1).isLt
  have hN : cfg7.N = 40 := N_7
  let t : Fin cfg7.N := ⟨(i 0).val / 8000, by rw [hN]; omega⟩
  obtain ⟨-, -, -, -, e0, e1⟩ := block_indices t
  have ht : t.val = (i 0).val / 8000 := rfl
  refine ⟨t, flush7_2 t, ?_⟩
  rw [mem_block]
  intro a
  match a with
  | ⟨0, _⟩ =>
    show win7_2.index t (0 : Fin 2) * 8000 ≤ (i 0).val ∧ (i 0).val < win7_2.index t (0 : Fin 2) * 8000 + 8000
    rw [e0, ht]; omega
  | ⟨1, _⟩ =>
    show win7_2.index t (1 : Fin 2) * 1 ≤ (i 1).val ∧ (i 1).val < win7_2.index t (1 : Fin 2) * 1 + 1
    rw [e1]; omega

/-- THE ARRAY of edge scores after the region: the specification's function of the two arrays the region read. -/
theorem arr7_2 (c : Dev nD) :
    (Gen.dat7 (F := Ideal) V c).arrAt 2 cfg7.N = Cert.Spec.specA (V c main_v213) (V c main_v215) :=
  (dat7 (F := Ideal) V c).arrAt_eq_of_cover 2 (specA (V c main_v213) (V c main_v215)) (fun t _ => flushed_eq V c t) covered

end Cert.KernelIdeal.KReg7

end
-- ==== Proof.KReg8.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R8
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg8
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg8.N) : Fin 10 := ⟨t.val, lt_of_lt_of_eq t.isLt N_8⟩

/-- The index maps, decided over the ten grid points: the row-block windows sit at block `(t, 0)`, the two small
    windows at `(0, 0)`. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Window 0's block at point `t` is rows `1000 t …` of its array. -/
theorem blk0_rows (c : Dev nD) (t : Fin cfg8.N) : Gen.iblk8 V c 0 t = rows (V c main_v253) (pt t) := by
  obtain ⟨e0, e1, -⟩ := idx_facts t
  funext j
  unfold Gen.iblk8
  rw [View.read_apply]
  show V c main_v253 (((cfg8.win 0).blk t).view.emb j) = V c main_v253 _
  congr 1
  funext a; apply Fin.ext
  match a with
  | ⟨0, _⟩ => show win8_0.index t (0 : Fin 2) * 1000 + 1 * (j 0).val = t.val * 1000 + (j 0).val; rw [e0]; omega
  | ⟨1, _⟩ => show win8_0.index t (1 : Fin 2) * 64 + 1 * (j 1).val = (j 1).val; rw [e1]; omega

/-- Window 1's block at point `t` is rows `1000 t …` of its array. -/
theorem blk1_rows (c : Dev nD) (t : Fin cfg8.N) : Gen.iblk8 V c 1 t = rows (V c main_v196) (pt t) := by
  obtain ⟨-, -, e0, e1, -⟩ := idx_facts t
  funext j
  unfold Gen.iblk8
  rw [View.read_apply]
  show V c main_v196 (((cfg8.win 1).blk t).view.emb j) = V c main_v196 _
  congr 1
  funext a; apply Fin.ext
  match a with
  | ⟨0, _⟩ => show win8_1.index t (0 : Fin 2) * 1000 + 1 * (j 0).val = t.val * 1000 + (j 0).val; rw [e0]; omega
  | ⟨1, _⟩ => show win8_1.index t (1 : Fin 2) * 64 + 1 * (j 1).val = (j 1).val; rw [e1]; omega

/-- Window 2's block at point `t` is rows `1000 t …` of its array. -/
theorem blk2_rows (c : Dev nD) (t : Fin cfg8.N) : Gen.iblk8 V c 2 t = rows (V c main_v198) (pt t) := by
  obtain ⟨-, -, -, -, e0, e1, -⟩ := idx_facts t
  funext j
  unfold Gen.iblk8
  rw [View.read_apply]
  show V c main_v198 (((cfg8.win 2).blk t).view.emb j) = V c main_v198 _
  congr 1
  funext a; apply Fin.ext
  match a with
  | ⟨0, _⟩ => show win8_2.index t (0 : Fin 2) * 1000 + 1 * (j 0).val = t.val * 1000 + (j 0).val; rw [e0]; omega
  | ⟨1, _⟩ => show win8_2.index t (1 : Fin 2) * 64 + 1 * (j 1).val = (j 1).val; rw [e1]; omega

/-- Window 3's block at every point is its whole one-row array. -/
theorem blk3_whole (c : Dev nD) (t : Fin cfg8.N) : Gen.iblk8 V c 3 t = V c main_v255 := by
  obtain ⟨-, -, -, -, -, -, e0, e1, -⟩ := idx_facts t
  funext j
  unfold Gen.iblk8
  rw [View.read_apply]
  show V c main_v255 (((cfg8.win 3).blk t).view.emb j) = V c main_v255 j
  congr 1
  funext a; apply Fin.ext
  match a with
  | ⟨0, _⟩ => show win8_3.index t (0 : Fin 2) * 1 + 1 * (j 0).val = (j 0).val; rw [e0]; omega
  | ⟨1, _⟩ => show win8_3.index t (1 : Fin 2) * 128 + 1 * (j 1).val = (j 1).val; rw [e1]; omega

/-- Window 4's block at every point is its whole one-element array. -/
theorem blk4_whole (c : Dev nD) (t : Fin cfg8.N) : Gen.iblk8 V c 4 t = V c main_v258 := by
  obtain ⟨-, -, -, -, -, -, -, -, e0, e1, -⟩ := idx_facts t
  funext j
  unfold Gen.iblk8
  rw [View.read_apply]
  show V c main_v258 (((cfg8.win 4).blk t).view.emb j) = V c main_v258 j
  congr 1
  funext a; apply Fin.ext
  match a with
  | ⟨0, _⟩ => show win8_4.index t (0 : Fin 2) * 1 + 1 * (j 0).val = (j 0).val; rw [e0]; omega
  | ⟨1, _⟩ => show win8_4.index t (1 : Fin 2) * 1 + 1 * (j 1).val = (j 1).val; rw [e1]; omega

/-- The output window's block at point `t`, read off any array `G`, is rows `1000 t …` of `G`. -/
theorem out_rows (t : Fin cfg8.N) (G : V2 10000 64) : ((cfg8.win 5).blk t).view.read (Elt Ideal) G = rows G (pt t) := by
  obtain ⟨-, -, -, -, -, -, -, -, -, -, e0, e1⟩ := idx_facts t
  funext j
  rw [View.read_apply]
  show G (((cfg8.win 5).blk t).view.emb j) = G _
  congr 1
  funext a; apply Fin.ext
  match a with
  | ⟨0, _⟩ => show win8_5.index t (0 : Fin 2) * 1000 + 1 * (j 0).val = t.val * 1000 + (j 0).val; rw [e0]; omega
  | ⟨1, _⟩ => show win8_5.index t (1 : Fin 2) * 64 + 1 * (j 1).val = (j 1).val; rw [e1]; omega

/-- The output window is uncut: what a write-back moves of a staging buffer's contents is all of them. -/
theorem cut_id (t : Fin cfg8.N) (P : FVec Ideal S1000x64 .f32) : (cfg8.win 5).cut (grid8.coords t) P = P := rfl

/-- WHAT POINT `t` WRITES BACK is block `t` of the update of the arrays as the region finds them. -/
theorem flushed_eq (c : Dev nD) (t : Fin cfg8.N) :
    (Gen.dat8 (F := Ideal) V c).flushed 5 t = ((cfg8.win 5).blk t).view.read (Elt Ideal)
      (Cert.Spec.specUpd (V c main_v253) (V c main_v196) (V c main_v198) (V c main_v255) (V c main_v258)) := by
  show (cfg8.win 5).cut (grid8.coords t) ((Gen.dat8 V c).after 5 t) = _
  rw [Gen.after8_5]
  unfold Gen.out8_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k8_pay1 (F := Ideal)) rfl _ _ _ _ _ _)

/-- An index of the array is in point `t`'s block iff each coordinate is in the block's range on its axis. -/
theorem mem_blk (t : Fin cfg8.N) (i : S10000x64.Idx) :
    i ∈ ((cfg8.win 5).blk t).view.set ↔ ∀ a : Fin 2, win8_5.index t a * S1000x64.size a ≤ (i a).val ∧ (i a).val < win8_5.index t a * S1000x64.size a + S1000x64.size a := by
  show i ∈ ((View.whole main_v259).slice (win8_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg8.N, (cfg8.win 5).flush t = true ∧ i ∈ ((cfg8.win 5).blk t).view.set := by
  have hi0 : (i 0).val < 10000 := (i 0).isLt
  have hi1 : (i 1).val < 64 := (i 1).isLt
  have ht : (i 0).val / 1000 < cfg8.N := by rw [show cfg8.N = 10 from N_8]; omega
  obtain ⟨-, -, -, -, -, -, -, -, -, -, e0, e1⟩ := idx_facts ⟨(i 0).val / 1000, ht⟩
  refine ⟨⟨(i 0).val / 1000, ht⟩, Gen.flush8_5 _, ?_⟩
  rw [mem_blk]
  intro a
  match a with
  | ⟨0, _⟩ =>
    show win8_5.index ⟨(i 0).val / 1000, ht⟩ (0 : Fin 2) * 1000 ≤ (i 0).val ∧ (i 0).val < win8_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win8_5.index ⟨(i 0).val / 1000, ht⟩ (1 : Fin 2) * 64 ≤ (i 1).val ∧ (i 1).val < win8_5.index ⟨(i 0).val / 1000, ht⟩ (1 : Fin 2) * 64 + 64
    rw [e1]; omega

/-- THE ARRAY AFTER THE REGION: the update of the region's input arrays, whole. -/
theorem arr8_5 (c : Dev nD) : (Gen.dat8 (F := Ideal) V c).arrAt 5 cfg8.N
    = Cert.Spec.specUpd (V c main_v253) (V c main_v196) (V c main_v198) (V c main_v255) (V c main_v258) :=
  (Gen.dat8 (F := Ideal) V c).arrAt_eq_of_cover 5 _ (fun t _ => flushed_eq V c t) cover

end Cert.KernelIdeal.KReg8

end
-- ==== Proof.KFoldL3.lean ====
/-
  Round 4 of the nine rounds, read off the program's own operations: from the buffer contents at the round's entry
  (features in `main_v190`, state in `main_v196`, the edge end points in `main_v1` and `main_v3`) to those at its
  exit (new features in `main_v253`, new state in `main_v259`).

  The round is two stretches of host operations around two calls. The first stretch scales the state (`main_v198`),
  sums the scaled states of each edge's end points (`main_v213`) and cuts the round's score vector out of the stacked
  one (`main_v215`); the first call scores the edges (`main_v216`); the second stretch normalises the scores by the
  in-degrees, scatter-sums the weighted source features (`main_v253`) and cuts out the gate vector and bias
  (`main_v255`, `main_v258`); the second call updates the state (`main_v259`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L3

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps7 (F := Ideal)) V (Proc.devRef .tc main_v198)
      = kZs 0x3E647FF4#32 (V (Proc.devRef .tc main_v196)) := by
  dsimp only [hostOps7]; after_results_simp; rfl

/-- Each edge's sum of its end points' scaled states. -/
theorem hA_zsum (V : Valuation τ sig (Elt Ideal)) :
    StableHlo.after (hostOps7 (F := Ideal)) V (Proc.devRef .tc main_v213)
      = kZsum (kZs 0x3E647FF4#32 (V (Proc.devRef .tc main_v196))) (V (Proc.devRef .tc main_v1)) (V (Proc.devRef .tc main_v3)) := by
  dsimp only [hostOps7]; after_results_simp; rfl

/-- The round's score vector. -/
theorem hA_att (V : Valuation τ sig (Elt Ideal)) :
    StableHlo.after (hostOps7 (F := Ideal)) V (Proc.devRef .tc main_v215)
      = kAtt 3 Facts₀.slices_S9x1x64_S1x1x64_3_0_0 (V (Proc.devRef .tc main_arg7)) := by
  dsimp only [hostOps7]; after_results_simp; rfl

/-- The stretch writes no buffer of index below 257. -/
theorem hA_keep (V : Valuation τ sig (Elt Ideal)) (r : Ref sig .tc) (h : r.idx.val < 257) :
    StableHlo.after (hostOps7 (F := Ideal)) V (Proc.devRef .tc r) = V (Proc.devRef .tc r) :=
  StableHlo.after_of_forall_not_mem (b := Proc.devRef .tc r) _ _ (List.forall_iff_forall_mem.mp (by
    simp only [hostOps7, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps8 (F := Ideal)) V (Proc.devRef .tc main_v253)
      = kX (V (Proc.devRef .tc main_v190))
          (kNa (kInv (kAdj (V (Proc.devRef .tc main_v216)) (V (Proc.devRef .tc main_v3)))) (V (Proc.devRef .tc main_v216))
            (V (Proc.devRef .tc main_v1)) (V (Proc.devRef .tc main_v3)))
          (V (Proc.devRef .tc main_v1)) (V (Proc.devRef .tc main_v3)) := by
  dsimp only [hostOps8]; after_results_simp; rfl

set_option maxHeartbeats 1000000 in
/-- The round's gate vector. -/
theorem hB_hatt (V : Valuation τ sig (Elt Ideal)) :
    StableHlo.after (hostOps8 (F := Ideal)) V (Proc.devRef .tc main_v255)
      = kHatt 3 Facts₀.slices_S9x1x128_S1x1x128_3_0_0 (V (Proc.devRef .tc main_arg10)) := by
  dsimp only [hostOps8]; after_results_simp; rfl

set_option maxHeartbeats 1000000 in
/-- The round's gate bias. -/
theorem hB_hb (V : Valuation τ sig (Elt Ideal)) :
    StableHlo.after (hostOps8 (F := Ideal)) V (Proc.devRef .tc main_v258)
      = kHb 3 Facts₀.slices_S9x1_S1x1_3_0 (V (Proc.devRef .tc main_arg11)) := by
  dsimp only [hostOps8]; after_results_simp; rfl

set_option maxHeartbeats 1000000 in
/-- The stretch writes no buffer of index below 282. -/
theorem hB_keep (V : Valuation τ sig (Elt Ideal)) (r : Ref sig .tc) (h : r.idx.val < 282) :
    StableHlo.after (hostOps8 (F := Ideal)) V (Proc.devRef .tc r) = V (Proc.devRef .tc r) :=
  StableHlo.after_of_forall_not_mem (b := Proc.devRef .tc r) _ _ (List.forall_iff_forall_mem.mp (by
    simp only [hostOps8, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec7 w ≠ r := by
  have key : ∀ w, ¬ (Pipeline.arrRef spec7 w).idx.val < 21 := by decide
  exact fun w e => key w (by rw [e]; exact h)

/-- No array of the second call has an index below 21. -/
theorem lowB (r : Ref sig .tc) (h : r.idx.val < 21) : ∀ w, Pipeline.arrRef spec8 w ≠ r := by
  have key : ∀ w, ¬ (Pipeline.arrRef spec8 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v216)
      = Cert.Spec.specA (StableHlo.after (hostOps7 (F := Ideal)) U (Proc.devRef .tc main_v213))
          (StableHlo.after (hostOps7 (F := Ideal)) U (Proc.devRef .tc main_v215)))
    (hna : ∀ b : Ref sig .tc, (∀ w, Pipeline.arrRef spec7 w ≠ b) →
      U' (Proc.devRef .tc b) = StableHlo.after (hostOps7 (F := Ideal)) U (Proc.devRef .tc b))
    (hz : U'' (Proc.devRef .tc main_v259)
      = Cert.Spec.specUpd (StableHlo.after (hostOps8 (F := Ideal)) U' (Proc.devRef .tc main_v253))
          (StableHlo.after (hostOps8 (F := Ideal)) U' (Proc.devRef .tc main_v196))
          (StableHlo.after (hostOps8 (F := Ideal)) U' (Proc.devRef .tc main_v198))
          (StableHlo.after (hostOps8 (F := Ideal)) U' (Proc.devRef .tc main_v255))
          (StableHlo.after (hostOps8 (F := Ideal)) U' (Proc.devRef .tc main_v258)))
    (hx : U'' (Proc.devRef .tc main_v253) = StableHlo.after (hostOps8 (F := Ideal)) U' (Proc.devRef .tc main_v253))
    (hnb : ∀ b : Ref sig .tc, (∀ w, Pipeline.arrRef spec8 w ≠ b) →
      U'' (Proc.devRef .tc b) = StableHlo.after (hostOps8 (F := Ideal)) U' (Proc.devRef .tc b)) :
    U'' (Proc.devRef .tc main_v253)
        = kXNew 0x3E647FF4#32 (kAtt 3 Facts₀.slices_S9x1x64_S1x1x64_3_0_0 (U (Proc.devRef .tc main_arg7)))
            (U (Proc.devRef .tc main_v1)) (U (Proc.devRef .tc main_v3))
            (U (Proc.devRef .tc main_v190)) (U (Proc.devRef .tc main_v196))
      ∧ U'' (Proc.devRef .tc main_v259)
        = kZNew 0x3E647FF4#32 (kAtt 3 Facts₀.slices_S9x1x64_S1x1x64_3_0_0 (U (Proc.devRef .tc main_arg7)))
            (kHatt 3 Facts₀.slices_S9x1x128_S1x1x128_3_0_0 (U (Proc.devRef .tc main_arg10)))
            (kHb 3 Facts₀.slices_S9x1_S1x1_3_0 (U (Proc.devRef .tc main_arg11)))
            (U (Proc.devRef .tc main_v1)) (U (Proc.devRef .tc main_v3))
            (U (Proc.devRef .tc main_v190)) (U (Proc.devRef .tc main_v196))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v190) = U (Proc.devRef .tc main_v190) :=
    (hna main_v190 (by decide)).trans (hA_keep U main_v190 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v216)
      = Cert.Spec.specA (kZsum (kZs 0x3E647FF4#32 (U (Proc.devRef .tc main_v196))) (U (Proc.devRef .tc main_v1)) (U (Proc.devRef .tc main_v3)))
          (kAtt 3 Facts₀.slices_S9x1x64_S1x1x64_3_0_0 (U (Proc.devRef .tc main_arg7))) := by
    rw [ha, hA_zsum, hA_att]
  -- what the second call finds
  have ez : StableHlo.after (hostOps8 (F := Ideal)) U' (Proc.devRef .tc main_v196) = U (Proc.devRef .tc main_v196) :=
    (hB_keep U' main_v196 (by decide)).trans ((hna main_v196 (by decide)).trans (hA_keep U main_v196 (by decide)))
  have ezs : StableHlo.after (hostOps8 (F := Ideal)) U' (Proc.devRef .tc main_v198)
      = kZs 0x3E647FF4#32 (U (Proc.devRef .tc main_v196)) :=
    (hB_keep U' main_v198 (by decide)).trans ((hna main_v198 (by decide)).trans (hA_zs U))
  have eX : StableHlo.after (hostOps8 (F := Ideal)) U' (Proc.devRef .tc main_v253)
      = kXNew 0x3E647FF4#32 (kAtt 3 Facts₀.slices_S9x1x64_S1x1x64_3_0_0 (U (Proc.devRef .tc main_arg7)))
          (U (Proc.devRef .tc main_v1)) (U (Proc.devRef .tc main_v3))
          (U (Proc.devRef .tc main_v190)) (U (Proc.devRef .tc main_v196)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L3

end
-- ==== Proof.KFoldS3.lean ====
/-
  Round 4 of the nine rounds on the program's own run: the round's module is about any buffer contents; here they
  are the contents at the program's boundaries — `W14` at the round's entry, `W16` after its first call, `W18` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg7
import proofs.«404001_j15436112461850_3_alg».proof.Proof.KReg8
import proofs.«404001_j15436112461850_3_alg».proof.Proof.KFoldL3
import proofs.«404001_j15436112461850_3_alg».proof.Proof.KFoldLow

set_option maxRecDepth 16384

noncomputable section

namespace Cert.KernelIdeal.KFold.S3

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W14 m ρ c (Proc.devRef .tc main_v190) = s.1) (hZ : W14 m ρ c (Proc.devRef .tc main_v196) = s.2)
    (hl : Low e1 b2 b7 b10 b11 b12 b13 (W14 m ρ c)) :
    W18 m ρ c (Proc.devRef .tc main_v253)
        = kXNew 0x3E647FF4#32 (kAtt 3 Facts₀.slices_S9x1x64_S1x1x64_3_0_0 b7) (kSrc e1) (kDst e1) s.1 s.2
      ∧ W18 m ρ c (Proc.devRef .tc main_v259)
        = kZNew 0x3E647FF4#32 (kAtt 3 Facts₀.slices_S9x1x64_S1x1x64_3_0_0 b7)
            (kHatt 3 Facts₀.slices_S9x1x128_S1x1x128_3_0_0 b10) (kHb 3 Facts₀.slices_S9x1_S1x1_3_0 b11)
            (kSrc e1) (kDst e1) s.1 s.2
      ∧ Low e1 b2 b7 b10 b11 b12 b13 (W18 m ρ c) := by
  have R := L3.round (W14 m ρ c) (W16 m ρ c) (W18 m ρ c)
    ((W16_arr m ρ c 2).trans (KReg7.arr7_2 (V15 m ρ) c))
    (fun b hb => W16_of_ne m ρ c b hb)
    ((W18_arr m ρ c 5).trans (KReg8.arr8_5 (V17 m ρ) c))
    ((W18_arr m ρ c 0).trans (((dat8 (V17 m ρ) c).arrAt_in 0 rfl _).trans (A_eq8 (V17 m ρ) c 0)))
    (fun b hb => W18_of_ne m ρ c b hb)
  rw [hl.h7, hl.hsrc, hl.hdst, hl.h10, hl.h11, hX, hZ] at R
  exact ⟨R.1, R.2.1, hl.of_same R.2.2⟩

end Cert.KernelIdeal.KFold.S3

end
-- ==== Proof.KReg9.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R9
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg9

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k9_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k9_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg9.N) (p : Fin 8000) (k : Fin 64) (i : S320000x64.Idx)
    (hi0 : (i 0).val = t.val * 8000 + p.val) (hi1 : (i 1).val = k.val) :
    (iblk9 V c 0 t : Vec Ideal S8000x64 .f32) (ix2 p k) = (V c main_v276 : S320000x64.Idx → Elt Ideal .f32) i := by
  obtain ⟨e0, e1, -⟩ := block_indices t
  unfold iblk9
  rw [View.read_apply]
  show V c main_v276 _ = V c main_v276 _
  congr 1
  funext a
  apply Fin.ext
  match a with
  | ⟨0, _⟩ => show win9_0.index t (0 : Fin 2) * 8000 + 1 * p.val = (i 0).val; rw [e0, hi0]; omega
  | ⟨1, _⟩ => show win9_0.index t (1 : Fin 2) * 64 + 1 * k.val = (i 1).val; rw [e1, hi1]; omega

/-- Every point's block of the attention vector is the whole vector. -/
theorem attblock_apply (c : Dev nD) (t : Fin cfg9.N) (k : Fin 64) :
    (iblk9 V c 1 t : Vec Ideal S1x64 .f32) (ix2 0 k) = (V c main_v278 : S1x64.Idx → Elt Ideal .f32) (ix2 0 k) := by
  obtain ⟨-, -, e0, e1, -⟩ := block_indices t
  unfold iblk9
  rw [View.read_apply]
  show V c main_v278 _ = V c main_v278 _
  congr 1
  funext a
  apply Fin.ext
  match a with
  | ⟨0, _⟩ => show win9_1.index t (0 : Fin 2) * 1 + 1 * 0 = 0; rw [e0]
  | ⟨1, _⟩ => show win9_1.index t (1 : Fin 2) * 64 + 1 * k.val = k.val; rw [e1]; omega

/-- WHAT POINT `t` WRITES BACK is block `t` of the edge scores of the arrays as the region finds them. -/
theorem flushed_eq (c : Dev nD) (t : Fin cfg9.N) :
    (dat9 (F := Ideal) V c).flushed 2 t
      = ((cfg9.win 2).blk t).view.read (Elt Ideal) (specA (V c main_v276) (V c main_v278)) := by
  show (cfg9.win 2).cut (grid9.coords t) ((dat9 V c).after 2 t) = _
  rw [after9_2]
  unfold out9_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg9.win 2).xinj (grid9.coords t) j = ix2 (⟨(j 0).val, h0⟩ : Fin 8000) (⟨(j 1).val, h1⟩ : Fin 1) :=
    funext fun a => Fin.ext (match a with | ⟨0, _⟩ => rfl | ⟨1, _⟩ => rfl)
  show k9_pay1 (F := Ideal) (iblk9 V c 0 t) (iblk9 V c 1 t) ((cfg9.win 2).xinj (grid9.coords t) j)
    = specA (V c main_v276) (V c main_v278) (((cfg9.win 2).blk t).view.emb j)
  rw [hx]
  refine (pay_apply (iblk9 V c 0 t) (iblk9 V c 1 t) ⟨(j 0).val, h0⟩ ⟨(j 1).val, h1⟩).trans ?_
  refine Eq.trans ?_ (specA_apply (V c main_v276) (V c main_v278) (((cfg9.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win9_2.index t (0 : Fin 2) * 8000 + 1 * (j 0).val = t.val * 8000 + (j 0).val
  rw [e0]; omega

/-- An edge is in point `t`'s block iff its row is among the block's 8000. -/
theorem mem_block (t : Fin cfg9.N) (i : S320000x1.Idx) :
    i ∈ ((cfg9.win 2).blk t).view.set
      ↔ ∀ a : Fin 2, win9_2.index t a * S8000x1.size a ≤ (i a).val ∧ (i a).val < win9_2.index t a * S8000x1.size a + S8000x1.size a := by
  show i ∈ ((View.whole main_v279).slice (win9_2.rect t)).set ↔ _
  rw [View.set_slice_whole, Rect.mem_set_unit]
  exact Iff.rfl

/-- Every edge is in the block of the point its row falls to: row `r` in block `r / 8000`. -/
theorem covered (i : S320000x1.Idx) :
    ∃ t : Fin cfg9.N, (cfg9.win 2).flush t = true ∧ i ∈ ((cfg9.win 2).blk t).view.set := by
  have hi0 : (i 0).val < 320000 := (i 0).isLt
  have hi1 : (i 1).val < 1 := (i 1).isLt
  have hN : cfg9.N = 40 := N_9
  let t : Fin cfg9.N := ⟨(i 0).val / 8000, by rw [hN]; omega⟩
  obtain ⟨-, -, -, -, e0, e1⟩ := block_indices t
  have ht : t.val = (i 0).val / 8000 := rfl
  refine ⟨t, flush9_2 t, ?_⟩
  rw [mem_block]
  intro a
  match a with
  | ⟨0, _⟩ =>
    show win9_2.index t (0 : Fin 2) * 8000 ≤ (i 0).val ∧ (i 0).val < win9_2.index t (0 : Fin 2) * 8000 + 8000
    rw [e0, ht]; omega
  | ⟨1, _⟩ =>
    show win9_2.index t (1 : Fin 2) * 1 ≤ (i 1).val ∧ (i 1).val < win9_2.index t (1 : Fin 2) * 1 + 1
    rw [e1]; omega

/-- THE ARRAY of edge scores after the region: the specification's function of the two arrays the region read. -/
theorem arr9_2 (c : Dev nD) :
    (Gen.dat9 (F := Ideal) V c).arrAt 2 cfg9.N = Cert.Spec.specA (V c main_v276) (V c main_v278) :=
  (dat9 (F := Ideal) V c).arrAt_eq_of_cover 2 (specA (V c main_v276) (V c main_v278)) (fun t _ => flushed_eq V c t) covered

end Cert.KernelIdeal.KReg9

end
-- ==== Proof.KReg10.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R10
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg10
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg10.N) : Fin 10 := ⟨t.val, lt_of_lt_of_eq t.isLt N_10⟩

/-- The index maps, decided over the ten grid points: the row-block windows sit at block `(t, 0)`, the two small
    windows at `(0, 0)`. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Window 0's block at point `t` is rows `1000 t …` of its array. -/
theorem blk0_rows (c : Dev nD) (t : Fin cfg10.N) : Gen.iblk10 V c 0 t = rows (V c main_v316) (pt t) := by
  obtain ⟨e0, e1, -⟩ := idx_facts t
  funext j
  unfold Gen.iblk10
  rw [View.read_apply]
  show V c main_v316 (((cfg10.win 0).blk t).view.emb j) = V c main_v316 _
  congr 1
  funext a; apply Fin.ext
  match a with
  | ⟨0, _⟩ => show win10_0.index t (0 : Fin 2) * 1000 + 1 * (j 0).val = t.val * 1000 + (j 0).val; rw [e0]; omega
  | ⟨1, _⟩ => show win10_0.index t (1 : Fin 2) * 64 + 1 * (j 1).val = (j 1).val; rw [e1]; omega

/-- Window 1's block at point `t` is rows `1000 t …` of its array. -/
theorem blk1_rows (c : Dev nD) (t : Fin cfg10.N) : Gen.iblk10 V c 1 t = rows (V c main_v259) (pt t) := by
  obtain ⟨-, -, e0, e1, -⟩ := idx_facts t
  funext j
  unfold Gen.iblk10
  rw [View.read_apply]
  show V c main_v259 (((cfg10.win 1).blk t).view.emb j) = V c main_v259 _
  congr 1
  funext a; apply Fin.ext
  match a with
  | ⟨0, _⟩ => show win10_1.index t (0 : Fin 2) * 1000 + 1 * (j 0).val = t.val * 1000 + (j 0).val; rw [e0]; omega
  | ⟨1, _⟩ => show win10_1.index t (1 : Fin 2) * 64 + 1 * (j 1).val = (j 1).val; rw [e1]; omega

/-- Window 2's block at point `t` is rows `1000 t …` of its array. -/
theorem blk2_rows (c : Dev nD) (t : Fin cfg10.N) : Gen.iblk10 V c 2 t = rows (V c main_v261) (pt t) := by
  obtain ⟨-, -, -, -, e0, e1, -⟩ := idx_facts t
  funext j
  unfold Gen.iblk10
  rw [View.read_apply]
  show V c main_v261 (((cfg10.win 2).blk t).view.emb j) = V c main_v261 _
  congr 1
  funext a; apply Fin.ext
  match a with
  | ⟨0, _⟩ => show win10_2.index t (0 : Fin 2) * 1000 + 1 * (j 0).val = t.val * 1000 + (j 0).val; rw [e0]; omega
  | ⟨1, _⟩ => show win10_2.index t (1 : Fin 2) * 64 + 1 * (j 1).val = (j 1).val; rw [e1]; omega

/-- Window 3's block at every point is its whole one-row array. -/
theorem blk3_whole (c : Dev nD) (t : Fin cfg10.N) : Gen.iblk10 V c 3 t = V c main_v318 := by
  obtain ⟨-, -, -, -, -, -, e0, e1, -⟩ := idx_facts t
  funext j
  unfold Gen.iblk10
  rw [View.read_apply]
  show V c main_v318 (((cfg10.win 3).blk t).view.emb j) = V c main_v318 j
  congr 1
  funext a; apply Fin.ext
  match a with
  | ⟨0, _⟩ => show win10_3.index t (0 : Fin 2) * 1 + 1 * (j 0).val = (j 0).val; rw [e0]; omega
  | ⟨1, _⟩ => show win10_3.index t (1 : Fin 2) * 128 + 1 * (j 1).val = (j 1).val; rw [e1]; omega

/-- Window 4's block at every point is its whole one-element array. -/
theorem blk4_whole (c : Dev nD) (t : Fin cfg10.N) : Gen.iblk10 V c 4 t = V c main_v321 := by
  obtain ⟨-, -, -, -, -, -, -, -, e0, e1, -⟩ := idx_facts t
  funext j
  unfold Gen.iblk10
  rw [View.read_apply]
  show V c main_v321 (((cfg10.win 4).blk t).view.emb j) = V c main_v321 j
  congr 1
  funext a; apply Fin.ext
  match a with
  | ⟨0, _⟩ => show win10_4.index t (0 : Fin 2) * 1 + 1 * (j 0).val = (j 0).val; rw [e0]; omega
  | ⟨1, _⟩ => show win10_4.index t (1 : Fin 2) * 1 + 1 * (j 1).val = (j 1).val; rw [e1]; omega

/-- The output window's block at point `t`, read off any array `G`, is rows `1000 t …` of `G`. -/
theorem out_rows (t : Fin cfg10.N) (G : V2 10000 64) : ((cfg10.win 5).blk t).view.read (Elt Ideal) G = rows G (pt t) := by
  obtain ⟨-, -, -, -, -, -, -, -, -, -, e0, e1⟩ := idx_facts t
  funext j
  rw [View.read_apply]
  show G (((cfg10.win 5).blk t).view.emb j) = G _
  congr 1
  funext a; apply Fin.ext
  match a with
  | ⟨0, _⟩ => show win10_5.index t (0 : Fin 2) * 1000 + 1 * (j 0).val = t.val * 1000 + (j 0).val; rw [e0]; omega
  | ⟨1, _⟩ => show win10_5.index t (1 : Fin 2) * 64 + 1 * (j 1).val = (j 1).val; rw [e1]; omega

/-- The output window is uncut: what a write-back moves of a staging buffer's contents is all of them. -/
theorem cut_id (t : Fin cfg10.N) (P : FVec Ideal S1000x64 .f32) : (cfg10.win 5).cut (grid10.coords t) P = P := rfl

/-- WHAT POINT `t` WRITES BACK is block `t` of the update of the arrays as the region finds them. -/
theorem flushed_eq (c : Dev nD) (t : Fin cfg10.N) :
    (Gen.dat10 (F := Ideal) V c).flushed 5 t = ((cfg10.win 5).blk t).view.read (Elt Ideal)
      (Cert.Spec.specUpd (V c main_v316) (V c main_v259) (V c main_v261) (V c main_v318) (V c main_v321)) := by
  show (cfg10.win 5).cut (grid10.coords t) ((Gen.dat10 V c).after 5 t) = _
  rw [Gen.after10_5]
  unfold Gen.out10_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k10_pay1 (F := Ideal)) rfl _ _ _ _ _ _)

/-- An index of the array is in point `t`'s block iff each coordinate is in the block's range on its axis. -/
theorem mem_blk (t : Fin cfg10.N) (i : S10000x64.Idx) :
    i ∈ ((cfg10.win 5).blk t).view.set ↔ ∀ a : Fin 2, win10_5.index t a * S1000x64.size a ≤ (i a).val ∧ (i a).val < win10_5.index t a * S1000x64.size a + S1000x64.size a := by
  show i ∈ ((View.whole main_v322).slice (win10_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg10.N, (cfg10.win 5).flush t = true ∧ i ∈ ((cfg10.win 5).blk t).view.set := by
  have hi0 : (i 0).val < 10000 := (i 0).isLt
  have hi1 : (i 1).val < 64 := (i 1).isLt
  have ht : (i 0).val / 1000 < cfg10.N := by rw [show cfg10.N = 10 from N_10]; omega
  obtain ⟨-, -, -, -, -, -, -, -, -, -, e0, e1⟩ := idx_facts ⟨(i 0).val / 1000, ht⟩
  refine ⟨⟨(i 0).val / 1000, ht⟩, Gen.flush10_5 _, ?_⟩
  rw [mem_blk]
  intro a
  match a with
  | ⟨0, _⟩ =>
    show win10_5.index ⟨(i 0).val / 1000, ht⟩ (0 : Fin 2) * 1000 ≤ (i 0).val ∧ (i 0).val < win10_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win10_5.index ⟨(i 0).val / 1000, ht⟩ (1 : Fin 2) * 64 ≤ (i 1).val ∧ (i 1).val < win10_5.index ⟨(i 0).val / 1000, ht⟩ (1 : Fin 2) * 64 + 64
    rw [e1]; omega

/-- THE ARRAY AFTER THE REGION: the update of the region's input arrays, whole. -/
theorem arr10_5 (c : Dev nD) : (Gen.dat10 (F := Ideal) V c).arrAt 5 cfg10.N
    = Cert.Spec.specUpd (V c main_v316) (V c main_v259) (V c main_v261) (V c main_v318) (V c main_v321) :=
  (Gen.dat10 (F := Ideal) V c).arrAt_eq_of_cover 5 _ (fun t _ => flushed_eq V c t) cover

end Cert.KernelIdeal.KReg10

end
-- ==== Proof.KFoldL4.lean ====
/-
  Round 5 of the nine rounds, read off the program's own operations: from the buffer contents at the round's entry
  (features in `main_v253`, state in `main_v259`, the edge end points in `main_v1` and `main_v3`) to those at its
  exit (new features in `main_v316`, new state in `main_v322`).

  The round is two stretches of host operations around two calls. The first stretch scales the state (`main_v261`),
  sums the scaled states of each edge's end points (`main_v276`) and cuts the round's score vector out of the stacked
  one (`main_v278`); the first call scores the edges (`main_v279`); the second stretch normalises the scores by the
  in-degrees, scatter-sums the weighted source features (`main_v316`) and cuts out the gate vector and bias
  (`main_v318`, `main_v321`); the second call updates the state (`main_v322`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L4

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps9 (F := Ideal)) V (Proc.devRef .tc main_v261)
      = kZs 0x3E3AB2B8#32 (V (Proc.devRef .tc main_v259)) := by
  dsimp only [hostOps9]; after_results_simp; rfl

/-- Each edge's sum of its end points' scaled states. -/
theorem hA_zsum (V : Valuation τ sig (Elt Ideal)) :
    StableHlo.after (hostOps9 (F := Ideal)) V (Proc.devRef .tc main_v276)
      = kZsum (kZs 0x3E3AB2B8#32 (V (Proc.devRef .tc main_v259))) (V (Proc.devRef .tc main_v1)) (V (Proc.devRef .tc main_v3)) := by
  dsimp only [hostOps9]; after_results_simp; rfl

/-- The round's score vector. -/
theorem hA_att (V : Valuation τ sig (Elt Ideal)) :
    StableHlo.after (hostOps9 (F := Ideal)) V (Proc.devRef .tc main_v278)
      = kAtt 4 Facts₀.slices_S9x1x64_S1x1x64_4_0_0 (V (Proc.devRef .tc main_arg7)) := by
  dsimp only [hostOps9]; after_results_simp; rfl

/-- The stretch writes no buffer of index below 335. -/
theorem hA_keep (V : Valuation τ sig (Elt Ideal)) (r : Ref sig .tc) (h : r.idx.val < 335) :
    StableHlo.after (hostOps9 (F := Ideal)) V (Proc.devRef .tc r) = V (Proc.devRef .tc r) :=
  StableHlo.after_of_forall_not_mem (b := Proc.devRef .tc r) _ _ (List.forall_iff_forall_mem.mp (by
    simp only [hostOps9, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps10 (F := Ideal)) V (Proc.devRef .tc main_v316)
      = kX (V (Proc.devRef .tc main_v253))
          (kNa (kInv (kAdj (V (Proc.devRef .tc main_v279)) (V (Proc.devRef .tc main_v3)))) (V (Proc.devRef .tc main_v279))
            (V (Proc.devRef .tc main_v1)) (V (Proc.devRef .tc main_v3)))
          (V (Proc.devRef .tc main_v1)) (V (Proc.devRef .tc main_v3)) := by
  dsimp only [hostOps10]; after_results_simp; rfl

set_option maxHeartbeats 1000000 in
/-- The round's gate vector. -/
theorem hB_hatt (V : Valuation τ sig (Elt Ideal)) :
    StableHlo.after (hostOps10 (F := Ideal)) V (Proc.devRef .tc main_v318)
      = kHatt 4 Facts₀.slices_S9x1x128_S1x1x128_4_0_0 (V (Proc.devRef .tc main_arg10)) := by
  dsimp only [hostOps10]; after_results_simp; rfl

set_option maxHeartbeats 1000000 in
/-- The round's gate bias. -/
theorem hB_hb (V : Valuation τ sig (Elt Ideal)) :
    StableHlo.after (hostOps10 (F := Ideal)) V (Proc.devRef .tc main_v321)
      = kHb 4 Facts₀.slices_S9x1_S1x1_4_0 (V (Proc.devRef .tc main_arg11)) := by
  dsimp only [hostOps10]; after_results_simp; rfl

set_option maxHeartbeats 1000000 in
/-- The stretch writes no buffer of index below 360. -/
theorem hB_keep (V : Valuation τ sig (Elt Ideal)) (r : Ref sig .tc) (h : r.idx.val < 360) :
    StableHlo.after (hostOps10 (F := Ideal)) V (Proc.devRef .tc r) = V (Proc.devRef .tc r) :=
  StableHlo.after_of_forall_not_mem (b := Proc.devRef .tc r) _ _ (List.forall_iff_forall_mem.mp (by
    simp only [hostOps10, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec9 w ≠ r := by
  have key : ∀ w, ¬ (Pipeline.arrRef spec9 w).idx.val < 21 := by decide
  exact fun w e => key w (by rw [e]; exact h)

/-- No array of the second call has an index below 21. -/
theorem lowB (r : Ref sig .tc) (h : r.idx.val < 21) : ∀ w, Pipeline.arrRef spec10 w ≠ r := by
  have key : ∀ w, ¬ (Pipeline.arrRef spec10 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v279)
      = Cert.Spec.specA (StableHlo.after (hostOps9 (F := Ideal)) U (Proc.devRef .tc main_v276))
          (StableHlo.after (hostOps9 (F := Ideal)) U (Proc.devRef .tc main_v278)))
    (hna : ∀ b : Ref sig .tc, (∀ w, Pipeline.arrRef spec9 w ≠ b) →
      U' (Proc.devRef .tc b) = StableHlo.after (hostOps9 (F := Ideal)) U (Proc.devRef .tc b))
    (hz : U'' (Proc.devRef .tc main_v322)
      = Cert.Spec.specUpd (StableHlo.after (hostOps10 (F := Ideal)) U' (Proc.devRef .tc main_v316))
          (StableHlo.after (hostOps10 (F := Ideal)) U' (Proc.devRef .tc main_v259))
          (StableHlo.after (hostOps10 (F := Ideal)) U' (Proc.devRef .tc main_v261))
          (StableHlo.after (hostOps10 (F := Ideal)) U' (Proc.devRef .tc main_v318))
          (StableHlo.after (hostOps10 (F := Ideal)) U' (Proc.devRef .tc main_v321)))
    (hx : U'' (Proc.devRef .tc main_v316) = StableHlo.after (hostOps10 (F := Ideal)) U' (Proc.devRef .tc main_v316))
    (hnb : ∀ b : Ref sig .tc, (∀ w, Pipeline.arrRef spec10 w ≠ b) →
      U'' (Proc.devRef .tc b) = StableHlo.after (hostOps10 (F := Ideal)) U' (Proc.devRef .tc b)) :
    U'' (Proc.devRef .tc main_v316)
        = kXNew 0x3E3AB2B8#32 (kAtt 4 Facts₀.slices_S9x1x64_S1x1x64_4_0_0 (U (Proc.devRef .tc main_arg7)))
            (U (Proc.devRef .tc main_v1)) (U (Proc.devRef .tc main_v3))
            (U (Proc.devRef .tc main_v253)) (U (Proc.devRef .tc main_v259))
      ∧ U'' (Proc.devRef .tc main_v322)
        = kZNew 0x3E3AB2B8#32 (kAtt 4 Facts₀.slices_S9x1x64_S1x1x64_4_0_0 (U (Proc.devRef .tc main_arg7)))
            (kHatt 4 Facts₀.slices_S9x1x128_S1x1x128_4_0_0 (U (Proc.devRef .tc main_arg10)))
            (kHb 4 Facts₀.slices_S9x1_S1x1_4_0 (U (Proc.devRef .tc main_arg11)))
            (U (Proc.devRef .tc main_v1)) (U (Proc.devRef .tc main_v3))
            (U (Proc.devRef .tc main_v253)) (U (Proc.devRef .tc main_v259))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v253) = U (Proc.devRef .tc main_v253) :=
    (hna main_v253 (by decide)).trans (hA_keep U main_v253 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v279)
      = Cert.Spec.specA (kZsum (kZs 0x3E3AB2B8#32 (U (Proc.devRef .tc main_v259))) (U (Proc.devRef .tc main_v1)) (U (Proc.devRef .tc main_v3)))
          (kAtt 4 Facts₀.slices_S9x1x64_S1x1x64_4_0_0 (U (Proc.devRef .tc main_arg7))) := by
    rw [ha, hA_zsum, hA_att]
  -- what the second call finds
  have ez : StableHlo.after (hostOps10 (F := Ideal)) U' (Proc.devRef .tc main_v259) = U (Proc.devRef .tc main_v259) :=
    (hB_keep U' main_v259 (by decide)).trans ((hna main_v259 (by decide)).trans (hA_keep U main_v259 (by decide)))
  have ezs : StableHlo.after (hostOps10 (F := Ideal)) U' (Proc.devRef .tc main_v261)
      = kZs 0x3E3AB2B8#32 (U (Proc.devRef .tc main_v259)) :=
    (hB_keep U' main_v261 (by decide)).trans ((hna main_v261 (by decide)).trans (hA_zs U))
  have eX : StableHlo.after (hostOps10 (F := Ideal)) U' (Proc.devRef .tc main_v316)
      = kXNew 0x3E3AB2B8#32 (kAtt 4 Facts₀.slices_S9x1x64_S1x1x64_4_0_0 (U (Proc.devRef .tc main_arg7)))
          (U (Proc.devRef .tc main_v1)) (U (Proc.devRef .tc main_v3))
          (U (Proc.devRef .tc main_v253)) (U (Proc.devRef .tc main_v259)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L4

end
-- ==== Proof.KFoldS4.lean ====
/-
  Round 5 of the nine rounds on the program's own run: the round's module is about any buffer contents; here they
  are the contents at the program's boundaries — `W18` at the round's entry, `W20` after its first call, `W22` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg9
import proofs.«404001_j15436112461850_3_alg».proof.Proof.KReg10
import proofs.«404001_j15436112461850_3_alg».proof.Proof.KFoldL4
import proofs.«404001_j15436112461850_3_alg».proof.Proof.KFoldLow

set_option maxRecDepth 16384

noncomputable section

namespace Cert.KernelIdeal.KFold.S4

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W18 m ρ c (Proc.devRef .tc main_v253) = s.1) (hZ : W18 m ρ c (Proc.devRef .tc main_v259) = s.2)
    (hl : Low e1 b2 b7 b10 b11 b12 b13 (W18 m ρ c)) :
    W22 m ρ c (Proc.devRef .tc main_v316)
        = kXNew 0x3E3AB2B8#32 (kAtt 4 Facts₀.slices_S9x1x64_S1x1x64_4_0_0 b7) (kSrc e1) (kDst e1) s.1 s.2
      ∧ W22 m ρ c (Proc.devRef .tc main_v322)
        = kZNew 0x3E3AB2B8#32 (kAtt 4 Facts₀.slices_S9x1x64_S1x1x64_4_0_0 b7)
            (kHatt 4 Facts₀.slices_S9x1x128_S1x1x128_4_0_0 b10) (kHb 4 Facts₀.slices_S9x1_S1x1_4_0 b11)
            (kSrc e1) (kDst e1) s.1 s.2
      ∧ Low e1 b2 b7 b10 b11 b12 b13 (W22 m ρ c) := by
  have R := L4.round (W18 m ρ c) (W20 m ρ c) (W22 m ρ c)
    ((W20_arr m ρ c 2).trans (KReg9.arr9_2 (V19 m ρ) c))
    (fun b hb => W20_of_ne m ρ c b hb)
    ((W22_arr m ρ c 5).trans (KReg10.arr10_5 (V21 m ρ) c))
    ((W22_arr m ρ c 0).trans (((dat10 (V21 m ρ) c).arrAt_in 0 rfl _).trans (A_eq10 (V21 m ρ) c 0)))
    (fun b hb => W22_of_ne m ρ c b hb)
  rw [hl.h7, hl.hsrc, hl.hdst, hl.h10, hl.h11, hX, hZ] at R
  exact ⟨R.1, R.2.1, hl.of_same R.2.2⟩

end Cert.KernelIdeal.KFold.S4

end
-- ==== Proof.KReg11.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R11
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg11

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k11_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k11_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg11.N) (p : Fin 8000) (k : Fin 64) (i : S320000x64.Idx)
    (hi0 : (i 0).val = t.val * 8000 + p.val) (hi1 : (i 1).val = k.val) :
    (iblk11 V c 0 t : Vec Ideal S8000x64 .f32) (ix2 p k) = (V c main_v339 : S320000x64.Idx → Elt Ideal .f32) i := by
  obtain ⟨e0, e1, -⟩ := block_indices t
  unfold iblk11
  rw [View.read_apply]
  show V c main_v339 _ = V c main_v339 _
  congr 1
  funext a
  apply Fin.ext
  match a with
  | ⟨0, _⟩ => show win11_0.index t (0 : Fin 2) * 8000 + 1 * p.val = (i 0).val; rw [e0, hi0]; omega
  | ⟨1, _⟩ => show win11_0.index t (1 : Fin 2) * 64 + 1 * k.val = (i 1).val; rw [e1, hi1]; omega

/-- Every point's block of the attention vector is the whole vector. -/
theorem attblock_apply (c : Dev nD) (t : Fin cfg11.N) (k : Fin 64) :
    (iblk11 V c 1 t : Vec Ideal S1x64 .f32) (ix2 0 k) = (V c main_v341 : S1x64.Idx → Elt Ideal .f32) (ix2 0 k) := by
  obtain ⟨-, -, e0, e1, -⟩ := block_indices t
  unfold iblk11
  rw [View.read_apply]
  show V c main_v341 _ = V c main_v341 _
  congr 1
  funext a
  apply Fin.ext
  match a with
  | ⟨0, _⟩ => show win11_1.index t (0 : Fin 2) * 1 + 1 * 0 = 0; rw [e0]
  | ⟨1, _⟩ => show win11_1.index t (1 : Fin 2) * 64 + 1 * k.val = k.val; rw [e1]; omega

/-- WHAT POINT `t` WRITES BACK is block `t` of the edge scores of the arrays as the region finds them. -/
theorem flushed_eq (c : Dev nD) (t : Fin cfg11.N) :
    (dat11 (F := Ideal) V c).flushed 2 t
      = ((cfg11.win 2).blk t).view.read (Elt Ideal) (specA (V c main_v339) (V c main_v341)) := by
  show (cfg11.win 2).cut (grid11.coords t) ((dat11 V c).after 2 t) = _
  rw [after11_2]
  unfold out11_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg11.win 2).xinj (grid11.coords t) j = ix2 (⟨(j 0).val, h0⟩ : Fin 8000) (⟨(j 1).val, h1⟩ : Fin 1) :=
    funext fun a => Fin.ext (match a with | ⟨0, _⟩ => rfl | ⟨1, _⟩ => rfl)
  show k11_pay1 (F := Ideal) (iblk11 V c 0 t) (iblk11 V c 1 t) ((cfg11.win 2).xinj (grid11.coords t) j)
    = specA (V c main_v339) (V c main_v341) (((cfg11.win 2).blk t).view.emb j)
  rw [hx]
  refine (pay_apply (iblk11 V c 0 t) (iblk11 V c 1 t) ⟨(j 0).val, h0⟩ ⟨(j 1).val, h1⟩).trans ?_
  refine Eq.trans ?_ (specA_apply (V c main_v339) (V c main_v341) (((cfg11.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win11_2.index t (0 : Fin 2) * 8000 + 1 * (j 0).val = t.val * 8000 + (j 0).val
  rw [e0]; omega

/-- An edge is in point `t`'s block iff its row is among the block's 8000. -/
theorem mem_block (t : Fin cfg11.N) (i : S320000x1.Idx) :
    i ∈ ((cfg11.win 2).blk t).view.set
      ↔ ∀ a : Fin 2, win11_2.index t a * S8000x1.size a ≤ (i a).val ∧ (i a).val < win11_2.index t a * S8000x1.size a + S8000x1.size a := by
  show i ∈ ((View.whole main_v342).slice (win11_2.rect t)).set ↔ _
  rw [View.set_slice_whole, Rect.mem_set_unit]
  exact Iff.rfl

/-- Every edge is in the block of the point its row falls to: row `r` in block `r / 8000`. -/
theorem covered (i : S320000x1.Idx) :
    ∃ t : Fin cfg11.N, (cfg11.win 2).flush t = true ∧ i ∈ ((cfg11.win 2).blk t).view.set := by
  have hi0 : (i 0).val < 320000 := (i 0).isLt
  have hi1 : (i 1).val < 1 := (i 1).isLt
  have hN : cfg11.N = 40 := N_11
  let t : Fin cfg11.N := ⟨(i 0).val / 8000, by rw [hN]; omega⟩
  obtain ⟨-, -, -, -, e0, e1⟩ := block_indices t
  have ht : t.val = (i 0).val / 8000 := rfl
  refine ⟨t, flush11_2 t, ?_⟩
  rw [mem_block]
  intro a
  match a with
  | ⟨0, _⟩ =>
    show win11_2.index t (0 : Fin 2) * 8000 ≤ (i 0).val ∧ (i 0).val < win11_2.index t (0 : Fin 2) * 8000 + 8000
    rw [e0, ht]; omega
  | ⟨1, _⟩ =>
    show win11_2.index t (1 : Fin 2) * 1 ≤ (i 1).val ∧ (i 1).val < win11_2.index t (1 : Fin 2) * 1 + 1
    rw [e1]; omega

/-- THE ARRAY of edge scores after the region: the specification's function of the two arrays the region read. -/
theorem arr11_2 (c : Dev nD) :
    (Gen.dat11 (F := Ideal) V c).arrAt 2 cfg11.N = Cert.Spec.specA (V c main_v339) (V c main_v341) :=
  (dat11 (F := Ideal) V c).arrAt_eq_of_cover 2 (specA (V c main_v339) (V c main_v341)) (fun t _ => flushed_eq V c t) covered

end Cert.KernelIdeal.KReg11

end
-- ==== Proof.KReg12.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R12
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg12
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg12.N) : Fin 10 := ⟨t.val, lt_of_lt_of_eq t.isLt N_12⟩

/-- The index maps, decided over the ten grid points: the row-block windows sit at block `(t, 0)`, the two small
    windows at `(0, 0)`. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Window 0's block at point `t` is rows `1000 t …` of its array. -/
theorem blk0_rows (c : Dev nD) (t : Fin cfg12.N) : Gen.iblk12 V c 0 t = rows (V c main_v379) (pt t) := by
  obtain ⟨e0, e1, -⟩ := idx_facts t
  funext j
  unfold Gen.iblk12
  rw [View.read_apply]
  show V c main_v379 (((cfg12.win 0).blk t).view.emb j) = V c main_v379 _
  congr 1
  funext a; apply Fin.ext
  match a with
  | ⟨0, _⟩ => show win12_0.index t (0 : Fin 2) * 1000 + 1 * (j 0).val = t.val * 1000 + (j 0).val; rw [e0]; omega
  | ⟨1, _⟩ => show win12_0.index t (1 : Fin 2) * 64 + 1 * (j 1).val = (j 1).val; rw [e1]; omega

/-- Window 1's block at point `t` is rows `1000 t …` of its array. -/
theorem blk1_rows (c : Dev nD) (t : Fin cfg12.N) : Gen.iblk12 V c 1 t = rows (V c main_v322) (pt t) := by
  obtain ⟨-, -, e0, e1, -⟩ := idx_facts t
  funext j
  unfold Gen.iblk12
  rw [View.read_apply]
  show V c main_v322 (((cfg12.win 1).blk t).view.emb j) = V c main_v322 _
  congr 1
  funext a; apply Fin.ext
  match a with
  | ⟨0, _⟩ => show win12_1.index t (0 : Fin 2) * 1000 + 1 * (j 0).val = t.val * 1000 + (j 0).val; rw [e0]; omega
  | ⟨1, _⟩ => show win12_1.index t (1 : Fin 2) * 64 + 1 * (j 1).val = (j 1).val; rw [e1]; omega

/-- Window 2's block at point `t` is rows `1000 t …` of its array. -/
theorem blk2_rows (c : Dev nD) (t : Fin cfg12.N) : Gen.iblk12 V c 2 t = rows (V c main_v324) (pt t) := by
  obtain ⟨-, -, -, -, e0, e1, -⟩ := idx_facts t
  funext j
  unfold Gen.iblk12
  rw [View.read_apply]
  show V c main_v324 (((cfg12.win 2).blk t).view.emb j) = V c main_v324 _
  congr 1
  funext a; apply Fin.ext
  match a with
  | ⟨0, _⟩ => show win12_2.index t (0 : Fin 2) * 1000 + 1 * (j 0).val = t.val * 1000 + (j 0).val; rw [e0]; omega
  | ⟨1, _⟩ => show win12_2.index t (1 : Fin 2) * 64 + 1 * (j 1).val = (j 1).val; rw [e1]; omega

/-- Window 3's block at every point is its whole one-row array. -/
theorem blk3_whole (c : Dev nD) (t : Fin cfg12.N) : Gen.iblk12 V c 3 t = V c main_v381 := by
  obtain ⟨-, -, -, -, -, -, e0, e1, -⟩ := idx_facts t
  funext j
  unfold Gen.iblk12
  rw [View.read_apply]
  show V c main_v381 (((cfg12.win 3).blk t).view.emb j) = V c main_v381 j
  congr 1
  funext a; apply Fin.ext
  match a with
  | ⟨0, _⟩ => show win12_3.index t (0 : Fin 2) * 1 + 1 * (j 0).val = (j 0).val; rw [e0]; omega
  | ⟨1, _⟩ => show win12_3.index t (1 : Fin 2) * 128 + 1 * (j 1).val = (j 1).val; rw [e1]; omega

/-- Window 4's block at every point is its whole one-element array. -/
theorem blk4_whole (c : Dev nD) (t : Fin cfg12.N) : Gen.iblk12 V c 4 t = V c main_v384 := by
  obtain ⟨-, -, -, -, -, -, -, -, e0, e1, -⟩ := idx_facts t
  funext j
  unfold Gen.iblk12
  rw [View.read_apply]
  show V c main_v384 (((cfg12.win 4).blk t).view.emb j) = V c main_v384 j
  congr 1
  funext a; apply Fin.ext
  match a with
  | ⟨0, _⟩ => show win12_4.index t (0 : Fin 2) * 1 + 1 * (j 0).val = (j 0).val; rw [e0]; omega
  | ⟨1, _⟩ => show win12_4.index t (1 : Fin 2) * 1 + 1 * (j 1).val = (j 1).val; rw [e1]; omega

/-- The output window's block at point `t`, read off any array `G`, is rows `1000 t …` of `G`. -/
theorem out_rows (t : Fin cfg12.N) (G : V2 10000 64) : ((cfg12.win 5).blk t).view.read (Elt Ideal) G = rows G (pt t) := by
  obtain ⟨-, -, -, -, -, -, -, -, -, -, e0, e1⟩ := idx_facts t
  funext j
  rw [View.read_apply]
  show G (((cfg12.win 5).blk t).view.emb j) = G _
  congr 1
  funext a; apply Fin.ext
  match a with
  | ⟨0, _⟩ => show win12_5.index t (0 : Fin 2) * 1000 + 1 * (j 0).val = t.val * 1000 + (j 0).val; rw [e0]; omega
  | ⟨1, _⟩ => show win12_5.index t (1 : Fin 2) * 64 + 1 * (j 1).val = (j 1).val; rw [e1]; omega

/-- The output window is uncut: what a write-back moves of a staging buffer's contents is all of them. -/
theorem cut_id (t : Fin cfg12.N) (P : FVec Ideal S1000x64 .f32) : (cfg12.win 5).cut (grid12.coords t) P = P := rfl

/-- WHAT POINT `t` WRITES BACK is block `t` of the update of the arrays as the region finds them. -/
theorem flushed_eq (c : Dev nD) (t : Fin cfg12.N) :
    (Gen.dat12 (F := Ideal) V c).flushed 5 t = ((cfg12.win 5).blk t).view.read (Elt Ideal)
      (Cert.Spec.specUpd (V c main_v379) (V c main_v322) (V c main_v324) (V c main_v381) (V c main_v384)) := by
  show (cfg12.win 5).cut (grid12.coords t) ((Gen.dat12 V c).after 5 t) = _
  rw [Gen.after12_5]
  unfold Gen.out12_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k12_pay1 (F := Ideal)) rfl _ _ _ _ _ _)

/-- An index of the array is in point `t`'s block iff each coordinate is in the block's range on its axis. -/
theorem mem_blk (t : Fin cfg12.N) (i : S10000x64.Idx) :
    i ∈ ((cfg12.win 5).blk t).view.set ↔ ∀ a : Fin 2, win12_5.index t a * S1000x64.size a ≤ (i a).val ∧ (i a).val < win12_5.index t a * S1000x64.size a + S1000x64.size a := by
  show i ∈ ((View.whole main_v385).slice (win12_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg12.N, (cfg12.win 5).flush t = true ∧ i ∈ ((cfg12.win 5).blk t).view.set := by
  have hi0 : (i 0).val < 10000 := (i 0).isLt
  have hi1 : (i 1).val < 64 := (i 1).isLt
  have ht : (i 0).val / 1000 < cfg12.N := by rw [show cfg12.N = 10 from N_12]; omega
  obtain ⟨-, -, -, -, -, -, -, -, -, -, e0, e1⟩ := idx_facts ⟨(i 0).val / 1000, ht⟩
  refine ⟨⟨(i 0).val / 1000, ht⟩, Gen.flush12_5 _, ?_⟩
  rw [mem_blk]
  intro a
  match a with
  | ⟨0, _⟩ =>
    show win12_5.index ⟨(i 0).val / 1000, ht⟩ (0 : Fin 2) * 1000 ≤ (i 0).val ∧ (i 0).val < win12_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win12_5.index ⟨(i 0).val / 1000, ht⟩ (1 : Fin 2) * 64 ≤ (i 1).val ∧ (i 1).val < win12_5.index ⟨(i 0).val / 1000, ht⟩ (1 : Fin 2) * 64 + 64
    rw [e1]; omega

/-- THE ARRAY AFTER THE REGION: the update of the region's input arrays, whole. -/
theorem arr12_5 (c : Dev nD) : (Gen.dat12 (F := Ideal) V c).arrAt 5 cfg12.N
    = Cert.Spec.specUpd (V c main_v379) (V c main_v322) (V c main_v324) (V c main_v381) (V c main_v384) :=
  (Gen.dat12 (F := Ideal) V c).arrAt_eq_of_cover 5 _ (fun t _ => flushed_eq V c t) cover

end Cert.KernelIdeal.KReg12

end
-- ==== Proof.KFoldL5.lean ====
/-
  Round 6 of the nine rounds, read off the program's own operations: from the buffer contents at the round's entry
  (features in `main_v316`, state in `main_v322`, the edge end points in `main_v1` and `main_v3`) to those at its
  exit (new features in `main_v379`, new state in `main_v385`).

  The round is two stretches of host operations around two calls. The first stretch scales the state (`main_v324`),
  sums the scaled states of each edge's end points (`main_v339`) and cuts the round's score vector out of the stacked
  one (`main_v341`); the first call scores the edges (`main_v342`); the second stretch normalises the scores by the
  in-degrees, scatter-sums the weighted source features (`main_v379`) and cuts out the gate vector and bias
  (`main_v381`, `main_v384`); the second call updates the state (`main_v385`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L5

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps11 (F := Ideal)) V (Proc.devRef .tc main_v324)
      = kZs 0x3E1DD9E7#32 (V (Proc.devRef .tc main_v322)) := by
  dsimp only [hostOps11]; after_results_simp; rfl

/-- Each edge's sum of its end points' scaled states. -/
theorem hA_zsum (V : Valuation τ sig (Elt Ideal)) :
    StableHlo.after (hostOps11 (F := Ideal)) V (Proc.devRef .tc main_v339)
      = kZsum (kZs 0x3E1DD9E7#32 (V (Proc.devRef .tc main_v322))) (V (Proc.devRef .tc main_v1)) (V (Proc.devRef .tc main_v3)) := by
  dsimp only [hostOps11]; after_results_simp; rfl

/-- The round's score vector. -/
theorem hA_att (V : Valuation τ sig (Elt Ideal)) :
    StableHlo.after (hostOps11 (F := Ideal)) V (Proc.devRef .tc main_v341)
      = kAtt 5 Facts₀.slices_S9x1x64_S1x1x64_5_0_0 (V (Proc.devRef .tc main_arg7)) := by
  dsimp only [hostOps11]; after_results_simp; rfl

/-- The stretch writes no buffer of index below 413. -/
theorem hA_keep (V : Valuation τ sig (Elt Ideal)) (r : Ref sig .tc) (h : r.idx.val < 413) :
    StableHlo.after (hostOps11 (F := Ideal)) V (Proc.devRef .tc r) = V (Proc.devRef .tc r) :=
  StableHlo.after_of_forall_not_mem (b := Proc.devRef .tc r) _ _ (List.forall_iff_forall_mem.mp (by
    simp only [hostOps11, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps12 (F := Ideal)) V (Proc.devRef .tc main_v379)
      = kX (V (Proc.devRef .tc main_v316))
          (kNa (kInv (kAdj (V (Proc.devRef .tc main_v342)) (V (Proc.devRef .tc main_v3)))) (V (Proc.devRef .tc main_v342))
            (V (Proc.devRef .tc main_v1)) (V (Proc.devRef .tc main_v3)))
          (V (Proc.devRef .tc main_v1)) (V (Proc.devRef .tc main_v3)) := by
  dsimp only [hostOps12]; after_results_simp; rfl

set_option maxHeartbeats 1000000 in
/-- The round's gate vector. -/
theorem hB_hatt (V : Valuation τ sig (Elt Ideal)) :
    StableHlo.after (hostOps12 (F := Ideal)) V (Proc.devRef .tc main_v381)
      = kHatt 5 Facts₀.slices_S9x1x128_S1x1x128_5_0_0 (V (Proc.devRef .tc main_arg10)) := by
  dsimp only [hostOps12]; after_results_simp; rfl

set_option maxHeartbeats 1000000 in
/-- The round's gate bias. -/
theorem hB_hb (V : Valuation τ sig (Elt Ideal)) :
    StableHlo.after (hostOps12 (F := Ideal)) V (Proc.devRef .tc main_v384)
      = kHb 5 Facts₀.slices_S9x1_S1x1_5_0 (V (Proc.devRef .tc main_arg11)) := by
  dsimp only [hostOps12]; after_results_simp; rfl

set_option maxHeartbeats 1000000 in
/-- The stretch writes no buffer of index below 438. -/
theorem hB_keep (V : Valuation τ sig (Elt Ideal)) (r : Ref sig .tc) (h : r.idx.val < 438) :
    StableHlo.after (hostOps12 (F := Ideal)) V (Proc.devRef .tc r) = V (Proc.devRef .tc r) :=
  StableHlo.after_of_forall_not_mem (b := Proc.devRef .tc r) _ _ (List.forall_iff_forall_mem.mp (by
    simp only [hostOps12, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec11 w ≠ r := by
  have key : ∀ w, ¬ (Pipeline.arrRef spec11 w).idx.val < 21 := by decide
  exact fun w e => key w (by rw [e]; exact h)

/-- No array of the second call has an index below 21. -/
theorem lowB (r : Ref sig .tc) (h : r.idx.val < 21) : ∀ w, Pipeline.arrRef spec12 w ≠ r := by
  have key : ∀ w, ¬ (Pipeline.arrRef spec12 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v342)
      = Cert.Spec.specA (StableHlo.after (hostOps11 (F := Ideal)) U (Proc.devRef .tc main_v339))
          (StableHlo.after (hostOps11 (F := Ideal)) U (Proc.devRef .tc main_v341)))
    (hna : ∀ b : Ref sig .tc, (∀ w, Pipeline.arrRef spec11 w ≠ b) →
      U' (Proc.devRef .tc b) = StableHlo.after (hostOps11 (F := Ideal)) U (Proc.devRef .tc b))
    (hz : U'' (Proc.devRef .tc main_v385)
      = Cert.Spec.specUpd (StableHlo.after (hostOps12 (F := Ideal)) U' (Proc.devRef .tc main_v379))
          (StableHlo.after (hostOps12 (F := Ideal)) U' (Proc.devRef .tc main_v322))
          (StableHlo.after (hostOps12 (F := Ideal)) U' (Proc.devRef .tc main_v324))
          (StableHlo.after (hostOps12 (F := Ideal)) U' (Proc.devRef .tc main_v381))
          (StableHlo.after (hostOps12 (F := Ideal)) U' (Proc.devRef .tc main_v384)))
    (hx : U'' (Proc.devRef .tc main_v379) = StableHlo.after (hostOps12 (F := Ideal)) U' (Proc.devRef .tc main_v379))
    (hnb : ∀ b : Ref sig .tc, (∀ w, Pipeline.arrRef spec12 w ≠ b) →
      U'' (Proc.devRef .tc b) = StableHlo.after (hostOps12 (F := Ideal)) U' (Proc.devRef .tc b)) :
    U'' (Proc.devRef .tc main_v379)
        = kXNew 0x3E1DD9E7#32 (kAtt 5 Facts₀.slices_S9x1x64_S1x1x64_5_0_0 (U (Proc.devRef .tc main_arg7)))
            (U (Proc.devRef .tc main_v1)) (U (Proc.devRef .tc main_v3))
            (U (Proc.devRef .tc main_v316)) (U (Proc.devRef .tc main_v322))
      ∧ U'' (Proc.devRef .tc main_v385)
        = kZNew 0x3E1DD9E7#32 (kAtt 5 Facts₀.slices_S9x1x64_S1x1x64_5_0_0 (U (Proc.devRef .tc main_arg7)))
            (kHatt 5 Facts₀.slices_S9x1x128_S1x1x128_5_0_0 (U (Proc.devRef .tc main_arg10)))
            (kHb 5 Facts₀.slices_S9x1_S1x1_5_0 (U (Proc.devRef .tc main_arg11)))
            (U (Proc.devRef .tc main_v1)) (U (Proc.devRef .tc main_v3))
            (U (Proc.devRef .tc main_v316)) (U (Proc.devRef .tc main_v322))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v316) = U (Proc.devRef .tc main_v316) :=
    (hna main_v316 (by decide)).trans (hA_keep U main_v316 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v342)
      = Cert.Spec.specA (kZsum (kZs 0x3E1DD9E7#32 (U (Proc.devRef .tc main_v322))) (U (Proc.devRef .tc main_v1)) (U (Proc.devRef .tc main_v3)))
          (kAtt 5 Facts₀.slices_S9x1x64_S1x1x64_5_0_0 (U (Proc.devRef .tc main_arg7))) := by
    rw [ha, hA_zsum, hA_att]
  -- what the second call finds
  have ez : StableHlo.after (hostOps12 (F := Ideal)) U' (Proc.devRef .tc main_v322) = U (Proc.devRef .tc main_v322) :=
    (hB_keep U' main_v322 (by decide)).trans ((hna main_v322 (by decide)).trans (hA_keep U main_v322 (by decide)))
  have ezs : StableHlo.after (hostOps12 (F := Ideal)) U' (Proc.devRef .tc main_v324)
      = kZs 0x3E1DD9E7#32 (U (Proc.devRef .tc main_v322)) :=
    (hB_keep U' main_v324 (by decide)).trans ((hna main_v324 (by decide)).trans (hA_zs U))
  have eX : StableHlo.after (hostOps12 (F := Ideal)) U' (Proc.devRef .tc main_v379)
      = kXNew 0x3E1DD9E7#32 (kAtt 5 Facts₀.slices_S9x1x64_S1x1x64_5_0_0 (U (Proc.devRef .tc main_arg7)))
          (U (Proc.devRef .tc main_v1)) (U (Proc.devRef .tc main_v3))
          (U (Proc.devRef .tc main_v316)) (U (Proc.devRef .tc main_v322)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L5

end
-- ==== Proof.KFoldS5.lean ====
/-
  Round 6 of the nine rounds on the program's own run: the round's module is about any buffer contents; here they
  are the contents at the program's boundaries — `W22` at the round's entry, `W24` after its first call, `W26` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg11
import proofs.«404001_j15436112461850_3_alg».proof.Proof.KReg12
import proofs.«404001_j15436112461850_3_alg».proof.Proof.KFoldL5
import proofs.«404001_j15436112461850_3_alg».proof.Proof.KFoldLow

set_option maxRecDepth 16384

noncomputable section

namespace Cert.KernelIdeal.KFold.S5

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W22 m ρ c (Proc.devRef .tc main_v316) = s.1) (hZ : W22 m ρ c (Proc.devRef .tc main_v322) = s.2)
    (hl : Low e1 b2 b7 b10 b11 b12 b13 (W22 m ρ c)) :
    W26 m ρ c (Proc.devRef .tc main_v379)
        = kXNew 0x3E1DD9E7#32 (kAtt 5 Facts₀.slices_S9x1x64_S1x1x64_5_0_0 b7) (kSrc e1) (kDst e1) s.1 s.2
      ∧ W26 m ρ c (Proc.devRef .tc main_v385)
        = kZNew 0x3E1DD9E7#32 (kAtt 5 Facts₀.slices_S9x1x64_S1x1x64_5_0_0 b7)
            (kHatt 5 Facts₀.slices_S9x1x128_S1x1x128_5_0_0 b10) (kHb 5 Facts₀.slices_S9x1_S1x1_5_0 b11)
            (kSrc e1) (kDst e1) s.1 s.2
      ∧ Low e1 b2 b7 b10 b11 b12 b13 (W26 m ρ c) := by
  have R := L5.round (W22 m ρ c) (W24 m ρ c) (W26 m ρ c)
    ((W24_arr m ρ c 2).trans (KReg11.arr11_2 (V23 m ρ) c))
    (fun b hb => W24_of_ne m ρ c b hb)
    ((W26_arr m ρ c 5).trans (KReg12.arr12_5 (V25 m ρ) c))
    ((W26_arr m ρ c 0).trans (((dat12 (V25 m ρ) c).arrAt_in 0 rfl _).trans (A_eq12 (V25 m ρ) c 0)))
    (fun b hb => W26_of_ne m ρ c b hb)
  rw [hl.h7, hl.hsrc, hl.hdst, hl.h10, hl.h11, hX, hZ] at R
  exact ⟨R.1, R.2.1, hl.of_same R.2.2⟩

end Cert.KernelIdeal.KFold.S5

end
-- ==== Proof.KReg13.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R13
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg13

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k13_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k13_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg13.N) (p : Fin 8000) (k : Fin 64) (i : S320000x64.Idx)
    (hi0 : (i 0).val = t.val * 8000 + p.val) (hi1 : (i 1).val = k.val) :
    (iblk13 V c 0 t : Vec Ideal S8000x64 .f32) (ix2 p k) = (V c main_v402 : S320000x64.Idx → Elt Ideal .f32) i := by
  obtain ⟨e0, e1, -⟩ := block_indices t
  unfold iblk13
  rw [View.read_apply]
  show V c main_v402 _ = V c main_v402 _
  congr 1
  funext a
  apply Fin.ext
  match a with
  | ⟨0, _⟩ => show win13_0.index t (0 : Fin 2) * 8000 + 1 * p.val = (i 0).val; rw [e0, hi0]; omega
  | ⟨1, _⟩ => show win13_0.index t (1 : Fin 2) * 64 + 1 * k.val = (i 1).val; rw [e1, hi1]; omega

/-- Every point's block of the attention vector is the whole vector. -/
theorem attblock_apply (c : Dev nD) (t : Fin cfg13.N) (k : Fin 64) :
    (iblk13 V c 1 t : Vec Ideal S1x64 .f32) (ix2 0 k) = (V c main_v404 : S1x64.Idx → Elt Ideal .f32) (ix2 0 k) := by
  obtain ⟨-, -, e0, e1, -⟩ := block_indices t
  unfold iblk13
  rw [View.read_apply]
  show V c main_v404 _ = V c main_v404 _
  congr 1
  funext a
  apply Fin.ext
  match a with
  | ⟨0, _⟩ => show win13_1.index t (0 : Fin 2) * 1 + 1 * 0 = 0; rw [e0]
  | ⟨1, _⟩ => show win13_1.index t (1 : Fin 2) * 64 + 1 * k.val = k.val; rw [e1]; omega

/-- WHAT POINT `t` WRITES BACK is block `t` of the edge scores of the arrays as the region finds them. -/
theorem flushed_eq (c : Dev nD) (t : Fin cfg13.N) :
    (dat13 (F := Ideal) V c).flushed 2 t
      = ((cfg13.win 2).blk t).view.read (Elt Ideal) (specA (V c main_v402) (V c main_v404)) := by
  show (cfg13.win 2).cut (grid13.coords t) ((dat13 V c).after 2 t) = _
  rw [after13_2]
  unfold out13_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg13.win 2).xinj (grid13.coords t) j = ix2 (⟨(j 0).val, h0⟩ : Fin 8000) (⟨(j 1).val, h1⟩ : Fin 1) :=
    funext fun a => Fin.ext (match a with | ⟨0, _⟩ => rfl | ⟨1, _⟩ => rfl)
  show k13_pay1 (F := Ideal) (iblk13 V c 0 t) (iblk13 V c 1 t) ((cfg13.win 2).xinj (grid13.coords t) j)
    = specA (V c main_v402) (V c main_v404) (((cfg13.win 2).blk t).view.emb j)
  rw [hx]
  refine (pay_apply (iblk13 V c 0 t) (iblk13 V c 1 t) ⟨(j 0).val, h0⟩ ⟨(j 1).val, h1⟩).trans ?_
  refine Eq.trans ?_ (specA_apply (V c main_v402) (V c main_v404) (((cfg13.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win13_2.index t (0 : Fin 2) * 8000 + 1 * (j 0).val = t.val * 8000 + (j 0).val
  rw [e0]; omega

/-- An edge is in point `t`'s block iff its row is among the block's 8000. -/
theorem mem_block (t : Fin cfg13.N) (i : S320000x1.Idx) :
    i ∈ ((cfg13.win 2).blk t).view.set
      ↔ ∀ a : Fin 2, win13_2.index t a * S8000x1.size a ≤ (i a).val ∧ (i a).val < win13_2.index t a * S8000x1.size a + S8000x1.size a := by
  show i ∈ ((View.whole main_v405).slice (win13_2.rect t)).set ↔ _
  rw [View.set_slice_whole, Rect.mem_set_unit]
  exact Iff.rfl

/-- Every edge is in the block of the point its row falls to: row `r` in block `r / 8000`. -/
theorem covered (i : S320000x1.Idx) :
    ∃ t : Fin cfg13.N, (cfg13.win 2).flush t = true ∧ i ∈ ((cfg13.win 2).blk t).view.set := by
  have hi0 : (i 0).val < 320000 := (i 0).isLt
  have hi1 : (i 1).val < 1 := (i 1).isLt
  have hN : cfg13.N = 40 := N_13
  let t : Fin cfg13.N := ⟨(i 0).val / 8000, by rw [hN]; omega⟩
  obtain ⟨-, -, -, -, e0, e1⟩ := block_indices t
  have ht : t.val = (i 0).val / 8000 := rfl
  refine ⟨t, flush13_2 t, ?_⟩
  rw [mem_block]
  intro a
  match a with
  | ⟨0, _⟩ =>
    show win13_2.index t (0 : Fin 2) * 8000 ≤ (i 0).val ∧ (i 0).val < win13_2.index t (0 : Fin 2) * 8000 + 8000
    rw [e0, ht]; omega
  | ⟨1, _⟩ =>
    show win13_2.index t (1 : Fin 2) * 1 ≤ (i 1).val ∧ (i 1).val < win13_2.index t (1 : Fin 2) * 1 + 1
    rw [e1]; omega

/-- THE ARRAY of edge scores after the region: the specification's function of the two arrays the region read. -/
theorem arr13_2 (c : Dev nD) :
    (Gen.dat13 (F := Ideal) V c).arrAt 2 cfg13.N = Cert.Spec.specA (V c main_v402) (V c main_v404) :=
  (dat13 (F := Ideal) V c).arrAt_eq_of_cover 2 (specA (V c main_v402) (V c main_v404)) (fun t _ => flushed_eq V c t) covered

end Cert.KernelIdeal.KReg13

end
-- ==== Proof.KReg14.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R14
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg14
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg14.N) : Fin 10 := ⟨t.val, lt_of_lt_of_eq t.isLt N_14⟩

/-- The index maps, decided over the ten grid points: the row-block windows sit at block `(t, 0)`, the two small
    windows at `(0, 0)`. -/
theorem idx_facts : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Window 0's block at point `t` is rows `1000 t …` of its array. -/
theorem blk0_rows (c : Dev nD) (t : Fin cfg14.N) : Gen.iblk14 V c 0 t = rows (V c main_v442) (pt t) := by
  obtain ⟨e0, e1, -⟩ := idx_facts t
  funext j
  unfold Gen.iblk14
  rw [View.read_apply]
  show V c main_v442 (((cfg14.win 0).blk t).view.emb j) = V c main_v442 _
  congr 1
  funext a; apply Fin.ext
  match a with
  | ⟨0, _⟩ => show win14_0.index t (0 : Fin 2) * 1000 + 1 * (j 0).val = t.val * 1000 + (j 0).val; rw [e0]; omega
  | ⟨1, _⟩ => show win14_0.index t (1 : Fin 2) * 64 + 1 * (j 1).val = (j 1).val; rw [e1]; omega

/-- Window 1's block at point `t` is rows `1000 t …` of its array. -/
theorem blk1_rows (c : Dev nD) (t : Fin cfg14.N) : Gen.iblk14 V c 1 t = rows (V c main_v385) (pt t) := by
  obtain ⟨-, -, e0, e1, -⟩ := idx_facts t
  funext j
  unfold Gen.iblk14
  rw [View.read_apply]
  show V c main_v385 (((cfg14.win 1).blk t).view.emb j) = V c main_v385 _
  congr 1
  funext a; apply Fin.ext
  match a with
  | ⟨0, _⟩ => show win14_1.index t (0 : Fin 2) * 1000 + 1 * (j 0).val = t.val * 1000 + (j 0).val; rw [e0]; omega
  | ⟨1, _⟩ => show win14_1.index t (1 : Fin 2) * 64 + 1 * (j 1).val = (j 1).val; rw [e1]; omega

/-- Window 2's block at point `t` is rows `1000 t …` of its array. -/
theorem blk2_rows (c : Dev nD) (t : Fin cfg14.N) : Gen.iblk14 V c 2 t = rows (V c main_v387) (pt t) := by
  obtain ⟨-, -, -, -, e0, e1, -⟩ := idx_facts t
  funext j
  unfold Gen.iblk14
  rw [View.read_apply]
  show V c main_v387 (((cfg14.win 2).blk t).view.emb j) = V c main_v387 _
  congr 1
  funext a; apply Fin.ext
  match a with
  | ⟨0, _⟩ => show win14_2.index t (0 : Fin 2) * 1000 + 1 * (j 0).val = t.val * 1000 + (j 0).val; rw [e0]; omega
  | ⟨1, _⟩ => show win14_2.index t (1 : Fin 2) * 64 + 1 * (j 1).val = (j 1).val; rw [e1]; omega

/-- Window 3's block at every point is its whole one-row array. -/
theorem blk3_whole (c : Dev nD) (t : Fin cfg14.N) : Gen.iblk14 V c 3 t = V c main_v444 := by
  obtain ⟨-, -, -, -, -, -, e0, e1, -⟩ := idx_facts t
  funext j
  unfold Gen.iblk14
  rw [View.read_apply]
  show V c main_v444 (((cfg14.win 3).blk t).view.emb j) = V c main_v444 j
  congr 1
  funext a; apply Fin.ext
  match a with
  | ⟨0, _⟩ => show win14_3.index t (0 : Fin 2) * 1 + 1 * (j 0).val = (j 0).val; rw [e0]; omega
  | ⟨1, _⟩ => show win14_3.index t (1 : Fin 2) * 128 + 1 * (j 1).val = (j 1).val; rw [e1]; omega

/-- Window 4's block at every point is its whole one-element array. -/
theorem blk4_whole (c : Dev nD) (t : Fin cfg14.N) : Gen.iblk14 V c 4 t = V c main_v447 := by
  obtain ⟨-, -, -, -, -, -, -, -, e0, e1, -⟩ := idx_facts t
  funext j
  unfold Gen.iblk14
  rw [View.read_apply]
  show V c main_v447 (((cfg14.win 4).blk t).view.emb j) = V c main_v447 j
  congr 1
  funext a; apply Fin.ext
  match a with
  | ⟨0, _⟩ => show win14_4.index t (0 : Fin 2) * 1 + 1 * (j 0).val = (j 0).val; rw [e0]; omega
  | ⟨1, _⟩ => show win14_4.index t (1 : Fin 2) * 1 + 1 * (j 1).val = (j 1).val; rw [e1]; omega

/-- The output window's block at point `t`, read off any array `G`, is rows `1000 t …` of `G`. -/
theorem out_rows (t : Fin cfg14.N) (G : V2 10000 64) : ((cfg14.win 5).blk t).view.read (Elt Ideal) G = rows G (pt t) := by
  obtain ⟨-, -, -, -, -, -, -, -, -, -, e0, e1⟩ := idx_facts t
  funext j
  rw [View.read_apply]
  show G (((cfg14.win 5).blk t).view.emb j) = G _
  congr 1
  funext a; apply Fin.ext
  match a with
  | ⟨0, _⟩ => show win14_5.index t (0 : Fin 2) * 1000 + 1 * (j 0).val = t.val * 1000 + (j 0).val; rw [e0]; omega
  | ⟨1, _⟩ => show win14_5.index t (1 : Fin 2) * 64 + 1 * (j 1).val = (j 1).val; rw [e1]; omega

/-- The output window is uncut: what a write-back moves of a staging buffer's contents is all of them. -/
theorem cut_id (t : Fin cfg14.N) (P : FVec Ideal S1000x64 .f32) : (cfg14.win 5).cut (grid14.coords t) P = P := rfl

/-- WHAT POINT `t` WRITES BACK is block `t` of the update of the arrays as the region finds them. -/
theorem flushed_eq (c : Dev nD) (t : Fin cfg14.N) :
    (Gen.dat14 (F := Ideal) V c).flushed 5 t = ((cfg14.win 5).blk t).view.read (Elt Ideal)
      (Cert.Spec.specUpd (V c main_v442) (V c main_v385) (V c main_v387) (V c main_v444) (V c main_v447)) := by
  show (cfg14.win 5).cut (grid14.coords t) ((Gen.dat14 V c).after 5 t) = _
  rw [Gen.after14_5]
  unfold Gen.out14_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k14_pay1 (F := Ideal)) rfl _ _ _ _ _ _)

/-- An index of the array is in point `t`'s block iff each coordinate is in the block's range on its axis. -/
theorem mem_blk (t : Fin cfg14.N) (i : S10000x64.Idx) :
    i ∈ ((cfg14.win 5).blk t).view.set ↔ ∀ a : Fin 2, win14_5.index t a * S1000x64.size a ≤ (i a).val ∧ (i a).val < win14_5.index t a * S1000x64.size a + S1000x64.size a := by
  show i ∈ ((View.whole main_v448).slice (win14_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg14.N, (cfg14.win 5).flush t = true ∧ i ∈ ((cfg14.win 5).blk t).view.set := by
  have hi0 : (i 0).val < 10000 := (i 0).isLt
  have hi1 : (i 1).val < 64 := (i 1).isLt
  have ht : (i 0).val / 1000 < cfg14.N := by rw [show cfg14.N = 10 from N_14]; omega
  obtain ⟨-, -, -, -, -, -, -, -, -, -, e0, e1⟩ := idx_facts ⟨(i 0).val / 1000, ht⟩
  refine ⟨⟨(i 0).val / 1000, ht⟩, Gen.flush14_5 _, ?_⟩
  rw [mem_blk]
  intro a
  match a with
  | ⟨0, _⟩ =>
    show win14_5.index ⟨(i 0).val / 1000, ht⟩ (0 : Fin 2) * 1000 ≤ (i 0).val ∧ (i 0).val < win14_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win14_5.index ⟨(i 0).val / 1000, ht⟩ (1 : Fin 2) * 64 ≤ (i 1).val ∧ (i 1).val < win14_5.index ⟨(i 0).val / 1000, ht⟩ (1 : Fin 2) * 64 + 64
    rw [e1]; omega

/-- THE ARRAY AFTER THE REGION: the update of the region's input arrays, whole. -/
theorem arr14_5 (c : Dev nD) : (Gen.dat14 (F := Ideal) V c).arrAt 5 cfg14.N
    = Cert.Spec.specUpd (V c main_v442) (V c main_v385) (V c main_v387) (V c main_v444) (V c main_v447) :=
  (Gen.dat14 (F := Ideal) V c).arrAt_eq_of_cover 5 _ (fun t _ => flushed_eq V c t) cover

end Cert.KernelIdeal.KReg14

end
-- ==== Proof.KFoldL6.lean ====
/-
  Round 7 of the nine rounds, read off the program's own operations: from the buffer contents at the round's entry
  (features in `main_v379`, state in `main_v385`, the edge end points in `main_v1` and `main_v3`) to those at its
  exit (new features in `main_v442`, new state in `main_v448`).

  The round is two stretches of host operations around two calls. The first stretch scales the state (`main_v387`),
  sums the scaled states of each edge's end points (`main_v402`) and cuts the round's score vector out of the stacked
  one (`main_v404`); the first call scores the edges (`main_v405`); the second stretch normalises the scores by the
  in-degrees, scatter-sums the weighted source features (`main_v442`) and cuts out the gate vector and bias
  (`main_v444`, `main_v447`); the second call updates the state (`main_v448`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L6

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps13 (F := Ideal)) V (Proc.devRef .tc main_v387)
      = kZs 0x3E08BCAF#32 (V (Proc.devRef .tc main_v385)) := by
  dsimp only [hostOps13]; after_results_simp; rfl

/-- Each edge's sum of its end points' scaled states. -/
theorem hA_zsum (V : Valuation τ sig (Elt Ideal)) :
    StableHlo.after (hostOps13 (F := Ideal)) V (Proc.devRef .tc main_v402)
      = kZsum (kZs 0x3E08BCAF#32 (V (Proc.devRef .tc main_v385))) (V (Proc.devRef .tc main_v1)) (V (Proc.devRef .tc main_v3)) := by
  dsimp only [hostOps13]; after_results_simp; rfl

/-- The round's score vector. -/
theorem hA_att (V : Valuation τ sig (Elt Ideal)) :
    StableHlo.after (hostOps13 (F := Ideal)) V (Proc.devRef .tc main_v404)
      = kAtt 6 Facts₀.slices_S9x1x64_S1x1x64_6_0_0 (V (Proc.devRef .tc main_arg7)) := by
  dsimp only [hostOps13]; after_results_simp; rfl

/-- The stretch writes no buffer of index below 491. -/
theorem hA_keep (V : Valuation τ sig (Elt Ideal)) (r : Ref sig .tc) (h : r.idx.val < 491) :
    StableHlo.after (hostOps13 (F := Ideal)) V (Proc.devRef .tc r) = V (Proc.devRef .tc r) :=
  StableHlo.after_of_forall_not_mem (b := Proc.devRef .tc r) _ _ (List.forall_iff_forall_mem.mp (by
    simp only [hostOps13, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps14 (F := Ideal)) V (Proc.devRef .tc main_v442)
      = kX (V (Proc.devRef .tc main_v379))
          (kNa (kInv (kAdj (V (Proc.devRef .tc main_v405)) (V (Proc.devRef .tc main_v3)))) (V (Proc.devRef .tc main_v405))
            (V (Proc.devRef .tc main_v1)) (V (Proc.devRef .tc main_v3)))
          (V (Proc.devRef .tc main_v1)) (V (Proc.devRef .tc main_v3)) := by
  dsimp only [hostOps14]; after_results_simp; rfl

set_option maxHeartbeats 1000000 in
/-- The round's gate vector. -/
theorem hB_hatt (V : Valuation τ sig (Elt Ideal)) :
    StableHlo.after (hostOps14 (F := Ideal)) V (Proc.devRef .tc main_v444)
      = kHatt 6 Facts₀.slices_S9x1x128_S1x1x128_6_0_0 (V (Proc.devRef .tc main_arg10)) := by
  dsimp only [hostOps14]; after_results_simp; rfl

set_option maxHeartbeats 1000000 in
/-- The round's gate bias. -/
theorem hB_hb (V : Valuation τ sig (Elt Ideal)) :
    StableHlo.after (hostOps14 (F := Ideal)) V (Proc.devRef .tc main_v447)
      = kHb 6 Facts₀.slices_S9x1_S1x1_6_0 (V (Proc.devRef .tc main_arg11)) := by
  dsimp only [hostOps14]; after_results_simp; rfl

set_option maxHeartbeats 1000000 in
/-- The stretch writes no buffer of index below 516. -/
theorem hB_keep (V : Valuation τ sig (Elt Ideal)) (r : Ref sig .tc) (h : r.idx.val < 516) :
    StableHlo.after (hostOps14 (F := Ideal)) V (Proc.devRef .tc r) = V (Proc.devRef .tc r) :=
  StableHlo.after_of_forall_not_mem (b := Proc.devRef .tc r) _ _ (List.forall_iff_forall_mem.mp (by
    simp only [hostOps14, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec13 w ≠ r := by
  have key : ∀ w, ¬ (Pipeline.arrRef spec13 w).idx.val < 21 := by decide
  exact fun w e => key w (by rw [e]; exact h)

/-- No array of the second call has an index below 21. -/
theorem lowB (r : Ref sig .tc) (h : r.idx.val < 21) : ∀ w, Pipeline.arrRef spec14 w ≠ r := by
  have key : ∀ w, ¬ (Pipeline.arrRef spec14 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v405)
      = Cert.Spec.specA (StableHlo.after (hostOps13 (F := Ideal)) U (Proc.devRef .tc main_v402))
          (StableHlo.after (hostOps13 (F := Ideal)) U (Proc.devRef .tc main_v404)))
    (hna : ∀ b : Ref sig .tc, (∀ w, Pipeline.arrRef spec13 w ≠ b) →
      U' (Proc.devRef .tc b) = StableHlo.after (hostOps13 (F := Ideal)) U (Proc.devRef .tc b))
    (hz : U'' (Proc.devRef .tc main_v448)
      = Cert.Spec.specUpd (StableHlo.after (hostOps14 (F := Ideal)) U' (Proc.devRef .tc main_v442))
          (StableHlo.after (hostOps14 (F := Ideal)) U' (Proc.devRef .tc main_v385))
          (StableHlo.after (hostOps14 (F := Ideal)) U' (Proc.devRef .tc main_v387))
          (StableHlo.after (hostOps14 (F := Ideal)) U' (Proc.devRef .tc main_v444))
          (StableHlo.after (hostOps14 (F := Ideal)) U' (Proc.devRef .tc main_v447)))
    (hx : U'' (Proc.devRef .tc main_v442) = StableHlo.after (hostOps14 (F := Ideal)) U' (Proc.devRef .tc main_v442))
    (hnb : ∀ b : Ref sig .tc, (∀ w, Pipeline.arrRef spec14 w ≠ b) →
      U'' (Proc.devRef .tc b) = StableHlo.after (hostOps14 (F := Ideal)) U' (Proc.devRef .tc b)) :
    U'' (Proc.devRef .tc main_v442)
        = kXNew 0x3E08BCAF#32 (kAtt 6 Facts₀.slices_S9x1x64_S1x1x64_6_0_0 (U (Proc.devRef .tc main_arg7)))
            (U (Proc.devRef .tc main_v1)) (U (Proc.devRef .tc main_v3))
            (U (Proc.devRef .tc main_v379)) (U (Proc.devRef .tc main_v385))
      ∧ U'' (Proc.devRef .tc main_v448)
        = kZNew 0x3E08BCAF#32 (kAtt 6 Facts₀.slices_S9x1x64_S1x1x64_6_0_0 (U (Proc.devRef .tc main_arg7)))
            (kHatt 6 Facts₀.slices_S9x1x128_S1x1x128_6_0_0 (U (Proc.devRef .tc main_arg10)))
            (kHb 6 Facts₀.slices_S9x1_S1x1_6_0 (U (Proc.devRef .tc main_arg11)))
            (U (Proc.devRef .tc main_v1)) (U (Proc.devRef .tc main_v3))
            (U (Proc.devRef .tc main_v379)) (U (Proc.devRef .tc main_v385))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v379) = U (Proc.devRef .tc main_v379) :=
    (hna main_v379 (by decide)).trans (hA_keep U main_v379 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v405)
      = Cert.Spec.specA (kZsum (kZs 0x3E08BCAF#32 (U (Proc.devRef .tc main_v385))) (U (Proc.devRef .tc main_v1)) (U (Proc.devRef .tc main_v3)))
          (kAtt 6 Facts₀.slices_S9x1x64_S1x1x64_6_0_0 (U (Proc.devRef .tc main_arg7))) := by
    rw [ha, hA_zsum, hA_att]
  -- what the second call finds
  have ez : StableHlo.after (hostOps14 (F := Ideal)) U' (Proc.devRef .tc main_v385) = U (Proc.devRef .tc main_v385) :=
    (hB_keep U' main_v385 (by decide)).trans ((hna main_v385 (by decide)).trans (hA_keep U main_v385 (by decide)))
  have ezs : StableHlo.after (hostOps14 (F := Ideal)) U' (Proc.devRef .tc main_v387)
      = kZs 0x3E08BCAF#32 (U (Proc.devRef .tc main_v385)) :=
    (hB_keep U' main_v387 (by decide)).trans ((hna main_v387 (by decide)).trans (hA_zs U))
  have eX : StableHlo.after (hostOps14 (F := Ideal)) U' (Proc.devRef .tc main_v442)
      = kXNew 0x3E08BCAF#32 (kAtt 6 Facts₀.slices_S9x1x64_S1x1x64_6_0_0 (U (Proc.devRef .tc main_arg7)))
          (U (Proc.devRef .tc main_v1)) (U (Proc.devRef .tc main_v3))
          (U (Proc.devRef .tc main_v379)) (U (Proc.devRef .tc main_v385)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L6

end
-- ==== Proof.KFoldS6.lean ====
/-
  Round 7 of the nine rounds on the program's own run: the round's module is about any buffer contents; here they
  are the contents at the program's boundaries — `W26` at the round's entry, `W28` after its first call, `W30` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg13
import proofs.«404001_j15436112461850_3_alg».proof.Proof.KReg14
import proofs.«404001_j15436112461850_3_alg».proof.Proof.KFoldL6
import proofs.«404001_j15436112461850_3_alg».proof.Proof.KFoldLow

set_option maxRecDepth 16384

noncomputable section

namespace Cert.KernelIdeal.KFold.S6

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W26 m ρ c (Proc.devRef .tc main_v379) = s.1) (hZ : W26 m ρ c (Proc.devRef .tc main_v385) = s.2)
    (hl : Low e1 b2 b7 b10 b11 b12 b13 (W26 m ρ c)) :
    W30 m ρ c (Proc.devRef .tc main_v442)
        = kXNew 0x3E08BCAF#32 (kAtt 6 Facts₀.slices_S9x1x64_S1x1x64_6_0_0 b7) (kSrc e1) (kDst e1) s.1 s.2
      ∧ W30 m ρ c (Proc.devRef .tc main_v448)
        = kZNew 0x3E08BCAF#32 (kAtt 6 Facts₀.slices_S9x1x64_S1x1x64_6_0_0 b7)
            (kHatt 6 Facts₀.slices_S9x1x128_S1x1x128_6_0_0 b10) (kHb 6 Facts₀.slices_S9x1_S1x1_6_0 b11)
            (kSrc e1) (kDst e1) s.1 s.2
      ∧ Low e1 b2 b7 b10 b11 b12 b13 (W30 m ρ c) := by
  have R := L6.round (W26 m ρ c) (W28 m ρ c) (W30 m ρ c)
    ((W28_arr m ρ c 2).trans (KReg13.arr13_2 (V27 m ρ) c))
    (fun b hb => W28_of_ne m ρ c b hb)
    ((W30_arr m ρ c 5).trans (KReg14.arr14_5 (V29 m ρ) c))
    ((W30_arr m ρ c 0).trans (((dat14 (V29 m ρ) c).arrAt_in 0 rfl _).trans (A_eq14 (V29 m ρ) c 0)))
    (fun b hb => W30_of_ne m ρ c b hb)
  rw [hl.h7, hl.hsrc, hl.hdst, hl.h10, hl.h11, hX, hZ] at R
  exact ⟨R.1, R.2.1, hl.of_same R.2.2⟩

end Cert.KernelIdeal.KFold.S6

end
-- ==== Proof.KReg15.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R15
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg15

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k15_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k15_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg15.N) (p : Fin 8000) (k : Fin 64) (i : S320000x64.Idx)
    (hi0 : (i 0).val = t.val * 8000 + p.val) (hi1 : (i 1).val = k.val) :
    (iblk15 V c 0 t : Vec Ideal S8000x64 .f32) (ix2 p k) = (V c main_v465 : S320000x64.Idx → Elt Ideal .f32) i := by
  obtain ⟨e0, e1, -⟩ := block_indices t
  unfold iblk15
  rw [View.read_apply]
  show V c main_v465 _ = V c main_v465 _
  congr 1
  funext a
  apply Fin.ext
  match a with
  | ⟨0, _⟩ => show win15_0.index t (0 : Fin 2) * 8000 + 1 * p.val = (i 0).val; rw [e0, hi0]; omega
  | ⟨1, _⟩ => show win15_0.index t (1 : Fin 2) * 64 + 1 * k.val = (i 1).val; rw [e1, hi1]; omega

/-- Every point's block of the attention vector is the whole vector. -/
theorem attblock_apply (c : Dev nD) (t : Fin cfg15.N) (k : Fin 64) :
    (iblk15 V c 1 t : Vec Ideal S1x64 .f32) (ix2 0 k) = (V c main_v467 : S1x64.Idx → Elt Ideal .f32) (ix2 0 k) := by
  obtain ⟨-, -, e0, e1, -⟩ := block_indices t
  unfold iblk15
  rw [View.read_apply]
  show V c main_v467 _ = V c main_v467 _
  congr 1
  funext a
  apply Fin.ext
  match a with
  | ⟨0, _⟩ => show win15_1.index t (0 : Fin 2) * 1 + 1 * 0 = 0; rw [e0]
  | ⟨1, _⟩ => show win15_1.index t (1 : Fin 2) * 64 + 1 * k.val = k.val; rw [e1]; omega

/-- WHAT POINT `t` WRITES BACK is block `t` of the edge scores of the arrays as the region finds them. -/
theorem flushed_eq (c : Dev nD) (t : Fin cfg15.N) :
    (dat15 (F := Ideal) V c).flushed 2 t
      = ((cfg15.win 2).blk t).view.read (Elt Ideal) (specA (V c main_v465) (V c main_v467)) := by
  show (cfg15.win 2).cut (grid15.coords t) ((dat15 V c).after 2 t) = _
  rw [after15_2]
  unfold out15_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg15.win 2).xinj (grid15.coords t) j = ix2 (⟨(j 0).val, h0⟩ : Fin 8000) (⟨(j 1).val, h1⟩ : Fin 1) :=
    funext fun a => Fin.ext (match a with | ⟨0, _⟩ => rfl | ⟨1, _⟩ => rfl)
  show k15_pay1 (F := Ideal) (iblk15 V c 0 t) (iblk15 V c 1 t) ((cfg15.win 2).xinj (grid15.coords t) j)
    = specA (V c main_v465) (V c main_v467) (((cfg15.win 2).blk t).view.emb j)
  rw [hx]
  refine (pay_apply (iblk15 V c 0 t) (iblk15 V c 1 t) ⟨(j 0).val, h0⟩ ⟨(j 1).val, h1⟩).trans ?_
  refine Eq.trans ?_ (specA_apply (V c main_v465) (V c main_v467) (((cfg15.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win15_2.index t (0 : Fin 2) * 8000 + 1 * (j 0).val = t.val * 8000 + (j 0).val
  rw [e0]; omega

/-- An edge is in point `t`'s block iff its row is among the block's 8000. -/
theorem mem_block (t : Fin cfg15.N) (i : S320000x1.Idx) :
    i ∈ ((cfg15.win 2).blk t).view.set
      ↔ ∀ a : Fin 2, win15_2.index t a * S8000x1.size a ≤ (i a).val ∧ (i a).val < win15_2.index t a * S8000x1.size a + S8000x1.size a := by
  show i ∈ ((View.whole main_v468).slice (win15_2.rect t)).set ↔ _
  rw [View.set_slice_whole, Rect.mem_set_unit]
  exact Iff.rfl

/-- Every edge is in the block of the point its row falls to: row `r` in block `r / 8000`. -/
theorem covered (i : S320000x1.Idx) :
    ∃ t : Fin cfg15.N, (cfg15.win 2).flush t = true ∧ i ∈ ((cfg15.win 2).blk t).view.set := by
  have hi0 : (i 0).val < 320000 := (i 0).isLt
  have hi1 : (i 1).val < 1 := (i 1).isLt
  have hN : cfg15.N = 40 := N_15
  let t : Fin cfg15.N := ⟨(i 0).val / 8000, by rw [hN]; omega⟩
  obtain ⟨-, -, -, -, e0, e1⟩ := block_indices t
  have ht : t.val = (i 0).val / 8000 := rfl
  refine ⟨t, flush15_2 t, ?_⟩
  rw [mem_block]
  intro a
  match a with
  | ⟨0, _⟩ =>
    show win15_2.index t (0 : Fin 2) * 8000 ≤ (i 0).val ∧ (i 0).val < win15_2.index t (0 : Fin 2) * 8000 + 8000
    rw [e0, ht]; omega
  | ⟨1, _⟩ =>
    show win15_2.index t (1 : Fin 2) * 1 ≤ (i 1).val ∧ (i 1).val < win15_2.index t (1 : Fin 2) * 1 + 1
    rw [e1]; omega

/-- THE ARRAY of edge scores after the region: the specification's function of the two arrays the region read. -/
theorem arr15_2 (c : Dev nD) :
    (Gen.dat15 (F := Ideal) V c).arrAt 2 cfg15.N = Cert.Spec.specA (V c main_v465) (V c main_v467) :=
  (dat15 (F := Ideal) V c).arrAt_eq_of_cover 2 (specA (V c main_v465) (V c main_v467)) (fun t _ => flushed_eq V c t) covered

end Cert.KernelIdeal.KReg15

end
-- ==== Proof.KReg16.lean ====
/-
  The value of a state-update region: after the region the state array is, whole, `z + x · gate` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R16
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg16
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg16.N) : Fin 10 := ⟨t.val, lt_of_lt_of_eq t.isLt N_16⟩

/-- The index maps, decided over the ten grid points: the row-block windows sit at block `(t, 0)`, the two small
    windows at `(0, 0)`. -/
theorem idx_facts : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-- Window 0's block at point `t` is rows `1000 t …` of its array. -/
theorem blk0_rows (c : Dev nD) (t : Fin cfg16.N) : Gen.iblk16 V c 0 t = rows (V c main_v505) (pt t) := by
  obtain ⟨e0, e1, -⟩ := idx_facts t
  funext j
  unfold Gen.iblk16
  rw [View.read_apply]
  show V c main_v505 (((cfg16.win 0).blk t).view.emb j) = V c main_v505 _
  congr 1
  funext a; apply Fin.ext
  match a with
  | ⟨0, _⟩ => show win16_0.index t (0 : Fin 2) * 1000 + 1 * (j 0).val = t.val * 1000 + (j 0).val; rw [e0]; omega
  | ⟨1, _⟩ => show win16_0.index t (1 : Fin 2) * 64 + 1 * (j 1).val = (j 1).val; rw [e1]; omega

/-- Window 1's block at point `t` is rows `1000 t …` of its array. -/
theorem blk1_rows (c : Dev nD) (t : Fin cfg16.N) : Gen.iblk16 V c 1 t = rows (V c main_v448) (pt t) := by
  obtain ⟨-, -, e0, e1, -⟩ := idx_facts t
  funext j
  unfold Gen.iblk16
  rw [View.read_apply]
  show V c main_v448 (((cfg16.win 1).blk t).view.emb j) = V c main_v448 _
  congr 1
  funext a; apply Fin.ext
  match a with
  | ⟨0, _⟩ => show win16_1.index t (0 : Fin 2) * 1000 + 1 * (j 0).val = t.val * 1000 + (j 0).val; rw [e0]; omega
  | ⟨1, _⟩ => show win16_1.index t (1 : Fin 2) * 64 + 1 * (j 1).val = (j 1).val; rw [e1]; omega

/-- Window 2's block at point `t` is rows `1000 t …` of its array. -/
theorem blk2_rows (c : Dev nD) (t : Fin cfg16.N) : Gen.iblk16 V c 2 t = rows (V c main_v450) (pt t) := by
  obtain ⟨-, -, -, -, e0, e1, -⟩ := idx_facts t
  funext j
  unfold Gen.iblk16
  rw [View.read_apply]
  show V c main_v450 (((cfg16.win 2).blk t).view.emb j) = V c main_v450 _
  congr 1
  funext a; apply Fin.ext
  match a with
  | ⟨0, _⟩ => show win16_2.index t (0 : Fin 2) * 1000 + 1 * (j 0).val = t.val * 1000 + (j 0).val; rw [e0]; omega
  | ⟨1, _⟩ => show win16_2.index t (1 : Fin 2) * 64 + 1 * (j 1).val = (j 1).val; rw [e1]; omega

/-- Window 3's block at every point is its whole one-row array. -/
theorem blk3_whole (c : Dev nD) (t : Fin cfg16.N) : Gen.iblk16 V c 3 t = V c main_v507 := by
  obtain ⟨-, -, -, -, -, -, e0, e1, -⟩ := idx_facts t
  funext j
  unfold Gen.iblk16
  rw [View.read_apply]
  show V c main_v507 (((cfg16.win 3).blk t).view.emb j) = V c main_v507 j
  congr 1
  funext a; apply Fin.ext
  match a with
  | ⟨0, _⟩ => show win16_3.index t (0 : Fin 2) * 1 + 1 * (j 0).val = (j 0).val; rw [e0]; omega
  | ⟨1, _⟩ => show win16_3.index t (1 : Fin 2) * 128 + 1 * (j 1).val = (j 1).val; rw [e1]; omega

/-- Window 4's block at every point is its whole one-element array. -/
theorem blk4_whole (c : Dev nD) (t : Fin cfg16.N) : Gen.iblk16 V c 4 t = V c main_v510 := by
  obtain ⟨-, -, -, -, -, -, -, -, e0, e1, -⟩ := idx_facts t
  funext j
  unfold Gen.iblk16
  rw [View.read_apply]
  show V c main_v510 (((cfg16.win 4).blk t).view.emb j) = V c main_v510 j
  congr 1
  funext a; apply Fin.ext
  match a with
  | ⟨0, _⟩ => show win16_4.index t (0 : Fin 2) * 1 + 1 * (j 0).val = (j 0).val; rw [e0]; omega
  | ⟨1, _⟩ => show win16_4.index t (1 : Fin 2) * 1 + 1 * (j 1).val = (j 1).val; rw [e1]; omega

/-- The output window's block at point `t`, read off any array `G`, is rows `1000 t …` of `G`. -/
theorem out_rows (t : Fin cfg16.N) (G : V2 10000 64) : ((cfg16.win 5).blk t).view.read (Elt Ideal) G = rows G (pt t) := by
  obtain ⟨-, -, -, -, -, -, -, -, -, -, e0, e1⟩ := idx_facts t
  funext j
  rw [View.read_apply]
  show G (((cfg16.win 5).blk t).view.emb j) = G _
  congr 1
  funext a; apply Fin.ext
  match a with
  | ⟨0, _⟩ => show win16_5.index t (0 : Fin 2) * 1000 + 1 * (j 0).val = t.val * 1000 + (j 0).val; rw [e0]; omega
  | ⟨1, _⟩ => show win16_5.index t (1 : Fin 2) * 64 + 1 * (j 1).val = (j 1).val; rw [e1]; omega

/-- The output window is uncut: what a write-back moves of a staging buffer's contents is all of them. -/
theorem cut_id (t : Fin cfg16.N) (P : FVec Ideal S1000x64 .f32) : (cfg16.win 5).cut (grid16.coords t) P = P := rfl

/-- WHAT POINT `t` WRITES BACK is block `t` of the update of the arrays as the region finds them. -/
theorem flushed_eq (c : Dev nD) (t : Fin cfg16.N) :
    (Gen.dat16 (F := Ideal) V c).flushed 5 t = ((cfg16.win 5).blk t).view.read (Elt Ideal)
      (Cert.Spec.specUpd (V c main_v505) (V c main_v448) (V c main_v450) (V c main_v507) (V c main_v510)) := by
  show (cfg16.win 5).cut (grid16.coords t) ((Gen.dat16 V c).after 5 t) = _
  rw [Gen.after16_5]
  unfold Gen.out16_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_of (Gen.k16_pay1 (F := Ideal)) rfl _ _ _ _ _ _)

/-- An index of the array is in point `t`'s block iff each coordinate is in the block's range on its axis. -/
theorem mem_blk (t : Fin cfg16.N) (i : S10000x64.Idx) :
    i ∈ ((cfg16.win 5).blk t).view.set ↔ ∀ a : Fin 2, win16_5.index t a * S1000x64.size a ≤ (i a).val ∧ (i a).val < win16_5.index t a * S1000x64.size a + S1000x64.size a := by
  show i ∈ ((View.whole main_v511).slice (win16_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg16.N, (cfg16.win 5).flush t = true ∧ i ∈ ((cfg16.win 5).blk t).view.set := by
  have hi0 : (i 0).val < 10000 := (i 0).isLt
  have hi1 : (i 1).val < 64 := (i 1).isLt
  have ht : (i 0).val / 1000 < cfg16.N := by rw [show cfg16.N = 10 from N_16]; omega
  obtain ⟨-, -, -, -, -, -, -, -, -, -, e0, e1⟩ := idx_facts ⟨(i 0).val / 1000, ht⟩
  refine ⟨⟨(i 0).val / 1000, ht⟩, Gen.flush16_5 _, ?_⟩
  rw [mem_blk]
  intro a
  match a with
  | ⟨0, _⟩ =>
    show win16_5.index ⟨(i 0).val / 1000, ht⟩ (0 : Fin 2) * 1000 ≤ (i 0).val ∧ (i 0).val < win16_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win16_5.index ⟨(i 0).val / 1000, ht⟩ (1 : Fin 2) * 64 ≤ (i 1).val ∧ (i 1).val < win16_5.index ⟨(i 0).val / 1000, ht⟩ (1 : Fin 2) * 64 + 64
    rw [e1]; omega

/-- THE ARRAY AFTER THE REGION: the update of the region's input arrays, whole. -/
theorem arr16_5 (c : Dev nD) : (Gen.dat16 (F := Ideal) V c).arrAt 5 cfg16.N
    = Cert.Spec.specUpd (V c main_v505) (V c main_v448) (V c main_v450) (V c main_v507) (V c main_v510) :=
  (Gen.dat16 (F := Ideal) V c).arrAt_eq_of_cover 5 _ (fun t _ => flushed_eq V c t) cover

end Cert.KernelIdeal.KReg16

end
-- ==== Proof.KFoldL7.lean ====
/-
  Round 8 of the nine rounds, read off the program's own operations: from the buffer contents at the round's entry
  (features in `main_v442`, state in `main_v448`, the edge end points in `main_v1` and `main_v3`) to those at its
  exit (new features in `main_v505`, new state in `main_v511`).

  The round is two stretches of host operations around two calls. The first stretch scales the state (`main_v450`),
  sums the scaled states of each edge's end points (`main_v465`) and cuts the round's score vector out of the stacked
  one (`main_v467`); the first call scores the edges (`main_v468`); the second stretch normalises the scores by the
  in-degrees, scatter-sums the weighted source features (`main_v505`) and cuts out the gate vector and bias
  (`main_v507`, `main_v510`); the second call updates the state (`main_v511`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L7

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps15 (F := Ideal)) V (Proc.devRef .tc main_v450)
      = kZs 0x3DF138B3#32 (V (Proc.devRef .tc main_v448)) := by
  dsimp only [hostOps15]; after_results_simp; rfl

/-- Each edge's sum of its end points' scaled states. -/
theorem hA_zsum (V : Valuation τ sig (Elt Ideal)) :
    StableHlo.after (hostOps15 (F := Ideal)) V (Proc.devRef .tc main_v465)
      = kZsum (kZs 0x3DF138B3#32 (V (Proc.devRef .tc main_v448))) (V (Proc.devRef .tc main_v1)) (V (Proc.devRef .tc main_v3)) := by
  dsimp only [hostOps15]; after_results_simp; rfl

/-- The round's score vector. -/
theorem hA_att (V : Valuation τ sig (Elt Ideal)) :
    StableHlo.after (hostOps15 (F := Ideal)) V (Proc.devRef .tc main_v467)
      = kAtt 7 Facts₀.slices_S9x1x64_S1x1x64_7_0_0 (V (Proc.devRef .tc main_arg7)) := by
  dsimp only [hostOps15]; after_results_simp; rfl

/-- The stretch writes no buffer of index below 569. -/
theorem hA_keep (V : Valuation τ sig (Elt Ideal)) (r : Ref sig .tc) (h : r.idx.val < 569) :
    StableHlo.after (hostOps15 (F := Ideal)) V (Proc.devRef .tc r) = V (Proc.devRef .tc r) :=
  StableHlo.after_of_forall_not_mem (b := Proc.devRef .tc r) _ _ (List.forall_iff_forall_mem.mp (by
    simp only [hostOps15, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps16 (F := Ideal)) V (Proc.devRef .tc main_v505)
      = kX (V (Proc.devRef .tc main_v442))
          (kNa (kInv (kAdj (V (Proc.devRef .tc main_v468)) (V (Proc.devRef .tc main_v3)))) (V (Proc.devRef .tc main_v468))
            (V (Proc.devRef .tc main_v1)) (V (Proc.devRef .tc main_v3)))
          (V (Proc.devRef .tc main_v1)) (V (Proc.devRef .tc main_v3)) := by
  dsimp only [hostOps16]; after_results_simp; rfl

set_option maxHeartbeats 1000000 in
/-- The round's gate vector. -/
theorem hB_hatt (V : Valuation τ sig (Elt Ideal)) :
    StableHlo.after (hostOps16 (F := Ideal)) V (Proc.devRef .tc main_v507)
      = kHatt 7 Facts₀.slices_S9x1x128_S1x1x128_7_0_0 (V (Proc.devRef .tc main_arg10)) := by
  dsimp only [hostOps16]; after_results_simp; rfl

set_option maxHeartbeats 1000000 in
/-- The round's gate bias. -/
theorem hB_hb (V : Valuation τ sig (Elt Ideal)) :
    StableHlo.after (hostOps16 (F := Ideal)) V (Proc.devRef .tc main_v510)
      = kHb 7 Facts₀.slices_S9x1_S1x1_7_0 (V (Proc.devRef .tc main_arg11)) := by
  dsimp only [hostOps16]; after_results_simp; rfl

set_option maxHeartbeats 1000000 in
/-- The stretch writes no buffer of index below 594. -/
theorem hB_keep (V : Valuation τ sig (Elt Ideal)) (r : Ref sig .tc) (h : r.idx.val < 594) :
    StableHlo.after (hostOps16 (F := Ideal)) V (Proc.devRef .tc r) = V (Proc.devRef .tc r) :=
  StableHlo.after_of_forall_not_mem (b := Proc.devRef .tc r) _ _ (List.forall_iff_forall_mem.mp (by
    simp only [hostOps16, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec15 w ≠ r := by
  have key : ∀ w, ¬ (Pipeline.arrRef spec15 w).idx.val < 21 := by decide
  exact fun w e => key w (by rw [e]; exact h)

/-- No array of the second call has an index below 21. -/
theorem lowB (r : Ref sig .tc) (h : r.idx.val < 21) : ∀ w, Pipeline.arrRef spec16 w ≠ r := by
  have key : ∀ w, ¬ (Pipeline.arrRef spec16 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v468)
      = Cert.Spec.specA (StableHlo.after (hostOps15 (F := Ideal)) U (Proc.devRef .tc main_v465))
          (StableHlo.after (hostOps15 (F := Ideal)) U (Proc.devRef .tc main_v467)))
    (hna : ∀ b : Ref sig .tc, (∀ w, Pipeline.arrRef spec15 w ≠ b) →
      U' (Proc.devRef .tc b) = StableHlo.after (hostOps15 (F := Ideal)) U (Proc.devRef .tc b))
    (hz : U'' (Proc.devRef .tc main_v511)
      = Cert.Spec.specUpd (StableHlo.after (hostOps16 (F := Ideal)) U' (Proc.devRef .tc main_v505))
          (StableHlo.after (hostOps16 (F := Ideal)) U' (Proc.devRef .tc main_v448))
          (StableHlo.after (hostOps16 (F := Ideal)) U' (Proc.devRef .tc main_v450))
          (StableHlo.after (hostOps16 (F := Ideal)) U' (Proc.devRef .tc main_v507))
          (StableHlo.after (hostOps16 (F := Ideal)) U' (Proc.devRef .tc main_v510)))
    (hx : U'' (Proc.devRef .tc main_v505) = StableHlo.after (hostOps16 (F := Ideal)) U' (Proc.devRef .tc main_v505))
    (hnb : ∀ b : Ref sig .tc, (∀ w, Pipeline.arrRef spec16 w ≠ b) →
      U'' (Proc.devRef .tc b) = StableHlo.after (hostOps16 (F := Ideal)) U' (Proc.devRef .tc b)) :
    U'' (Proc.devRef .tc main_v505)
        = kXNew 0x3DF138B3#32 (kAtt 7 Facts₀.slices_S9x1x64_S1x1x64_7_0_0 (U (Proc.devRef .tc main_arg7)))
            (U (Proc.devRef .tc main_v1)) (U (Proc.devRef .tc main_v3))
            (U (Proc.devRef .tc main_v442)) (U (Proc.devRef .tc main_v448))
      ∧ U'' (Proc.devRef .tc main_v511)
        = kZNew 0x3DF138B3#32 (kAtt 7 Facts₀.slices_S9x1x64_S1x1x64_7_0_0 (U (Proc.devRef .tc main_arg7)))
            (kHatt 7 Facts₀.slices_S9x1x128_S1x1x128_7_0_0 (U (Proc.devRef .tc main_arg10)))
            (kHb 7 Facts₀.slices_S9x1_S1x1_7_0 (U (Proc.devRef .tc main_arg11)))
            (U (Proc.devRef .tc main_v1)) (U (Proc.devRef .tc main_v3))
            (U (Proc.devRef .tc main_v442)) (U (Proc.devRef .tc main_v448))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v442) = U (Proc.devRef .tc main_v442) :=
    (hna main_v442 (by decide)).trans (hA_keep U main_v442 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v468)
      = Cert.Spec.specA (kZsum (kZs 0x3DF138B3#32 (U (Proc.devRef .tc main_v448))) (U (Proc.devRef .tc main_v1)) (U (Proc.devRef .tc main_v3)))
          (kAtt 7 Facts₀.slices_S9x1x64_S1x1x64_7_0_0 (U (Proc.devRef .tc main_arg7))) := by
    rw [ha, hA_zsum, hA_att]
  -- what the second call finds
  have ez : StableHlo.after (hostOps16 (F := Ideal)) U' (Proc.devRef .tc main_v448) = U (Proc.devRef .tc main_v448) :=
    (hB_keep U' main_v448 (by decide)).trans ((hna main_v448 (by decide)).trans (hA_keep U main_v448 (by decide)))
  have ezs : StableHlo.after (hostOps16 (F := Ideal)) U' (Proc.devRef .tc main_v450)
      = kZs 0x3DF138B3#32 (U (Proc.devRef .tc main_v448)) :=
    (hB_keep U' main_v450 (by decide)).trans ((hna main_v450 (by decide)).trans (hA_zs U))
  have eX : StableHlo.after (hostOps16 (F := Ideal)) U' (Proc.devRef .tc main_v505)
      = kXNew 0x3DF138B3#32 (kAtt 7 Facts₀.slices_S9x1x64_S1x1x64_7_0_0 (U (Proc.devRef .tc main_arg7)))
          (U (Proc.devRef .tc main_v1)) (U (Proc.devRef .tc main_v3))
          (U (Proc.devRef .tc main_v442)) (U (Proc.devRef .tc main_v448)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L7

end
-- ==== Proof.KFoldS7.lean ====
/-
  Round 8 of the nine rounds on the program's own run: the round's module is about any buffer contents; here they
  are the contents at the program's boundaries — `W30` at the round's entry, `W32` after its first call, `W34` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg15
import proofs.«404001_j15436112461850_3_alg».proof.Proof.KReg16
import proofs.«404001_j15436112461850_3_alg».proof.Proof.KFoldL7
import proofs.«404001_j15436112461850_3_alg».proof.Proof.KFoldLow

set_option maxRecDepth 16384

noncomputable section

namespace Cert.KernelIdeal.KFold.S7

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W30 m ρ c (Proc.devRef .tc main_v442) = s.1) (hZ : W30 m ρ c (Proc.devRef .tc main_v448) = s.2)
    (hl : Low e1 b2 b7 b10 b11 b12 b13 (W30 m ρ c)) :
    W34 m ρ c (Proc.devRef .tc main_v505)
        = kXNew 0x3DF138B3#32 (kAtt 7 Facts₀.slices_S9x1x64_S1x1x64_7_0_0 b7) (kSrc e1) (kDst e1) s.1 s.2
      ∧ W34 m ρ c (Proc.devRef .tc main_v511)
        = kZNew 0x3DF138B3#32 (kAtt 7 Facts₀.slices_S9x1x64_S1x1x64_7_0_0 b7)
            (kHatt 7 Facts₀.slices_S9x1x128_S1x1x128_7_0_0 b10) (kHb 7 Facts₀.slices_S9x1_S1x1_7_0 b11)
            (kSrc e1) (kDst e1) s.1 s.2
      ∧ Low e1 b2 b7 b10 b11 b12 b13 (W34 m ρ c) := by
  have R := L7.round (W30 m ρ c) (W32 m ρ c) (W34 m ρ c)
    ((W32_arr m ρ c 2).trans (KReg15.arr15_2 (V31 m ρ) c))
    (fun b hb => W32_of_ne m ρ c b hb)
    ((W34_arr m ρ c 5).trans (KReg16.arr16_5 (V33 m ρ) c))
    ((W34_arr m ρ c 0).trans (((dat16 (V33 m ρ) c).arrAt_in 0 rfl _).trans (A_eq16 (V33 m ρ) c 0)))
    (fun b hb => W34_of_ne m ρ c b hb)
  rw [hl.h7, hl.hsrc, hl.hdst, hl.h10, hl.h11, hX, hZ] at R
  exact ⟨R.1, R.2.1, hl.of_same R.2.2⟩

end Cert.KernelIdeal.KFold.S7

end
-- ==== Proof.KReg17.lean ====
/-
  The edge scores of a round, as one function of whole arrays.

  The region reads the edge features `zsum : [320000, 64]` in forty row blocks of 8000 and the attention vector
  `att : [1, 64]` whole, and writes the scores `a : [320000, 1]` block by block. At a row `p` of a block the body
  computes `Σ_k att[0, k] · elu (z[p, k])` (a product with the broadcast row, a sum over the 64 columns, the sums
  stood up as a column), then the softplus of that sum plus the small constant. Row `p` of block `t` is row
  `8000 t + p` of the array, every row `r` lies in block `r / 8000`, so the array the region leaves is
  `a[e, 0] = softplus (Σ_k att[0, k] · elu (zsum[e, k])) + ε` at every edge `e`.
-/
import proofs.«404001_j15436112461850_3_alg».proof.Proof.FrameKI.R17
import proofs.«404001_j15436112461850_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KReg17

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (eluS softplusS epsE specA)

/-! ## The body's arithmetic at a row -/

/-- A length-8000 vector viewed as a column reads, at row `p`, its entry `p`. -/
theorem column_apply (x : FVec Ideal S8000 .f32) (p : Fin 8000) (u : Fin 1) :
    shapeCast S8000x1 x shapeCasts_S8000_S8000x1 (ix2 p u) = x (ix1 p) :=
  shapeCast_apply x shapeCasts_S8000_S8000x1 (ix2 p u) (ix1 p) (by
    have hu : u.val = 0 := by omega
    rw [Shape.rowMajor_val_one, Shape.rowMajor_val_two]
    show p.val = p.val * 1 + u.val
    rw [hu, Nat.mul_one, Nat.add_zero])

/-- The weighted ELU row sums of a block, as a column: `Σ_k att[0, k] · elu (z[p, k])` at row `p`. -/
def rowDots (z : FVec Ideal S8000x64 .f32) (att : FVec Ideal S1x64 .f32) : FVec Ideal S8000x1 .f32 :=
  shapeCast S8000x1
    (multiReduction (F := Ideal) .add [1] S8000
      (mulf (broadcastTo S8000x64 (shapeCast S1x64 att shapeCasts_S1x64_S1x64) broadcasts_S1x64_S8000x64)
        (select (cmpf .ogt (shapeCast S8000x64 z shapeCasts_S8000x64_S8000x64) (broadcast S8000x64 (Scalar.ofBits .f32 0x00000000#32)))
          (shapeCast S8000x64 z shapeCasts_S8000x64_S8000x64)
          (subf (exp (minimumf (shapeCast S8000x64 z shapeCasts_S8000x64_S8000x64) (broadcast S8000x64 (Scalar.ofBits .f32 0x00000000#32))))
            (broadcast S8000x64 (Scalar.ofBits .f32 0x3F800000#32)))))
      0x00000000#32 reduces_S8000x64_S8000 (.inl rfl) rfl)
    shapeCasts_S8000_S8000x1

/-- The stored block at row `p` is the softplus of that row's weighted sum, plus the small constant. -/
theorem pay_rowDots (z : Vec Ideal S8000x64 .f32) (att : Vec Ideal S1x64 .f32) (p : Fin 8000) (u : Fin 1) :
    k17_pay1 (F := Ideal) z att (ix2 p u) = softplusS (rowDots z att (ix2 p u)) + epsE := rfl

/-- The row sum at row `p`, as a sum over the 64 columns. -/
theorem rowDots_apply (z : Vec Ideal S8000x64 .f32) (att : Vec Ideal S1x64 .f32) (p : Fin 8000) (u : Fin 1) :
    rowDots z att (ix2 p u) = ∑ k : Fin 64, att (ix2 0 k) * eluS (z (ix2 p k)) := by
  unfold rowDots
  rw [shapeCast_self, shapeCast_self]
  refine (column_apply _ p u).trans ?_
  refine (Ideal.multiReduction_add_single _ 0x00000000#32 reduces_S8000x64_S8000 (.inl rfl) rfl (ix1 p)).trans ?_
  refine Finset.sum_congr rfl fun (k : Fin 64) _ => ?_
  have hl : reduces_S8000x64_S8000.lift (ix1 p) k = ix2 p k :=
    funext fun a => Fin.ext (match a with | ⟨0, _⟩ => rfl | ⟨1, _⟩ => rfl)
  rw [hl]
  show broadcastTo S8000x64 att broadcasts_S1x64_S8000x64 (ix2 p k) * eluS (z (ix2 p k)) = _
  rw [broadcastTo_1b_ab_apply att broadcasts_S1x64_S8000x64 p k]

/-- The stored block at row `p`, in the mathematics' words. -/
theorem pay_apply (z : Vec Ideal S8000x64 .f32) (att : Vec Ideal S1x64 .f32) (p : Fin 8000) (u : Fin 1) :
    k17_pay1 (F := Ideal) z att (ix2 p u) = softplusS (∑ k : Fin 64, att (ix2 0 k) * eluS (z (ix2 p k))) + epsE := by
  rw [pay_rowDots, rowDots_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: point `t` takes row block `t` of the edge features and of the scores, and the
    whole attention vector. -/
theorem block_indices : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

/-- The edge scores at an edge, spelt out. -/
theorem specA_apply (zsum : Cert.Spec.V2 320000 64) (att : Cert.Spec.V2 1 64) (i : S320000x1.Idx) :
    specA zsum att i = softplusS (∑ k : Fin 64, att (ix2 0 k) * eluS (zsum (ix2 ⟨(i 0).val, idx2_lt0 i⟩ k))) + epsE := rfl

/-- Point `t`'s block of the edge features is rows `8000 t … 8000 t + 7999` of the array. -/
theorem zblock_apply (c : Dev nD) (t : Fin cfg17.N) (p : Fin 8000) (k : Fin 64) (i : S320000x64.Idx)
    (hi0 : (i 0).val = t.val * 8000 + p.val) (hi1 : (i 1).val = k.val) :
    (iblk17 V c 0 t : Vec Ideal S8000x64 .f32) (ix2 p k) = (V c main_v528 : S320000x64.Idx → Elt Ideal .f32) i := by
  obtain ⟨e0, e1, -⟩ := block_indices t
  unfold iblk17
  rw [View.read_apply]
  show V c main_v528 _ = V c main_v528 _
  congr 1
  funext a
  apply Fin.ext
  match a with
  | ⟨0, _⟩ => show win17_0.index t (0 : Fin 2) * 8000 + 1 * p.val = (i 0).val; rw [e0, hi0]; omega
  | ⟨1, _⟩ => show win17_0.index t (1 : Fin 2) * 64 + 1 * k.val = (i 1).val; rw [e1, hi1]; omega

/-- Every point's block of the attention vector is the whole vector. -/
theorem attblock_apply (c : Dev nD) (t : Fin cfg17.N) (k : Fin 64) :
    (iblk17 V c 1 t : Vec Ideal S1x64 .f32) (ix2 0 k) = (V c main_v530 : S1x64.Idx → Elt Ideal .f32) (ix2 0 k) := by
  obtain ⟨-, -, e0, e1, -⟩ := block_indices t
  unfold iblk17
  rw [View.read_apply]
  show V c main_v530 _ = V c main_v530 _
  congr 1
  funext a
  apply Fin.ext
  match a with
  | ⟨0, _⟩ => show win17_1.index t (0 : Fin 2) * 1 + 1 * 0 = 0; rw [e0]
  | ⟨1, _⟩ => show win17_1.index t (1 : Fin 2) * 64 + 1 * k.val = k.val; rw [e1]; omega

/-- WHAT POINT `t` WRITES BACK is block `t` of the edge scores of the arrays as the region finds them. -/
theorem flushed_eq (c : Dev nD) (t : Fin cfg17.N) :
    (dat17 (F := Ideal) V c).flushed 2 t
      = ((cfg17.win 2).blk t).view.read (Elt Ideal) (specA (V c main_v528) (V c main_v530)) := by
  show (cfg17.win 2).cut (grid17.coords t) ((dat17 V c).after 2 t) = _
  rw [after17_2]
  unfold out17_2
  rw [View.canon_unit_zero zero_offsets]
  simp only [View.ld_unit_zero (S := S8000x64) zero_offsets, View.ld_unit_zero (S := S1x64) zero_offsets]
  obtain ⟨-, -, -, -, e0, e1⟩ := block_indices t
  funext j
  have h0 : (j 0).val < 8000 := (j 0).isLt
  have h1 : (j 1).val < 1 := (j 1).isLt
  have hx : (cfg17.win 2).xinj (grid17.coords t) j = ix2 (⟨(j 0).val, h0⟩ : Fin 8000) (⟨(j 1).val, h1⟩ : Fin 1) :=
    funext fun a => Fin.ext (match a with | ⟨0, _⟩ => rfl | ⟨1, _⟩ => rfl)
  show k17_pay1 (F := Ideal) (iblk17 V c 0 t) (iblk17 V c 1 t) ((cfg17.win 2).xinj (grid17.coords t) j)
    = specA (V c main_v528) (V c main_v530) (((cfg17.win 2).blk t).view.emb j)
  rw [hx]
  refine (pay_apply (iblk17 V c 0 t) (iblk17 V c 1 t) ⟨(j 0).val, h0⟩ ⟨(j 1).val, h1⟩).trans ?_
  refine Eq.trans ?_ (specA_apply (V c main_v528) (V c main_v530) (((cfg17.win 2).blk t).view.emb j)).symm
  refine congrArg (fun s => softplusS s + epsE) (Finset.sum_congr rfl fun k _ => ?_)
  refine congrArg₂ (fun a z => a * eluS z) (attblock_apply V c t k) ?_
  refine zblock_apply V c t ⟨(j 0).val, h0⟩ k _ ?_ rfl
  show win17_2.index t (0 : Fin 2) * 8000 + 1 * (j 0).val = t.val * 8000 + (j 0).val
  rw [e0]; omega

/-- An edge is in point `t`'s block iff its row is among the block's 8000. -/
theorem mem_block (t : Fin cfg17.N) (i : S320000x1.Idx) :
    i ∈ ((cfg17.win 2).blk t).view.set
      ↔ ∀ a : Fin 2, win17_2.index t a * S8000x1.size a ≤ (i a).val ∧ (i a).val < win17_2.index t a * S8000x1.size a + S8000x1.size a := by
  show i ∈ ((View.whole main_v531).slice (win17_2.rect t)).set ↔ _
  rw [View.set_slice_whole, Rect.mem_set_unit]
  exact Iff.rfl

/-- Every edge is in the block of the point its row falls to: row `r` in block `r / 8000`. -/
theorem covered (i : S320000x1.Idx) :
    ∃ t : Fin cfg17.N, (cfg17.win 2).flush t = true ∧ i ∈ ((cfg17.win 2).blk t).view.set := by
  have hi0 : (i 0).val < 320000 := (i 0).isLt
  have hi1 : (i 1).val < 1 := (i 1).isLt
  have hN : cfg17.N = 40 := N_17
  let t : Fin cfg17.N := ⟨(i 0).val / 8000, by rw [hN]; omega⟩
  obtain ⟨-, -, -, -, e0, e1⟩ := block_indices t
  have ht : t.val = (i 0).val / 8000 := rfl
  refine ⟨t, flush17_2 t, ?_⟩
  rw [mem_block]
  intro a
  match a with
  | ⟨0, _⟩ =>
    show win17_2.index t (0 : Fin 2) * 8000 ≤ (i 0).val ∧ (i 0).val < win17_2.index t (0 : Fin 2) * 8000 + 8000
    rw [e0, ht]; omega
  | ⟨1, _⟩ =>
    show win17_2.index t (1 : Fin 2) * 1 ≤ (i 1).val ∧ (i 1).val < win17_2.index t (1 : Fin 2) * 1 + 1
    rw [e1]; omega

/-- THE ARRAY of edge scores after the region: the specification's function of the two arrays the region read. -/
theorem arr17_2 (c : Dev nD) :
    (Gen.dat17 (F := Ideal) V c).arrAt 2 cfg17.N = Cert.Spec.specA (V c main_v528) (V c main_v530) :=
  (dat17 (F := Ideal) V c).arrAt_eq_of_cover 2 (specA (V c main_v528) (V c main_v530)) (fun t _ => flushed_eq V c t) covered

end Cert.KernelIdeal.KReg17

end
-- ==== Proof.KReg18.lean ====
/-
  The value of the last state-update region: after the region the state array is, whole, `elu (z + x · gate)` of the arrays the
  region finds — `x` the new features, `z` the state, `zs` the scaled state, and a row's gate
  `Σ_k att[0, k] · elu ([x, zs][n, k]) + bias[0, 0]` over the 128 columns of `[x, zs]`.

  The stored block over rows `1000 t … 1000 t + 999` of the arrays is those rows of the update (the module of the
  stored value). Here the grid: each window's block at point `t` is rows `1000 t …` of its array (the two small
  windows: the whole array), so what point `t` writes back is block `t` of the update (`flushed_eq`); the ten blocks
  cover the array (row `r` lies in block `r / 1000`), so the array ends holding the update (the last theorem).
-/
import proofs.«404001_j15436112461850_3_alg».proof.Proof.FrameKI.R18
import proofs.«404001_j15436112461850_3_alg».proof.Proof.Spec
import proofs.«404001_j15436112461850_3_alg».proof.Proof.KUpdPay
import Idealize.ShloMosaic.Lib.Pipeline.Value
import Idealize.ShloMosaic.Lib.ValueIdx

set_option maxRecDepth 16384

noncomputable section

namespace Cert.KernelIdeal.KReg18
open Cert.KernelIdeal Cert.KernelIdeal.Gen Cert.KernelIdeal.KUpd
open Idealize.ShloMosaic Idealize.ShloMosaic.TcCoe Idealize.ShloMosaic.ValueIdx
open Idealize.ShloMosaic.Pipeline (Dat)
open Cert.Spec (E V2)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below ten. -/
def pt (t : Fin cfg18.N) : Fin 10 := ⟨t.val, lt_of_lt_of_eq t.isLt N_18⟩

/-- The index maps, decided over the ten grid points: the row-block windows sit at block `(t, 0)`, the two small
    windows at `(0, 0)`. -/
theorem idx_facts : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

/-- Window 0's block at point `t` is rows `1000 t …` of its array. -/
theorem blk0_rows (c : Dev nD) (t : Fin cfg18.N) : Gen.iblk18 V c 0 t = rows (V c main_v568) (pt t) := by
  obtain ⟨e0, e1, -⟩ := idx_facts t
  funext j
  unfold Gen.iblk18
  rw [View.read_apply]
  show V c main_v568 (((cfg18.win 0).blk t).view.emb j) = V c main_v568 _
  congr 1
  funext a; apply Fin.ext
  match a with
  | ⟨0, _⟩ => show win18_0.index t (0 : Fin 2) * 1000 + 1 * (j 0).val = t.val * 1000 + (j 0).val; rw [e0]; omega
  | ⟨1, _⟩ => show win18_0.index t (1 : Fin 2) * 64 + 1 * (j 1).val = (j 1).val; rw [e1]; omega

/-- Window 1's block at point `t` is rows `1000 t …` of its array. -/
theorem blk1_rows (c : Dev nD) (t : Fin cfg18.N) : Gen.iblk18 V c 1 t = rows (V c main_v511) (pt t) := by
  obtain ⟨-, -, e0, e1, -⟩ := idx_facts t
  funext j
  unfold Gen.iblk18
  rw [View.read_apply]
  show V c main_v511 (((cfg18.win 1).blk t).view.emb j) = V c main_v511 _
  congr 1
  funext a; apply Fin.ext
  match a with
  | ⟨0, _⟩ => show win18_1.index t (0 : Fin 2) * 1000 + 1 * (j 0).val = t.val * 1000 + (j 0).val; rw [e0]; omega
  | ⟨1, _⟩ => show win18_1.index t (1 : Fin 2) * 64 + 1 * (j 1).val = (j 1).val; rw [e1]; omega

/-- Window 2's block at point `t` is rows `1000 t …` of its array. -/
theorem blk2_rows (c : Dev nD) (t : Fin cfg18.N) : Gen.iblk18 V c 2 t = rows (V c main_v513) (pt t) := by
  obtain ⟨-, -, -, -, e0, e1, -⟩ := idx_facts t
  funext j
  unfold Gen.iblk18
  rw [View.read_apply]
  show V c main_v513 (((cfg18.win 2).blk t).view.emb j) = V c main_v513 _
  congr 1
  funext a; apply Fin.ext
  match a with
  | ⟨0, _⟩ => show win18_2.index t (0 : Fin 2) * 1000 + 1 * (j 0).val = t.val * 1000 + (j 0).val; rw [e0]; omega
  | ⟨1, _⟩ => show win18_2.index t (1 : Fin 2) * 64 + 1 * (j 1).val = (j 1).val; rw [e1]; omega

/-- Window 3's block at every point is its whole one-row array. -/
theorem blk3_whole (c : Dev nD) (t : Fin cfg18.N) : Gen.iblk18 V c 3 t = V c main_v570 := by
  obtain ⟨-, -, -, -, -, -, e0, e1, -⟩ := idx_facts t
  funext j
  unfold Gen.iblk18
  rw [View.read_apply]
  show V c main_v570 (((cfg18.win 3).blk t).view.emb j) = V c main_v570 j
  congr 1
  funext a; apply Fin.ext
  match a with
  | ⟨0, _⟩ => show win18_3.index t (0 : Fin 2) * 1 + 1 * (j 0).val = (j 0).val; rw [e0]; omega
  | ⟨1, _⟩ => show win18_3.index t (1 : Fin 2) * 128 + 1 * (j 1).val = (j 1).val; rw [e1]; omega

/-- Window 4's block at every point is its whole one-element array. -/
theorem blk4_whole (c : Dev nD) (t : Fin cfg18.N) : Gen.iblk18 V c 4 t = V c main_v573 := by
  obtain ⟨-, -, -, -, -, -, -, -, e0, e1, -⟩ := idx_facts t
  funext j
  unfold Gen.iblk18
  rw [View.read_apply]
  show V c main_v573 (((cfg18.win 4).blk t).view.emb j) = V c main_v573 j
  congr 1
  funext a; apply Fin.ext
  match a with
  | ⟨0, _⟩ => show win18_4.index t (0 : Fin 2) * 1 + 1 * (j 0).val = (j 0).val; rw [e0]; omega
  | ⟨1, _⟩ => show win18_4.index t (1 : Fin 2) * 1 + 1 * (j 1).val = (j 1).val; rw [e1]; omega

/-- The output window's block at point `t`, read off any array `G`, is rows `1000 t …` of `G`. -/
theorem out_rows (t : Fin cfg18.N) (G : V2 10000 64) : ((cfg18.win 5).blk t).view.read (Elt Ideal) G = rows G (pt t) := by
  obtain ⟨-, -, -, -, -, -, -, -, -, -, e0, e1⟩ := idx_facts t
  funext j
  rw [View.read_apply]
  show G (((cfg18.win 5).blk t).view.emb j) = G _
  congr 1
  funext a; apply Fin.ext
  match a with
  | ⟨0, _⟩ => show win18_5.index t (0 : Fin 2) * 1000 + 1 * (j 0).val = t.val * 1000 + (j 0).val; rw [e0]; omega
  | ⟨1, _⟩ => show win18_5.index t (1 : Fin 2) * 64 + 1 * (j 1).val = (j 1).val; rw [e1]; omega

/-- The output window is uncut: what a write-back moves of a staging buffer's contents is all of them. -/
theorem cut_id (t : Fin cfg18.N) (P : FVec Ideal S1000x64 .f32) : (cfg18.win 5).cut (grid18.coords t) P = P := rfl

/-- WHAT POINT `t` WRITES BACK is block `t` of the update of the arrays as the region finds them. -/
theorem flushed_eq (c : Dev nD) (t : Fin cfg18.N) :
    (Gen.dat18 (F := Ideal) V c).flushed 5 t = ((cfg18.win 5).blk t).view.read (Elt Ideal)
      (Cert.Spec.specUpdLast (V c main_v568) (V c main_v511) (V c main_v513) (V c main_v570) (V c main_v573)) := by
  show (cfg18.win 5).cut (grid18.coords t) ((Gen.dat18 V c).after 5 t) = _
  rw [Gen.after18_5]
  unfold Gen.out18_5
  rw [View.canon_unit_zero hz]
  simp only [View.ld_unit_zero (S := S1000x64) hz, View.ld_unit_zero (S := S1x128) hz, View.ld_unit_zero (S := S1x1) hz]
  rw [blk0_rows, blk1_rows, blk2_rows, blk3_whole, blk4_whole, out_rows]
  exact (cut_id t _).trans (pay_rows_last _ _ _ _ _ _)

/-- An index of the array is in point `t`'s block iff each coordinate is in the block's range on its axis. -/
theorem mem_blk (t : Fin cfg18.N) (i : S10000x64.Idx) :
    i ∈ ((cfg18.win 5).blk t).view.set ↔ ∀ a : Fin 2, win18_5.index t a * S1000x64.size a ≤ (i a).val ∧ (i a).val < win18_5.index t a * S1000x64.size a + S1000x64.size a := by
  show i ∈ ((View.whole main_v574).slice (win18_5.rect t)).set ↔ _
  rw [View.set_slice_whole, Rect.mem_set_unit]
  exact Iff.rfl

/-- Every index of the array is in the block of the point its row falls in: row `r` in point `r / 1000`'s. -/
theorem cover (i : S10000x64.Idx) : ∃ t : Fin cfg18.N, (cfg18.win 5).flush t = true ∧ i ∈ ((cfg18.win 5).blk t).view.set := by
  have hi0 : (i 0).val < 10000 := (i 0).isLt
  have hi1 : (i 1).val < 64 := (i 1).isLt
  have ht : (i 0).val / 1000 < cfg18.N := by rw [show cfg18.N = 10 from N_18]; omega
  obtain ⟨-, -, -, -, -, -, -, -, -, -, e0, e1⟩ := idx_facts ⟨(i 0).val / 1000, ht⟩
  refine ⟨⟨(i 0).val / 1000, ht⟩, Gen.flush18_5 _, ?_⟩
  rw [mem_blk]
  intro a
  match a with
  | ⟨0, _⟩ =>
    show win18_5.index ⟨(i 0).val / 1000, ht⟩ (0 : Fin 2) * 1000 ≤ (i 0).val ∧ (i 0).val < win18_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win18_5.index ⟨(i 0).val / 1000, ht⟩ (1 : Fin 2) * 64 ≤ (i 1).val ∧ (i 1).val < win18_5.index ⟨(i 0).val / 1000, ht⟩ (1 : Fin 2) * 64 + 64
    rw [e1]; omega

/-- THE ARRAY AFTER THE REGION: the update of the region's input arrays, whole. -/
theorem arr18_5 (c : Dev nD) : (Gen.dat18 (F := Ideal) V c).arrAt 5 cfg18.N
    = Cert.Spec.specUpdLast (V c main_v568) (V c main_v511) (V c main_v513) (V c main_v570) (V c main_v573) :=
  (Gen.dat18 (F := Ideal) V c).arrAt_eq_of_cover 5 _ (fun t _ => flushed_eq V c t) cover

end Cert.KernelIdeal.KReg18

end
-- ==== Proof.KFoldL8.lean ====
/-
  Round 9 of the nine rounds, read off the program's own operations: from the buffer contents at the round's entry
  (features in `main_v505`, state in `main_v511`, the edge end points in `main_v1` and `main_v3`) to those at its
  exit (new features in `main_v568`, new state in `main_v574`).

  The round is two stretches of host operations around two calls. The first stretch scales the state (`main_v513`),
  sums the scaled states of each edge's end points (`main_v528`) and cuts the round's score vector out of the stacked
  one (`main_v530`); the first call scores the edges (`main_v531`); the second stretch normalises the scores by the
  in-degrees, scatter-sums the weighted source features (`main_v568`) and cuts out the gate vector and bias
  (`main_v570`, `main_v573`); the second call updates the state (`main_v574`).

  Everything here is about ANY buffer contents `U` at the entry, `U'` after the first call and `U''` after the second:
  what the calls leave is taken as hypotheses (`ha`, `hz`: their output arrays; `hx`: an input array is left as
  entered; `hna`, `hnb`: every buffer that is not one of a call's arrays is left alone). A buffer of index below the
  first one a stretch writes is not written by it (`hA_keep`, `hB_keep`): the program numbers its buffers in the
  order it defines them.
-/
import proofs.«404001_j15436112461850_3_alg».proof.Proof.KGlue
import proofs.«404001_j15436112461850_3_alg».proof.Proof.Gen.KernelIdeal.Launch
import Idealize.ShloMosaic.Lib.StableHlo.Run

noncomputable section

namespace Cert.KernelIdeal.KFold.L8

open Idealize.ShloMosaic Idealize.ShloMosaic.TcCoe Cert.KernelIdeal Cert.KernelIdeal.Gen Cert.KernelIdeal.KGlue

/-! ## The first stretch -/

/-- The scaled state. -/
theorem hA_zs (V : Valuation τ sig (Elt Ideal)) :
    StableHlo.after (hostOps17 (F := Ideal)) V (Proc.devRef .tc main_v513)
      = kZs 0x3DD7C7BA#32 (V (Proc.devRef .tc main_v511)) := by
  dsimp only [hostOps17]; after_results_simp; rfl

/-- Each edge's sum of its end points' scaled states. -/
theorem hA_zsum (V : Valuation τ sig (Elt Ideal)) :
    StableHlo.after (hostOps17 (F := Ideal)) V (Proc.devRef .tc main_v528)
      = kZsum (kZs 0x3DD7C7BA#32 (V (Proc.devRef .tc main_v511))) (V (Proc.devRef .tc main_v1)) (V (Proc.devRef .tc main_v3)) := by
  dsimp only [hostOps17]; after_results_simp; rfl

/-- The round's score vector. -/
theorem hA_att (V : Valuation τ sig (Elt Ideal)) :
    StableHlo.after (hostOps17 (F := Ideal)) V (Proc.devRef .tc main_v530)
      = kAtt 8 Facts₀.slices_S9x1x64_S1x1x64_8_0_0 (V (Proc.devRef .tc main_arg7)) := by
  dsimp only [hostOps17]; after_results_simp; rfl

/-- The stretch writes no buffer of index below 647. -/
theorem hA_keep (V : Valuation τ sig (Elt Ideal)) (r : Ref sig .tc) (h : r.idx.val < 647) :
    StableHlo.after (hostOps17 (F := Ideal)) V (Proc.devRef .tc r) = V (Proc.devRef .tc r) :=
  StableHlo.after_of_forall_not_mem (b := Proc.devRef .tc r) _ _ (List.forall_iff_forall_mem.mp (by
    simp only [hostOps17, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The second stretch -/

set_option maxHeartbeats 1000000 in
/-- The new features: the scores normalised by both end points' in-degree sums, then the weighted scatter-sum. -/
theorem hB_x (V : Valuation τ sig (Elt Ideal)) :
    StableHlo.after (hostOps18 (F := Ideal)) V (Proc.devRef .tc main_v568)
      = kX (V (Proc.devRef .tc main_v505))
          (kNa (kInv (kAdj (V (Proc.devRef .tc main_v531)) (V (Proc.devRef .tc main_v3)))) (V (Proc.devRef .tc main_v531))
            (V (Proc.devRef .tc main_v1)) (V (Proc.devRef .tc main_v3)))
          (V (Proc.devRef .tc main_v1)) (V (Proc.devRef .tc main_v3)) := by
  dsimp only [hostOps18]; after_results_simp; rfl

set_option maxHeartbeats 1000000 in
/-- The round's gate vector. -/
theorem hB_hatt (V : Valuation τ sig (Elt Ideal)) :
    StableHlo.after (hostOps18 (F := Ideal)) V (Proc.devRef .tc main_v570)
      = kHatt 8 Facts₀.slices_S9x1x128_S1x1x128_8_0_0 (V (Proc.devRef .tc main_arg10)) := by
  dsimp only [hostOps18]; after_results_simp; rfl

set_option maxHeartbeats 1000000 in
/-- The round's gate bias. -/
theorem hB_hb (V : Valuation τ sig (Elt Ideal)) :
    StableHlo.after (hostOps18 (F := Ideal)) V (Proc.devRef .tc main_v573)
      = kHb 8 Facts₀.slices_S9x1_S1x1_8_0 (V (Proc.devRef .tc main_arg11)) := by
  dsimp only [hostOps18]; after_results_simp; rfl

set_option maxHeartbeats 1000000 in
/-- The stretch writes no buffer of index below 672. -/
theorem hB_keep (V : Valuation τ sig (Elt Ideal)) (r : Ref sig .tc) (h : r.idx.val < 672) :
    StableHlo.after (hostOps18 (F := Ideal)) V (Proc.devRef .tc r) = V (Proc.devRef .tc r) :=
  StableHlo.after_of_forall_not_mem (b := Proc.devRef .tc r) _ _ (List.forall_iff_forall_mem.mp (by
    simp only [hostOps18, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd h (by decide))))

/-! ## The calls' arrays lie above the low buffers -/

/-- No array of the first call has an index below 21. -/
theorem lowA (r : Ref sig .tc) (h : r.idx.val < 21) : ∀ w, Pipeline.arrRef spec17 w ≠ r := by
  have key : ∀ w, ¬ (Pipeline.arrRef spec17 w).idx.val < 21 := by decide
  exact fun w e => key w (by rw [e]; exact h)

/-- No array of the second call has an index below 21. -/
theorem lowB (r : Ref sig .tc) (h : r.idx.val < 21) : ∀ w, Pipeline.arrRef spec18 w ≠ r := by
  have key : ∀ w, ¬ (Pipeline.arrRef spec18 w).idx.val < 21 := by decide
  exact fun w e => key w (by rw [e]; exact h)

/-! ## The round -/

/-- The round on buffer contents: the new features and the new state are the round's functions of the features,
    the state, the edge end points and the three stacked parameter arrays as the entry contents have them, and
    every buffer of index below 21 (the arguments and what the first stretch of the program prepared) is as at
    the entry. -/
theorem round (U U' U'' : Valuation τ sig (Elt Ideal))
    (ha : U' (Proc.devRef .tc main_v531)
      = Cert.Spec.specA (StableHlo.after (hostOps17 (F := Ideal)) U (Proc.devRef .tc main_v528))
          (StableHlo.after (hostOps17 (F := Ideal)) U (Proc.devRef .tc main_v530)))
    (hna : ∀ b : Ref sig .tc, (∀ w, Pipeline.arrRef spec17 w ≠ b) →
      U' (Proc.devRef .tc b) = StableHlo.after (hostOps17 (F := Ideal)) U (Proc.devRef .tc b))
    (hz : U'' (Proc.devRef .tc main_v574)
      = Cert.Spec.specUpdLast (StableHlo.after (hostOps18 (F := Ideal)) U' (Proc.devRef .tc main_v568))
          (StableHlo.after (hostOps18 (F := Ideal)) U' (Proc.devRef .tc main_v511))
          (StableHlo.after (hostOps18 (F := Ideal)) U' (Proc.devRef .tc main_v513))
          (StableHlo.after (hostOps18 (F := Ideal)) U' (Proc.devRef .tc main_v570))
          (StableHlo.after (hostOps18 (F := Ideal)) U' (Proc.devRef .tc main_v573)))
    (hx : U'' (Proc.devRef .tc main_v568) = StableHlo.after (hostOps18 (F := Ideal)) U' (Proc.devRef .tc main_v568))
    (hnb : ∀ b : Ref sig .tc, (∀ w, Pipeline.arrRef spec18 w ≠ b) →
      U'' (Proc.devRef .tc b) = StableHlo.after (hostOps18 (F := Ideal)) U' (Proc.devRef .tc b)) :
    U'' (Proc.devRef .tc main_v568)
        = kXNew 0x3DD7C7BA#32 (kAtt 8 Facts₀.slices_S9x1x64_S1x1x64_8_0_0 (U (Proc.devRef .tc main_arg7)))
            (U (Proc.devRef .tc main_v1)) (U (Proc.devRef .tc main_v3))
            (U (Proc.devRef .tc main_v505)) (U (Proc.devRef .tc main_v511))
      ∧ U'' (Proc.devRef .tc main_v574)
        = kZLast 0x3DD7C7BA#32 (kAtt 8 Facts₀.slices_S9x1x64_S1x1x64_8_0_0 (U (Proc.devRef .tc main_arg7)))
            (kHatt 8 Facts₀.slices_S9x1x128_S1x1x128_8_0_0 (U (Proc.devRef .tc main_arg10)))
            (kHb 8 Facts₀.slices_S9x1_S1x1_8_0 (U (Proc.devRef .tc main_arg11)))
            (U (Proc.devRef .tc main_v1)) (U (Proc.devRef .tc main_v3))
            (U (Proc.devRef .tc main_v505)) (U (Proc.devRef .tc main_v511))
      ∧ ∀ r : Ref sig .tc, r.idx.val < 21 → U'' (Proc.devRef .tc r) = U (Proc.devRef .tc r) := by
  -- what the first call finds and leaves
  have e1 : U' (Proc.devRef .tc main_v1) = U (Proc.devRef .tc main_v1) :=
    (hna main_v1 (by decide)).trans (hA_keep U main_v1 (by decide))
  have e3 : U' (Proc.devRef .tc main_v3) = U (Proc.devRef .tc main_v3) :=
    (hna main_v3 (by decide)).trans (hA_keep U main_v3 (by decide))
  have ex : U' (Proc.devRef .tc main_v505) = U (Proc.devRef .tc main_v505) :=
    (hna main_v505 (by decide)).trans (hA_keep U main_v505 (by decide))
  have e10 : U' (Proc.devRef .tc main_arg10) = U (Proc.devRef .tc main_arg10) :=
    (hna main_arg10 (by decide)).trans (hA_keep U main_arg10 (by decide))
  have e11 : U' (Proc.devRef .tc main_arg11) = U (Proc.devRef .tc main_arg11) :=
    (hna main_arg11 (by decide)).trans (hA_keep U main_arg11 (by decide))
  have ea : U' (Proc.devRef .tc main_v531)
      = Cert.Spec.specA (kZsum (kZs 0x3DD7C7BA#32 (U (Proc.devRef .tc main_v511))) (U (Proc.devRef .tc main_v1)) (U (Proc.devRef .tc main_v3)))
          (kAtt 8 Facts₀.slices_S9x1x64_S1x1x64_8_0_0 (U (Proc.devRef .tc main_arg7))) := by
    rw [ha, hA_zsum, hA_att]
  -- what the second call finds
  have ez : StableHlo.after (hostOps18 (F := Ideal)) U' (Proc.devRef .tc main_v511) = U (Proc.devRef .tc main_v511) :=
    (hB_keep U' main_v511 (by decide)).trans ((hna main_v511 (by decide)).trans (hA_keep U main_v511 (by decide)))
  have ezs : StableHlo.after (hostOps18 (F := Ideal)) U' (Proc.devRef .tc main_v513)
      = kZs 0x3DD7C7BA#32 (U (Proc.devRef .tc main_v511)) :=
    (hB_keep U' main_v513 (by decide)).trans ((hna main_v513 (by decide)).trans (hA_zs U))
  have eX : StableHlo.after (hostOps18 (F := Ideal)) U' (Proc.devRef .tc main_v568)
      = kXNew 0x3DD7C7BA#32 (kAtt 8 Facts₀.slices_S9x1x64_S1x1x64_8_0_0 (U (Proc.devRef .tc main_arg7)))
          (U (Proc.devRef .tc main_v1)) (U (Proc.devRef .tc main_v3))
          (U (Proc.devRef .tc main_v505)) (U (Proc.devRef .tc main_v511)) := by
    rw [hB_x, ea, e1, e3, ex]; rfl
  refine ⟨hx.trans eX, ?_, fun r h => ?_⟩
  · rw [hz, eX, ez, ezs, hB_hatt, hB_hb, e10, e11]; rfl
  · exact (hnb r (lowB r h)).trans ((hB_keep U' r (by omega)).trans ((hna r (lowA r h)).trans (hA_keep U r (by omega))))

end Cert.KernelIdeal.KFold.L8

end
-- ==== Proof.KFoldS8.lean ====
/-
  Round 9 of the nine rounds on the program's own run: the round's module is about any buffer contents; here they
  are the contents at the program's boundaries — `W34` at the round's entry, `W36` after its first call, `W38` after
  its second — and what the two calls leave is what their own modules prove: the first call's output array is the
  edge scores of the two arrays it read, the second's the updated state of the five it read, an input array is left
  as entered, and a buffer that is not one of a call's arrays is left alone.

  `step`: if at the entry the features and the state are the pair `s` and the low buffers are at their values, then at
  the exit the new features and the new state are the round's functions of `s`, and the low buffers are still at
  their values.
-/
import proofs.«404001_j15436112461850_3_alg».proof.Proof.FrameKI.Fold
import proofs.«404001_j15436112461850_3_alg».proof.Proof.KReg17
import proofs.«404001_j15436112461850_3_alg».proof.Proof.KReg18
import proofs.«404001_j15436112461850_3_alg».proof.Proof.KFoldL8
import proofs.«404001_j15436112461850_3_alg».proof.Proof.KFoldLow

set_option maxRecDepth 16384

noncomputable section

namespace Cert.KernelIdeal.KFold.S8

open Idealize.ShloMosaic Idealize.ShloMosaic.TcCoe Cert.KernelIdeal Cert.KernelIdeal.Gen Cert.KernelIdeal.KGlue
open Idealize.ShloMosaic.Pipeline (Dat)

variable (m : (ℓ : Loc nD τ sig) → Buf (Elt Ideal) ℓ) (ρ : Dev nD → PrngReg) (c : Dev nD)

theorem step (e1 : KGlue.W S2x320000) (b2 : KGlue.W S10000) (b7 : A S9x1x64) (b10 : A S9x1x128) (b11 : A S9x1)
    (b12 : A S64x1) (b13 : A S1) (s : A S10000x64 × A S10000x64)
    (hX : W34 m ρ c (Proc.devRef .tc main_v505) = s.1) (hZ : W34 m ρ c (Proc.devRef .tc main_v511) = s.2)
    (hl : Low e1 b2 b7 b10 b11 b12 b13 (W34 m ρ c)) :
    W38 m ρ c (Proc.devRef .tc main_v568)
        = kXNew 0x3DD7C7BA#32 (kAtt 8 Facts₀.slices_S9x1x64_S1x1x64_8_0_0 b7) (kSrc e1) (kDst e1) s.1 s.2
      ∧ W38 m ρ c (Proc.devRef .tc main_v574)
        = kZLast 0x3DD7C7BA#32 (kAtt 8 Facts₀.slices_S9x1x64_S1x1x64_8_0_0 b7)
            (kHatt 8 Facts₀.slices_S9x1x128_S1x1x128_8_0_0 b10) (kHb 8 Facts₀.slices_S9x1_S1x1_8_0 b11)
            (kSrc e1) (kDst e1) s.1 s.2
      ∧ Low e1 b2 b7 b10 b11 b12 b13 (W38 m ρ c) := by
  have R := L8.round (W34 m ρ c) (W36 m ρ c) (W38 m ρ c)
    ((W36_arr m ρ c 2).trans (KReg17.arr17_2 (V35 m ρ) c))
    (fun b hb => W36_of_ne m ρ c b hb)
    ((W38_arr m ρ c 5).trans (KReg18.arr18_5 (V37 m ρ) c))
    ((W38_arr m ρ c 0).trans (((dat18 (V37 m ρ) c).arrAt_in 0 rfl _).trans (A_eq18 (V37 m ρ) c 0)))
    (fun b hb => W38_of_ne m ρ c b hb)
  rw [hl.h7, hl.hsrc, hl.hdst, hl.h10, hl.h11, hX, hZ] at R
  exact ⟨R.1, R.2.1, hl.of_same R.2.2⟩

end Cert.KernelIdeal.KFold.S8

end
-- ==== Proof.KFold.lean ====
/-
  The value of the program's result buffer at the last boundary of its run, as ONE function of the fourteen
  argument arrays: the first stage, eight rounds, the ninth round with its closing ELU, the readout.

  The buffer contents at the program's boundaries are a fold from the launch memory (`Gen.W0` … `Gen.W39`). The
  first stretch and call give the pair (features, state) `st0` and put the low buffers at their values; each round's
  module carries the pair one step (`st1` … `st8` are the first eight rounds; the ninth ends in the last state) and
  keeps the low buffers; the last stretch reads the result off the last state.
-/
import proofs.«404001_j15436112461850_3_alg».proof.Proof.KReg0
import proofs.«404001_j15436112461850_3_alg».proof.Proof.KFoldInit
import proofs.«404001_j15436112461850_3_alg».proof.Proof.KFoldOut
import proofs.«404001_j15436112461850_3_alg».proof.Proof.KFoldS0
import proofs.«404001_j15436112461850_3_alg».proof.Proof.KFoldS1
import proofs.«404001_j15436112461850_3_alg».proof.Proof.KFoldS2
import proofs.«404001_j15436112461850_3_alg».proof.Proof.KFoldS3
import proofs.«404001_j15436112461850_3_alg».proof.Proof.KFoldS4
import proofs.«404001_j15436112461850_3_alg».proof.Proof.KFoldS5
import proofs.«404001_j15436112461850_3_alg».proof.Proof.KFoldS6
import proofs.«404001_j15436112461850_3_alg».proof.Proof.KFoldS7
import proofs.«404001_j15436112461850_3_alg».proof.Proof.KFoldS8

set_option maxRecDepth 16384

noncomputable section

namespace Cert.KernelIdeal.KFold

open Idealize.ShloMosaic Idealize.ShloMosaic.TcCoe Cert.KernelIdeal Cert.KernelIdeal.Gen Cert.KernelIdeal.KGlue

variable (m : (ℓ : Loc nD τ sig) → Buf (Elt Ideal) ℓ) (ρ : Dev nD → PrngReg) (c : Dev nD)

/-! ## The argument arrays a core is launched with -/

abbrev b0 : A S10000x739 := m ((c.tc : Thread nD τ).loc main_arg0)
abbrev b1 : KGlue.W S2x320000 := m ((c.tc : Thread nD τ).loc main_arg1)
abbrev b2 : KGlue.W S10000 := m ((c.tc : Thread nD τ).loc main_arg2)
abbrev b3 : A S739x64 := m ((c.tc : Thread nD τ).loc main_arg3)
abbrev b4 : A S64 := m ((c.tc : Thread nD τ).loc main_arg4)
abbrev b5 : A S64x64 := m ((c.tc : Thread nD τ).loc main_arg5)
abbrev b6 : A S64 := m ((c.tc : Thread nD τ).loc main_arg6)
abbrev b7 : A S9x1x64 := m ((c.tc : Thread nD τ).loc main_arg7)
abbrev b8 : A S1x64 := m ((c.tc : Thread nD τ).loc main_arg8)
abbrev b9 : A S1 := m ((c.tc : Thread nD τ).loc main_arg9)
abbrev b10 : A S9x1x128 := m ((c.tc : Thread nD τ).loc main_arg10)
abbrev b11 : A S9x1 := m ((c.tc : Thread nD τ).loc main_arg11)
abbrev b12 : A S64x1 := m ((c.tc : Thread nD τ).loc main_arg12)
abbrev b13 : A S1 := m ((c.tc : Thread nD τ).loc main_arg13)

/-! ## The pair (features, state) round by round -/

/-- The features after the two affine maps and the state after round zero. -/
def st0 : A S10000x64 × A S10000x64 :=
  (Cert.Spec.specX0 (b0 m c) (b3 m c) (kRow (b4 m c)) (b5 m c) (kRow (b6 m c)),
   Cert.Spec.specZ0 (Cert.Spec.specX0 (b0 m c) (b3 m c) (kRow (b4 m c)) (b5 m c) (kRow (b6 m c))) (b8 m c) (kOne (b9 m c)))
/-- The features and the state after round 1. -/
def st1 : A S10000x64 × A S10000x64 := kStep (kSrc (b1 m c)) (kDst (b1 m c)) (st0 m c) ⟨0x3F317220#32, kAtt 0 Facts₀.slices_S9x1x64_S1x1x64_0_0_0 (b7 m c), kHatt 0 Facts₀.slices_S9x1x128_S1x1x128_0_0_0 (b10 m c), kHb 0 Facts₀.slices_S9x1_S1x1_0_0 (b11 m c)⟩
/-- The features and the state after round 2. -/
def st2 : A S10000x64 × A S10000x64 := kStep (kSrc (b1 m c)) (kDst (b1 m c)) (st1 m c) ⟨0x3ECF9936#32, kAtt 1 Facts₀.slices_S9x1x64_S1x1x64_1_0_0 (b7 m c), kHatt 1 Facts₀.slices_S9x1x128_S1x1x128_1_0_0 (b10 m c), kHb 1 Facts₀.slices_S9x1_S1x1_1_0 (b11 m c)⟩
/-- The features and the state after round 3. -/
def st3 : A S10000x64 × A S10000x64 := kStep (kSrc (b1 m c)) (kDst (b1 m c)) (st2 m c) ⟨0x3E934B2A#32, kAtt 2 Facts₀.slices_S9x1x64_S1x1x64_2_0_0 (b7 m c), kHatt 2 Facts₀.slices_S9x1x128_S1x1x128_2_0_0 (b10 m c), kHb 2 Facts₀.slices_S9x1_S1x1_2_0 (b11 m c)⟩
/-- The features and the state after round 4. -/
def st4 : A S10000x64 × A S10000x64 := kStep (kSrc (b1 m c)) (kDst (b1 m c)) (st3 m c) ⟨0x3E647FF4#32, kAtt 3 Facts₀.slices_S9x1x64_S1x1x64_3_0_0 (b7 m c), kHatt 3 Facts₀.slices_S9x1x128_S1x1x128_3_0_0 (b10 m c), kHb 3 Facts₀.slices_S9x1_S1x1_3_0 (b11 m c)⟩
/-- The features and the state after round 5. -/
def st5 : A S10000x64 × A S10000x64 := kStep (kSrc (b1 m c)) (kDst (b1 m c)) (st4 m c) ⟨0x3E3AB2B8#32, kAtt 4 Facts₀.slices_S9x1x64_S1x1x64_4_0_0 (b7 m c), kHatt 4 Facts₀.slices_S9x1x128_S1x1x128_4_0_0 (b10 m c), kHb 4 Facts₀.slices_S9x1_S1x1_4_0 (b11 m c)⟩
/-- The features and the state after round 6. -/
def st6 : A S10000x64 × A S10000x64 := kStep (kSrc (b1 m c)) (kDst (b1 m c)) (st5 m c) ⟨0x3E1DD9E7#32, kAtt 5 Facts₀.slices_S9x1x64_S1x1x64_5_0_0 (b7 m c), kHatt 5 Facts₀.slices_S9x1x128_S1x1x128_5_0_0 (b10 m c), kHb 5 Facts₀.slices_S9x1_S1x1_5_0 (b11 m c)⟩
/-- The features and the state after round 7. -/
def st7 : A S10000x64 × A S10000x64 := kStep (kSrc (b1 m c)) (kDst (b1 m c)) (st6 m c) ⟨0x3E08BCAF#32, kAtt 6 Facts₀.slices_S9x1x64_S1x1x64_6_0_0 (b7 m c), kHatt 6 Facts₀.slices_S9x1x128_S1x1x128_6_0_0 (b10 m c), kHb 6 Facts₀.slices_S9x1_S1x1_6_0 (b11 m c)⟩
/-- The features and the state after round 8. -/
def st8 : A S10000x64 × A S10000x64 := kStep (kSrc (b1 m c)) (kDst (b1 m c)) (st7 m c) ⟨0x3DF138B3#32, kAtt 7 Facts₀.slices_S9x1x64_S1x1x64_7_0_0 (b7 m c), kHatt 7 Facts₀.slices_S9x1x128_S1x1x128_7_0_0 (b10 m c), kHb 7 Facts₀.slices_S9x1_S1x1_7_0 (b11 m c)⟩

/-- Eight rounds from `st0` are the fold of the round over the eight parameter records. -/
theorem st8_eq : st8 m c = (kParams (b7 m c) (b10 m c) (b11 m c)).foldl (kStep (kSrc (b1 m c)) (kDst (b1 m c))) (st0 m c) := rfl

/-! ## The result -/

/-- The result buffer at the last boundary is the program's function of the fourteen argument arrays. -/
theorem kernel_value :
    W39 (F := Ideal) m ρ c (Proc.devRef .tc main_v590)
      = kVal (b0 m c) (b1 m c) (b2 m c) (b3 m c) (b4 m c) (b5 m c) (b6 m c) (b7 m c) (b8 m c) (b9 m c) (b10 m c) (b11 m c)
          (b12 m c) (b13 m c) := by
  -- the first stretch and the first call
  obtain ⟨hX0, hZ0, hs, hd, h2, h7, h10, h11, h12, h13⟩ := Init.init (W0 m ρ c) (W2 m ρ c)
    ((W2_arr m ρ c 7).trans (KReg0.arr0_7 (V1 m ρ) c)) ((W2_arr m ρ c 8).trans (KReg0.arr0_8 (V1 m ρ) c))
    (fun b hb => W2_of_ne m ρ c b hb)
  have l0 : Low (b1 m c) (b2 m c) (b7 m c) (b10 m c) (b11 m c) (b12 m c) (b13 m c) (W2 m ρ c) :=
    ⟨hs, hd, h2, h7, h10, h11, h12, h13⟩
  replace hX0 : W2 m ρ c (Proc.devRef .tc main_v7_0) = (st0 m c).1 := hX0
  replace hZ0 : W2 m ρ c (Proc.devRef .tc main_v7_1) = (st0 m c).2 := hZ0
  -- the nine rounds
  have r0 := S0.step m ρ c (b1 m c) (b2 m c) (b7 m c) (b10 m c) (b11 m c) (b12 m c) (b13 m c) (st0 m c) hX0 hZ0 l0
  have r1 := S1.step m ρ c (b1 m c) (b2 m c) (b7 m c) (b10 m c) (b11 m c) (b12 m c) (b13 m c) (st1 m c) r0.1 r0.2.1 r0.2.2
  have r2 := S2.step m ρ c (b1 m c) (b2 m c) (b7 m c) (b10 m c) (b11 m c) (b12 m c) (b13 m c) (st2 m c) r1.1 r1.2.1 r1.2.2
  have r3 := S3.step m ρ c (b1 m c) (b2 m c) (b7 m c) (b10 m c) (b11 m c) (b12 m c) (b13 m c) (st3 m c) r2.1 r2.2.1 r2.2.2
  have r4 := S4.step m ρ c (b1 m c) (b2 m c) (b7 m c) (b10 m c) (b11 m c) (b12 m c) (b13 m c) (st4 m c) r3.1 r3.2.1 r3.2.2
  have r5 := S5.step m ρ c (b1 m c) (b2 m c) (b7 m c) (b10 m c) (b11 m c) (b12 m c) (b13 m c) (st5 m c) r4.1 r4.2.1 r4.2.2
  have r6 := S6.step m ρ c (b1 m c) (b2 m c) (b7 m c) (b10 m c) (b11 m c) (b12 m c) (b13 m c) (st6 m c) r5.1 r5.2.1 r5.2.2
  have r7 := S7.step m ρ c (b1 m c) (b2 m c) (b7 m c) (b10 m c) (b11 m c) (b12 m c) (b13 m c) (st7 m c) r6.1 r6.2.1 r6.2.2
  have r8 := S8.step m ρ c (b1 m c) (b2 m c) (b7 m c) (b10 m c) (b11 m c) (b12 m c) (b13 m c) (st8 m c) r7.1 r7.2.1 r7.2.2
  -- the readout
  have hout := Out.h19_out (W38 m ρ c)
  rw [r8.2.1, r8.2.2.h2, r8.2.2.h12, r8.2.2.h13] at hout
  refine hout.trans ?_
  rw [st8_eq] <;> rfl

end Cert.KernelIdeal.KFold

end
-- ==== Proof.RefRun.Init.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The embedding: the edges' two rows, the two affine maps with the elu between, the state's first normalisation. -/
abbrev opsInit : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),  -- %0 = stablehlo.slice %arg1 [0:1, 0:320000] : (tensor<2x320000xi32>) -> tensor<1x320000xi32>  @ reference:43
    StableHlo.reshape main_v0 main_v1 rfl shapeCasts_S1x320000_S320000,  -- %1 = stablehlo.reshape %0 : (tensor<1x320000xi32>) -> tensor<320000xi32>  @ reference:43
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),  -- %2 = stablehlo.slice %arg1 [1:2, 0:320000] : (tensor<2x320000xi32>) -> tensor<1x320000xi32>  @ reference:43
    StableHlo.reshape main_v2 main_v3 rfl shapeCasts_S1x320000_S320000,  -- %3 = stablehlo.reshape %2 : (tensor<1x320000xi32>) -> tensor<320000xi32>  @ reference:43
    StableHlo.binary main_arg0 main_arg3 main_v4 ((fun l r => Host.dotGeneral dot_S10000x739_S739x64_S10000x64_1_0_0_1_n_n none l r) : (⟨S10000x739, .f32⟩ : BufTy).Contents (Elt F) → (⟨S739x64, .f32⟩ : BufTy).Contents (Elt F) → (⟨S10000x64, .f32⟩ : BufTy).Contents (Elt F)),  -- %4 = stablehlo.dot_general %arg0, %arg3, contracting_dims = [1] x [0], precision = [DEFAULT, DEFAULT] : (tensor<10000x739xf32>, tensor<739x64xf32>) ->
    StableHlo.unary main_arg4 main_v5 (broadcastInDim S1x64 ![1] bcast_S64_S1x64_1 : (⟨S64, .f32⟩ : BufTy).Contents (Elt F) → (⟨S1x64, .f32⟩ : BufTy).Contents (Elt F)),  -- %5 = stablehlo.broadcast_in_dim %arg4, dims = [1] : (tensor<64xf32>) -> tensor<1x64xf32>  @ reference:46
    StableHlo.unary main_v5 main_v6 (broadcastInDim S10000x64 ![0, 1] bcast_S1x64_S10000x64_0_1 : (⟨S1x64, .f32⟩ : BufTy).Contents (Elt F) → (⟨S10000x64, .f32⟩ : BufTy).Contents (Elt F)),  -- %6 = stablehlo.broadcast_in_dim %5, dims = [0, 1] : (tensor<1x64xf32>) -> tensor<10000x64xf32>  @ reference:46
    StableHlo.binary main_v4 main_v6 main_v7 (addf : (⟨S10000x64, .f32⟩ : BufTy).Contents (Elt F) → (⟨S10000x64, .f32⟩ : BufTy).Contents (Elt F) → (⟨S10000x64, .f32⟩ : BufTy).Contents (Elt F)),  -- %7 = stablehlo.add %4, %6 : tensor<10000x64xf32>  @ reference:46
    StableHlo.TRef.nullary main_call0.cst (constant S_ .f32 0x00000000#32),  -- @elu in %8 = func.call @elu(%7): %cst = stablehlo.constant dense<0.000000e+00> : tensor<f32>
    StableHlo.TRef.unary main_call0.cst main_call0.v0 (broadcastInDim S10000x64 ![] bcast_S_S10000x64),  -- @elu in %8 = func.call @elu(%7): %0 = stablehlo.broadcast_in_dim %cst, dims = [] : (tensor<f32>) -> tensor<10000x64xf32>
    StableHlo.TRef.binary (StableHlo.TRef.of (T := ⟨S10000x64, .f32⟩) main_v7) main_call0.v0 main_call0.v1 (cmpf .ogt),  -- @elu in %8 = func.call @elu(%7): %1 = stablehlo.compare GT, %arg0, %0, FLOAT : (tensor<10000x64xf32>, tensor<10000x64xf32>) -> tensor<10000x64xi1>
    StableHlo.TRef.nullary main_call0.cst_0 (constant S_ .f32 0x00000000#32),  -- @elu in %8 = func.call @elu(%7): %cst_0 = stablehlo.constant dense<0.000000e+00> : tensor<f32>
    StableHlo.TRef.unary main_call0.cst_0 main_call0.v2 (broadcastInDim S10000x64 ![] bcast_S_S10000x64),  -- @elu in %8 = func.call @elu(%7): %2 = stablehlo.broadcast_in_dim %cst_0, dims = [] : (tensor<f32>) -> tensor<10000x64xf32>
    StableHlo.TRef.binary (StableHlo.TRef.of (T := ⟨S10000x64, .f32⟩) main_v7) main_call0.v2 main_call0.v3 (cmpf .ogt),  -- @elu in %8 = func.call @elu(%7): %3 = stablehlo.compare GT, %arg0, %2, FLOAT : (tensor<10000x64xf32>, tensor<10000x64xf32>) -> tensor<10000x64xi1>
    StableHlo.TRef.nullary main_call0.cst_1 (constant S_ .f32 0x00000000#32),  -- @elu in %8 = func.call @elu(%7): %cst_1 = stablehlo.constant dense<0.000000e+00> : tensor<f32>
    StableHlo.TRef.unary main_call0.cst_1 main_call0.call0.v0 id,  -- @where in %8 = func.call @elu(%7): %0 = stablehlo.convert %arg1 : tensor<f32>
    StableHlo.TRef.unary main_call0.call0.v0 main_call0.call0.v1 (broadcastInDim S10000x64 ![] bcast_S_S10000x64),  -- @where in %8 = func.call @elu(%7): %1 = stablehlo.broadcast_in_dim %0, dims = [] : (tensor<f32>) -> tensor<10000x64xf32>
    StableHlo.TRef.ternary main_call0.v3 main_call0.call0.v1 (StableHlo.TRef.of (T := ⟨S10000x64, .f32⟩) main_v7) main_call0.call0.v2 select,  -- @where in %8 = func.call @elu(%7): %2 = stablehlo.select %arg0, %1, %arg2 : tensor<10000x64xi1>, tensor<10000x64xf32>
    StableHlo.TRef.unary main_call0.call0.v2 main_call0.v5 Host.expm1,  -- @elu in %8 = func.call @elu(%7): %5 = stablehlo.exponential_minus_one %4 : tensor<10000x64xf32>
    StableHlo.TRef.nullary main_call0.cst_2 (constant S_ .f32 0x3F800000#32),  -- @elu in %8 = func.call @elu(%7): %cst_2 = stablehlo.constant dense<1.000000e+00> : tensor<f32>
    StableHlo.TRef.unary main_call0.cst_2 main_call0.v6 (broadcastInDim S10000x64 ![] bcast_S_S10000x64),  -- @elu in %8 = func.call @elu(%7): %6 = stablehlo.broadcast_in_dim %cst_2, dims = [] : (tensor<f32>) -> tensor<10000x64xf32>
    StableHlo.TRef.binary main_call0.v6 main_call0.v5 main_call0.v7 mulf,  -- @elu in %8 = func.call @elu(%7): %7 = stablehlo.multiply %6, %5 : tensor<10000x64xf32>
    StableHlo.TRef.ternary main_call0.v1 (StableHlo.TRef.of (T := ⟨S10000x64, .f32⟩) main_v7) main_call0.v7 main_call0.call1.v0 select,  -- @where_0 in %8 = func.call @elu(%7): %0 = stablehlo.select %arg0, %arg1, %arg2 : tensor<10000x64xi1>, tensor<10000x64xf32>
    StableHlo.binary main_v8 main_arg5 main_v9 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),  -- %9 = stablehlo.dot_general %8, %arg5, contracting_dims = [1] x [0], precision = [DEFAULT, DEFAULT] : (tensor<10000x64xf32>, tensor<64x64xf32>) -> tens
    StableHlo.unary main_arg6 main_v10 (broadcastInDim S1x64 ![1] bcast_S64_S1x64_1 : (⟨S64, .f32⟩ : BufTy).Contents (Elt F) → (⟨S1x64, .f32⟩ : BufTy).Contents (Elt F)),  -- %10 = stablehlo.broadcast_in_dim %arg6, dims = [1] : (tensor<64xf32>) -> tensor<1x64xf32>  @ reference:47
    StableHlo.unary main_v10 main_v11 (broadcastInDim S10000x64 ![0, 1] bcast_S1x64_S10000x64_0_1 : (⟨S1x64, .f32⟩ : BufTy).Contents (Elt F) → (⟨S10000x64, .f32⟩ : BufTy).Contents (Elt F)),  -- %11 = stablehlo.broadcast_in_dim %10, dims = [0, 1] : (tensor<1x64xf32>) -> tensor<10000x64xf32>  @ reference:47
    StableHlo.binary main_v9 main_v11 main_v12 (addf : (⟨S10000x64, .f32⟩ : BufTy).Contents (Elt F) → (⟨S10000x64, .f32⟩ : BufTy).Contents (Elt F) → (⟨S10000x64, .f32⟩ : BufTy).Contents (Elt F)),  -- %12 = stablehlo.add %9, %11 : tensor<10000x64xf32>  @ reference:47
    StableHlo.reshape main_v12 main_v13 rfl shapeCasts_S10000x64_S10000x1x64,  -- %13 = stablehlo.reshape %12 : (tensor<10000x64xf32>) -> tensor<10000x1x64xf32>  @ reference:51
    StableHlo.TRef.nullary main_call1.cst (constant S_ .f32 0x00000000#32),  -- @elu_1 in %14 = func.call @elu_1(%13): %cst = stablehlo.constant dense<0.000000e+00> : tensor<f32>
    StableHlo.TRef.unary main_call1.cst main_call1.v0 (broadcastInDim S10000x1x64 ![] bcast_S_S10000x1x64),  -- @elu_1 in %14 = func.call @elu_1(%13): %0 = stablehlo.broadcast_in_dim %cst, dims = [] : (tensor<f32>) -> tensor<10000x1x64xf32>
    StableHlo.TRef.binary (StableHlo.TRef.of (T := ⟨S10000x1x64, .f32⟩) main_v13) main_call1.v0 main_call1.v1 (cmpf .ogt),  -- @elu_1 in %14 = func.call @elu_1(%13): %1 = stablehlo.compare GT, %arg0, %0, FLOAT : (tensor<10000x1x64xf32>, tensor<10000x1x64xf32>) -> tensor<10000x
    StableHlo.TRef.nullary main_call1.cst_0 (constant S_ .f32 0x00000000#32),  -- @elu_1 in %14 = func.call @elu_1(%13): %cst_0 = stablehlo.constant dense<0.000000e+00> : tensor<f32>
    StableHlo.TRef.unary main_call1.cst_0 main_call1.v2 (broadcastInDim S10000x1x64 ![] bcast_S_S10000x1x64),  -- @elu_1 in %14 = func.call @elu_1(%13): %2 = stablehlo.broadcast_in_dim %cst_0, dims = [] : (tensor<f32>) -> tensor<10000x1x64xf32>
    StableHlo.TRef.binary (StableHlo.TRef.of (T := ⟨S10000x1x64, .f32⟩) main_v13) main_call1.v2 main_call1.v3 (cmpf .ogt),  -- @elu_1 in %14 = func.call @elu_1(%13): %3 = stablehlo.compare GT, %arg0, %2, FLOAT : (tensor<10000x1x64xf32>, tensor<10000x1x64xf32>) -> tensor<10000x
    StableHlo.TRef.nullary main_call1.cst_1 (constant S_ .f32 0x00000000#32),  -- @elu_1 in %14 = func.call @elu_1(%13): %cst_1 = stablehlo.constant dense<0.000000e+00> : tensor<f32>
    StableHlo.TRef.unary main_call1.cst_1 main_call1.call0.v0 id,  -- @where_2 in %14 = func.call @elu_1(%13): %0 = stablehlo.convert %arg1 : tensor<f32>
    StableHlo.TRef.unary main_call1.call0.v0 main_call1.call0.v1 (broadcastInDim S10000x1x64 ![] bcast_S_S10000x1x64),  -- @where_2 in %14 = func.call @elu_1(%13): %1 = stablehlo.broadcast_in_dim %0, dims = [] : (tensor<f32>) -> tensor<10000x1x64xf32>
    StableHlo.TRef.ternary main_call1.v3 main_call1.call0.v1 (StableHlo.TRef.of (T := ⟨S10000x1x64, .f32⟩) main_v13) main_call1.call0.v2 select,  -- @where_2 in %14 = func.call @elu_1(%13): %2 = stablehlo.select %arg0, %1, %arg2 : tensor<10000x1x64xi1>, tensor<10000x1x64xf32>
    StableHlo.TRef.unary main_call1.call0.v2 main_call1.v5 Host.expm1,  -- @elu_1 in %14 = func.call @elu_1(%13): %5 = stablehlo.exponential_minus_one %4 : tensor<10000x1x64xf32>
    StableHlo.TRef.nullary main_call1.cst_2 (constant S_ .f32 0x3F800000#32),  -- @elu_1 in %14 = func.call @elu_1(%13): %cst_2 = stablehlo.constant dense<1.000000e+00> : tensor<f32>
    StableHlo.TRef.unary main_call1.cst_2 main_call1.v6 (broadcastInDim S10000x1x64 ![] bcast_S_S10000x1x64),  -- @elu_1 in %14 = func.call @elu_1(%13): %6 = stablehlo.broadcast_in_dim %cst_2, dims = [] : (tensor<f32>) -> tensor<10000x1x64xf32>
    StableHlo.TRef.binary main_call1.v6 main_call1.v5 main_call1.v7 mulf,  -- @elu_1 in %14 = func.call @elu_1(%13): %7 = stablehlo.multiply %6, %5 : tensor<10000x1x64xf32>
    StableHlo.TRef.ternary main_call1.v1 (StableHlo.TRef.of (T := ⟨S10000x1x64, .f32⟩) main_v13) main_call1.v7 main_call1.call1.v0 select,  -- @where_3 in %14 = func.call @elu_1(%13): %0 = stablehlo.select %arg0, %arg1, %arg2 : tensor<10000x1x64xi1>, tensor<10000x1x64xf32>
    StableHlo.unary main_arg8 main_v15 (broadcastInDim S1x1x64 ![1, 2] bcast_S1x64_S1x1x64_1_2 : (⟨S1x64, .f32⟩ : BufTy).Contents (Elt F) → (⟨S1x1x64, .f32⟩ : BufTy).Contents (Elt F)),  -- %15 = stablehlo.broadcast_in_dim %arg8, dims = [1, 2] : (tensor<1x64xf32>) -> tensor<1x1x64xf32>  @ reference:52
    StableHlo.unary main_v15 main_v16 (broadcastInDim S10000x1x64 ![0, 1, 2] bcast_S1x1x64_S10000x1x64_0_1_2 : (⟨S1x1x64, .f32⟩ : BufTy).Contents (Elt F) → (⟨S10000x1x64, .f32⟩ : BufTy).Contents (Elt F)),  -- %16 = stablehlo.broadcast_in_dim %15, dims = [0, 1, 2] : (tensor<1x1x64xf32>) -> tensor<10000x1x64xf32>  @ reference:52
    StableHlo.binary main_v16 main_v14 main_v17 (mulf : (⟨S10000x1x64, .f32⟩ : BufTy).Contents (Elt F) → (⟨S10000x1x64, .f32⟩ : BufTy).Contents (Elt F) → (⟨S10000x1x64, .f32⟩ : BufTy).Contents (Elt F)),  -- %17 = stablehlo.multiply %16, %14 : tensor<10000x1x64xf32>  @ reference:52
    StableHlo.nullary main_cst (constant S_ .f32 0x00000000#32),  -- %cst = stablehlo.constant dense<0.000000e+00> : tensor<f32>
    StableHlo.binary main_v17 main_cst main_v18 ((fun x v => Host.reduceAdd x v reducesTo_S10000x1x64_S10000x1_d2 h_S_) : (⟨S10000x1x64, .f32⟩ : BufTy).Contents (Elt F) → (⟨S_, .f32⟩ : BufTy).Contents (Elt F) → (⟨S10000x1, .f32⟩ : BufTy).Contents (Elt F)),  -- %18 = stablehlo.reduce(%17 init: %cst) applies stablehlo.add across dimensions = [2] : (tensor<10000x1x64xf32>, tensor<f32>) -> tensor<10000x1xf32> {
    StableHlo.unary main_arg9 main_v19 (broadcastInDim S1x1 ![1] bcast_S1_S1x1_1 : (⟨S1, .f32⟩ : BufTy).Contents (Elt F) → (⟨S1x1, .f32⟩ : BufTy).Contents (Elt F)),  -- %19 = stablehlo.broadcast_in_dim %arg9, dims = [1] : (tensor<1xf32>) -> tensor<1x1xf32>  @ reference:52
    StableHlo.unary main_v19 main_v20 (broadcastInDim S10000x1 ![0, 1] bcast_S1x1_S10000x1_0_1 : (⟨S1x1, .f32⟩ : BufTy).Contents (Elt F) → (⟨S10000x1, .f32⟩ : BufTy).Contents (Elt F)),  -- %20 = stablehlo.broadcast_in_dim %19, dims = [0, 1] : (tensor<1x1xf32>) -> tensor<10000x1xf32>  @ reference:52
    StableHlo.binary main_v18 main_v20 main_v21 (addf : (⟨S10000x1, .f32⟩ : BufTy).Contents (Elt F) → (⟨S10000x1, .f32⟩ : BufTy).Contents (Elt F) → (⟨S10000x1, .f32⟩ : BufTy).Contents (Elt F)),  -- %21 = stablehlo.add %18, %20 : tensor<10000x1xf32>  @ reference:52
    StableHlo.unary main_v21 main_v22 (broadcastInDim S10000x1x1 ![0, 1] bcast_S10000x1_S10000x1x1_0_1 : (⟨S10000x1, .f32⟩ : BufTy).Contents (Elt F) → (⟨S10000x1x1, .f32⟩ : BufTy).Contents (Elt F)),  -- %22 = stablehlo.broadcast_in_dim %21, dims = [0, 1] : (tensor<10000x1xf32>) -> tensor<10000x1x1xf32>  @ reference:53
    StableHlo.unary main_v22 main_v23 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %23 = stablehlo.broadcast_in_dim %22, dims = [0, 1, 2] : (tensor<10000x1x1xf32>) -> tensor<10000x1x64xf32>  @ reference:53
    StableHlo.binary main_v13 main_v23 main_v24 (mulf : (⟨S10000x1x64, .f32⟩ : BufTy).Contents (Elt F) → (⟨S10000x1x64, .f32⟩ : BufTy).Contents (Elt F) → (⟨S10000x1x64, .f32⟩ : BufTy).Contents (Elt F)) ]  -- %24 = stablehlo.multiply %13, %23 : tensor<10000x1x64xf32>  @ reference:53

theorem opsInit_sub : (opsInit : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub .., reshape_bufs_sub ..,
    nullary_bufs_sub .., unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub .., binary_bufs_sub ..,
    ternary_bufs_sub .., unary_bufs_sub .., unary_bufs_sub .., binary_bufs_sub .., nullary_bufs_sub .., binary_bufs_sub .., unary_bufs_sub ..,
    unary_bufs_sub .., binary_bufs_sub .., unary_bufs_sub .., unary_bufs_sub .., binary_bufs_sub ..⟩

/-- The buffers opsInit writes (each operation writes one, its result's), in order. -/
abbrev wInit : List (Ref sig .tc) :=
  [main_v0, main_v1, main_v2, main_v3, main_v4, main_v5, main_v6, main_v7, main_call0.cst.ref, main_call0.v0.ref, main_call0.v1.ref,
    main_call0.cst_0.ref, main_call0.v2.ref, main_call0.v3.ref, main_call0.cst_1.ref, main_call0.call0.v0.ref, main_call0.call0.v1.ref,
    main_call0.call0.v2.ref, main_call0.v5.ref, main_call0.cst_2.ref, main_call0.v6.ref, main_call0.v7.ref, main_call0.call1.v0.ref, main_v9,
    main_v10, main_v11, main_v12, main_v13, main_call1.cst.ref, main_call1.v0.ref, main_call1.v1.ref, main_call1.cst_0.ref, main_call1.v2.ref,
    main_call1.v3.ref, main_call1.cst_1.ref, main_call1.call0.v0.ref, main_call1.call0.v1.ref, main_call1.call0.v2.ref, main_call1.v5.ref,
    main_call1.cst_2.ref, main_call1.v6.ref, main_call1.v7.ref, main_call1.call1.v0.ref, main_v15, main_v16, main_v17, main_cst, main_v18, main_v19,
    main_v20, main_v21, main_v22, main_v23, main_v24]
theorem opsInit_writes : (opsInit : List (HloOp τ sig (Elt F))).Forall fun op =>
    op.writes ⊆ (wInit.map (Proc.devRef (τ := τ) .tc)).toFinset := by
  simp only [opsInit, List.Forall, nullary_writes, unary_writes, binary_writes, ternary_writes, reshape_writes]
  repeat' apply And.intro
  all_goals exact Finset.singleton_subset_iff.mpr (List.mem_toFinset.mpr (List.mem_map_of_mem (by decide)))
/-- opsInit keeps every buffer it does not write. -/
theorem opsInit_kept (V : Valuation τ sig (Elt F)) (r : Ref sig .tc) (hr : r ∉ wInit) :
    after opsInit V (Proc.devRef .tc r) = V (Proc.devRef .tc r) :=
  after_of_writes_sub opsInit V opsInit_writes hr

end Cert.ReferenceIdeal.RefRun

end
-- ==== Proof.RefRun.L0.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0: the state scaled, gathered along the edges, weighted, scattered back and added in. -/
abbrev opsL0 : List (HloOp τ sig (Elt F)) :=
  [ StableHlo.nullary main_cst_0 (constant S_ .f32 0x3F317220#32),  -- %cst_0 = stablehlo.constant dense<0.693147659> : tensor<f32>
    StableHlo.unary main_cst_0 main_v25 (broadcastInDim S10000x1x64 ![] bcast_S_S10000x1x64 : (⟨S_, .f32⟩ : BufTy).Contents (Elt F) → (⟨S10000x1x64, .f32⟩ : BufTy).Contents (Elt F)),  -- %25 = stablehlo.broadcast_in_dim %cst_0, dims = [] : (tensor<f32>) -> tensor<10000x1x64xf32>  @ reference:59
    StableHlo.binary main_v24 main_v25 main_v26 (mulf : (⟨S10000x1x64, .f32⟩ : BufTy).Contents (Elt F) → (⟨S10000x1x64, .f32⟩ : BufTy).Contents (Elt F) → (⟨S10000x1x64, .f32⟩ : BufTy).Contents (Elt F)),  -- %26 = stablehlo.multiply %24, %25 : tensor<10000x1x64xf32>  @ reference:59
    StableHlo.nullary main_c (constantI S_ 32 0#32),  -- %c = stablehlo.constant dense<0> : tensor<i32>
    StableHlo.unary main_c main_v27 (broadcastInDim S320000 ![] bcast_S_S320000 : (⟨S_, .i32⟩ : BufTy).Contents (Elt F) → (⟨S320000, .i32⟩ : BufTy).Contents (Elt F)),  -- %27 = stablehlo.broadcast_in_dim %c, dims = [] : (tensor<i32>) -> tensor<320000xi32>  @ reference:62
    StableHlo.binary main_v1 main_v27 main_v28 (cmpi .slt : (⟨S320000, .i32⟩ : BufTy).Contents (Elt F) → (⟨S320000, .i32⟩ : BufTy).Contents (Elt F) → (⟨S320000, .i1⟩ : BufTy).Contents (Elt F)),  -- %28 = stablehlo.compare LT, %1, %27, SIGNED : (tensor<320000xi32>, tensor<320000xi32>) -> tensor<320000xi1>  @ reference:62
    StableHlo.nullary main_c_1 (constantI S_ 32 10000#32),  -- %c_1 = stablehlo.constant dense<10000> : tensor<i32>
    StableHlo.unary main_c_1 main_v29 (broadcastInDim S320000 ![] bcast_S_S320000 : (⟨S_, .i32⟩ : BufTy).Contents (Elt F) → (⟨S320000, .i32⟩ : BufTy).Contents (Elt F)),  -- %29 = stablehlo.broadcast_in_dim %c_1, dims = [] : (tensor<i32>) -> tensor<320000xi32>  @ reference:62
    StableHlo.binary main_v1 main_v29 main_v30 (addi : (⟨S320000, .i32⟩ : BufTy).Contents (Elt F) → (⟨S320000, .i32⟩ : BufTy).Contents (Elt F) → (⟨S320000, .i32⟩ : BufTy).Contents (Elt F)),  -- %30 = stablehlo.add %1, %29 : tensor<320000xi32>  @ reference:62
    StableHlo.ternary main_v28 main_v30 main_v1 main_v31 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %31 = stablehlo.select %28, %30, %1 : tensor<320000xi1>, tensor<320000xi32>  @ reference:62
    StableHlo.unary main_v31 main_v32 (broadcastInDim S320000x1 ![0] bcast_S320000_S320000x1_0 : (⟨S320000, .i32⟩ : BufTy).Contents (Elt F) → (⟨S320000x1, .i32⟩ : BufTy).Contents (Elt F)),  -- %32 = stablehlo.broadcast_in_dim %31, dims = [0] : (tensor<320000xi32>) -> tensor<320000x1xi32>  @ reference:62
    StableHlo.binary main_v26 main_v32 main_v33 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %33 = "stablehlo.gather"(%26, %32) <{dimension_numbers = #stablehlo.gather<offset_dims = [1, 2], collapsed_slice_dims = [0], start_index_map = [0], in
    StableHlo.nullary main_c_2 (constantI S_ 32 0#32),  -- %c_2 = stablehlo.constant dense<0> : tensor<i32>
    StableHlo.unary main_c_2 main_v34 (broadcastInDim S320000 ![] bcast_S_S320000 : (⟨S_, .i32⟩ : BufTy).Contents (Elt F) → (⟨S320000, .i32⟩ : BufTy).Contents (Elt F)),  -- %34 = stablehlo.broadcast_in_dim %c_2, dims = [] : (tensor<i32>) -> tensor<320000xi32>  @ reference:62
    StableHlo.binary main_v3 main_v34 main_v35 (cmpi .slt : (⟨S320000, .i32⟩ : BufTy).Contents (Elt F) → (⟨S320000, .i32⟩ : BufTy).Contents (Elt F) → (⟨S320000, .i1⟩ : BufTy).Contents (Elt F)),  -- %35 = stablehlo.compare LT, %3, %34, SIGNED : (tensor<320000xi32>, tensor<320000xi32>) -> tensor<320000xi1>  @ reference:62
    StableHlo.nullary main_c_3 (constantI S_ 32 10000#32),  -- %c_3 = stablehlo.constant dense<10000> : tensor<i32>
    StableHlo.unary main_c_3 main_v36 (broadcastInDim S320000 ![] bcast_S_S320000 : (⟨S_, .i32⟩ : BufTy).Contents (Elt F) → (⟨S320000, .i32⟩ : BufTy).Contents (Elt F)),  -- %36 = stablehlo.broadcast_in_dim %c_3, dims = [] : (tensor<i32>) -> tensor<320000xi32>  @ reference:62
    StableHlo.binary main_v3 main_v36 main_v37 (addi : (⟨S320000, .i32⟩ : BufTy).Contents (Elt F) → (⟨S320000, .i32⟩ : BufTy).Contents (Elt F) → (⟨S320000, .i32⟩ : BufTy).Contents (Elt F)),  -- %37 = stablehlo.add %3, %36 : tensor<320000xi32>  @ reference:62
    StableHlo.ternary main_v35 main_v37 main_v3 main_v38 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %38 = stablehlo.select %35, %37, %3 : tensor<320000xi1>, tensor<320000xi32>  @ reference:62
    StableHlo.unary main_v38 main_v39 (broadcastInDim S320000x1 ![0] bcast_S320000_S320000x1_0 : (⟨S320000, .i32⟩ : BufTy).Contents (Elt F) → (⟨S320000x1, .i32⟩ : BufTy).Contents (Elt F)),  -- %39 = stablehlo.broadcast_in_dim %38, dims = [0] : (tensor<320000xi32>) -> tensor<320000x1xi32>  @ reference:62
    StableHlo.binary main_v26 main_v39 main_v40 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %40 = "stablehlo.gather"(%26, %39) <{dimension_numbers = #stablehlo.gather<offset_dims = [1, 2], collapsed_slice_dims = [0], start_index_map = [0], in
    StableHlo.binary main_v33 main_v40 main_v41 (addf : (⟨S320000x1x64, .f32⟩ : BufTy).Contents (Elt F) → (⟨S320000x1x64, .f32⟩ : BufTy).Contents (Elt F) → (⟨S320000x1x64, .f32⟩ : BufTy).Contents (Elt F)),  -- %41 = stablehlo.add %33, %40 : tensor<320000x1x64xf32>  @ reference:62
    StableHlo.TRef.nullary main_call2.cst (constant S_ .f32 0x00000000#32),  -- @elu_4 in %42 = func.call @elu_4(%41): %cst = stablehlo.constant dense<0.000000e+00> : tensor<f32>
    StableHlo.TRef.unary main_call2.cst main_call2.v0 (broadcastInDim S320000x1x64 ![] bcast_S_S320000x1x64),  -- @elu_4 in %42 = func.call @elu_4(%41): %0 = stablehlo.broadcast_in_dim %cst, dims = [] : (tensor<f32>) -> tensor<320000x1x64xf32>
    StableHlo.TRef.binary (StableHlo.TRef.of (T := ⟨S320000x1x64, .f32⟩) main_v41) main_call2.v0 main_call2.v1 (cmpf .ogt),  -- @elu_4 in %42 = func.call @elu_4(%41): %1 = stablehlo.compare GT, %arg0, %0, FLOAT : (tensor<320000x1x64xf32>, tensor<320000x1x64xf32>) -> tensor<3200
    StableHlo.TRef.nullary main_call2.cst_0 (constant S_ .f32 0x00000000#32),  -- @elu_4 in %42 = func.call @elu_4(%41): %cst_0 = stablehlo.constant dense<0.000000e+00> : tensor<f32>
    StableHlo.TRef.unary main_call2.cst_0 main_call2.v2 (broadcastInDim S320000x1x64 ![] bcast_S_S320000x1x64),  -- @elu_4 in %42 = func.call @elu_4(%41): %2 = stablehlo.broadcast_in_dim %cst_0, dims = [] : (tensor<f32>) -> tensor<320000x1x64xf32>
    StableHlo.TRef.binary (StableHlo.TRef.of (T := ⟨S320000x1x64, .f32⟩) main_v41) main_call2.v2 main_call2.v3 (cmpf .ogt),  -- @elu_4 in %42 = func.call @elu_4(%41): %3 = stablehlo.compare GT, %arg0, %2, FLOAT : (tensor<320000x1x64xf32>, tensor<320000x1x64xf32>) -> tensor<3200
    StableHlo.TRef.nullary main_call2.cst_1 (constant S_ .f32 0x00000000#32),  -- @elu_4 in %42 = func.call @elu_4(%41): %cst_1 = stablehlo.constant dense<0.000000e+00> : tensor<f32>
    StableHlo.TRef.unary main_call2.cst_1 main_call2.call0.v0 id,  -- @where_5 in %42 = func.call @elu_4(%41): %0 = stablehlo.convert %arg1 : tensor<f32>
    StableHlo.TRef.unary main_call2.call0.v0 main_call2.call0.v1 (broadcastInDim S320000x1x64 ![] bcast_S_S320000x1x64),  -- @where_5 in %42 = func.call @elu_4(%41): %1 = stablehlo.broadcast_in_dim %0, dims = [] : (tensor<f32>) -> tensor<320000x1x64xf32>
    StableHlo.TRef.ternary main_call2.v3 main_call2.call0.v1 (StableHlo.TRef.of (T := ⟨S320000x1x64, .f32⟩) main_v41) main_call2.call0.v2 select,  -- @where_5 in %42 = func.call @elu_4(%41): %2 = stablehlo.select %arg0, %1, %arg2 : tensor<320000x1x64xi1>, tensor<320000x1x64xf32>
    StableHlo.TRef.unary main_call2.call0.v2 main_call2.v5 Host.expm1,  -- @elu_4 in %42 = func.call @elu_4(%41): %5 = stablehlo.exponential_minus_one %4 : tensor<320000x1x64xf32>
    StableHlo.TRef.nullary main_call2.cst_2 (constant S_ .f32 0x3F800000#32),  -- @elu_4 in %42 = func.call @elu_4(%41): %cst_2 = stablehlo.constant dense<1.000000e+00> : tensor<f32>
    StableHlo.TRef.unary main_call2.cst_2 main_call2.v6 (broadcastInDim S320000x1x64 ![] bcast_S_S320000x1x64),  -- @elu_4 in %42 = func.call @elu_4(%41): %6 = stablehlo.broadcast_in_dim %cst_2, dims = [] : (tensor<f32>) -> tensor<320000x1x64xf32>
    StableHlo.TRef.binary main_call2.v6 main_call2.v5 main_call2.v7 mulf,  -- @elu_4 in %42 = func.call @elu_4(%41): %7 = stablehlo.multiply %6, %5 : tensor<320000x1x64xf32>
    StableHlo.TRef.ternary main_call2.v1 (StableHlo.TRef.of (T := ⟨S320000x1x64, .f32⟩) main_v41) main_call2.v7 main_call2.call1.v0 select,  -- @where_6 in %42 = func.call @elu_4(%41): %0 = stablehlo.select %arg0, %arg1, %arg2 : tensor<320000x1x64xi1>, tensor<320000x1x64xf32>
    StableHlo.unary main_arg7 main_v43 ((extractStridedSlice S1x1x64 ![0, 0, 0] · slices_S9x1x64_S1x1x64_0_0_0) : (⟨S9x1x64, .f32⟩ : BufTy).Contents (Elt F) → (⟨S1x1x64, .f32⟩ : BufTy).Contents (Elt F)),  -- %43 = stablehlo.slice %arg7 [0:1, 0:1, 0:64] : (tensor<9x1x64xf32>) -> tensor<1x1x64xf32>  @ reference:63
    StableHlo.reshape main_v43 main_v44 rfl shapeCasts_S1x1x64_S1x64,  -- %44 = stablehlo.reshape %43 : (tensor<1x1x64xf32>) -> tensor<1x64xf32>  @ reference:63
    StableHlo.unary main_v44 main_v45 (broadcastInDim S1x1x64 ![1, 2] bcast_S1x64_S1x1x64_1_2 : (⟨S1x64, .f32⟩ : BufTy).Contents (Elt F) → (⟨S1x1x64, .f32⟩ : BufTy).Contents (Elt F)),  -- %45 = stablehlo.broadcast_in_dim %44, dims = [1, 2] : (tensor<1x64xf32>) -> tensor<1x1x64xf32>  @ reference:63
    StableHlo.unary main_v45 main_v46 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %46 = stablehlo.broadcast_in_dim %45, dims = [0, 1, 2] : (tensor<1x1x64xf32>) -> tensor<320000x1x64xf32>  @ reference:63
    StableHlo.binary main_v46 main_v42 main_v47 (mulf : (⟨S320000x1x64, .f32⟩ : BufTy).Contents (Elt F) → (⟨S320000x1x64, .f32⟩ : BufTy).Contents (Elt F) → (⟨S320000x1x64, .f32⟩ : BufTy).Contents (Elt F)),  -- %47 = stablehlo.multiply %46, %42 : tensor<320000x1x64xf32>  @ reference:63
    StableHlo.nullary main_cst_4 (constant S_ .f32 0x00000000#32),  -- %cst_4 = stablehlo.constant dense<0.000000e+00> : tensor<f32>
    StableHlo.binary main_v47 main_cst_4 main_v48 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %48 = stablehlo.reduce(%47 init: %cst_4) applies stablehlo.add across dimensions = [2] : (tensor<320000x1x64xf32>, tensor<f32>) -> tensor<320000x1xf32
    StableHlo.TRef.nullary main_call3.cst (constant S_ .f32 0x00000000#32),  -- @softplus in %49 = func.call @softplus(%48): %cst = stablehlo.constant dense<0.000000e+00> : tensor<f32>
    StableHlo.TRef.unary main_call3.cst main_call3.v0 (broadcastInDim S320000x1 ![] bcast_S_S320000x1),  -- @softplus in %49 = func.call @softplus(%48): %0 = stablehlo.broadcast_in_dim %cst, dims = [] : (tensor<f32>) -> tensor<320000x1xf32>
    StableHlo.TRef.binary (StableHlo.TRef.of (T := ⟨S320000x1, .f32⟩) main_v48) main_call3.v0 main_call3.v1 maximumf,  -- @softplus in %49 = func.call @softplus(%48): %1 = stablehlo.maximum %arg0, %0 : tensor<320000x1xf32>
    StableHlo.TRef.unary main_call3.cst main_call3.v2 (broadcastInDim S320000x1 ![] bcast_S_S320000x1),  -- @softplus in %49 = func.call @softplus(%48): %2 = stablehlo.broadcast_in_dim %cst, dims = [] : (tensor<f32>) -> tensor<320000x1xf32>
    StableHlo.TRef.binary (StableHlo.TRef.of (T := ⟨S320000x1, .f32⟩) main_v48) main_call3.v2 main_call3.v3 subf,  -- @softplus in %49 = func.call @softplus(%48): %3 = stablehlo.subtract %arg0, %2 : tensor<320000x1xf32>
    StableHlo.TRef.binary main_call3.v3 main_call3.v3 main_call3.v4 (cmpf .une),  -- @softplus in %49 = func.call @softplus(%48): %4 = stablehlo.compare NE, %3, %3, FLOAT : (tensor<320000x1xf32>, tensor<320000x1xf32>) -> tensor<320000x
    StableHlo.TRef.unary main_call3.cst main_call3.v5 (broadcastInDim S320000x1 ![] bcast_S_S320000x1),  -- @softplus in %49 = func.call @softplus(%48): %5 = stablehlo.broadcast_in_dim %cst, dims = [] : (tensor<f32>) -> tensor<320000x1xf32>
    StableHlo.TRef.binary (StableHlo.TRef.of (T := ⟨S320000x1, .f32⟩) main_v48) main_call3.v5 main_call3.v6 addf,  -- @softplus in %49 = func.call @softplus(%48): %6 = stablehlo.add %arg0, %5 : tensor<320000x1xf32>
    StableHlo.TRef.unary main_call3.v3 main_call3.v7 Host.absf,  -- @softplus in %49 = func.call @softplus(%48): %7 = stablehlo.abs %3 : tensor<320000x1xf32>
    StableHlo.TRef.unary main_call3.v7 main_call3.v8 Host.negf,  -- @softplus in %49 = func.call @softplus(%48): %8 = stablehlo.negate %7 : tensor<320000x1xf32>
    StableHlo.TRef.unary main_call3.v8 main_call3.v9 Host.exp,  -- @softplus in %49 = func.call @softplus(%48): %9 = stablehlo.exponential %8 : tensor<320000x1xf32>
    StableHlo.TRef.unary main_call3.v9 main_call3.v10 Host.log1p,  -- @softplus in %49 = func.call @softplus(%48): %10 = stablehlo.log_plus_one %9 : tensor<320000x1xf32>
    StableHlo.TRef.binary main_call3.v1 main_call3.v10 main_call3.v11 addf,  -- @softplus in %49 = func.call @softplus(%48): %11 = stablehlo.add %1, %10 : tensor<320000x1xf32>
    StableHlo.TRef.ternary main_call3.v4 main_call3.v6 main_call3.v11 main_call3.v12 select,  -- @softplus in %49 = func.call @softplus(%48): %12 = stablehlo.select %4, %6, %11 : tensor<320000x1xi1>, tensor<320000x1xf32>
    StableHlo.nullary main_cst_5 (constant S_ .f32 0x358637BD#32),  -- %cst_5 = stablehlo.constant dense<9.99999997E-7> : tensor<f32>
    StableHlo.unary main_cst_5 main_v50 (broadcastInDim S320000x1 ![] bcast_S_S320000x1 : (⟨S_, .f32⟩ : BufTy).Contents (Elt F) → (⟨S320000x1, .f32⟩ : BufTy).Contents (Elt F)),  -- %50 = stablehlo.broadcast_in_dim %cst_5, dims = [] : (tensor<f32>) -> tensor<320000x1xf32>  @ reference:63
    StableHlo.binary main_v49 main_v50 main_v51 (addf : (⟨S320000x1, .f32⟩ : BufTy).Contents (Elt F) → (⟨S320000x1, .f32⟩ : BufTy).Contents (Elt F) → (⟨S320000x1, .f32⟩ : BufTy).Contents (Elt F)),  -- %51 = stablehlo.add %49, %50 : tensor<320000x1xf32>  @ reference:63
    StableHlo.nullary main_cst_6 (constant S_ .f32 0x00000000#32),  -- %cst_6 = stablehlo.constant dense<0.000000e+00> : tensor<f32>
    StableHlo.unary main_cst_6 main_v52 (broadcastInDim S10000x1 ![] bcast_S_S10000x1 : (⟨S_, .f32⟩ : BufTy).Contents (Elt F) → (⟨S10000x1, .f32⟩ : BufTy).Contents (Elt F)),  -- %52 = stablehlo.broadcast_in_dim %cst_6, dims = [] : (tensor<f32>) -> tensor<10000x1xf32>  @ reference:66
    StableHlo.unary main_v3 main_v53 (broadcastInDim S320000x1 ![0] bcast_S320000_S320000x1_0 : (⟨S320000, .i32⟩ : BufTy).Contents (Elt F) → (⟨S320000x1, .i32⟩ : BufTy).Contents (Elt F)),  -- %53 = stablehlo.broadcast_in_dim %3, dims = [0] : (tensor<320000xi32>) -> tensor<320000x1xi32>  @ reference:66
    StableHlo.ternary main_v52 main_v53 main_v51 main_v54 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %54 = "stablehlo.scatter"(%52, %53, %51) <{indices_are_sorted = false, scatter_dimension_numbers = #stablehlo.scatter<update_window_dims = [1], insert
    StableHlo.nullary main_cst_7 (constant S_ .f32 0x0A4FB11F#32),  -- %cst_7 = stablehlo.constant dense<1.000000e-32> : tensor<f32>
    StableHlo.unary main_cst_7 main_v55 (broadcastInDim S10000x1 ![] bcast_S_S10000x1 : (⟨S_, .f32⟩ : BufTy).Contents (Elt F) → (⟨S10000x1, .f32⟩ : BufTy).Contents (Elt F)),  -- %55 = stablehlo.broadcast_in_dim %cst_7, dims = [] : (tensor<f32>) -> tensor<10000x1xf32>  @ reference:67
    StableHlo.binary main_v54 main_v55 main_v56 (maximumf : (⟨S10000x1, .f32⟩ : BufTy).Contents (Elt F) → (⟨S10000x1, .f32⟩ : BufTy).Contents (Elt F) → (⟨S10000x1, .f32⟩ : BufTy).Contents (Elt F)),  -- %56 = stablehlo.maximum %54, %55 : tensor<10000x1xf32>  @ reference:67
    StableHlo.nullary main_cst_8 (constant S_ .f32 0xBF000000#32),  -- %cst_8 = stablehlo.constant dense<-5.000000e-01> : tensor<f32>
    StableHlo.unary main_cst_8 main_v57 (broadcastInDim S10000x1 ![] bcast_S_S10000x1 : (⟨S_, .f32⟩ : BufTy).Contents (Elt F) → (⟨S10000x1, .f32⟩ : BufTy).Contents (Elt F)),  -- %57 = stablehlo.broadcast_in_dim %cst_8, dims = [] : (tensor<f32>) -> tensor<10000x1xf32>  @ reference:67
    StableHlo.binary main_v56 main_v57 main_v58 (Host.powf : (⟨S10000x1, .f32⟩ : BufTy).Contents (Elt F) → (⟨S10000x1, .f32⟩ : BufTy).Contents (Elt F) → (⟨S10000x1, .f32⟩ : BufTy).Contents (Elt F)),  -- %58 = stablehlo.power %56, %57 : tensor<10000x1xf32>  @ reference:67
    StableHlo.nullary main_c_9 (constantI S_ 32 0#32),  -- %c_9 = stablehlo.constant dense<0> : tensor<i32>
    StableHlo.unary main_c_9 main_v59 (broadcastInDim S320000 ![] bcast_S_S320000 : (⟨S_, .i32⟩ : BufTy).Contents (Elt F) → (⟨S320000, .i32⟩ : BufTy).Contents (Elt F)),  -- %59 = stablehlo.broadcast_in_dim %c_9, dims = [] : (tensor<i32>) -> tensor<320000xi32>  @ reference:68
    StableHlo.binary main_v1 main_v59 main_v60 (cmpi .slt : (⟨S320000, .i32⟩ : BufTy).Contents (Elt F) → (⟨S320000, .i32⟩ : BufTy).Contents (Elt F) → (⟨S320000, .i1⟩ : BufTy).Contents (Elt F)),  -- %60 = stablehlo.compare LT, %1, %59, SIGNED : (tensor<320000xi32>, tensor<320000xi32>) -> tensor<320000xi1>  @ reference:68
    StableHlo.nullary main_c_10 (constantI S_ 32 10000#32),  -- %c_10 = stablehlo.constant dense<10000> : tensor<i32>
    StableHlo.unary main_c_10 main_v61 (broadcastInDim S320000 ![] bcast_S_S320000 : (⟨S_, .i32⟩ : BufTy).Contents (Elt F) → (⟨S320000, .i32⟩ : BufTy).Contents (Elt F)),  -- %61 = stablehlo.broadcast_in_dim %c_10, dims = [] : (tensor<i32>) -> tensor<320000xi32>  @ reference:68
    StableHlo.binary main_v1 main_v61 main_v62 (addi : (⟨S320000, .i32⟩ : BufTy).Contents (Elt F) → (⟨S320000, .i32⟩ : BufTy).Contents (Elt F) → (⟨S320000, .i32⟩ : BufTy).Contents (Elt F)),  -- %62 = stablehlo.add %1, %61 : tensor<320000xi32>  @ reference:68
    StableHlo.ternary main_v60 main_v62 main_v1 main_v63 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %63 = stablehlo.select %60, %62, %1 : tensor<320000xi1>, tensor<320000xi32>  @ reference:68
    StableHlo.unary main_v63 main_v64 (broadcastInDim S320000x1 ![0] bcast_S320000_S320000x1_0 : (⟨S320000, .i32⟩ : BufTy).Contents (Elt F) → (⟨S320000x1, .i32⟩ : BufTy).Contents (Elt F)),  -- %64 = stablehlo.broadcast_in_dim %63, dims = [0] : (tensor<320000xi32>) -> tensor<320000x1xi32>  @ reference:68
    StableHlo.binary main_v58 main_v64 main_v65 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %65 = "stablehlo.gather"(%58, %64) <{dimension_numbers = #stablehlo.gather<offset_dims = [1], collapsed_slice_dims = [0], start_index_map = [0], index
    StableHlo.binary main_v65 main_v51 main_v66 (mulf : (⟨S320000x1, .f32⟩ : BufTy).Contents (Elt F) → (⟨S320000x1, .f32⟩ : BufTy).Contents (Elt F) → (⟨S320000x1, .f32⟩ : BufTy).Contents (Elt F)),  -- %66 = stablehlo.multiply %65, %51 : tensor<320000x1xf32>  @ reference:68
    StableHlo.nullary main_c_11 (constantI S_ 32 0#32),  -- %c_11 = stablehlo.constant dense<0> : tensor<i32>
    StableHlo.unary main_c_11 main_v67 (broadcastInDim S320000 ![] bcast_S_S320000 : (⟨S_, .i32⟩ : BufTy).Contents (Elt F) → (⟨S320000, .i32⟩ : BufTy).Contents (Elt F)),  -- %67 = stablehlo.broadcast_in_dim %c_11, dims = [] : (tensor<i32>) -> tensor<320000xi32>  @ reference:68
    StableHlo.binary main_v3 main_v67 main_v68 (cmpi .slt : (⟨S320000, .i32⟩ : BufTy).Contents (Elt F) → (⟨S320000, .i32⟩ : BufTy).Contents (Elt F) → (⟨S320000, .i1⟩ : BufTy).Contents (Elt F)),  -- %68 = stablehlo.compare LT, %3, %67, SIGNED : (tensor<320000xi32>, tensor<320000xi32>) -> tensor<320000xi1>  @ reference:68
    StableHlo.nullary main_c_12 (constantI S_ 32 10000#32),  -- %c_12 = stablehlo.constant dense<10000> : tensor<i32>
    StableHlo.unary main_c_12 main_v69 (broadcastInDim S320000 ![] bcast_S_S320000 : (⟨S_, .i32⟩ : BufTy).Contents (Elt F) → (⟨S320000, .i32⟩ : BufTy).Contents (Elt F)),  -- %69 = stablehlo.broadcast_in_dim %c_12, dims = [] : (tensor<i32>) -> tensor<320000xi32>  @ reference:68
    StableHlo.binary main_v3 main_v69 main_v70 (addi : (⟨S320000, .i32⟩ : BufTy).Contents (Elt F) → (⟨S320000, .i32⟩ : BufTy).Contents (Elt F) → (⟨S320000, .i32⟩ : BufTy).Contents (Elt F)),  -- %70 = stablehlo.add %3, %69 : tensor<320000xi32>  @ reference:68
    StableHlo.ternary main_v68 main_v70 main_v3 main_v71 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %71 = stablehlo.select %68, %70, %3 : tensor<320000xi1>, tensor<320000xi32>  @ reference:68
    StableHlo.unary main_v71 main_v72 (broadcastInDim S320000x1 ![0] bcast_S320000_S320000x1_0 : (⟨S320000, .i32⟩ : BufTy).Contents (Elt F) → (⟨S320000x1, .i32⟩ : BufTy).Contents (Elt F)),  -- %72 = stablehlo.broadcast_in_dim %71, dims = [0] : (tensor<320000xi32>) -> tensor<320000x1xi32>  @ reference:68
    StableHlo.binary main_v58 main_v72 main_v73 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %73 = "stablehlo.gather"(%58, %72) <{dimension_numbers = #stablehlo.gather<offset_dims = [1], collapsed_slice_dims = [0], start_index_map = [0], index
    StableHlo.binary main_v66 main_v73 main_v74 (mulf : (⟨S320000x1, .f32⟩ : BufTy).Contents (Elt F) → (⟨S320000x1, .f32⟩ : BufTy).Contents (Elt F) → (⟨S320000x1, .f32⟩ : BufTy).Contents (Elt F)),  -- %74 = stablehlo.multiply %66, %73 : tensor<320000x1xf32>  @ reference:68
    StableHlo.unary main_v74 main_v75 (broadcastInDim S320000x1x1 ![0, 1] bcast_S320000x1_S320000x1x1_0_1 : (⟨S320000x1, .f32⟩ : BufTy).Contents (Elt F) → (⟨S320000x1x1, .f32⟩ : BufTy).Contents (Elt F)),  -- %75 = stablehlo.broadcast_in_dim %74, dims = [0, 1] : (tensor<320000x1xf32>) -> tensor<320000x1x1xf32>  @ reference:68
    StableHlo.nullary main_c_13 (constantI S_ 32 0#32),  -- %c_13 = stablehlo.constant dense<0> : tensor<i32>
    StableHlo.unary main_c_13 main_v76 (broadcastInDim S320000 ![] bcast_S_S320000 : (⟨S_, .i32⟩ : BufTy).Contents (Elt F) → (⟨S320000, .i32⟩ : BufTy).Contents (Elt F)),  -- %76 = stablehlo.broadcast_in_dim %c_13, dims = [] : (tensor<i32>) -> tensor<320000xi32>  @ reference:71
    StableHlo.binary main_v1 main_v76 main_v77 (cmpi .slt : (⟨S320000, .i32⟩ : BufTy).Contents (Elt F) → (⟨S320000, .i32⟩ : BufTy).Contents (Elt F) → (⟨S320000, .i1⟩ : BufTy).Contents (Elt F)),  -- %77 = stablehlo.compare LT, %1, %76, SIGNED : (tensor<320000xi32>, tensor<320000xi32>) -> tensor<320000xi1>  @ reference:71
    StableHlo.nullary main_c_14 (constantI S_ 32 10000#32),  -- %c_14 = stablehlo.constant dense<10000> : tensor<i32>
    StableHlo.unary main_c_14 main_v78 (broadcastInDim S320000 ![] bcast_S_S320000 : (⟨S_, .i32⟩ : BufTy).Contents (Elt F) → (⟨S320000, .i32⟩ : BufTy).Contents (Elt F)),  -- %78 = stablehlo.broadcast_in_dim %c_14, dims = [] : (tensor<i32>) -> tensor<320000xi32>  @ reference:71
    StableHlo.binary main_v1 main_v78 main_v79 (addi : (⟨S320000, .i32⟩ : BufTy).Contents (Elt F) → (⟨S320000, .i32⟩ : BufTy).Contents (Elt F) → (⟨S320000, .i32⟩ : BufTy).Contents (Elt F)),  -- %79 = stablehlo.add %1, %78 : tensor<320000xi32>  @ reference:71
    StableHlo.ternary main_v77 main_v79 main_v1 main_v80 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %80 = stablehlo.select %77, %79, %1 : tensor<320000xi1>, tensor<320000xi32>  @ reference:71
    StableHlo.unary main_v80 main_v81 (broadcastInDim S320000x1 ![0] bcast_S320000_S320000x1_0 : (⟨S320000, .i32⟩ : BufTy).Contents (Elt F) → (⟨S320000x1, .i32⟩ : BufTy).Contents (Elt F)),  -- %81 = stablehlo.broadcast_in_dim %80, dims = [0] : (tensor<320000xi32>) -> tensor<320000x1xi32>  @ reference:71
    StableHlo.binary main_v12 main_v81 main_v82 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %82 = "stablehlo.gather"(%12, %81) <{dimension_numbers = #stablehlo.gather<offset_dims = [1], collapsed_slice_dims = [0], start_index_map = [0], index
    StableHlo.reshape main_v82 main_v83 rfl shapeCasts_S320000x64_S320000x1x64,  -- %83 = stablehlo.reshape %82 : (tensor<320000x64xf32>) -> tensor<320000x1x64xf32>  @ reference:71
    StableHlo.unary main_v75 main_v84 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %84 = stablehlo.broadcast_in_dim %75, dims = [0, 1, 2] : (tensor<320000x1x1xf32>) -> tensor<320000x1x64xf32>  @ reference:71
    StableHlo.binary main_v83 main_v84 main_v85 (mulf : (⟨S320000x1x64, .f32⟩ : BufTy).Contents (Elt F) → (⟨S320000x1x64, .f32⟩ : BufTy).Contents (Elt F) → (⟨S320000x1x64, .f32⟩ : BufTy).Contents (Elt F)),  -- %85 = stablehlo.multiply %83, %84 : tensor<320000x1x64xf32>  @ reference:71
    StableHlo.nullary main_cst_15 (constant S_ .f32 0x00000000#32),  -- %cst_15 = stablehlo.constant dense<0.000000e+00> : tensor<f32>
    StableHlo.unary main_cst_15 main_v86 (broadcastInDim S10000x1x64 ![] bcast_S_S10000x1x64 : (⟨S_, .f32⟩ : BufTy).Contents (Elt F) → (⟨S10000x1x64, .f32⟩ : BufTy).Contents (Elt F)),  -- %86 = stablehlo.broadcast_in_dim %cst_15, dims = [] : (tensor<f32>) -> tensor<10000x1x64xf32>  @ reference:72
    StableHlo.unary main_v3 main_v87 (broadcastInDim S320000x1 ![0] bcast_S320000_S320000x1_0 : (⟨S320000, .i32⟩ : BufTy).Contents (Elt F) → (⟨S320000x1, .i32⟩ : BufTy).Contents (Elt F)),  -- %87 = stablehlo.broadcast_in_dim %3, dims = [0] : (tensor<320000xi32>) -> tensor<320000x1xi32>  @ reference:72
    StableHlo.ternary main_v86 main_v87 main_v85 main_v88 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %88 = "stablehlo.scatter"(%86, %87, %85) <{indices_are_sorted = false, scatter_dimension_numbers = #stablehlo.scatter<update_window_dims = [1, 2], ins
    StableHlo.reshape main_v88 main_v89 rfl shapeCasts_S10000x1x64_S10000x64,  -- %89 = stablehlo.reshape %88 : (tensor<10000x1x64xf32>) -> tensor<10000x64xf32>  @ reference:72
    StableHlo.reshape main_v89 main_v90 rfl shapeCasts_S10000x64_S10000x1x64,  -- %90 = stablehlo.reshape %89 : (tensor<10000x64xf32>) -> tensor<10000x1x64xf32>  @ reference:75
    StableHlo.binary main_v90 main_v26 main_v91 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %91 = stablehlo.concatenate %90, %26, dim = 2 : (tensor<10000x1x64xf32>, tensor<10000x1x64xf32>) -> tensor<10000x1x128xf32>  @ reference:76
    StableHlo.unary main_arg10 main_v92 ((extractStridedSlice S1x1x128 ![0, 0, 0] · slices_S9x1x128_S1x1x128_0_0_0) : (⟨S9x1x128, .f32⟩ : BufTy).Contents (Elt F) → (⟨S1x1x128, .f32⟩ : BufTy).Contents (Elt F)),  -- %92 = stablehlo.slice %arg10 [0:1, 0:1, 0:128] : (tensor<9x1x128xf32>) -> tensor<1x1x128xf32>  @ reference:77
    StableHlo.reshape main_v92 main_v93 rfl shapeCasts_S1x1x128_S1x128,  -- %93 = stablehlo.reshape %92 : (tensor<1x1x128xf32>) -> tensor<1x128xf32>  @ reference:77
    StableHlo.TRef.nullary main_call4.cst (constant S_ .f32 0x00000000#32),  -- @elu_7 in %94 = func.call @elu_7(%91): %cst = stablehlo.constant dense<0.000000e+00> : tensor<f32>
    StableHlo.TRef.unary main_call4.cst main_call4.v0 (broadcastInDim S10000x1x128 ![] bcast_S_S10000x1x128),  -- @elu_7 in %94 = func.call @elu_7(%91): %0 = stablehlo.broadcast_in_dim %cst, dims = [] : (tensor<f32>) -> tensor<10000x1x128xf32>
    StableHlo.TRef.binary (StableHlo.TRef.of (T := ⟨S10000x1x128, .f32⟩) main_v91) main_call4.v0 main_call4.v1 (cmpf .ogt),  -- @elu_7 in %94 = func.call @elu_7(%91): %1 = stablehlo.compare GT, %arg0, %0, FLOAT : (tensor<10000x1x128xf32>, tensor<10000x1x128xf32>) -> tensor<1000
    StableHlo.TRef.nullary main_call4.cst_0 (constant S_ .f32 0x00000000#32),  -- @elu_7 in %94 = func.call @elu_7(%91): %cst_0 = stablehlo.constant dense<0.000000e+00> : tensor<f32>
    StableHlo.TRef.unary main_call4.cst_0 main_call4.v2 (broadcastInDim S10000x1x128 ![] bcast_S_S10000x1x128),  -- @elu_7 in %94 = func.call @elu_7(%91): %2 = stablehlo.broadcast_in_dim %cst_0, dims = [] : (tensor<f32>) -> tensor<10000x1x128xf32>
    StableHlo.TRef.binary (StableHlo.TRef.of (T := ⟨S10000x1x128, .f32⟩) main_v91) main_call4.v2 main_call4.v3 (cmpf .ogt),  -- @elu_7 in %94 = func.call @elu_7(%91): %3 = stablehlo.compare GT, %arg0, %2, FLOAT : (tensor<10000x1x128xf32>, tensor<10000x1x128xf32>) -> tensor<1000
    StableHlo.TRef.nullary main_call4.cst_1 (constant S_ .f32 0x00000000#32),  -- @elu_7 in %94 = func.call @elu_7(%91): %cst_1 = stablehlo.constant dense<0.000000e+00> : tensor<f32>
    StableHlo.TRef.unary main_call4.cst_1 main_call4.call0.v0 id,  -- @where_8 in %94 = func.call @elu_7(%91): %0 = stablehlo.convert %arg1 : tensor<f32>
    StableHlo.TRef.unary main_call4.call0.v0 main_call4.call0.v1 (broadcastInDim S10000x1x128 ![] bcast_S_S10000x1x128),  -- @where_8 in %94 = func.call @elu_7(%91): %1 = stablehlo.broadcast_in_dim %0, dims = [] : (tensor<f32>) -> tensor<10000x1x128xf32>
    StableHlo.TRef.ternary main_call4.v3 main_call4.call0.v1 (StableHlo.TRef.of (T := ⟨S10000x1x128, .f32⟩) main_v91) main_call4.call0.v2 select,  -- @where_8 in %94 = func.call @elu_7(%91): %2 = stablehlo.select %arg0, %1, %arg2 : tensor<10000x1x128xi1>, tensor<10000x1x128xf32>
    StableHlo.TRef.unary main_call4.call0.v2 main_call4.v5 Host.expm1,  -- @elu_7 in %94 = func.call @elu_7(%91): %5 = stablehlo.exponential_minus_one %4 : tensor<10000x1x128xf32>
    StableHlo.TRef.nullary main_call4.cst_2 (constant S_ .f32 0x3F800000#32),  -- @elu_7 in %94 = func.call @elu_7(%91): %cst_2 = stablehlo.constant dense<1.000000e+00> : tensor<f32>
    StableHlo.TRef.unary main_call4.cst_2 main_call4.v6 (broadcastInDim S10000x1x128 ![] bcast_S_S10000x1x128),  -- @elu_7 in %94 = func.call @elu_7(%91): %6 = stablehlo.broadcast_in_dim %cst_2, dims = [] : (tensor<f32>) -> tensor<10000x1x128xf32>
    StableHlo.TRef.binary main_call4.v6 main_call4.v5 main_call4.v7 mulf,  -- @elu_7 in %94 = func.call @elu_7(%91): %7 = stablehlo.multiply %6, %5 : tensor<10000x1x128xf32>
    StableHlo.TRef.ternary main_call4.v1 (StableHlo.TRef.of (T := ⟨S10000x1x128, .f32⟩) main_v91) main_call4.v7 main_call4.call1.v0 select,  -- @where_9 in %94 = func.call @elu_7(%91): %0 = stablehlo.select %arg0, %arg1, %arg2 : tensor<10000x1x128xi1>, tensor<10000x1x128xf32>
    StableHlo.unary main_v93 main_v95 (broadcastInDim S1x1x128 ![1, 2] bcast_S1x128_S1x1x128_1_2 : (⟨S1x128, .f32⟩ : BufTy).Contents (Elt F) → (⟨S1x1x128, .f32⟩ : BufTy).Contents (Elt F)),  -- %95 = stablehlo.broadcast_in_dim %93, dims = [1, 2] : (tensor<1x128xf32>) -> tensor<1x1x128xf32>  @ reference:77
    StableHlo.unary main_v95 main_v96 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %96 = stablehlo.broadcast_in_dim %95, dims = [0, 1, 2] : (tensor<1x1x128xf32>) -> tensor<10000x1x128xf32>  @ reference:77
    StableHlo.binary main_v96 main_v94 main_v97 (mulf : (⟨S10000x1x128, .f32⟩ : BufTy).Contents (Elt F) → (⟨S10000x1x128, .f32⟩ : BufTy).Contents (Elt F) → (⟨S10000x1x128, .f32⟩ : BufTy).Contents (Elt F)),  -- %97 = stablehlo.multiply %96, %94 : tensor<10000x1x128xf32>  @ reference:77
    StableHlo.nullary main_cst_16 (constant S_ .f32 0x00000000#32),  -- %cst_16 = stablehlo.constant dense<0.000000e+00> : tensor<f32>
    StableHlo.binary main_v97 main_cst_16 main_v98 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %98 = stablehlo.reduce(%97 init: %cst_16) applies stablehlo.add across dimensions = [2] : (tensor<10000x1x128xf32>, tensor<f32>) -> tensor<10000x1xf32
    StableHlo.unary main_arg11 main_v99 ((extractStridedSlice S1x1 ![0, 0] · slices_S9x1_S1x1_0_0) : (⟨S9x1, .f32⟩ : BufTy).Contents (Elt F) → (⟨S1x1, .f32⟩ : BufTy).Contents (Elt F)),  -- %99 = stablehlo.slice %arg11 [0:1, 0:1] : (tensor<9x1xf32>) -> tensor<1x1xf32>  @ reference:77
    StableHlo.reshape main_v99 main_v100 rfl shapeCasts_S1x1_S1,  -- %100 = stablehlo.reshape %99 : (tensor<1x1xf32>) -> tensor<1xf32>  @ reference:77
    StableHlo.unary main_v100 main_v101 (broadcastInDim S1x1 ![1] bcast_S1_S1x1_1 : (⟨S1, .f32⟩ : BufTy).Contents (Elt F) → (⟨S1x1, .f32⟩ : BufTy).Contents (Elt F)),  -- %101 = stablehlo.broadcast_in_dim %100, dims = [1] : (tensor<1xf32>) -> tensor<1x1xf32>  @ reference:77
    StableHlo.unary main_v101 main_v102 (broadcastInDim S10000x1 ![0, 1] bcast_S1x1_S10000x1_0_1 : (⟨S1x1, .f32⟩ : BufTy).Contents (Elt F) → (⟨S10000x1, .f32⟩ : BufTy).Contents (Elt F)),  -- %102 = stablehlo.broadcast_in_dim %101, dims = [0, 1] : (tensor<1x1xf32>) -> tensor<10000x1xf32>  @ reference:77
    StableHlo.binary main_v98 main_v102 main_v103 (addf : (⟨S10000x1, .f32⟩ : BufTy).Contents (Elt F) → (⟨S10000x1, .f32⟩ : BufTy).Contents (Elt F) → (⟨S10000x1, .f32⟩ : BufTy).Contents (Elt F)),  -- %103 = stablehlo.add %98, %102 : tensor<10000x1xf32>  @ reference:77
    StableHlo.unary main_v103 main_v104 (broadcastInDim S10000x1x1 ![0, 1] bcast_S10000x1_S10000x1x1_0_1 : (⟨S10000x1, .f32⟩ : BufTy).Contents (Elt F) → (⟨S10000x1x1, .f32⟩ : BufTy).Contents (Elt F)),  -- %104 = stablehlo.broadcast_in_dim %103, dims = [0, 1] : (tensor<10000x1xf32>) -> tensor<10000x1x1xf32>  @ reference:78
    StableHlo.unary main_v104 main_v105 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %105 = stablehlo.broadcast_in_dim %104, dims = [0, 1, 2] : (tensor<10000x1x1xf32>) -> tensor<10000x1x64xf32>  @ reference:78
    StableHlo.binary main_v90 main_v105 main_v106 (mulf : (⟨S10000x1x64, .f32⟩ : BufTy).Contents (Elt F) → (⟨S10000x1x64, .f32⟩ : BufTy).Contents (Elt F) → (⟨S10000x1x64, .f32⟩ : BufTy).Contents (Elt F)),  -- %106 = stablehlo.multiply %90, %105 : tensor<10000x1x64xf32>  @ reference:78
    StableHlo.binary main_v24 main_v106 main_v107 (addf : (⟨S10000x1x64, .f32⟩ : BufTy).Contents (Elt F) → (⟨S10000x1x64, .f32⟩ : BufTy).Contents (Elt F) → (⟨S10000x1x64, .f32⟩ : BufTy).Contents (Elt F)) ]  -- %107 = stablehlo.add %24, %106 : tensor<10000x1x64xf32>  @ reference:78

theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL0 writes (each operation writes one, its result's), in order. -/
abbrev wL0 : List (Ref sig .tc) :=
  [main_cst_0, main_v25, main_v26, main_c, main_v27, main_v28, main_c_1, main_v29, main_v30, main_v31, main_v32, main_v33, main_c_2, main_v34,
    main_v35, main_c_3, main_v36, main_v37, main_v38, main_v39, main_v40, main_v41, main_call2.cst.ref, main_call2.v0.ref, main_call2.v1.ref,
    main_call2.cst_0.ref, main_call2.v2.ref, main_call2.v3.ref, main_call2.cst_1.ref, main_call2.call0.v0.ref, main_call2.call0.v1.ref,
    main_call2.call0.v2.ref, main_call2.v5.ref, main_call2.cst_2.ref, main_call2.v6.ref, main_call2.v7.ref, main_call2.call1.v0.ref, main_v43,
    main_v44, main_v45, main_v46, main_v47, main_cst_4, main_v48, main_call3.cst.ref, main_call3.v0.ref, main_call3.v1.ref, main_call3.v2.ref,
    main_call3.v3.ref, main_call3.v4.ref, main_call3.v5.ref, main_call3.v6.ref, main_call3.v7.ref, main_call3.v8.ref, main_call3.v9.ref,
    main_call3.v10.ref, main_call3.v11.ref, main_call3.v12.ref, main_cst_5, main_v50, main_v51, main_cst_6, main_v52, main_v53, main_v54, main_cst_7,
    main_v55, main_v56, main_cst_8, main_v57, main_v58, main_c_9, main_v59, main_v60, main_c_10, main_v61, main_v62, main_v63, main_v64, main_v65,
    main_v66, main_c_11, main_v67, main_v68, main_c_12, main_v69, main_v70, main_v71, main_v72, main_v73, main_v74, main_v75, main_c_13, main_v76,
    main_v77, main_c_14, main_v78, main_v79, main_v80, main_v81, main_v82, main_v83, main_v84, main_v85, main_cst_15, main_v86, main_v87, main_v88,
    main_v89, main_v90, main_v91, main_v92, main_v93, main_call4.cst.ref, main_call4.v0.ref, main_call4.v1.ref, main_call4.cst_0.ref,
    main_call4.v2.ref, main_call4.v3.ref, main_call4.cst_1.ref, main_call4.call0.v0.ref, main_call4.call0.v1.ref, main_call4.call0.v2.ref,
    main_call4.v5.ref, main_call4.cst_2.ref, main_call4.v6.ref, main_call4.v7.ref, main_call4.call1.v0.ref, main_v95, main_v96, main_v97,
    main_cst_16, main_v98, main_v99, main_v100, main_v101, main_v102, main_v103, main_v104, main_v105, main_v106, main_v107]
theorem opsL0_writes : (opsL0 : List (HloOp τ sig (Elt F))).Forall fun op =>
    op.writes ⊆ (wL0.map (Proc.devRef (τ := τ) .tc)).toFinset := by
  simp only [opsL0, List.Forall, nullary_writes, unary_writes, binary_writes, ternary_writes, reshape_writes]
  repeat' apply And.intro
  all_goals exact Finset.singleton_subset_iff.mpr (List.mem_toFinset.mpr (List.mem_map_of_mem (by decide)))
/-- opsL0 keeps every buffer it does not write. -/
theorem opsL0_kept (V : Valuation τ sig (Elt F)) (r : Ref sig .tc) (hr : r ∉ wL0) :
    after opsL0 V (Proc.devRef .tc r) = V (Proc.devRef .tc r) :=
  after_of_writes_sub opsL0 V opsL0_writes hr

end Cert.ReferenceIdeal.RefRun

end
-- ==== Proof.RefRun.L1.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1: the state scaled, gathered along the edges, weighted, scattered back and added in. -/
abbrev opsL1 : List (HloOp τ sig (Elt F)) :=
  [ StableHlo.nullary main_cst_17 (constant S_ .f32 0x3ECF9936#32),  -- %cst_17 = stablehlo.constant dense<0.405465782> : tensor<f32>
    StableHlo.unary main_cst_17 main_v108 (broadcastInDim S10000x1x64 ![] bcast_S_S10000x1x64 : (⟨S_, .f32⟩ : BufTy).Contents (Elt F) → (⟨S10000x1x64, .f32⟩ : BufTy).Contents (Elt F)),  -- %108 = stablehlo.broadcast_in_dim %cst_17, dims = [] : (tensor<f32>) -> tensor<10000x1x64xf32>  @ reference:59
    StableHlo.binary main_v107 main_v108 main_v109 (mulf : (⟨S10000x1x64, .f32⟩ : BufTy).Contents (Elt F) → (⟨S10000x1x64, .f32⟩ : BufTy).Contents (Elt F) → (⟨S10000x1x64, .f32⟩ : BufTy).Contents (Elt F)),  -- %109 = stablehlo.multiply %107, %108 : tensor<10000x1x64xf32>  @ reference:59
    StableHlo.nullary main_c_18 (constantI S_ 32 0#32),  -- %c_18 = stablehlo.constant dense<0> : tensor<i32>
    StableHlo.unary main_c_18 main_v110 (broadcastInDim S320000 ![] bcast_S_S320000 : (⟨S_, .i32⟩ : BufTy).Contents (Elt F) → (⟨S320000, .i32⟩ : BufTy).Contents (Elt F)),  -- %110 = stablehlo.broadcast_in_dim %c_18, dims = [] : (tensor<i32>) -> tensor<320000xi32>  @ reference:62
    StableHlo.binary main_v1 main_v110 main_v111 (cmpi .slt : (⟨S320000, .i32⟩ : BufTy).Contents (Elt F) → (⟨S320000, .i32⟩ : BufTy).Contents (Elt F) → (⟨S320000, .i1⟩ : BufTy).Contents (Elt F)),  -- %111 = stablehlo.compare LT, %1, %110, SIGNED : (tensor<320000xi32>, tensor<320000xi32>) -> tensor<320000xi1>  @ reference:62
    StableHlo.nullary main_c_19 (constantI S_ 32 10000#32),  -- %c_19 = stablehlo.constant dense<10000> : tensor<i32>
    StableHlo.unary main_c_19 main_v112 (broadcastInDim S320000 ![] bcast_S_S320000 : (⟨S_, .i32⟩ : BufTy).Contents (Elt F) → (⟨S320000, .i32⟩ : BufTy).Contents (Elt F)),  -- %112 = stablehlo.broadcast_in_dim %c_19, dims = [] : (tensor<i32>) -> tensor<320000xi32>  @ reference:62
    StableHlo.binary main_v1 main_v112 main_v113 (addi : (⟨S320000, .i32⟩ : BufTy).Contents (Elt F) → (⟨S320000, .i32⟩ : BufTy).Contents (Elt F) → (⟨S320000, .i32⟩ : BufTy).Contents (Elt F)),  -- %113 = stablehlo.add %1, %112 : tensor<320000xi32>  @ reference:62
    StableHlo.ternary main_v111 main_v113 main_v1 main_v114 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %114 = stablehlo.select %111, %113, %1 : tensor<320000xi1>, tensor<320000xi32>  @ reference:62
    StableHlo.unary main_v114 main_v115 (broadcastInDim S320000x1 ![0] bcast_S320000_S320000x1_0 : (⟨S320000, .i32⟩ : BufTy).Contents (Elt F) → (⟨S320000x1, .i32⟩ : BufTy).Contents (Elt F)),  -- %115 = stablehlo.broadcast_in_dim %114, dims = [0] : (tensor<320000xi32>) -> tensor<320000x1xi32>  @ reference:62
    StableHlo.binary main_v109 main_v115 main_v116 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %116 = "stablehlo.gather"(%109, %115) <{dimension_numbers = #stablehlo.gather<offset_dims = [1, 2], collapsed_slice_dims = [0], start_index_map = [0],
    StableHlo.nullary main_c_20 (constantI S_ 32 0#32),  -- %c_20 = stablehlo.constant dense<0> : tensor<i32>
    StableHlo.unary main_c_20 main_v117 (broadcastInDim S320000 ![] bcast_S_S320000 : (⟨S_, .i32⟩ : BufTy).Contents (Elt F) → (⟨S320000, .i32⟩ : BufTy).Contents (Elt F)),  -- %117 = stablehlo.broadcast_in_dim %c_20, dims = [] : (tensor<i32>) -> tensor<320000xi32>  @ reference:62
    StableHlo.binary main_v3 main_v117 main_v118 (cmpi .slt : (⟨S320000, .i32⟩ : BufTy).Contents (Elt F) → (⟨S320000, .i32⟩ : BufTy).Contents (Elt F) → (⟨S320000, .i1⟩ : BufTy).Contents (Elt F)),  -- %118 = stablehlo.compare LT, %3, %117, SIGNED : (tensor<320000xi32>, tensor<320000xi32>) -> tensor<320000xi1>  @ reference:62
    StableHlo.nullary main_c_21 (constantI S_ 32 10000#32),  -- %c_21 = stablehlo.constant dense<10000> : tensor<i32>
    StableHlo.unary main_c_21 main_v119 (broadcastInDim S320000 ![] bcast_S_S320000 : (⟨S_, .i32⟩ : BufTy).Contents (Elt F) → (⟨S320000, .i32⟩ : BufTy).Contents (Elt F)),  -- %119 = stablehlo.broadcast_in_dim %c_21, dims = [] : (tensor<i32>) -> tensor<320000xi32>  @ reference:62
    StableHlo.binary main_v3 main_v119 main_v120 (addi : (⟨S320000, .i32⟩ : BufTy).Contents (Elt F) → (⟨S320000, .i32⟩ : BufTy).Contents (Elt F) → (⟨S320000, .i32⟩ : BufTy).Contents (Elt F)),  -- %120 = stablehlo.add %3, %119 : tensor<320000xi32>  @ reference:62
    StableHlo.ternary main_v118 main_v120 main_v3 main_v121 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %121 = stablehlo.select %118, %120, %3 : tensor<320000xi1>, tensor<320000xi32>  @ reference:62
    StableHlo.unary main_v121 main_v122 (broadcastInDim S320000x1 ![0] bcast_S320000_S320000x1_0 : (⟨S320000, .i32⟩ : BufTy).Contents (Elt F) → (⟨S320000x1, .i32⟩ : BufTy).Contents (Elt F)),  -- %122 = stablehlo.broadcast_in_dim %121, dims = [0] : (tensor<320000xi32>) -> tensor<320000x1xi32>  @ reference:62
    StableHlo.binary main_v109 main_v122 main_v123 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %123 = "stablehlo.gather"(%109, %122) <{dimension_numbers = #stablehlo.gather<offset_dims = [1, 2], collapsed_slice_dims = [0], start_index_map = [0],
    StableHlo.binary main_v116 main_v123 main_v124 (addf : (⟨S320000x1x64, .f32⟩ : BufTy).Contents (Elt F) → (⟨S320000x1x64, .f32⟩ : BufTy).Contents (Elt F) → (⟨S320000x1x64, .f32⟩ : BufTy).Contents (Elt F)),  -- %124 = stablehlo.add %116, %123 : tensor<320000x1x64xf32>  @ reference:62
    StableHlo.TRef.nullary main_call5.cst (constant S_ .f32 0x00000000#32),  -- @elu_4 in %125 = func.call @elu_4(%124): %cst = stablehlo.constant dense<0.000000e+00> : tensor<f32>
    StableHlo.TRef.unary main_call5.cst main_call5.v0 (broadcastInDim S320000x1x64 ![] bcast_S_S320000x1x64),  -- @elu_4 in %125 = func.call @elu_4(%124): %0 = stablehlo.broadcast_in_dim %cst, dims = [] : (tensor<f32>) -> tensor<320000x1x64xf32>
    StableHlo.TRef.binary (StableHlo.TRef.of (T := ⟨S320000x1x64, .f32⟩) main_v124) main_call5.v0 main_call5.v1 (cmpf .ogt),  -- @elu_4 in %125 = func.call @elu_4(%124): %1 = stablehlo.compare GT, %arg0, %0, FLOAT : (tensor<320000x1x64xf32>, tensor<320000x1x64xf32>) -> tensor<32
    StableHlo.TRef.nullary main_call5.cst_0 (constant S_ .f32 0x00000000#32),  -- @elu_4 in %125 = func.call @elu_4(%124): %cst_0 = stablehlo.constant dense<0.000000e+00> : tensor<f32>
    StableHlo.TRef.unary main_call5.cst_0 main_call5.v2 (broadcastInDim S320000x1x64 ![] bcast_S_S320000x1x64),  -- @elu_4 in %125 = func.call @elu_4(%124): %2 = stablehlo.broadcast_in_dim %cst_0, dims = [] : (tensor<f32>) -> tensor<320000x1x64xf32>
    StableHlo.TRef.binary (StableHlo.TRef.of (T := ⟨S320000x1x64, .f32⟩) main_v124) main_call5.v2 main_call5.v3 (cmpf .ogt),  -- @elu_4 in %125 = func.call @elu_4(%124): %3 = stablehlo.compare GT, %arg0, %2, FLOAT : (tensor<320000x1x64xf32>, tensor<320000x1x64xf32>) -> tensor<32
    StableHlo.TRef.nullary main_call5.cst_1 (constant S_ .f32 0x00000000#32),  -- @elu_4 in %125 = func.call @elu_4(%124): %cst_1 = stablehlo.constant dense<0.000000e+00> : tensor<f32>
    StableHlo.TRef.unary main_call5.cst_1 main_call5.call0.v0 id,  -- @where_5 in %125 = func.call @elu_4(%124): %0 = stablehlo.convert %arg1 : tensor<f32>
    StableHlo.TRef.unary main_call5.call0.v0 main_call5.call0.v1 (broadcastInDim S320000x1x64 ![] bcast_S_S320000x1x64),  -- @where_5 in %125 = func.call @elu_4(%124): %1 = stablehlo.broadcast_in_dim %0, dims = [] : (tensor<f32>) -> tensor<320000x1x64xf32>
    StableHlo.TRef.ternary main_call5.v3 main_call5.call0.v1 (StableHlo.TRef.of (T := ⟨S320000x1x64, .f32⟩) main_v124) main_call5.call0.v2 select,  -- @where_5 in %125 = func.call @elu_4(%124): %2 = stablehlo.select %arg0, %1, %arg2 : tensor<320000x1x64xi1>, tensor<320000x1x64xf32>
    StableHlo.TRef.unary main_call5.call0.v2 main_call5.v5 Host.expm1,  -- @elu_4 in %125 = func.call @elu_4(%124): %5 = stablehlo.exponential_minus_one %4 : tensor<320000x1x64xf32>
    StableHlo.TRef.nullary main_call5.cst_2 (constant S_ .f32 0x3F800000#32),  -- @elu_4 in %125 = func.call @elu_4(%124): %cst_2 = stablehlo.constant dense<1.000000e+00> : tensor<f32>
    StableHlo.TRef.unary main_call5.cst_2 main_call5.v6 (broadcastInDim S320000x1x64 ![] bcast_S_S320000x1x64),  -- @elu_4 in %125 = func.call @elu_4(%124): %6 = stablehlo.broadcast_in_dim %cst_2, dims = [] : (tensor<f32>) -> tensor<320000x1x64xf32>
    StableHlo.TRef.binary main_call5.v6 main_call5.v5 main_call5.v7 mulf,  -- @elu_4 in %125 = func.call @elu_4(%124): %7 = stablehlo.multiply %6, %5 : tensor<320000x1x64xf32>
    StableHlo.TRef.ternary main_call5.v1 (StableHlo.TRef.of (T := ⟨S320000x1x64, .f32⟩) main_v124) main_call5.v7 main_call5.call1.v0 select,  -- @where_6 in %125 = func.call @elu_4(%124): %0 = stablehlo.select %arg0, %arg1, %arg2 : tensor<320000x1x64xi1>, tensor<320000x1x64xf32>
    StableHlo.unary main_arg7 main_v126 ((extractStridedSlice S1x1x64 ![1, 0, 0] · slices_S9x1x64_S1x1x64_1_0_0) : (⟨S9x1x64, .f32⟩ : BufTy).Contents (Elt F) → (⟨S1x1x64, .f32⟩ : BufTy).Contents (Elt F)),  -- %126 = stablehlo.slice %arg7 [1:2, 0:1, 0:64] : (tensor<9x1x64xf32>) -> tensor<1x1x64xf32>  @ reference:63
    StableHlo.reshape main_v126 main_v127 rfl shapeCasts_S1x1x64_S1x64,  -- %127 = stablehlo.reshape %126 : (tensor<1x1x64xf32>) -> tensor<1x64xf32>  @ reference:63
    StableHlo.unary main_v127 main_v128 (broadcastInDim S1x1x64 ![1, 2] bcast_S1x64_S1x1x64_1_2 : (⟨S1x64, .f32⟩ : BufTy).Contents (Elt F) → (⟨S1x1x64, .f32⟩ : BufTy).Contents (Elt F)),  -- %128 = stablehlo.broadcast_in_dim %127, dims = [1, 2] : (tensor<1x64xf32>) -> tensor<1x1x64xf32>  @ reference:63
    StableHlo.unary main_v128 main_v129 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %129 = stablehlo.broadcast_in_dim %128, dims = [0, 1, 2] : (tensor<1x1x64xf32>) -> tensor<320000x1x64xf32>  @ reference:63
    StableHlo.binary main_v129 main_v125 main_v130 (mulf : (⟨S320000x1x64, .f32⟩ : BufTy).Contents (Elt F) → (⟨S320000x1x64, .f32⟩ : BufTy).Contents (Elt F) → (⟨S320000x1x64, .f32⟩ : BufTy).Contents (Elt F)),  -- %130 = stablehlo.multiply %129, %125 : tensor<320000x1x64xf32>  @ reference:63
    StableHlo.nullary main_cst_22 (constant S_ .f32 0x00000000#32),  -- %cst_22 = stablehlo.constant dense<0.000000e+00> : tensor<f32>
    StableHlo.binary main_v130 main_cst_22 main_v131 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %131 = stablehlo.reduce(%130 init: %cst_22) applies stablehlo.add across dimensions = [2] : (tensor<320000x1x64xf32>, tensor<f32>) -> tensor<320000x1x
    StableHlo.TRef.nullary main_call6.cst (constant S_ .f32 0x00000000#32),  -- @softplus in %132 = func.call @softplus(%131): %cst = stablehlo.constant dense<0.000000e+00> : tensor<f32>
    StableHlo.TRef.unary main_call6.cst main_call6.v0 (broadcastInDim S320000x1 ![] bcast_S_S320000x1),  -- @softplus in %132 = func.call @softplus(%131): %0 = stablehlo.broadcast_in_dim %cst, dims = [] : (tensor<f32>) -> tensor<320000x1xf32>
    StableHlo.TRef.binary (StableHlo.TRef.of (T := ⟨S320000x1, .f32⟩) main_v131) main_call6.v0 main_call6.v1 maximumf,  -- @softplus in %132 = func.call @softplus(%131): %1 = stablehlo.maximum %arg0, %0 : tensor<320000x1xf32>
    StableHlo.TRef.unary main_call6.cst main_call6.v2 (broadcastInDim S320000x1 ![] bcast_S_S320000x1),  -- @softplus in %132 = func.call @softplus(%131): %2 = stablehlo.broadcast_in_dim %cst, dims = [] : (tensor<f32>) -> tensor<320000x1xf32>
    StableHlo.TRef.binary (StableHlo.TRef.of (T := ⟨S320000x1, .f32⟩) main_v131) main_call6.v2 main_call6.v3 subf,  -- @softplus in %132 = func.call @softplus(%131): %3 = stablehlo.subtract %arg0, %2 : tensor<320000x1xf32>
    StableHlo.TRef.binary main_call6.v3 main_call6.v3 main_call6.v4 (cmpf .une),  -- @softplus in %132 = func.call @softplus(%131): %4 = stablehlo.compare NE, %3, %3, FLOAT : (tensor<320000x1xf32>, tensor<320000x1xf32>) -> tensor<32000
    StableHlo.TRef.unary main_call6.cst main_call6.v5 (broadcastInDim S320000x1 ![] bcast_S_S320000x1),  -- @softplus in %132 = func.call @softplus(%131): %5 = stablehlo.broadcast_in_dim %cst, dims = [] : (tensor<f32>) -> tensor<320000x1xf32>
    StableHlo.TRef.binary (StableHlo.TRef.of (T := ⟨S320000x1, .f32⟩) main_v131) main_call6.v5 main_call6.v6 addf,  -- @softplus in %132 = func.call @softplus(%131): %6 = stablehlo.add %arg0, %5 : tensor<320000x1xf32>
    StableHlo.TRef.unary main_call6.v3 main_call6.v7 Host.absf,  -- @softplus in %132 = func.call @softplus(%131): %7 = stablehlo.abs %3 : tensor<320000x1xf32>
    StableHlo.TRef.unary main_call6.v7 main_call6.v8 Host.negf,  -- @softplus in %132 = func.call @softplus(%131): %8 = stablehlo.negate %7 : tensor<320000x1xf32>
    StableHlo.TRef.unary main_call6.v8 main_call6.v9 Host.exp,  -- @softplus in %132 = func.call @softplus(%131): %9 = stablehlo.exponential %8 : tensor<320000x1xf32>
    StableHlo.TRef.unary main_call6.v9 main_call6.v10 Host.log1p,  -- @softplus in %132 = func.call @softplus(%131): %10 = stablehlo.log_plus_one %9 : tensor<320000x1xf32>
    StableHlo.TRef.binary main_call6.v1 main_call6.v10 main_call6.v11 addf,  -- @softplus in %132 = func.call @softplus(%131): %11 = stablehlo.add %1, %10 : tensor<320000x1xf32>
    StableHlo.TRef.ternary main_call6.v4 main_call6.v6 main_call6.v11 main_call6.v12 select,  -- @softplus in %132 = func.call @softplus(%131): %12 = stablehlo.select %4, %6, %11 : tensor<320000x1xi1>, tensor<320000x1xf32>
    StableHlo.nullary main_cst_23 (constant S_ .f32 0x358637BD#32),  -- %cst_23 = stablehlo.constant dense<9.99999997E-7> : tensor<f32>
    StableHlo.unary main_cst_23 main_v133 (broadcastInDim S320000x1 ![] bcast_S_S320000x1 : (⟨S_, .f32⟩ : BufTy).Contents (Elt F) → (⟨S320000x1, .f32⟩ : BufTy).Contents (Elt F)),  -- %133 = stablehlo.broadcast_in_dim %cst_23, dims = [] : (tensor<f32>) -> tensor<320000x1xf32>  @ reference:63
    StableHlo.binary main_v132 main_v133 main_v134 (addf : (⟨S320000x1, .f32⟩ : BufTy).Contents (Elt F) → (⟨S320000x1, .f32⟩ : BufTy).Contents (Elt F) → (⟨S320000x1, .f32⟩ : BufTy).Contents (Elt F)),  -- %134 = stablehlo.add %132, %133 : tensor<320000x1xf32>  @ reference:63
    StableHlo.nullary main_cst_24 (constant S_ .f32 0x00000000#32),  -- %cst_24 = stablehlo.constant dense<0.000000e+00> : tensor<f32>
    StableHlo.unary main_cst_24 main_v135 (broadcastInDim S10000x1 ![] bcast_S_S10000x1 : (⟨S_, .f32⟩ : BufTy).Contents (Elt F) → (⟨S10000x1, .f32⟩ : BufTy).Contents (Elt F)),  -- %135 = stablehlo.broadcast_in_dim %cst_24, dims = [] : (tensor<f32>) -> tensor<10000x1xf32>  @ reference:66
    StableHlo.unary main_v3 main_v136 (broadcastInDim S320000x1 ![0] bcast_S320000_S320000x1_0 : (⟨S320000, .i32⟩ : BufTy).Contents (Elt F) → (⟨S320000x1, .i32⟩ : BufTy).Contents (Elt F)),  -- %136 = stablehlo.broadcast_in_dim %3, dims = [0] : (tensor<320000xi32>) -> tensor<320000x1xi32>  @ reference:66
    StableHlo.ternary main_v135 main_v136 main_v134 main_v137 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %137 = "stablehlo.scatter"(%135, %136, %134) <{indices_are_sorted = false, scatter_dimension_numbers = #stablehlo.scatter<update_window_dims = [1], in
    StableHlo.nullary main_cst_25 (constant S_ .f32 0x0A4FB11F#32),  -- %cst_25 = stablehlo.constant dense<1.000000e-32> : tensor<f32>
    StableHlo.unary main_cst_25 main_v138 (broadcastInDim S10000x1 ![] bcast_S_S10000x1 : (⟨S_, .f32⟩ : BufTy).Contents (Elt F) → (⟨S10000x1, .f32⟩ : BufTy).Contents (Elt F)),  -- %138 = stablehlo.broadcast_in_dim %cst_25, dims = [] : (tensor<f32>) -> tensor<10000x1xf32>  @ reference:67
    StableHlo.binary main_v137 main_v138 main_v139 (maximumf : (⟨S10000x1, .f32⟩ : BufTy).Contents (Elt F) → (⟨S10000x1, .f32⟩ : BufTy).Contents (Elt F) → (⟨S10000x1, .f32⟩ : BufTy).Contents (Elt F)),  -- %139 = stablehlo.maximum %137, %138 : tensor<10000x1xf32>  @ reference:67
    StableHlo.nullary main_cst_26 (constant S_ .f32 0xBF000000#32),  -- %cst_26 = stablehlo.constant dense<-5.000000e-01> : tensor<f32>
    StableHlo.unary main_cst_26 main_v140 (broadcastInDim S10000x1 ![] bcast_S_S10000x1 : (⟨S_, .f32⟩ : BufTy).Contents (Elt F) → (⟨S10000x1, .f32⟩ : BufTy).Contents (Elt F)),  -- %140 = stablehlo.broadcast_in_dim %cst_26, dims = [] : (tensor<f32>) -> tensor<10000x1xf32>  @ reference:67
    StableHlo.binary main_v139 main_v140 main_v141 (Host.powf : (⟨S10000x1, .f32⟩ : BufTy).Contents (Elt F) → (⟨S10000x1, .f32⟩ : BufTy).Contents (Elt F) → (⟨S10000x1, .f32⟩ : BufTy).Contents (Elt F)),  -- %141 = stablehlo.power %139, %140 : tensor<10000x1xf32>  @ reference:67
    StableHlo.nullary main_c_27 (constantI S_ 32 0#32),  -- %c_27 = stablehlo.constant dense<0> : tensor<i32>
    StableHlo.unary main_c_27 main_v142 (broadcastInDim S320000 ![] bcast_S_S320000 : (⟨S_, .i32⟩ : BufTy).Contents (Elt F) → (⟨S320000, .i32⟩ : BufTy).Contents (Elt F)),  -- %142 = stablehlo.broadcast_in_dim %c_27, dims = [] : (tensor<i32>) -> tensor<320000xi32>  @ reference:68
    StableHlo.binary main_v1 main_v142 main_v143 (cmpi .slt : (⟨S320000, .i32⟩ : BufTy).Contents (Elt F) → (⟨S320000, .i32⟩ : BufTy).Contents (Elt F) → (⟨S320000, .i1⟩ : BufTy).Contents (Elt F)),  -- %143 = stablehlo.compare LT, %1, %142, SIGNED : (tensor<320000xi32>, tensor<320000xi32>) -> tensor<320000xi1>  @ reference:68
    StableHlo.nullary main_c_28 (constantI S_ 32 10000#32),  -- %c_28 = stablehlo.constant dense<10000> : tensor<i32>
    StableHlo.unary main_c_28 main_v144 (broadcastInDim S320000 ![] bcast_S_S320000 : (⟨S_, .i32⟩ : BufTy).Contents (Elt F) → (⟨S320000, .i32⟩ : BufTy).Contents (Elt F)),  -- %144 = stablehlo.broadcast_in_dim %c_28, dims = [] : (tensor<i32>) -> tensor<320000xi32>  @ reference:68
    StableHlo.binary main_v1 main_v144 main_v145 (addi : (⟨S320000, .i32⟩ : BufTy).Contents (Elt F) → (⟨S320000, .i32⟩ : BufTy).Contents (Elt F) → (⟨S320000, .i32⟩ : BufTy).Contents (Elt F)),  -- %145 = stablehlo.add %1, %144 : tensor<320000xi32>  @ reference:68
    StableHlo.ternary main_v143 main_v145 main_v1 main_v146 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %146 = stablehlo.select %143, %145, %1 : tensor<320000xi1>, tensor<320000xi32>  @ reference:68
    StableHlo.unary main_v146 main_v147 (broadcastInDim S320000x1 ![0] bcast_S320000_S320000x1_0 : (⟨S320000, .i32⟩ : BufTy).Contents (Elt F) → (⟨S320000x1, .i32⟩ : BufTy).Contents (Elt F)),  -- %147 = stablehlo.broadcast_in_dim %146, dims = [0] : (tensor<320000xi32>) -> tensor<320000x1xi32>  @ reference:68
    StableHlo.binary main_v141 main_v147 main_v148 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %148 = "stablehlo.gather"(%141, %147) <{dimension_numbers = #stablehlo.gather<offset_dims = [1], collapsed_slice_dims = [0], start_index_map = [0], in
    StableHlo.binary main_v148 main_v134 main_v149 (mulf : (⟨S320000x1, .f32⟩ : BufTy).Contents (Elt F) → (⟨S320000x1, .f32⟩ : BufTy).Contents (Elt F) → (⟨S320000x1, .f32⟩ : BufTy).Contents (Elt F)),  -- %149 = stablehlo.multiply %148, %134 : tensor<320000x1xf32>  @ reference:68
    StableHlo.nullary main_c_29 (constantI S_ 32 0#32),  -- %c_29 = stablehlo.constant dense<0> : tensor<i32>
    StableHlo.unary main_c_29 main_v150 (broadcastInDim S320000 ![] bcast_S_S320000 : (⟨S_, .i32⟩ : BufTy).Contents (Elt F) → (⟨S320000, .i32⟩ : BufTy).Contents (Elt F)),  -- %150 = stablehlo.broadcast_in_dim %c_29, dims = [] : (tensor<i32>) -> tensor<320000xi32>  @ reference:68
    StableHlo.binary main_v3 main_v150 main_v151 (cmpi .slt : (⟨S320000, .i32⟩ : BufTy).Contents (Elt F) → (⟨S320000, .i32⟩ : BufTy).Contents (Elt F) → (⟨S320000, .i1⟩ : BufTy).Contents (Elt F)),  -- %151 = stablehlo.compare LT, %3, %150, SIGNED : (tensor<320000xi32>, tensor<320000xi32>) -> tensor<320000xi1>  @ reference:68
    StableHlo.nullary main_c_30 (constantI S_ 32 10000#32),  -- %c_30 = stablehlo.constant dense<10000> : tensor<i32>
    StableHlo.unary main_c_30 main_v152 (broadcastInDim S320000 ![] bcast_S_S320000 : (⟨S_, .i32⟩ : BufTy).Contents (Elt F) → (⟨S320000, .i32⟩ : BufTy).Contents (Elt F)),  -- %152 = stablehlo.broadcast_in_dim %c_30, dims = [] : (tensor<i32>) -> tensor<320000xi32>  @ reference:68
    StableHlo.binary main_v3 main_v152 main_v153 (addi : (⟨S320000, .i32⟩ : BufTy).Contents (Elt F) → (⟨S320000, .i32⟩ : BufTy).Contents (Elt F) → (⟨S320000, .i32⟩ : BufTy).Contents (Elt F)),  -- %153 = stablehlo.add %3, %152 : tensor<320000xi32>  @ reference:68
    StableHlo.ternary main_v151 main_v153 main_v3 main_v154 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %154 = stablehlo.select %151, %153, %3 : tensor<320000xi1>, tensor<320000xi32>  @ reference:68
    StableHlo.unary main_v154 main_v155 (broadcastInDim S320000x1 ![0] bcast_S320000_S320000x1_0 : (⟨S320000, .i32⟩ : BufTy).Contents (Elt F) → (⟨S320000x1, .i32⟩ : BufTy).Contents (Elt F)),  -- %155 = stablehlo.broadcast_in_dim %154, dims = [0] : (tensor<320000xi32>) -> tensor<320000x1xi32>  @ reference:68
    StableHlo.binary main_v141 main_v155 main_v156 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %156 = "stablehlo.gather"(%141, %155) <{dimension_numbers = #stablehlo.gather<offset_dims = [1], collapsed_slice_dims = [0], start_index_map = [0], in
    StableHlo.binary main_v149 main_v156 main_v157 (mulf : (⟨S320000x1, .f32⟩ : BufTy).Contents (Elt F) → (⟨S320000x1, .f32⟩ : BufTy).Contents (Elt F) → (⟨S320000x1, .f32⟩ : BufTy).Contents (Elt F)),  -- %157 = stablehlo.multiply %149, %156 : tensor<320000x1xf32>  @ reference:68
    StableHlo.unary main_v157 main_v158 (broadcastInDim S320000x1x1 ![0, 1] bcast_S320000x1_S320000x1x1_0_1 : (⟨S320000x1, .f32⟩ : BufTy).Contents (Elt F) → (⟨S320000x1x1, .f32⟩ : BufTy).Contents (Elt F)),  -- %158 = stablehlo.broadcast_in_dim %157, dims = [0, 1] : (tensor<320000x1xf32>) -> tensor<320000x1x1xf32>  @ reference:68
    StableHlo.nullary main_c_31 (constantI S_ 32 0#32),  -- %c_31 = stablehlo.constant dense<0> : tensor<i32>
    StableHlo.unary main_c_31 main_v159 (broadcastInDim S320000 ![] bcast_S_S320000 : (⟨S_, .i32⟩ : BufTy).Contents (Elt F) → (⟨S320000, .i32⟩ : BufTy).Contents (Elt F)),  -- %159 = stablehlo.broadcast_in_dim %c_31, dims = [] : (tensor<i32>) -> tensor<320000xi32>  @ reference:71
    StableHlo.binary main_v1 main_v159 main_v160 (cmpi .slt : (⟨S320000, .i32⟩ : BufTy).Contents (Elt F) → (⟨S320000, .i32⟩ : BufTy).Contents (Elt F) → (⟨S320000, .i1⟩ : BufTy).Contents (Elt F)),  -- %160 = stablehlo.compare LT, %1, %159, SIGNED : (tensor<320000xi32>, tensor<320000xi32>) -> tensor<320000xi1>  @ reference:71
    StableHlo.nullary main_c_32 (constantI S_ 32 10000#32),  -- %c_32 = stablehlo.constant dense<10000> : tensor<i32>
    StableHlo.unary main_c_32 main_v161 (broadcastInDim S320000 ![] bcast_S_S320000 : (⟨S_, .i32⟩ : BufTy).Contents (Elt F) → (⟨S320000, .i32⟩ : BufTy).Contents (Elt F)),  -- %161 = stablehlo.broadcast_in_dim %c_32, dims = [] : (tensor<i32>) -> tensor<320000xi32>  @ reference:71
    StableHlo.binary main_v1 main_v161 main_v162 (addi : (⟨S320000, .i32⟩ : BufTy).Contents (Elt F) → (⟨S320000, .i32⟩ : BufTy).Contents (Elt F) → (⟨S320000, .i32⟩ : BufTy).Contents (Elt F)),  -- %162 = stablehlo.add %1, %161 : tensor<320000xi32>  @ reference:71
    StableHlo.ternary main_v160 main_v162 main_v1 main_v163 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %163 = stablehlo.select %160, %162, %1 : tensor<320000xi1>, tensor<320000xi32>  @ reference:71
    StableHlo.unary main_v163 main_v164 (broadcastInDim S320000x1 ![0] bcast_S320000_S320000x1_0 : (⟨S320000, .i32⟩ : BufTy).Contents (Elt F) → (⟨S320000x1, .i32⟩ : BufTy).Contents (Elt F)),  -- %164 = stablehlo.broadcast_in_dim %163, dims = [0] : (tensor<320000xi32>) -> tensor<320000x1xi32>  @ reference:71
    StableHlo.binary main_v89 main_v164 main_v165 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %165 = "stablehlo.gather"(%89, %164) <{dimension_numbers = #stablehlo.gather<offset_dims = [1], collapsed_slice_dims = [0], start_index_map = [0], ind
    StableHlo.reshape main_v165 main_v166 rfl shapeCasts_S320000x64_S320000x1x64,  -- %166 = stablehlo.reshape %165 : (tensor<320000x64xf32>) -> tensor<320000x1x64xf32>  @ reference:71
    StableHlo.unary main_v158 main_v167 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %167 = stablehlo.broadcast_in_dim %158, dims = [0, 1, 2] : (tensor<320000x1x1xf32>) -> tensor<320000x1x64xf32>  @ reference:71
    StableHlo.binary main_v166 main_v167 main_v168 (mulf : (⟨S320000x1x64, .f32⟩ : BufTy).Contents (Elt F) → (⟨S320000x1x64, .f32⟩ : BufTy).Contents (Elt F) → (⟨S320000x1x64, .f32⟩ : BufTy).Contents (Elt F)),  -- %168 = stablehlo.multiply %166, %167 : tensor<320000x1x64xf32>  @ reference:71
    StableHlo.nullary main_cst_33 (constant S_ .f32 0x00000000#32),  -- %cst_33 = stablehlo.constant dense<0.000000e+00> : tensor<f32>
    StableHlo.unary main_cst_33 main_v169 (broadcastInDim S10000x1x64 ![] bcast_S_S10000x1x64 : (⟨S_, .f32⟩ : BufTy).Contents (Elt F) → (⟨S10000x1x64, .f32⟩ : BufTy).Contents (Elt F)),  -- %169 = stablehlo.broadcast_in_dim %cst_33, dims = [] : (tensor<f32>) -> tensor<10000x1x64xf32>  @ reference:72
    StableHlo.unary main_v3 main_v170 (broadcastInDim S320000x1 ![0] bcast_S320000_S320000x1_0 : (⟨S320000, .i32⟩ : BufTy).Contents (Elt F) → (⟨S320000x1, .i32⟩ : BufTy).Contents (Elt F)),  -- %170 = stablehlo.broadcast_in_dim %3, dims = [0] : (tensor<320000xi32>) -> tensor<320000x1xi32>  @ reference:72
    StableHlo.ternary main_v169 main_v170 main_v168 main_v171 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %171 = "stablehlo.scatter"(%169, %170, %168) <{indices_are_sorted = false, scatter_dimension_numbers = #stablehlo.scatter<update_window_dims = [1, 2],
    StableHlo.reshape main_v171 main_v172 rfl shapeCasts_S10000x1x64_S10000x64,  -- %172 = stablehlo.reshape %171 : (tensor<10000x1x64xf32>) -> tensor<10000x64xf32>  @ reference:72
    StableHlo.reshape main_v172 main_v173 rfl shapeCasts_S10000x64_S10000x1x64,  -- %173 = stablehlo.reshape %172 : (tensor<10000x64xf32>) -> tensor<10000x1x64xf32>  @ reference:75
    StableHlo.binary main_v173 main_v109 main_v174 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %174 = stablehlo.concatenate %173, %109, dim = 2 : (tensor<10000x1x64xf32>, tensor<10000x1x64xf32>) -> tensor<10000x1x128xf32>  @ reference:76
    StableHlo.unary main_arg10 main_v175 ((extractStridedSlice S1x1x128 ![1, 0, 0] · slices_S9x1x128_S1x1x128_1_0_0) : (⟨S9x1x128, .f32⟩ : BufTy).Contents (Elt F) → (⟨S1x1x128, .f32⟩ : BufTy).Contents (Elt F)),  -- %175 = stablehlo.slice %arg10 [1:2, 0:1, 0:128] : (tensor<9x1x128xf32>) -> tensor<1x1x128xf32>  @ reference:77
    StableHlo.reshape main_v175 main_v176 rfl shapeCasts_S1x1x128_S1x128,  -- %176 = stablehlo.reshape %175 : (tensor<1x1x128xf32>) -> tensor<1x128xf32>  @ reference:77
    StableHlo.TRef.nullary main_call7.cst (constant S_ .f32 0x00000000#32),  -- @elu_7 in %177 = func.call @elu_7(%174): %cst = stablehlo.constant dense<0.000000e+00> : tensor<f32>
    StableHlo.TRef.unary main_call7.cst main_call7.v0 (broadcastInDim S10000x1x128 ![] bcast_S_S10000x1x128),  -- @elu_7 in %177 = func.call @elu_7(%174): %0 = stablehlo.broadcast_in_dim %cst, dims = [] : (tensor<f32>) -> tensor<10000x1x128xf32>
    StableHlo.TRef.binary (StableHlo.TRef.of (T := ⟨S10000x1x128, .f32⟩) main_v174) main_call7.v0 main_call7.v1 (cmpf .ogt),  -- @elu_7 in %177 = func.call @elu_7(%174): %1 = stablehlo.compare GT, %arg0, %0, FLOAT : (tensor<10000x1x128xf32>, tensor<10000x1x128xf32>) -> tensor<10
    StableHlo.TRef.nullary main_call7.cst_0 (constant S_ .f32 0x00000000#32),  -- @elu_7 in %177 = func.call @elu_7(%174): %cst_0 = stablehlo.constant dense<0.000000e+00> : tensor<f32>
    StableHlo.TRef.unary main_call7.cst_0 main_call7.v2 (broadcastInDim S10000x1x128 ![] bcast_S_S10000x1x128),  -- @elu_7 in %177 = func.call @elu_7(%174): %2 = stablehlo.broadcast_in_dim %cst_0, dims = [] : (tensor<f32>) -> tensor<10000x1x128xf32>
    StableHlo.TRef.binary (StableHlo.TRef.of (T := ⟨S10000x1x128, .f32⟩) main_v174) main_call7.v2 main_call7.v3 (cmpf .ogt),  -- @elu_7 in %177 = func.call @elu_7(%174): %3 = stablehlo.compare GT, %arg0, %2, FLOAT : (tensor<10000x1x128xf32>, tensor<10000x1x128xf32>) -> tensor<10
    StableHlo.TRef.nullary main_call7.cst_1 (constant S_ .f32 0x00000000#32),  -- @elu_7 in %177 = func.call @elu_7(%174): %cst_1 = stablehlo.constant dense<0.000000e+00> : tensor<f32>
    StableHlo.TRef.unary main_call7.cst_1 main_call7.call0.v0 id,  -- @where_8 in %177 = func.call @elu_7(%174): %0 = stablehlo.convert %arg1 : tensor<f32>
    StableHlo.TRef.unary main_call7.call0.v0 main_call7.call0.v1 (broadcastInDim S10000x1x128 ![] bcast_S_S10000x1x128),  -- @where_8 in %177 = func.call @elu_7(%174): %1 = stablehlo.broadcast_in_dim %0, dims = [] : (tensor<f32>) -> tensor<10000x1x128xf32>
    StableHlo.TRef.ternary main_call7.v3 main_call7.call0.v1 (StableHlo.TRef.of (T := ⟨S10000x1x128, .f32⟩) main_v174) main_call7.call0.v2 select,  -- @where_8 in %177 = func.call @elu_7(%174): %2 = stablehlo.select %arg0, %1, %arg2 : tensor<10000x1x128xi1>, tensor<10000x1x128xf32>
    StableHlo.TRef.unary main_call7.call0.v2 main_call7.v5 Host.expm1,  -- @elu_7 in %177 = func.call @elu_7(%174): %5 = stablehlo.exponential_minus_one %4 : tensor<10000x1x128xf32>
    StableHlo.TRef.nullary main_call7.cst_2 (constant S_ .f32 0x3F800000#32),  -- @elu_7 in %177 = func.call @elu_7(%174): %cst_2 = stablehlo.constant dense<1.000000e+00> : tensor<f32>
    StableHlo.TRef.unary main_call7.cst_2 main_call7.v6 (broadcastInDim S10000x1x128 ![] bcast_S_S10000x1x128),  -- @elu_7 in %177 = func.call @elu_7(%174): %6 = stablehlo.broadcast_in_dim %cst_2, dims = [] : (tensor<f32>) -> tensor<10000x1x128xf32>
    StableHlo.TRef.binary main_call7.v6 main_call7.v5 main_call7.v7 mulf,  -- @elu_7 in %177 = func.call @elu_7(%174): %7 = stablehlo.multiply %6, %5 : tensor<10000x1x128xf32>
    StableHlo.TRef.ternary main_call7.v1 (StableHlo.TRef.of (T := ⟨S10000x1x128, .f32⟩) main_v174) main_call7.v7 main_call7.call1.v0 select,  -- @where_9 in %177 = func.call @elu_7(%174): %0 = stablehlo.select %arg0, %arg1, %arg2 : tensor<10000x1x128xi1>, tensor<10000x1x128xf32>
    StableHlo.unary main_v176 main_v178 (broadcastInDim S1x1x128 ![1, 2] bcast_S1x128_S1x1x128_1_2 : (⟨S1x128, .f32⟩ : BufTy).Contents (Elt F) → (⟨S1x1x128, .f32⟩ : BufTy).Contents (Elt F)),  -- %178 = stablehlo.broadcast_in_dim %176, dims = [1, 2] : (tensor<1x128xf32>) -> tensor<1x1x128xf32>  @ reference:77
    StableHlo.unary main_v178 main_v179 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %179 = stablehlo.broadcast_in_dim %178, dims = [0, 1, 2] : (tensor<1x1x128xf32>) -> tensor<10000x1x128xf32>  @ reference:77
    StableHlo.binary main_v179 main_v177 main_v180 (mulf : (⟨S10000x1x128, .f32⟩ : BufTy).Contents (Elt F) → (⟨S10000x1x128, .f32⟩ : BufTy).Contents (Elt F) → (⟨S10000x1x128, .f32⟩ : BufTy).Contents (Elt F)),  -- %180 = stablehlo.multiply %179, %177 : tensor<10000x1x128xf32>  @ reference:77
    StableHlo.nullary main_cst_34 (constant S_ .f32 0x00000000#32),  -- %cst_34 = stablehlo.constant dense<0.000000e+00> : tensor<f32>
    StableHlo.binary main_v180 main_cst_34 main_v181 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %181 = stablehlo.reduce(%180 init: %cst_34) applies stablehlo.add across dimensions = [2] : (tensor<10000x1x128xf32>, tensor<f32>) -> tensor<10000x1xf
    StableHlo.unary main_arg11 main_v182 ((extractStridedSlice S1x1 ![1, 0] · slices_S9x1_S1x1_1_0) : (⟨S9x1, .f32⟩ : BufTy).Contents (Elt F) → (⟨S1x1, .f32⟩ : BufTy).Contents (Elt F)),  -- %182 = stablehlo.slice %arg11 [1:2, 0:1] : (tensor<9x1xf32>) -> tensor<1x1xf32>  @ reference:77
    StableHlo.reshape main_v182 main_v183 rfl shapeCasts_S1x1_S1,  -- %183 = stablehlo.reshape %182 : (tensor<1x1xf32>) -> tensor<1xf32>  @ reference:77
    StableHlo.unary main_v183 main_v184 (broadcastInDim S1x1 ![1] bcast_S1_S1x1_1 : (⟨S1, .f32⟩ : BufTy).Contents (Elt F) → (⟨S1x1, .f32⟩ : BufTy).Contents (Elt F)),  -- %184 = stablehlo.broadcast_in_dim %183, dims = [1] : (tensor<1xf32>) -> tensor<1x1xf32>  @ reference:77
    StableHlo.unary main_v184 main_v185 (broadcastInDim S10000x1 ![0, 1] bcast_S1x1_S10000x1_0_1 : (⟨S1x1, .f32⟩ : BufTy).Contents (Elt F) → (⟨S10000x1, .f32⟩ : BufTy).Contents (Elt F)),  -- %185 = stablehlo.broadcast_in_dim %184, dims = [0, 1] : (tensor<1x1xf32>) -> tensor<10000x1xf32>  @ reference:77
    StableHlo.binary main_v181 main_v185 main_v186 (addf : (⟨S10000x1, .f32⟩ : BufTy).Contents (Elt F) → (⟨S10000x1, .f32⟩ : BufTy).Contents (Elt F) → (⟨S10000x1, .f32⟩ : BufTy).Contents (Elt F)),  -- %186 = stablehlo.add %181, %185 : tensor<10000x1xf32>  @ reference:77
    StableHlo.unary main_v186 main_v187 (broadcastInDim S10000x1x1 ![0, 1] bcast_S10000x1_S10000x1x1_0_1 : (⟨S10000x1, .f32⟩ : BufTy).Contents (Elt F) → (⟨S10000x1x1, .f32⟩ : BufTy).Contents (Elt F)),  -- %187 = stablehlo.broadcast_in_dim %186, dims = [0, 1] : (tensor<10000x1xf32>) -> tensor<10000x1x1xf32>  @ reference:78
    StableHlo.unary main_v187 main_v188 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %188 = stablehlo.broadcast_in_dim %187, dims = [0, 1, 2] : (tensor<10000x1x1xf32>) -> tensor<10000x1x64xf32>  @ reference:78
    StableHlo.binary main_v173 main_v188 main_v189 (mulf : (⟨S10000x1x64, .f32⟩ : BufTy).Contents (Elt F) → (⟨S10000x1x64, .f32⟩ : BufTy).Contents (Elt F) → (⟨S10000x1x64, .f32⟩ : BufTy).Contents (Elt F)),  -- %189 = stablehlo.multiply %173, %188 : tensor<10000x1x64xf32>  @ reference:78
    StableHlo.binary main_v107 main_v189 main_v190 (addf : (⟨S10000x1x64, .f32⟩ : BufTy).Contents (Elt F) → (⟨S10000x1x64, .f32⟩ : BufTy).Contents (Elt F) → (⟨S10000x1x64, .f32⟩ : BufTy).Contents (Elt F)) ]  -- %190 = stablehlo.add %107, %189 : tensor<10000x1x64xf32>  @ reference:78

theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL1 writes (each operation writes one, its result's), in order. -/
abbrev wL1 : List (Ref sig .tc) :=
  [main_cst_17, main_v108, main_v109, main_c_18, main_v110, main_v111, main_c_19, main_v112, main_v113, main_v114, main_v115, main_v116, main_c_20,
    main_v117, main_v118, main_c_21, main_v119, main_v120, main_v121, main_v122, main_v123, main_v124, main_call5.cst.ref, main_call5.v0.ref,
    main_call5.v1.ref, main_call5.cst_0.ref, main_call5.v2.ref, main_call5.v3.ref, main_call5.cst_1.ref, main_call5.call0.v0.ref,
    main_call5.call0.v1.ref, main_call5.call0.v2.ref, main_call5.v5.ref, main_call5.cst_2.ref, main_call5.v6.ref, main_call5.v7.ref,
    main_call5.call1.v0.ref, main_v126, main_v127, main_v128, main_v129, main_v130, main_cst_22, main_v131, main_call6.cst.ref, main_call6.v0.ref,
    main_call6.v1.ref, main_call6.v2.ref, main_call6.v3.ref, main_call6.v4.ref, main_call6.v5.ref, main_call6.v6.ref, main_call6.v7.ref,
    main_call6.v8.ref, main_call6.v9.ref, main_call6.v10.ref, main_call6.v11.ref, main_call6.v12.ref, main_cst_23, main_v133, main_v134, main_cst_24,
    main_v135, main_v136, main_v137, main_cst_25, main_v138, main_v139, main_cst_26, main_v140, main_v141, main_c_27, main_v142, main_v143,
    main_c_28, main_v144, main_v145, main_v146, main_v147, main_v148, main_v149, main_c_29, main_v150, main_v151, main_c_30, main_v152, main_v153,
    main_v154, main_v155, main_v156, main_v157, main_v158, main_c_31, main_v159, main_v160, main_c_32, main_v161, main_v162, main_v163, main_v164,
    main_v165, main_v166, main_v167, main_v168, main_cst_33, main_v169, main_v170, main_v171, main_v172, main_v173, main_v174, main_v175, main_v176,
    main_call7.cst.ref, main_call7.v0.ref, main_call7.v1.ref, main_call7.cst_0.ref, main_call7.v2.ref, main_call7.v3.ref, main_call7.cst_1.ref,
    main_call7.call0.v0.ref, main_call7.call0.v1.ref, main_call7.call0.v2.ref, main_call7.v5.ref, main_call7.cst_2.ref, main_call7.v6.ref,
    main_call7.v7.ref, main_call7.call1.v0.ref, main_v178, main_v179, main_v180, main_cst_34, main_v181, main_v182, main_v183, main_v184, main_v185,
    main_v186, main_v187, main_v188, main_v189, main_v190]
theorem opsL1_writes : (opsL1 : List (HloOp τ sig (Elt F))).Forall fun op =>
    op.writes ⊆ (wL1.map (Proc.devRef (τ := τ) .tc)).toFinset := by
  simp only [opsL1, List.Forall, nullary_writes, unary_writes, binary_writes, ternary_writes, reshape_writes]
  repeat' apply And.intro
  all_goals exact Finset.singleton_subset_iff.mpr (List.mem_toFinset.mpr (List.mem_map_of_mem (by decide)))
/-- opsL1 keeps every buffer it does not write. -/
theorem opsL1_kept (V : Valuation τ sig (Elt F)) (r : Ref sig .tc) (hr : r ∉ wL1) :
    after opsL1 V (Proc.devRef .tc r) = V (Proc.devRef .tc r) :=
  after_of_writes_sub opsL1 V opsL1_writes hr

end Cert.ReferenceIdeal.RefRun

end
-- ==== Proof.RefRun.L2.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2: the state scaled, gathered along the edges, weighted, scattered back and added in. -/
abbrev opsL2 : List (HloOp τ sig (Elt F)) :=
  [ StableHlo.nullary main_cst_35 (constant S_ .f32 0x3E934B2A#32),  -- %cst_35 = stablehlo.constant dense<0.287682831> : tensor<f32>
    StableHlo.unary main_cst_35 main_v191 (broadcastInDim S10000x1x64 ![] bcast_S_S10000x1x64 : (⟨S_, .f32⟩ : BufTy).Contents (Elt F) → (⟨S10000x1x64, .f32⟩ : BufTy).Contents (Elt F)),  -- %191 = stablehlo.broadcast_in_dim %cst_35, dims = [] : (tensor<f32>) -> tensor<10000x1x64xf32>  @ reference:59
    StableHlo.binary main_v190 main_v191 main_v192 (mulf : (⟨S10000x1x64, .f32⟩ : BufTy).Contents (Elt F) → (⟨S10000x1x64, .f32⟩ : BufTy).Contents (Elt F) → (⟨S10000x1x64, .f32⟩ : BufTy).Contents (Elt F)),  -- %192 = stablehlo.multiply %190, %191 : tensor<10000x1x64xf32>  @ reference:59
    StableHlo.nullary main_c_36 (constantI S_ 32 0#32),  -- %c_36 = stablehlo.constant dense<0> : tensor<i32>
    StableHlo.unary main_c_36 main_v193 (broadcastInDim S320000 ![] bcast_S_S320000 : (⟨S_, .i32⟩ : BufTy).Contents (Elt F) → (⟨S320000, .i32⟩ : BufTy).Contents (Elt F)),  -- %193 = stablehlo.broadcast_in_dim %c_36, dims = [] : (tensor<i32>) -> tensor<320000xi32>  @ reference:62
    StableHlo.binary main_v1 main_v193 main_v194 (cmpi .slt : (⟨S320000, .i32⟩ : BufTy).Contents (Elt F) → (⟨S320000, .i32⟩ : BufTy).Contents (Elt F) → (⟨S320000, .i1⟩ : BufTy).Contents (Elt F)),  -- %194 = stablehlo.compare LT, %1, %193, SIGNED : (tensor<320000xi32>, tensor<320000xi32>) -> tensor<320000xi1>  @ reference:62
    StableHlo.nullary main_c_37 (constantI S_ 32 10000#32),  -- %c_37 = stablehlo.constant dense<10000> : tensor<i32>
    StableHlo.unary main_c_37 main_v195 (broadcastInDim S320000 ![] bcast_S_S320000 : (⟨S_, .i32⟩ : BufTy).Contents (Elt F) → (⟨S320000, .i32⟩ : BufTy).Contents (Elt F)),  -- %195 = stablehlo.broadcast_in_dim %c_37, dims = [] : (tensor<i32>) -> tensor<320000xi32>  @ reference:62
    StableHlo.binary main_v1 main_v195 main_v196 (addi : (⟨S320000, .i32⟩ : BufTy).Contents (Elt F) → (⟨S320000, .i32⟩ : BufTy).Contents (Elt F) → (⟨S320000, .i32⟩ : BufTy).Contents (Elt F)),  -- %196 = stablehlo.add %1, %195 : tensor<320000xi32>  @ reference:62
    StableHlo.ternary main_v194 main_v196 main_v1 main_v197 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %197 = stablehlo.select %194, %196, %1 : tensor<320000xi1>, tensor<320000xi32>  @ reference:62
    StableHlo.unary main_v197 main_v198 (broadcastInDim S320000x1 ![0] bcast_S320000_S320000x1_0 : (⟨S320000, .i32⟩ : BufTy).Contents (Elt F) → (⟨S320000x1, .i32⟩ : BufTy).Contents (Elt F)),  -- %198 = stablehlo.broadcast_in_dim %197, dims = [0] : (tensor<320000xi32>) -> tensor<320000x1xi32>  @ reference:62
    StableHlo.binary main_v192 main_v198 main_v199 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %199 = "stablehlo.gather"(%192, %198) <{dimension_numbers = #stablehlo.gather<offset_dims = [1, 2], collapsed_slice_dims = [0], start_index_map = [0],
    StableHlo.nullary main_c_38 (constantI S_ 32 0#32),  -- %c_38 = stablehlo.constant dense<0> : tensor<i32>
    StableHlo.unary main_c_38 main_v200 (broadcastInDim S320000 ![] bcast_S_S320000 : (⟨S_, .i32⟩ : BufTy).Contents (Elt F) → (⟨S320000, .i32⟩ : BufTy).Contents (Elt F)),  -- %200 = stablehlo.broadcast_in_dim %c_38, dims = [] : (tensor<i32>) -> tensor<320000xi32>  @ reference:62
    StableHlo.binary main_v3 main_v200 main_v201 (cmpi .slt : (⟨S320000, .i32⟩ : BufTy).Contents (Elt F) → (⟨S320000, .i32⟩ : BufTy).Contents (Elt F) → (⟨S320000, .i1⟩ : BufTy).Contents (Elt F)),  -- %201 = stablehlo.compare LT, %3, %200, SIGNED : (tensor<320000xi32>, tensor<320000xi32>) -> tensor<320000xi1>  @ reference:62
    StableHlo.nullary main_c_39 (constantI S_ 32 10000#32),  -- %c_39 = stablehlo.constant dense<10000> : tensor<i32>
    StableHlo.unary main_c_39 main_v202 (broadcastInDim S320000 ![] bcast_S_S320000 : (⟨S_, .i32⟩ : BufTy).Contents (Elt F) → (⟨S320000, .i32⟩ : BufTy).Contents (Elt F)),  -- %202 = stablehlo.broadcast_in_dim %c_39, dims = [] : (tensor<i32>) -> tensor<320000xi32>  @ reference:62
    StableHlo.binary main_v3 main_v202 main_v203 (addi : (⟨S320000, .i32⟩ : BufTy).Contents (Elt F) → (⟨S320000, .i32⟩ : BufTy).Contents (Elt F) → (⟨S320000, .i32⟩ : BufTy).Contents (Elt F)),  -- %203 = stablehlo.add %3, %202 : tensor<320000xi32>  @ reference:62
    StableHlo.ternary main_v201 main_v203 main_v3 main_v204 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %204 = stablehlo.select %201, %203, %3 : tensor<320000xi1>, tensor<320000xi32>  @ reference:62
    StableHlo.unary main_v204 main_v205 (broadcastInDim S320000x1 ![0] bcast_S320000_S320000x1_0 : (⟨S320000, .i32⟩ : BufTy).Contents (Elt F) → (⟨S320000x1, .i32⟩ : BufTy).Contents (Elt F)),  -- %205 = stablehlo.broadcast_in_dim %204, dims = [0] : (tensor<320000xi32>) -> tensor<320000x1xi32>  @ reference:62
    StableHlo.binary main_v192 main_v205 main_v206 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %206 = "stablehlo.gather"(%192, %205) <{dimension_numbers = #stablehlo.gather<offset_dims = [1, 2], collapsed_slice_dims = [0], start_index_map = [0],
    StableHlo.binary main_v199 main_v206 main_v207 (addf : (⟨S320000x1x64, .f32⟩ : BufTy).Contents (Elt F) → (⟨S320000x1x64, .f32⟩ : BufTy).Contents (Elt F) → (⟨S320000x1x64, .f32⟩ : BufTy).Contents (Elt F)),  -- %207 = stablehlo.add %199, %206 : tensor<320000x1x64xf32>  @ reference:62
    StableHlo.TRef.nullary main_call8.cst (constant S_ .f32 0x00000000#32),  -- @elu_4 in %208 = func.call @elu_4(%207): %cst = stablehlo.constant dense<0.000000e+00> : tensor<f32>
    StableHlo.TRef.unary main_call8.cst main_call8.v0 (broadcastInDim S320000x1x64 ![] bcast_S_S320000x1x64),  -- @elu_4 in %208 = func.call @elu_4(%207): %0 = stablehlo.broadcast_in_dim %cst, dims = [] : (tensor<f32>) -> tensor<320000x1x64xf32>
    StableHlo.TRef.binary (StableHlo.TRef.of (T := ⟨S320000x1x64, .f32⟩) main_v207) main_call8.v0 main_call8.v1 (cmpf .ogt),  -- @elu_4 in %208 = func.call @elu_4(%207): %1 = stablehlo.compare GT, %arg0, %0, FLOAT : (tensor<320000x1x64xf32>, tensor<320000x1x64xf32>) -> tensor<32
    StableHlo.TRef.nullary main_call8.cst_0 (constant S_ .f32 0x00000000#32),  -- @elu_4 in %208 = func.call @elu_4(%207): %cst_0 = stablehlo.constant dense<0.000000e+00> : tensor<f32>
    StableHlo.TRef.unary main_call8.cst_0 main_call8.v2 (broadcastInDim S320000x1x64 ![] bcast_S_S320000x1x64),  -- @elu_4 in %208 = func.call @elu_4(%207): %2 = stablehlo.broadcast_in_dim %cst_0, dims = [] : (tensor<f32>) -> tensor<320000x1x64xf32>
    StableHlo.TRef.binary (StableHlo.TRef.of (T := ⟨S320000x1x64, .f32⟩) main_v207) main_call8.v2 main_call8.v3 (cmpf .ogt),  -- @elu_4 in %208 = func.call @elu_4(%207): %3 = stablehlo.compare GT, %arg0, %2, FLOAT : (tensor<320000x1x64xf32>, tensor<320000x1x64xf32>) -> tensor<32
    StableHlo.TRef.nullary main_call8.cst_1 (constant S_ .f32 0x00000000#32),  -- @elu_4 in %208 = func.call @elu_4(%207): %cst_1 = stablehlo.constant dense<0.000000e+00> : tensor<f32>
    StableHlo.TRef.unary main_call8.cst_1 main_call8.call0.v0 id,  -- @where_5 in %208 = func.call @elu_4(%207): %0 = stablehlo.convert %arg1 : tensor<f32>
    StableHlo.TRef.unary main_call8.call0.v0 main_call8.call0.v1 (broadcastInDim S320000x1x64 ![] bcast_S_S320000x1x64),  -- @where_5 in %208 = func.call @elu_4(%207): %1 = stablehlo.broadcast_in_dim %0, dims = [] : (tensor<f32>) -> tensor<320000x1x64xf32>
    StableHlo.TRef.ternary main_call8.v3 main_call8.call0.v1 (StableHlo.TRef.of (T := ⟨S320000x1x64, .f32⟩) main_v207) main_call8.call0.v2 select,  -- @where_5 in %208 = func.call @elu_4(%207): %2 = stablehlo.select %arg0, %1, %arg2 : tensor<320000x1x64xi1>, tensor<320000x1x64xf32>
    StableHlo.TRef.unary main_call8.call0.v2 main_call8.v5 Host.expm1,  -- @elu_4 in %208 = func.call @elu_4(%207): %5 = stablehlo.exponential_minus_one %4 : tensor<320000x1x64xf32>
    StableHlo.TRef.nullary main_call8.cst_2 (constant S_ .f32 0x3F800000#32),  -- @elu_4 in %208 = func.call @elu_4(%207): %cst_2 = stablehlo.constant dense<1.000000e+00> : tensor<f32>
    StableHlo.TRef.unary main_call8.cst_2 main_call8.v6 (broadcastInDim S320000x1x64 ![] bcast_S_S320000x1x64),  -- @elu_4 in %208 = func.call @elu_4(%207): %6 = stablehlo.broadcast_in_dim %cst_2, dims = [] : (tensor<f32>) -> tensor<320000x1x64xf32>
    StableHlo.TRef.binary main_call8.v6 main_call8.v5 main_call8.v7 mulf,  -- @elu_4 in %208 = func.call @elu_4(%207): %7 = stablehlo.multiply %6, %5 : tensor<320000x1x64xf32>
    StableHlo.TRef.ternary main_call8.v1 (StableHlo.TRef.of (T := ⟨S320000x1x64, .f32⟩) main_v207) main_call8.v7 main_call8.call1.v0 select,  -- @where_6 in %208 = func.call @elu_4(%207): %0 = stablehlo.select %arg0, %arg1, %arg2 : tensor<320000x1x64xi1>, tensor<320000x1x64xf32>
    StableHlo.unary main_arg7 main_v209 ((extractStridedSlice S1x1x64 ![2, 0, 0] · slices_S9x1x64_S1x1x64_2_0_0) : (⟨S9x1x64, .f32⟩ : BufTy).Contents (Elt F) → (⟨S1x1x64, .f32⟩ : BufTy).Contents (Elt F)),  -- %209 = stablehlo.slice %arg7 [2:3, 0:1, 0:64] : (tensor<9x1x64xf32>) -> tensor<1x1x64xf32>  @ reference:63
    StableHlo.reshape main_v209 main_v210 rfl shapeCasts_S1x1x64_S1x64,  -- %210 = stablehlo.reshape %209 : (tensor<1x1x64xf32>) -> tensor<1x64xf32>  @ reference:63
    StableHlo.unary main_v210 main_v211 (broadcastInDim S1x1x64 ![1, 2] bcast_S1x64_S1x1x64_1_2 : (⟨S1x64, .f32⟩ : BufTy).Contents (Elt F) → (⟨S1x1x64, .f32⟩ : BufTy).Contents (Elt F)),  -- %211 = stablehlo.broadcast_in_dim %210, dims = [1, 2] : (tensor<1x64xf32>) -> tensor<1x1x64xf32>  @ reference:63
    StableHlo.unary main_v211 main_v212 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %212 = stablehlo.broadcast_in_dim %211, dims = [0, 1, 2] : (tensor<1x1x64xf32>) -> tensor<320000x1x64xf32>  @ reference:63
    StableHlo.binary main_v212 main_v208 main_v213 (mulf : (⟨S320000x1x64, .f32⟩ : BufTy).Contents (Elt F) → (⟨S320000x1x64, .f32⟩ : BufTy).Contents (Elt F) → (⟨S320000x1x64, .f32⟩ : BufTy).Contents (Elt F)),  -- %213 = stablehlo.multiply %212, %208 : tensor<320000x1x64xf32>  @ reference:63
    StableHlo.nullary main_cst_40 (constant S_ .f32 0x00000000#32),  -- %cst_40 = stablehlo.constant dense<0.000000e+00> : tensor<f32>
    StableHlo.binary main_v213 main_cst_40 main_v214 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %214 = stablehlo.reduce(%213 init: %cst_40) applies stablehlo.add across dimensions = [2] : (tensor<320000x1x64xf32>, tensor<f32>) -> tensor<320000x1x
    StableHlo.TRef.nullary main_call9.cst (constant S_ .f32 0x00000000#32),  -- @softplus in %215 = func.call @softplus(%214): %cst = stablehlo.constant dense<0.000000e+00> : tensor<f32>
    StableHlo.TRef.unary main_call9.cst main_call9.v0 (broadcastInDim S320000x1 ![] bcast_S_S320000x1),  -- @softplus in %215 = func.call @softplus(%214): %0 = stablehlo.broadcast_in_dim %cst, dims = [] : (tensor<f32>) -> tensor<320000x1xf32>
    StableHlo.TRef.binary (StableHlo.TRef.of (T := ⟨S320000x1, .f32⟩) main_v214) main_call9.v0 main_call9.v1 maximumf,  -- @softplus in %215 = func.call @softplus(%214): %1 = stablehlo.maximum %arg0, %0 : tensor<320000x1xf32>
    StableHlo.TRef.unary main_call9.cst main_call9.v2 (broadcastInDim S320000x1 ![] bcast_S_S320000x1),  -- @softplus in %215 = func.call @softplus(%214): %2 = stablehlo.broadcast_in_dim %cst, dims = [] : (tensor<f32>) -> tensor<320000x1xf32>
    StableHlo.TRef.binary (StableHlo.TRef.of (T := ⟨S320000x1, .f32⟩) main_v214) main_call9.v2 main_call9.v3 subf,  -- @softplus in %215 = func.call @softplus(%214): %3 = stablehlo.subtract %arg0, %2 : tensor<320000x1xf32>
    StableHlo.TRef.binary main_call9.v3 main_call9.v3 main_call9.v4 (cmpf .une),  -- @softplus in %215 = func.call @softplus(%214): %4 = stablehlo.compare NE, %3, %3, FLOAT : (tensor<320000x1xf32>, tensor<320000x1xf32>) -> tensor<32000
    StableHlo.TRef.unary main_call9.cst main_call9.v5 (broadcastInDim S320000x1 ![] bcast_S_S320000x1),  -- @softplus in %215 = func.call @softplus(%214): %5 = stablehlo.broadcast_in_dim %cst, dims = [] : (tensor<f32>) -> tensor<320000x1xf32>
    StableHlo.TRef.binary (StableHlo.TRef.of (T := ⟨S320000x1, .f32⟩) main_v214) main_call9.v5 main_call9.v6 addf,  -- @softplus in %215 = func.call @softplus(%214): %6 = stablehlo.add %arg0, %5 : tensor<320000x1xf32>
    StableHlo.TRef.unary main_call9.v3 main_call9.v7 Host.absf,  -- @softplus in %215 = func.call @softplus(%214): %7 = stablehlo.abs %3 : tensor<320000x1xf32>
    StableHlo.TRef.unary main_call9.v7 main_call9.v8 Host.negf,  -- @softplus in %215 = func.call @softplus(%214): %8 = stablehlo.negate %7 : tensor<320000x1xf32>
    StableHlo.TRef.unary main_call9.v8 main_call9.v9 Host.exp,  -- @softplus in %215 = func.call @softplus(%214): %9 = stablehlo.exponential %8 : tensor<320000x1xf32>
    StableHlo.TRef.unary main_call9.v9 main_call9.v10 Host.log1p,  -- @softplus in %215 = func.call @softplus(%214): %10 = stablehlo.log_plus_one %9 : tensor<320000x1xf32>
    StableHlo.TRef.binary main_call9.v1 main_call9.v10 main_call9.v11 addf,  -- @softplus in %215 = func.call @softplus(%214): %11 = stablehlo.add %1, %10 : tensor<320000x1xf32>
    StableHlo.TRef.ternary main_call9.v4 main_call9.v6 main_call9.v11 main_call9.v12 select,  -- @softplus in %215 = func.call @softplus(%214): %12 = stablehlo.select %4, %6, %11 : tensor<320000x1xi1>, tensor<320000x1xf32>
    StableHlo.nullary main_cst_41 (constant S_ .f32 0x358637BD#32),  -- %cst_41 = stablehlo.constant dense<9.99999997E-7> : tensor<f32>
    StableHlo.unary main_cst_41 main_v216 (broadcastInDim S320000x1 ![] bcast_S_S320000x1 : (⟨S_, .f32⟩ : BufTy).Contents (Elt F) → (⟨S320000x1, .f32⟩ : BufTy).Contents (Elt F)),  -- %216 = stablehlo.broadcast_in_dim %cst_41, dims = [] : (tensor<f32>) -> tensor<320000x1xf32>  @ reference:63
    StableHlo.binary main_v215 main_v216 main_v217 (addf : (⟨S320000x1, .f32⟩ : BufTy).Contents (Elt F) → (⟨S320000x1, .f32⟩ : BufTy).Contents (Elt F) → (⟨S320000x1, .f32⟩ : BufTy).Contents (Elt F)),  -- %217 = stablehlo.add %215, %216 : tensor<320000x1xf32>  @ reference:63
    StableHlo.nullary main_cst_42 (constant S_ .f32 0x00000000#32),  -- %cst_42 = stablehlo.constant dense<0.000000e+00> : tensor<f32>
    StableHlo.unary main_cst_42 main_v218 (broadcastInDim S10000x1 ![] bcast_S_S10000x1 : (⟨S_, .f32⟩ : BufTy).Contents (Elt F) → (⟨S10000x1, .f32⟩ : BufTy).Contents (Elt F)),  -- %218 = stablehlo.broadcast_in_dim %cst_42, dims = [] : (tensor<f32>) -> tensor<10000x1xf32>  @ reference:66
    StableHlo.unary main_v3 main_v219 (broadcastInDim S320000x1 ![0] bcast_S320000_S320000x1_0 : (⟨S320000, .i32⟩ : BufTy).Contents (Elt F) → (⟨S320000x1, .i32⟩ : BufTy).Contents (Elt F)),  -- %219 = stablehlo.broadcast_in_dim %3, dims = [0] : (tensor<320000xi32>) -> tensor<320000x1xi32>  @ reference:66
    StableHlo.ternary main_v218 main_v219 main_v217 main_v220 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %220 = "stablehlo.scatter"(%218, %219, %217) <{indices_are_sorted = false, scatter_dimension_numbers = #stablehlo.scatter<update_window_dims = [1], in
    StableHlo.nullary main_cst_43 (constant S_ .f32 0x0A4FB11F#32),  -- %cst_43 = stablehlo.constant dense<1.000000e-32> : tensor<f32>
    StableHlo.unary main_cst_43 main_v221 (broadcastInDim S10000x1 ![] bcast_S_S10000x1 : (⟨S_, .f32⟩ : BufTy).Contents (Elt F) → (⟨S10000x1, .f32⟩ : BufTy).Contents (Elt F)),  -- %221 = stablehlo.broadcast_in_dim %cst_43, dims = [] : (tensor<f32>) -> tensor<10000x1xf32>  @ reference:67
    StableHlo.binary main_v220 main_v221 main_v222 (maximumf : (⟨S10000x1, .f32⟩ : BufTy).Contents (Elt F) → (⟨S10000x1, .f32⟩ : BufTy).Contents (Elt F) → (⟨S10000x1, .f32⟩ : BufTy).Contents (Elt F)),  -- %222 = stablehlo.maximum %220, %221 : tensor<10000x1xf32>  @ reference:67
    StableHlo.nullary main_cst_44 (constant S_ .f32 0xBF000000#32),  -- %cst_44 = stablehlo.constant dense<-5.000000e-01> : tensor<f32>
    StableHlo.unary main_cst_44 main_v223 (broadcastInDim S10000x1 ![] bcast_S_S10000x1 : (⟨S_, .f32⟩ : BufTy).Contents (Elt F) → (⟨S10000x1, .f32⟩ : BufTy).Contents (Elt F)),  -- %223 = stablehlo.broadcast_in_dim %cst_44, dims = [] : (tensor<f32>) -> tensor<10000x1xf32>  @ reference:67
    StableHlo.binary main_v222 main_v223 main_v224 (Host.powf : (⟨S10000x1, .f32⟩ : BufTy).Contents (Elt F) → (⟨S10000x1, .f32⟩ : BufTy).Contents (Elt F) → (⟨S10000x1, .f32⟩ : BufTy).Contents (Elt F)),  -- %224 = stablehlo.power %222, %223 : tensor<10000x1xf32>  @ reference:67
    StableHlo.nullary main_c_45 (constantI S_ 32 0#32),  -- %c_45 = stablehlo.constant dense<0> : tensor<i32>
    StableHlo.unary main_c_45 main_v225 (broadcastInDim S320000 ![] bcast_S_S320000 : (⟨S_, .i32⟩ : BufTy).Contents (Elt F) → (⟨S320000, .i32⟩ : BufTy).Contents (Elt F)),  -- %225 = stablehlo.broadcast_in_dim %c_45, dims = [] : (tensor<i32>) -> tensor<320000xi32>  @ reference:68
    StableHlo.binary main_v1 main_v225 main_v226 (cmpi .slt : (⟨S320000, .i32⟩ : BufTy).Contents (Elt F) → (⟨S320000, .i32⟩ : BufTy).Contents (Elt F) → (⟨S320000, .i1⟩ : BufTy).Contents (Elt F)),  -- %226 = stablehlo.compare LT, %1, %225, SIGNED : (tensor<320000xi32>, tensor<320000xi32>) -> tensor<320000xi1>  @ reference:68
    StableHlo.nullary main_c_46 (constantI S_ 32 10000#32),  -- %c_46 = stablehlo.constant dense<10000> : tensor<i32>
    StableHlo.unary main_c_46 main_v227 (broadcastInDim S320000 ![] bcast_S_S320000 : (⟨S_, .i32⟩ : BufTy).Contents (Elt F) → (⟨S320000, .i32⟩ : BufTy).Contents (Elt F)),  -- %227 = stablehlo.broadcast_in_dim %c_46, dims = [] : (tensor<i32>) -> tensor<320000xi32>  @ reference:68
    StableHlo.binary main_v1 main_v227 main_v228 (addi : (⟨S320000, .i32⟩ : BufTy).Contents (Elt F) → (⟨S320000, .i32⟩ : BufTy).Contents (Elt F) → (⟨S320000, .i32⟩ : BufTy).Contents (Elt F)),  -- %228 = stablehlo.add %1, %227 : tensor<320000xi32>  @ reference:68
    StableHlo.ternary main_v226 main_v228 main_v1 main_v229 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %229 = stablehlo.select %226, %228, %1 : tensor<320000xi1>, tensor<320000xi32>  @ reference:68
    StableHlo.unary main_v229 main_v230 (broadcastInDim S320000x1 ![0] bcast_S320000_S320000x1_0 : (⟨S320000, .i32⟩ : BufTy).Contents (Elt F) → (⟨S320000x1, .i32⟩ : BufTy).Contents (Elt F)),  -- %230 = stablehlo.broadcast_in_dim %229, dims = [0] : (tensor<320000xi32>) -> tensor<320000x1xi32>  @ reference:68
    StableHlo.binary main_v224 main_v230 main_v231 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %231 = "stablehlo.gather"(%224, %230) <{dimension_numbers = #stablehlo.gather<offset_dims = [1], collapsed_slice_dims = [0], start_index_map = [0], in
    StableHlo.binary main_v231 main_v217 main_v232 (mulf : (⟨S320000x1, .f32⟩ : BufTy).Contents (Elt F) → (⟨S320000x1, .f32⟩ : BufTy).Contents (Elt F) → (⟨S320000x1, .f32⟩ : BufTy).Contents (Elt F)),  -- %232 = stablehlo.multiply %231, %217 : tensor<320000x1xf32>  @ reference:68
    StableHlo.nullary main_c_47 (constantI S_ 32 0#32),  -- %c_47 = stablehlo.constant dense<0> : tensor<i32>
    StableHlo.unary main_c_47 main_v233 (broadcastInDim S320000 ![] bcast_S_S320000 : (⟨S_, .i32⟩ : BufTy).Contents (Elt F) → (⟨S320000, .i32⟩ : BufTy).Contents (Elt F)),  -- %233 = stablehlo.broadcast_in_dim %c_47, dims = [] : (tensor<i32>) -> tensor<320000xi32>  @ reference:68
    StableHlo.binary main_v3 main_v233 main_v234 (cmpi .slt : (⟨S320000, .i32⟩ : BufTy).Contents (Elt F) → (⟨S320000, .i32⟩ : BufTy).Contents (Elt F) → (⟨S320000, .i1⟩ : BufTy).Contents (Elt F)),  -- %234 = stablehlo.compare LT, %3, %233, SIGNED : (tensor<320000xi32>, tensor<320000xi32>) -> tensor<320000xi1>  @ reference:68
    StableHlo.nullary main_c_48 (constantI S_ 32 10000#32),  -- %c_48 = stablehlo.constant dense<10000> : tensor<i32>
    StableHlo.unary main_c_48 main_v235 (broadcastInDim S320000 ![] bcast_S_S320000 : (⟨S_, .i32⟩ : BufTy).Contents (Elt F) → (⟨S320000, .i32⟩ : BufTy).Contents (Elt F)),  -- %235 = stablehlo.broadcast_in_dim %c_48, dims = [] : (tensor<i32>) -> tensor<320000xi32>  @ reference:68
    StableHlo.binary main_v3 main_v235 main_v236 (addi : (⟨S320000, .i32⟩ : BufTy).Contents (Elt F) → (⟨S320000, .i32⟩ : BufTy).Contents (Elt F) → (⟨S320000, .i32⟩ : BufTy).Contents (Elt F)),  -- %236 = stablehlo.add %3, %235 : tensor<320000xi32>  @ reference:68
    StableHlo.ternary main_v234 main_v236 main_v3 main_v237 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %237 = stablehlo.select %234, %236, %3 : tensor<320000xi1>, tensor<320000xi32>  @ reference:68
    StableHlo.unary main_v237 main_v238 (broadcastInDim S320000x1 ![0] bcast_S320000_S320000x1_0 : (⟨S320000, .i32⟩ : BufTy).Contents (Elt F) → (⟨S320000x1, .i32⟩ : BufTy).Contents (Elt F)),  -- %238 = stablehlo.broadcast_in_dim %237, dims = [0] : (tensor<320000xi32>) -> tensor<320000x1xi32>  @ reference:68
    StableHlo.binary main_v224 main_v238 main_v239 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %239 = "stablehlo.gather"(%224, %238) <{dimension_numbers = #stablehlo.gather<offset_dims = [1], collapsed_slice_dims = [0], start_index_map = [0], in
    StableHlo.binary main_v232 main_v239 main_v240 (mulf : (⟨S320000x1, .f32⟩ : BufTy).Contents (Elt F) → (⟨S320000x1, .f32⟩ : BufTy).Contents (Elt F) → (⟨S320000x1, .f32⟩ : BufTy).Contents (Elt F)),  -- %240 = stablehlo.multiply %232, %239 : tensor<320000x1xf32>  @ reference:68
    StableHlo.unary main_v240 main_v241 (broadcastInDim S320000x1x1 ![0, 1] bcast_S320000x1_S320000x1x1_0_1 : (⟨S320000x1, .f32⟩ : BufTy).Contents (Elt F) → (⟨S320000x1x1, .f32⟩ : BufTy).Contents (Elt F)),  -- %241 = stablehlo.broadcast_in_dim %240, dims = [0, 1] : (tensor<320000x1xf32>) -> tensor<320000x1x1xf32>  @ reference:68
    StableHlo.nullary main_c_49 (constantI S_ 32 0#32),  -- %c_49 = stablehlo.constant dense<0> : tensor<i32>
    StableHlo.unary main_c_49 main_v242 (broadcastInDim S320000 ![] bcast_S_S320000 : (⟨S_, .i32⟩ : BufTy).Contents (Elt F) → (⟨S320000, .i32⟩ : BufTy).Contents (Elt F)),  -- %242 = stablehlo.broadcast_in_dim %c_49, dims = [] : (tensor<i32>) -> tensor<320000xi32>  @ reference:71
    StableHlo.binary main_v1 main_v242 main_v243 (cmpi .slt : (⟨S320000, .i32⟩ : BufTy).Contents (Elt F) → (⟨S320000, .i32⟩ : BufTy).Contents (Elt F) → (⟨S320000, .i1⟩ : BufTy).Contents (Elt F)),  -- %243 = stablehlo.compare LT, %1, %242, SIGNED : (tensor<320000xi32>, tensor<320000xi32>) -> tensor<320000xi1>  @ reference:71
    StableHlo.nullary main_c_50 (constantI S_ 32 10000#32),  -- %c_50 = stablehlo.constant dense<10000> : tensor<i32>
    StableHlo.unary main_c_50 main_v244 (broadcastInDim S320000 ![] bcast_S_S320000 : (⟨S_, .i32⟩ : BufTy).Contents (Elt F) → (⟨S320000, .i32⟩ : BufTy).Contents (Elt F)),  -- %244 = stablehlo.broadcast_in_dim %c_50, dims = [] : (tensor<i32>) -> tensor<320000xi32>  @ reference:71
    StableHlo.binary main_v1 main_v244 main_v245 (addi : (⟨S320000, .i32⟩ : BufTy).Contents (Elt F) → (⟨S320000, .i32⟩ : BufTy).Contents (Elt F) → (⟨S320000, .i32⟩ : BufTy).Contents (Elt F)),  -- %245 = stablehlo.add %1, %244 : tensor<320000xi32>  @ reference:71
    StableHlo.ternary main_v243 main_v245 main_v1 main_v246 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %246 = stablehlo.select %243, %245, %1 : tensor<320000xi1>, tensor<320000xi32>  @ reference:71
    StableHlo.unary main_v246 main_v247 (broadcastInDim S320000x1 ![0] bcast_S320000_S320000x1_0 : (⟨S320000, .i32⟩ : BufTy).Contents (Elt F) → (⟨S320000x1, .i32⟩ : BufTy).Contents (Elt F)),  -- %247 = stablehlo.broadcast_in_dim %246, dims = [0] : (tensor<320000xi32>) -> tensor<320000x1xi32>  @ reference:71
    StableHlo.binary main_v172 main_v247 main_v248 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %248 = "stablehlo.gather"(%172, %247) <{dimension_numbers = #stablehlo.gather<offset_dims = [1], collapsed_slice_dims = [0], start_index_map = [0], in
    StableHlo.reshape main_v248 main_v249 rfl shapeCasts_S320000x64_S320000x1x64,  -- %249 = stablehlo.reshape %248 : (tensor<320000x64xf32>) -> tensor<320000x1x64xf32>  @ reference:71
    StableHlo.unary main_v241 main_v250 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %250 = stablehlo.broadcast_in_dim %241, dims = [0, 1, 2] : (tensor<320000x1x1xf32>) -> tensor<320000x1x64xf32>  @ reference:71
    StableHlo.binary main_v249 main_v250 main_v251 (mulf : (⟨S320000x1x64, .f32⟩ : BufTy).Contents (Elt F) → (⟨S320000x1x64, .f32⟩ : BufTy).Contents (Elt F) → (⟨S320000x1x64, .f32⟩ : BufTy).Contents (Elt F)),  -- %251 = stablehlo.multiply %249, %250 : tensor<320000x1x64xf32>  @ reference:71
    StableHlo.nullary main_cst_51 (constant S_ .f32 0x00000000#32),  -- %cst_51 = stablehlo.constant dense<0.000000e+00> : tensor<f32>
    StableHlo.unary main_cst_51 main_v252 (broadcastInDim S10000x1x64 ![] bcast_S_S10000x1x64 : (⟨S_, .f32⟩ : BufTy).Contents (Elt F) → (⟨S10000x1x64, .f32⟩ : BufTy).Contents (Elt F)),  -- %252 = stablehlo.broadcast_in_dim %cst_51, dims = [] : (tensor<f32>) -> tensor<10000x1x64xf32>  @ reference:72
    StableHlo.unary main_v3 main_v253 (broadcastInDim S320000x1 ![0] bcast_S320000_S320000x1_0 : (⟨S320000, .i32⟩ : BufTy).Contents (Elt F) → (⟨S320000x1, .i32⟩ : BufTy).Contents (Elt F)),  -- %253 = stablehlo.broadcast_in_dim %3, dims = [0] : (tensor<320000xi32>) -> tensor<320000x1xi32>  @ reference:72
    StableHlo.ternary main_v252 main_v253 main_v251 main_v254 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %254 = "stablehlo.scatter"(%252, %253, %251) <{indices_are_sorted = false, scatter_dimension_numbers = #stablehlo.scatter<update_window_dims = [1, 2],
    StableHlo.reshape main_v254 main_v255 rfl shapeCasts_S10000x1x64_S10000x64,  -- %255 = stablehlo.reshape %254 : (tensor<10000x1x64xf32>) -> tensor<10000x64xf32>  @ reference:72
    StableHlo.reshape main_v255 main_v256 rfl shapeCasts_S10000x64_S10000x1x64,  -- %256 = stablehlo.reshape %255 : (tensor<10000x64xf32>) -> tensor<10000x1x64xf32>  @ reference:75
    StableHlo.binary main_v256 main_v192 main_v257 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %257 = stablehlo.concatenate %256, %192, dim = 2 : (tensor<10000x1x64xf32>, tensor<10000x1x64xf32>) -> tensor<10000x1x128xf32>  @ reference:76
    StableHlo.unary main_arg10 main_v258 ((extractStridedSlice S1x1x128 ![2, 0, 0] · slices_S9x1x128_S1x1x128_2_0_0) : (⟨S9x1x128, .f32⟩ : BufTy).Contents (Elt F) → (⟨S1x1x128, .f32⟩ : BufTy).Contents (Elt F)),  -- %258 = stablehlo.slice %arg10 [2:3, 0:1, 0:128] : (tensor<9x1x128xf32>) -> tensor<1x1x128xf32>  @ reference:77
    StableHlo.reshape main_v258 main_v259 rfl shapeCasts_S1x1x128_S1x128,  -- %259 = stablehlo.reshape %258 : (tensor<1x1x128xf32>) -> tensor<1x128xf32>  @ reference:77
    StableHlo.TRef.nullary main_call10.cst (constant S_ .f32 0x00000000#32),  -- @elu_7 in %260 = func.call @elu_7(%257): %cst = stablehlo.constant dense<0.000000e+00> : tensor<f32>
    StableHlo.TRef.unary main_call10.cst main_call10.v0 (broadcastInDim S10000x1x128 ![] bcast_S_S10000x1x128),  -- @elu_7 in %260 = func.call @elu_7(%257): %0 = stablehlo.broadcast_in_dim %cst, dims = [] : (tensor<f32>) -> tensor<10000x1x128xf32>
    StableHlo.TRef.binary (StableHlo.TRef.of (T := ⟨S10000x1x128, .f32⟩) main_v257) main_call10.v0 main_call10.v1 (cmpf .ogt),  -- @elu_7 in %260 = func.call @elu_7(%257): %1 = stablehlo.compare GT, %arg0, %0, FLOAT : (tensor<10000x1x128xf32>, tensor<10000x1x128xf32>) -> tensor<10
    StableHlo.TRef.nullary main_call10.cst_0 (constant S_ .f32 0x00000000#32),  -- @elu_7 in %260 = func.call @elu_7(%257): %cst_0 = stablehlo.constant dense<0.000000e+00> : tensor<f32>
    StableHlo.TRef.unary main_call10.cst_0 main_call10.v2 (broadcastInDim S10000x1x128 ![] bcast_S_S10000x1x128),  -- @elu_7 in %260 = func.call @elu_7(%257): %2 = stablehlo.broadcast_in_dim %cst_0, dims = [] : (tensor<f32>) -> tensor<10000x1x128xf32>
    StableHlo.TRef.binary (StableHlo.TRef.of (T := ⟨S10000x1x128, .f32⟩) main_v257) main_call10.v2 main_call10.v3 (cmpf .ogt),  -- @elu_7 in %260 = func.call @elu_7(%257): %3 = stablehlo.compare GT, %arg0, %2, FLOAT : (tensor<10000x1x128xf32>, tensor<10000x1x128xf32>) -> tensor<10
    StableHlo.TRef.nullary main_call10.cst_1 (constant S_ .f32 0x00000000#32),  -- @elu_7 in %260 = func.call @elu_7(%257): %cst_1 = stablehlo.constant dense<0.000000e+00> : tensor<f32>
    StableHlo.TRef.unary main_call10.cst_1 main_call10.call0.v0 id,  -- @where_8 in %260 = func.call @elu_7(%257): %0 = stablehlo.convert %arg1 : tensor<f32>
    StableHlo.TRef.unary main_call10.call0.v0 main_call10.call0.v1 (broadcastInDim S10000x1x128 ![] bcast_S_S10000x1x128),  -- @where_8 in %260 = func.call @elu_7(%257): %1 = stablehlo.broadcast_in_dim %0, dims = [] : (tensor<f32>) -> tensor<10000x1x128xf32>
    StableHlo.TRef.ternary main_call10.v3 main_call10.call0.v1 (StableHlo.TRef.of (T := ⟨S10000x1x128, .f32⟩) main_v257) main_call10.call0.v2 select,  -- @where_8 in %260 = func.call @elu_7(%257): %2 = stablehlo.select %arg0, %1, %arg2 : tensor<10000x1x128xi1>, tensor<10000x1x128xf32>
    StableHlo.TRef.unary main_call10.call0.v2 main_call10.v5 Host.expm1,  -- @elu_7 in %260 = func.call @elu_7(%257): %5 = stablehlo.exponential_minus_one %4 : tensor<10000x1x128xf32>
    StableHlo.TRef.nullary main_call10.cst_2 (constant S_ .f32 0x3F800000#32),  -- @elu_7 in %260 = func.call @elu_7(%257): %cst_2 = stablehlo.constant dense<1.000000e+00> : tensor<f32>
    StableHlo.TRef.unary main_call10.cst_2 main_call10.v6 (broadcastInDim S10000x1x128 ![] bcast_S_S10000x1x128),  -- @elu_7 in %260 = func.call @elu_7(%257): %6 = stablehlo.broadcast_in_dim %cst_2, dims = [] : (tensor<f32>) -> tensor<10000x1x128xf32>
    StableHlo.TRef.binary main_call10.v6 main_call10.v5 main_call10.v7 mulf,  -- @elu_7 in %260 = func.call @elu_7(%257): %7 = stablehlo.multiply %6, %5 : tensor<10000x1x128xf32>
    StableHlo.TRef.ternary main_call10.v1 (StableHlo.TRef.of (T := ⟨S10000x1x128, .f32⟩) main_v257) main_call10.v7 main_call10.call1.v0 select,  -- @where_9 in %260 = func.call @elu_7(%257): %0 = stablehlo.select %arg0, %arg1, %arg2 : tensor<10000x1x128xi1>, tensor<10000x1x128xf32>
    StableHlo.unary main_v259 main_v261 (broadcastInDim S1x1x128 ![1, 2] bcast_S1x128_S1x1x128_1_2 : (⟨S1x128, .f32⟩ : BufTy).Contents (Elt F) → (⟨S1x1x128, .f32⟩ : BufTy).Contents (Elt F)),  -- %261 = stablehlo.broadcast_in_dim %259, dims = [1, 2] : (tensor<1x128xf32>) -> tensor<1x1x128xf32>  @ reference:77
    StableHlo.unary main_v261 main_v262 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %262 = stablehlo.broadcast_in_dim %261, dims = [0, 1, 2] : (tensor<1x1x128xf32>) -> tensor<10000x1x128xf32>  @ reference:77
    StableHlo.binary main_v262 main_v260 main_v263 (mulf : (⟨S10000x1x128, .f32⟩ : BufTy).Contents (Elt F) → (⟨S10000x1x128, .f32⟩ : BufTy).Contents (Elt F) → (⟨S10000x1x128, .f32⟩ : BufTy).Contents (Elt F)),  -- %263 = stablehlo.multiply %262, %260 : tensor<10000x1x128xf32>  @ reference:77
    StableHlo.nullary main_cst_52 (constant S_ .f32 0x00000000#32),  -- %cst_52 = stablehlo.constant dense<0.000000e+00> : tensor<f32>
    StableHlo.binary main_v263 main_cst_52 main_v264 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %264 = stablehlo.reduce(%263 init: %cst_52) applies stablehlo.add across dimensions = [2] : (tensor<10000x1x128xf32>, tensor<f32>) -> tensor<10000x1xf
    StableHlo.unary main_arg11 main_v265 ((extractStridedSlice S1x1 ![2, 0] · slices_S9x1_S1x1_2_0) : (⟨S9x1, .f32⟩ : BufTy).Contents (Elt F) → (⟨S1x1, .f32⟩ : BufTy).Contents (Elt F)),  -- %265 = stablehlo.slice %arg11 [2:3, 0:1] : (tensor<9x1xf32>) -> tensor<1x1xf32>  @ reference:77
    StableHlo.reshape main_v265 main_v266 rfl shapeCasts_S1x1_S1,  -- %266 = stablehlo.reshape %265 : (tensor<1x1xf32>) -> tensor<1xf32>  @ reference:77
    StableHlo.unary main_v266 main_v267 (broadcastInDim S1x1 ![1] bcast_S1_S1x1_1 : (⟨S1, .f32⟩ : BufTy).Contents (Elt F) → (⟨S1x1, .f32⟩ : BufTy).Contents (Elt F)),  -- %267 = stablehlo.broadcast_in_dim %266, dims = [1] : (tensor<1xf32>) -> tensor<1x1xf32>  @ reference:77
    StableHlo.unary main_v267 main_v268 (broadcastInDim S10000x1 ![0, 1] bcast_S1x1_S10000x1_0_1 : (⟨S1x1, .f32⟩ : BufTy).Contents (Elt F) → (⟨S10000x1, .f32⟩ : BufTy).Contents (Elt F)),  -- %268 = stablehlo.broadcast_in_dim %267, dims = [0, 1] : (tensor<1x1xf32>) -> tensor<10000x1xf32>  @ reference:77
    StableHlo.binary main_v264 main_v268 main_v269 (addf : (⟨S10000x1, .f32⟩ : BufTy).Contents (Elt F) → (⟨S10000x1, .f32⟩ : BufTy).Contents (Elt F) → (⟨S10000x1, .f32⟩ : BufTy).Contents (Elt F)),  -- %269 = stablehlo.add %264, %268 : tensor<10000x1xf32>  @ reference:77
    StableHlo.unary main_v269 main_v270 (broadcastInDim S10000x1x1 ![0, 1] bcast_S10000x1_S10000x1x1_0_1 : (⟨S10000x1, .f32⟩ : BufTy).Contents (Elt F) → (⟨S10000x1x1, .f32⟩ : BufTy).Contents (Elt F)),  -- %270 = stablehlo.broadcast_in_dim %269, dims = [0, 1] : (tensor<10000x1xf32>) -> tensor<10000x1x1xf32>  @ reference:78
    StableHlo.unary main_v270 main_v271 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %271 = stablehlo.broadcast_in_dim %270, dims = [0, 1, 2] : (tensor<10000x1x1xf32>) -> tensor<10000x1x64xf32>  @ reference:78
    StableHlo.binary main_v256 main_v271 main_v272 (mulf : (⟨S10000x1x64, .f32⟩ : BufTy).Contents (Elt F) → (⟨S10000x1x64, .f32⟩ : BufTy).Contents (Elt F) → (⟨S10000x1x64, .f32⟩ : BufTy).Contents (Elt F)),  -- %272 = stablehlo.multiply %256, %271 : tensor<10000x1x64xf32>  @ reference:78
    StableHlo.binary main_v190 main_v272 main_v273 (addf : (⟨S10000x1x64, .f32⟩ : BufTy).Contents (Elt F) → (⟨S10000x1x64, .f32⟩ : BufTy).Contents (Elt F) → (⟨S10000x1x64, .f32⟩ : BufTy).Contents (Elt F)) ]  -- %273 = stablehlo.add %190, %272 : tensor<10000x1x64xf32>  @ reference:78

theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL2 writes (each operation writes one, its result's), in order. -/
abbrev wL2 : List (Ref sig .tc) :=
  [main_cst_35, main_v191, main_v192, main_c_36, main_v193, main_v194, main_c_37, main_v195, main_v196, main_v197, main_v198, main_v199, main_c_38,
    main_v200, main_v201, main_c_39, main_v202, main_v203, main_v204, main_v205, main_v206, main_v207, main_call8.cst.ref, main_call8.v0.ref,
    main_call8.v1.ref, main_call8.cst_0.ref, main_call8.v2.ref, main_call8.v3.ref, main_call8.cst_1.ref, main_call8.call0.v0.ref,
    main_call8.call0.v1.ref, main_call8.call0.v2.ref, main_call8.v5.ref, main_call8.cst_2.ref, main_call8.v6.ref, main_call8.v7.ref,
    main_call8.call1.v0.ref, main_v209, main_v210, main_v211, main_v212, main_v213, main_cst_40, main_v214, main_call9.cst.ref, main_call9.v0.ref,
    main_call9.v1.ref, main_call9.v2.ref, main_call9.v3.ref, main_call9.v4.ref, main_call9.v5.ref, main_call9.v6.ref, main_call9.v7.ref,
    main_call9.v8.ref, main_call9.v9.ref, main_call9.v10.ref, main_call9.v11.ref, main_call9.v12.ref, main_cst_41, main_v216, main_v217, main_cst_42,
    main_v218, main_v219, main_v220, main_cst_43, main_v221, main_v222, main_cst_44, main_v223, main_v224, main_c_45, main_v225, main_v226,
    main_c_46, main_v227, main_v228, main_v229, main_v230, main_v231, main_v232, main_c_47, main_v233, main_v234, main_c_48, main_v235, main_v236,
    main_v237, main_v238, main_v239, main_v240, main_v241, main_c_49, main_v242, main_v243, main_c_50, main_v244, main_v245, main_v246, main_v247,
    main_v248, main_v249, main_v250, main_v251, main_cst_51, main_v252, main_v253, main_v254, main_v255, main_v256, main_v257, main_v258, main_v259,
    main_call10.cst.ref, main_call10.v0.ref, main_call10.v1.ref, main_call10.cst_0.ref, main_call10.v2.ref, main_call10.v3.ref,
    main_call10.cst_1.ref, main_call10.call0.v0.ref, main_call10.call0.v1.ref, main_call10.call0.v2.ref, main_call10.v5.ref, main_call10.cst_2.ref,
    main_call10.v6.ref, main_call10.v7.ref, main_call10.call1.v0.ref, main_v261, main_v262, main_v263, main_cst_52, main_v264, main_v265, main_v266,
    main_v267, main_v268, main_v269, main_v270, main_v271, main_v272, main_v273]
theorem opsL2_writes : (opsL2 : List (HloOp τ sig (Elt F))).Forall fun op =>
    op.writes ⊆ (wL2.map (Proc.devRef (τ := τ) .tc)).toFinset := by
  simp only [opsL2, List.Forall, nullary_writes, unary_writes, binary_writes, ternary_writes, reshape_writes]
  repeat' apply And.intro
  all_goals exact Finset.singleton_subset_iff.mpr (List.mem_toFinset.mpr (List.mem_map_of_mem (by decide)))
/-- opsL2 keeps every buffer it does not write. -/
theorem opsL2_kept (V : Valuation τ sig (Elt F)) (r : Ref sig .tc) (hr : r ∉ wL2) :
    after opsL2 V (Proc.devRef .tc r) = V (Proc.devRef .tc r) :=
  after_of_writes_sub opsL2 V opsL2_writes hr

end Cert.ReferenceIdeal.RefRun

end
-- ==== Proof.RefRun.L3.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 3: the state scaled, gathered along the edges, weighted, scattered back and added in. -/
abbrev opsL3 : List (HloOp τ sig (Elt F)) :=
  [ StableHlo.nullary main_cst_53 (constant S_ .f32 0x3E647FF4#32),  -- %cst_53 = stablehlo.constant dense<0.223144352> : tensor<f32>
    StableHlo.unary main_cst_53 main_v274 (broadcastInDim S10000x1x64 ![] bcast_S_S10000x1x64 : (⟨S_, .f32⟩ : BufTy).Contents (Elt F) → (⟨S10000x1x64, .f32⟩ : BufTy).Contents (Elt F)),  -- %274 = stablehlo.broadcast_in_dim %cst_53, dims = [] : (tensor<f32>) -> tensor<10000x1x64xf32>  @ reference:59
    StableHlo.binary main_v273 main_v274 main_v275 (mulf : (⟨S10000x1x64, .f32⟩ : BufTy).Contents (Elt F) → (⟨S10000x1x64, .f32⟩ : BufTy).Contents (Elt F) → (⟨S10000x1x64, .f32⟩ : BufTy).Contents (Elt F)),  -- %275 = stablehlo.multiply %273, %274 : tensor<10000x1x64xf32>  @ reference:59
    StableHlo.nullary main_c_54 (constantI S_ 32 0#32),  -- %c_54 = stablehlo.constant dense<0> : tensor<i32>
    StableHlo.unary main_c_54 main_v276 (broadcastInDim S320000 ![] bcast_S_S320000 : (⟨S_, .i32⟩ : BufTy).Contents (Elt F) → (⟨S320000, .i32⟩ : BufTy).Contents (Elt F)),  -- %276 = stablehlo.broadcast_in_dim %c_54, dims = [] : (tensor<i32>) -> tensor<320000xi32>  @ reference:62
    StableHlo.binary main_v1 main_v276 main_v277 (cmpi .slt : (⟨S320000, .i32⟩ : BufTy).Contents (Elt F) → (⟨S320000, .i32⟩ : BufTy).Contents (Elt F) → (⟨S320000, .i1⟩ : BufTy).Contents (Elt F)),  -- %277 = stablehlo.compare LT, %1, %276, SIGNED : (tensor<320000xi32>, tensor<320000xi32>) -> tensor<320000xi1>  @ reference:62
    StableHlo.nullary main_c_55 (constantI S_ 32 10000#32),  -- %c_55 = stablehlo.constant dense<10000> : tensor<i32>
    StableHlo.unary main_c_55 main_v278 (broadcastInDim S320000 ![] bcast_S_S320000 : (⟨S_, .i32⟩ : BufTy).Contents (Elt F) → (⟨S320000, .i32⟩ : BufTy).Contents (Elt F)),  -- %278 = stablehlo.broadcast_in_dim %c_55, dims = [] : (tensor<i32>) -> tensor<320000xi32>  @ reference:62
    StableHlo.binary main_v1 main_v278 main_v279 (addi : (⟨S320000, .i32⟩ : BufTy).Contents (Elt F) → (⟨S320000, .i32⟩ : BufTy).Contents (Elt F) → (⟨S320000, .i32⟩ : BufTy).Contents (Elt F)),  -- %279 = stablehlo.add %1, %278 : tensor<320000xi32>  @ reference:62
    StableHlo.ternary main_v277 main_v279 main_v1 main_v280 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %280 = stablehlo.select %277, %279, %1 : tensor<320000xi1>, tensor<320000xi32>  @ reference:62
    StableHlo.unary main_v280 main_v281 (broadcastInDim S320000x1 ![0] bcast_S320000_S320000x1_0 : (⟨S320000, .i32⟩ : BufTy).Contents (Elt F) → (⟨S320000x1, .i32⟩ : BufTy).Contents (Elt F)),  -- %281 = stablehlo.broadcast_in_dim %280, dims = [0] : (tensor<320000xi32>) -> tensor<320000x1xi32>  @ reference:62
    StableHlo.binary main_v275 main_v281 main_v282 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %282 = "stablehlo.gather"(%275, %281) <{dimension_numbers = #stablehlo.gather<offset_dims = [1, 2], collapsed_slice_dims = [0], start_index_map = [0],
    StableHlo.nullary main_c_56 (constantI S_ 32 0#32),  -- %c_56 = stablehlo.constant dense<0> : tensor<i32>
    StableHlo.unary main_c_56 main_v283 (broadcastInDim S320000 ![] bcast_S_S320000 : (⟨S_, .i32⟩ : BufTy).Contents (Elt F) → (⟨S320000, .i32⟩ : BufTy).Contents (Elt F)),  -- %283 = stablehlo.broadcast_in_dim %c_56, dims = [] : (tensor<i32>) -> tensor<320000xi32>  @ reference:62
    StableHlo.binary main_v3 main_v283 main_v284 (cmpi .slt : (⟨S320000, .i32⟩ : BufTy).Contents (Elt F) → (⟨S320000, .i32⟩ : BufTy).Contents (Elt F) → (⟨S320000, .i1⟩ : BufTy).Contents (Elt F)),  -- %284 = stablehlo.compare LT, %3, %283, SIGNED : (tensor<320000xi32>, tensor<320000xi32>) -> tensor<320000xi1>  @ reference:62
    StableHlo.nullary main_c_57 (constantI S_ 32 10000#32),  -- %c_57 = stablehlo.constant dense<10000> : tensor<i32>
    StableHlo.unary main_c_57 main_v285 (broadcastInDim S320000 ![] bcast_S_S320000 : (⟨S_, .i32⟩ : BufTy).Contents (Elt F) → (⟨S320000, .i32⟩ : BufTy).Contents (Elt F)),  -- %285 = stablehlo.broadcast_in_dim %c_57, dims = [] : (tensor<i32>) -> tensor<320000xi32>  @ reference:62
    StableHlo.binary main_v3 main_v285 main_v286 (addi : (⟨S320000, .i32⟩ : BufTy).Contents (Elt F) → (⟨S320000, .i32⟩ : BufTy).Contents (Elt F) → (⟨S320000, .i32⟩ : BufTy).Contents (Elt F)),  -- %286 = stablehlo.add %3, %285 : tensor<320000xi32>  @ reference:62
    StableHlo.ternary main_v284 main_v286 main_v3 main_v287 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %287 = stablehlo.select %284, %286, %3 : tensor<320000xi1>, tensor<320000xi32>  @ reference:62
    StableHlo.unary main_v287 main_v288 (broadcastInDim S320000x1 ![0] bcast_S320000_S320000x1_0 : (⟨S320000, .i32⟩ : BufTy).Contents (Elt F) → (⟨S320000x1, .i32⟩ : BufTy).Contents (Elt F)),  -- %288 = stablehlo.broadcast_in_dim %287, dims = [0] : (tensor<320000xi32>) -> tensor<320000x1xi32>  @ reference:62
    StableHlo.binary main_v275 main_v288 main_v289 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %289 = "stablehlo.gather"(%275, %288) <{dimension_numbers = #stablehlo.gather<offset_dims = [1, 2], collapsed_slice_dims = [0], start_index_map = [0],
    StableHlo.binary main_v282 main_v289 main_v290 (addf : (⟨S320000x1x64, .f32⟩ : BufTy).Contents (Elt F) → (⟨S320000x1x64, .f32⟩ : BufTy).Contents (Elt F) → (⟨S320000x1x64, .f32⟩ : BufTy).Contents (Elt F)),  -- %290 = stablehlo.add %282, %289 : tensor<320000x1x64xf32>  @ reference:62
    StableHlo.TRef.nullary main_call11.cst (constant S_ .f32 0x00000000#32),  -- @elu_4 in %291 = func.call @elu_4(%290): %cst = stablehlo.constant dense<0.000000e+00> : tensor<f32>
    StableHlo.TRef.unary main_call11.cst main_call11.v0 (broadcastInDim S320000x1x64 ![] bcast_S_S320000x1x64),  -- @elu_4 in %291 = func.call @elu_4(%290): %0 = stablehlo.broadcast_in_dim %cst, dims = [] : (tensor<f32>) -> tensor<320000x1x64xf32>
    StableHlo.TRef.binary (StableHlo.TRef.of (T := ⟨S320000x1x64, .f32⟩) main_v290) main_call11.v0 main_call11.v1 (cmpf .ogt),  -- @elu_4 in %291 = func.call @elu_4(%290): %1 = stablehlo.compare GT, %arg0, %0, FLOAT : (tensor<320000x1x64xf32>, tensor<320000x1x64xf32>) -> tensor<32
    StableHlo.TRef.nullary main_call11.cst_0 (constant S_ .f32 0x00000000#32),  -- @elu_4 in %291 = func.call @elu_4(%290): %cst_0 = stablehlo.constant dense<0.000000e+00> : tensor<f32>
    StableHlo.TRef.unary main_call11.cst_0 main_call11.v2 (broadcastInDim S320000x1x64 ![] bcast_S_S320000x1x64),  -- @elu_4 in %291 = func.call @elu_4(%290): %2 = stablehlo.broadcast_in_dim %cst_0, dims = [] : (tensor<f32>) -> tensor<320000x1x64xf32>
    StableHlo.TRef.binary (StableHlo.TRef.of (T := ⟨S320000x1x64, .f32⟩) main_v290) main_call11.v2 main_call11.v3 (cmpf .ogt),  -- @elu_4 in %291 = func.call @elu_4(%290): %3 = stablehlo.compare GT, %arg0, %2, FLOAT : (tensor<320000x1x64xf32>, tensor<320000x1x64xf32>) -> tensor<32
    StableHlo.TRef.nullary main_call11.cst_1 (constant S_ .f32 0x00000000#32),  -- @elu_4 in %291 = func.call @elu_4(%290): %cst_1 = stablehlo.constant dense<0.000000e+00> : tensor<f32>
    StableHlo.TRef.unary main_call11.cst_1 main_call11.call0.v0 id,  -- @where_5 in %291 = func.call @elu_4(%290): %0 = stablehlo.convert %arg1 : tensor<f32>
    StableHlo.TRef.unary main_call11.call0.v0 main_call11.call0.v1 (broadcastInDim S320000x1x64 ![] bcast_S_S320000x1x64),  -- @where_5 in %291 = func.call @elu_4(%290): %1 = stablehlo.broadcast_in_dim %0, dims = [] : (tensor<f32>) -> tensor<320000x1x64xf32>
    StableHlo.TRef.ternary main_call11.v3 main_call11.call0.v1 (StableHlo.TRef.of (T := ⟨S320000x1x64, .f32⟩) main_v290) main_call11.call0.v2 select,  -- @where_5 in %291 = func.call @elu_4(%290): %2 = stablehlo.select %arg0, %1, %arg2 : tensor<320000x1x64xi1>, tensor<320000x1x64xf32>
    StableHlo.TRef.unary main_call11.call0.v2 main_call11.v5 Host.expm1,  -- @elu_4 in %291 = func.call @elu_4(%290): %5 = stablehlo.exponential_minus_one %4 : tensor<320000x1x64xf32>
    StableHlo.TRef.nullary main_call11.cst_2 (constant S_ .f32 0x3F800000#32),  -- @elu_4 in %291 = func.call @elu_4(%290): %cst_2 = stablehlo.constant dense<1.000000e+00> : tensor<f32>
    StableHlo.TRef.unary main_call11.cst_2 main_call11.v6 (broadcastInDim S320000x1x64 ![] bcast_S_S320000x1x64),  -- @elu_4 in %291 = func.call @elu_4(%290): %6 = stablehlo.broadcast_in_dim %cst_2, dims = [] : (tensor<f32>) -> tensor<320000x1x64xf32>
    StableHlo.TRef.binary main_call11.v6 main_call11.v5 main_call11.v7 mulf,  -- @elu_4 in %291 = func.call @elu_4(%290): %7 = stablehlo.multiply %6, %5 : tensor<320000x1x64xf32>
    StableHlo.TRef.ternary main_call11.v1 (StableHlo.TRef.of (T := ⟨S320000x1x64, .f32⟩) main_v290) main_call11.v7 main_call11.call1.v0 select,  -- @where_6 in %291 = func.call @elu_4(%290): %0 = stablehlo.select %arg0, %arg1, %arg2 : tensor<320000x1x64xi1>, tensor<320000x1x64xf32>
    StableHlo.unary main_arg7 main_v292 ((extractStridedSlice S1x1x64 ![3, 0, 0] · slices_S9x1x64_S1x1x64_3_0_0) : (⟨S9x1x64, .f32⟩ : BufTy).Contents (Elt F) → (⟨S1x1x64, .f32⟩ : BufTy).Contents (Elt F)),  -- %292 = stablehlo.slice %arg7 [3:4, 0:1, 0:64] : (tensor<9x1x64xf32>) -> tensor<1x1x64xf32>  @ reference:63
    StableHlo.reshape main_v292 main_v293 rfl shapeCasts_S1x1x64_S1x64,  -- %293 = stablehlo.reshape %292 : (tensor<1x1x64xf32>) -> tensor<1x64xf32>  @ reference:63
    StableHlo.unary main_v293 main_v294 (broadcastInDim S1x1x64 ![1, 2] bcast_S1x64_S1x1x64_1_2 : (⟨S1x64, .f32⟩ : BufTy).Contents (Elt F) → (⟨S1x1x64, .f32⟩ : BufTy).Contents (Elt F)),  -- %294 = stablehlo.broadcast_in_dim %293, dims = [1, 2] : (tensor<1x64xf32>) -> tensor<1x1x64xf32>  @ reference:63
    StableHlo.unary main_v294 main_v295 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %295 = stablehlo.broadcast_in_dim %294, dims = [0, 1, 2] : (tensor<1x1x64xf32>) -> tensor<320000x1x64xf32>  @ reference:63
    StableHlo.binary main_v295 main_v291 main_v296 (mulf : (⟨S320000x1x64, .f32⟩ : BufTy).Contents (Elt F) → (⟨S320000x1x64, .f32⟩ : BufTy).Contents (Elt F) → (⟨S320000x1x64, .f32⟩ : BufTy).Contents (Elt F)),  -- %296 = stablehlo.multiply %295, %291 : tensor<320000x1x64xf32>  @ reference:63
    StableHlo.nullary main_cst_58 (constant S_ .f32 0x00000000#32),  -- %cst_58 = stablehlo.constant dense<0.000000e+00> : tensor<f32>
    StableHlo.binary main_v296 main_cst_58 main_v297 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %297 = stablehlo.reduce(%296 init: %cst_58) applies stablehlo.add across dimensions = [2] : (tensor<320000x1x64xf32>, tensor<f32>) -> tensor<320000x1x
    StableHlo.TRef.nullary main_call12.cst (constant S_ .f32 0x00000000#32),  -- @softplus in %298 = func.call @softplus(%297): %cst = stablehlo.constant dense<0.000000e+00> : tensor<f32>
    StableHlo.TRef.unary main_call12.cst main_call12.v0 (broadcastInDim S320000x1 ![] bcast_S_S320000x1),  -- @softplus in %298 = func.call @softplus(%297): %0 = stablehlo.broadcast_in_dim %cst, dims = [] : (tensor<f32>) -> tensor<320000x1xf32>
    StableHlo.TRef.binary (StableHlo.TRef.of (T := ⟨S320000x1, .f32⟩) main_v297) main_call12.v0 main_call12.v1 maximumf,  -- @softplus in %298 = func.call @softplus(%297): %1 = stablehlo.maximum %arg0, %0 : tensor<320000x1xf32>
    StableHlo.TRef.unary main_call12.cst main_call12.v2 (broadcastInDim S320000x1 ![] bcast_S_S320000x1),  -- @softplus in %298 = func.call @softplus(%297): %2 = stablehlo.broadcast_in_dim %cst, dims = [] : (tensor<f32>) -> tensor<320000x1xf32>
    StableHlo.TRef.binary (StableHlo.TRef.of (T := ⟨S320000x1, .f32⟩) main_v297) main_call12.v2 main_call12.v3 subf,  -- @softplus in %298 = func.call @softplus(%297): %3 = stablehlo.subtract %arg0, %2 : tensor<320000x1xf32>
    StableHlo.TRef.binary main_call12.v3 main_call12.v3 main_call12.v4 (cmpf .une),  -- @softplus in %298 = func.call @softplus(%297): %4 = stablehlo.compare NE, %3, %3, FLOAT : (tensor<320000x1xf32>, tensor<320000x1xf32>) -> tensor<32000
    StableHlo.TRef.unary main_call12.cst main_call12.v5 (broadcastInDim S320000x1 ![] bcast_S_S320000x1),  -- @softplus in %298 = func.call @softplus(%297): %5 = stablehlo.broadcast_in_dim %cst, dims = [] : (tensor<f32>) -> tensor<320000x1xf32>
    StableHlo.TRef.binary (StableHlo.TRef.of (T := ⟨S320000x1, .f32⟩) main_v297) main_call12.v5 main_call12.v6 addf,  -- @softplus in %298 = func.call @softplus(%297): %6 = stablehlo.add %arg0, %5 : tensor<320000x1xf32>
    StableHlo.TRef.unary main_call12.v3 main_call12.v7 Host.absf,  -- @softplus in %298 = func.call @softplus(%297): %7 = stablehlo.abs %3 : tensor<320000x1xf32>
    StableHlo.TRef.unary main_call12.v7 main_call12.v8 Host.negf,  -- @softplus in %298 = func.call @softplus(%297): %8 = stablehlo.negate %7 : tensor<320000x1xf32>
    StableHlo.TRef.unary main_call12.v8 main_call12.v9 Host.exp,  -- @softplus in %298 = func.call @softplus(%297): %9 = stablehlo.exponential %8 : tensor<320000x1xf32>
    StableHlo.TRef.unary main_call12.v9 main_call12.v10 Host.log1p,  -- @softplus in %298 = func.call @softplus(%297): %10 = stablehlo.log_plus_one %9 : tensor<320000x1xf32>
    StableHlo.TRef.binary main_call12.v1 main_call12.v10 main_call12.v11 addf,  -- @softplus in %298 = func.call @softplus(%297): %11 = stablehlo.add %1, %10 : tensor<320000x1xf32>
    StableHlo.TRef.ternary main_call12.v4 main_call12.v6 main_call12.v11 main_call12.v12 select,  -- @softplus in %298 = func.call @softplus(%297): %12 = stablehlo.select %4, %6, %11 : tensor<320000x1xi1>, tensor<320000x1xf32>
    StableHlo.nullary main_cst_59 (constant S_ .f32 0x358637BD#32),  -- %cst_59 = stablehlo.constant dense<9.99999997E-7> : tensor<f32>
    StableHlo.unary main_cst_59 main_v299 (broadcastInDim S320000x1 ![] bcast_S_S320000x1 : (⟨S_, .f32⟩ : BufTy).Contents (Elt F) → (⟨S320000x1, .f32⟩ : BufTy).Contents (Elt F)),  -- %299 = stablehlo.broadcast_in_dim %cst_59, dims = [] : (tensor<f32>) -> tensor<320000x1xf32>  @ reference:63
    StableHlo.binary main_v298 main_v299 main_v300 (addf : (⟨S320000x1, .f32⟩ : BufTy).Contents (Elt F) → (⟨S320000x1, .f32⟩ : BufTy).Contents (Elt F) → (⟨S320000x1, .f32⟩ : BufTy).Contents (Elt F)),  -- %300 = stablehlo.add %298, %299 : tensor<320000x1xf32>  @ reference:63
    StableHlo.nullary main_cst_60 (constant S_ .f32 0x00000000#32),  -- %cst_60 = stablehlo.constant dense<0.000000e+00> : tensor<f32>
    StableHlo.unary main_cst_60 main_v301 (broadcastInDim S10000x1 ![] bcast_S_S10000x1 : (⟨S_, .f32⟩ : BufTy).Contents (Elt F) → (⟨S10000x1, .f32⟩ : BufTy).Contents (Elt F)),  -- %301 = stablehlo.broadcast_in_dim %cst_60, dims = [] : (tensor<f32>) -> tensor<10000x1xf32>  @ reference:66
    StableHlo.unary main_v3 main_v302 (broadcastInDim S320000x1 ![0] bcast_S320000_S320000x1_0 : (⟨S320000, .i32⟩ : BufTy).Contents (Elt F) → (⟨S320000x1, .i32⟩ : BufTy).Contents (Elt F)),  -- %302 = stablehlo.broadcast_in_dim %3, dims = [0] : (tensor<320000xi32>) -> tensor<320000x1xi32>  @ reference:66
    StableHlo.ternary main_v301 main_v302 main_v300 main_v303 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %303 = "stablehlo.scatter"(%301, %302, %300) <{indices_are_sorted = false, scatter_dimension_numbers = #stablehlo.scatter<update_window_dims = [1], in
    StableHlo.nullary main_cst_61 (constant S_ .f32 0x0A4FB11F#32),  -- %cst_61 = stablehlo.constant dense<1.000000e-32> : tensor<f32>
    StableHlo.unary main_cst_61 main_v304 (broadcastInDim S10000x1 ![] bcast_S_S10000x1 : (⟨S_, .f32⟩ : BufTy).Contents (Elt F) → (⟨S10000x1, .f32⟩ : BufTy).Contents (Elt F)),  -- %304 = stablehlo.broadcast_in_dim %cst_61, dims = [] : (tensor<f32>) -> tensor<10000x1xf32>  @ reference:67
    StableHlo.binary main_v303 main_v304 main_v305 (maximumf : (⟨S10000x1, .f32⟩ : BufTy).Contents (Elt F) → (⟨S10000x1, .f32⟩ : BufTy).Contents (Elt F) → (⟨S10000x1, .f32⟩ : BufTy).Contents (Elt F)),  -- %305 = stablehlo.maximum %303, %304 : tensor<10000x1xf32>  @ reference:67
    StableHlo.nullary main_cst_62 (constant S_ .f32 0xBF000000#32),  -- %cst_62 = stablehlo.constant dense<-5.000000e-01> : tensor<f32>
    StableHlo.unary main_cst_62 main_v306 (broadcastInDim S10000x1 ![] bcast_S_S10000x1 : (⟨S_, .f32⟩ : BufTy).Contents (Elt F) → (⟨S10000x1, .f32⟩ : BufTy).Contents (Elt F)),  -- %306 = stablehlo.broadcast_in_dim %cst_62, dims = [] : (tensor<f32>) -> tensor<10000x1xf32>  @ reference:67
    StableHlo.binary main_v305 main_v306 main_v307 (Host.powf : (⟨S10000x1, .f32⟩ : BufTy).Contents (Elt F) → (⟨S10000x1, .f32⟩ : BufTy).Contents (Elt F) → (⟨S10000x1, .f32⟩ : BufTy).Contents (Elt F)),  -- %307 = stablehlo.power %305, %306 : tensor<10000x1xf32>  @ reference:67
    StableHlo.nullary main_c_63 (constantI S_ 32 0#32),  -- %c_63 = stablehlo.constant dense<0> : tensor<i32>
    StableHlo.unary main_c_63 main_v308 (broadcastInDim S320000 ![] bcast_S_S320000 : (⟨S_, .i32⟩ : BufTy).Contents (Elt F) → (⟨S320000, .i32⟩ : BufTy).Contents (Elt F)),  -- %308 = stablehlo.broadcast_in_dim %c_63, dims = [] : (tensor<i32>) -> tensor<320000xi32>  @ reference:68
    StableHlo.binary main_v1 main_v308 main_v309 (cmpi .slt : (⟨S320000, .i32⟩ : BufTy).Contents (Elt F) → (⟨S320000, .i32⟩ : BufTy).Contents (Elt F) → (⟨S320000, .i1⟩ : BufTy).Contents (Elt F)),  -- %309 = stablehlo.compare LT, %1, %308, SIGNED : (tensor<320000xi32>, tensor<320000xi32>) -> tensor<320000xi1>  @ reference:68
    StableHlo.nullary main_c_64 (constantI S_ 32 10000#32),  -- %c_64 = stablehlo.constant dense<10000> : tensor<i32>
    StableHlo.unary main_c_64 main_v310 (broadcastInDim S320000 ![] bcast_S_S320000 : (⟨S_, .i32⟩ : BufTy).Contents (Elt F) → (⟨S320000, .i32⟩ : BufTy).Contents (Elt F)),  -- %310 = stablehlo.broadcast_in_dim %c_64, dims = [] : (tensor<i32>) -> tensor<320000xi32>  @ reference:68
    StableHlo.binary main_v1 main_v310 main_v311 (addi : (⟨S320000, .i32⟩ : BufTy).Contents (Elt F) → (⟨S320000, .i32⟩ : BufTy).Contents (Elt F) → (⟨S320000, .i32⟩ : BufTy).Contents (Elt F)),  -- %311 = stablehlo.add %1, %310 : tensor<320000xi32>  @ reference:68
    StableHlo.ternary main_v309 main_v311 main_v1 main_v312 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %312 = stablehlo.select %309, %311, %1 : tensor<320000xi1>, tensor<320000xi32>  @ reference:68
    StableHlo.unary main_v312 main_v313 (broadcastInDim S320000x1 ![0] bcast_S320000_S320000x1_0 : (⟨S320000, .i32⟩ : BufTy).Contents (Elt F) → (⟨S320000x1, .i32⟩ : BufTy).Contents (Elt F)),  -- %313 = stablehlo.broadcast_in_dim %312, dims = [0] : (tensor<320000xi32>) -> tensor<320000x1xi32>  @ reference:68
    StableHlo.binary main_v307 main_v313 main_v314 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %314 = "stablehlo.gather"(%307, %313) <{dimension_numbers = #stablehlo.gather<offset_dims = [1], collapsed_slice_dims = [0], start_index_map = [0], in
    StableHlo.binary main_v314 main_v300 main_v315 (mulf : (⟨S320000x1, .f32⟩ : BufTy).Contents (Elt F) → (⟨S320000x1, .f32⟩ : BufTy).Contents (Elt F) → (⟨S320000x1, .f32⟩ : BufTy).Contents (Elt F)),  -- %315 = stablehlo.multiply %314, %300 : tensor<320000x1xf32>  @ reference:68
    StableHlo.nullary main_c_65 (constantI S_ 32 0#32),  -- %c_65 = stablehlo.constant dense<0> : tensor<i32>
    StableHlo.unary main_c_65 main_v316 (broadcastInDim S320000 ![] bcast_S_S320000 : (⟨S_, .i32⟩ : BufTy).Contents (Elt F) → (⟨S320000, .i32⟩ : BufTy).Contents (Elt F)),  -- %316 = stablehlo.broadcast_in_dim %c_65, dims = [] : (tensor<i32>) -> tensor<320000xi32>  @ reference:68
    StableHlo.binary main_v3 main_v316 main_v317 (cmpi .slt : (⟨S320000, .i32⟩ : BufTy).Contents (Elt F) → (⟨S320000, .i32⟩ : BufTy).Contents (Elt F) → (⟨S320000, .i1⟩ : BufTy).Contents (Elt F)),  -- %317 = stablehlo.compare LT, %3, %316, SIGNED : (tensor<320000xi32>, tensor<320000xi32>) -> tensor<320000xi1>  @ reference:68
    StableHlo.nullary main_c_66 (constantI S_ 32 10000#32),  -- %c_66 = stablehlo.constant dense<10000> : tensor<i32>
    StableHlo.unary main_c_66 main_v318 (broadcastInDim S320000 ![] bcast_S_S320000 : (⟨S_, .i32⟩ : BufTy).Contents (Elt F) → (⟨S320000, .i32⟩ : BufTy).Contents (Elt F)),  -- %318 = stablehlo.broadcast_in_dim %c_66, dims = [] : (tensor<i32>) -> tensor<320000xi32>  @ reference:68
    StableHlo.binary main_v3 main_v318 main_v319 (addi : (⟨S320000, .i32⟩ : BufTy).Contents (Elt F) → (⟨S320000, .i32⟩ : BufTy).Contents (Elt F) → (⟨S320000, .i32⟩ : BufTy).Contents (Elt F)),  -- %319 = stablehlo.add %3, %318 : tensor<320000xi32>  @ reference:68
    StableHlo.ternary main_v317 main_v319 main_v3 main_v320 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %320 = stablehlo.select %317, %319, %3 : tensor<320000xi1>, tensor<320000xi32>  @ reference:68
    StableHlo.unary main_v320 main_v321 (broadcastInDim S320000x1 ![0] bcast_S320000_S320000x1_0 : (⟨S320000, .i32⟩ : BufTy).Contents (Elt F) → (⟨S320000x1, .i32⟩ : BufTy).Contents (Elt F)),  -- %321 = stablehlo.broadcast_in_dim %320, dims = [0] : (tensor<320000xi32>) -> tensor<320000x1xi32>  @ reference:68
    StableHlo.binary main_v307 main_v321 main_v322 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %322 = "stablehlo.gather"(%307, %321) <{dimension_numbers = #stablehlo.gather<offset_dims = [1], collapsed_slice_dims = [0], start_index_map = [0], in
    StableHlo.binary main_v315 main_v322 main_v323 (mulf : (⟨S320000x1, .f32⟩ : BufTy).Contents (Elt F) → (⟨S320000x1, .f32⟩ : BufTy).Contents (Elt F) → (⟨S320000x1, .f32⟩ : BufTy).Contents (Elt F)),  -- %323 = stablehlo.multiply %315, %322 : tensor<320000x1xf32>  @ reference:68
    StableHlo.unary main_v323 main_v324 (broadcastInDim S320000x1x1 ![0, 1] bcast_S320000x1_S320000x1x1_0_1 : (⟨S320000x1, .f32⟩ : BufTy).Contents (Elt F) → (⟨S320000x1x1, .f32⟩ : BufTy).Contents (Elt F)),  -- %324 = stablehlo.broadcast_in_dim %323, dims = [0, 1] : (tensor<320000x1xf32>) -> tensor<320000x1x1xf32>  @ reference:68
    StableHlo.nullary main_c_67 (constantI S_ 32 0#32),  -- %c_67 = stablehlo.constant dense<0> : tensor<i32>
    StableHlo.unary main_c_67 main_v325 (broadcastInDim S320000 ![] bcast_S_S320000 : (⟨S_, .i32⟩ : BufTy).Contents (Elt F) → (⟨S320000, .i32⟩ : BufTy).Contents (Elt F)),  -- %325 = stablehlo.broadcast_in_dim %c_67, dims = [] : (tensor<i32>) -> tensor<320000xi32>  @ reference:71
    StableHlo.binary main_v1 main_v325 main_v326 (cmpi .slt : (⟨S320000, .i32⟩ : BufTy).Contents (Elt F) → (⟨S320000, .i32⟩ : BufTy).Contents (Elt F) → (⟨S320000, .i1⟩ : BufTy).Contents (Elt F)),  -- %326 = stablehlo.compare LT, %1, %325, SIGNED : (tensor<320000xi32>, tensor<320000xi32>) -> tensor<320000xi1>  @ reference:71
    StableHlo.nullary main_c_68 (constantI S_ 32 10000#32),  -- %c_68 = stablehlo.constant dense<10000> : tensor<i32>
    StableHlo.unary main_c_68 main_v327 (broadcastInDim S320000 ![] bcast_S_S320000 : (⟨S_, .i32⟩ : BufTy).Contents (Elt F) → (⟨S320000, .i32⟩ : BufTy).Contents (Elt F)),  -- %327 = stablehlo.broadcast_in_dim %c_68, dims = [] : (tensor<i32>) -> tensor<320000xi32>  @ reference:71
    StableHlo.binary main_v1 main_v327 main_v328 (addi : (⟨S320000, .i32⟩ : BufTy).Contents (Elt F) → (⟨S320000, .i32⟩ : BufTy).Contents (Elt F) → (⟨S320000, .i32⟩ : BufTy).Contents (Elt F)),  -- %328 = stablehlo.add %1, %327 : tensor<320000xi32>  @ reference:71
    StableHlo.ternary main_v326 main_v328 main_v1 main_v329 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %329 = stablehlo.select %326, %328, %1 : tensor<320000xi1>, tensor<320000xi32>  @ reference:71
    StableHlo.unary main_v329 main_v330 (broadcastInDim S320000x1 ![0] bcast_S320000_S320000x1_0 : (⟨S320000, .i32⟩ : BufTy).Contents (Elt F) → (⟨S320000x1, .i32⟩ : BufTy).Contents (Elt F)),  -- %330 = stablehlo.broadcast_in_dim %329, dims = [0] : (tensor<320000xi32>) -> tensor<320000x1xi32>  @ reference:71
    StableHlo.binary main_v255 main_v330 main_v331 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %331 = "stablehlo.gather"(%255, %330) <{dimension_numbers = #stablehlo.gather<offset_dims = [1], collapsed_slice_dims = [0], start_index_map = [0], in
    StableHlo.reshape main_v331 main_v332 rfl shapeCasts_S320000x64_S320000x1x64,  -- %332 = stablehlo.reshape %331 : (tensor<320000x64xf32>) -> tensor<320000x1x64xf32>  @ reference:71
    StableHlo.unary main_v324 main_v333 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %333 = stablehlo.broadcast_in_dim %324, dims = [0, 1, 2] : (tensor<320000x1x1xf32>) -> tensor<320000x1x64xf32>  @ reference:71
    StableHlo.binary main_v332 main_v333 main_v334 (mulf : (⟨S320000x1x64, .f32⟩ : BufTy).Contents (Elt F) → (⟨S320000x1x64, .f32⟩ : BufTy).Contents (Elt F) → (⟨S320000x1x64, .f32⟩ : BufTy).Contents (Elt F)),  -- %334 = stablehlo.multiply %332, %333 : tensor<320000x1x64xf32>  @ reference:71
    StableHlo.nullary main_cst_69 (constant S_ .f32 0x00000000#32),  -- %cst_69 = stablehlo.constant dense<0.000000e+00> : tensor<f32>
    StableHlo.unary main_cst_69 main_v335 (broadcastInDim S10000x1x64 ![] bcast_S_S10000x1x64 : (⟨S_, .f32⟩ : BufTy).Contents (Elt F) → (⟨S10000x1x64, .f32⟩ : BufTy).Contents (Elt F)),  -- %335 = stablehlo.broadcast_in_dim %cst_69, dims = [] : (tensor<f32>) -> tensor<10000x1x64xf32>  @ reference:72
    StableHlo.unary main_v3 main_v336 (broadcastInDim S320000x1 ![0] bcast_S320000_S320000x1_0 : (⟨S320000, .i32⟩ : BufTy).Contents (Elt F) → (⟨S320000x1, .i32⟩ : BufTy).Contents (Elt F)),  -- %336 = stablehlo.broadcast_in_dim %3, dims = [0] : (tensor<320000xi32>) -> tensor<320000x1xi32>  @ reference:72
    StableHlo.ternary main_v335 main_v336 main_v334 main_v337 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %337 = "stablehlo.scatter"(%335, %336, %334) <{indices_are_sorted = false, scatter_dimension_numbers = #stablehlo.scatter<update_window_dims = [1, 2],
    StableHlo.reshape main_v337 main_v338 rfl shapeCasts_S10000x1x64_S10000x64,  -- %338 = stablehlo.reshape %337 : (tensor<10000x1x64xf32>) -> tensor<10000x64xf32>  @ reference:72
    StableHlo.reshape main_v338 main_v339 rfl shapeCasts_S10000x64_S10000x1x64,  -- %339 = stablehlo.reshape %338 : (tensor<10000x64xf32>) -> tensor<10000x1x64xf32>  @ reference:75
    StableHlo.binary main_v339 main_v275 main_v340 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %340 = stablehlo.concatenate %339, %275, dim = 2 : (tensor<10000x1x64xf32>, tensor<10000x1x64xf32>) -> tensor<10000x1x128xf32>  @ reference:76
    StableHlo.unary main_arg10 main_v341 ((extractStridedSlice S1x1x128 ![3, 0, 0] · slices_S9x1x128_S1x1x128_3_0_0) : (⟨S9x1x128, .f32⟩ : BufTy).Contents (Elt F) → (⟨S1x1x128, .f32⟩ : BufTy).Contents (Elt F)),  -- %341 = stablehlo.slice %arg10 [3:4, 0:1, 0:128] : (tensor<9x1x128xf32>) -> tensor<1x1x128xf32>  @ reference:77
    StableHlo.reshape main_v341 main_v342 rfl shapeCasts_S1x1x128_S1x128,  -- %342 = stablehlo.reshape %341 : (tensor<1x1x128xf32>) -> tensor<1x128xf32>  @ reference:77
    StableHlo.TRef.nullary main_call13.cst (constant S_ .f32 0x00000000#32),  -- @elu_7 in %343 = func.call @elu_7(%340): %cst = stablehlo.constant dense<0.000000e+00> : tensor<f32>
    StableHlo.TRef.unary main_call13.cst main_call13.v0 (broadcastInDim S10000x1x128 ![] bcast_S_S10000x1x128),  -- @elu_7 in %343 = func.call @elu_7(%340): %0 = stablehlo.broadcast_in_dim %cst, dims = [] : (tensor<f32>) -> tensor<10000x1x128xf32>
    StableHlo.TRef.binary (StableHlo.TRef.of (T := ⟨S10000x1x128, .f32⟩) main_v340) main_call13.v0 main_call13.v1 (cmpf .ogt),  -- @elu_7 in %343 = func.call @elu_7(%340): %1 = stablehlo.compare GT, %arg0, %0, FLOAT : (tensor<10000x1x128xf32>, tensor<10000x1x128xf32>) -> tensor<10
    StableHlo.TRef.nullary main_call13.cst_0 (constant S_ .f32 0x00000000#32),  -- @elu_7 in %343 = func.call @elu_7(%340): %cst_0 = stablehlo.constant dense<0.000000e+00> : tensor<f32>
    StableHlo.TRef.unary main_call13.cst_0 main_call13.v2 (broadcastInDim S10000x1x128 ![] bcast_S_S10000x1x128),  -- @elu_7 in %343 = func.call @elu_7(%340): %2 = stablehlo.broadcast_in_dim %cst_0, dims = [] : (tensor<f32>) -> tensor<10000x1x128xf32>
    StableHlo.TRef.binary (StableHlo.TRef.of (T := ⟨S10000x1x128, .f32⟩) main_v340) main_call13.v2 main_call13.v3 (cmpf .ogt),  -- @elu_7 in %343 = func.call @elu_7(%340): %3 = stablehlo.compare GT, %arg0, %2, FLOAT : (tensor<10000x1x128xf32>, tensor<10000x1x128xf32>) -> tensor<10
    StableHlo.TRef.nullary main_call13.cst_1 (constant S_ .f32 0x00000000#32),  -- @elu_7 in %343 = func.call @elu_7(%340): %cst_1 = stablehlo.constant dense<0.000000e+00> : tensor<f32>
    StableHlo.TRef.unary main_call13.cst_1 main_call13.call0.v0 id,  -- @where_8 in %343 = func.call @elu_7(%340): %0 = stablehlo.convert %arg1 : tensor<f32>
    StableHlo.TRef.unary main_call13.call0.v0 main_call13.call0.v1 (broadcastInDim S10000x1x128 ![] bcast_S_S10000x1x128),  -- @where_8 in %343 = func.call @elu_7(%340): %1 = stablehlo.broadcast_in_dim %0, dims = [] : (tensor<f32>) -> tensor<10000x1x128xf32>
    StableHlo.TRef.ternary main_call13.v3 main_call13.call0.v1 (StableHlo.TRef.of (T := ⟨S10000x1x128, .f32⟩) main_v340) main_call13.call0.v2 select,  -- @where_8 in %343 = func.call @elu_7(%340): %2 = stablehlo.select %arg0, %1, %arg2 : tensor<10000x1x128xi1>, tensor<10000x1x128xf32>
    StableHlo.TRef.unary main_call13.call0.v2 main_call13.v5 Host.expm1,  -- @elu_7 in %343 = func.call @elu_7(%340): %5 = stablehlo.exponential_minus_one %4 : tensor<10000x1x128xf32>
    StableHlo.TRef.nullary main_call13.cst_2 (constant S_ .f32 0x3F800000#32),  -- @elu_7 in %343 = func.call @elu_7(%340): %cst_2 = stablehlo.constant dense<1.000000e+00> : tensor<f32>
    StableHlo.TRef.unary main_call13.cst_2 main_call13.v6 (broadcastInDim S10000x1x128 ![] bcast_S_S10000x1x128),  -- @elu_7 in %343 = func.call @elu_7(%340): %6 = stablehlo.broadcast_in_dim %cst_2, dims = [] : (tensor<f32>) -> tensor<10000x1x128xf32>
    StableHlo.TRef.binary main_call13.v6 main_call13.v5 main_call13.v7 mulf,  -- @elu_7 in %343 = func.call @elu_7(%340): %7 = stablehlo.multiply %6, %5 : tensor<10000x1x128xf32>
    StableHlo.TRef.ternary main_call13.v1 (StableHlo.TRef.of (T := ⟨S10000x1x128, .f32⟩) main_v340) main_call13.v7 main_call13.call1.v0 select,  -- @where_9 in %343 = func.call @elu_7(%340): %0 = stablehlo.select %arg0, %arg1, %arg2 : tensor<10000x1x128xi1>, tensor<10000x1x128xf32>
    StableHlo.unary main_v342 main_v344 (broadcastInDim S1x1x128 ![1, 2] bcast_S1x128_S1x1x128_1_2 : (⟨S1x128, .f32⟩ : BufTy).Contents (Elt F) → (⟨S1x1x128, .f32⟩ : BufTy).Contents (Elt F)),  -- %344 = stablehlo.broadcast_in_dim %342, dims = [1, 2] : (tensor<1x128xf32>) -> tensor<1x1x128xf32>  @ reference:77
    StableHlo.unary main_v344 main_v345 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %345 = stablehlo.broadcast_in_dim %344, dims = [0, 1, 2] : (tensor<1x1x128xf32>) -> tensor<10000x1x128xf32>  @ reference:77
    StableHlo.binary main_v345 main_v343 main_v346 (mulf : (⟨S10000x1x128, .f32⟩ : BufTy).Contents (Elt F) → (⟨S10000x1x128, .f32⟩ : BufTy).Contents (Elt F) → (⟨S10000x1x128, .f32⟩ : BufTy).Contents (Elt F)),  -- %346 = stablehlo.multiply %345, %343 : tensor<10000x1x128xf32>  @ reference:77
    StableHlo.nullary main_cst_70 (constant S_ .f32 0x00000000#32),  -- %cst_70 = stablehlo.constant dense<0.000000e+00> : tensor<f32>
    StableHlo.binary main_v346 main_cst_70 main_v347 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %347 = stablehlo.reduce(%346 init: %cst_70) applies stablehlo.add across dimensions = [2] : (tensor<10000x1x128xf32>, tensor<f32>) -> tensor<10000x1xf
    StableHlo.unary main_arg11 main_v348 ((extractStridedSlice S1x1 ![3, 0] · slices_S9x1_S1x1_3_0) : (⟨S9x1, .f32⟩ : BufTy).Contents (Elt F) → (⟨S1x1, .f32⟩ : BufTy).Contents (Elt F)),  -- %348 = stablehlo.slice %arg11 [3:4, 0:1] : (tensor<9x1xf32>) -> tensor<1x1xf32>  @ reference:77
    StableHlo.reshape main_v348 main_v349 rfl shapeCasts_S1x1_S1,  -- %349 = stablehlo.reshape %348 : (tensor<1x1xf32>) -> tensor<1xf32>  @ reference:77
    StableHlo.unary main_v349 main_v350 (broadcastInDim S1x1 ![1] bcast_S1_S1x1_1 : (⟨S1, .f32⟩ : BufTy).Contents (Elt F) → (⟨S1x1, .f32⟩ : BufTy).Contents (Elt F)),  -- %350 = stablehlo.broadcast_in_dim %349, dims = [1] : (tensor<1xf32>) -> tensor<1x1xf32>  @ reference:77
    StableHlo.unary main_v350 main_v351 (broadcastInDim S10000x1 ![0, 1] bcast_S1x1_S10000x1_0_1 : (⟨S1x1, .f32⟩ : BufTy).Contents (Elt F) → (⟨S10000x1, .f32⟩ : BufTy).Contents (Elt F)),  -- %351 = stablehlo.broadcast_in_dim %350, dims = [0, 1] : (tensor<1x1xf32>) -> tensor<10000x1xf32>  @ reference:77
    StableHlo.binary main_v347 main_v351 main_v352 (addf : (⟨S10000x1, .f32⟩ : BufTy).Contents (Elt F) → (⟨S10000x1, .f32⟩ : BufTy).Contents (Elt F) → (⟨S10000x1, .f32⟩ : BufTy).Contents (Elt F)),  -- %352 = stablehlo.add %347, %351 : tensor<10000x1xf32>  @ reference:77
    StableHlo.unary main_v352 main_v353 (broadcastInDim S10000x1x1 ![0, 1] bcast_S10000x1_S10000x1x1_0_1 : (⟨S10000x1, .f32⟩ : BufTy).Contents (Elt F) → (⟨S10000x1x1, .f32⟩ : BufTy).Contents (Elt F)),  -- %353 = stablehlo.broadcast_in_dim %352, dims = [0, 1] : (tensor<10000x1xf32>) -> tensor<10000x1x1xf32>  @ reference:78
    StableHlo.unary main_v353 main_v354 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %354 = stablehlo.broadcast_in_dim %353, dims = [0, 1, 2] : (tensor<10000x1x1xf32>) -> tensor<10000x1x64xf32>  @ reference:78
    StableHlo.binary main_v339 main_v354 main_v355 (mulf : (⟨S10000x1x64, .f32⟩ : BufTy).Contents (Elt F) → (⟨S10000x1x64, .f32⟩ : BufTy).Contents (Elt F) → (⟨S10000x1x64, .f32⟩ : BufTy).Contents (Elt F)),  -- %355 = stablehlo.multiply %339, %354 : tensor<10000x1x64xf32>  @ reference:78
    StableHlo.binary main_v273 main_v355 main_v356 (addf : (⟨S10000x1x64, .f32⟩ : BufTy).Contents (Elt F) → (⟨S10000x1x64, .f32⟩ : BufTy).Contents (Elt F) → (⟨S10000x1x64, .f32⟩ : BufTy).Contents (Elt F)) ]  -- %356 = stablehlo.add %273, %355 : tensor<10000x1x64xf32>  @ reference:78

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL3 writes (each operation writes one, its result's), in order. -/
abbrev wL3 : List (Ref sig .tc) :=
  [main_cst_53, main_v274, main_v275, main_c_54, main_v276, main_v277, main_c_55, main_v278, main_v279, main_v280, main_v281, main_v282, main_c_56,
    main_v283, main_v284, main_c_57, main_v285, main_v286, main_v287, main_v288, main_v289, main_v290, main_call11.cst.ref, main_call11.v0.ref,
    main_call11.v1.ref, main_call11.cst_0.ref, main_call11.v2.ref, main_call11.v3.ref, main_call11.cst_1.ref, main_call11.call0.v0.ref,
    main_call11.call0.v1.ref, main_call11.call0.v2.ref, main_call11.v5.ref, main_call11.cst_2.ref, main_call11.v6.ref, main_call11.v7.ref,
    main_call11.call1.v0.ref, main_v292, main_v293, main_v294, main_v295, main_v296, main_cst_58, main_v297, main_call12.cst.ref, main_call12.v0.ref,
    main_call12.v1.ref, main_call12.v2.ref, main_call12.v3.ref, main_call12.v4.ref, main_call12.v5.ref, main_call12.v6.ref, main_call12.v7.ref,
    main_call12.v8.ref, main_call12.v9.ref, main_call12.v10.ref, main_call12.v11.ref, main_call12.v12.ref, main_cst_59, main_v299, main_v300,
    main_cst_60, main_v301, main_v302, main_v303, main_cst_61, main_v304, main_v305, main_cst_62, main_v306, main_v307, main_c_63, main_v308,
    main_v309, main_c_64, main_v310, main_v311, main_v312, main_v313, main_v314, main_v315, main_c_65, main_v316, main_v317, main_c_66, main_v318,
    main_v319, main_v320, main_v321, main_v322, main_v323, main_v324, main_c_67, main_v325, main_v326, main_c_68, main_v327, main_v328, main_v329,
    main_v330, main_v331, main_v332, main_v333, main_v334, main_cst_69, main_v335, main_v336, main_v337, main_v338, main_v339, main_v340, main_v341,
    main_v342, main_call13.cst.ref, main_call13.v0.ref, main_call13.v1.ref, main_call13.cst_0.ref, main_call13.v2.ref, main_call13.v3.ref,
    main_call13.cst_1.ref, main_call13.call0.v0.ref, main_call13.call0.v1.ref, main_call13.call0.v2.ref, main_call13.v5.ref, main_call13.cst_2.ref,
    main_call13.v6.ref, main_call13.v7.ref, main_call13.call1.v0.ref, main_v344, main_v345, main_v346, main_cst_70, main_v347, main_v348, main_v349,
    main_v350, main_v351, main_v352, main_v353, main_v354, main_v355, main_v356]
theorem opsL3_writes : (opsL3 : List (HloOp τ sig (Elt F))).Forall fun op =>
    op.writes ⊆ (wL3.map (Proc.devRef (τ := τ) .tc)).toFinset := by
  simp only [opsL3, List.Forall, nullary_writes, unary_writes, binary_writes, ternary_writes, reshape_writes]
  repeat' apply And.intro
  all_goals exact Finset.singleton_subset_iff.mpr (List.mem_toFinset.mpr (List.mem_map_of_mem (by decide)))
/-- opsL3 keeps every buffer it does not write. -/
theorem opsL3_kept (V : Valuation τ sig (Elt F)) (r : Ref sig .tc) (hr : r ∉ wL3) :
    after opsL3 V (Proc.devRef .tc r) = V (Proc.devRef .tc r) :=
  after_of_writes_sub opsL3 V opsL3_writes hr

end Cert.ReferenceIdeal.RefRun

end
-- ==== Proof.RefRun.L4.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 4: the state scaled, gathered along the edges, weighted, scattered back and added in. -/
abbrev opsL4 : List (HloOp τ sig (Elt F)) :=
  [ StableHlo.nullary main_cst_71 (constant S_ .f32 0x3E3AB2B8#32),  -- %cst_71 = stablehlo.constant dense<0.182322383> : tensor<f32>
    StableHlo.unary main_cst_71 main_v357 (broadcastInDim S10000x1x64 ![] bcast_S_S10000x1x64 : (⟨S_, .f32⟩ : BufTy).Contents (Elt F) → (⟨S10000x1x64, .f32⟩ : BufTy).Contents (Elt F)),  -- %357 = stablehlo.broadcast_in_dim %cst_71, dims = [] : (tensor<f32>) -> tensor<10000x1x64xf32>  @ reference:59
    StableHlo.binary main_v356 main_v357 main_v358 (mulf : (⟨S10000x1x64, .f32⟩ : BufTy).Contents (Elt F) → (⟨S10000x1x64, .f32⟩ : BufTy).Contents (Elt F) → (⟨S10000x1x64, .f32⟩ : BufTy).Contents (Elt F)),  -- %358 = stablehlo.multiply %356, %357 : tensor<10000x1x64xf32>  @ reference:59
    StableHlo.nullary main_c_72 (constantI S_ 32 0#32),  -- %c_72 = stablehlo.constant dense<0> : tensor<i32>
    StableHlo.unary main_c_72 main_v359 (broadcastInDim S320000 ![] bcast_S_S320000 : (⟨S_, .i32⟩ : BufTy).Contents (Elt F) → (⟨S320000, .i32⟩ : BufTy).Contents (Elt F)),  -- %359 = stablehlo.broadcast_in_dim %c_72, dims = [] : (tensor<i32>) -> tensor<320000xi32>  @ reference:62
    StableHlo.binary main_v1 main_v359 main_v360 (cmpi .slt : (⟨S320000, .i32⟩ : BufTy).Contents (Elt F) → (⟨S320000, .i32⟩ : BufTy).Contents (Elt F) → (⟨S320000, .i1⟩ : BufTy).Contents (Elt F)),  -- %360 = stablehlo.compare LT, %1, %359, SIGNED : (tensor<320000xi32>, tensor<320000xi32>) -> tensor<320000xi1>  @ reference:62
    StableHlo.nullary main_c_73 (constantI S_ 32 10000#32),  -- %c_73 = stablehlo.constant dense<10000> : tensor<i32>
    StableHlo.unary main_c_73 main_v361 (broadcastInDim S320000 ![] bcast_S_S320000 : (⟨S_, .i32⟩ : BufTy).Contents (Elt F) → (⟨S320000, .i32⟩ : BufTy).Contents (Elt F)),  -- %361 = stablehlo.broadcast_in_dim %c_73, dims = [] : (tensor<i32>) -> tensor<320000xi32>  @ reference:62
    StableHlo.binary main_v1 main_v361 main_v362 (addi : (⟨S320000, .i32⟩ : BufTy).Contents (Elt F) → (⟨S320000, .i32⟩ : BufTy).Contents (Elt F) → (⟨S320000, .i32⟩ : BufTy).Contents (Elt F)),  -- %362 = stablehlo.add %1, %361 : tensor<320000xi32>  @ reference:62
    StableHlo.ternary main_v360 main_v362 main_v1 main_v363 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %363 = stablehlo.select %360, %362, %1 : tensor<320000xi1>, tensor<320000xi32>  @ reference:62
    StableHlo.unary main_v363 main_v364 (broadcastInDim S320000x1 ![0] bcast_S320000_S320000x1_0 : (⟨S320000, .i32⟩ : BufTy).Contents (Elt F) → (⟨S320000x1, .i32⟩ : BufTy).Contents (Elt F)),  -- %364 = stablehlo.broadcast_in_dim %363, dims = [0] : (tensor<320000xi32>) -> tensor<320000x1xi32>  @ reference:62
    StableHlo.binary main_v358 main_v364 main_v365 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %365 = "stablehlo.gather"(%358, %364) <{dimension_numbers = #stablehlo.gather<offset_dims = [1, 2], collapsed_slice_dims = [0], start_index_map = [0],
    StableHlo.nullary main_c_74 (constantI S_ 32 0#32),  -- %c_74 = stablehlo.constant dense<0> : tensor<i32>
    StableHlo.unary main_c_74 main_v366 (broadcastInDim S320000 ![] bcast_S_S320000 : (⟨S_, .i32⟩ : BufTy).Contents (Elt F) → (⟨S320000, .i32⟩ : BufTy).Contents (Elt F)),  -- %366 = stablehlo.broadcast_in_dim %c_74, dims = [] : (tensor<i32>) -> tensor<320000xi32>  @ reference:62
    StableHlo.binary main_v3 main_v366 main_v367 (cmpi .slt : (⟨S320000, .i32⟩ : BufTy).Contents (Elt F) → (⟨S320000, .i32⟩ : BufTy).Contents (Elt F) → (⟨S320000, .i1⟩ : BufTy).Contents (Elt F)),  -- %367 = stablehlo.compare LT, %3, %366, SIGNED : (tensor<320000xi32>, tensor<320000xi32>) -> tensor<320000xi1>  @ reference:62
    StableHlo.nullary main_c_75 (constantI S_ 32 10000#32),  -- %c_75 = stablehlo.constant dense<10000> : tensor<i32>
    StableHlo.unary main_c_75 main_v368 (broadcastInDim S320000 ![] bcast_S_S320000 : (⟨S_, .i32⟩ : BufTy).Contents (Elt F) → (⟨S320000, .i32⟩ : BufTy).Contents (Elt F)),  -- %368 = stablehlo.broadcast_in_dim %c_75, dims = [] : (tensor<i32>) -> tensor<320000xi32>  @ reference:62
    StableHlo.binary main_v3 main_v368 main_v369 (addi : (⟨S320000, .i32⟩ : BufTy).Contents (Elt F) → (⟨S320000, .i32⟩ : BufTy).Contents (Elt F) → (⟨S320000, .i32⟩ : BufTy).Contents (Elt F)),  -- %369 = stablehlo.add %3, %368 : tensor<320000xi32>  @ reference:62
    StableHlo.ternary main_v367 main_v369 main_v3 main_v370 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %370 = stablehlo.select %367, %369, %3 : tensor<320000xi1>, tensor<320000xi32>  @ reference:62
    StableHlo.unary main_v370 main_v371 (broadcastInDim S320000x1 ![0] bcast_S320000_S320000x1_0 : (⟨S320000, .i32⟩ : BufTy).Contents (Elt F) → (⟨S320000x1, .i32⟩ : BufTy).Contents (Elt F)),  -- %371 = stablehlo.broadcast_in_dim %370, dims = [0] : (tensor<320000xi32>) -> tensor<320000x1xi32>  @ reference:62
    StableHlo.binary main_v358 main_v371 main_v372 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %372 = "stablehlo.gather"(%358, %371) <{dimension_numbers = #stablehlo.gather<offset_dims = [1, 2], collapsed_slice_dims = [0], start_index_map = [0],
    StableHlo.binary main_v365 main_v372 main_v373 (addf : (⟨S320000x1x64, .f32⟩ : BufTy).Contents (Elt F) → (⟨S320000x1x64, .f32⟩ : BufTy).Contents (Elt F) → (⟨S320000x1x64, .f32⟩ : BufTy).Contents (Elt F)),  -- %373 = stablehlo.add %365, %372 : tensor<320000x1x64xf32>  @ reference:62
    StableHlo.TRef.nullary main_call14.cst (constant S_ .f32 0x00000000#32),  -- @elu_4 in %374 = func.call @elu_4(%373): %cst = stablehlo.constant dense<0.000000e+00> : tensor<f32>
    StableHlo.TRef.unary main_call14.cst main_call14.v0 (broadcastInDim S320000x1x64 ![] bcast_S_S320000x1x64),  -- @elu_4 in %374 = func.call @elu_4(%373): %0 = stablehlo.broadcast_in_dim %cst, dims = [] : (tensor<f32>) -> tensor<320000x1x64xf32>
    StableHlo.TRef.binary (StableHlo.TRef.of (T := ⟨S320000x1x64, .f32⟩) main_v373) main_call14.v0 main_call14.v1 (cmpf .ogt),  -- @elu_4 in %374 = func.call @elu_4(%373): %1 = stablehlo.compare GT, %arg0, %0, FLOAT : (tensor<320000x1x64xf32>, tensor<320000x1x64xf32>) -> tensor<32
    StableHlo.TRef.nullary main_call14.cst_0 (constant S_ .f32 0x00000000#32),  -- @elu_4 in %374 = func.call @elu_4(%373): %cst_0 = stablehlo.constant dense<0.000000e+00> : tensor<f32>
    StableHlo.TRef.unary main_call14.cst_0 main_call14.v2 (broadcastInDim S320000x1x64 ![] bcast_S_S320000x1x64),  -- @elu_4 in %374 = func.call @elu_4(%373): %2 = stablehlo.broadcast_in_dim %cst_0, dims = [] : (tensor<f32>) -> tensor<320000x1x64xf32>
    StableHlo.TRef.binary (StableHlo.TRef.of (T := ⟨S320000x1x64, .f32⟩) main_v373) main_call14.v2 main_call14.v3 (cmpf .ogt),  -- @elu_4 in %374 = func.call @elu_4(%373): %3 = stablehlo.compare GT, %arg0, %2, FLOAT : (tensor<320000x1x64xf32>, tensor<320000x1x64xf32>) -> tensor<32
    StableHlo.TRef.nullary main_call14.cst_1 (constant S_ .f32 0x00000000#32),  -- @elu_4 in %374 = func.call @elu_4(%373): %cst_1 = stablehlo.constant dense<0.000000e+00> : tensor<f32>
    StableHlo.TRef.unary main_call14.cst_1 main_call14.call0.v0 id,  -- @where_5 in %374 = func.call @elu_4(%373): %0 = stablehlo.convert %arg1 : tensor<f32>
    StableHlo.TRef.unary main_call14.call0.v0 main_call14.call0.v1 (broadcastInDim S320000x1x64 ![] bcast_S_S320000x1x64),  -- @where_5 in %374 = func.call @elu_4(%373): %1 = stablehlo.broadcast_in_dim %0, dims = [] : (tensor<f32>) -> tensor<320000x1x64xf32>
    StableHlo.TRef.ternary main_call14.v3 main_call14.call0.v1 (StableHlo.TRef.of (T := ⟨S320000x1x64, .f32⟩) main_v373) main_call14.call0.v2 select,  -- @where_5 in %374 = func.call @elu_4(%373): %2 = stablehlo.select %arg0, %1, %arg2 : tensor<320000x1x64xi1>, tensor<320000x1x64xf32>
    StableHlo.TRef.unary main_call14.call0.v2 main_call14.v5 Host.expm1,  -- @elu_4 in %374 = func.call @elu_4(%373): %5 = stablehlo.exponential_minus_one %4 : tensor<320000x1x64xf32>
    StableHlo.TRef.nullary main_call14.cst_2 (constant S_ .f32 0x3F800000#32),  -- @elu_4 in %374 = func.call @elu_4(%373): %cst_2 = stablehlo.constant dense<1.000000e+00> : tensor<f32>
    StableHlo.TRef.unary main_call14.cst_2 main_call14.v6 (broadcastInDim S320000x1x64 ![] bcast_S_S320000x1x64),  -- @elu_4 in %374 = func.call @elu_4(%373): %6 = stablehlo.broadcast_in_dim %cst_2, dims = [] : (tensor<f32>) -> tensor<320000x1x64xf32>
    StableHlo.TRef.binary main_call14.v6 main_call14.v5 main_call14.v7 mulf,  -- @elu_4 in %374 = func.call @elu_4(%373): %7 = stablehlo.multiply %6, %5 : tensor<320000x1x64xf32>
    StableHlo.TRef.ternary main_call14.v1 (StableHlo.TRef.of (T := ⟨S320000x1x64, .f32⟩) main_v373) main_call14.v7 main_call14.call1.v0 select,  -- @where_6 in %374 = func.call @elu_4(%373): %0 = stablehlo.select %arg0, %arg1, %arg2 : tensor<320000x1x64xi1>, tensor<320000x1x64xf32>
    StableHlo.unary main_arg7 main_v375 ((extractStridedSlice S1x1x64 ![4, 0, 0] · slices_S9x1x64_S1x1x64_4_0_0) : (⟨S9x1x64, .f32⟩ : BufTy).Contents (Elt F) → (⟨S1x1x64, .f32⟩ : BufTy).Contents (Elt F)),  -- %375 = stablehlo.slice %arg7 [4:5, 0:1, 0:64] : (tensor<9x1x64xf32>) -> tensor<1x1x64xf32>  @ reference:63
    StableHlo.reshape main_v375 main_v376 rfl shapeCasts_S1x1x64_S1x64,  -- %376 = stablehlo.reshape %375 : (tensor<1x1x64xf32>) -> tensor<1x64xf32>  @ reference:63
    StableHlo.unary main_v376 main_v377 (broadcastInDim S1x1x64 ![1, 2] bcast_S1x64_S1x1x64_1_2 : (⟨S1x64, .f32⟩ : BufTy).Contents (Elt F) → (⟨S1x1x64, .f32⟩ : BufTy).Contents (Elt F)),  -- %377 = stablehlo.broadcast_in_dim %376, dims = [1, 2] : (tensor<1x64xf32>) -> tensor<1x1x64xf32>  @ reference:63
    StableHlo.unary main_v377 main_v378 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %378 = stablehlo.broadcast_in_dim %377, dims = [0, 1, 2] : (tensor<1x1x64xf32>) -> tensor<320000x1x64xf32>  @ reference:63
    StableHlo.binary main_v378 main_v374 main_v379 (mulf : (⟨S320000x1x64, .f32⟩ : BufTy).Contents (Elt F) → (⟨S320000x1x64, .f32⟩ : BufTy).Contents (Elt F) → (⟨S320000x1x64, .f32⟩ : BufTy).Contents (Elt F)),  -- %379 = stablehlo.multiply %378, %374 : tensor<320000x1x64xf32>  @ reference:63
    StableHlo.nullary main_cst_76 (constant S_ .f32 0x00000000#32),  -- %cst_76 = stablehlo.constant dense<0.000000e+00> : tensor<f32>
    StableHlo.binary main_v379 main_cst_76 main_v380 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %380 = stablehlo.reduce(%379 init: %cst_76) applies stablehlo.add across dimensions = [2] : (tensor<320000x1x64xf32>, tensor<f32>) -> tensor<320000x1x
    StableHlo.TRef.nullary main_call15.cst (constant S_ .f32 0x00000000#32),  -- @softplus in %381 = func.call @softplus(%380): %cst = stablehlo.constant dense<0.000000e+00> : tensor<f32>
    StableHlo.TRef.unary main_call15.cst main_call15.v0 (broadcastInDim S320000x1 ![] bcast_S_S320000x1),  -- @softplus in %381 = func.call @softplus(%380): %0 = stablehlo.broadcast_in_dim %cst, dims = [] : (tensor<f32>) -> tensor<320000x1xf32>
    StableHlo.TRef.binary (StableHlo.TRef.of (T := ⟨S320000x1, .f32⟩) main_v380) main_call15.v0 main_call15.v1 maximumf,  -- @softplus in %381 = func.call @softplus(%380): %1 = stablehlo.maximum %arg0, %0 : tensor<320000x1xf32>
    StableHlo.TRef.unary main_call15.cst main_call15.v2 (broadcastInDim S320000x1 ![] bcast_S_S320000x1),  -- @softplus in %381 = func.call @softplus(%380): %2 = stablehlo.broadcast_in_dim %cst, dims = [] : (tensor<f32>) -> tensor<320000x1xf32>
    StableHlo.TRef.binary (StableHlo.TRef.of (T := ⟨S320000x1, .f32⟩) main_v380) main_call15.v2 main_call15.v3 subf,  -- @softplus in %381 = func.call @softplus(%380): %3 = stablehlo.subtract %arg0, %2 : tensor<320000x1xf32>
    StableHlo.TRef.binary main_call15.v3 main_call15.v3 main_call15.v4 (cmpf .une),  -- @softplus in %381 = func.call @softplus(%380): %4 = stablehlo.compare NE, %3, %3, FLOAT : (tensor<320000x1xf32>, tensor<320000x1xf32>) -> tensor<32000
    StableHlo.TRef.unary main_call15.cst main_call15.v5 (broadcastInDim S320000x1 ![] bcast_S_S320000x1),  -- @softplus in %381 = func.call @softplus(%380): %5 = stablehlo.broadcast_in_dim %cst, dims = [] : (tensor<f32>) -> tensor<320000x1xf32>
    StableHlo.TRef.binary (StableHlo.TRef.of (T := ⟨S320000x1, .f32⟩) main_v380) main_call15.v5 main_call15.v6 addf,  -- @softplus in %381 = func.call @softplus(%380): %6 = stablehlo.add %arg0, %5 : tensor<320000x1xf32>
    StableHlo.TRef.unary main_call15.v3 main_call15.v7 Host.absf,  -- @softplus in %381 = func.call @softplus(%380): %7 = stablehlo.abs %3 : tensor<320000x1xf32>
    StableHlo.TRef.unary main_call15.v7 main_call15.v8 Host.negf,  -- @softplus in %381 = func.call @softplus(%380): %8 = stablehlo.negate %7 : tensor<320000x1xf32>
    StableHlo.TRef.unary main_call15.v8 main_call15.v9 Host.exp,  -- @softplus in %381 = func.call @softplus(%380): %9 = stablehlo.exponential %8 : tensor<320000x1xf32>
    StableHlo.TRef.unary main_call15.v9 main_call15.v10 Host.log1p,  -- @softplus in %381 = func.call @softplus(%380): %10 = stablehlo.log_plus_one %9 : tensor<320000x1xf32>
    StableHlo.TRef.binary main_call15.v1 main_call15.v10 main_call15.v11 addf,  -- @softplus in %381 = func.call @softplus(%380): %11 = stablehlo.add %1, %10 : tensor<320000x1xf32>
    StableHlo.TRef.ternary main_call15.v4 main_call15.v6 main_call15.v11 main_call15.v12 select,  -- @softplus in %381 = func.call @softplus(%380): %12 = stablehlo.select %4, %6, %11 : tensor<320000x1xi1>, tensor<320000x1xf32>
    StableHlo.nullary main_cst_77 (constant S_ .f32 0x358637BD#32),  -- %cst_77 = stablehlo.constant dense<9.99999997E-7> : tensor<f32>
    StableHlo.unary main_cst_77 main_v382 (broadcastInDim S320000x1 ![] bcast_S_S320000x1 : (⟨S_, .f32⟩ : BufTy).Contents (Elt F) → (⟨S320000x1, .f32⟩ : BufTy).Contents (Elt F)),  -- %382 = stablehlo.broadcast_in_dim %cst_77, dims = [] : (tensor<f32>) -> tensor<320000x1xf32>  @ reference:63
    StableHlo.binary main_v381 main_v382 main_v383 (addf : (⟨S320000x1, .f32⟩ : BufTy).Contents (Elt F) → (⟨S320000x1, .f32⟩ : BufTy).Contents (Elt F) → (⟨S320000x1, .f32⟩ : BufTy).Contents (Elt F)),  -- %383 = stablehlo.add %381, %382 : tensor<320000x1xf32>  @ reference:63
    StableHlo.nullary main_cst_78 (constant S_ .f32 0x00000000#32),  -- %cst_78 = stablehlo.constant dense<0.000000e+00> : tensor<f32>
    StableHlo.unary main_cst_78 main_v384 (broadcastInDim S10000x1 ![] bcast_S_S10000x1 : (⟨S_, .f32⟩ : BufTy).Contents (Elt F) → (⟨S10000x1, .f32⟩ : BufTy).Contents (Elt F)),  -- %384 = stablehlo.broadcast_in_dim %cst_78, dims = [] : (tensor<f32>) -> tensor<10000x1xf32>  @ reference:66
    StableHlo.unary main_v3 main_v385 (broadcastInDim S320000x1 ![0] bcast_S320000_S320000x1_0 : (⟨S320000, .i32⟩ : BufTy).Contents (Elt F) → (⟨S320000x1, .i32⟩ : BufTy).Contents (Elt F)),  -- %385 = stablehlo.broadcast_in_dim %3, dims = [0] : (tensor<320000xi32>) -> tensor<320000x1xi32>  @ reference:66
    StableHlo.ternary main_v384 main_v385 main_v383 main_v386 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %386 = "stablehlo.scatter"(%384, %385, %383) <{indices_are_sorted = false, scatter_dimension_numbers = #stablehlo.scatter<update_window_dims = [1], in
    StableHlo.nullary main_cst_79 (constant S_ .f32 0x0A4FB11F#32),  -- %cst_79 = stablehlo.constant dense<1.000000e-32> : tensor<f32>
    StableHlo.unary main_cst_79 main_v387 (broadcastInDim S10000x1 ![] bcast_S_S10000x1 : (⟨S_, .f32⟩ : BufTy).Contents (Elt F) → (⟨S10000x1, .f32⟩ : BufTy).Contents (Elt F)),  -- %387 = stablehlo.broadcast_in_dim %cst_79, dims = [] : (tensor<f32>) -> tensor<10000x1xf32>  @ reference:67
    StableHlo.binary main_v386 main_v387 main_v388 (maximumf : (⟨S10000x1, .f32⟩ : BufTy).Contents (Elt F) → (⟨S10000x1, .f32⟩ : BufTy).Contents (Elt F) → (⟨S10000x1, .f32⟩ : BufTy).Contents (Elt F)),  -- %388 = stablehlo.maximum %386, %387 : tensor<10000x1xf32>  @ reference:67
    StableHlo.nullary main_cst_80 (constant S_ .f32 0xBF000000#32),  -- %cst_80 = stablehlo.constant dense<-5.000000e-01> : tensor<f32>
    StableHlo.unary main_cst_80 main_v389 (broadcastInDim S10000x1 ![] bcast_S_S10000x1 : (⟨S_, .f32⟩ : BufTy).Contents (Elt F) → (⟨S10000x1, .f32⟩ : BufTy).Contents (Elt F)),  -- %389 = stablehlo.broadcast_in_dim %cst_80, dims = [] : (tensor<f32>) -> tensor<10000x1xf32>  @ reference:67
    StableHlo.binary main_v388 main_v389 main_v390 (Host.powf : (⟨S10000x1, .f32⟩ : BufTy).Contents (Elt F) → (⟨S10000x1, .f32⟩ : BufTy).Contents (Elt F) → (⟨S10000x1, .f32⟩ : BufTy).Contents (Elt F)),  -- %390 = stablehlo.power %388, %389 : tensor<10000x1xf32>  @ reference:67
    StableHlo.nullary main_c_81 (constantI S_ 32 0#32),  -- %c_81 = stablehlo.constant dense<0> : tensor<i32>
    StableHlo.unary main_c_81 main_v391 (broadcastInDim S320000 ![] bcast_S_S320000 : (⟨S_, .i32⟩ : BufTy).Contents (Elt F) → (⟨S320000, .i32⟩ : BufTy).Contents (Elt F)),  -- %391 = stablehlo.broadcast_in_dim %c_81, dims = [] : (tensor<i32>) -> tensor<320000xi32>  @ reference:68
    StableHlo.binary main_v1 main_v391 main_v392 (cmpi .slt : (⟨S320000, .i32⟩ : BufTy).Contents (Elt F) → (⟨S320000, .i32⟩ : BufTy).Contents (Elt F) → (⟨S320000, .i1⟩ : BufTy).Contents (Elt F)),  -- %392 = stablehlo.compare LT, %1, %391, SIGNED : (tensor<320000xi32>, tensor<320000xi32>) -> tensor<320000xi1>  @ reference:68
    StableHlo.nullary main_c_82 (constantI S_ 32 10000#32),  -- %c_82 = stablehlo.constant dense<10000> : tensor<i32>
    StableHlo.unary main_c_82 main_v393 (broadcastInDim S320000 ![] bcast_S_S320000 : (⟨S_, .i32⟩ : BufTy).Contents (Elt F) → (⟨S320000, .i32⟩ : BufTy).Contents (Elt F)),  -- %393 = stablehlo.broadcast_in_dim %c_82, dims = [] : (tensor<i32>) -> tensor<320000xi32>  @ reference:68
    StableHlo.binary main_v1 main_v393 main_v394 (addi : (⟨S320000, .i32⟩ : BufTy).Contents (Elt F) → (⟨S320000, .i32⟩ : BufTy).Contents (Elt F) → (⟨S320000, .i32⟩ : BufTy).Contents (Elt F)),  -- %394 = stablehlo.add %1, %393 : tensor<320000xi32>  @ reference:68
    StableHlo.ternary main_v392 main_v394 main_v1 main_v395 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %395 = stablehlo.select %392, %394, %1 : tensor<320000xi1>, tensor<320000xi32>  @ reference:68
    StableHlo.unary main_v395 main_v396 (broadcastInDim S320000x1 ![0] bcast_S320000_S320000x1_0 : (⟨S320000, .i32⟩ : BufTy).Contents (Elt F) → (⟨S320000x1, .i32⟩ : BufTy).Contents (Elt F)),  -- %396 = stablehlo.broadcast_in_dim %395, dims = [0] : (tensor<320000xi32>) -> tensor<320000x1xi32>  @ reference:68
    StableHlo.binary main_v390 main_v396 main_v397 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %397 = "stablehlo.gather"(%390, %396) <{dimension_numbers = #stablehlo.gather<offset_dims = [1], collapsed_slice_dims = [0], start_index_map = [0], in
    StableHlo.binary main_v397 main_v383 main_v398 (mulf : (⟨S320000x1, .f32⟩ : BufTy).Contents (Elt F) → (⟨S320000x1, .f32⟩ : BufTy).Contents (Elt F) → (⟨S320000x1, .f32⟩ : BufTy).Contents (Elt F)),  -- %398 = stablehlo.multiply %397, %383 : tensor<320000x1xf32>  @ reference:68
    StableHlo.nullary main_c_83 (constantI S_ 32 0#32),  -- %c_83 = stablehlo.constant dense<0> : tensor<i32>
    StableHlo.unary main_c_83 main_v399 (broadcastInDim S320000 ![] bcast_S_S320000 : (⟨S_, .i32⟩ : BufTy).Contents (Elt F) → (⟨S320000, .i32⟩ : BufTy).Contents (Elt F)),  -- %399 = stablehlo.broadcast_in_dim %c_83, dims = [] : (tensor<i32>) -> tensor<320000xi32>  @ reference:68
    StableHlo.binary main_v3 main_v399 main_v400 (cmpi .slt : (⟨S320000, .i32⟩ : BufTy).Contents (Elt F) → (⟨S320000, .i32⟩ : BufTy).Contents (Elt F) → (⟨S320000, .i1⟩ : BufTy).Contents (Elt F)),  -- %400 = stablehlo.compare LT, %3, %399, SIGNED : (tensor<320000xi32>, tensor<320000xi32>) -> tensor<320000xi1>  @ reference:68
    StableHlo.nullary main_c_84 (constantI S_ 32 10000#32),  -- %c_84 = stablehlo.constant dense<10000> : tensor<i32>
    StableHlo.unary main_c_84 main_v401 (broadcastInDim S320000 ![] bcast_S_S320000 : (⟨S_, .i32⟩ : BufTy).Contents (Elt F) → (⟨S320000, .i32⟩ : BufTy).Contents (Elt F)),  -- %401 = stablehlo.broadcast_in_dim %c_84, dims = [] : (tensor<i32>) -> tensor<320000xi32>  @ reference:68
    StableHlo.binary main_v3 main_v401 main_v402 (addi : (⟨S320000, .i32⟩ : BufTy).Contents (Elt F) → (⟨S320000, .i32⟩ : BufTy).Contents (Elt F) → (⟨S320000, .i32⟩ : BufTy).Contents (Elt F)),  -- %402 = stablehlo.add %3, %401 : tensor<320000xi32>  @ reference:68
    StableHlo.ternary main_v400 main_v402 main_v3 main_v403 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %403 = stablehlo.select %400, %402, %3 : tensor<320000xi1>, tensor<320000xi32>  @ reference:68
    StableHlo.unary main_v403 main_v404 (broadcastInDim S320000x1 ![0] bcast_S320000_S320000x1_0 : (⟨S320000, .i32⟩ : BufTy).Contents (Elt F) → (⟨S320000x1, .i32⟩ : BufTy).Contents (Elt F)),  -- %404 = stablehlo.broadcast_in_dim %403, dims = [0] : (tensor<320000xi32>) -> tensor<320000x1xi32>  @ reference:68
    StableHlo.binary main_v390 main_v404 main_v405 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %405 = "stablehlo.gather"(%390, %404) <{dimension_numbers = #stablehlo.gather<offset_dims = [1], collapsed_slice_dims = [0], start_index_map = [0], in
    StableHlo.binary main_v398 main_v405 main_v406 (mulf : (⟨S320000x1, .f32⟩ : BufTy).Contents (Elt F) → (⟨S320000x1, .f32⟩ : BufTy).Contents (Elt F) → (⟨S320000x1, .f32⟩ : BufTy).Contents (Elt F)),  -- %406 = stablehlo.multiply %398, %405 : tensor<320000x1xf32>  @ reference:68
    StableHlo.unary main_v406 main_v407 (broadcastInDim S320000x1x1 ![0, 1] bcast_S320000x1_S320000x1x1_0_1 : (⟨S320000x1, .f32⟩ : BufTy).Contents (Elt F) → (⟨S320000x1x1, .f32⟩ : BufTy).Contents (Elt F)),  -- %407 = stablehlo.broadcast_in_dim %406, dims = [0, 1] : (tensor<320000x1xf32>) -> tensor<320000x1x1xf32>  @ reference:68
    StableHlo.nullary main_c_85 (constantI S_ 32 0#32),  -- %c_85 = stablehlo.constant dense<0> : tensor<i32>
    StableHlo.unary main_c_85 main_v408 (broadcastInDim S320000 ![] bcast_S_S320000 : (⟨S_, .i32⟩ : BufTy).Contents (Elt F) → (⟨S320000, .i32⟩ : BufTy).Contents (Elt F)),  -- %408 = stablehlo.broadcast_in_dim %c_85, dims = [] : (tensor<i32>) -> tensor<320000xi32>  @ reference:71
    StableHlo.binary main_v1 main_v408 main_v409 (cmpi .slt : (⟨S320000, .i32⟩ : BufTy).Contents (Elt F) → (⟨S320000, .i32⟩ : BufTy).Contents (Elt F) → (⟨S320000, .i1⟩ : BufTy).Contents (Elt F)),  -- %409 = stablehlo.compare LT, %1, %408, SIGNED : (tensor<320000xi32>, tensor<320000xi32>) -> tensor<320000xi1>  @ reference:71
    StableHlo.nullary main_c_86 (constantI S_ 32 10000#32),  -- %c_86 = stablehlo.constant dense<10000> : tensor<i32>
    StableHlo.unary main_c_86 main_v410 (broadcastInDim S320000 ![] bcast_S_S320000 : (⟨S_, .i32⟩ : BufTy).Contents (Elt F) → (⟨S320000, .i32⟩ : BufTy).Contents (Elt F)),  -- %410 = stablehlo.broadcast_in_dim %c_86, dims = [] : (tensor<i32>) -> tensor<320000xi32>  @ reference:71
    StableHlo.binary main_v1 main_v410 main_v411 (addi : (⟨S320000, .i32⟩ : BufTy).Contents (Elt F) → (⟨S320000, .i32⟩ : BufTy).Contents (Elt F) → (⟨S320000, .i32⟩ : BufTy).Contents (Elt F)),  -- %411 = stablehlo.add %1, %410 : tensor<320000xi32>  @ reference:71
    StableHlo.ternary main_v409 main_v411 main_v1 main_v412 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %412 = stablehlo.select %409, %411, %1 : tensor<320000xi1>, tensor<320000xi32>  @ reference:71
    StableHlo.unary main_v412 main_v413 (broadcastInDim S320000x1 ![0] bcast_S320000_S320000x1_0 : (⟨S320000, .i32⟩ : BufTy).Contents (Elt F) → (⟨S320000x1, .i32⟩ : BufTy).Contents (Elt F)),  -- %413 = stablehlo.broadcast_in_dim %412, dims = [0] : (tensor<320000xi32>) -> tensor<320000x1xi32>  @ reference:71
    StableHlo.binary main_v338 main_v413 main_v414 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %414 = "stablehlo.gather"(%338, %413) <{dimension_numbers = #stablehlo.gather<offset_dims = [1], collapsed_slice_dims = [0], start_index_map = [0], in
    StableHlo.reshape main_v414 main_v415 rfl shapeCasts_S320000x64_S320000x1x64,  -- %415 = stablehlo.reshape %414 : (tensor<320000x64xf32>) -> tensor<320000x1x64xf32>  @ reference:71
    StableHlo.unary main_v407 main_v416 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %416 = stablehlo.broadcast_in_dim %407, dims = [0, 1, 2] : (tensor<320000x1x1xf32>) -> tensor<320000x1x64xf32>  @ reference:71
    StableHlo.binary main_v415 main_v416 main_v417 (mulf : (⟨S320000x1x64, .f32⟩ : BufTy).Contents (Elt F) → (⟨S320000x1x64, .f32⟩ : BufTy).Contents (Elt F) → (⟨S320000x1x64, .f32⟩ : BufTy).Contents (Elt F)),  -- %417 = stablehlo.multiply %415, %416 : tensor<320000x1x64xf32>  @ reference:71
    StableHlo.nullary main_cst_87 (constant S_ .f32 0x00000000#32),  -- %cst_87 = stablehlo.constant dense<0.000000e+00> : tensor<f32>
    StableHlo.unary main_cst_87 main_v418 (broadcastInDim S10000x1x64 ![] bcast_S_S10000x1x64 : (⟨S_, .f32⟩ : BufTy).Contents (Elt F) → (⟨S10000x1x64, .f32⟩ : BufTy).Contents (Elt F)),  -- %418 = stablehlo.broadcast_in_dim %cst_87, dims = [] : (tensor<f32>) -> tensor<10000x1x64xf32>  @ reference:72
    StableHlo.unary main_v3 main_v419 (broadcastInDim S320000x1 ![0] bcast_S320000_S320000x1_0 : (⟨S320000, .i32⟩ : BufTy).Contents (Elt F) → (⟨S320000x1, .i32⟩ : BufTy).Contents (Elt F)),  -- %419 = stablehlo.broadcast_in_dim %3, dims = [0] : (tensor<320000xi32>) -> tensor<320000x1xi32>  @ reference:72
    StableHlo.ternary main_v418 main_v419 main_v417 main_v420 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %420 = "stablehlo.scatter"(%418, %419, %417) <{indices_are_sorted = false, scatter_dimension_numbers = #stablehlo.scatter<update_window_dims = [1, 2],
    StableHlo.reshape main_v420 main_v421 rfl shapeCasts_S10000x1x64_S10000x64,  -- %421 = stablehlo.reshape %420 : (tensor<10000x1x64xf32>) -> tensor<10000x64xf32>  @ reference:72
    StableHlo.reshape main_v421 main_v422 rfl shapeCasts_S10000x64_S10000x1x64,  -- %422 = stablehlo.reshape %421 : (tensor<10000x64xf32>) -> tensor<10000x1x64xf32>  @ reference:75
    StableHlo.binary main_v422 main_v358 main_v423 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %423 = stablehlo.concatenate %422, %358, dim = 2 : (tensor<10000x1x64xf32>, tensor<10000x1x64xf32>) -> tensor<10000x1x128xf32>  @ reference:76
    StableHlo.unary main_arg10 main_v424 ((extractStridedSlice S1x1x128 ![4, 0, 0] · slices_S9x1x128_S1x1x128_4_0_0) : (⟨S9x1x128, .f32⟩ : BufTy).Contents (Elt F) → (⟨S1x1x128, .f32⟩ : BufTy).Contents (Elt F)),  -- %424 = stablehlo.slice %arg10 [4:5, 0:1, 0:128] : (tensor<9x1x128xf32>) -> tensor<1x1x128xf32>  @ reference:77
    StableHlo.reshape main_v424 main_v425 rfl shapeCasts_S1x1x128_S1x128,  -- %425 = stablehlo.reshape %424 : (tensor<1x1x128xf32>) -> tensor<1x128xf32>  @ reference:77
    StableHlo.TRef.nullary main_call16.cst (constant S_ .f32 0x00000000#32),  -- @elu_7 in %426 = func.call @elu_7(%423): %cst = stablehlo.constant dense<0.000000e+00> : tensor<f32>
    StableHlo.TRef.unary main_call16.cst main_call16.v0 (broadcastInDim S10000x1x128 ![] bcast_S_S10000x1x128),  -- @elu_7 in %426 = func.call @elu_7(%423): %0 = stablehlo.broadcast_in_dim %cst, dims = [] : (tensor<f32>) -> tensor<10000x1x128xf32>
    StableHlo.TRef.binary (StableHlo.TRef.of (T := ⟨S10000x1x128, .f32⟩) main_v423) main_call16.v0 main_call16.v1 (cmpf .ogt),  -- @elu_7 in %426 = func.call @elu_7(%423): %1 = stablehlo.compare GT, %arg0, %0, FLOAT : (tensor<10000x1x128xf32>, tensor<10000x1x128xf32>) -> tensor<10
    StableHlo.TRef.nullary main_call16.cst_0 (constant S_ .f32 0x00000000#32),  -- @elu_7 in %426 = func.call @elu_7(%423): %cst_0 = stablehlo.constant dense<0.000000e+00> : tensor<f32>
    StableHlo.TRef.unary main_call16.cst_0 main_call16.v2 (broadcastInDim S10000x1x128 ![] bcast_S_S10000x1x128),  -- @elu_7 in %426 = func.call @elu_7(%423): %2 = stablehlo.broadcast_in_dim %cst_0, dims = [] : (tensor<f32>) -> tensor<10000x1x128xf32>
    StableHlo.TRef.binary (StableHlo.TRef.of (T := ⟨S10000x1x128, .f32⟩) main_v423) main_call16.v2 main_call16.v3 (cmpf .ogt),  -- @elu_7 in %426 = func.call @elu_7(%423): %3 = stablehlo.compare GT, %arg0, %2, FLOAT : (tensor<10000x1x128xf32>, tensor<10000x1x128xf32>) -> tensor<10
    StableHlo.TRef.nullary main_call16.cst_1 (constant S_ .f32 0x00000000#32),  -- @elu_7 in %426 = func.call @elu_7(%423): %cst_1 = stablehlo.constant dense<0.000000e+00> : tensor<f32>
    StableHlo.TRef.unary main_call16.cst_1 main_call16.call0.v0 id,  -- @where_8 in %426 = func.call @elu_7(%423): %0 = stablehlo.convert %arg1 : tensor<f32>
    StableHlo.TRef.unary main_call16.call0.v0 main_call16.call0.v1 (broadcastInDim S10000x1x128 ![] bcast_S_S10000x1x128),  -- @where_8 in %426 = func.call @elu_7(%423): %1 = stablehlo.broadcast_in_dim %0, dims = [] : (tensor<f32>) -> tensor<10000x1x128xf32>
    StableHlo.TRef.ternary main_call16.v3 main_call16.call0.v1 (StableHlo.TRef.of (T := ⟨S10000x1x128, .f32⟩) main_v423) main_call16.call0.v2 select,  -- @where_8 in %426 = func.call @elu_7(%423): %2 = stablehlo.select %arg0, %1, %arg2 : tensor<10000x1x128xi1>, tensor<10000x1x128xf32>
    StableHlo.TRef.unary main_call16.call0.v2 main_call16.v5 Host.expm1,  -- @elu_7 in %426 = func.call @elu_7(%423): %5 = stablehlo.exponential_minus_one %4 : tensor<10000x1x128xf32>
    StableHlo.TRef.nullary main_call16.cst_2 (constant S_ .f32 0x3F800000#32),  -- @elu_7 in %426 = func.call @elu_7(%423): %cst_2 = stablehlo.constant dense<1.000000e+00> : tensor<f32>
    StableHlo.TRef.unary main_call16.cst_2 main_call16.v6 (broadcastInDim S10000x1x128 ![] bcast_S_S10000x1x128),  -- @elu_7 in %426 = func.call @elu_7(%423): %6 = stablehlo.broadcast_in_dim %cst_2, dims = [] : (tensor<f32>) -> tensor<10000x1x128xf32>
    StableHlo.TRef.binary main_call16.v6 main_call16.v5 main_call16.v7 mulf,  -- @elu_7 in %426 = func.call @elu_7(%423): %7 = stablehlo.multiply %6, %5 : tensor<10000x1x128xf32>
    StableHlo.TRef.ternary main_call16.v1 (StableHlo.TRef.of (T := ⟨S10000x1x128, .f32⟩) main_v423) main_call16.v7 main_call16.call1.v0 select,  -- @where_9 in %426 = func.call @elu_7(%423): %0 = stablehlo.select %arg0, %arg1, %arg2 : tensor<10000x1x128xi1>, tensor<10000x1x128xf32>
    StableHlo.unary main_v425 main_v427 (broadcastInDim S1x1x128 ![1, 2] bcast_S1x128_S1x1x128_1_2 : (⟨S1x128, .f32⟩ : BufTy).Contents (Elt F) → (⟨S1x1x128, .f32⟩ : BufTy).Contents (Elt F)),  -- %427 = stablehlo.broadcast_in_dim %425, dims = [1, 2] : (tensor<1x128xf32>) -> tensor<1x1x128xf32>  @ reference:77
    StableHlo.unary main_v427 main_v428 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %428 = stablehlo.broadcast_in_dim %427, dims = [0, 1, 2] : (tensor<1x1x128xf32>) -> tensor<10000x1x128xf32>  @ reference:77
    StableHlo.binary main_v428 main_v426 main_v429 (mulf : (⟨S10000x1x128, .f32⟩ : BufTy).Contents (Elt F) → (⟨S10000x1x128, .f32⟩ : BufTy).Contents (Elt F) → (⟨S10000x1x128, .f32⟩ : BufTy).Contents (Elt F)),  -- %429 = stablehlo.multiply %428, %426 : tensor<10000x1x128xf32>  @ reference:77
    StableHlo.nullary main_cst_88 (constant S_ .f32 0x00000000#32),  -- %cst_88 = stablehlo.constant dense<0.000000e+00> : tensor<f32>
    StableHlo.binary main_v429 main_cst_88 main_v430 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %430 = stablehlo.reduce(%429 init: %cst_88) applies stablehlo.add across dimensions = [2] : (tensor<10000x1x128xf32>, tensor<f32>) -> tensor<10000x1xf
    StableHlo.unary main_arg11 main_v431 ((extractStridedSlice S1x1 ![4, 0] · slices_S9x1_S1x1_4_0) : (⟨S9x1, .f32⟩ : BufTy).Contents (Elt F) → (⟨S1x1, .f32⟩ : BufTy).Contents (Elt F)),  -- %431 = stablehlo.slice %arg11 [4:5, 0:1] : (tensor<9x1xf32>) -> tensor<1x1xf32>  @ reference:77
    StableHlo.reshape main_v431 main_v432 rfl shapeCasts_S1x1_S1,  -- %432 = stablehlo.reshape %431 : (tensor<1x1xf32>) -> tensor<1xf32>  @ reference:77
    StableHlo.unary main_v432 main_v433 (broadcastInDim S1x1 ![1] bcast_S1_S1x1_1 : (⟨S1, .f32⟩ : BufTy).Contents (Elt F) → (⟨S1x1, .f32⟩ : BufTy).Contents (Elt F)),  -- %433 = stablehlo.broadcast_in_dim %432, dims = [1] : (tensor<1xf32>) -> tensor<1x1xf32>  @ reference:77
    StableHlo.unary main_v433 main_v434 (broadcastInDim S10000x1 ![0, 1] bcast_S1x1_S10000x1_0_1 : (⟨S1x1, .f32⟩ : BufTy).Contents (Elt F) → (⟨S10000x1, .f32⟩ : BufTy).Contents (Elt F)),  -- %434 = stablehlo.broadcast_in_dim %433, dims = [0, 1] : (tensor<1x1xf32>) -> tensor<10000x1xf32>  @ reference:77
    StableHlo.binary main_v430 main_v434 main_v435 (addf : (⟨S10000x1, .f32⟩ : BufTy).Contents (Elt F) → (⟨S10000x1, .f32⟩ : BufTy).Contents (Elt F) → (⟨S10000x1, .f32⟩ : BufTy).Contents (Elt F)),  -- %435 = stablehlo.add %430, %434 : tensor<10000x1xf32>  @ reference:77
    StableHlo.unary main_v435 main_v436 (broadcastInDim S10000x1x1 ![0, 1] bcast_S10000x1_S10000x1x1_0_1 : (⟨S10000x1, .f32⟩ : BufTy).Contents (Elt F) → (⟨S10000x1x1, .f32⟩ : BufTy).Contents (Elt F)),  -- %436 = stablehlo.broadcast_in_dim %435, dims = [0, 1] : (tensor<10000x1xf32>) -> tensor<10000x1x1xf32>  @ reference:78
    StableHlo.unary main_v436 main_v437 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %437 = stablehlo.broadcast_in_dim %436, dims = [0, 1, 2] : (tensor<10000x1x1xf32>) -> tensor<10000x1x64xf32>  @ reference:78
    StableHlo.binary main_v422 main_v437 main_v438 (mulf : (⟨S10000x1x64, .f32⟩ : BufTy).Contents (Elt F) → (⟨S10000x1x64, .f32⟩ : BufTy).Contents (Elt F) → (⟨S10000x1x64, .f32⟩ : BufTy).Contents (Elt F)),  -- %438 = stablehlo.multiply %422, %437 : tensor<10000x1x64xf32>  @ reference:78
    StableHlo.binary main_v356 main_v438 main_v439 (addf : (⟨S10000x1x64, .f32⟩ : BufTy).Contents (Elt F) → (⟨S10000x1x64, .f32⟩ : BufTy).Contents (Elt F) → (⟨S10000x1x64, .f32⟩ : BufTy).Contents (Elt F)) ]  -- %439 = stablehlo.add %356, %438 : tensor<10000x1x64xf32>  @ reference:78

theorem opsL4_sub : (opsL4 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL4 writes (each operation writes one, its result's), in order. -/
abbrev wL4 : List (Ref sig .tc) :=
  [main_cst_71, main_v357, main_v358, main_c_72, main_v359, main_v360, main_c_73, main_v361, main_v362, main_v363, main_v364, main_v365, main_c_74,
    main_v366, main_v367, main_c_75, main_v368, main_v369, main_v370, main_v371, main_v372, main_v373, main_call14.cst.ref, main_call14.v0.ref,
    main_call14.v1.ref, main_call14.cst_0.ref, main_call14.v2.ref, main_call14.v3.ref, main_call14.cst_1.ref, main_call14.call0.v0.ref,
    main_call14.call0.v1.ref, main_call14.call0.v2.ref, main_call14.v5.ref, main_call14.cst_2.ref, main_call14.v6.ref, main_call14.v7.ref,
    main_call14.call1.v0.ref, main_v375, main_v376, main_v377, main_v378, main_v379, main_cst_76, main_v380, main_call15.cst.ref, main_call15.v0.ref,
    main_call15.v1.ref, main_call15.v2.ref, main_call15.v3.ref, main_call15.v4.ref, main_call15.v5.ref, main_call15.v6.ref, main_call15.v7.ref,
    main_call15.v8.ref, main_call15.v9.ref, main_call15.v10.ref, main_call15.v11.ref, main_call15.v12.ref, main_cst_77, main_v382, main_v383,
    main_cst_78, main_v384, main_v385, main_v386, main_cst_79, main_v387, main_v388, main_cst_80, main_v389, main_v390, main_c_81, main_v391,
    main_v392, main_c_82, main_v393, main_v394, main_v395, main_v396, main_v397, main_v398, main_c_83, main_v399, main_v400, main_c_84, main_v401,
    main_v402, main_v403, main_v404, main_v405, main_v406, main_v407, main_c_85, main_v408, main_v409, main_c_86, main_v410, main_v411, main_v412,
    main_v413, main_v414, main_v415, main_v416, main_v417, main_cst_87, main_v418, main_v419, main_v420, main_v421, main_v422, main_v423, main_v424,
    main_v425, main_call16.cst.ref, main_call16.v0.ref, main_call16.v1.ref, main_call16.cst_0.ref, main_call16.v2.ref, main_call16.v3.ref,
    main_call16.cst_1.ref, main_call16.call0.v0.ref, main_call16.call0.v1.ref, main_call16.call0.v2.ref, main_call16.v5.ref, main_call16.cst_2.ref,
    main_call16.v6.ref, main_call16.v7.ref, main_call16.call1.v0.ref, main_v427, main_v428, main_v429, main_cst_88, main_v430, main_v431, main_v432,
    main_v433, main_v434, main_v435, main_v436, main_v437, main_v438, main_v439]
theorem opsL4_writes : (opsL4 : List (HloOp τ sig (Elt F))).Forall fun op =>
    op.writes ⊆ (wL4.map (Proc.devRef (τ := τ) .tc)).toFinset := by
  simp only [opsL4, List.Forall, nullary_writes, unary_writes, binary_writes, ternary_writes, reshape_writes]
  repeat' apply And.intro
  all_goals exact Finset.singleton_subset_iff.mpr (List.mem_toFinset.mpr (List.mem_map_of_mem (by decide)))
/-- opsL4 keeps every buffer it does not write. -/
theorem opsL4_kept (V : Valuation τ sig (Elt F)) (r : Ref sig .tc) (hr : r ∉ wL4) :
    after opsL4 V (Proc.devRef .tc r) = V (Proc.devRef .tc r) :=
  after_of_writes_sub opsL4 V opsL4_writes hr

end Cert.ReferenceIdeal.RefRun

end
-- ==== Proof.RefRun.L5.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 5: the state scaled, gathered along the edges, weighted, scattered back and added in. -/
abbrev opsL5 : List (HloOp τ sig (Elt F)) :=
  [ StableHlo.nullary main_cst_89 (constant S_ .f32 0x3E1DD9E7#32),  -- %cst_89 = stablehlo.constant dense<0.154151544> : tensor<f32>
    StableHlo.unary main_cst_89 main_v440 (broadcastInDim S10000x1x64 ![] bcast_S_S10000x1x64 : (⟨S_, .f32⟩ : BufTy).Contents (Elt F) → (⟨S10000x1x64, .f32⟩ : BufTy).Contents (Elt F)),  -- %440 = stablehlo.broadcast_in_dim %cst_89, dims = [] : (tensor<f32>) -> tensor<10000x1x64xf32>  @ reference:59
    StableHlo.binary main_v439 main_v440 main_v441 (mulf : (⟨S10000x1x64, .f32⟩ : BufTy).Contents (Elt F) → (⟨S10000x1x64, .f32⟩ : BufTy).Contents (Elt F) → (⟨S10000x1x64, .f32⟩ : BufTy).Contents (Elt F)),  -- %441 = stablehlo.multiply %439, %440 : tensor<10000x1x64xf32>  @ reference:59
    StableHlo.nullary main_c_90 (constantI S_ 32 0#32),  -- %c_90 = stablehlo.constant dense<0> : tensor<i32>
    StableHlo.unary main_c_90 main_v442 (broadcastInDim S320000 ![] bcast_S_S320000 : (⟨S_, .i32⟩ : BufTy).Contents (Elt F) → (⟨S320000, .i32⟩ : BufTy).Contents (Elt F)),  -- %442 = stablehlo.broadcast_in_dim %c_90, dims = [] : (tensor<i32>) -> tensor<320000xi32>  @ reference:62
    StableHlo.binary main_v1 main_v442 main_v443 (cmpi .slt : (⟨S320000, .i32⟩ : BufTy).Contents (Elt F) → (⟨S320000, .i32⟩ : BufTy).Contents (Elt F) → (⟨S320000, .i1⟩ : BufTy).Contents (Elt F)),  -- %443 = stablehlo.compare LT, %1, %442, SIGNED : (tensor<320000xi32>, tensor<320000xi32>) -> tensor<320000xi1>  @ reference:62
    StableHlo.nullary main_c_91 (constantI S_ 32 10000#32),  -- %c_91 = stablehlo.constant dense<10000> : tensor<i32>
    StableHlo.unary main_c_91 main_v444 (broadcastInDim S320000 ![] bcast_S_S320000 : (⟨S_, .i32⟩ : BufTy).Contents (Elt F) → (⟨S320000, .i32⟩ : BufTy).Contents (Elt F)),  -- %444 = stablehlo.broadcast_in_dim %c_91, dims = [] : (tensor<i32>) -> tensor<320000xi32>  @ reference:62
    StableHlo.binary main_v1 main_v444 main_v445 (addi : (⟨S320000, .i32⟩ : BufTy).Contents (Elt F) → (⟨S320000, .i32⟩ : BufTy).Contents (Elt F) → (⟨S320000, .i32⟩ : BufTy).Contents (Elt F)),  -- %445 = stablehlo.add %1, %444 : tensor<320000xi32>  @ reference:62
    StableHlo.ternary main_v443 main_v445 main_v1 main_v446 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %446 = stablehlo.select %443, %445, %1 : tensor<320000xi1>, tensor<320000xi32>  @ reference:62
    StableHlo.unary main_v446 main_v447 (broadcastInDim S320000x1 ![0] bcast_S320000_S320000x1_0 : (⟨S320000, .i32⟩ : BufTy).Contents (Elt F) → (⟨S320000x1, .i32⟩ : BufTy).Contents (Elt F)),  -- %447 = stablehlo.broadcast_in_dim %446, dims = [0] : (tensor<320000xi32>) -> tensor<320000x1xi32>  @ reference:62
    StableHlo.binary main_v441 main_v447 main_v448 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %448 = "stablehlo.gather"(%441, %447) <{dimension_numbers = #stablehlo.gather<offset_dims = [1, 2], collapsed_slice_dims = [0], start_index_map = [0],
    StableHlo.nullary main_c_92 (constantI S_ 32 0#32),  -- %c_92 = stablehlo.constant dense<0> : tensor<i32>
    StableHlo.unary main_c_92 main_v449 (broadcastInDim S320000 ![] bcast_S_S320000 : (⟨S_, .i32⟩ : BufTy).Contents (Elt F) → (⟨S320000, .i32⟩ : BufTy).Contents (Elt F)),  -- %449 = stablehlo.broadcast_in_dim %c_92, dims = [] : (tensor<i32>) -> tensor<320000xi32>  @ reference:62
    StableHlo.binary main_v3 main_v449 main_v450 (cmpi .slt : (⟨S320000, .i32⟩ : BufTy).Contents (Elt F) → (⟨S320000, .i32⟩ : BufTy).Contents (Elt F) → (⟨S320000, .i1⟩ : BufTy).Contents (Elt F)),  -- %450 = stablehlo.compare LT, %3, %449, SIGNED : (tensor<320000xi32>, tensor<320000xi32>) -> tensor<320000xi1>  @ reference:62
    StableHlo.nullary main_c_93 (constantI S_ 32 10000#32),  -- %c_93 = stablehlo.constant dense<10000> : tensor<i32>
    StableHlo.unary main_c_93 main_v451 (broadcastInDim S320000 ![] bcast_S_S320000 : (⟨S_, .i32⟩ : BufTy).Contents (Elt F) → (⟨S320000, .i32⟩ : BufTy).Contents (Elt F)),  -- %451 = stablehlo.broadcast_in_dim %c_93, dims = [] : (tensor<i32>) -> tensor<320000xi32>  @ reference:62
    StableHlo.binary main_v3 main_v451 main_v452 (addi : (⟨S320000, .i32⟩ : BufTy).Contents (Elt F) → (⟨S320000, .i32⟩ : BufTy).Contents (Elt F) → (⟨S320000, .i32⟩ : BufTy).Contents (Elt F)),  -- %452 = stablehlo.add %3, %451 : tensor<320000xi32>  @ reference:62
    StableHlo.ternary main_v450 main_v452 main_v3 main_v453 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %453 = stablehlo.select %450, %452, %3 : tensor<320000xi1>, tensor<320000xi32>  @ reference:62
    StableHlo.unary main_v453 main_v454 (broadcastInDim S320000x1 ![0] bcast_S320000_S320000x1_0 : (⟨S320000, .i32⟩ : BufTy).Contents (Elt F) → (⟨S320000x1, .i32⟩ : BufTy).Contents (Elt F)),  -- %454 = stablehlo.broadcast_in_dim %453, dims = [0] : (tensor<320000xi32>) -> tensor<320000x1xi32>  @ reference:62
    StableHlo.binary main_v441 main_v454 main_v455 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %455 = "stablehlo.gather"(%441, %454) <{dimension_numbers = #stablehlo.gather<offset_dims = [1, 2], collapsed_slice_dims = [0], start_index_map = [0],
    StableHlo.binary main_v448 main_v455 main_v456 (addf : (⟨S320000x1x64, .f32⟩ : BufTy).Contents (Elt F) → (⟨S320000x1x64, .f32⟩ : BufTy).Contents (Elt F) → (⟨S320000x1x64, .f32⟩ : BufTy).Contents (Elt F)),  -- %456 = stablehlo.add %448, %455 : tensor<320000x1x64xf32>  @ reference:62
    StableHlo.TRef.nullary main_call17.cst (constant S_ .f32 0x00000000#32),  -- @elu_4 in %457 = func.call @elu_4(%456): %cst = stablehlo.constant dense<0.000000e+00> : tensor<f32>
    StableHlo.TRef.unary main_call17.cst main_call17.v0 (broadcastInDim S320000x1x64 ![] bcast_S_S320000x1x64),  -- @elu_4 in %457 = func.call @elu_4(%456): %0 = stablehlo.broadcast_in_dim %cst, dims = [] : (tensor<f32>) -> tensor<320000x1x64xf32>
    StableHlo.TRef.binary (StableHlo.TRef.of (T := ⟨S320000x1x64, .f32⟩) main_v456) main_call17.v0 main_call17.v1 (cmpf .ogt),  -- @elu_4 in %457 = func.call @elu_4(%456): %1 = stablehlo.compare GT, %arg0, %0, FLOAT : (tensor<320000x1x64xf32>, tensor<320000x1x64xf32>) -> tensor<32
    StableHlo.TRef.nullary main_call17.cst_0 (constant S_ .f32 0x00000000#32),  -- @elu_4 in %457 = func.call @elu_4(%456): %cst_0 = stablehlo.constant dense<0.000000e+00> : tensor<f32>
    StableHlo.TRef.unary main_call17.cst_0 main_call17.v2 (broadcastInDim S320000x1x64 ![] bcast_S_S320000x1x64),  -- @elu_4 in %457 = func.call @elu_4(%456): %2 = stablehlo.broadcast_in_dim %cst_0, dims = [] : (tensor<f32>) -> tensor<320000x1x64xf32>
    StableHlo.TRef.binary (StableHlo.TRef.of (T := ⟨S320000x1x64, .f32⟩) main_v456) main_call17.v2 main_call17.v3 (cmpf .ogt),  -- @elu_4 in %457 = func.call @elu_4(%456): %3 = stablehlo.compare GT, %arg0, %2, FLOAT : (tensor<320000x1x64xf32>, tensor<320000x1x64xf32>) -> tensor<32
    StableHlo.TRef.nullary main_call17.cst_1 (constant S_ .f32 0x00000000#32),  -- @elu_4 in %457 = func.call @elu_4(%456): %cst_1 = stablehlo.constant dense<0.000000e+00> : tensor<f32>
    StableHlo.TRef.unary main_call17.cst_1 main_call17.call0.v0 id,  -- @where_5 in %457 = func.call @elu_4(%456): %0 = stablehlo.convert %arg1 : tensor<f32>
    StableHlo.TRef.unary main_call17.call0.v0 main_call17.call0.v1 (broadcastInDim S320000x1x64 ![] bcast_S_S320000x1x64),  -- @where_5 in %457 = func.call @elu_4(%456): %1 = stablehlo.broadcast_in_dim %0, dims = [] : (tensor<f32>) -> tensor<320000x1x64xf32>
    StableHlo.TRef.ternary main_call17.v3 main_call17.call0.v1 (StableHlo.TRef.of (T := ⟨S320000x1x64, .f32⟩) main_v456) main_call17.call0.v2 select,  -- @where_5 in %457 = func.call @elu_4(%456): %2 = stablehlo.select %arg0, %1, %arg2 : tensor<320000x1x64xi1>, tensor<320000x1x64xf32>
    StableHlo.TRef.unary main_call17.call0.v2 main_call17.v5 Host.expm1,  -- @elu_4 in %457 = func.call @elu_4(%456): %5 = stablehlo.exponential_minus_one %4 : tensor<320000x1x64xf32>
    StableHlo.TRef.nullary main_call17.cst_2 (constant S_ .f32 0x3F800000#32),  -- @elu_4 in %457 = func.call @elu_4(%456): %cst_2 = stablehlo.constant dense<1.000000e+00> : tensor<f32>
    StableHlo.TRef.unary main_call17.cst_2 main_call17.v6 (broadcastInDim S320000x1x64 ![] bcast_S_S320000x1x64),  -- @elu_4 in %457 = func.call @elu_4(%456): %6 = stablehlo.broadcast_in_dim %cst_2, dims = [] : (tensor<f32>) -> tensor<320000x1x64xf32>
    StableHlo.TRef.binary main_call17.v6 main_call17.v5 main_call17.v7 mulf,  -- @elu_4 in %457 = func.call @elu_4(%456): %7 = stablehlo.multiply %6, %5 : tensor<320000x1x64xf32>
    StableHlo.TRef.ternary main_call17.v1 (StableHlo.TRef.of (T := ⟨S320000x1x64, .f32⟩) main_v456) main_call17.v7 main_call17.call1.v0 select,  -- @where_6 in %457 = func.call @elu_4(%456): %0 = stablehlo.select %arg0, %arg1, %arg2 : tensor<320000x1x64xi1>, tensor<320000x1x64xf32>
    StableHlo.unary main_arg7 main_v458 ((extractStridedSlice S1x1x64 ![5, 0, 0] · slices_S9x1x64_S1x1x64_5_0_0) : (⟨S9x1x64, .f32⟩ : BufTy).Contents (Elt F) → (⟨S1x1x64, .f32⟩ : BufTy).Contents (Elt F)),  -- %458 = stablehlo.slice %arg7 [5:6, 0:1, 0:64] : (tensor<9x1x64xf32>) -> tensor<1x1x64xf32>  @ reference:63
    StableHlo.reshape main_v458 main_v459 rfl shapeCasts_S1x1x64_S1x64,  -- %459 = stablehlo.reshape %458 : (tensor<1x1x64xf32>) -> tensor<1x64xf32>  @ reference:63
    StableHlo.unary main_v459 main_v460 (broadcastInDim S1x1x64 ![1, 2] bcast_S1x64_S1x1x64_1_2 : (⟨S1x64, .f32⟩ : BufTy).Contents (Elt F) → (⟨S1x1x64, .f32⟩ : BufTy).Contents (Elt F)),  -- %460 = stablehlo.broadcast_in_dim %459, dims = [1, 2] : (tensor<1x64xf32>) -> tensor<1x1x64xf32>  @ reference:63
    StableHlo.unary main_v460 main_v461 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %461 = stablehlo.broadcast_in_dim %460, dims = [0, 1, 2] : (tensor<1x1x64xf32>) -> tensor<320000x1x64xf32>  @ reference:63
    StableHlo.binary main_v461 main_v457 main_v462 (mulf : (⟨S320000x1x64, .f32⟩ : BufTy).Contents (Elt F) → (⟨S320000x1x64, .f32⟩ : BufTy).Contents (Elt F) → (⟨S320000x1x64, .f32⟩ : BufTy).Contents (Elt F)),  -- %462 = stablehlo.multiply %461, %457 : tensor<320000x1x64xf32>  @ reference:63
    StableHlo.nullary main_cst_94 (constant S_ .f32 0x00000000#32),  -- %cst_94 = stablehlo.constant dense<0.000000e+00> : tensor<f32>
    StableHlo.binary main_v462 main_cst_94 main_v463 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %463 = stablehlo.reduce(%462 init: %cst_94) applies stablehlo.add across dimensions = [2] : (tensor<320000x1x64xf32>, tensor<f32>) -> tensor<320000x1x
    StableHlo.TRef.nullary main_call18.cst (constant S_ .f32 0x00000000#32),  -- @softplus in %464 = func.call @softplus(%463): %cst = stablehlo.constant dense<0.000000e+00> : tensor<f32>
    StableHlo.TRef.unary main_call18.cst main_call18.v0 (broadcastInDim S320000x1 ![] bcast_S_S320000x1),  -- @softplus in %464 = func.call @softplus(%463): %0 = stablehlo.broadcast_in_dim %cst, dims = [] : (tensor<f32>) -> tensor<320000x1xf32>
    StableHlo.TRef.binary (StableHlo.TRef.of (T := ⟨S320000x1, .f32⟩) main_v463) main_call18.v0 main_call18.v1 maximumf,  -- @softplus in %464 = func.call @softplus(%463): %1 = stablehlo.maximum %arg0, %0 : tensor<320000x1xf32>
    StableHlo.TRef.unary main_call18.cst main_call18.v2 (broadcastInDim S320000x1 ![] bcast_S_S320000x1),  -- @softplus in %464 = func.call @softplus(%463): %2 = stablehlo.broadcast_in_dim %cst, dims = [] : (tensor<f32>) -> tensor<320000x1xf32>
    StableHlo.TRef.binary (StableHlo.TRef.of (T := ⟨S320000x1, .f32⟩) main_v463) main_call18.v2 main_call18.v3 subf,  -- @softplus in %464 = func.call @softplus(%463): %3 = stablehlo.subtract %arg0, %2 : tensor<320000x1xf32>
    StableHlo.TRef.binary main_call18.v3 main_call18.v3 main_call18.v4 (cmpf .une),  -- @softplus in %464 = func.call @softplus(%463): %4 = stablehlo.compare NE, %3, %3, FLOAT : (tensor<320000x1xf32>, tensor<320000x1xf32>) -> tensor<32000
    StableHlo.TRef.unary main_call18.cst main_call18.v5 (broadcastInDim S320000x1 ![] bcast_S_S320000x1),  -- @softplus in %464 = func.call @softplus(%463): %5 = stablehlo.broadcast_in_dim %cst, dims = [] : (tensor<f32>) -> tensor<320000x1xf32>
    StableHlo.TRef.binary (StableHlo.TRef.of (T := ⟨S320000x1, .f32⟩) main_v463) main_call18.v5 main_call18.v6 addf,  -- @softplus in %464 = func.call @softplus(%463): %6 = stablehlo.add %arg0, %5 : tensor<320000x1xf32>
    StableHlo.TRef.unary main_call18.v3 main_call18.v7 Host.absf,  -- @softplus in %464 = func.call @softplus(%463): %7 = stablehlo.abs %3 : tensor<320000x1xf32>
    StableHlo.TRef.unary main_call18.v7 main_call18.v8 Host.negf,  -- @softplus in %464 = func.call @softplus(%463): %8 = stablehlo.negate %7 : tensor<320000x1xf32>
    StableHlo.TRef.unary main_call18.v8 main_call18.v9 Host.exp,  -- @softplus in %464 = func.call @softplus(%463): %9 = stablehlo.exponential %8 : tensor<320000x1xf32>
    StableHlo.TRef.unary main_call18.v9 main_call18.v10 Host.log1p,  -- @softplus in %464 = func.call @softplus(%463): %10 = stablehlo.log_plus_one %9 : tensor<320000x1xf32>
    StableHlo.TRef.binary main_call18.v1 main_call18.v10 main_call18.v11 addf,  -- @softplus in %464 = func.call @softplus(%463): %11 = stablehlo.add %1, %10 : tensor<320000x1xf32>
    StableHlo.TRef.ternary main_call18.v4 main_call18.v6 main_call18.v11 main_call18.v12 select,  -- @softplus in %464 = func.call @softplus(%463): %12 = stablehlo.select %4, %6, %11 : tensor<320000x1xi1>, tensor<320000x1xf32>
    StableHlo.nullary main_cst_95 (constant S_ .f32 0x358637BD#32),  -- %cst_95 = stablehlo.constant dense<9.99999997E-7> : tensor<f32>
    StableHlo.unary main_cst_95 main_v465 (broadcastInDim S320000x1 ![] bcast_S_S320000x1 : (⟨S_, .f32⟩ : BufTy).Contents (Elt F) → (⟨S320000x1, .f32⟩ : BufTy).Contents (Elt F)),  -- %465 = stablehlo.broadcast_in_dim %cst_95, dims = [] : (tensor<f32>) -> tensor<320000x1xf32>  @ reference:63
    StableHlo.binary main_v464 main_v465 main_v466 (addf : (⟨S320000x1, .f32⟩ : BufTy).Contents (Elt F) → (⟨S320000x1, .f32⟩ : BufTy).Contents (Elt F) → (⟨S320000x1, .f32⟩ : BufTy).Contents (Elt F)),  -- %466 = stablehlo.add %464, %465 : tensor<320000x1xf32>  @ reference:63
    StableHlo.nullary main_cst_96 (constant S_ .f32 0x00000000#32),  -- %cst_96 = stablehlo.constant dense<0.000000e+00> : tensor<f32>
    StableHlo.unary main_cst_96 main_v467 (broadcastInDim S10000x1 ![] bcast_S_S10000x1 : (⟨S_, .f32⟩ : BufTy).Contents (Elt F) → (⟨S10000x1, .f32⟩ : BufTy).Contents (Elt F)),  -- %467 = stablehlo.broadcast_in_dim %cst_96, dims = [] : (tensor<f32>) -> tensor<10000x1xf32>  @ reference:66
    StableHlo.unary main_v3 main_v468 (broadcastInDim S320000x1 ![0] bcast_S320000_S320000x1_0 : (⟨S320000, .i32⟩ : BufTy).Contents (Elt F) → (⟨S320000x1, .i32⟩ : BufTy).Contents (Elt F)),  -- %468 = stablehlo.broadcast_in_dim %3, dims = [0] : (tensor<320000xi32>) -> tensor<320000x1xi32>  @ reference:66
    StableHlo.ternary main_v467 main_v468 main_v466 main_v469 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %469 = "stablehlo.scatter"(%467, %468, %466) <{indices_are_sorted = false, scatter_dimension_numbers = #stablehlo.scatter<update_window_dims = [1], in
    StableHlo.nullary main_cst_97 (constant S_ .f32 0x0A4FB11F#32),  -- %cst_97 = stablehlo.constant dense<1.000000e-32> : tensor<f32>
    StableHlo.unary main_cst_97 main_v470 (broadcastInDim S10000x1 ![] bcast_S_S10000x1 : (⟨S_, .f32⟩ : BufTy).Contents (Elt F) → (⟨S10000x1, .f32⟩ : BufTy).Contents (Elt F)),  -- %470 = stablehlo.broadcast_in_dim %cst_97, dims = [] : (tensor<f32>) -> tensor<10000x1xf32>  @ reference:67
    StableHlo.binary main_v469 main_v470 main_v471 (maximumf : (⟨S10000x1, .f32⟩ : BufTy).Contents (Elt F) → (⟨S10000x1, .f32⟩ : BufTy).Contents (Elt F) → (⟨S10000x1, .f32⟩ : BufTy).Contents (Elt F)),  -- %471 = stablehlo.maximum %469, %470 : tensor<10000x1xf32>  @ reference:67
    StableHlo.nullary main_cst_98 (constant S_ .f32 0xBF000000#32),  -- %cst_98 = stablehlo.constant dense<-5.000000e-01> : tensor<f32>
    StableHlo.unary main_cst_98 main_v472 (broadcastInDim S10000x1 ![] bcast_S_S10000x1 : (⟨S_, .f32⟩ : BufTy).Contents (Elt F) → (⟨S10000x1, .f32⟩ : BufTy).Contents (Elt F)),  -- %472 = stablehlo.broadcast_in_dim %cst_98, dims = [] : (tensor<f32>) -> tensor<10000x1xf32>  @ reference:67
    StableHlo.binary main_v471 main_v472 main_v473 (Host.powf : (⟨S10000x1, .f32⟩ : BufTy).Contents (Elt F) → (⟨S10000x1, .f32⟩ : BufTy).Contents (Elt F) → (⟨S10000x1, .f32⟩ : BufTy).Contents (Elt F)),  -- %473 = stablehlo.power %471, %472 : tensor<10000x1xf32>  @ reference:67
    StableHlo.nullary main_c_99 (constantI S_ 32 0#32),  -- %c_99 = stablehlo.constant dense<0> : tensor<i32>
    StableHlo.unary main_c_99 main_v474 (broadcastInDim S320000 ![] bcast_S_S320000 : (⟨S_, .i32⟩ : BufTy).Contents (Elt F) → (⟨S320000, .i32⟩ : BufTy).Contents (Elt F)),  -- %474 = stablehlo.broadcast_in_dim %c_99, dims = [] : (tensor<i32>) -> tensor<320000xi32>  @ reference:68
    StableHlo.binary main_v1 main_v474 main_v475 (cmpi .slt : (⟨S320000, .i32⟩ : BufTy).Contents (Elt F) → (⟨S320000, .i32⟩ : BufTy).Contents (Elt F) → (⟨S320000, .i1⟩ : BufTy).Contents (Elt F)),  -- %475 = stablehlo.compare LT, %1, %474, SIGNED : (tensor<320000xi32>, tensor<320000xi32>) -> tensor<320000xi1>  @ reference:68
    StableHlo.nullary main_c_100 (constantI S_ 32 10000#32),  -- %c_100 = stablehlo.constant dense<10000> : tensor<i32>
    StableHlo.unary main_c_100 main_v476 (broadcastInDim S320000 ![] bcast_S_S320000 : (⟨S_, .i32⟩ : BufTy).Contents (Elt F) → (⟨S320000, .i32⟩ : BufTy).Contents (Elt F)),  -- %476 = stablehlo.broadcast_in_dim %c_100, dims = [] : (tensor<i32>) -> tensor<320000xi32>  @ reference:68
    StableHlo.binary main_v1 main_v476 main_v477 (addi : (⟨S320000, .i32⟩ : BufTy).Contents (Elt F) → (⟨S320000, .i32⟩ : BufTy).Contents (Elt F) → (⟨S320000, .i32⟩ : BufTy).Contents (Elt F)),  -- %477 = stablehlo.add %1, %476 : tensor<320000xi32>  @ reference:68
    StableHlo.ternary main_v475 main_v477 main_v1 main_v478 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %478 = stablehlo.select %475, %477, %1 : tensor<320000xi1>, tensor<320000xi32>  @ reference:68
    StableHlo.unary main_v478 main_v479 (broadcastInDim S320000x1 ![0] bcast_S320000_S320000x1_0 : (⟨S320000, .i32⟩ : BufTy).Contents (Elt F) → (⟨S320000x1, .i32⟩ : BufTy).Contents (Elt F)),  -- %479 = stablehlo.broadcast_in_dim %478, dims = [0] : (tensor<320000xi32>) -> tensor<320000x1xi32>  @ reference:68
    StableHlo.binary main_v473 main_v479 main_v480 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %480 = "stablehlo.gather"(%473, %479) <{dimension_numbers = #stablehlo.gather<offset_dims = [1], collapsed_slice_dims = [0], start_index_map = [0], in
    StableHlo.binary main_v480 main_v466 main_v481 (mulf : (⟨S320000x1, .f32⟩ : BufTy).Contents (Elt F) → (⟨S320000x1, .f32⟩ : BufTy).Contents (Elt F) → (⟨S320000x1, .f32⟩ : BufTy).Contents (Elt F)),  -- %481 = stablehlo.multiply %480, %466 : tensor<320000x1xf32>  @ reference:68
    StableHlo.nullary main_c_101 (constantI S_ 32 0#32),  -- %c_101 = stablehlo.constant dense<0> : tensor<i32>
    StableHlo.unary main_c_101 main_v482 (broadcastInDim S320000 ![] bcast_S_S320000 : (⟨S_, .i32⟩ : BufTy).Contents (Elt F) → (⟨S320000, .i32⟩ : BufTy).Contents (Elt F)),  -- %482 = stablehlo.broadcast_in_dim %c_101, dims = [] : (tensor<i32>) -> tensor<320000xi32>  @ reference:68
    StableHlo.binary main_v3 main_v482 main_v483 (cmpi .slt : (⟨S320000, .i32⟩ : BufTy).Contents (Elt F) → (⟨S320000, .i32⟩ : BufTy).Contents (Elt F) → (⟨S320000, .i1⟩ : BufTy).Contents (Elt F)),  -- %483 = stablehlo.compare LT, %3, %482, SIGNED : (tensor<320000xi32>, tensor<320000xi32>) -> tensor<320000xi1>  @ reference:68
    StableHlo.nullary main_c_102 (constantI S_ 32 10000#32),  -- %c_102 = stablehlo.constant dense<10000> : tensor<i32>
    StableHlo.unary main_c_102 main_v484 (broadcastInDim S320000 ![] bcast_S_S320000 : (⟨S_, .i32⟩ : BufTy).Contents (Elt F) → (⟨S320000, .i32⟩ : BufTy).Contents (Elt F)),  -- %484 = stablehlo.broadcast_in_dim %c_102, dims = [] : (tensor<i32>) -> tensor<320000xi32>  @ reference:68
    StableHlo.binary main_v3 main_v484 main_v485 (addi : (⟨S320000, .i32⟩ : BufTy).Contents (Elt F) → (⟨S320000, .i32⟩ : BufTy).Contents (Elt F) → (⟨S320000, .i32⟩ : BufTy).Contents (Elt F)),  -- %485 = stablehlo.add %3, %484 : tensor<320000xi32>  @ reference:68
    StableHlo.ternary main_v483 main_v485 main_v3 main_v486 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %486 = stablehlo.select %483, %485, %3 : tensor<320000xi1>, tensor<320000xi32>  @ reference:68
    StableHlo.unary main_v486 main_v487 (broadcastInDim S320000x1 ![0] bcast_S320000_S320000x1_0 : (⟨S320000, .i32⟩ : BufTy).Contents (Elt F) → (⟨S320000x1, .i32⟩ : BufTy).Contents (Elt F)),  -- %487 = stablehlo.broadcast_in_dim %486, dims = [0] : (tensor<320000xi32>) -> tensor<320000x1xi32>  @ reference:68
    StableHlo.binary main_v473 main_v487 main_v488 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %488 = "stablehlo.gather"(%473, %487) <{dimension_numbers = #stablehlo.gather<offset_dims = [1], collapsed_slice_dims = [0], start_index_map = [0], in
    StableHlo.binary main_v481 main_v488 main_v489 (mulf : (⟨S320000x1, .f32⟩ : BufTy).Contents (Elt F) → (⟨S320000x1, .f32⟩ : BufTy).Contents (Elt F) → (⟨S320000x1, .f32⟩ : BufTy).Contents (Elt F)),  -- %489 = stablehlo.multiply %481, %488 : tensor<320000x1xf32>  @ reference:68
    StableHlo.unary main_v489 main_v490 (broadcastInDim S320000x1x1 ![0, 1] bcast_S320000x1_S320000x1x1_0_1 : (⟨S320000x1, .f32⟩ : BufTy).Contents (Elt F) → (⟨S320000x1x1, .f32⟩ : BufTy).Contents (Elt F)),  -- %490 = stablehlo.broadcast_in_dim %489, dims = [0, 1] : (tensor<320000x1xf32>) -> tensor<320000x1x1xf32>  @ reference:68
    StableHlo.nullary main_c_103 (constantI S_ 32 0#32),  -- %c_103 = stablehlo.constant dense<0> : tensor<i32>
    StableHlo.unary main_c_103 main_v491 (broadcastInDim S320000 ![] bcast_S_S320000 : (⟨S_, .i32⟩ : BufTy).Contents (Elt F) → (⟨S320000, .i32⟩ : BufTy).Contents (Elt F)),  -- %491 = stablehlo.broadcast_in_dim %c_103, dims = [] : (tensor<i32>) -> tensor<320000xi32>  @ reference:71
    StableHlo.binary main_v1 main_v491 main_v492 (cmpi .slt : (⟨S320000, .i32⟩ : BufTy).Contents (Elt F) → (⟨S320000, .i32⟩ : BufTy).Contents (Elt F) → (⟨S320000, .i1⟩ : BufTy).Contents (Elt F)),  -- %492 = stablehlo.compare LT, %1, %491, SIGNED : (tensor<320000xi32>, tensor<320000xi32>) -> tensor<320000xi1>  @ reference:71
    StableHlo.nullary main_c_104 (constantI S_ 32 10000#32),  -- %c_104 = stablehlo.constant dense<10000> : tensor<i32>
    StableHlo.unary main_c_104 main_v493 (broadcastInDim S320000 ![] bcast_S_S320000 : (⟨S_, .i32⟩ : BufTy).Contents (Elt F) → (⟨S320000, .i32⟩ : BufTy).Contents (Elt F)),  -- %493 = stablehlo.broadcast_in_dim %c_104, dims = [] : (tensor<i32>) -> tensor<320000xi32>  @ reference:71
    StableHlo.binary main_v1 main_v493 main_v494 (addi : (⟨S320000, .i32⟩ : BufTy).Contents (Elt F) → (⟨S320000, .i32⟩ : BufTy).Contents (Elt F) → (⟨S320000, .i32⟩ : BufTy).Contents (Elt F)),  -- %494 = stablehlo.add %1, %493 : tensor<320000xi32>  @ reference:71
    StableHlo.ternary main_v492 main_v494 main_v1 main_v495 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %495 = stablehlo.select %492, %494, %1 : tensor<320000xi1>, tensor<320000xi32>  @ reference:71
    StableHlo.unary main_v495 main_v496 (broadcastInDim S320000x1 ![0] bcast_S320000_S320000x1_0 : (⟨S320000, .i32⟩ : BufTy).Contents (Elt F) → (⟨S320000x1, .i32⟩ : BufTy).Contents (Elt F)),  -- %496 = stablehlo.broadcast_in_dim %495, dims = [0] : (tensor<320000xi32>) -> tensor<320000x1xi32>  @ reference:71
    StableHlo.binary main_v421 main_v496 main_v497 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %497 = "stablehlo.gather"(%421, %496) <{dimension_numbers = #stablehlo.gather<offset_dims = [1], collapsed_slice_dims = [0], start_index_map = [0], in
    StableHlo.reshape main_v497 main_v498 rfl shapeCasts_S320000x64_S320000x1x64,  -- %498 = stablehlo.reshape %497 : (tensor<320000x64xf32>) -> tensor<320000x1x64xf32>  @ reference:71
    StableHlo.unary main_v490 main_v499 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %499 = stablehlo.broadcast_in_dim %490, dims = [0, 1, 2] : (tensor<320000x1x1xf32>) -> tensor<320000x1x64xf32>  @ reference:71
    StableHlo.binary main_v498 main_v499 main_v500 (mulf : (⟨S320000x1x64, .f32⟩ : BufTy).Contents (Elt F) → (⟨S320000x1x64, .f32⟩ : BufTy).Contents (Elt F) → (⟨S320000x1x64, .f32⟩ : BufTy).Contents (Elt F)),  -- %500 = stablehlo.multiply %498, %499 : tensor<320000x1x64xf32>  @ reference:71
    StableHlo.nullary main_cst_105 (constant S_ .f32 0x00000000#32),  -- %cst_105 = stablehlo.constant dense<0.000000e+00> : tensor<f32>
    StableHlo.unary main_cst_105 main_v501 (broadcastInDim S10000x1x64 ![] bcast_S_S10000x1x64 : (⟨S_, .f32⟩ : BufTy).Contents (Elt F) → (⟨S10000x1x64, .f32⟩ : BufTy).Contents (Elt F)),  -- %501 = stablehlo.broadcast_in_dim %cst_105, dims = [] : (tensor<f32>) -> tensor<10000x1x64xf32>  @ reference:72
    StableHlo.unary main_v3 main_v502 (broadcastInDim S320000x1 ![0] bcast_S320000_S320000x1_0 : (⟨S320000, .i32⟩ : BufTy).Contents (Elt F) → (⟨S320000x1, .i32⟩ : BufTy).Contents (Elt F)),  -- %502 = stablehlo.broadcast_in_dim %3, dims = [0] : (tensor<320000xi32>) -> tensor<320000x1xi32>  @ reference:72
    StableHlo.ternary main_v501 main_v502 main_v500 main_v503 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %503 = "stablehlo.scatter"(%501, %502, %500) <{indices_are_sorted = false, scatter_dimension_numbers = #stablehlo.scatter<update_window_dims = [1, 2],
    StableHlo.reshape main_v503 main_v504 rfl shapeCasts_S10000x1x64_S10000x64,  -- %504 = stablehlo.reshape %503 : (tensor<10000x1x64xf32>) -> tensor<10000x64xf32>  @ reference:72
    StableHlo.reshape main_v504 main_v505 rfl shapeCasts_S10000x64_S10000x1x64,  -- %505 = stablehlo.reshape %504 : (tensor<10000x64xf32>) -> tensor<10000x1x64xf32>  @ reference:75
    StableHlo.binary main_v505 main_v441 main_v506 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %506 = stablehlo.concatenate %505, %441, dim = 2 : (tensor<10000x1x64xf32>, tensor<10000x1x64xf32>) -> tensor<10000x1x128xf32>  @ reference:76
    StableHlo.unary main_arg10 main_v507 ((extractStridedSlice S1x1x128 ![5, 0, 0] · slices_S9x1x128_S1x1x128_5_0_0) : (⟨S9x1x128, .f32⟩ : BufTy).Contents (Elt F) → (⟨S1x1x128, .f32⟩ : BufTy).Contents (Elt F)),  -- %507 = stablehlo.slice %arg10 [5:6, 0:1, 0:128] : (tensor<9x1x128xf32>) -> tensor<1x1x128xf32>  @ reference:77
    StableHlo.reshape main_v507 main_v508 rfl shapeCasts_S1x1x128_S1x128,  -- %508 = stablehlo.reshape %507 : (tensor<1x1x128xf32>) -> tensor<1x128xf32>  @ reference:77
    StableHlo.TRef.nullary main_call19.cst (constant S_ .f32 0x00000000#32),  -- @elu_7 in %509 = func.call @elu_7(%506): %cst = stablehlo.constant dense<0.000000e+00> : tensor<f32>
    StableHlo.TRef.unary main_call19.cst main_call19.v0 (broadcastInDim S10000x1x128 ![] bcast_S_S10000x1x128),  -- @elu_7 in %509 = func.call @elu_7(%506): %0 = stablehlo.broadcast_in_dim %cst, dims = [] : (tensor<f32>) -> tensor<10000x1x128xf32>
    StableHlo.TRef.binary (StableHlo.TRef.of (T := ⟨S10000x1x128, .f32⟩) main_v506) main_call19.v0 main_call19.v1 (cmpf .ogt),  -- @elu_7 in %509 = func.call @elu_7(%506): %1 = stablehlo.compare GT, %arg0, %0, FLOAT : (tensor<10000x1x128xf32>, tensor<10000x1x128xf32>) -> tensor<10
    StableHlo.TRef.nullary main_call19.cst_0 (constant S_ .f32 0x00000000#32),  -- @elu_7 in %509 = func.call @elu_7(%506): %cst_0 = stablehlo.constant dense<0.000000e+00> : tensor<f32>
    StableHlo.TRef.unary main_call19.cst_0 main_call19.v2 (broadcastInDim S10000x1x128 ![] bcast_S_S10000x1x128),  -- @elu_7 in %509 = func.call @elu_7(%506): %2 = stablehlo.broadcast_in_dim %cst_0, dims = [] : (tensor<f32>) -> tensor<10000x1x128xf32>
    StableHlo.TRef.binary (StableHlo.TRef.of (T := ⟨S10000x1x128, .f32⟩) main_v506) main_call19.v2 main_call19.v3 (cmpf .ogt),  -- @elu_7 in %509 = func.call @elu_7(%506): %3 = stablehlo.compare GT, %arg0, %2, FLOAT : (tensor<10000x1x128xf32>, tensor<10000x1x128xf32>) -> tensor<10
    StableHlo.TRef.nullary main_call19.cst_1 (constant S_ .f32 0x00000000#32),  -- @elu_7 in %509 = func.call @elu_7(%506): %cst_1 = stablehlo.constant dense<0.000000e+00> : tensor<f32>
    StableHlo.TRef.unary main_call19.cst_1 main_call19.call0.v0 id,  -- @where_8 in %509 = func.call @elu_7(%506): %0 = stablehlo.convert %arg1 : tensor<f32>
    StableHlo.TRef.unary main_call19.call0.v0 main_call19.call0.v1 (broadcastInDim S10000x1x128 ![] bcast_S_S10000x1x128),  -- @where_8 in %509 = func.call @elu_7(%506): %1 = stablehlo.broadcast_in_dim %0, dims = [] : (tensor<f32>) -> tensor<10000x1x128xf32>
    StableHlo.TRef.ternary main_call19.v3 main_call19.call0.v1 (StableHlo.TRef.of (T := ⟨S10000x1x128, .f32⟩) main_v506) main_call19.call0.v2 select,  -- @where_8 in %509 = func.call @elu_7(%506): %2 = stablehlo.select %arg0, %1, %arg2 : tensor<10000x1x128xi1>, tensor<10000x1x128xf32>
    StableHlo.TRef.unary main_call19.call0.v2 main_call19.v5 Host.expm1,  -- @elu_7 in %509 = func.call @elu_7(%506): %5 = stablehlo.exponential_minus_one %4 : tensor<10000x1x128xf32>
    StableHlo.TRef.nullary main_call19.cst_2 (constant S_ .f32 0x3F800000#32),  -- @elu_7 in %509 = func.call @elu_7(%506): %cst_2 = stablehlo.constant dense<1.000000e+00> : tensor<f32>
    StableHlo.TRef.unary main_call19.cst_2 main_call19.v6 (broadcastInDim S10000x1x128 ![] bcast_S_S10000x1x128),  -- @elu_7 in %509 = func.call @elu_7(%506): %6 = stablehlo.broadcast_in_dim %cst_2, dims = [] : (tensor<f32>) -> tensor<10000x1x128xf32>
    StableHlo.TRef.binary main_call19.v6 main_call19.v5 main_call19.v7 mulf,  -- @elu_7 in %509 = func.call @elu_7(%506): %7 = stablehlo.multiply %6, %5 : tensor<10000x1x128xf32>
    StableHlo.TRef.ternary main_call19.v1 (StableHlo.TRef.of (T := ⟨S10000x1x128, .f32⟩) main_v506) main_call19.v7 main_call19.call1.v0 select,  -- @where_9 in %509 = func.call @elu_7(%506): %0 = stablehlo.select %arg0, %arg1, %arg2 : tensor<10000x1x128xi1>, tensor<10000x1x128xf32>
    StableHlo.unary main_v508 main_v510 (broadcastInDim S1x1x128 ![1, 2] bcast_S1x128_S1x1x128_1_2 : (⟨S1x128, .f32⟩ : BufTy).Contents (Elt F) → (⟨S1x1x128, .f32⟩ : BufTy).Contents (Elt F)),  -- %510 = stablehlo.broadcast_in_dim %508, dims = [1, 2] : (tensor<1x128xf32>) -> tensor<1x1x128xf32>  @ reference:77
    StableHlo.unary main_v510 main_v511 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %511 = stablehlo.broadcast_in_dim %510, dims = [0, 1, 2] : (tensor<1x1x128xf32>) -> tensor<10000x1x128xf32>  @ reference:77
    StableHlo.binary main_v511 main_v509 main_v512 (mulf : (⟨S10000x1x128, .f32⟩ : BufTy).Contents (Elt F) → (⟨S10000x1x128, .f32⟩ : BufTy).Contents (Elt F) → (⟨S10000x1x128, .f32⟩ : BufTy).Contents (Elt F)),  -- %512 = stablehlo.multiply %511, %509 : tensor<10000x1x128xf32>  @ reference:77
    StableHlo.nullary main_cst_106 (constant S_ .f32 0x00000000#32),  -- %cst_106 = stablehlo.constant dense<0.000000e+00> : tensor<f32>
    StableHlo.binary main_v512 main_cst_106 main_v513 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %513 = stablehlo.reduce(%512 init: %cst_106) applies stablehlo.add across dimensions = [2] : (tensor<10000x1x128xf32>, tensor<f32>) -> tensor<10000x1x
    StableHlo.unary main_arg11 main_v514 ((extractStridedSlice S1x1 ![5, 0] · slices_S9x1_S1x1_5_0) : (⟨S9x1, .f32⟩ : BufTy).Contents (Elt F) → (⟨S1x1, .f32⟩ : BufTy).Contents (Elt F)),  -- %514 = stablehlo.slice %arg11 [5:6, 0:1] : (tensor<9x1xf32>) -> tensor<1x1xf32>  @ reference:77
    StableHlo.reshape main_v514 main_v515 rfl shapeCasts_S1x1_S1,  -- %515 = stablehlo.reshape %514 : (tensor<1x1xf32>) -> tensor<1xf32>  @ reference:77
    StableHlo.unary main_v515 main_v516 (broadcastInDim S1x1 ![1] bcast_S1_S1x1_1 : (⟨S1, .f32⟩ : BufTy).Contents (Elt F) → (⟨S1x1, .f32⟩ : BufTy).Contents (Elt F)),  -- %516 = stablehlo.broadcast_in_dim %515, dims = [1] : (tensor<1xf32>) -> tensor<1x1xf32>  @ reference:77
    StableHlo.unary main_v516 main_v517 (broadcastInDim S10000x1 ![0, 1] bcast_S1x1_S10000x1_0_1 : (⟨S1x1, .f32⟩ : BufTy).Contents (Elt F) → (⟨S10000x1, .f32⟩ : BufTy).Contents (Elt F)),  -- %517 = stablehlo.broadcast_in_dim %516, dims = [0, 1] : (tensor<1x1xf32>) -> tensor<10000x1xf32>  @ reference:77
    StableHlo.binary main_v513 main_v517 main_v518 (addf : (⟨S10000x1, .f32⟩ : BufTy).Contents (Elt F) → (⟨S10000x1, .f32⟩ : BufTy).Contents (Elt F) → (⟨S10000x1, .f32⟩ : BufTy).Contents (Elt F)),  -- %518 = stablehlo.add %513, %517 : tensor<10000x1xf32>  @ reference:77
    StableHlo.unary main_v518 main_v519 (broadcastInDim S10000x1x1 ![0, 1] bcast_S10000x1_S10000x1x1_0_1 : (⟨S10000x1, .f32⟩ : BufTy).Contents (Elt F) → (⟨S10000x1x1, .f32⟩ : BufTy).Contents (Elt F)),  -- %519 = stablehlo.broadcast_in_dim %518, dims = [0, 1] : (tensor<10000x1xf32>) -> tensor<10000x1x1xf32>  @ reference:78
    StableHlo.unary main_v519 main_v520 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %520 = stablehlo.broadcast_in_dim %519, dims = [0, 1, 2] : (tensor<10000x1x1xf32>) -> tensor<10000x1x64xf32>  @ reference:78
    StableHlo.binary main_v505 main_v520 main_v521 (mulf : (⟨S10000x1x64, .f32⟩ : BufTy).Contents (Elt F) → (⟨S10000x1x64, .f32⟩ : BufTy).Contents (Elt F) → (⟨S10000x1x64, .f32⟩ : BufTy).Contents (Elt F)),  -- %521 = stablehlo.multiply %505, %520 : tensor<10000x1x64xf32>  @ reference:78
    StableHlo.binary main_v439 main_v521 main_v522 (addf : (⟨S10000x1x64, .f32⟩ : BufTy).Contents (Elt F) → (⟨S10000x1x64, .f32⟩ : BufTy).Contents (Elt F) → (⟨S10000x1x64, .f32⟩ : BufTy).Contents (Elt F)) ]  -- %522 = stablehlo.add %439, %521 : tensor<10000x1x64xf32>  @ reference:78

theorem opsL5_sub : (opsL5 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL5 writes (each operation writes one, its result's), in order. -/
abbrev wL5 : List (Ref sig .tc) :=
  [main_cst_89, main_v440, main_v441, main_c_90, main_v442, main_v443, main_c_91, main_v444, main_v445, main_v446, main_v447, main_v448, main_c_92,
    main_v449, main_v450, main_c_93, main_v451, main_v452, main_v453, main_v454, main_v455, main_v456, main_call17.cst.ref, main_call17.v0.ref,
    main_call17.v1.ref, main_call17.cst_0.ref, main_call17.v2.ref, main_call17.v3.ref, main_call17.cst_1.ref, main_call17.call0.v0.ref,
    main_call17.call0.v1.ref, main_call17.call0.v2.ref, main_call17.v5.ref, main_call17.cst_2.ref, main_call17.v6.ref, main_call17.v7.ref,
    main_call17.call1.v0.ref, main_v458, main_v459, main_v460, main_v461, main_v462, main_cst_94, main_v463, main_call18.cst.ref, main_call18.v0.ref,
    main_call18.v1.ref, main_call18.v2.ref, main_call18.v3.ref, main_call18.v4.ref, main_call18.v5.ref, main_call18.v6.ref, main_call18.v7.ref,
    main_call18.v8.ref, main_call18.v9.ref, main_call18.v10.ref, main_call18.v11.ref, main_call18.v12.ref, main_cst_95, main_v465, main_v466,
    main_cst_96, main_v467, main_v468, main_v469, main_cst_97, main_v470, main_v471, main_cst_98, main_v472, main_v473, main_c_99, main_v474,
    main_v475, main_c_100, main_v476, main_v477, main_v478, main_v479, main_v480, main_v481, main_c_101, main_v482, main_v483, main_c_102, main_v484,
    main_v485, main_v486, main_v487, main_v488, main_v489, main_v490, main_c_103, main_v491, main_v492, main_c_104, main_v493, main_v494, main_v495,
    main_v496, main_v497, main_v498, main_v499, main_v500, main_cst_105, main_v501, main_v502, main_v503, main_v504, main_v505, main_v506, main_v507,
    main_v508, main_call19.cst.ref, main_call19.v0.ref, main_call19.v1.ref, main_call19.cst_0.ref, main_call19.v2.ref, main_call19.v3.ref,
    main_call19.cst_1.ref, main_call19.call0.v0.ref, main_call19.call0.v1.ref, main_call19.call0.v2.ref, main_call19.v5.ref, main_call19.cst_2.ref,
    main_call19.v6.ref, main_call19.v7.ref, main_call19.call1.v0.ref, main_v510, main_v511, main_v512, main_cst_106, main_v513, main_v514, main_v515,
    main_v516, main_v517, main_v518, main_v519, main_v520, main_v521, main_v522]
theorem opsL5_writes : (opsL5 : List (HloOp τ sig (Elt F))).Forall fun op =>
    op.writes ⊆ (wL5.map (Proc.devRef (τ := τ) .tc)).toFinset := by
  simp only [opsL5, List.Forall, nullary_writes, unary_writes, binary_writes, ternary_writes, reshape_writes]
  repeat' apply And.intro
  all_goals exact Finset.singleton_subset_iff.mpr (List.mem_toFinset.mpr (List.mem_map_of_mem (by decide)))
/-- opsL5 keeps every buffer it does not write. -/
theorem opsL5_kept (V : Valuation τ sig (Elt F)) (r : Ref sig .tc) (hr : r ∉ wL5) :
    after opsL5 V (Proc.devRef .tc r) = V (Proc.devRef .tc r) :=
  after_of_writes_sub opsL5 V opsL5_writes hr

end Cert.ReferenceIdeal.RefRun

end
-- ==== Proof.RefRun.L6.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 6: the state scaled, gathered along the edges, weighted, scattered back and added in. -/
abbrev opsL6 : List (HloOp τ sig (Elt F)) :=
  [ StableHlo.nullary main_cst_107 (constant S_ .f32 0x3E08BCAF#32),  -- %cst_107 = stablehlo.constant dense<0.133532271> : tensor<f32>
    StableHlo.unary main_cst_107 main_v523 (broadcastInDim S10000x1x64 ![] bcast_S_S10000x1x64 : (⟨S_, .f32⟩ : BufTy).Contents (Elt F) → (⟨S10000x1x64, .f32⟩ : BufTy).Contents (Elt F)),  -- %523 = stablehlo.broadcast_in_dim %cst_107, dims = [] : (tensor<f32>) -> tensor<10000x1x64xf32>  @ reference:59
    StableHlo.binary main_v522 main_v523 main_v524 (mulf : (⟨S10000x1x64, .f32⟩ : BufTy).Contents (Elt F) → (⟨S10000x1x64, .f32⟩ : BufTy).Contents (Elt F) → (⟨S10000x1x64, .f32⟩ : BufTy).Contents (Elt F)),  -- %524 = stablehlo.multiply %522, %523 : tensor<10000x1x64xf32>  @ reference:59
    StableHlo.nullary main_c_108 (constantI S_ 32 0#32),  -- %c_108 = stablehlo.constant dense<0> : tensor<i32>
    StableHlo.unary main_c_108 main_v525 (broadcastInDim S320000 ![] bcast_S_S320000 : (⟨S_, .i32⟩ : BufTy).Contents (Elt F) → (⟨S320000, .i32⟩ : BufTy).Contents (Elt F)),  -- %525 = stablehlo.broadcast_in_dim %c_108, dims = [] : (tensor<i32>) -> tensor<320000xi32>  @ reference:62
    StableHlo.binary main_v1 main_v525 main_v526 (cmpi .slt : (⟨S320000, .i32⟩ : BufTy).Contents (Elt F) → (⟨S320000, .i32⟩ : BufTy).Contents (Elt F) → (⟨S320000, .i1⟩ : BufTy).Contents (Elt F)),  -- %526 = stablehlo.compare LT, %1, %525, SIGNED : (tensor<320000xi32>, tensor<320000xi32>) -> tensor<320000xi1>  @ reference:62
    StableHlo.nullary main_c_109 (constantI S_ 32 10000#32),  -- %c_109 = stablehlo.constant dense<10000> : tensor<i32>
    StableHlo.unary main_c_109 main_v527 (broadcastInDim S320000 ![] bcast_S_S320000 : (⟨S_, .i32⟩ : BufTy).Contents (Elt F) → (⟨S320000, .i32⟩ : BufTy).Contents (Elt F)),  -- %527 = stablehlo.broadcast_in_dim %c_109, dims = [] : (tensor<i32>) -> tensor<320000xi32>  @ reference:62
    StableHlo.binary main_v1 main_v527 main_v528 (addi : (⟨S320000, .i32⟩ : BufTy).Contents (Elt F) → (⟨S320000, .i32⟩ : BufTy).Contents (Elt F) → (⟨S320000, .i32⟩ : BufTy).Contents (Elt F)),  -- %528 = stablehlo.add %1, %527 : tensor<320000xi32>  @ reference:62
    StableHlo.ternary main_v526 main_v528 main_v1 main_v529 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %529 = stablehlo.select %526, %528, %1 : tensor<320000xi1>, tensor<320000xi32>  @ reference:62
    StableHlo.unary main_v529 main_v530 (broadcastInDim S320000x1 ![0] bcast_S320000_S320000x1_0 : (⟨S320000, .i32⟩ : BufTy).Contents (Elt F) → (⟨S320000x1, .i32⟩ : BufTy).Contents (Elt F)),  -- %530 = stablehlo.broadcast_in_dim %529, dims = [0] : (tensor<320000xi32>) -> tensor<320000x1xi32>  @ reference:62
    StableHlo.binary main_v524 main_v530 main_v531 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %531 = "stablehlo.gather"(%524, %530) <{dimension_numbers = #stablehlo.gather<offset_dims = [1, 2], collapsed_slice_dims = [0], start_index_map = [0],
    StableHlo.nullary main_c_110 (constantI S_ 32 0#32),  -- %c_110 = stablehlo.constant dense<0> : tensor<i32>
    StableHlo.unary main_c_110 main_v532 (broadcastInDim S320000 ![] bcast_S_S320000 : (⟨S_, .i32⟩ : BufTy).Contents (Elt F) → (⟨S320000, .i32⟩ : BufTy).Contents (Elt F)),  -- %532 = stablehlo.broadcast_in_dim %c_110, dims = [] : (tensor<i32>) -> tensor<320000xi32>  @ reference:62
    StableHlo.binary main_v3 main_v532 main_v533 (cmpi .slt : (⟨S320000, .i32⟩ : BufTy).Contents (Elt F) → (⟨S320000, .i32⟩ : BufTy).Contents (Elt F) → (⟨S320000, .i1⟩ : BufTy).Contents (Elt F)),  -- %533 = stablehlo.compare LT, %3, %532, SIGNED : (tensor<320000xi32>, tensor<320000xi32>) -> tensor<320000xi1>  @ reference:62
    StableHlo.nullary main_c_111 (constantI S_ 32 10000#32),  -- %c_111 = stablehlo.constant dense<10000> : tensor<i32>
    StableHlo.unary main_c_111 main_v534 (broadcastInDim S320000 ![] bcast_S_S320000 : (⟨S_, .i32⟩ : BufTy).Contents (Elt F) → (⟨S320000, .i32⟩ : BufTy).Contents (Elt F)),  -- %534 = stablehlo.broadcast_in_dim %c_111, dims = [] : (tensor<i32>) -> tensor<320000xi32>  @ reference:62
    StableHlo.binary main_v3 main_v534 main_v535 (addi : (⟨S320000, .i32⟩ : BufTy).Contents (Elt F) → (⟨S320000, .i32⟩ : BufTy).Contents (Elt F) → (⟨S320000, .i32⟩ : BufTy).Contents (Elt F)),  -- %535 = stablehlo.add %3, %534 : tensor<320000xi32>  @ reference:62
    StableHlo.ternary main_v533 main_v535 main_v3 main_v536 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %536 = stablehlo.select %533, %535, %3 : tensor<320000xi1>, tensor<320000xi32>  @ reference:62
    StableHlo.unary main_v536 main_v537 (broadcastInDim S320000x1 ![0] bcast_S320000_S320000x1_0 : (⟨S320000, .i32⟩ : BufTy).Contents (Elt F) → (⟨S320000x1, .i32⟩ : BufTy).Contents (Elt F)),  -- %537 = stablehlo.broadcast_in_dim %536, dims = [0] : (tensor<320000xi32>) -> tensor<320000x1xi32>  @ reference:62
    StableHlo.binary main_v524 main_v537 main_v538 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %538 = "stablehlo.gather"(%524, %537) <{dimension_numbers = #stablehlo.gather<offset_dims = [1, 2], collapsed_slice_dims = [0], start_index_map = [0],
    StableHlo.binary main_v531 main_v538 main_v539 (addf : (⟨S320000x1x64, .f32⟩ : BufTy).Contents (Elt F) → (⟨S320000x1x64, .f32⟩ : BufTy).Contents (Elt F) → (⟨S320000x1x64, .f32⟩ : BufTy).Contents (Elt F)),  -- %539 = stablehlo.add %531, %538 : tensor<320000x1x64xf32>  @ reference:62
    StableHlo.TRef.nullary main_call20.cst (constant S_ .f32 0x00000000#32),  -- @elu_4 in %540 = func.call @elu_4(%539): %cst = stablehlo.constant dense<0.000000e+00> : tensor<f32>
    StableHlo.TRef.unary main_call20.cst main_call20.v0 (broadcastInDim S320000x1x64 ![] bcast_S_S320000x1x64),  -- @elu_4 in %540 = func.call @elu_4(%539): %0 = stablehlo.broadcast_in_dim %cst, dims = [] : (tensor<f32>) -> tensor<320000x1x64xf32>
    StableHlo.TRef.binary (StableHlo.TRef.of (T := ⟨S320000x1x64, .f32⟩) main_v539) main_call20.v0 main_call20.v1 (cmpf .ogt),  -- @elu_4 in %540 = func.call @elu_4(%539): %1 = stablehlo.compare GT, %arg0, %0, FLOAT : (tensor<320000x1x64xf32>, tensor<320000x1x64xf32>) -> tensor<32
    StableHlo.TRef.nullary main_call20.cst_0 (constant S_ .f32 0x00000000#32),  -- @elu_4 in %540 = func.call @elu_4(%539): %cst_0 = stablehlo.constant dense<0.000000e+00> : tensor<f32>
    StableHlo.TRef.unary main_call20.cst_0 main_call20.v2 (broadcastInDim S320000x1x64 ![] bcast_S_S320000x1x64),  -- @elu_4 in %540 = func.call @elu_4(%539): %2 = stablehlo.broadcast_in_dim %cst_0, dims = [] : (tensor<f32>) -> tensor<320000x1x64xf32>
    StableHlo.TRef.binary (StableHlo.TRef.of (T := ⟨S320000x1x64, .f32⟩) main_v539) main_call20.v2 main_call20.v3 (cmpf .ogt),  -- @elu_4 in %540 = func.call @elu_4(%539): %3 = stablehlo.compare GT, %arg0, %2, FLOAT : (tensor<320000x1x64xf32>, tensor<320000x1x64xf32>) -> tensor<32
    StableHlo.TRef.nullary main_call20.cst_1 (constant S_ .f32 0x00000000#32),  -- @elu_4 in %540 = func.call @elu_4(%539): %cst_1 = stablehlo.constant dense<0.000000e+00> : tensor<f32>
    StableHlo.TRef.unary main_call20.cst_1 main_call20.call0.v0 id,  -- @where_5 in %540 = func.call @elu_4(%539): %0 = stablehlo.convert %arg1 : tensor<f32>
    StableHlo.TRef.unary main_call20.call0.v0 main_call20.call0.v1 (broadcastInDim S320000x1x64 ![] bcast_S_S320000x1x64),  -- @where_5 in %540 = func.call @elu_4(%539): %1 = stablehlo.broadcast_in_dim %0, dims = [] : (tensor<f32>) -> tensor<320000x1x64xf32>
    StableHlo.TRef.ternary main_call20.v3 main_call20.call0.v1 (StableHlo.TRef.of (T := ⟨S320000x1x64, .f32⟩) main_v539) main_call20.call0.v2 select,  -- @where_5 in %540 = func.call @elu_4(%539): %2 = stablehlo.select %arg0, %1, %arg2 : tensor<320000x1x64xi1>, tensor<320000x1x64xf32>
    StableHlo.TRef.unary main_call20.call0.v2 main_call20.v5 Host.expm1,  -- @elu_4 in %540 = func.call @elu_4(%539): %5 = stablehlo.exponential_minus_one %4 : tensor<320000x1x64xf32>
    StableHlo.TRef.nullary main_call20.cst_2 (constant S_ .f32 0x3F800000#32),  -- @elu_4 in %540 = func.call @elu_4(%539): %cst_2 = stablehlo.constant dense<1.000000e+00> : tensor<f32>
    StableHlo.TRef.unary main_call20.cst_2 main_call20.v6 (broadcastInDim S320000x1x64 ![] bcast_S_S320000x1x64),  -- @elu_4 in %540 = func.call @elu_4(%539): %6 = stablehlo.broadcast_in_dim %cst_2, dims = [] : (tensor<f32>) -> tensor<320000x1x64xf32>
    StableHlo.TRef.binary main_call20.v6 main_call20.v5 main_call20.v7 mulf,  -- @elu_4 in %540 = func.call @elu_4(%539): %7 = stablehlo.multiply %6, %5 : tensor<320000x1x64xf32>
    StableHlo.TRef.ternary main_call20.v1 (StableHlo.TRef.of (T := ⟨S320000x1x64, .f32⟩) main_v539) main_call20.v7 main_call20.call1.v0 select,  -- @where_6 in %540 = func.call @elu_4(%539): %0 = stablehlo.select %arg0, %arg1, %arg2 : tensor<320000x1x64xi1>, tensor<320000x1x64xf32>
    StableHlo.unary main_arg7 main_v541 ((extractStridedSlice S1x1x64 ![6, 0, 0] · slices_S9x1x64_S1x1x64_6_0_0) : (⟨S9x1x64, .f32⟩ : BufTy).Contents (Elt F) → (⟨S1x1x64, .f32⟩ : BufTy).Contents (Elt F)),  -- %541 = stablehlo.slice %arg7 [6:7, 0:1, 0:64] : (tensor<9x1x64xf32>) -> tensor<1x1x64xf32>  @ reference:63
    StableHlo.reshape main_v541 main_v542 rfl shapeCasts_S1x1x64_S1x64,  -- %542 = stablehlo.reshape %541 : (tensor<1x1x64xf32>) -> tensor<1x64xf32>  @ reference:63
    StableHlo.unary main_v542 main_v543 (broadcastInDim S1x1x64 ![1, 2] bcast_S1x64_S1x1x64_1_2 : (⟨S1x64, .f32⟩ : BufTy).Contents (Elt F) → (⟨S1x1x64, .f32⟩ : BufTy).Contents (Elt F)),  -- %543 = stablehlo.broadcast_in_dim %542, dims = [1, 2] : (tensor<1x64xf32>) -> tensor<1x1x64xf32>  @ reference:63
    StableHlo.unary main_v543 main_v544 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %544 = stablehlo.broadcast_in_dim %543, dims = [0, 1, 2] : (tensor<1x1x64xf32>) -> tensor<320000x1x64xf32>  @ reference:63
    StableHlo.binary main_v544 main_v540 main_v545 (mulf : (⟨S320000x1x64, .f32⟩ : BufTy).Contents (Elt F) → (⟨S320000x1x64, .f32⟩ : BufTy).Contents (Elt F) → (⟨S320000x1x64, .f32⟩ : BufTy).Contents (Elt F)),  -- %545 = stablehlo.multiply %544, %540 : tensor<320000x1x64xf32>  @ reference:63
    StableHlo.nullary main_cst_112 (constant S_ .f32 0x00000000#32),  -- %cst_112 = stablehlo.constant dense<0.000000e+00> : tensor<f32>
    StableHlo.binary main_v545 main_cst_112 main_v546 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %546 = stablehlo.reduce(%545 init: %cst_112) applies stablehlo.add across dimensions = [2] : (tensor<320000x1x64xf32>, tensor<f32>) -> tensor<320000x1
    StableHlo.TRef.nullary main_call21.cst (constant S_ .f32 0x00000000#32),  -- @softplus in %547 = func.call @softplus(%546): %cst = stablehlo.constant dense<0.000000e+00> : tensor<f32>
    StableHlo.TRef.unary main_call21.cst main_call21.v0 (broadcastInDim S320000x1 ![] bcast_S_S320000x1),  -- @softplus in %547 = func.call @softplus(%546): %0 = stablehlo.broadcast_in_dim %cst, dims = [] : (tensor<f32>) -> tensor<320000x1xf32>
    StableHlo.TRef.binary (StableHlo.TRef.of (T := ⟨S320000x1, .f32⟩) main_v546) main_call21.v0 main_call21.v1 maximumf,  -- @softplus in %547 = func.call @softplus(%546): %1 = stablehlo.maximum %arg0, %0 : tensor<320000x1xf32>
    StableHlo.TRef.unary main_call21.cst main_call21.v2 (broadcastInDim S320000x1 ![] bcast_S_S320000x1),  -- @softplus in %547 = func.call @softplus(%546): %2 = stablehlo.broadcast_in_dim %cst, dims = [] : (tensor<f32>) -> tensor<320000x1xf32>
    StableHlo.TRef.binary (StableHlo.TRef.of (T := ⟨S320000x1, .f32⟩) main_v546) main_call21.v2 main_call21.v3 subf,  -- @softplus in %547 = func.call @softplus(%546): %3 = stablehlo.subtract %arg0, %2 : tensor<320000x1xf32>
    StableHlo.TRef.binary main_call21.v3 main_call21.v3 main_call21.v4 (cmpf .une),  -- @softplus in %547 = func.call @softplus(%546): %4 = stablehlo.compare NE, %3, %3, FLOAT : (tensor<320000x1xf32>, tensor<320000x1xf32>) -> tensor<32000
    StableHlo.TRef.unary main_call21.cst main_call21.v5 (broadcastInDim S320000x1 ![] bcast_S_S320000x1),  -- @softplus in %547 = func.call @softplus(%546): %5 = stablehlo.broadcast_in_dim %cst, dims = [] : (tensor<f32>) -> tensor<320000x1xf32>
    StableHlo.TRef.binary (StableHlo.TRef.of (T := ⟨S320000x1, .f32⟩) main_v546) main_call21.v5 main_call21.v6 addf,  -- @softplus in %547 = func.call @softplus(%546): %6 = stablehlo.add %arg0, %5 : tensor<320000x1xf32>
    StableHlo.TRef.unary main_call21.v3 main_call21.v7 Host.absf,  -- @softplus in %547 = func.call @softplus(%546): %7 = stablehlo.abs %3 : tensor<320000x1xf32>
    StableHlo.TRef.unary main_call21.v7 main_call21.v8 Host.negf,  -- @softplus in %547 = func.call @softplus(%546): %8 = stablehlo.negate %7 : tensor<320000x1xf32>
    StableHlo.TRef.unary main_call21.v8 main_call21.v9 Host.exp,  -- @softplus in %547 = func.call @softplus(%546): %9 = stablehlo.exponential %8 : tensor<320000x1xf32>
    StableHlo.TRef.unary main_call21.v9 main_call21.v10 Host.log1p,  -- @softplus in %547 = func.call @softplus(%546): %10 = stablehlo.log_plus_one %9 : tensor<320000x1xf32>
    StableHlo.TRef.binary main_call21.v1 main_call21.v10 main_call21.v11 addf,  -- @softplus in %547 = func.call @softplus(%546): %11 = stablehlo.add %1, %10 : tensor<320000x1xf32>
    StableHlo.TRef.ternary main_call21.v4 main_call21.v6 main_call21.v11 main_call21.v12 select,  -- @softplus in %547 = func.call @softplus(%546): %12 = stablehlo.select %4, %6, %11 : tensor<320000x1xi1>, tensor<320000x1xf32>
    StableHlo.nullary main_cst_113 (constant S_ .f32 0x358637BD#32),  -- %cst_113 = stablehlo.constant dense<9.99999997E-7> : tensor<f32>
    StableHlo.unary main_cst_113 main_v548 (broadcastInDim S320000x1 ![] bcast_S_S320000x1 : (⟨S_, .f32⟩ : BufTy).Contents (Elt F) → (⟨S320000x1, .f32⟩ : BufTy).Contents (Elt F)),  -- %548 = stablehlo.broadcast_in_dim %cst_113, dims = [] : (tensor<f32>) -> tensor<320000x1xf32>  @ reference:63
    StableHlo.binary main_v547 main_v548 main_v549 (addf : (⟨S320000x1, .f32⟩ : BufTy).Contents (Elt F) → (⟨S320000x1, .f32⟩ : BufTy).Contents (Elt F) → (⟨S320000x1, .f32⟩ : BufTy).Contents (Elt F)),  -- %549 = stablehlo.add %547, %548 : tensor<320000x1xf32>  @ reference:63
    StableHlo.nullary main_cst_114 (constant S_ .f32 0x00000000#32),  -- %cst_114 = stablehlo.constant dense<0.000000e+00> : tensor<f32>
    StableHlo.unary main_cst_114 main_v550 (broadcastInDim S10000x1 ![] bcast_S_S10000x1 : (⟨S_, .f32⟩ : BufTy).Contents (Elt F) → (⟨S10000x1, .f32⟩ : BufTy).Contents (Elt F)),  -- %550 = stablehlo.broadcast_in_dim %cst_114, dims = [] : (tensor<f32>) -> tensor<10000x1xf32>  @ reference:66
    StableHlo.unary main_v3 main_v551 (broadcastInDim S320000x1 ![0] bcast_S320000_S320000x1_0 : (⟨S320000, .i32⟩ : BufTy).Contents (Elt F) → (⟨S320000x1, .i32⟩ : BufTy).Contents (Elt F)),  -- %551 = stablehlo.broadcast_in_dim %3, dims = [0] : (tensor<320000xi32>) -> tensor<320000x1xi32>  @ reference:66
    StableHlo.ternary main_v550 main_v551 main_v549 main_v552 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %552 = "stablehlo.scatter"(%550, %551, %549) <{indices_are_sorted = false, scatter_dimension_numbers = #stablehlo.scatter<update_window_dims = [1], in
    StableHlo.nullary main_cst_115 (constant S_ .f32 0x0A4FB11F#32),  -- %cst_115 = stablehlo.constant dense<1.000000e-32> : tensor<f32>
    StableHlo.unary main_cst_115 main_v553 (broadcastInDim S10000x1 ![] bcast_S_S10000x1 : (⟨S_, .f32⟩ : BufTy).Contents (Elt F) → (⟨S10000x1, .f32⟩ : BufTy).Contents (Elt F)),  -- %553 = stablehlo.broadcast_in_dim %cst_115, dims = [] : (tensor<f32>) -> tensor<10000x1xf32>  @ reference:67
    StableHlo.binary main_v552 main_v553 main_v554 (maximumf : (⟨S10000x1, .f32⟩ : BufTy).Contents (Elt F) → (⟨S10000x1, .f32⟩ : BufTy).Contents (Elt F) → (⟨S10000x1, .f32⟩ : BufTy).Contents (Elt F)),  -- %554 = stablehlo.maximum %552, %553 : tensor<10000x1xf32>  @ reference:67
    StableHlo.nullary main_cst_116 (constant S_ .f32 0xBF000000#32),  -- %cst_116 = stablehlo.constant dense<-5.000000e-01> : tensor<f32>
    StableHlo.unary main_cst_116 main_v555 (broadcastInDim S10000x1 ![] bcast_S_S10000x1 : (⟨S_, .f32⟩ : BufTy).Contents (Elt F) → (⟨S10000x1, .f32⟩ : BufTy).Contents (Elt F)),  -- %555 = stablehlo.broadcast_in_dim %cst_116, dims = [] : (tensor<f32>) -> tensor<10000x1xf32>  @ reference:67
    StableHlo.binary main_v554 main_v555 main_v556 (Host.powf : (⟨S10000x1, .f32⟩ : BufTy).Contents (Elt F) → (⟨S10000x1, .f32⟩ : BufTy).Contents (Elt F) → (⟨S10000x1, .f32⟩ : BufTy).Contents (Elt F)),  -- %556 = stablehlo.power %554, %555 : tensor<10000x1xf32>  @ reference:67
    StableHlo.nullary main_c_117 (constantI S_ 32 0#32),  -- %c_117 = stablehlo.constant dense<0> : tensor<i32>
    StableHlo.unary main_c_117 main_v557 (broadcastInDim S320000 ![] bcast_S_S320000 : (⟨S_, .i32⟩ : BufTy).Contents (Elt F) → (⟨S320000, .i32⟩ : BufTy).Contents (Elt F)),  -- %557 = stablehlo.broadcast_in_dim %c_117, dims = [] : (tensor<i32>) -> tensor<320000xi32>  @ reference:68
    StableHlo.binary main_v1 main_v557 main_v558 (cmpi .slt : (⟨S320000, .i32⟩ : BufTy).Contents (Elt F) → (⟨S320000, .i32⟩ : BufTy).Contents (Elt F) → (⟨S320000, .i1⟩ : BufTy).Contents (Elt F)),  -- %558 = stablehlo.compare LT, %1, %557, SIGNED : (tensor<320000xi32>, tensor<320000xi32>) -> tensor<320000xi1>  @ reference:68
    StableHlo.nullary main_c_118 (constantI S_ 32 10000#32),  -- %c_118 = stablehlo.constant dense<10000> : tensor<i32>
    StableHlo.unary main_c_118 main_v559 (broadcastInDim S320000 ![] bcast_S_S320000 : (⟨S_, .i32⟩ : BufTy).Contents (Elt F) → (⟨S320000, .i32⟩ : BufTy).Contents (Elt F)),  -- %559 = stablehlo.broadcast_in_dim %c_118, dims = [] : (tensor<i32>) -> tensor<320000xi32>  @ reference:68
    StableHlo.binary main_v1 main_v559 main_v560 (addi : (⟨S320000, .i32⟩ : BufTy).Contents (Elt F) → (⟨S320000, .i32⟩ : BufTy).Contents (Elt F) → (⟨S320000, .i32⟩ : BufTy).Contents (Elt F)),  -- %560 = stablehlo.add %1, %559 : tensor<320000xi32>  @ reference:68
    StableHlo.ternary main_v558 main_v560 main_v1 main_v561 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %561 = stablehlo.select %558, %560, %1 : tensor<320000xi1>, tensor<320000xi32>  @ reference:68
    StableHlo.unary main_v561 main_v562 (broadcastInDim S320000x1 ![0] bcast_S320000_S320000x1_0 : (⟨S320000, .i32⟩ : BufTy).Contents (Elt F) → (⟨S320000x1, .i32⟩ : BufTy).Contents (Elt F)),  -- %562 = stablehlo.broadcast_in_dim %561, dims = [0] : (tensor<320000xi32>) -> tensor<320000x1xi32>  @ reference:68
    StableHlo.binary main_v556 main_v562 main_v563 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %563 = "stablehlo.gather"(%556, %562) <{dimension_numbers = #stablehlo.gather<offset_dims = [1], collapsed_slice_dims = [0], start_index_map = [0], in
    StableHlo.binary main_v563 main_v549 main_v564 (mulf : (⟨S320000x1, .f32⟩ : BufTy).Contents (Elt F) → (⟨S320000x1, .f32⟩ : BufTy).Contents (Elt F) → (⟨S320000x1, .f32⟩ : BufTy).Contents (Elt F)),  -- %564 = stablehlo.multiply %563, %549 : tensor<320000x1xf32>  @ reference:68
    StableHlo.nullary main_c_119 (constantI S_ 32 0#32),  -- %c_119 = stablehlo.constant dense<0> : tensor<i32>
    StableHlo.unary main_c_119 main_v565 (broadcastInDim S320000 ![] bcast_S_S320000 : (⟨S_, .i32⟩ : BufTy).Contents (Elt F) → (⟨S320000, .i32⟩ : BufTy).Contents (Elt F)),  -- %565 = stablehlo.broadcast_in_dim %c_119, dims = [] : (tensor<i32>) -> tensor<320000xi32>  @ reference:68
    StableHlo.binary main_v3 main_v565 main_v566 (cmpi .slt : (⟨S320000, .i32⟩ : BufTy).Contents (Elt F) → (⟨S320000, .i32⟩ : BufTy).Contents (Elt F) → (⟨S320000, .i1⟩ : BufTy).Contents (Elt F)),  -- %566 = stablehlo.compare LT, %3, %565, SIGNED : (tensor<320000xi32>, tensor<320000xi32>) -> tensor<320000xi1>  @ reference:68
    StableHlo.nullary main_c_120 (constantI S_ 32 10000#32),  -- %c_120 = stablehlo.constant dense<10000> : tensor<i32>
    StableHlo.unary main_c_120 main_v567 (broadcastInDim S320000 ![] bcast_S_S320000 : (⟨S_, .i32⟩ : BufTy).Contents (Elt F) → (⟨S320000, .i32⟩ : BufTy).Contents (Elt F)),  -- %567 = stablehlo.broadcast_in_dim %c_120, dims = [] : (tensor<i32>) -> tensor<320000xi32>  @ reference:68
    StableHlo.binary main_v3 main_v567 main_v568 (addi : (⟨S320000, .i32⟩ : BufTy).Contents (Elt F) → (⟨S320000, .i32⟩ : BufTy).Contents (Elt F) → (⟨S320000, .i32⟩ : BufTy).Contents (Elt F)),  -- %568 = stablehlo.add %3, %567 : tensor<320000xi32>  @ reference:68
    StableHlo.ternary main_v566 main_v568 main_v3 main_v569 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %569 = stablehlo.select %566, %568, %3 : tensor<320000xi1>, tensor<320000xi32>  @ reference:68
    StableHlo.unary main_v569 main_v570 (broadcastInDim S320000x1 ![0] bcast_S320000_S320000x1_0 : (⟨S320000, .i32⟩ : BufTy).Contents (Elt F) → (⟨S320000x1, .i32⟩ : BufTy).Contents (Elt F)),  -- %570 = stablehlo.broadcast_in_dim %569, dims = [0] : (tensor<320000xi32>) -> tensor<320000x1xi32>  @ reference:68
    StableHlo.binary main_v556 main_v570 main_v571 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %571 = "stablehlo.gather"(%556, %570) <{dimension_numbers = #stablehlo.gather<offset_dims = [1], collapsed_slice_dims = [0], start_index_map = [0], in
    StableHlo.binary main_v564 main_v571 main_v572 (mulf : (⟨S320000x1, .f32⟩ : BufTy).Contents (Elt F) → (⟨S320000x1, .f32⟩ : BufTy).Contents (Elt F) → (⟨S320000x1, .f32⟩ : BufTy).Contents (Elt F)),  -- %572 = stablehlo.multiply %564, %571 : tensor<320000x1xf32>  @ reference:68
    StableHlo.unary main_v572 main_v573 (broadcastInDim S320000x1x1 ![0, 1] bcast_S320000x1_S320000x1x1_0_1 : (⟨S320000x1, .f32⟩ : BufTy).Contents (Elt F) → (⟨S320000x1x1, .f32⟩ : BufTy).Contents (Elt F)),  -- %573 = stablehlo.broadcast_in_dim %572, dims = [0, 1] : (tensor<320000x1xf32>) -> tensor<320000x1x1xf32>  @ reference:68
    StableHlo.nullary main_c_121 (constantI S_ 32 0#32),  -- %c_121 = stablehlo.constant dense<0> : tensor<i32>
    StableHlo.unary main_c_121 main_v574 (broadcastInDim S320000 ![] bcast_S_S320000 : (⟨S_, .i32⟩ : BufTy).Contents (Elt F) → (⟨S320000, .i32⟩ : BufTy).Contents (Elt F)),  -- %574 = stablehlo.broadcast_in_dim %c_121, dims = [] : (tensor<i32>) -> tensor<320000xi32>  @ reference:71
    StableHlo.binary main_v1 main_v574 main_v575 (cmpi .slt : (⟨S320000, .i32⟩ : BufTy).Contents (Elt F) → (⟨S320000, .i32⟩ : BufTy).Contents (Elt F) → (⟨S320000, .i1⟩ : BufTy).Contents (Elt F)),  -- %575 = stablehlo.compare LT, %1, %574, SIGNED : (tensor<320000xi32>, tensor<320000xi32>) -> tensor<320000xi1>  @ reference:71
    StableHlo.nullary main_c_122 (constantI S_ 32 10000#32),  -- %c_122 = stablehlo.constant dense<10000> : tensor<i32>
    StableHlo.unary main_c_122 main_v576 (broadcastInDim S320000 ![] bcast_S_S320000 : (⟨S_, .i32⟩ : BufTy).Contents (Elt F) → (⟨S320000, .i32⟩ : BufTy).Contents (Elt F)),  -- %576 = stablehlo.broadcast_in_dim %c_122, dims = [] : (tensor<i32>) -> tensor<320000xi32>  @ reference:71
    StableHlo.binary main_v1 main_v576 main_v577 (addi : (⟨S320000, .i32⟩ : BufTy).Contents (Elt F) → (⟨S320000, .i32⟩ : BufTy).Contents (Elt F) → (⟨S320000, .i32⟩ : BufTy).Contents (Elt F)),  -- %577 = stablehlo.add %1, %576 : tensor<320000xi32>  @ reference:71
    StableHlo.ternary main_v575 main_v577 main_v1 main_v578 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %578 = stablehlo.select %575, %577, %1 : tensor<320000xi1>, tensor<320000xi32>  @ reference:71
    StableHlo.unary main_v578 main_v579 (broadcastInDim S320000x1 ![0] bcast_S320000_S320000x1_0 : (⟨S320000, .i32⟩ : BufTy).Contents (Elt F) → (⟨S320000x1, .i32⟩ : BufTy).Contents (Elt F)),  -- %579 = stablehlo.broadcast_in_dim %578, dims = [0] : (tensor<320000xi32>) -> tensor<320000x1xi32>  @ reference:71
    StableHlo.binary main_v504 main_v579 main_v580 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %580 = "stablehlo.gather"(%504, %579) <{dimension_numbers = #stablehlo.gather<offset_dims = [1], collapsed_slice_dims = [0], start_index_map = [0], in
    StableHlo.reshape main_v580 main_v581 rfl shapeCasts_S320000x64_S320000x1x64,  -- %581 = stablehlo.reshape %580 : (tensor<320000x64xf32>) -> tensor<320000x1x64xf32>  @ reference:71
    StableHlo.unary main_v573 main_v582 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %582 = stablehlo.broadcast_in_dim %573, dims = [0, 1, 2] : (tensor<320000x1x1xf32>) -> tensor<320000x1x64xf32>  @ reference:71
    StableHlo.binary main_v581 main_v582 main_v583 (mulf : (⟨S320000x1x64, .f32⟩ : BufTy).Contents (Elt F) → (⟨S320000x1x64, .f32⟩ : BufTy).Contents (Elt F) → (⟨S320000x1x64, .f32⟩ : BufTy).Contents (Elt F)),  -- %583 = stablehlo.multiply %581, %582 : tensor<320000x1x64xf32>  @ reference:71
    StableHlo.nullary main_cst_123 (constant S_ .f32 0x00000000#32),  -- %cst_123 = stablehlo.constant dense<0.000000e+00> : tensor<f32>
    StableHlo.unary main_cst_123 main_v584 (broadcastInDim S10000x1x64 ![] bcast_S_S10000x1x64 : (⟨S_, .f32⟩ : BufTy).Contents (Elt F) → (⟨S10000x1x64, .f32⟩ : BufTy).Contents (Elt F)),  -- %584 = stablehlo.broadcast_in_dim %cst_123, dims = [] : (tensor<f32>) -> tensor<10000x1x64xf32>  @ reference:72
    StableHlo.unary main_v3 main_v585 (broadcastInDim S320000x1 ![0] bcast_S320000_S320000x1_0 : (⟨S320000, .i32⟩ : BufTy).Contents (Elt F) → (⟨S320000x1, .i32⟩ : BufTy).Contents (Elt F)),  -- %585 = stablehlo.broadcast_in_dim %3, dims = [0] : (tensor<320000xi32>) -> tensor<320000x1xi32>  @ reference:72
    StableHlo.ternary main_v584 main_v585 main_v583 main_v586 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %586 = "stablehlo.scatter"(%584, %585, %583) <{indices_are_sorted = false, scatter_dimension_numbers = #stablehlo.scatter<update_window_dims = [1, 2],
    StableHlo.reshape main_v586 main_v587 rfl shapeCasts_S10000x1x64_S10000x64,  -- %587 = stablehlo.reshape %586 : (tensor<10000x1x64xf32>) -> tensor<10000x64xf32>  @ reference:72
    StableHlo.reshape main_v587 main_v588 rfl shapeCasts_S10000x64_S10000x1x64,  -- %588 = stablehlo.reshape %587 : (tensor<10000x64xf32>) -> tensor<10000x1x64xf32>  @ reference:75
    StableHlo.binary main_v588 main_v524 main_v589 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %589 = stablehlo.concatenate %588, %524, dim = 2 : (tensor<10000x1x64xf32>, tensor<10000x1x64xf32>) -> tensor<10000x1x128xf32>  @ reference:76
    StableHlo.unary main_arg10 main_v590 ((extractStridedSlice S1x1x128 ![6, 0, 0] · slices_S9x1x128_S1x1x128_6_0_0) : (⟨S9x1x128, .f32⟩ : BufTy).Contents (Elt F) → (⟨S1x1x128, .f32⟩ : BufTy).Contents (Elt F)),  -- %590 = stablehlo.slice %arg10 [6:7, 0:1, 0:128] : (tensor<9x1x128xf32>) -> tensor<1x1x128xf32>  @ reference:77
    StableHlo.reshape main_v590 main_v591 rfl shapeCasts_S1x1x128_S1x128,  -- %591 = stablehlo.reshape %590 : (tensor<1x1x128xf32>) -> tensor<1x128xf32>  @ reference:77
    StableHlo.TRef.nullary main_call22.cst (constant S_ .f32 0x00000000#32),  -- @elu_7 in %592 = func.call @elu_7(%589): %cst = stablehlo.constant dense<0.000000e+00> : tensor<f32>
    StableHlo.TRef.unary main_call22.cst main_call22.v0 (broadcastInDim S10000x1x128 ![] bcast_S_S10000x1x128),  -- @elu_7 in %592 = func.call @elu_7(%589): %0 = stablehlo.broadcast_in_dim %cst, dims = [] : (tensor<f32>) -> tensor<10000x1x128xf32>
    StableHlo.TRef.binary (StableHlo.TRef.of (T := ⟨S10000x1x128, .f32⟩) main_v589) main_call22.v0 main_call22.v1 (cmpf .ogt),  -- @elu_7 in %592 = func.call @elu_7(%589): %1 = stablehlo.compare GT, %arg0, %0, FLOAT : (tensor<10000x1x128xf32>, tensor<10000x1x128xf32>) -> tensor<10
    StableHlo.TRef.nullary main_call22.cst_0 (constant S_ .f32 0x00000000#32),  -- @elu_7 in %592 = func.call @elu_7(%589): %cst_0 = stablehlo.constant dense<0.000000e+00> : tensor<f32>
    StableHlo.TRef.unary main_call22.cst_0 main_call22.v2 (broadcastInDim S10000x1x128 ![] bcast_S_S10000x1x128),  -- @elu_7 in %592 = func.call @elu_7(%589): %2 = stablehlo.broadcast_in_dim %cst_0, dims = [] : (tensor<f32>) -> tensor<10000x1x128xf32>
    StableHlo.TRef.binary (StableHlo.TRef.of (T := ⟨S10000x1x128, .f32⟩) main_v589) main_call22.v2 main_call22.v3 (cmpf .ogt),  -- @elu_7 in %592 = func.call @elu_7(%589): %3 = stablehlo.compare GT, %arg0, %2, FLOAT : (tensor<10000x1x128xf32>, tensor<10000x1x128xf32>) -> tensor<10
    StableHlo.TRef.nullary main_call22.cst_1 (constant S_ .f32 0x00000000#32),  -- @elu_7 in %592 = func.call @elu_7(%589): %cst_1 = stablehlo.constant dense<0.000000e+00> : tensor<f32>
    StableHlo.TRef.unary main_call22.cst_1 main_call22.call0.v0 id,  -- @where_8 in %592 = func.call @elu_7(%589): %0 = stablehlo.convert %arg1 : tensor<f32>
    StableHlo.TRef.unary main_call22.call0.v0 main_call22.call0.v1 (broadcastInDim S10000x1x128 ![] bcast_S_S10000x1x128),  -- @where_8 in %592 = func.call @elu_7(%589): %1 = stablehlo.broadcast_in_dim %0, dims = [] : (tensor<f32>) -> tensor<10000x1x128xf32>
    StableHlo.TRef.ternary main_call22.v3 main_call22.call0.v1 (StableHlo.TRef.of (T := ⟨S10000x1x128, .f32⟩) main_v589) main_call22.call0.v2 select,  -- @where_8 in %592 = func.call @elu_7(%589): %2 = stablehlo.select %arg0, %1, %arg2 : tensor<10000x1x128xi1>, tensor<10000x1x128xf32>
    StableHlo.TRef.unary main_call22.call0.v2 main_call22.v5 Host.expm1,  -- @elu_7 in %592 = func.call @elu_7(%589): %5 = stablehlo.exponential_minus_one %4 : tensor<10000x1x128xf32>
    StableHlo.TRef.nullary main_call22.cst_2 (constant S_ .f32 0x3F800000#32),  -- @elu_7 in %592 = func.call @elu_7(%589): %cst_2 = stablehlo.constant dense<1.000000e+00> : tensor<f32>
    StableHlo.TRef.unary main_call22.cst_2 main_call22.v6 (broadcastInDim S10000x1x128 ![] bcast_S_S10000x1x128),  -- @elu_7 in %592 = func.call @elu_7(%589): %6 = stablehlo.broadcast_in_dim %cst_2, dims = [] : (tensor<f32>) -> tensor<10000x1x128xf32>
    StableHlo.TRef.binary main_call22.v6 main_call22.v5 main_call22.v7 mulf,  -- @elu_7 in %592 = func.call @elu_7(%589): %7 = stablehlo.multiply %6, %5 : tensor<10000x1x128xf32>
    StableHlo.TRef.ternary main_call22.v1 (StableHlo.TRef.of (T := ⟨S10000x1x128, .f32⟩) main_v589) main_call22.v7 main_call22.call1.v0 select,  -- @where_9 in %592 = func.call @elu_7(%589): %0 = stablehlo.select %arg0, %arg1, %arg2 : tensor<10000x1x128xi1>, tensor<10000x1x128xf32>
    StableHlo.unary main_v591 main_v593 (broadcastInDim S1x1x128 ![1, 2] bcast_S1x128_S1x1x128_1_2 : (⟨S1x128, .f32⟩ : BufTy).Contents (Elt F) → (⟨S1x1x128, .f32⟩ : BufTy).Contents (Elt F)),  -- %593 = stablehlo.broadcast_in_dim %591, dims = [1, 2] : (tensor<1x128xf32>) -> tensor<1x1x128xf32>  @ reference:77
    StableHlo.unary main_v593 main_v594 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %594 = stablehlo.broadcast_in_dim %593, dims = [0, 1, 2] : (tensor<1x1x128xf32>) -> tensor<10000x1x128xf32>  @ reference:77
    StableHlo.binary main_v594 main_v592 main_v595 (mulf : (⟨S10000x1x128, .f32⟩ : BufTy).Contents (Elt F) → (⟨S10000x1x128, .f32⟩ : BufTy).Contents (Elt F) → (⟨S10000x1x128, .f32⟩ : BufTy).Contents (Elt F)),  -- %595 = stablehlo.multiply %594, %592 : tensor<10000x1x128xf32>  @ reference:77
    StableHlo.nullary main_cst_124 (constant S_ .f32 0x00000000#32),  -- %cst_124 = stablehlo.constant dense<0.000000e+00> : tensor<f32>
    StableHlo.binary main_v595 main_cst_124 main_v596 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %596 = stablehlo.reduce(%595 init: %cst_124) applies stablehlo.add across dimensions = [2] : (tensor<10000x1x128xf32>, tensor<f32>) -> tensor<10000x1x
    StableHlo.unary main_arg11 main_v597 ((extractStridedSlice S1x1 ![6, 0] · slices_S9x1_S1x1_6_0) : (⟨S9x1, .f32⟩ : BufTy).Contents (Elt F) → (⟨S1x1, .f32⟩ : BufTy).Contents (Elt F)),  -- %597 = stablehlo.slice %arg11 [6:7, 0:1] : (tensor<9x1xf32>) -> tensor<1x1xf32>  @ reference:77
    StableHlo.reshape main_v597 main_v598 rfl shapeCasts_S1x1_S1,  -- %598 = stablehlo.reshape %597 : (tensor<1x1xf32>) -> tensor<1xf32>  @ reference:77
    StableHlo.unary main_v598 main_v599 (broadcastInDim S1x1 ![1] bcast_S1_S1x1_1 : (⟨S1, .f32⟩ : BufTy).Contents (Elt F) → (⟨S1x1, .f32⟩ : BufTy).Contents (Elt F)),  -- %599 = stablehlo.broadcast_in_dim %598, dims = [1] : (tensor<1xf32>) -> tensor<1x1xf32>  @ reference:77
    StableHlo.unary main_v599 main_v600 (broadcastInDim S10000x1 ![0, 1] bcast_S1x1_S10000x1_0_1 : (⟨S1x1, .f32⟩ : BufTy).Contents (Elt F) → (⟨S10000x1, .f32⟩ : BufTy).Contents (Elt F)),  -- %600 = stablehlo.broadcast_in_dim %599, dims = [0, 1] : (tensor<1x1xf32>) -> tensor<10000x1xf32>  @ reference:77
    StableHlo.binary main_v596 main_v600 main_v601 (addf : (⟨S10000x1, .f32⟩ : BufTy).Contents (Elt F) → (⟨S10000x1, .f32⟩ : BufTy).Contents (Elt F) → (⟨S10000x1, .f32⟩ : BufTy).Contents (Elt F)),  -- %601 = stablehlo.add %596, %600 : tensor<10000x1xf32>  @ reference:77
    StableHlo.unary main_v601 main_v602 (broadcastInDim S10000x1x1 ![0, 1] bcast_S10000x1_S10000x1x1_0_1 : (⟨S10000x1, .f32⟩ : BufTy).Contents (Elt F) → (⟨S10000x1x1, .f32⟩ : BufTy).Contents (Elt F)),  -- %602 = stablehlo.broadcast_in_dim %601, dims = [0, 1] : (tensor<10000x1xf32>) -> tensor<10000x1x1xf32>  @ reference:78
    StableHlo.unary main_v602 main_v603 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %603 = stablehlo.broadcast_in_dim %602, dims = [0, 1, 2] : (tensor<10000x1x1xf32>) -> tensor<10000x1x64xf32>  @ reference:78
    StableHlo.binary main_v588 main_v603 main_v604 (mulf : (⟨S10000x1x64, .f32⟩ : BufTy).Contents (Elt F) → (⟨S10000x1x64, .f32⟩ : BufTy).Contents (Elt F) → (⟨S10000x1x64, .f32⟩ : BufTy).Contents (Elt F)),  -- %604 = stablehlo.multiply %588, %603 : tensor<10000x1x64xf32>  @ reference:78
    StableHlo.binary main_v522 main_v604 main_v605 (addf : (⟨S10000x1x64, .f32⟩ : BufTy).Contents (Elt F) → (⟨S10000x1x64, .f32⟩ : BufTy).Contents (Elt F) → (⟨S10000x1x64, .f32⟩ : BufTy).Contents (Elt F)) ]  -- %605 = stablehlo.add %522, %604 : tensor<10000x1x64xf32>  @ reference:78

theorem opsL6_sub : (opsL6 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL6 writes (each operation writes one, its result's), in order. -/
abbrev wL6 : List (Ref sig .tc) :=
  [main_cst_107, main_v523, main_v524, main_c_108, main_v525, main_v526, main_c_109, main_v527, main_v528, main_v529, main_v530, main_v531,
    main_c_110, main_v532, main_v533, main_c_111, main_v534, main_v535, main_v536, main_v537, main_v538, main_v539, main_call20.cst.ref,
    main_call20.v0.ref, main_call20.v1.ref, main_call20.cst_0.ref, main_call20.v2.ref, main_call20.v3.ref, main_call20.cst_1.ref,
    main_call20.call0.v0.ref, main_call20.call0.v1.ref, main_call20.call0.v2.ref, main_call20.v5.ref, main_call20.cst_2.ref, main_call20.v6.ref,
    main_call20.v7.ref, main_call20.call1.v0.ref, main_v541, main_v542, main_v543, main_v544, main_v545, main_cst_112, main_v546,
    main_call21.cst.ref, main_call21.v0.ref, main_call21.v1.ref, main_call21.v2.ref, main_call21.v3.ref, main_call21.v4.ref, main_call21.v5.ref,
    main_call21.v6.ref, main_call21.v7.ref, main_call21.v8.ref, main_call21.v9.ref, main_call21.v10.ref, main_call21.v11.ref, main_call21.v12.ref,
    main_cst_113, main_v548, main_v549, main_cst_114, main_v550, main_v551, main_v552, main_cst_115, main_v553, main_v554, main_cst_116, main_v555,
    main_v556, main_c_117, main_v557, main_v558, main_c_118, main_v559, main_v560, main_v561, main_v562, main_v563, main_v564, main_c_119, main_v565,
    main_v566, main_c_120, main_v567, main_v568, main_v569, main_v570, main_v571, main_v572, main_v573, main_c_121, main_v574, main_v575, main_c_122,
    main_v576, main_v577, main_v578, main_v579, main_v580, main_v581, main_v582, main_v583, main_cst_123, main_v584, main_v585, main_v586, main_v587,
    main_v588, main_v589, main_v590, main_v591, main_call22.cst.ref, main_call22.v0.ref, main_call22.v1.ref, main_call22.cst_0.ref,
    main_call22.v2.ref, main_call22.v3.ref, main_call22.cst_1.ref, main_call22.call0.v0.ref, main_call22.call0.v1.ref, main_call22.call0.v2.ref,
    main_call22.v5.ref, main_call22.cst_2.ref, main_call22.v6.ref, main_call22.v7.ref, main_call22.call1.v0.ref, main_v593, main_v594, main_v595,
    main_cst_124, main_v596, main_v597, main_v598, main_v599, main_v600, main_v601, main_v602, main_v603, main_v604, main_v605]
theorem opsL6_writes : (opsL6 : List (HloOp τ sig (Elt F))).Forall fun op =>
    op.writes ⊆ (wL6.map (Proc.devRef (τ := τ) .tc)).toFinset := by
  simp only [opsL6, List.Forall, nullary_writes, unary_writes, binary_writes, ternary_writes, reshape_writes]
  repeat' apply And.intro
  all_goals exact Finset.singleton_subset_iff.mpr (List.mem_toFinset.mpr (List.mem_map_of_mem (by decide)))
/-- opsL6 keeps every buffer it does not write. -/
theorem opsL6_kept (V : Valuation τ sig (Elt F)) (r : Ref sig .tc) (hr : r ∉ wL6) :
    after opsL6 V (Proc.devRef .tc r) = V (Proc.devRef .tc r) :=
  after_of_writes_sub opsL6 V opsL6_writes hr

end Cert.ReferenceIdeal.RefRun

end
-- ==== Proof.RefRun.L7.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 7: the state scaled, gathered along the edges, weighted, scattered back and added in. -/
abbrev opsL7 : List (HloOp τ sig (Elt F)) :=
  [ StableHlo.nullary main_cst_125 (constant S_ .f32 0x3DF138B3#32),  -- %cst_125 = stablehlo.constant dense<0.117783926> : tensor<f32>
    StableHlo.unary main_cst_125 main_v606 (broadcastInDim S10000x1x64 ![] bcast_S_S10000x1x64 : (⟨S_, .f32⟩ : BufTy).Contents (Elt F) → (⟨S10000x1x64, .f32⟩ : BufTy).Contents (Elt F)),  -- %606 = stablehlo.broadcast_in_dim %cst_125, dims = [] : (tensor<f32>) -> tensor<10000x1x64xf32>  @ reference:59
    StableHlo.binary main_v605 main_v606 main_v607 (mulf : (⟨S10000x1x64, .f32⟩ : BufTy).Contents (Elt F) → (⟨S10000x1x64, .f32⟩ : BufTy).Contents (Elt F) → (⟨S10000x1x64, .f32⟩ : BufTy).Contents (Elt F)),  -- %607 = stablehlo.multiply %605, %606 : tensor<10000x1x64xf32>  @ reference:59
    StableHlo.nullary main_c_126 (constantI S_ 32 0#32),  -- %c_126 = stablehlo.constant dense<0> : tensor<i32>
    StableHlo.unary main_c_126 main_v608 (broadcastInDim S320000 ![] bcast_S_S320000 : (⟨S_, .i32⟩ : BufTy).Contents (Elt F) → (⟨S320000, .i32⟩ : BufTy).Contents (Elt F)),  -- %608 = stablehlo.broadcast_in_dim %c_126, dims = [] : (tensor<i32>) -> tensor<320000xi32>  @ reference:62
    StableHlo.binary main_v1 main_v608 main_v609 (cmpi .slt : (⟨S320000, .i32⟩ : BufTy).Contents (Elt F) → (⟨S320000, .i32⟩ : BufTy).Contents (Elt F) → (⟨S320000, .i1⟩ : BufTy).Contents (Elt F)),  -- %609 = stablehlo.compare LT, %1, %608, SIGNED : (tensor<320000xi32>, tensor<320000xi32>) -> tensor<320000xi1>  @ reference:62
    StableHlo.nullary main_c_127 (constantI S_ 32 10000#32),  -- %c_127 = stablehlo.constant dense<10000> : tensor<i32>
    StableHlo.unary main_c_127 main_v610 (broadcastInDim S320000 ![] bcast_S_S320000 : (⟨S_, .i32⟩ : BufTy).Contents (Elt F) → (⟨S320000, .i32⟩ : BufTy).Contents (Elt F)),  -- %610 = stablehlo.broadcast_in_dim %c_127, dims = [] : (tensor<i32>) -> tensor<320000xi32>  @ reference:62
    StableHlo.binary main_v1 main_v610 main_v611 (addi : (⟨S320000, .i32⟩ : BufTy).Contents (Elt F) → (⟨S320000, .i32⟩ : BufTy).Contents (Elt F) → (⟨S320000, .i32⟩ : BufTy).Contents (Elt F)),  -- %611 = stablehlo.add %1, %610 : tensor<320000xi32>  @ reference:62
    StableHlo.ternary main_v609 main_v611 main_v1 main_v612 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %612 = stablehlo.select %609, %611, %1 : tensor<320000xi1>, tensor<320000xi32>  @ reference:62
    StableHlo.unary main_v612 main_v613 (broadcastInDim S320000x1 ![0] bcast_S320000_S320000x1_0 : (⟨S320000, .i32⟩ : BufTy).Contents (Elt F) → (⟨S320000x1, .i32⟩ : BufTy).Contents (Elt F)),  -- %613 = stablehlo.broadcast_in_dim %612, dims = [0] : (tensor<320000xi32>) -> tensor<320000x1xi32>  @ reference:62
    StableHlo.binary main_v607 main_v613 main_v614 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %614 = "stablehlo.gather"(%607, %613) <{dimension_numbers = #stablehlo.gather<offset_dims = [1, 2], collapsed_slice_dims = [0], start_index_map = [0],
    StableHlo.nullary main_c_128 (constantI S_ 32 0#32),  -- %c_128 = stablehlo.constant dense<0> : tensor<i32>
    StableHlo.unary main_c_128 main_v615 (broadcastInDim S320000 ![] bcast_S_S320000 : (⟨S_, .i32⟩ : BufTy).Contents (Elt F) → (⟨S320000, .i32⟩ : BufTy).Contents (Elt F)),  -- %615 = stablehlo.broadcast_in_dim %c_128, dims = [] : (tensor<i32>) -> tensor<320000xi32>  @ reference:62
    StableHlo.binary main_v3 main_v615 main_v616 (cmpi .slt : (⟨S320000, .i32⟩ : BufTy).Contents (Elt F) → (⟨S320000, .i32⟩ : BufTy).Contents (Elt F) → (⟨S320000, .i1⟩ : BufTy).Contents (Elt F)),  -- %616 = stablehlo.compare LT, %3, %615, SIGNED : (tensor<320000xi32>, tensor<320000xi32>) -> tensor<320000xi1>  @ reference:62
    StableHlo.nullary main_c_129 (constantI S_ 32 10000#32),  -- %c_129 = stablehlo.constant dense<10000> : tensor<i32>
    StableHlo.unary main_c_129 main_v617 (broadcastInDim S320000 ![] bcast_S_S320000 : (⟨S_, .i32⟩ : BufTy).Contents (Elt F) → (⟨S320000, .i32⟩ : BufTy).Contents (Elt F)),  -- %617 = stablehlo.broadcast_in_dim %c_129, dims = [] : (tensor<i32>) -> tensor<320000xi32>  @ reference:62
    StableHlo.binary main_v3 main_v617 main_v618 (addi : (⟨S320000, .i32⟩ : BufTy).Contents (Elt F) → (⟨S320000, .i32⟩ : BufTy).Contents (Elt F) → (⟨S320000, .i32⟩ : BufTy).Contents (Elt F)),  -- %618 = stablehlo.add %3, %617 : tensor<320000xi32>  @ reference:62
    StableHlo.ternary main_v616 main_v618 main_v3 main_v619 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %619 = stablehlo.select %616, %618, %3 : tensor<320000xi1>, tensor<320000xi32>  @ reference:62
    StableHlo.unary main_v619 main_v620 (broadcastInDim S320000x1 ![0] bcast_S320000_S320000x1_0 : (⟨S320000, .i32⟩ : BufTy).Contents (Elt F) → (⟨S320000x1, .i32⟩ : BufTy).Contents (Elt F)),  -- %620 = stablehlo.broadcast_in_dim %619, dims = [0] : (tensor<320000xi32>) -> tensor<320000x1xi32>  @ reference:62
    StableHlo.binary main_v607 main_v620 main_v621 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %621 = "stablehlo.gather"(%607, %620) <{dimension_numbers = #stablehlo.gather<offset_dims = [1, 2], collapsed_slice_dims = [0], start_index_map = [0],
    StableHlo.binary main_v614 main_v621 main_v622 (addf : (⟨S320000x1x64, .f32⟩ : BufTy).Contents (Elt F) → (⟨S320000x1x64, .f32⟩ : BufTy).Contents (Elt F) → (⟨S320000x1x64, .f32⟩ : BufTy).Contents (Elt F)),  -- %622 = stablehlo.add %614, %621 : tensor<320000x1x64xf32>  @ reference:62
    StableHlo.TRef.nullary main_call23.cst (constant S_ .f32 0x00000000#32),  -- @elu_4 in %623 = func.call @elu_4(%622): %cst = stablehlo.constant dense<0.000000e+00> : tensor<f32>
    StableHlo.TRef.unary main_call23.cst main_call23.v0 (broadcastInDim S320000x1x64 ![] bcast_S_S320000x1x64),  -- @elu_4 in %623 = func.call @elu_4(%622): %0 = stablehlo.broadcast_in_dim %cst, dims = [] : (tensor<f32>) -> tensor<320000x1x64xf32>
    StableHlo.TRef.binary (StableHlo.TRef.of (T := ⟨S320000x1x64, .f32⟩) main_v622) main_call23.v0 main_call23.v1 (cmpf .ogt),  -- @elu_4 in %623 = func.call @elu_4(%622): %1 = stablehlo.compare GT, %arg0, %0, FLOAT : (tensor<320000x1x64xf32>, tensor<320000x1x64xf32>) -> tensor<32
    StableHlo.TRef.nullary main_call23.cst_0 (constant S_ .f32 0x00000000#32),  -- @elu_4 in %623 = func.call @elu_4(%622): %cst_0 = stablehlo.constant dense<0.000000e+00> : tensor<f32>
    StableHlo.TRef.unary main_call23.cst_0 main_call23.v2 (broadcastInDim S320000x1x64 ![] bcast_S_S320000x1x64),  -- @elu_4 in %623 = func.call @elu_4(%622): %2 = stablehlo.broadcast_in_dim %cst_0, dims = [] : (tensor<f32>) -> tensor<320000x1x64xf32>
    StableHlo.TRef.binary (StableHlo.TRef.of (T := ⟨S320000x1x64, .f32⟩) main_v622) main_call23.v2 main_call23.v3 (cmpf .ogt),  -- @elu_4 in %623 = func.call @elu_4(%622): %3 = stablehlo.compare GT, %arg0, %2, FLOAT : (tensor<320000x1x64xf32>, tensor<320000x1x64xf32>) -> tensor<32
    StableHlo.TRef.nullary main_call23.cst_1 (constant S_ .f32 0x00000000#32),  -- @elu_4 in %623 = func.call @elu_4(%622): %cst_1 = stablehlo.constant dense<0.000000e+00> : tensor<f32>
    StableHlo.TRef.unary main_call23.cst_1 main_call23.call0.v0 id,  -- @where_5 in %623 = func.call @elu_4(%622): %0 = stablehlo.convert %arg1 : tensor<f32>
    StableHlo.TRef.unary main_call23.call0.v0 main_call23.call0.v1 (broadcastInDim S320000x1x64 ![] bcast_S_S320000x1x64),  -- @where_5 in %623 = func.call @elu_4(%622): %1 = stablehlo.broadcast_in_dim %0, dims = [] : (tensor<f32>) -> tensor<320000x1x64xf32>
    StableHlo.TRef.ternary main_call23.v3 main_call23.call0.v1 (StableHlo.TRef.of (T := ⟨S320000x1x64, .f32⟩) main_v622) main_call23.call0.v2 select,  -- @where_5 in %623 = func.call @elu_4(%622): %2 = stablehlo.select %arg0, %1, %arg2 : tensor<320000x1x64xi1>, tensor<320000x1x64xf32>
    StableHlo.TRef.unary main_call23.call0.v2 main_call23.v5 Host.expm1,  -- @elu_4 in %623 = func.call @elu_4(%622): %5 = stablehlo.exponential_minus_one %4 : tensor<320000x1x64xf32>
    StableHlo.TRef.nullary main_call23.cst_2 (constant S_ .f32 0x3F800000#32),  -- @elu_4 in %623 = func.call @elu_4(%622): %cst_2 = stablehlo.constant dense<1.000000e+00> : tensor<f32>
    StableHlo.TRef.unary main_call23.cst_2 main_call23.v6 (broadcastInDim S320000x1x64 ![] bcast_S_S320000x1x64),  -- @elu_4 in %623 = func.call @elu_4(%622): %6 = stablehlo.broadcast_in_dim %cst_2, dims = [] : (tensor<f32>) -> tensor<320000x1x64xf32>
    StableHlo.TRef.binary main_call23.v6 main_call23.v5 main_call23.v7 mulf,  -- @elu_4 in %623 = func.call @elu_4(%622): %7 = stablehlo.multiply %6, %5 : tensor<320000x1x64xf32>
    StableHlo.TRef.ternary main_call23.v1 (StableHlo.TRef.of (T := ⟨S320000x1x64, .f32⟩) main_v622) main_call23.v7 main_call23.call1.v0 select,  -- @where_6 in %623 = func.call @elu_4(%622): %0 = stablehlo.select %arg0, %arg1, %arg2 : tensor<320000x1x64xi1>, tensor<320000x1x64xf32>
    StableHlo.unary main_arg7 main_v624 ((extractStridedSlice S1x1x64 ![7, 0, 0] · slices_S9x1x64_S1x1x64_7_0_0) : (⟨S9x1x64, .f32⟩ : BufTy).Contents (Elt F) → (⟨S1x1x64, .f32⟩ : BufTy).Contents (Elt F)),  -- %624 = stablehlo.slice %arg7 [7:8, 0:1, 0:64] : (tensor<9x1x64xf32>) -> tensor<1x1x64xf32>  @ reference:63
    StableHlo.reshape main_v624 main_v625 rfl shapeCasts_S1x1x64_S1x64,  -- %625 = stablehlo.reshape %624 : (tensor<1x1x64xf32>) -> tensor<1x64xf32>  @ reference:63
    StableHlo.unary main_v625 main_v626 (broadcastInDim S1x1x64 ![1, 2] bcast_S1x64_S1x1x64_1_2 : (⟨S1x64, .f32⟩ : BufTy).Contents (Elt F) → (⟨S1x1x64, .f32⟩ : BufTy).Contents (Elt F)),  -- %626 = stablehlo.broadcast_in_dim %625, dims = [1, 2] : (tensor<1x64xf32>) -> tensor<1x1x64xf32>  @ reference:63
    StableHlo.unary main_v626 main_v627 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %627 = stablehlo.broadcast_in_dim %626, dims = [0, 1, 2] : (tensor<1x1x64xf32>) -> tensor<320000x1x64xf32>  @ reference:63
    StableHlo.binary main_v627 main_v623 main_v628 (mulf : (⟨S320000x1x64, .f32⟩ : BufTy).Contents (Elt F) → (⟨S320000x1x64, .f32⟩ : BufTy).Contents (Elt F) → (⟨S320000x1x64, .f32⟩ : BufTy).Contents (Elt F)),  -- %628 = stablehlo.multiply %627, %623 : tensor<320000x1x64xf32>  @ reference:63
    StableHlo.nullary main_cst_130 (constant S_ .f32 0x00000000#32),  -- %cst_130 = stablehlo.constant dense<0.000000e+00> : tensor<f32>
    StableHlo.binary main_v628 main_cst_130 main_v629 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %629 = stablehlo.reduce(%628 init: %cst_130) applies stablehlo.add across dimensions = [2] : (tensor<320000x1x64xf32>, tensor<f32>) -> tensor<320000x1
    StableHlo.TRef.nullary main_call24.cst (constant S_ .f32 0x00000000#32),  -- @softplus in %630 = func.call @softplus(%629): %cst = stablehlo.constant dense<0.000000e+00> : tensor<f32>
    StableHlo.TRef.unary main_call24.cst main_call24.v0 (broadcastInDim S320000x1 ![] bcast_S_S320000x1),  -- @softplus in %630 = func.call @softplus(%629): %0 = stablehlo.broadcast_in_dim %cst, dims = [] : (tensor<f32>) -> tensor<320000x1xf32>
    StableHlo.TRef.binary (StableHlo.TRef.of (T := ⟨S320000x1, .f32⟩) main_v629) main_call24.v0 main_call24.v1 maximumf,  -- @softplus in %630 = func.call @softplus(%629): %1 = stablehlo.maximum %arg0, %0 : tensor<320000x1xf32>
    StableHlo.TRef.unary main_call24.cst main_call24.v2 (broadcastInDim S320000x1 ![] bcast_S_S320000x1),  -- @softplus in %630 = func.call @softplus(%629): %2 = stablehlo.broadcast_in_dim %cst, dims = [] : (tensor<f32>) -> tensor<320000x1xf32>
    StableHlo.TRef.binary (StableHlo.TRef.of (T := ⟨S320000x1, .f32⟩) main_v629) main_call24.v2 main_call24.v3 subf,  -- @softplus in %630 = func.call @softplus(%629): %3 = stablehlo.subtract %arg0, %2 : tensor<320000x1xf32>
    StableHlo.TRef.binary main_call24.v3 main_call24.v3 main_call24.v4 (cmpf .une),  -- @softplus in %630 = func.call @softplus(%629): %4 = stablehlo.compare NE, %3, %3, FLOAT : (tensor<320000x1xf32>, tensor<320000x1xf32>) -> tensor<32000
    StableHlo.TRef.unary main_call24.cst main_call24.v5 (broadcastInDim S320000x1 ![] bcast_S_S320000x1),  -- @softplus in %630 = func.call @softplus(%629): %5 = stablehlo.broadcast_in_dim %cst, dims = [] : (tensor<f32>) -> tensor<320000x1xf32>
    StableHlo.TRef.binary (StableHlo.TRef.of (T := ⟨S320000x1, .f32⟩) main_v629) main_call24.v5 main_call24.v6 addf,  -- @softplus in %630 = func.call @softplus(%629): %6 = stablehlo.add %arg0, %5 : tensor<320000x1xf32>
    StableHlo.TRef.unary main_call24.v3 main_call24.v7 Host.absf,  -- @softplus in %630 = func.call @softplus(%629): %7 = stablehlo.abs %3 : tensor<320000x1xf32>
    StableHlo.TRef.unary main_call24.v7 main_call24.v8 Host.negf,  -- @softplus in %630 = func.call @softplus(%629): %8 = stablehlo.negate %7 : tensor<320000x1xf32>
    StableHlo.TRef.unary main_call24.v8 main_call24.v9 Host.exp,  -- @softplus in %630 = func.call @softplus(%629): %9 = stablehlo.exponential %8 : tensor<320000x1xf32>
    StableHlo.TRef.unary main_call24.v9 main_call24.v10 Host.log1p,  -- @softplus in %630 = func.call @softplus(%629): %10 = stablehlo.log_plus_one %9 : tensor<320000x1xf32>
    StableHlo.TRef.binary main_call24.v1 main_call24.v10 main_call24.v11 addf,  -- @softplus in %630 = func.call @softplus(%629): %11 = stablehlo.add %1, %10 : tensor<320000x1xf32>
    StableHlo.TRef.ternary main_call24.v4 main_call24.v6 main_call24.v11 main_call24.v12 select,  -- @softplus in %630 = func.call @softplus(%629): %12 = stablehlo.select %4, %6, %11 : tensor<320000x1xi1>, tensor<320000x1xf32>
    StableHlo.nullary main_cst_131 (constant S_ .f32 0x358637BD#32),  -- %cst_131 = stablehlo.constant dense<9.99999997E-7> : tensor<f32>
    StableHlo.unary main_cst_131 main_v631 (broadcastInDim S320000x1 ![] bcast_S_S320000x1 : (⟨S_, .f32⟩ : BufTy).Contents (Elt F) → (⟨S320000x1, .f32⟩ : BufTy).Contents (Elt F)),  -- %631 = stablehlo.broadcast_in_dim %cst_131, dims = [] : (tensor<f32>) -> tensor<320000x1xf32>  @ reference:63
    StableHlo.binary main_v630 main_v631 main_v632 (addf : (⟨S320000x1, .f32⟩ : BufTy).Contents (Elt F) → (⟨S320000x1, .f32⟩ : BufTy).Contents (Elt F) → (⟨S320000x1, .f32⟩ : BufTy).Contents (Elt F)),  -- %632 = stablehlo.add %630, %631 : tensor<320000x1xf32>  @ reference:63
    StableHlo.nullary main_cst_132 (constant S_ .f32 0x00000000#32),  -- %cst_132 = stablehlo.constant dense<0.000000e+00> : tensor<f32>
    StableHlo.unary main_cst_132 main_v633 (broadcastInDim S10000x1 ![] bcast_S_S10000x1 : (⟨S_, .f32⟩ : BufTy).Contents (Elt F) → (⟨S10000x1, .f32⟩ : BufTy).Contents (Elt F)),  -- %633 = stablehlo.broadcast_in_dim %cst_132, dims = [] : (tensor<f32>) -> tensor<10000x1xf32>  @ reference:66
    StableHlo.unary main_v3 main_v634 (broadcastInDim S320000x1 ![0] bcast_S320000_S320000x1_0 : (⟨S320000, .i32⟩ : BufTy).Contents (Elt F) → (⟨S320000x1, .i32⟩ : BufTy).Contents (Elt F)),  -- %634 = stablehlo.broadcast_in_dim %3, dims = [0] : (tensor<320000xi32>) -> tensor<320000x1xi32>  @ reference:66
    StableHlo.ternary main_v633 main_v634 main_v632 main_v635 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %635 = "stablehlo.scatter"(%633, %634, %632) <{indices_are_sorted = false, scatter_dimension_numbers = #stablehlo.scatter<update_window_dims = [1], in
    StableHlo.nullary main_cst_133 (constant S_ .f32 0x0A4FB11F#32),  -- %cst_133 = stablehlo.constant dense<1.000000e-32> : tensor<f32>
    StableHlo.unary main_cst_133 main_v636 (broadcastInDim S10000x1 ![] bcast_S_S10000x1 : (⟨S_, .f32⟩ : BufTy).Contents (Elt F) → (⟨S10000x1, .f32⟩ : BufTy).Contents (Elt F)),  -- %636 = stablehlo.broadcast_in_dim %cst_133, dims = [] : (tensor<f32>) -> tensor<10000x1xf32>  @ reference:67
    StableHlo.binary main_v635 main_v636 main_v637 (maximumf : (⟨S10000x1, .f32⟩ : BufTy).Contents (Elt F) → (⟨S10000x1, .f32⟩ : BufTy).Contents (Elt F) → (⟨S10000x1, .f32⟩ : BufTy).Contents (Elt F)),  -- %637 = stablehlo.maximum %635, %636 : tensor<10000x1xf32>  @ reference:67
    StableHlo.nullary main_cst_134 (constant S_ .f32 0xBF000000#32),  -- %cst_134 = stablehlo.constant dense<-5.000000e-01> : tensor<f32>
    StableHlo.unary main_cst_134 main_v638 (broadcastInDim S10000x1 ![] bcast_S_S10000x1 : (⟨S_, .f32⟩ : BufTy).Contents (Elt F) → (⟨S10000x1, .f32⟩ : BufTy).Contents (Elt F)),  -- %638 = stablehlo.broadcast_in_dim %cst_134, dims = [] : (tensor<f32>) -> tensor<10000x1xf32>  @ reference:67
    StableHlo.binary main_v637 main_v638 main_v639 (Host.powf : (⟨S10000x1, .f32⟩ : BufTy).Contents (Elt F) → (⟨S10000x1, .f32⟩ : BufTy).Contents (Elt F) → (⟨S10000x1, .f32⟩ : BufTy).Contents (Elt F)),  -- %639 = stablehlo.power %637, %638 : tensor<10000x1xf32>  @ reference:67
    StableHlo.nullary main_c_135 (constantI S_ 32 0#32),  -- %c_135 = stablehlo.constant dense<0> : tensor<i32>
    StableHlo.unary main_c_135 main_v640 (broadcastInDim S320000 ![] bcast_S_S320000 : (⟨S_, .i32⟩ : BufTy).Contents (Elt F) → (⟨S320000, .i32⟩ : BufTy).Contents (Elt F)),  -- %640 = stablehlo.broadcast_in_dim %c_135, dims = [] : (tensor<i32>) -> tensor<320000xi32>  @ reference:68
    StableHlo.binary main_v1 main_v640 main_v641 (cmpi .slt : (⟨S320000, .i32⟩ : BufTy).Contents (Elt F) → (⟨S320000, .i32⟩ : BufTy).Contents (Elt F) → (⟨S320000, .i1⟩ : BufTy).Contents (Elt F)),  -- %641 = stablehlo.compare LT, %1, %640, SIGNED : (tensor<320000xi32>, tensor<320000xi32>) -> tensor<320000xi1>  @ reference:68
    StableHlo.nullary main_c_136 (constantI S_ 32 10000#32),  -- %c_136 = stablehlo.constant dense<10000> : tensor<i32>
    StableHlo.unary main_c_136 main_v642 (broadcastInDim S320000 ![] bcast_S_S320000 : (⟨S_, .i32⟩ : BufTy).Contents (Elt F) → (⟨S320000, .i32⟩ : BufTy).Contents (Elt F)),  -- %642 = stablehlo.broadcast_in_dim %c_136, dims = [] : (tensor<i32>) -> tensor<320000xi32>  @ reference:68
    StableHlo.binary main_v1 main_v642 main_v643 (addi : (⟨S320000, .i32⟩ : BufTy).Contents (Elt F) → (⟨S320000, .i32⟩ : BufTy).Contents (Elt F) → (⟨S320000, .i32⟩ : BufTy).Contents (Elt F)),  -- %643 = stablehlo.add %1, %642 : tensor<320000xi32>  @ reference:68
    StableHlo.ternary main_v641 main_v643 main_v1 main_v644 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %644 = stablehlo.select %641, %643, %1 : tensor<320000xi1>, tensor<320000xi32>  @ reference:68
    StableHlo.unary main_v644 main_v645 (broadcastInDim S320000x1 ![0] bcast_S320000_S320000x1_0 : (⟨S320000, .i32⟩ : BufTy).Contents (Elt F) → (⟨S320000x1, .i32⟩ : BufTy).Contents (Elt F)),  -- %645 = stablehlo.broadcast_in_dim %644, dims = [0] : (tensor<320000xi32>) -> tensor<320000x1xi32>  @ reference:68
    StableHlo.binary main_v639 main_v645 main_v646 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %646 = "stablehlo.gather"(%639, %645) <{dimension_numbers = #stablehlo.gather<offset_dims = [1], collapsed_slice_dims = [0], start_index_map = [0], in
    StableHlo.binary main_v646 main_v632 main_v647 (mulf : (⟨S320000x1, .f32⟩ : BufTy).Contents (Elt F) → (⟨S320000x1, .f32⟩ : BufTy).Contents (Elt F) → (⟨S320000x1, .f32⟩ : BufTy).Contents (Elt F)),  -- %647 = stablehlo.multiply %646, %632 : tensor<320000x1xf32>  @ reference:68
    StableHlo.nullary main_c_137 (constantI S_ 32 0#32),  -- %c_137 = stablehlo.constant dense<0> : tensor<i32>
    StableHlo.unary main_c_137 main_v648 (broadcastInDim S320000 ![] bcast_S_S320000 : (⟨S_, .i32⟩ : BufTy).Contents (Elt F) → (⟨S320000, .i32⟩ : BufTy).Contents (Elt F)),  -- %648 = stablehlo.broadcast_in_dim %c_137, dims = [] : (tensor<i32>) -> tensor<320000xi32>  @ reference:68
    StableHlo.binary main_v3 main_v648 main_v649 (cmpi .slt : (⟨S320000, .i32⟩ : BufTy).Contents (Elt F) → (⟨S320000, .i32⟩ : BufTy).Contents (Elt F) → (⟨S320000, .i1⟩ : BufTy).Contents (Elt F)),  -- %649 = stablehlo.compare LT, %3, %648, SIGNED : (tensor<320000xi32>, tensor<320000xi32>) -> tensor<320000xi1>  @ reference:68
    StableHlo.nullary main_c_138 (constantI S_ 32 10000#32),  -- %c_138 = stablehlo.constant dense<10000> : tensor<i32>
    StableHlo.unary main_c_138 main_v650 (broadcastInDim S320000 ![] bcast_S_S320000 : (⟨S_, .i32⟩ : BufTy).Contents (Elt F) → (⟨S320000, .i32⟩ : BufTy).Contents (Elt F)),  -- %650 = stablehlo.broadcast_in_dim %c_138, dims = [] : (tensor<i32>) -> tensor<320000xi32>  @ reference:68
    StableHlo.binary main_v3 main_v650 main_v651 (addi : (⟨S320000, .i32⟩ : BufTy).Contents (Elt F) → (⟨S320000, .i32⟩ : BufTy).Contents (Elt F) → (⟨S320000, .i32⟩ : BufTy).Contents (Elt F)),  -- %651 = stablehlo.add %3, %650 : tensor<320000xi32>  @ reference:68
    StableHlo.ternary main_v649 main_v651 main_v3 main_v652 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %652 = stablehlo.select %649, %651, %3 : tensor<320000xi1>, tensor<320000xi32>  @ reference:68
    StableHlo.unary main_v652 main_v653 (broadcastInDim S320000x1 ![0] bcast_S320000_S320000x1_0 : (⟨S320000, .i32⟩ : BufTy).Contents (Elt F) → (⟨S320000x1, .i32⟩ : BufTy).Contents (Elt F)),  -- %653 = stablehlo.broadcast_in_dim %652, dims = [0] : (tensor<320000xi32>) -> tensor<320000x1xi32>  @ reference:68
    StableHlo.binary main_v639 main_v653 main_v654 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %654 = "stablehlo.gather"(%639, %653) <{dimension_numbers = #stablehlo.gather<offset_dims = [1], collapsed_slice_dims = [0], start_index_map = [0], in
    StableHlo.binary main_v647 main_v654 main_v655 (mulf : (⟨S320000x1, .f32⟩ : BufTy).Contents (Elt F) → (⟨S320000x1, .f32⟩ : BufTy).Contents (Elt F) → (⟨S320000x1, .f32⟩ : BufTy).Contents (Elt F)),  -- %655 = stablehlo.multiply %647, %654 : tensor<320000x1xf32>  @ reference:68
    StableHlo.unary main_v655 main_v656 (broadcastInDim S320000x1x1 ![0, 1] bcast_S320000x1_S320000x1x1_0_1 : (⟨S320000x1, .f32⟩ : BufTy).Contents (Elt F) → (⟨S320000x1x1, .f32⟩ : BufTy).Contents (Elt F)),  -- %656 = stablehlo.broadcast_in_dim %655, dims = [0, 1] : (tensor<320000x1xf32>) -> tensor<320000x1x1xf32>  @ reference:68
    StableHlo.nullary main_c_139 (constantI S_ 32 0#32),  -- %c_139 = stablehlo.constant dense<0> : tensor<i32>
    StableHlo.unary main_c_139 main_v657 (broadcastInDim S320000 ![] bcast_S_S320000 : (⟨S_, .i32⟩ : BufTy).Contents (Elt F) → (⟨S320000, .i32⟩ : BufTy).Contents (Elt F)),  -- %657 = stablehlo.broadcast_in_dim %c_139, dims = [] : (tensor<i32>) -> tensor<320000xi32>  @ reference:71
    StableHlo.binary main_v1 main_v657 main_v658 (cmpi .slt : (⟨S320000, .i32⟩ : BufTy).Contents (Elt F) → (⟨S320000, .i32⟩ : BufTy).Contents (Elt F) → (⟨S320000, .i1⟩ : BufTy).Contents (Elt F)),  -- %658 = stablehlo.compare LT, %1, %657, SIGNED : (tensor<320000xi32>, tensor<320000xi32>) -> tensor<320000xi1>  @ reference:71
    StableHlo.nullary main_c_140 (constantI S_ 32 10000#32),  -- %c_140 = stablehlo.constant dense<10000> : tensor<i32>
    StableHlo.unary main_c_140 main_v659 (broadcastInDim S320000 ![] bcast_S_S320000 : (⟨S_, .i32⟩ : BufTy).Contents (Elt F) → (⟨S320000, .i32⟩ : BufTy).Contents (Elt F)),  -- %659 = stablehlo.broadcast_in_dim %c_140, dims = [] : (tensor<i32>) -> tensor<320000xi32>  @ reference:71
    StableHlo.binary main_v1 main_v659 main_v660 (addi : (⟨S320000, .i32⟩ : BufTy).Contents (Elt F) → (⟨S320000, .i32⟩ : BufTy).Contents (Elt F) → (⟨S320000, .i32⟩ : BufTy).Contents (Elt F)),  -- %660 = stablehlo.add %1, %659 : tensor<320000xi32>  @ reference:71
    StableHlo.ternary main_v658 main_v660 main_v1 main_v661 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %661 = stablehlo.select %658, %660, %1 : tensor<320000xi1>, tensor<320000xi32>  @ reference:71
    StableHlo.unary main_v661 main_v662 (broadcastInDim S320000x1 ![0] bcast_S320000_S320000x1_0 : (⟨S320000, .i32⟩ : BufTy).Contents (Elt F) → (⟨S320000x1, .i32⟩ : BufTy).Contents (Elt F)),  -- %662 = stablehlo.broadcast_in_dim %661, dims = [0] : (tensor<320000xi32>) -> tensor<320000x1xi32>  @ reference:71
    StableHlo.binary main_v587 main_v662 main_v663 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %663 = "stablehlo.gather"(%587, %662) <{dimension_numbers = #stablehlo.gather<offset_dims = [1], collapsed_slice_dims = [0], start_index_map = [0], in
    StableHlo.reshape main_v663 main_v664 rfl shapeCasts_S320000x64_S320000x1x64,  -- %664 = stablehlo.reshape %663 : (tensor<320000x64xf32>) -> tensor<320000x1x64xf32>  @ reference:71
    StableHlo.unary main_v656 main_v665 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %665 = stablehlo.broadcast_in_dim %656, dims = [0, 1, 2] : (tensor<320000x1x1xf32>) -> tensor<320000x1x64xf32>  @ reference:71
    StableHlo.binary main_v664 main_v665 main_v666 (mulf : (⟨S320000x1x64, .f32⟩ : BufTy).Contents (Elt F) → (⟨S320000x1x64, .f32⟩ : BufTy).Contents (Elt F) → (⟨S320000x1x64, .f32⟩ : BufTy).Contents (Elt F)),  -- %666 = stablehlo.multiply %664, %665 : tensor<320000x1x64xf32>  @ reference:71
    StableHlo.nullary main_cst_141 (constant S_ .f32 0x00000000#32),  -- %cst_141 = stablehlo.constant dense<0.000000e+00> : tensor<f32>
    StableHlo.unary main_cst_141 main_v667 (broadcastInDim S10000x1x64 ![] bcast_S_S10000x1x64 : (⟨S_, .f32⟩ : BufTy).Contents (Elt F) → (⟨S10000x1x64, .f32⟩ : BufTy).Contents (Elt F)),  -- %667 = stablehlo.broadcast_in_dim %cst_141, dims = [] : (tensor<f32>) -> tensor<10000x1x64xf32>  @ reference:72
    StableHlo.unary main_v3 main_v668 (broadcastInDim S320000x1 ![0] bcast_S320000_S320000x1_0 : (⟨S320000, .i32⟩ : BufTy).Contents (Elt F) → (⟨S320000x1, .i32⟩ : BufTy).Contents (Elt F)),  -- %668 = stablehlo.broadcast_in_dim %3, dims = [0] : (tensor<320000xi32>) -> tensor<320000x1xi32>  @ reference:72
    StableHlo.ternary main_v667 main_v668 main_v666 main_v669 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %669 = "stablehlo.scatter"(%667, %668, %666) <{indices_are_sorted = false, scatter_dimension_numbers = #stablehlo.scatter<update_window_dims = [1, 2],
    StableHlo.reshape main_v669 main_v670 rfl shapeCasts_S10000x1x64_S10000x64,  -- %670 = stablehlo.reshape %669 : (tensor<10000x1x64xf32>) -> tensor<10000x64xf32>  @ reference:72
    StableHlo.reshape main_v670 main_v671 rfl shapeCasts_S10000x64_S10000x1x64,  -- %671 = stablehlo.reshape %670 : (tensor<10000x64xf32>) -> tensor<10000x1x64xf32>  @ reference:75
    StableHlo.binary main_v671 main_v607 main_v672 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %672 = stablehlo.concatenate %671, %607, dim = 2 : (tensor<10000x1x64xf32>, tensor<10000x1x64xf32>) -> tensor<10000x1x128xf32>  @ reference:76
    StableHlo.unary main_arg10 main_v673 ((extractStridedSlice S1x1x128 ![7, 0, 0] · slices_S9x1x128_S1x1x128_7_0_0) : (⟨S9x1x128, .f32⟩ : BufTy).Contents (Elt F) → (⟨S1x1x128, .f32⟩ : BufTy).Contents (Elt F)),  -- %673 = stablehlo.slice %arg10 [7:8, 0:1, 0:128] : (tensor<9x1x128xf32>) -> tensor<1x1x128xf32>  @ reference:77
    StableHlo.reshape main_v673 main_v674 rfl shapeCasts_S1x1x128_S1x128,  -- %674 = stablehlo.reshape %673 : (tensor<1x1x128xf32>) -> tensor<1x128xf32>  @ reference:77
    StableHlo.TRef.nullary main_call25.cst (constant S_ .f32 0x00000000#32),  -- @elu_7 in %675 = func.call @elu_7(%672): %cst = stablehlo.constant dense<0.000000e+00> : tensor<f32>
    StableHlo.TRef.unary main_call25.cst main_call25.v0 (broadcastInDim S10000x1x128 ![] bcast_S_S10000x1x128),  -- @elu_7 in %675 = func.call @elu_7(%672): %0 = stablehlo.broadcast_in_dim %cst, dims = [] : (tensor<f32>) -> tensor<10000x1x128xf32>
    StableHlo.TRef.binary (StableHlo.TRef.of (T := ⟨S10000x1x128, .f32⟩) main_v672) main_call25.v0 main_call25.v1 (cmpf .ogt),  -- @elu_7 in %675 = func.call @elu_7(%672): %1 = stablehlo.compare GT, %arg0, %0, FLOAT : (tensor<10000x1x128xf32>, tensor<10000x1x128xf32>) -> tensor<10
    StableHlo.TRef.nullary main_call25.cst_0 (constant S_ .f32 0x00000000#32),  -- @elu_7 in %675 = func.call @elu_7(%672): %cst_0 = stablehlo.constant dense<0.000000e+00> : tensor<f32>
    StableHlo.TRef.unary main_call25.cst_0 main_call25.v2 (broadcastInDim S10000x1x128 ![] bcast_S_S10000x1x128),  -- @elu_7 in %675 = func.call @elu_7(%672): %2 = stablehlo.broadcast_in_dim %cst_0, dims = [] : (tensor<f32>) -> tensor<10000x1x128xf32>
    StableHlo.TRef.binary (StableHlo.TRef.of (T := ⟨S10000x1x128, .f32⟩) main_v672) main_call25.v2 main_call25.v3 (cmpf .ogt),  -- @elu_7 in %675 = func.call @elu_7(%672): %3 = stablehlo.compare GT, %arg0, %2, FLOAT : (tensor<10000x1x128xf32>, tensor<10000x1x128xf32>) -> tensor<10
    StableHlo.TRef.nullary main_call25.cst_1 (constant S_ .f32 0x00000000#32),  -- @elu_7 in %675 = func.call @elu_7(%672): %cst_1 = stablehlo.constant dense<0.000000e+00> : tensor<f32>
    StableHlo.TRef.unary main_call25.cst_1 main_call25.call0.v0 id,  -- @where_8 in %675 = func.call @elu_7(%672): %0 = stablehlo.convert %arg1 : tensor<f32>
    StableHlo.TRef.unary main_call25.call0.v0 main_call25.call0.v1 (broadcastInDim S10000x1x128 ![] bcast_S_S10000x1x128),  -- @where_8 in %675 = func.call @elu_7(%672): %1 = stablehlo.broadcast_in_dim %0, dims = [] : (tensor<f32>) -> tensor<10000x1x128xf32>
    StableHlo.TRef.ternary main_call25.v3 main_call25.call0.v1 (StableHlo.TRef.of (T := ⟨S10000x1x128, .f32⟩) main_v672) main_call25.call0.v2 select,  -- @where_8 in %675 = func.call @elu_7(%672): %2 = stablehlo.select %arg0, %1, %arg2 : tensor<10000x1x128xi1>, tensor<10000x1x128xf32>
    StableHlo.TRef.unary main_call25.call0.v2 main_call25.v5 Host.expm1,  -- @elu_7 in %675 = func.call @elu_7(%672): %5 = stablehlo.exponential_minus_one %4 : tensor<10000x1x128xf32>
    StableHlo.TRef.nullary main_call25.cst_2 (constant S_ .f32 0x3F800000#32),  -- @elu_7 in %675 = func.call @elu_7(%672): %cst_2 = stablehlo.constant dense<1.000000e+00> : tensor<f32>
    StableHlo.TRef.unary main_call25.cst_2 main_call25.v6 (broadcastInDim S10000x1x128 ![] bcast_S_S10000x1x128),  -- @elu_7 in %675 = func.call @elu_7(%672): %6 = stablehlo.broadcast_in_dim %cst_2, dims = [] : (tensor<f32>) -> tensor<10000x1x128xf32>
    StableHlo.TRef.binary main_call25.v6 main_call25.v5 main_call25.v7 mulf,  -- @elu_7 in %675 = func.call @elu_7(%672): %7 = stablehlo.multiply %6, %5 : tensor<10000x1x128xf32>
    StableHlo.TRef.ternary main_call25.v1 (StableHlo.TRef.of (T := ⟨S10000x1x128, .f32⟩) main_v672) main_call25.v7 main_call25.call1.v0 select,  -- @where_9 in %675 = func.call @elu_7(%672): %0 = stablehlo.select %arg0, %arg1, %arg2 : tensor<10000x1x128xi1>, tensor<10000x1x128xf32>
    StableHlo.unary main_v674 main_v676 (broadcastInDim S1x1x128 ![1, 2] bcast_S1x128_S1x1x128_1_2 : (⟨S1x128, .f32⟩ : BufTy).Contents (Elt F) → (⟨S1x1x128, .f32⟩ : BufTy).Contents (Elt F)),  -- %676 = stablehlo.broadcast_in_dim %674, dims = [1, 2] : (tensor<1x128xf32>) -> tensor<1x1x128xf32>  @ reference:77
    StableHlo.unary main_v676 main_v677 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %677 = stablehlo.broadcast_in_dim %676, dims = [0, 1, 2] : (tensor<1x1x128xf32>) -> tensor<10000x1x128xf32>  @ reference:77
    StableHlo.binary main_v677 main_v675 main_v678 (mulf : (⟨S10000x1x128, .f32⟩ : BufTy).Contents (Elt F) → (⟨S10000x1x128, .f32⟩ : BufTy).Contents (Elt F) → (⟨S10000x1x128, .f32⟩ : BufTy).Contents (Elt F)),  -- %678 = stablehlo.multiply %677, %675 : tensor<10000x1x128xf32>  @ reference:77
    StableHlo.nullary main_cst_142 (constant S_ .f32 0x00000000#32),  -- %cst_142 = stablehlo.constant dense<0.000000e+00> : tensor<f32>
    StableHlo.binary main_v678 main_cst_142 main_v679 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %679 = stablehlo.reduce(%678 init: %cst_142) applies stablehlo.add across dimensions = [2] : (tensor<10000x1x128xf32>, tensor<f32>) -> tensor<10000x1x
    StableHlo.unary main_arg11 main_v680 ((extractStridedSlice S1x1 ![7, 0] · slices_S9x1_S1x1_7_0) : (⟨S9x1, .f32⟩ : BufTy).Contents (Elt F) → (⟨S1x1, .f32⟩ : BufTy).Contents (Elt F)),  -- %680 = stablehlo.slice %arg11 [7:8, 0:1] : (tensor<9x1xf32>) -> tensor<1x1xf32>  @ reference:77
    StableHlo.reshape main_v680 main_v681 rfl shapeCasts_S1x1_S1,  -- %681 = stablehlo.reshape %680 : (tensor<1x1xf32>) -> tensor<1xf32>  @ reference:77
    StableHlo.unary main_v681 main_v682 (broadcastInDim S1x1 ![1] bcast_S1_S1x1_1 : (⟨S1, .f32⟩ : BufTy).Contents (Elt F) → (⟨S1x1, .f32⟩ : BufTy).Contents (Elt F)),  -- %682 = stablehlo.broadcast_in_dim %681, dims = [1] : (tensor<1xf32>) -> tensor<1x1xf32>  @ reference:77
    StableHlo.unary main_v682 main_v683 (broadcastInDim S10000x1 ![0, 1] bcast_S1x1_S10000x1_0_1 : (⟨S1x1, .f32⟩ : BufTy).Contents (Elt F) → (⟨S10000x1, .f32⟩ : BufTy).Contents (Elt F)),  -- %683 = stablehlo.broadcast_in_dim %682, dims = [0, 1] : (tensor<1x1xf32>) -> tensor<10000x1xf32>  @ reference:77
    StableHlo.binary main_v679 main_v683 main_v684 (addf : (⟨S10000x1, .f32⟩ : BufTy).Contents (Elt F) → (⟨S10000x1, .f32⟩ : BufTy).Contents (Elt F) → (⟨S10000x1, .f32⟩ : BufTy).Contents (Elt F)),  -- %684 = stablehlo.add %679, %683 : tensor<10000x1xf32>  @ reference:77
    StableHlo.unary main_v684 main_v685 (broadcastInDim S10000x1x1 ![0, 1] bcast_S10000x1_S10000x1x1_0_1 : (⟨S10000x1, .f32⟩ : BufTy).Contents (Elt F) → (⟨S10000x1x1, .f32⟩ : BufTy).Contents (Elt F)),  -- %685 = stablehlo.broadcast_in_dim %684, dims = [0, 1] : (tensor<10000x1xf32>) -> tensor<10000x1x1xf32>  @ reference:78
    StableHlo.unary main_v685 main_v686 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %686 = stablehlo.broadcast_in_dim %685, dims = [0, 1, 2] : (tensor<10000x1x1xf32>) -> tensor<10000x1x64xf32>  @ reference:78
    StableHlo.binary main_v671 main_v686 main_v687 (mulf : (⟨S10000x1x64, .f32⟩ : BufTy).Contents (Elt F) → (⟨S10000x1x64, .f32⟩ : BufTy).Contents (Elt F) → (⟨S10000x1x64, .f32⟩ : BufTy).Contents (Elt F)),  -- %687 = stablehlo.multiply %671, %686 : tensor<10000x1x64xf32>  @ reference:78
    StableHlo.binary main_v605 main_v687 main_v688 (addf : (⟨S10000x1x64, .f32⟩ : BufTy).Contents (Elt F) → (⟨S10000x1x64, .f32⟩ : BufTy).Contents (Elt F) → (⟨S10000x1x64, .f32⟩ : BufTy).Contents (Elt F)) ]  -- %688 = stablehlo.add %605, %687 : tensor<10000x1x64xf32>  @ reference:78

theorem opsL7_sub : (opsL7 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL7 writes (each operation writes one, its result's), in order. -/
abbrev wL7 : List (Ref sig .tc) :=
  [main_cst_125, main_v606, main_v607, main_c_126, main_v608, main_v609, main_c_127, main_v610, main_v611, main_v612, main_v613, main_v614,
    main_c_128, main_v615, main_v616, main_c_129, main_v617, main_v618, main_v619, main_v620, main_v621, main_v622, main_call23.cst.ref,
    main_call23.v0.ref, main_call23.v1.ref, main_call23.cst_0.ref, main_call23.v2.ref, main_call23.v3.ref, main_call23.cst_1.ref,
    main_call23.call0.v0.ref, main_call23.call0.v1.ref, main_call23.call0.v2.ref, main_call23.v5.ref, main_call23.cst_2.ref, main_call23.v6.ref,
    main_call23.v7.ref, main_call23.call1.v0.ref, main_v624, main_v625, main_v626, main_v627, main_v628, main_cst_130, main_v629,
    main_call24.cst.ref, main_call24.v0.ref, main_call24.v1.ref, main_call24.v2.ref, main_call24.v3.ref, main_call24.v4.ref, main_call24.v5.ref,
    main_call24.v6.ref, main_call24.v7.ref, main_call24.v8.ref, main_call24.v9.ref, main_call24.v10.ref, main_call24.v11.ref, main_call24.v12.ref,
    main_cst_131, main_v631, main_v632, main_cst_132, main_v633, main_v634, main_v635, main_cst_133, main_v636, main_v637, main_cst_134, main_v638,
    main_v639, main_c_135, main_v640, main_v641, main_c_136, main_v642, main_v643, main_v644, main_v645, main_v646, main_v647, main_c_137, main_v648,
    main_v649, main_c_138, main_v650, main_v651, main_v652, main_v653, main_v654, main_v655, main_v656, main_c_139, main_v657, main_v658, main_c_140,
    main_v659, main_v660, main_v661, main_v662, main_v663, main_v664, main_v665, main_v666, main_cst_141, main_v667, main_v668, main_v669, main_v670,
    main_v671, main_v672, main_v673, main_v674, main_call25.cst.ref, main_call25.v0.ref, main_call25.v1.ref, main_call25.cst_0.ref,
    main_call25.v2.ref, main_call25.v3.ref, main_call25.cst_1.ref, main_call25.call0.v0.ref, main_call25.call0.v1.ref, main_call25.call0.v2.ref,
    main_call25.v5.ref, main_call25.cst_2.ref, main_call25.v6.ref, main_call25.v7.ref, main_call25.call1.v0.ref, main_v676, main_v677, main_v678,
    main_cst_142, main_v679, main_v680, main_v681, main_v682, main_v683, main_v684, main_v685, main_v686, main_v687, main_v688]
theorem opsL7_writes : (opsL7 : List (HloOp τ sig (Elt F))).Forall fun op =>
    op.writes ⊆ (wL7.map (Proc.devRef (τ := τ) .tc)).toFinset := by
  simp only [opsL7, List.Forall, nullary_writes, unary_writes, binary_writes, ternary_writes, reshape_writes]
  repeat' apply And.intro
  all_goals exact Finset.singleton_subset_iff.mpr (List.mem_toFinset.mpr (List.mem_map_of_mem (by decide)))
/-- opsL7 keeps every buffer it does not write. -/
theorem opsL7_kept (V : Valuation τ sig (Elt F)) (r : Ref sig .tc) (hr : r ∉ wL7) :
    after opsL7 V (Proc.devRef .tc r) = V (Proc.devRef .tc r) :=
  after_of_writes_sub opsL7 V opsL7_writes hr

end Cert.ReferenceIdeal.RefRun

end
-- ==== Proof.RefRun.L8.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 8: the state scaled, gathered along the edges, weighted, scattered back and added in. -/
abbrev opsL8 : List (HloOp τ sig (Elt F)) :=
  [ StableHlo.nullary main_cst_143 (constant S_ .f32 0x3DD7C7BA#32),  -- %cst_143 = stablehlo.constant dense<0.105361417> : tensor<f32>
    StableHlo.unary main_cst_143 main_v689 (broadcastInDim S10000x1x64 ![] bcast_S_S10000x1x64 : (⟨S_, .f32⟩ : BufTy).Contents (Elt F) → (⟨S10000x1x64, .f32⟩ : BufTy).Contents (Elt F)),  -- %689 = stablehlo.broadcast_in_dim %cst_143, dims = [] : (tensor<f32>) -> tensor<10000x1x64xf32>  @ reference:59
    StableHlo.binary main_v688 main_v689 main_v690 (mulf : (⟨S10000x1x64, .f32⟩ : BufTy).Contents (Elt F) → (⟨S10000x1x64, .f32⟩ : BufTy).Contents (Elt F) → (⟨S10000x1x64, .f32⟩ : BufTy).Contents (Elt F)),  -- %690 = stablehlo.multiply %688, %689 : tensor<10000x1x64xf32>  @ reference:59
    StableHlo.nullary main_c_144 (constantI S_ 32 0#32),  -- %c_144 = stablehlo.constant dense<0> : tensor<i32>
    StableHlo.unary main_c_144 main_v691 (broadcastInDim S320000 ![] bcast_S_S320000 : (⟨S_, .i32⟩ : BufTy).Contents (Elt F) → (⟨S320000, .i32⟩ : BufTy).Contents (Elt F)),  -- %691 = stablehlo.broadcast_in_dim %c_144, dims = [] : (tensor<i32>) -> tensor<320000xi32>  @ reference:62
    StableHlo.binary main_v1 main_v691 main_v692 (cmpi .slt : (⟨S320000, .i32⟩ : BufTy).Contents (Elt F) → (⟨S320000, .i32⟩ : BufTy).Contents (Elt F) → (⟨S320000, .i1⟩ : BufTy).Contents (Elt F)),  -- %692 = stablehlo.compare LT, %1, %691, SIGNED : (tensor<320000xi32>, tensor<320000xi32>) -> tensor<320000xi1>  @ reference:62
    StableHlo.nullary main_c_145 (constantI S_ 32 10000#32),  -- %c_145 = stablehlo.constant dense<10000> : tensor<i32>
    StableHlo.unary main_c_145 main_v693 (broadcastInDim S320000 ![] bcast_S_S320000 : (⟨S_, .i32⟩ : BufTy).Contents (Elt F) → (⟨S320000, .i32⟩ : BufTy).Contents (Elt F)),  -- %693 = stablehlo.broadcast_in_dim %c_145, dims = [] : (tensor<i32>) -> tensor<320000xi32>  @ reference:62
    StableHlo.binary main_v1 main_v693 main_v694 (addi : (⟨S320000, .i32⟩ : BufTy).Contents (Elt F) → (⟨S320000, .i32⟩ : BufTy).Contents (Elt F) → (⟨S320000, .i32⟩ : BufTy).Contents (Elt F)),  -- %694 = stablehlo.add %1, %693 : tensor<320000xi32>  @ reference:62
    StableHlo.ternary main_v692 main_v694 main_v1 main_v695 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %695 = stablehlo.select %692, %694, %1 : tensor<320000xi1>, tensor<320000xi32>  @ reference:62
    StableHlo.unary main_v695 main_v696 (broadcastInDim S320000x1 ![0] bcast_S320000_S320000x1_0 : (⟨S320000, .i32⟩ : BufTy).Contents (Elt F) → (⟨S320000x1, .i32⟩ : BufTy).Contents (Elt F)),  -- %696 = stablehlo.broadcast_in_dim %695, dims = [0] : (tensor<320000xi32>) -> tensor<320000x1xi32>  @ reference:62
    StableHlo.binary main_v690 main_v696 main_v697 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %697 = "stablehlo.gather"(%690, %696) <{dimension_numbers = #stablehlo.gather<offset_dims = [1, 2], collapsed_slice_dims = [0], start_index_map = [0],
    StableHlo.nullary main_c_146 (constantI S_ 32 0#32),  -- %c_146 = stablehlo.constant dense<0> : tensor<i32>
    StableHlo.unary main_c_146 main_v698 (broadcastInDim S320000 ![] bcast_S_S320000 : (⟨S_, .i32⟩ : BufTy).Contents (Elt F) → (⟨S320000, .i32⟩ : BufTy).Contents (Elt F)),  -- %698 = stablehlo.broadcast_in_dim %c_146, dims = [] : (tensor<i32>) -> tensor<320000xi32>  @ reference:62
    StableHlo.binary main_v3 main_v698 main_v699 (cmpi .slt : (⟨S320000, .i32⟩ : BufTy).Contents (Elt F) → (⟨S320000, .i32⟩ : BufTy).Contents (Elt F) → (⟨S320000, .i1⟩ : BufTy).Contents (Elt F)),  -- %699 = stablehlo.compare LT, %3, %698, SIGNED : (tensor<320000xi32>, tensor<320000xi32>) -> tensor<320000xi1>  @ reference:62
    StableHlo.nullary main_c_147 (constantI S_ 32 10000#32),  -- %c_147 = stablehlo.constant dense<10000> : tensor<i32>
    StableHlo.unary main_c_147 main_v700 (broadcastInDim S320000 ![] bcast_S_S320000 : (⟨S_, .i32⟩ : BufTy).Contents (Elt F) → (⟨S320000, .i32⟩ : BufTy).Contents (Elt F)),  -- %700 = stablehlo.broadcast_in_dim %c_147, dims = [] : (tensor<i32>) -> tensor<320000xi32>  @ reference:62
    StableHlo.binary main_v3 main_v700 main_v701 (addi : (⟨S320000, .i32⟩ : BufTy).Contents (Elt F) → (⟨S320000, .i32⟩ : BufTy).Contents (Elt F) → (⟨S320000, .i32⟩ : BufTy).Contents (Elt F)),  -- %701 = stablehlo.add %3, %700 : tensor<320000xi32>  @ reference:62
    StableHlo.ternary main_v699 main_v701 main_v3 main_v702 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %702 = stablehlo.select %699, %701, %3 : tensor<320000xi1>, tensor<320000xi32>  @ reference:62
    StableHlo.unary main_v702 main_v703 (broadcastInDim S320000x1 ![0] bcast_S320000_S320000x1_0 : (⟨S320000, .i32⟩ : BufTy).Contents (Elt F) → (⟨S320000x1, .i32⟩ : BufTy).Contents (Elt F)),  -- %703 = stablehlo.broadcast_in_dim %702, dims = [0] : (tensor<320000xi32>) -> tensor<320000x1xi32>  @ reference:62
    StableHlo.binary main_v690 main_v703 main_v704 ((fun x i => Host.gather gather_S10000x1x64_S320000x1_S320000x1x64_12_0_n_n_0_1_1164 x i) : (⟨S10000x1x64, .f32⟩ : BufTy).Contents (Elt F) → (⟨S320000x1, .i32⟩ : BufTy).Contents (Elt F) → (⟨S320000x1x64, .f32⟩ : BufTy).Contents (Elt F)),  -- %704 = "stablehlo.gather"(%690, %703) <{dimension_numbers = #stablehlo.gather<offset_dims = [1, 2], collapsed_slice_dims = [0], start_index_map = [0],
    StableHlo.binary main_v697 main_v704 main_v705 (addf : (⟨S320000x1x64, .f32⟩ : BufTy).Contents (Elt F) → (⟨S320000x1x64, .f32⟩ : BufTy).Contents (Elt F) → (⟨S320000x1x64, .f32⟩ : BufTy).Contents (Elt F)),  -- %705 = stablehlo.add %697, %704 : tensor<320000x1x64xf32>  @ reference:62
    StableHlo.TRef.nullary main_call26.cst (constant S_ .f32 0x00000000#32),  -- @elu_4 in %706 = func.call @elu_4(%705): %cst = stablehlo.constant dense<0.000000e+00> : tensor<f32>
    StableHlo.TRef.unary main_call26.cst main_call26.v0 (broadcastInDim S320000x1x64 ![] bcast_S_S320000x1x64),  -- @elu_4 in %706 = func.call @elu_4(%705): %0 = stablehlo.broadcast_in_dim %cst, dims = [] : (tensor<f32>) -> tensor<320000x1x64xf32>
    StableHlo.TRef.binary (StableHlo.TRef.of (T := ⟨S320000x1x64, .f32⟩) main_v705) main_call26.v0 main_call26.v1 (cmpf .ogt),  -- @elu_4 in %706 = func.call @elu_4(%705): %1 = stablehlo.compare GT, %arg0, %0, FLOAT : (tensor<320000x1x64xf32>, tensor<320000x1x64xf32>) -> tensor<32
    StableHlo.TRef.nullary main_call26.cst_0 (constant S_ .f32 0x00000000#32),  -- @elu_4 in %706 = func.call @elu_4(%705): %cst_0 = stablehlo.constant dense<0.000000e+00> : tensor<f32>
    StableHlo.TRef.unary main_call26.cst_0 main_call26.v2 (broadcastInDim S320000x1x64 ![] bcast_S_S320000x1x64),  -- @elu_4 in %706 = func.call @elu_4(%705): %2 = stablehlo.broadcast_in_dim %cst_0, dims = [] : (tensor<f32>) -> tensor<320000x1x64xf32>
    StableHlo.TRef.binary (StableHlo.TRef.of (T := ⟨S320000x1x64, .f32⟩) main_v705) main_call26.v2 main_call26.v3 (cmpf .ogt),  -- @elu_4 in %706 = func.call @elu_4(%705): %3 = stablehlo.compare GT, %arg0, %2, FLOAT : (tensor<320000x1x64xf32>, tensor<320000x1x64xf32>) -> tensor<32
    StableHlo.TRef.nullary main_call26.cst_1 (constant S_ .f32 0x00000000#32),  -- @elu_4 in %706 = func.call @elu_4(%705): %cst_1 = stablehlo.constant dense<0.000000e+00> : tensor<f32>
    StableHlo.TRef.unary main_call26.cst_1 main_call26.call0.v0 id,  -- @where_5 in %706 = func.call @elu_4(%705): %0 = stablehlo.convert %arg1 : tensor<f32>
    StableHlo.TRef.unary main_call26.call0.v0 main_call26.call0.v1 (broadcastInDim S320000x1x64 ![] bcast_S_S320000x1x64),  -- @where_5 in %706 = func.call @elu_4(%705): %1 = stablehlo.broadcast_in_dim %0, dims = [] : (tensor<f32>) -> tensor<320000x1x64xf32>
    StableHlo.TRef.ternary main_call26.v3 main_call26.call0.v1 (StableHlo.TRef.of (T := ⟨S320000x1x64, .f32⟩) main_v705) main_call26.call0.v2 select,  -- @where_5 in %706 = func.call @elu_4(%705): %2 = stablehlo.select %arg0, %1, %arg2 : tensor<320000x1x64xi1>, tensor<320000x1x64xf32>
    StableHlo.TRef.unary main_call26.call0.v2 main_call26.v5 Host.expm1,  -- @elu_4 in %706 = func.call @elu_4(%705): %5 = stablehlo.exponential_minus_one %4 : tensor<320000x1x64xf32>
    StableHlo.TRef.nullary main_call26.cst_2 (constant S_ .f32 0x3F800000#32),  -- @elu_4 in %706 = func.call @elu_4(%705): %cst_2 = stablehlo.constant dense<1.000000e+00> : tensor<f32>
    StableHlo.TRef.unary main_call26.cst_2 main_call26.v6 (broadcastInDim S320000x1x64 ![] bcast_S_S320000x1x64),  -- @elu_4 in %706 = func.call @elu_4(%705): %6 = stablehlo.broadcast_in_dim %cst_2, dims = [] : (tensor<f32>) -> tensor<320000x1x64xf32>
    StableHlo.TRef.binary main_call26.v6 main_call26.v5 main_call26.v7 mulf,  -- @elu_4 in %706 = func.call @elu_4(%705): %7 = stablehlo.multiply %6, %5 : tensor<320000x1x64xf32>
    StableHlo.TRef.ternary main_call26.v1 (StableHlo.TRef.of (T := ⟨S320000x1x64, .f32⟩) main_v705) main_call26.v7 main_call26.call1.v0 select,  -- @where_6 in %706 = func.call @elu_4(%705): %0 = stablehlo.select %arg0, %arg1, %arg2 : tensor<320000x1x64xi1>, tensor<320000x1x64xf32>
    StableHlo.unary main_arg7 main_v707 ((extractStridedSlice S1x1x64 ![8, 0, 0] · slices_S9x1x64_S1x1x64_8_0_0) : (⟨S9x1x64, .f32⟩ : BufTy).Contents (Elt F) → (⟨S1x1x64, .f32⟩ : BufTy).Contents (Elt F)),  -- %707 = stablehlo.slice %arg7 [8:9, 0:1, 0:64] : (tensor<9x1x64xf32>) -> tensor<1x1x64xf32>  @ reference:63
    StableHlo.reshape main_v707 main_v708 rfl shapeCasts_S1x1x64_S1x64,  -- %708 = stablehlo.reshape %707 : (tensor<1x1x64xf32>) -> tensor<1x64xf32>  @ reference:63
    StableHlo.unary main_v708 main_v709 (broadcastInDim S1x1x64 ![1, 2] bcast_S1x64_S1x1x64_1_2 : (⟨S1x64, .f32⟩ : BufTy).Contents (Elt F) → (⟨S1x1x64, .f32⟩ : BufTy).Contents (Elt F)),  -- %709 = stablehlo.broadcast_in_dim %708, dims = [1, 2] : (tensor<1x64xf32>) -> tensor<1x1x64xf32>  @ reference:63
    StableHlo.unary main_v709 main_v710 (broadcastInDim S320000x1x64 ![0, 1, 2] bcast_S1x1x64_S320000x1x64_0_1_2 : (⟨S1x1x64, .f32⟩ : BufTy).Contents (Elt F) → (⟨S320000x1x64, .f32⟩ : BufTy).Contents (Elt F)),  -- %710 = stablehlo.broadcast_in_dim %709, dims = [0, 1, 2] : (tensor<1x1x64xf32>) -> tensor<320000x1x64xf32>  @ reference:63
    StableHlo.binary main_v710 main_v706 main_v711 (mulf : (⟨S320000x1x64, .f32⟩ : BufTy).Contents (Elt F) → (⟨S320000x1x64, .f32⟩ : BufTy).Contents (Elt F) → (⟨S320000x1x64, .f32⟩ : BufTy).Contents (Elt F)),  -- %711 = stablehlo.multiply %710, %706 : tensor<320000x1x64xf32>  @ reference:63
    StableHlo.nullary main_cst_148 (constant S_ .f32 0x00000000#32),  -- %cst_148 = stablehlo.constant dense<0.000000e+00> : tensor<f32>
    StableHlo.binary main_v711 main_cst_148 main_v712 ((fun x v => Host.reduceAdd x v reducesTo_S320000x1x64_S320000x1_d2 h_S_) : (⟨S320000x1x64, .f32⟩ : BufTy).Contents (Elt F) → (⟨S_, .f32⟩ : BufTy).Contents (Elt F) → (⟨S320000x1, .f32⟩ : BufTy).Contents (Elt F)),  -- %712 = stablehlo.reduce(%711 init: %cst_148) applies stablehlo.add across dimensions = [2] : (tensor<320000x1x64xf32>, tensor<f32>) -> tensor<320000x1
    StableHlo.TRef.nullary main_call27.cst (constant S_ .f32 0x00000000#32),  -- @softplus in %713 = func.call @softplus(%712): %cst = stablehlo.constant dense<0.000000e+00> : tensor<f32>
    StableHlo.TRef.unary main_call27.cst main_call27.v0 (broadcastInDim S320000x1 ![] bcast_S_S320000x1),  -- @softplus in %713 = func.call @softplus(%712): %0 = stablehlo.broadcast_in_dim %cst, dims = [] : (tensor<f32>) -> tensor<320000x1xf32>
    StableHlo.TRef.binary (StableHlo.TRef.of (T := ⟨S320000x1, .f32⟩) main_v712) main_call27.v0 main_call27.v1 maximumf,  -- @softplus in %713 = func.call @softplus(%712): %1 = stablehlo.maximum %arg0, %0 : tensor<320000x1xf32>
    StableHlo.TRef.unary main_call27.cst main_call27.v2 (broadcastInDim S320000x1 ![] bcast_S_S320000x1),  -- @softplus in %713 = func.call @softplus(%712): %2 = stablehlo.broadcast_in_dim %cst, dims = [] : (tensor<f32>) -> tensor<320000x1xf32>
    StableHlo.TRef.binary (StableHlo.TRef.of (T := ⟨S320000x1, .f32⟩) main_v712) main_call27.v2 main_call27.v3 subf,  -- @softplus in %713 = func.call @softplus(%712): %3 = stablehlo.subtract %arg0, %2 : tensor<320000x1xf32>
    StableHlo.TRef.binary main_call27.v3 main_call27.v3 main_call27.v4 (cmpf .une),  -- @softplus in %713 = func.call @softplus(%712): %4 = stablehlo.compare NE, %3, %3, FLOAT : (tensor<320000x1xf32>, tensor<320000x1xf32>) -> tensor<32000
    StableHlo.TRef.unary main_call27.cst main_call27.v5 (broadcastInDim S320000x1 ![] bcast_S_S320000x1),  -- @softplus in %713 = func.call @softplus(%712): %5 = stablehlo.broadcast_in_dim %cst, dims = [] : (tensor<f32>) -> tensor<320000x1xf32>
    StableHlo.TRef.binary (StableHlo.TRef.of (T := ⟨S320000x1, .f32⟩) main_v712) main_call27.v5 main_call27.v6 addf,  -- @softplus in %713 = func.call @softplus(%712): %6 = stablehlo.add %arg0, %5 : tensor<320000x1xf32>
    StableHlo.TRef.unary main_call27.v3 main_call27.v7 Host.absf,  -- @softplus in %713 = func.call @softplus(%712): %7 = stablehlo.abs %3 : tensor<320000x1xf32>
    StableHlo.TRef.unary main_call27.v7 main_call27.v8 Host.negf,  -- @softplus in %713 = func.call @softplus(%712): %8 = stablehlo.negate %7 : tensor<320000x1xf32>
    StableHlo.TRef.unary main_call27.v8 main_call27.v9 Host.exp,  -- @softplus in %713 = func.call @softplus(%712): %9 = stablehlo.exponential %8 : tensor<320000x1xf32>
    StableHlo.TRef.unary main_call27.v9 main_call27.v10 Host.log1p,  -- @softplus in %713 = func.call @softplus(%712): %10 = stablehlo.log_plus_one %9 : tensor<320000x1xf32>
    StableHlo.TRef.binary main_call27.v1 main_call27.v10 main_call27.v11 addf,  -- @softplus in %713 = func.call @softplus(%712): %11 = stablehlo.add %1, %10 : tensor<320000x1xf32>
    StableHlo.TRef.ternary main_call27.v4 main_call27.v6 main_call27.v11 main_call27.v12 select,  -- @softplus in %713 = func.call @softplus(%712): %12 = stablehlo.select %4, %6, %11 : tensor<320000x1xi1>, tensor<320000x1xf32>
    StableHlo.nullary main_cst_149 (constant S_ .f32 0x358637BD#32),  -- %cst_149 = stablehlo.constant dense<9.99999997E-7> : tensor<f32>
    StableHlo.unary main_cst_149 main_v714 (broadcastInDim S320000x1 ![] bcast_S_S320000x1 : (⟨S_, .f32⟩ : BufTy).Contents (Elt F) → (⟨S320000x1, .f32⟩ : BufTy).Contents (Elt F)),  -- %714 = stablehlo.broadcast_in_dim %cst_149, dims = [] : (tensor<f32>) -> tensor<320000x1xf32>  @ reference:63
    StableHlo.binary main_v713 main_v714 main_v715 (addf : (⟨S320000x1, .f32⟩ : BufTy).Contents (Elt F) → (⟨S320000x1, .f32⟩ : BufTy).Contents (Elt F) → (⟨S320000x1, .f32⟩ : BufTy).Contents (Elt F)),  -- %715 = stablehlo.add %713, %714 : tensor<320000x1xf32>  @ reference:63
    StableHlo.nullary main_cst_150 (constant S_ .f32 0x00000000#32),  -- %cst_150 = stablehlo.constant dense<0.000000e+00> : tensor<f32>
    StableHlo.unary main_cst_150 main_v716 (broadcastInDim S10000x1 ![] bcast_S_S10000x1 : (⟨S_, .f32⟩ : BufTy).Contents (Elt F) → (⟨S10000x1, .f32⟩ : BufTy).Contents (Elt F)),  -- %716 = stablehlo.broadcast_in_dim %cst_150, dims = [] : (tensor<f32>) -> tensor<10000x1xf32>  @ reference:66
    StableHlo.unary main_v3 main_v717 (broadcastInDim S320000x1 ![0] bcast_S320000_S320000x1_0 : (⟨S320000, .i32⟩ : BufTy).Contents (Elt F) → (⟨S320000x1, .i32⟩ : BufTy).Contents (Elt F)),  -- %717 = stablehlo.broadcast_in_dim %3, dims = [0] : (tensor<320000xi32>) -> tensor<320000x1xi32>  @ reference:66
    StableHlo.ternary main_v716 main_v717 main_v715 main_v718 ((fun x i u => Host.scatterAdd scatter_S10000x1_S320000x1_S320000x1_1_0_0_1 x i u) : (⟨S10000x1, .f32⟩ : BufTy).Contents (Elt F) → (⟨S320000x1, .i32⟩ : BufTy).Contents (Elt F) → (⟨S320000x1, .f32⟩ : BufTy).Contents (Elt F) → (⟨S10000x1, .f32⟩ : BufTy).Contents (Elt F)),  -- %718 = "stablehlo.scatter"(%716, %717, %715) <{indices_are_sorted = false, scatter_dimension_numbers = #stablehlo.scatter<update_window_dims = [1], in
    StableHlo.nullary main_cst_151 (constant S_ .f32 0x0A4FB11F#32),  -- %cst_151 = stablehlo.constant dense<1.000000e-32> : tensor<f32>
    StableHlo.unary main_cst_151 main_v719 (broadcastInDim S10000x1 ![] bcast_S_S10000x1 : (⟨S_, .f32⟩ : BufTy).Contents (Elt F) → (⟨S10000x1, .f32⟩ : BufTy).Contents (Elt F)),  -- %719 = stablehlo.broadcast_in_dim %cst_151, dims = [] : (tensor<f32>) -> tensor<10000x1xf32>  @ reference:67
    StableHlo.binary main_v718 main_v719 main_v720 (maximumf : (⟨S10000x1, .f32⟩ : BufTy).Contents (Elt F) → (⟨S10000x1, .f32⟩ : BufTy).Contents (Elt F) → (⟨S10000x1, .f32⟩ : BufTy).Contents (Elt F)),  -- %720 = stablehlo.maximum %718, %719 : tensor<10000x1xf32>  @ reference:67
    StableHlo.nullary main_cst_152 (constant S_ .f32 0xBF000000#32),  -- %cst_152 = stablehlo.constant dense<-5.000000e-01> : tensor<f32>
    StableHlo.unary main_cst_152 main_v721 (broadcastInDim S10000x1 ![] bcast_S_S10000x1 : (⟨S_, .f32⟩ : BufTy).Contents (Elt F) → (⟨S10000x1, .f32⟩ : BufTy).Contents (Elt F)),  -- %721 = stablehlo.broadcast_in_dim %cst_152, dims = [] : (tensor<f32>) -> tensor<10000x1xf32>  @ reference:67
    StableHlo.binary main_v720 main_v721 main_v722 (Host.powf : (⟨S10000x1, .f32⟩ : BufTy).Contents (Elt F) → (⟨S10000x1, .f32⟩ : BufTy).Contents (Elt F) → (⟨S10000x1, .f32⟩ : BufTy).Contents (Elt F)),  -- %722 = stablehlo.power %720, %721 : tensor<10000x1xf32>  @ reference:67
    StableHlo.nullary main_c_153 (constantI S_ 32 0#32),  -- %c_153 = stablehlo.constant dense<0> : tensor<i32>
    StableHlo.unary main_c_153 main_v723 (broadcastInDim S320000 ![] bcast_S_S320000 : (⟨S_, .i32⟩ : BufTy).Contents (Elt F) → (⟨S320000, .i32⟩ : BufTy).Contents (Elt F)),  -- %723 = stablehlo.broadcast_in_dim %c_153, dims = [] : (tensor<i32>) -> tensor<320000xi32>  @ reference:68
    StableHlo.binary main_v1 main_v723 main_v724 (cmpi .slt : (⟨S320000, .i32⟩ : BufTy).Contents (Elt F) → (⟨S320000, .i32⟩ : BufTy).Contents (Elt F) → (⟨S320000, .i1⟩ : BufTy).Contents (Elt F)),  -- %724 = stablehlo.compare LT, %1, %723, SIGNED : (tensor<320000xi32>, tensor<320000xi32>) -> tensor<320000xi1>  @ reference:68
    StableHlo.nullary main_c_154 (constantI S_ 32 10000#32),  -- %c_154 = stablehlo.constant dense<10000> : tensor<i32>
    StableHlo.unary main_c_154 main_v725 (broadcastInDim S320000 ![] bcast_S_S320000 : (⟨S_, .i32⟩ : BufTy).Contents (Elt F) → (⟨S320000, .i32⟩ : BufTy).Contents (Elt F)),  -- %725 = stablehlo.broadcast_in_dim %c_154, dims = [] : (tensor<i32>) -> tensor<320000xi32>  @ reference:68
    StableHlo.binary main_v1 main_v725 main_v726 (addi : (⟨S320000, .i32⟩ : BufTy).Contents (Elt F) → (⟨S320000, .i32⟩ : BufTy).Contents (Elt F) → (⟨S320000, .i32⟩ : BufTy).Contents (Elt F)),  -- %726 = stablehlo.add %1, %725 : tensor<320000xi32>  @ reference:68
    StableHlo.ternary main_v724 main_v726 main_v1 main_v727 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %727 = stablehlo.select %724, %726, %1 : tensor<320000xi1>, tensor<320000xi32>  @ reference:68
    StableHlo.unary main_v727 main_v728 (broadcastInDim S320000x1 ![0] bcast_S320000_S320000x1_0 : (⟨S320000, .i32⟩ : BufTy).Contents (Elt F) → (⟨S320000x1, .i32⟩ : BufTy).Contents (Elt F)),  -- %728 = stablehlo.broadcast_in_dim %727, dims = [0] : (tensor<320000xi32>) -> tensor<320000x1xi32>  @ reference:68
    StableHlo.binary main_v722 main_v728 main_v729 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %729 = "stablehlo.gather"(%722, %728) <{dimension_numbers = #stablehlo.gather<offset_dims = [1], collapsed_slice_dims = [0], start_index_map = [0], in
    StableHlo.binary main_v729 main_v715 main_v730 (mulf : (⟨S320000x1, .f32⟩ : BufTy).Contents (Elt F) → (⟨S320000x1, .f32⟩ : BufTy).Contents (Elt F) → (⟨S320000x1, .f32⟩ : BufTy).Contents (Elt F)),  -- %730 = stablehlo.multiply %729, %715 : tensor<320000x1xf32>  @ reference:68
    StableHlo.nullary main_c_155 (constantI S_ 32 0#32),  -- %c_155 = stablehlo.constant dense<0> : tensor<i32>
    StableHlo.unary main_c_155 main_v731 (broadcastInDim S320000 ![] bcast_S_S320000 : (⟨S_, .i32⟩ : BufTy).Contents (Elt F) → (⟨S320000, .i32⟩ : BufTy).Contents (Elt F)),  -- %731 = stablehlo.broadcast_in_dim %c_155, dims = [] : (tensor<i32>) -> tensor<320000xi32>  @ reference:68
    StableHlo.binary main_v3 main_v731 main_v732 (cmpi .slt : (⟨S320000, .i32⟩ : BufTy).Contents (Elt F) → (⟨S320000, .i32⟩ : BufTy).Contents (Elt F) → (⟨S320000, .i1⟩ : BufTy).Contents (Elt F)),  -- %732 = stablehlo.compare LT, %3, %731, SIGNED : (tensor<320000xi32>, tensor<320000xi32>) -> tensor<320000xi1>  @ reference:68
    StableHlo.nullary main_c_156 (constantI S_ 32 10000#32),  -- %c_156 = stablehlo.constant dense<10000> : tensor<i32>
    StableHlo.unary main_c_156 main_v733 (broadcastInDim S320000 ![] bcast_S_S320000 : (⟨S_, .i32⟩ : BufTy).Contents (Elt F) → (⟨S320000, .i32⟩ : BufTy).Contents (Elt F)),  -- %733 = stablehlo.broadcast_in_dim %c_156, dims = [] : (tensor<i32>) -> tensor<320000xi32>  @ reference:68
    StableHlo.binary main_v3 main_v733 main_v734 (addi : (⟨S320000, .i32⟩ : BufTy).Contents (Elt F) → (⟨S320000, .i32⟩ : BufTy).Contents (Elt F) → (⟨S320000, .i32⟩ : BufTy).Contents (Elt F)),  -- %734 = stablehlo.add %3, %733 : tensor<320000xi32>  @ reference:68
    StableHlo.ternary main_v732 main_v734 main_v3 main_v735 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %735 = stablehlo.select %732, %734, %3 : tensor<320000xi1>, tensor<320000xi32>  @ reference:68
    StableHlo.unary main_v735 main_v736 (broadcastInDim S320000x1 ![0] bcast_S320000_S320000x1_0 : (⟨S320000, .i32⟩ : BufTy).Contents (Elt F) → (⟨S320000x1, .i32⟩ : BufTy).Contents (Elt F)),  -- %736 = stablehlo.broadcast_in_dim %735, dims = [0] : (tensor<320000xi32>) -> tensor<320000x1xi32>  @ reference:68
    StableHlo.binary main_v722 main_v736 main_v737 ((fun x i => Host.gather gather_S10000x1_S320000x1_S320000x1_1_0_n_n_0_1_11 x i) : (⟨S10000x1, .f32⟩ : BufTy).Contents (Elt F) → (⟨S320000x1, .i32⟩ : BufTy).Contents (Elt F) → (⟨S320000x1, .f32⟩ : BufTy).Contents (Elt F)),  -- %737 = "stablehlo.gather"(%722, %736) <{dimension_numbers = #stablehlo.gather<offset_dims = [1], collapsed_slice_dims = [0], start_index_map = [0], in
    StableHlo.binary main_v730 main_v737 main_v738 (mulf : (⟨S320000x1, .f32⟩ : BufTy).Contents (Elt F) → (⟨S320000x1, .f32⟩ : BufTy).Contents (Elt F) → (⟨S320000x1, .f32⟩ : BufTy).Contents (Elt F)),  -- %738 = stablehlo.multiply %730, %737 : tensor<320000x1xf32>  @ reference:68
    StableHlo.unary main_v738 main_v739 (broadcastInDim S320000x1x1 ![0, 1] bcast_S320000x1_S320000x1x1_0_1 : (⟨S320000x1, .f32⟩ : BufTy).Contents (Elt F) → (⟨S320000x1x1, .f32⟩ : BufTy).Contents (Elt F)),  -- %739 = stablehlo.broadcast_in_dim %738, dims = [0, 1] : (tensor<320000x1xf32>) -> tensor<320000x1x1xf32>  @ reference:68
    StableHlo.nullary main_c_157 (constantI S_ 32 0#32),  -- %c_157 = stablehlo.constant dense<0> : tensor<i32>
    StableHlo.unary main_c_157 main_v740 (broadcastInDim S320000 ![] bcast_S_S320000 : (⟨S_, .i32⟩ : BufTy).Contents (Elt F) → (⟨S320000, .i32⟩ : BufTy).Contents (Elt F)),  -- %740 = stablehlo.broadcast_in_dim %c_157, dims = [] : (tensor<i32>) -> tensor<320000xi32>  @ reference:71
    StableHlo.binary main_v1 main_v740 main_v741 (cmpi .slt : (⟨S320000, .i32⟩ : BufTy).Contents (Elt F) → (⟨S320000, .i32⟩ : BufTy).Contents (Elt F) → (⟨S320000, .i1⟩ : BufTy).Contents (Elt F)),  -- %741 = stablehlo.compare LT, %1, %740, SIGNED : (tensor<320000xi32>, tensor<320000xi32>) -> tensor<320000xi1>  @ reference:71
    StableHlo.nullary main_c_158 (constantI S_ 32 10000#32),  -- %c_158 = stablehlo.constant dense<10000> : tensor<i32>
    StableHlo.unary main_c_158 main_v742 (broadcastInDim S320000 ![] bcast_S_S320000 : (⟨S_, .i32⟩ : BufTy).Contents (Elt F) → (⟨S320000, .i32⟩ : BufTy).Contents (Elt F)),  -- %742 = stablehlo.broadcast_in_dim %c_158, dims = [] : (tensor<i32>) -> tensor<320000xi32>  @ reference:71
    StableHlo.binary main_v1 main_v742 main_v743 (addi : (⟨S320000, .i32⟩ : BufTy).Contents (Elt F) → (⟨S320000, .i32⟩ : BufTy).Contents (Elt F) → (⟨S320000, .i32⟩ : BufTy).Contents (Elt F)),  -- %743 = stablehlo.add %1, %742 : tensor<320000xi32>  @ reference:71
    StableHlo.ternary main_v741 main_v743 main_v1 main_v744 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),  -- %744 = stablehlo.select %741, %743, %1 : tensor<320000xi1>, tensor<320000xi32>  @ reference:71
    StableHlo.unary main_v744 main_v745 (broadcastInDim S320000x1 ![0] bcast_S320000_S320000x1_0 : (⟨S320000, .i32⟩ : BufTy).Contents (Elt F) → (⟨S320000x1, .i32⟩ : BufTy).Contents (Elt F)),  -- %745 = stablehlo.broadcast_in_dim %744, dims = [0] : (tensor<320000xi32>) -> tensor<320000x1xi32>  @ reference:71
    StableHlo.binary main_v670 main_v745 main_v746 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),  -- %746 = "stablehlo.gather"(%670, %745) <{dimension_numbers = #stablehlo.gather<offset_dims = [1], collapsed_slice_dims = [0], start_index_map = [0], in
    StableHlo.reshape main_v746 main_v747 rfl shapeCasts_S320000x64_S320000x1x64,  -- %747 = stablehlo.reshape %746 : (tensor<320000x64xf32>) -> tensor<320000x1x64xf32>  @ reference:71
    StableHlo.unary main_v739 main_v748 (broadcastInDim S320000x1x64 ![0, 1, 2] bcast_S320000x1x1_S320000x1x64_0_1_2 : (⟨S320000x1x1, .f32⟩ : BufTy).Contents (Elt F) → (⟨S320000x1x64, .f32⟩ : BufTy).Contents (Elt F)),  -- %748 = stablehlo.broadcast_in_dim %739, dims = [0, 1, 2] : (tensor<320000x1x1xf32>) -> tensor<320000x1x64xf32>  @ reference:71
    StableHlo.binary main_v747 main_v748 main_v749 (mulf : (⟨S320000x1x64, .f32⟩ : BufTy).Contents (Elt F) → (⟨S320000x1x64, .f32⟩ : BufTy).Contents (Elt F) → (⟨S320000x1x64, .f32⟩ : BufTy).Contents (Elt F)),  -- %749 = stablehlo.multiply %747, %748 : tensor<320000x1x64xf32>  @ reference:71
    StableHlo.nullary main_cst_159 (constant S_ .f32 0x00000000#32),  -- %cst_159 = stablehlo.constant dense<0.000000e+00> : tensor<f32>
    StableHlo.unary main_cst_159 main_v750 (broadcastInDim S10000x1x64 ![] bcast_S_S10000x1x64 : (⟨S_, .f32⟩ : BufTy).Contents (Elt F) → (⟨S10000x1x64, .f32⟩ : BufTy).Contents (Elt F)),  -- %750 = stablehlo.broadcast_in_dim %cst_159, dims = [] : (tensor<f32>) -> tensor<10000x1x64xf32>  @ reference:72
    StableHlo.unary main_v3 main_v751 (broadcastInDim S320000x1 ![0] bcast_S320000_S320000x1_0 : (⟨S320000, .i32⟩ : BufTy).Contents (Elt F) → (⟨S320000x1, .i32⟩ : BufTy).Contents (Elt F)),  -- %751 = stablehlo.broadcast_in_dim %3, dims = [0] : (tensor<320000xi32>) -> tensor<320000x1xi32>  @ reference:72
    StableHlo.ternary main_v750 main_v751 main_v749 main_v752 ((fun x i u => Host.scatterAdd scatter_S10000x1x64_S320000x1_S320000x1x64_12_0_0_1 x i u) : (⟨S10000x1x64, .f32⟩ : BufTy).Contents (Elt F) → (⟨S320000x1, .i32⟩ : BufTy).Contents (Elt F) → (⟨S320000x1x64, .f32⟩ : BufTy).Contents (Elt F) → (⟨S10000x1x64, .f32⟩ : BufTy).Contents (Elt F)),  -- %752 = "stablehlo.scatter"(%750, %751, %749) <{indices_are_sorted = false, scatter_dimension_numbers = #stablehlo.scatter<update_window_dims = [1, 2],
    StableHlo.reshape main_v752 main_v753 rfl shapeCasts_S10000x1x64_S10000x64,  -- %753 = stablehlo.reshape %752 : (tensor<10000x1x64xf32>) -> tensor<10000x64xf32>  @ reference:72
    StableHlo.reshape main_v753 main_v754 rfl shapeCasts_S10000x64_S10000x1x64,  -- %754 = stablehlo.reshape %753 : (tensor<10000x64xf32>) -> tensor<10000x1x64xf32>  @ reference:75
    StableHlo.binary main_v754 main_v690 main_v755 ((fun a b => concatenate S10000x1x128 2 [⟨S10000x1x64, a⟩, ⟨S10000x1x64, b⟩] concatenates_S10000x1x64_S10000x1x64_S10000x1x128_d2) : (⟨S10000x1x64, .f32⟩ : BufTy).Contents (Elt F) → (⟨S10000x1x64, .f32⟩ : BufTy).Contents (Elt F) → (⟨S10000x1x128, .f32⟩ : BufTy).Contents (Elt F)),  -- %755 = stablehlo.concatenate %754, %690, dim = 2 : (tensor<10000x1x64xf32>, tensor<10000x1x64xf32>) -> tensor<10000x1x128xf32>  @ reference:76
    StableHlo.unary main_arg10 main_v756 ((extractStridedSlice S1x1x128 ![8, 0, 0] · slices_S9x1x128_S1x1x128_8_0_0) : (⟨S9x1x128, .f32⟩ : BufTy).Contents (Elt F) → (⟨S1x1x128, .f32⟩ : BufTy).Contents (Elt F)),  -- %756 = stablehlo.slice %arg10 [8:9, 0:1, 0:128] : (tensor<9x1x128xf32>) -> tensor<1x1x128xf32>  @ reference:77
    StableHlo.reshape main_v756 main_v757 rfl shapeCasts_S1x1x128_S1x128,  -- %757 = stablehlo.reshape %756 : (tensor<1x1x128xf32>) -> tensor<1x128xf32>  @ reference:77
    StableHlo.TRef.nullary main_call28.cst (constant S_ .f32 0x00000000#32),  -- @elu_7 in %758 = func.call @elu_7(%755): %cst = stablehlo.constant dense<0.000000e+00> : tensor<f32>
    StableHlo.TRef.unary main_call28.cst main_call28.v0 (broadcastInDim S10000x1x128 ![] bcast_S_S10000x1x128),  -- @elu_7 in %758 = func.call @elu_7(%755): %0 = stablehlo.broadcast_in_dim %cst, dims = [] : (tensor<f32>) -> tensor<10000x1x128xf32>
    StableHlo.TRef.binary (StableHlo.TRef.of (T := ⟨S10000x1x128, .f32⟩) main_v755) main_call28.v0 main_call28.v1 (cmpf .ogt),  -- @elu_7 in %758 = func.call @elu_7(%755): %1 = stablehlo.compare GT, %arg0, %0, FLOAT : (tensor<10000x1x128xf32>, tensor<10000x1x128xf32>) -> tensor<10
    StableHlo.TRef.nullary main_call28.cst_0 (constant S_ .f32 0x00000000#32),  -- @elu_7 in %758 = func.call @elu_7(%755): %cst_0 = stablehlo.constant dense<0.000000e+00> : tensor<f32>
    StableHlo.TRef.unary main_call28.cst_0 main_call28.v2 (broadcastInDim S10000x1x128 ![] bcast_S_S10000x1x128),  -- @elu_7 in %758 = func.call @elu_7(%755): %2 = stablehlo.broadcast_in_dim %cst_0, dims = [] : (tensor<f32>) -> tensor<10000x1x128xf32>
    StableHlo.TRef.binary (StableHlo.TRef.of (T := ⟨S10000x1x128, .f32⟩) main_v755) main_call28.v2 main_call28.v3 (cmpf .ogt),  -- @elu_7 in %758 = func.call @elu_7(%755): %3 = stablehlo.compare GT, %arg0, %2, FLOAT : (tensor<10000x1x128xf32>, tensor<10000x1x128xf32>) -> tensor<10
    StableHlo.TRef.nullary main_call28.cst_1 (constant S_ .f32 0x00000000#32),  -- @elu_7 in %758 = func.call @elu_7(%755): %cst_1 = stablehlo.constant dense<0.000000e+00> : tensor<f32>
    StableHlo.TRef.unary main_call28.cst_1 main_call28.call0.v0 id,  -- @where_8 in %758 = func.call @elu_7(%755): %0 = stablehlo.convert %arg1 : tensor<f32>
    StableHlo.TRef.unary main_call28.call0.v0 main_call28.call0.v1 (broadcastInDim S10000x1x128 ![] bcast_S_S10000x1x128),  -- @where_8 in %758 = func.call @elu_7(%755): %1 = stablehlo.broadcast_in_dim %0, dims = [] : (tensor<f32>) -> tensor<10000x1x128xf32>
    StableHlo.TRef.ternary main_call28.v3 main_call28.call0.v1 (StableHlo.TRef.of (T := ⟨S10000x1x128, .f32⟩) main_v755) main_call28.call0.v2 select,  -- @where_8 in %758 = func.call @elu_7(%755): %2 = stablehlo.select %arg0, %1, %arg2 : tensor<10000x1x128xi1>, tensor<10000x1x128xf32>
    StableHlo.TRef.unary main_call28.call0.v2 main_call28.v5 Host.expm1,  -- @elu_7 in %758 = func.call @elu_7(%755): %5 = stablehlo.exponential_minus_one %4 : tensor<10000x1x128xf32>
    StableHlo.TRef.nullary main_call28.cst_2 (constant S_ .f32 0x3F800000#32),  -- @elu_7 in %758 = func.call @elu_7(%755): %cst_2 = stablehlo.constant dense<1.000000e+00> : tensor<f32>
    StableHlo.TRef.unary main_call28.cst_2 main_call28.v6 (broadcastInDim S10000x1x128 ![] bcast_S_S10000x1x128),  -- @elu_7 in %758 = func.call @elu_7(%755): %6 = stablehlo.broadcast_in_dim %cst_2, dims = [] : (tensor<f32>) -> tensor<10000x1x128xf32>
    StableHlo.TRef.binary main_call28.v6 main_call28.v5 main_call28.v7 mulf,  -- @elu_7 in %758 = func.call @elu_7(%755): %7 = stablehlo.multiply %6, %5 : tensor<10000x1x128xf32>
    StableHlo.TRef.ternary main_call28.v1 (StableHlo.TRef.of (T := ⟨S10000x1x128, .f32⟩) main_v755) main_call28.v7 main_call28.call1.v0 select,  -- @where_9 in %758 = func.call @elu_7(%755): %0 = stablehlo.select %arg0, %arg1, %arg2 : tensor<10000x1x128xi1>, tensor<10000x1x128xf32>
    StableHlo.unary main_v757 main_v759 (broadcastInDim S1x1x128 ![1, 2] bcast_S1x128_S1x1x128_1_2 : (⟨S1x128, .f32⟩ : BufTy).Contents (Elt F) → (⟨S1x1x128, .f32⟩ : BufTy).Contents (Elt F)),  -- %759 = stablehlo.broadcast_in_dim %757, dims = [1, 2] : (tensor<1x128xf32>) -> tensor<1x1x128xf32>  @ reference:77
    StableHlo.unary main_v759 main_v760 (broadcastInDim S10000x1x128 ![0, 1, 2] bcast_S1x1x128_S10000x1x128_0_1_2 : (⟨S1x1x128, .f32⟩ : BufTy).Contents (Elt F) → (⟨S10000x1x128, .f32⟩ : BufTy).Contents (Elt F)),  -- %760 = stablehlo.broadcast_in_dim %759, dims = [0, 1, 2] : (tensor<1x1x128xf32>) -> tensor<10000x1x128xf32>  @ reference:77
    StableHlo.binary main_v760 main_v758 main_v761 (mulf : (⟨S10000x1x128, .f32⟩ : BufTy).Contents (Elt F) → (⟨S10000x1x128, .f32⟩ : BufTy).Contents (Elt F) → (⟨S10000x1x128, .f32⟩ : BufTy).Contents (Elt F)),  -- %761 = stablehlo.multiply %760, %758 : tensor<10000x1x128xf32>  @ reference:77
    StableHlo.nullary main_cst_160 (constant S_ .f32 0x00000000#32),  -- %cst_160 = stablehlo.constant dense<0.000000e+00> : tensor<f32>
    StableHlo.binary main_v761 main_cst_160 main_v762 ((fun x v => Host.reduceAdd x v reducesTo_S10000x1x128_S10000x1_d2 h_S_) : (⟨S10000x1x128, .f32⟩ : BufTy).Contents (Elt F) → (⟨S_, .f32⟩ : BufTy).Contents (Elt F) → (⟨S10000x1, .f32⟩ : BufTy).Contents (Elt F)),  -- %762 = stablehlo.reduce(%761 init: %cst_160) applies stablehlo.add across dimensions = [2] : (tensor<10000x1x128xf32>, tensor<f32>) -> tensor<10000x1x
    StableHlo.unary main_arg11 main_v763 ((extractStridedSlice S1x1 ![8, 0] · slices_S9x1_S1x1_8_0) : (⟨S9x1, .f32⟩ : BufTy).Contents (Elt F) → (⟨S1x1, .f32⟩ : BufTy).Contents (Elt F)),  -- %763 = stablehlo.slice %arg11 [8:9, 0:1] : (tensor<9x1xf32>) -> tensor<1x1xf32>  @ reference:77
    StableHlo.reshape main_v763 main_v764 rfl shapeCasts_S1x1_S1,  -- %764 = stablehlo.reshape %763 : (tensor<1x1xf32>) -> tensor<1xf32>  @ reference:77
    StableHlo.unary main_v764 main_v765 (broadcastInDim S1x1 ![1] bcast_S1_S1x1_1 : (⟨S1, .f32⟩ : BufTy).Contents (Elt F) → (⟨S1x1, .f32⟩ : BufTy).Contents (Elt F)),  -- %765 = stablehlo.broadcast_in_dim %764, dims = [1] : (tensor<1xf32>) -> tensor<1x1xf32>  @ reference:77
    StableHlo.unary main_v765 main_v766 (broadcastInDim S10000x1 ![0, 1] bcast_S1x1_S10000x1_0_1 : (⟨S1x1, .f32⟩ : BufTy).Contents (Elt F) → (⟨S10000x1, .f32⟩ : BufTy).Contents (Elt F)),  -- %766 = stablehlo.broadcast_in_dim %765, dims = [0, 1] : (tensor<1x1xf32>) -> tensor<10000x1xf32>  @ reference:77
    StableHlo.binary main_v762 main_v766 main_v767 (addf : (⟨S10000x1, .f32⟩ : BufTy).Contents (Elt F) → (⟨S10000x1, .f32⟩ : BufTy).Contents (Elt F) → (⟨S10000x1, .f32⟩ : BufTy).Contents (Elt F)),  -- %767 = stablehlo.add %762, %766 : tensor<10000x1xf32>  @ reference:77
    StableHlo.unary main_v767 main_v768 (broadcastInDim S10000x1x1 ![0, 1] bcast_S10000x1_S10000x1x1_0_1 : (⟨S10000x1, .f32⟩ : BufTy).Contents (Elt F) → (⟨S10000x1x1, .f32⟩ : BufTy).Contents (Elt F)),  -- %768 = stablehlo.broadcast_in_dim %767, dims = [0, 1] : (tensor<10000x1xf32>) -> tensor<10000x1x1xf32>  @ reference:78
    StableHlo.unary main_v768 main_v769 (broadcastInDim S10000x1x64 ![0, 1, 2] bcast_S10000x1x1_S10000x1x64_0_1_2 : (⟨S10000x1x1, .f32⟩ : BufTy).Contents (Elt F) → (⟨S10000x1x64, .f32⟩ : BufTy).Contents (Elt F)),  -- %769 = stablehlo.broadcast_in_dim %768, dims = [0, 1, 2] : (tensor<10000x1x1xf32>) -> tensor<10000x1x64xf32>  @ reference:78
    StableHlo.binary main_v754 main_v769 main_v770 (mulf : (⟨S10000x1x64, .f32⟩ : BufTy).Contents (Elt F) → (⟨S10000x1x64, .f32⟩ : BufTy).Contents (Elt F) → (⟨S10000x1x64, .f32⟩ : BufTy).Contents (Elt F)),  -- %770 = stablehlo.multiply %754, %769 : tensor<10000x1x64xf32>  @ reference:78
    StableHlo.binary main_v688 main_v770 main_v771 (addf : (⟨S10000x1x64, .f32⟩ : BufTy).Contents (Elt F) → (⟨S10000x1x64, .f32⟩ : BufTy).Contents (Elt F) → (⟨S10000x1x64, .f32⟩ : BufTy).Contents (Elt F)) ]  -- %771 = stablehlo.add %688, %770 : tensor<10000x1x64xf32>  @ reference:78

theorem opsL8_sub : (opsL8 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., binary_bufs_sub .., nullary_bufs_sub ..,
    unary_bufs_sub .., unary_bufs_sub .., ternary_bufs_sub .., reshape_bufs_sub .., reshape_bufs_sub .., binary_bufs_sub .., unary_bufs_sub ..,
    reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., unary_bufs_sub .., unary_bufs_sub .., binary_bufs_sub .., nullary_bufs_sub .., binary_bufs_sub ..,
    unary_bufs_sub .., reshape_bufs_sub .., unary_bufs_sub .., unary_bufs_sub .., binary_bufs_sub .., unary_bufs_sub .., unary_bufs_sub ..,
    binary_bufs_sub .., binary_bufs_sub ..⟩

/-- The buffers opsL8 writes (each operation writes one, its result's), in order. -/
abbrev wL8 : List (Ref sig .tc) :=
  [main_cst_143, main_v689, main_v690, main_c_144, main_v691, main_v692, main_c_145, main_v693, main_v694, main_v695, main_v696, main_v697,
    main_c_146, main_v698, main_v699, main_c_147, main_v700, main_v701, main_v702, main_v703, main_v704, main_v705, main_call26.cst.ref,
    main_call26.v0.ref, main_call26.v1.ref, main_call26.cst_0.ref, main_call26.v2.ref, main_call26.v3.ref, main_call26.cst_1.ref,
    main_call26.call0.v0.ref, main_call26.call0.v1.ref, main_call26.call0.v2.ref, main_call26.v5.ref, main_call26.cst_2.ref, main_call26.v6.ref,
    main_call26.v7.ref, main_call26.call1.v0.ref, main_v707, main_v708, main_v709, main_v710, main_v711, main_cst_148, main_v712,
    main_call27.cst.ref, main_call27.v0.ref, main_call27.v1.ref, main_call27.v2.ref, main_call27.v3.ref, main_call27.v4.ref, main_call27.v5.ref,
    main_call27.v6.ref, main_call27.v7.ref, main_call27.v8.ref, main_call27.v9.ref, main_call27.v10.ref, main_call27.v11.ref, main_call27.v12.ref,
    main_cst_149, main_v714, main_v715, main_cst_150, main_v716, main_v717, main_v718, main_cst_151, main_v719, main_v720, main_cst_152, main_v721,
    main_v722, main_c_153, main_v723, main_v724, main_c_154, main_v725, main_v726, main_v727, main_v728, main_v729, main_v730, main_c_155, main_v731,
    main_v732, main_c_156, main_v733, main_v734, main_v735, main_v736, main_v737, main_v738, main_v739, main_c_157, main_v740, main_v741, main_c_158,
    main_v742, main_v743, main_v744, main_v745, main_v746, main_v747, main_v748, main_v749, main_cst_159, main_v750, main_v751, main_v752, main_v753,
    main_v754, main_v755, main_v756, main_v757, main_call28.cst.ref, main_call28.v0.ref, main_call28.v1.ref, main_call28.cst_0.ref,
    main_call28.v2.ref, main_call28.v3.ref, main_call28.cst_1.ref, main_call28.call0.v0.ref, main_call28.call0.v1.ref, main_call28.call0.v2.ref,
    main_call28.v5.ref, main_call28.cst_2.ref, main_call28.v6.ref, main_call28.v7.ref, main_call28.call1.v0.ref, main_v759, main_v760, main_v761,
    main_cst_160, main_v762, main_v763, main_v764, main_v765, main_v766, main_v767, main_v768, main_v769, main_v770, main_v771]
theorem opsL8_writes : (opsL8 : List (HloOp τ sig (Elt F))).Forall fun op =>
    op.writes ⊆ (wL8.map (Proc.devRef (τ := τ) .tc)).toFinset := by
  simp only [opsL8, List.Forall, nullary_writes, unary_writes, binary_writes, ternary_writes, reshape_writes]
  repeat' apply And.intro
  all_goals exact Finset.singleton_subset_iff.mpr (List.mem_toFinset.mpr (List.mem_map_of_mem (by decide)))
/-- opsL8 keeps every buffer it does not write. -/
theorem opsL8_kept (V : Valuation τ sig (Elt F)) (r : Ref sig .tc) (hr : r ∉ wL8) :
    after opsL8 V (Proc.devRef .tc r) = V (Proc.devRef .tc r) :=
  after_of_writes_sub opsL8 V opsL8_writes hr

end Cert.ReferenceIdeal.RefRun

end
-- ==== Proof.RefRun.Out.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The readout: elu, the sums by graph and the counts, their quotient, the last affine map. -/
abbrev opsOut : List (HloOp τ sig (Elt F)) :=
  [ StableHlo.reshape main_v771 main_v772 rfl shapeCasts_S10000x1x64_S10000x64,  -- %772 = stablehlo.reshape %771 : (tensor<10000x1x64xf32>) -> tensor<10000x64xf32>  @ reference:81
    StableHlo.TRef.nullary main_call29.cst (constant S_ .f32 0x00000000#32),  -- @elu in %773 = func.call @elu(%772): %cst = stablehlo.constant dense<0.000000e+00> : tensor<f32>
    StableHlo.TRef.unary main_call29.cst main_call29.v0 (broadcastInDim S10000x64 ![] bcast_S_S10000x64),  -- @elu in %773 = func.call @elu(%772): %0 = stablehlo.broadcast_in_dim %cst, dims = [] : (tensor<f32>) -> tensor<10000x64xf32>
    StableHlo.TRef.binary (StableHlo.TRef.of (T := ⟨S10000x64, .f32⟩) main_v772) main_call29.v0 main_call29.v1 (cmpf .ogt),  -- @elu in %773 = func.call @elu(%772): %1 = stablehlo.compare GT, %arg0, %0, FLOAT : (tensor<10000x64xf32>, tensor<10000x64xf32>) -> tensor<10000x64xi1>
    StableHlo.TRef.nullary main_call29.cst_0 (constant S_ .f32 0x00000000#32),  -- @elu in %773 = func.call @elu(%772): %cst_0 = stablehlo.constant dense<0.000000e+00> : tensor<f32>
    StableHlo.TRef.unary main_call29.cst_0 main_call29.v2 (broadcastInDim S10000x64 ![] bcast_S_S10000x64),  -- @elu in %773 = func.call @elu(%772): %2 = stablehlo.broadcast_in_dim %cst_0, dims = [] : (tensor<f32>) -> tensor<10000x64xf32>
    StableHlo.TRef.binary (StableHlo.TRef.of (T := ⟨S10000x64, .f32⟩) main_v772) main_call29.v2 main_call29.v3 (cmpf .ogt),  -- @elu in %773 = func.call @elu(%772): %3 = stablehlo.compare GT, %arg0, %2, FLOAT : (tensor<10000x64xf32>, tensor<10000x64xf32>) -> tensor<10000x64xi1>
    StableHlo.TRef.nullary main_call29.cst_1 (constant S_ .f32 0x00000000#32),  -- @elu in %773 = func.call @elu(%772): %cst_1 = stablehlo.constant dense<0.000000e+00> : tensor<f32>
    StableHlo.TRef.unary main_call29.cst_1 main_call29.call0.v0 id,  -- @where in %773 = func.call @elu(%772): %0 = stablehlo.convert %arg1 : tensor<f32>
    StableHlo.TRef.unary main_call29.call0.v0 main_call29.call0.v1 (broadcastInDim S10000x64 ![] bcast_S_S10000x64),  -- @where in %773 = func.call @elu(%772): %1 = stablehlo.broadcast_in_dim %0, dims = [] : (tensor<f32>) -> tensor<10000x64xf32>
    StableHlo.TRef.ternary main_call29.v3 main_call29.call0.v1 (StableHlo.TRef.of (T := ⟨S10000x64, .f32⟩) main_v772) main_call29.call0.v2 select,  -- @where in %773 = func.call @elu(%772): %2 = stablehlo.select %arg0, %1, %arg2 : tensor<10000x64xi1>, tensor<10000x64xf32>
    StableHlo.TRef.unary main_call29.call0.v2 main_call29.v5 Host.expm1,  -- @elu in %773 = func.call @elu(%772): %5 = stablehlo.exponential_minus_one %4 : tensor<10000x64xf32>
    StableHlo.TRef.nullary main_call29.cst_2 (constant S_ .f32 0x3F800000#32),  -- @elu in %773 = func.call @elu(%772): %cst_2 = stablehlo.constant dense<1.000000e+00> : tensor<f32>
    StableHlo.TRef.unary main_call29.cst_2 main_call29.v6 (broadcastInDim S10000x64 ![] bcast_S_S10000x64),  -- @elu in %773 = func.call @elu(%772): %6 = stablehlo.broadcast_in_dim %cst_2, dims = [] : (tensor<f32>) -> tensor<10000x64xf32>
    StableHlo.TRef.binary main_call29.v6 main_call29.v5 main_call29.v7 mulf,  -- @elu in %773 = func.call @elu(%772): %7 = stablehlo.multiply %6, %5 : tensor<10000x64xf32>
    StableHlo.TRef.ternary main_call29.v1 (StableHlo.TRef.of (T := ⟨S10000x64, .f32⟩) main_v772) main_call29.v7 main_call29.call1.v0 select,  -- @where_0 in %773 = func.call @elu(%772): %0 = stablehlo.select %arg0, %arg1, %arg2 : tensor<10000x64xi1>, tensor<10000x64xf32>
    StableHlo.nullary main_cst_161 (constant S_ .f32 0x00000000#32),  -- %cst_161 = stablehlo.constant dense<0.000000e+00> : tensor<f32>
    StableHlo.unary main_cst_161 main_v774 (broadcastInDim S64x64 ![] bcast_S_S64x64 : (⟨S_, .f32⟩ : BufTy).Contents (Elt F) → (⟨S64x64, .f32⟩ : BufTy).Contents (Elt F)),  -- %774 = stablehlo.broadcast_in_dim %cst_161, dims = [] : (tensor<f32>) -> tensor<64x64xf32>  @ reference:82
    StableHlo.unary main_arg2 main_v775 (broadcastInDim S10000x1 ![0] bcast_S10000_S10000x1_0 : (⟨S10000, .i32⟩ : BufTy).Contents (Elt F) → (⟨S10000x1, .i32⟩ : BufTy).Contents (Elt F)),  -- %775 = stablehlo.broadcast_in_dim %arg2, dims = [0] : (tensor<10000xi32>) -> tensor<10000x1xi32>  @ reference:82
    StableHlo.ternary main_v774 main_v775 main_v773 main_v776 ((fun x i u => Host.scatterAdd scatter_S64x64_S10000x1_S10000x64_1_0_0_1 x i u) : (⟨S64x64, .f32⟩ : BufTy).Contents (Elt F) → (⟨S10000x1, .i32⟩ : BufTy).Contents (Elt F) → (⟨S10000x64, .f32⟩ : BufTy).Contents (Elt F) → (⟨S64x64, .f32⟩ : BufTy).Contents (Elt F)),  -- %776 = "stablehlo.scatter"(%774, %775, %773) <{indices_are_sorted = false, scatter_dimension_numbers = #stablehlo.scatter<update_window_dims = [1], in
    StableHlo.nullary main_cst_162 (constant S_ .f32 0x3F800000#32),  -- %cst_162 = stablehlo.constant dense<1.000000e+00> : tensor<f32>
    StableHlo.unary main_cst_162 main_v777 (broadcastInDim S10000 ![] bcast_S_S10000 : (⟨S_, .f32⟩ : BufTy).Contents (Elt F) → (⟨S10000, .f32⟩ : BufTy).Contents (Elt F)),  -- %777 = stablehlo.broadcast_in_dim %cst_162, dims = [] : (tensor<f32>) -> tensor<10000xf32>  @ reference:83
    StableHlo.nullary main_cst_163 (constant S_ .f32 0x00000000#32),  -- %cst_163 = stablehlo.constant dense<0.000000e+00> : tensor<f32>
    StableHlo.unary main_cst_163 main_v778 (broadcastInDim S64 ![] bcast_S_S64 : (⟨S_, .f32⟩ : BufTy).Contents (Elt F) → (⟨S64, .f32⟩ : BufTy).Contents (Elt F)),  -- %778 = stablehlo.broadcast_in_dim %cst_163, dims = [] : (tensor<f32>) -> tensor<64xf32>  @ reference:83
    StableHlo.unary main_arg2 main_v779 (broadcastInDim S10000x1 ![0] bcast_S10000_S10000x1_0 : (⟨S10000, .i32⟩ : BufTy).Contents (Elt F) → (⟨S10000x1, .i32⟩ : BufTy).Contents (Elt F)),  -- %779 = stablehlo.broadcast_in_dim %arg2, dims = [0] : (tensor<10000xi32>) -> tensor<10000x1xi32>  @ reference:83
    StableHlo.ternary main_v778 main_v779 main_v777 main_v780 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)),  -- %780 = "stablehlo.scatter"(%778, %779, %777) <{indices_are_sorted = false, scatter_dimension_numbers = #stablehlo.scatter<inserted_window_dims = [0],
    StableHlo.nullary main_cst_164 (constant S_ .f32 0x3F800000#32),  -- %cst_164 = stablehlo.constant dense<1.000000e+00> : tensor<f32>
    StableHlo.unary main_cst_164 main_v781 (broadcastInDim S64 ![] bcast_S_S64 : (⟨S_, .f32⟩ : BufTy).Contents (Elt F) → (⟨S64, .f32⟩ : BufTy).Contents (Elt F)),  -- %781 = stablehlo.broadcast_in_dim %cst_164, dims = [] : (tensor<f32>) -> tensor<64xf32>  @ reference:84
    StableHlo.binary main_v780 main_v781 main_v782 (maximumf : (⟨S64, .f32⟩ : BufTy).Contents (Elt F) → (⟨S64, .f32⟩ : BufTy).Contents (Elt F) → (⟨S64, .f32⟩ : BufTy).Contents (Elt F)),  -- %782 = stablehlo.maximum %780, %781 : tensor<64xf32>  @ reference:84
    StableHlo.unary main_v782 main_v783 (broadcastInDim S64x1 ![0] bcast_S64_S64x1_0 : (⟨S64, .f32⟩ : BufTy).Contents (Elt F) → (⟨S64x1, .f32⟩ : BufTy).Contents (Elt F)),  -- %783 = stablehlo.broadcast_in_dim %782, dims = [0] : (tensor<64xf32>) -> tensor<64x1xf32>  @ reference:84
    StableHlo.unary main_v783 main_v784 (broadcastInDim S64x64 ![0, 1] bcast_S64x1_S64x64_0_1 : (⟨S64x1, .f32⟩ : BufTy).Contents (Elt F) → (⟨S64x64, .f32⟩ : BufTy).Contents (Elt F)),  -- %784 = stablehlo.broadcast_in_dim %783, dims = [0, 1] : (tensor<64x1xf32>) -> tensor<64x64xf32>  @ reference:84
    StableHlo.binary main_v776 main_v784 main_v785 (Host.divf : (⟨S64x64, .f32⟩ : BufTy).Contents (Elt F) → (⟨S64x64, .f32⟩ : BufTy).Contents (Elt F) → (⟨S64x64, .f32⟩ : BufTy).Contents (Elt F)),  -- %785 = stablehlo.divide %776, %784 : tensor<64x64xf32>  @ reference:84
    StableHlo.binary main_v785 main_arg12 main_v786 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),  -- %786 = stablehlo.dot_general %785, %arg12, contracting_dims = [1] x [0], precision = [DEFAULT, DEFAULT] : (tensor<64x64xf32>, tensor<64x1xf32>) -> ten
    StableHlo.unary main_arg13 main_v787 (broadcastInDim S1x1 ![1] bcast_S1_S1x1_1 : (⟨S1, .f32⟩ : BufTy).Contents (Elt F) → (⟨S1x1, .f32⟩ : BufTy).Contents (Elt F)),  -- %787 = stablehlo.broadcast_in_dim %arg13, dims = [1] : (tensor<1xf32>) -> tensor<1x1xf32>  @ reference:85
    StableHlo.unary main_v787 main_v788 (broadcastInDim S64x1 ![0, 1] bcast_S1x1_S64x1_0_1 : (⟨S1x1, .f32⟩ : BufTy).Contents (Elt F) → (⟨S64x1, .f32⟩ : BufTy).Contents (Elt F)),  -- %788 = stablehlo.broadcast_in_dim %787, dims = [0, 1] : (tensor<1x1xf32>) -> tensor<64x1xf32>  @ reference:85
    StableHlo.binary main_v786 main_v788 main_v789 (addf : (⟨S64x1, .f32⟩ : BufTy).Contents (Elt F) → (⟨S64x1, .f32⟩ : BufTy).Contents (Elt F) → (⟨S64x1, .f32⟩ : BufTy).Contents (Elt F)) ]  -- %789 = stablehlo.add %786, %788 : tensor<64x1xf32>  @ reference:85

theorem opsOut_sub : (opsOut : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub .., unary_bufs_sub ..,
    binary_bufs_sub .., ternary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub .., unary_bufs_sub ..,
    binary_bufs_sub ..⟩

/-- The buffers opsOut writes (each operation writes one, its result's), in order. -/
abbrev wOut : List (Ref sig .tc) :=
  [main_v772, main_call29.cst.ref, main_call29.v0.ref, main_call29.v1.ref, main_call29.cst_0.ref, main_call29.v2.ref, main_call29.v3.ref,
    main_call29.cst_1.ref, main_call29.call0.v0.ref, main_call29.call0.v1.ref, main_call29.call0.v2.ref, main_call29.v5.ref, main_call29.cst_2.ref,
    main_call29.v6.ref, main_call29.v7.ref, main_call29.call1.v0.ref, main_cst_161, main_v774, main_v775, main_v776, main_cst_162, main_v777,
    main_cst_163, main_v778, main_v779, main_v780, main_cst_164, main_v781, main_v782, main_v783, main_v784, main_v785, main_v786, main_v787,
    main_v788, main_v789]
theorem opsOut_writes : (opsOut : List (HloOp τ sig (Elt F))).Forall fun op =>
    op.writes ⊆ (wOut.map (Proc.devRef (τ := τ) .tc)).toFinset := by
  simp only [opsOut, List.Forall, nullary_writes, unary_writes, binary_writes, ternary_writes, reshape_writes]
  repeat' apply And.intro
  all_goals exact Finset.singleton_subset_iff.mpr (List.mem_toFinset.mpr (List.mem_map_of_mem (by decide)))
/-- opsOut keeps every buffer it does not write. -/
theorem opsOut_kept (V : Valuation τ sig (Elt F)) (r : Ref sig .tc) (hr : r ∉ wOut) :
    after opsOut V (Proc.devRef .tc r) = V (Proc.devRef .tc r) :=
  after_of_writes_sub opsOut V opsOut_writes hr

end Cert.ReferenceIdeal.RefRun

end
-- ==== Proof.RefRun.lean ====
/- The reference program's straight line, written out. Its @main is a sequence of tensor operations (the
   calls of its outlined functions, elu and softplus with their selects, unfolded in place over each call's
   own buffers), here as lists cut where the mathematics cuts it: the embedding (two affine maps with an
   elu between, then the first normalisation of the node state), nine message-passing layers of one shape
   (the state scaled by the layer's logarithm ratio, gathered along the edges, weighted, scattered back, and
   added into the state), and the readout (elu, the two sums by graph, their quotient, a last affine map).
   From any memory every execution of @main ends with each buffer at the fold of these operations over the
   contents at launch, and no operation writes an argument.

   The buffers that carry the state across the cuts (src the edges' sources, dst their targets, x the
   rank-2 node state [10000,64], z the rank-3 one [10000,1,64]):
     opsInit  operations    0 …   53   before: (the arguments only)   after: x = main_v12, z = main_v24
     opsL0    operations   54 …  195   before: x = main_v12, z = main_v24   after: x = main_v89, z = main_v107
     opsL1    operations  196 …  337   before: x = main_v89, z = main_v107   after: x = main_v172, z = main_v190
     opsL2    operations  338 …  479   before: x = main_v172, z = main_v190   after: x = main_v255, z = main_v273
     opsL3    operations  480 …  621   before: x = main_v255, z = main_v273   after: x = main_v338, z = main_v356
     opsL4    operations  622 …  763   before: x = main_v338, z = main_v356   after: x = main_v421, z = main_v439
     opsL5    operations  764 …  905   before: x = main_v421, z = main_v439   after: x = main_v504, z = main_v522
     opsL6    operations  906 … 1047   before: x = main_v504, z = main_v522   after: x = main_v587, z = main_v605
     opsL7    operations 1048 … 1189   before: x = main_v587, z = main_v605   after: x = main_v670, z = main_v688
     opsL8    operations 1190 … 1331   before: x = main_v670, z = main_v688   after: x = main_v753, z = main_v771
     opsOut   operations 1332 … 1367   before: x = main_v753, z = main_v771   after: the result main_v789
     src = main_v1, dst = main_v3 (written in opsInit only)
   The result is main_v789 ([64,1]). -/
import proofs.«404001_j15436112461850_3_alg».proof.Proof.RefRun.Init
import proofs.«404001_j15436112461850_3_alg».proof.Proof.RefRun.L0
import proofs.«404001_j15436112461850_3_alg».proof.Proof.RefRun.L1
import proofs.«404001_j15436112461850_3_alg».proof.Proof.RefRun.L2
import proofs.«404001_j15436112461850_3_alg».proof.Proof.RefRun.L3
import proofs.«404001_j15436112461850_3_alg».proof.Proof.RefRun.L4
import proofs.«404001_j15436112461850_3_alg».proof.Proof.RefRun.L5
import proofs.«404001_j15436112461850_3_alg».proof.Proof.RefRun.L6
import proofs.«404001_j15436112461850_3_alg».proof.Proof.RefRun.L7
import proofs.«404001_j15436112461850_3_alg».proof.Proof.RefRun.L8
import proofs.«404001_j15436112461850_3_alg».proof.Proof.RefRun.Out
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line: the embedding, the nine layers, the readout (the appends nested to the right). -/
abbrev ops : List (HloOp τ sig (Elt F)) :=
  opsInit ++ (opsL0 ++ (opsL1 ++ (opsL2 ++ (opsL3 ++ (opsL4 ++ (opsL5 ++ (opsL6 ++ (opsL7 ++ (opsL8 ++ (opsOut))))))))))

/-! ## @main is that line

@main is stated in sixteen consecutive parts; each part is the line's next stretch of operations (the calls
unfolded), by computation, and a line from its a-th operation on is its next n operations and then the rest. -/

/-- A line from its a-th operation on is its next n operations, then the rest. -/
theorem seq_drop {Λ : Labels} (l : List (HloOp τ sig (Elt F))) (a n b : Nat) (h : a + n = b) :
    (seq (l.drop a) : Prog (TpuEff nD τ sig (Elt F) Λ .tc) PUnit) = seq ((l.drop a).take n) >>= fun _ => seq (l.drop b) := by
  subst h
  rw [← seq_append, ← List.drop_drop, List.take_append_drop]

set_option maxRecDepth 100000 in
set_option maxHeartbeats 40000000 in
/-- Part 0 of @main is operations 0 … 114. -/
theorem part0_eq (c : Dev nD) : main_part0 (F := F) c = seq (((ops (F := F)).drop 0).take 115) := rfl

set_option maxRecDepth 100000 in
set_option maxHeartbeats 40000000 in
/-- Part 1 of @main is operations 115 … 188. -/
theorem part1_eq (c : Dev nD) : main_part1 (F := F) c = seq (((ops (F := F)).drop 115).take 74) := rfl

set_option maxRecDepth 100000 in
set_option maxHeartbeats 40000000 in
/-- Part 2 of @main is operations 189 … 275. -/
theorem part2_eq (c : Dev nD) : main_part2 (F := F) c = seq (((ops (F := F)).drop 189).take 87) := rfl

set_option maxRecDepth 100000 in
set_option maxHeartbeats 40000000 in
/-- Part 3 of @main is operations 276 … 349. -/
theorem part3_eq (c : Dev nD) : main_part3 (F := F) c = seq (((ops (F := F)).drop 276).take 74) := rfl

set_option maxRecDepth 100000 in
set_option maxHeartbeats 40000000 in
/-- Part 4 of @main is operations 350 … 436. -/
theorem part4_eq (c : Dev nD) : main_part4 (F := F) c = seq (((ops (F := F)).drop 350).take 87) := rfl

set_option maxRecDepth 100000 in
set_option maxHeartbeats 40000000 in
/-- Part 5 of @main is operations 437 … 537. -/
theorem part5_eq (c : Dev nD) : main_part5 (F := F) c = seq (((ops (F := F)).drop 437).take 101) := rfl

set_option maxRecDepth 100000 in
set_option maxHeartbeats 40000000 in
/-- Part 6 of @main is operations 538 … 611. -/
theorem part6_eq (c : Dev nD) : main_part6 (F := F) c = seq (((ops (F := F)).drop 538).take 74) := rfl

set_option maxRecDepth 100000 in
set_option maxHeartbeats 40000000 in
/-- Part 7 of @main is operations 612 … 698. -/
theorem part7_eq (c : Dev nD) : main_part7 (F := F) c = seq (((ops (F := F)).drop 612).take 87) := rfl

set_option maxRecDepth 100000 in
set_option maxHeartbeats 40000000 in
/-- Part 8 of @main is operations 699 … 772. -/
theorem part8_eq (c : Dev nD) : main_part8 (F := F) c = seq (((ops (F := F)).drop 699).take 74) := rfl

set_option maxRecDepth 100000 in
set_option maxHeartbeats 40000000 in
/-- Part 9 of @main is operations 773 … 859. -/
theorem part9_eq (c : Dev nD) : main_part9 (F := F) c = seq (((ops (F := F)).drop 773).take 87) := rfl

set_option maxRecDepth 100000 in
set_option maxHeartbeats 40000000 in
/-- Part 10 of @main is operations 860 … 947. -/
theorem part10_eq (c : Dev nD) : main_part10 (F := F) c = seq (((ops (F := F)).drop 860).take 88) := rfl

set_option maxRecDepth 100000 in
set_option maxHeartbeats 40000000 in
/-- Part 11 of @main is operations 948 … 1034. -/
theorem part11_eq (c : Dev nD) : main_part11 (F := F) c = seq (((ops (F := F)).drop 948).take 87) := rfl

set_option maxRecDepth 100000 in
set_option maxHeartbeats 40000000 in
/-- Part 12 of @main is operations 1035 … 1121. -/
theorem part12_eq (c : Dev nD) : main_part12 (F := F) c = seq (((ops (F := F)).drop 1035).take 87) := rfl

set_option maxRecDepth 100000 in
set_option maxHeartbeats 40000000 in
/-- Part 13 of @main is operations 1122 … 1195. -/
theorem part13_eq (c : Dev nD) : main_part13 (F := F) c = seq (((ops (F := F)).drop 1122).take 74) := rfl

set_option maxRecDepth 100000 in
set_option maxHeartbeats 40000000 in
/-- Part 14 of @main is operations 1196 … 1282. -/
theorem part14_eq (c : Dev nD) : main_part14 (F := F) c = seq (((ops (F := F)).drop 1196).take 87) := rfl

set_option maxRecDepth 100000 in
set_option maxHeartbeats 40000000 in
/-- Part 15 of @main is operations 1283 … 1367. -/
theorem part15_eq (c : Dev nD) : main_part15 (F := F) c = seq ((ops (F := F)).drop 1283) := rfl

/-- @main is the line. -/
theorem main_eq (c : Dev nD) : main (F := F) c = seq ops := by
  show _ = seq ((ops (F := F)).drop 0)
  rw [seq_drop ops 0 115 115 rfl, seq_drop ops 115 74 189 rfl, seq_drop ops 189 87 276 rfl, seq_drop ops 276 74 350 rfl, seq_drop ops 350 87 437 rfl,
    seq_drop ops 437 101 538 rfl, seq_drop ops 538 74 612 rfl, seq_drop ops 612 87 699 rfl, seq_drop ops 699 74 773 rfl, seq_drop ops 773 87 860 rfl,
    seq_drop ops 860 88 948 rfl, seq_drop ops 948 87 1035 rfl, seq_drop ops 1035 87 1122 rfl, seq_drop ops 1122 74 1196 rfl,
    seq_drop ops 1196 87 1283 rfl, ← part0_eq c, ← part1_eq c, ← part2_eq c, ← part3_eq c, ← part4_eq c, ← part5_eq c, ← part6_eq c, ← part7_eq c,
    ← part8_eq c, ← part9_eq c, ← part10_eq c, ← part11_eq c, ← part12_eq c, ← part13_eq c, ← part14_eq c, ← part15_eq c]
  rfl

/-! ## What the run needs: no scoped buffer, every operation on TensorCore references -/

theorem scopedRefs_eq : (Finset.univ.filter fun b : Ref sig .tc => b.isScoped) = ∅ := by decide
theorem scopedSems_eq : (Finset.univ.filter fun sm : SemLoc sig => sm.isScoped .tc) = ∅ := by decide

/-! Every operation determines what it writes (none leaves a result to the machine's choice): by computation. -/

theorem opsInit_fresh : (opsInit : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL5_fresh : (opsL5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL6_fresh : (opsL6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL7_fresh : (opsL7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsL8_fresh : (opsL8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem opsOut_fresh : (opsOut : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

theorem ops_fresh : ∀ op ∈ (ops : List (HloOp τ sig (Elt F))), op.fresh = ∅ :=
  List.forall_iff_forall_mem.mp (List.forall_append.mpr ⟨opsInit_fresh, (List.forall_append.mpr ⟨opsL0_fresh, (List.forall_append.mpr ⟨opsL1_fresh, (List.forall_append.mpr ⟨opsL2_fresh, (List.forall_append.mpr ⟨opsL3_fresh, (List.forall_append.mpr ⟨opsL4_fresh, (List.forall_append.mpr ⟨opsL5_fresh, (List.forall_append.mpr ⟨opsL6_fresh, (List.forall_append.mpr ⟨opsL7_fresh, (List.forall_append.mpr ⟨opsL8_fresh, opsOut_fresh⟩)⟩)⟩)⟩)⟩)⟩)⟩)⟩)⟩)⟩)

theorem ops_sub : (ops : List (HloOp τ sig (Elt F))).Forall fun op => op.bufs ⊆ tcRefs τ sig :=
  (List.forall_append.mpr ⟨opsInit_sub, (List.forall_append.mpr ⟨opsL0_sub, (List.forall_append.mpr ⟨opsL1_sub, (List.forall_append.mpr ⟨opsL2_sub, (List.forall_append.mpr ⟨opsL3_sub, (List.forall_append.mpr ⟨opsL4_sub, (List.forall_append.mpr ⟨opsL5_sub, (List.forall_append.mpr ⟨opsL6_sub, (List.forall_append.mpr ⟨opsL7_sub, (List.forall_append.mpr ⟨opsL8_sub, opsOut_sub⟩)⟩)⟩)⟩)⟩)⟩)⟩)⟩)⟩)⟩)

/-- On every device, for any float values, from any memory with zero counters: every weakly fair execution of
    @main terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the line keeps

A reference not among a stretch's results holds after the stretch what it held before. No result is an
argument of @main, so the line keeps every argument. -/

/-- Two stretches one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The line's fold is the stretches' folds, each over the one before. -/
theorem after_ops (V : Valuation τ sig (Elt F)) :
    after ops V = after opsOut (after opsL8 (after opsL7 (after opsL6 (after opsL5 (after opsL4 (after opsL3 (after opsL2 (after opsL1 (after opsL0 (after opsInit V)))))))))) := by
  simp only [ops, after_append]

/-- The line keeps every buffer none of its stretches writes. -/
theorem ops_kept (V : Valuation τ sig (Elt F)) (r : Ref sig .tc)
    (h0 : r ∉ wInit) (h1 : r ∉ wL0) (h2 : r ∉ wL1) (h3 : r ∉ wL2) (h4 : r ∉ wL3) (h5 : r ∉ wL4) (h6 : r ∉ wL5) (h7 : r ∉ wL6) (h8 : r ∉ wL7) (h9 : r ∉ wL8) (h10 : r ∉ wOut) :
    after ops V (Proc.devRef .tc r) = V (Proc.devRef .tc r) := by
  simp only [ops, after_append]
  rw [opsOut_kept _ r h10, opsL8_kept _ r h9, opsL7_kept _ r h8, opsL6_kept _ r h7, opsL5_kept _ r h6, opsL4_kept _ r h5, opsL3_kept _ r h4, opsL2_kept _ r h3, opsL1_kept _ r h2, opsL0_kept _ r h1, opsInit_kept _ r h0]

theorem arg0_kept (V : Valuation τ sig (Elt F)) :
    after ops V (main_arg0 : DevRef τ sig) = V (main_arg0 : DevRef τ sig) :=
  ops_kept V main_arg0 (by decide) (by decide) (by decide) (by decide) (by decide) (by decide) (by decide) (by decide) (by decide) (by decide) (by decide)

theorem arg1_kept (V : Valuation τ sig (Elt F)) :
    after ops V (main_arg1 : DevRef τ sig) = V (main_arg1 : DevRef τ sig) :=
  ops_kept V main_arg1 (by decide) (by decide) (by decide) (by decide) (by decide) (by decide) (by decide) (by decide) (by decide) (by decide) (by decide)

theorem arg2_kept (V : Valuation τ sig (Elt F)) :
    after ops V (main_arg2 : DevRef τ sig) = V (main_arg2 : DevRef τ sig) :=
  ops_kept V main_arg2 (by decide) (by decide) (by decide) (by decide) (by decide) (by decide) (by decide) (by decide) (by decide) (by decide) (by decide)

theorem arg3_kept (V : Valuation τ sig (Elt F)) :
    after ops V (main_arg3 : DevRef τ sig) = V (main_arg3 : DevRef τ sig) :=
  ops_kept V main_arg3 (by decide) (by decide) (by decide) (by decide) (by decide) (by decide) (by decide) (by decide) (by decide) (by decide) (by decide)

theorem arg4_kept (V : Valuation τ sig (Elt F)) :
    after ops V (main_arg4 : DevRef τ sig) = V (main_arg4 : DevRef τ sig) :=
  ops_kept V main_arg4 (by decide) (by decide) (by decide) (by decide) (by decide) (by decide) (by decide) (by decide) (by decide) (by decide) (by decide)

theorem arg5_kept (V : Valuation τ sig (Elt F)) :
    after ops V (main_arg5 : DevRef τ sig) = V (main_arg5 : DevRef τ sig) :=
  ops_kept V main_arg5 (by decide) (by decide) (by decide) (by decide) (by decide) (by decide) (by decide) (by decide) (by decide) (by decide) (by decide)

theorem arg6_kept (V : Valuation τ sig (Elt F)) :
    after ops V (main_arg6 : DevRef τ sig) = V (main_arg6 : DevRef τ sig) :=
  ops_kept V main_arg6 (by decide) (by decide) (by decide) (by decide) (by decide) (by decide) (by decide) (by decide) (by decide) (by decide) (by decide)

theorem arg7_kept (V : Valuation τ sig (Elt F)) :
    after ops V (main_arg7 : DevRef τ sig) = V (main_arg7 : DevRef τ sig) :=
  ops_kept V main_arg7 (by decide) (by decide) (by decide) (by decide) (by decide) (by decide) (by decide) (by decide) (by decide) (by decide) (by decide)

theorem arg8_kept (V : Valuation τ sig (Elt F)) :
    after ops V (main_arg8 : DevRef τ sig) = V (main_arg8 : DevRef τ sig) :=
  ops_kept V main_arg8 (by decide) (by decide) (by decide) (by decide) (by decide) (by decide) (by decide) (by decide) (by decide) (by decide) (by decide)

theorem arg9_kept (V : Valuation τ sig (Elt F)) :
    after ops V (main_arg9 : DevRef τ sig) = V (main_arg9 : DevRef τ sig) :=
  ops_kept V main_arg9 (by decide) (by decide) (by decide) (by decide) (by decide) (by decide) (by decide) (by decide) (by decide) (by decide) (by decide)

theorem arg10_kept (V : Valuation τ sig (Elt F)) :
    after ops V (main_arg10 : DevRef τ sig) = V (main_arg10 : DevRef τ sig) :=
  ops_kept V main_arg10 (by decide) (by decide) (by decide) (by decide) (by decide) (by decide) (by decide) (by decide) (by decide) (by decide) (by decide)

theorem arg11_kept (V : Valuation τ sig (Elt F)) :
    after ops V (main_arg11 : DevRef τ sig) = V (main_arg11 : DevRef τ sig) :=
  ops_kept V main_arg11 (by decide) (by decide) (by decide) (by decide) (by decide) (by decide) (by decide) (by decide) (by decide) (by decide) (by decide)

theorem arg12_kept (V : Valuation τ sig (Elt F)) :
    after ops V (main_arg12 : DevRef τ sig) = V (main_arg12 : DevRef τ sig) :=
  ops_kept V main_arg12 (by decide) (by decide) (by decide) (by decide) (by decide) (by decide) (by decide) (by decide) (by decide) (by decide) (by decide)

theorem arg13_kept (V : Valuation τ sig (Elt F)) :
    after ops V (main_arg13 : DevRef τ sig) = V (main_arg13 : DevRef τ sig) :=
  ops_kept V main_arg13 (by decide) (by decide) (by decide) (by decide) (by decide) (by decide) (by decide) (by decide) (by decide) (by decide) (by decide)

end Cert.ReferenceIdeal.RefRun

end
-- ==== Proof.RGlue.lean ====
/-
  The reference program's stages as pure functions of arrays at the ideal instance, written with the program's own
  operations and dimension records, so that each stretch's result read off its run is one of these terms by
  computation. The reference keeps the state as `[10000, 1, 64]` (one head) and the edge quantities as
  `[320000, 1, 64]` / `[320000, 1]`; its ELU and softplus are separate functions, written here once per shape.
-/
import proofs.«404001_j15436112461850_3_alg».proof.ReferenceIdeal
import proofs.«404001_j15436112461850_3_alg».proof.Proof.Gen.ReferenceIdeal
import Idealize.ShloMosaic.PureOps.Ideal

noncomputable section

namespace Cert.ReferenceIdeal.RGlue

open Idealize.ShloMosaic Cert.ReferenceIdeal Cert.ReferenceIdeal.Facts₀ Cert.ReferenceIdeal.Facts

/-- Arrays at the ideal instance over the program's shapes. -/
abbrev A (s : Shape) : Type := FVec Ideal s .f32
/-- Arrays of 32-bit words. -/
abbrev W (s : Shape) : Type := IVec s 32

/-- A scalar word splat over a shape. -/
abbrev splat (s : Shape) (h : S_.BroadcastsInDim s (![] : Fin 0 → Fin s.rank)) (w : BitVec 32) : A s :=
  broadcastInDim s ![] h (constant S_ .f32 w)

/-- The reference's ELU over a shape: `x` where `x > 0`, else `1 · expm1 (x where not x > 0, else 0)`. -/
def rElu (s : Shape) (h : S_.BroadcastsInDim s (![] : Fin 0 → Fin s.rank)) (x : A s) : A s :=
  select (cmpf .ogt x (splat s h 0x00000000#32)) x
    (mulf (splat s h 0x3F800000#32)
      (Host.expm1 (select (cmpf .ogt x (splat s h 0x00000000#32)) (splat s h 0x00000000#32) x)))

/-- The reference's softplus over the edge scores `[320000, 1]`. -/
def rSoftplus (x : A S320000x1) : A S320000x1 :=
  select (cmpf .une (subf x (splat S320000x1 bcast_S_S320000x1 0x00000000#32)) (subf x (splat S320000x1 bcast_S_S320000x1 0x00000000#32)))
    (addf x (splat S320000x1 bcast_S_S320000x1 0x00000000#32))
    (addf (maximumf x (splat S320000x1 bcast_S_S320000x1 0x00000000#32))
      (Host.log1p (Host.exp (Host.negf (Host.absf (subf x (splat S320000x1 bcast_S_S320000x1 0x00000000#32)))))))

/-! ## What the first statements prepare -/

def rSrc (ei : W S2x320000) : W S320000 :=
  shapeCast S320000 (extractStridedSlice S1x320000 ![0, 0] ei slices_S2x320000_S1x320000_0_0) shapeCasts_S1x320000_S320000
def rDst (ei : W S2x320000) : W S320000 :=
  shapeCast S320000 (extractStridedSlice S1x320000 ![1, 0] ei slices_S2x320000_S1x320000_1_0) shapeCasts_S1x320000_S320000

/-- A bias `[64]` added to every row of `[10000, 64]`. -/
def rRowBias (b : A S64) : A S10000x64 :=
  broadcastInDim S10000x64 ![0, 1] bcast_S1x64_S10000x64_0_1 (broadcastInDim S1x64 ![1] bcast_S64_S1x64_1 b)

/-- The node features after the first stage: `elu (x · w0 + b0) · w1 + b1`. -/
def rX0 (x : A S10000x739) (w0 : A S739x64) (b0 : A S64) (w1 : A S64x64) (b1 : A S64) : A S10000x64 :=
  addf
    (Host.dotGeneral dot_S10000x64_S64x64_S10000x64_1_0_0_1_n_n none
      (rElu S10000x64 bcast_S_S10000x64
        (addf (Host.dotGeneral dot_S10000x739_S739x64_S10000x64_1_0_0_1_n_n none x w0) (rRowBias b0)))
      w1)
    (rRowBias b1)

/-- A per-node score `[10000, 1]` spread over the 64 features of the one head. -/
def rSpread (s : A S10000x1) : A S10000x1x64 :=
  broadcastInDim S10000x1x64 ![0, 1, 2] bcast_S10000x1x1_S10000x1x64_0_1_2
    (broadcastInDim S10000x1x1 ![0, 1] bcast_S10000x1_S10000x1x1_0_1 s)
/-- A one-element bias `[1]` added to every node's score. -/
def rScoreBias (b : A S1) : A S10000x1 :=
  broadcastInDim S10000x1 ![0, 1] bcast_S1x1_S10000x1_0_1 (broadcastInDim S1x1 ![1] bcast_S1_S1x1_1 b)

/-- The state after round zero, `[10000, 1, 64]`: the features times `Σ att · elu (features) + bias`. -/
def rZ0 (h : A S10000x64) (att : A S1x64) (bias : A S1) : A S10000x1x64 :=
  let hh : A S10000x1x64 := shapeCast S10000x1x64 h shapeCasts_S10000x64_S10000x1x64
  mulf hh
    (rSpread
      (addf
        (Host.reduceAdd
          (mulf
            (broadcastInDim S10000x1x64 ![0, 1, 2] bcast_S1x1x64_S10000x1x64_0_1_2
              (broadcastInDim S1x1x64 ![1, 2] bcast_S1x64_S1x1x64_1_2 att))
            (rElu S10000x1x64 bcast_S_S10000x1x64 hh))
          (constant S_ .f32 0x00000000#32) reducesTo_S10000x1x64_S10000x1_d2 h_S_)
        (rScoreBias bias)))

/-! ## A round -/

def wrapIx (v : W S320000) : W S320000x1 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)
def colIx (v : W S320000) : W S320000x1 := broadcastInDim S320000x1 ![0] bcast_S320000_S320000x1_0 v

/-- The round's parameter arrays cut out of the stacked ones. -/
def rAtt (i : Nat) (h : S9x1x64.Slices ![i, 0, 0] S1x1x64) (a7 : A S9x1x64) : A S1x64 :=
  shapeCast S1x64 (extractStridedSlice S1x1x64 ![i, 0, 0] a7 h) shapeCasts_S1x1x64_S1x64
def rHatt (i : Nat) (h : S9x1x128.Slices ![i, 0, 0] S1x1x128) (a10 : A S9x1x128) : A S1x128 :=
  shapeCast S1x128 (extractStridedSlice S1x1x128 ![i, 0, 0] a10 h) shapeCasts_S1x1x128_S1x128
def rHb (i : Nat) (h : S9x1.Slices ![i, 0] S1x1) (a11 : A S9x1) : A S1 :=
  shapeCast S1 (extractStridedSlice S1x1 ![i, 0] a11 h) shapeCasts_S1x1_S1

/-- The state times the round's constant. -/
def rZs (w : BitVec 32) (z : A S10000x1x64) : A S10000x1x64 := mulf z (splat S10000x1x64 bcast_S_S10000x1x64 w)
/-- Each edge's sum of its end points' scaled states, `[320000, 1, 64]`. -/
def rZsum (zs : A S10000x1x64) (src dst : W S320000) : A S320000x1x64 :=
  addf (Host.gather gather_S10000x1x64_S320000x1_S320000x1x64_12_0_n_n_0_1_1164 zs (wrapIx src))
    (Host.gather gather_S10000x1x64_S320000x1_S320000x1x64_12_0_n_n_0_1_1164 zs (wrapIx dst))
/-- The edge scores `[320000, 1]`: `softplus (Σ att · elu (zsum)) + ε`. -/
def rA (zsum : A S320000x1x64) (att : A S1x64) : A S320000x1 :=
  addf
    (rSoftplus
      (Host.reduceAdd
        (mulf
          (broadcastInDim S320000x1x64 ![0, 1, 2] bcast_S1x1x64_S320000x1x64_0_1_2
            (broadcastInDim S1x1x64 ![1, 2] bcast_S1x64_S1x1x64_1_2 att))
          (rElu S320000x1x64 bcast_S_S320000x1x64 zsum))
        (constant S_ .f32 0x00000000#32) reducesTo_S320000x1x64_S320000x1_d2 h_S_))
    (splat S320000x1 bcast_S_S320000x1 0x358637BD#32)
/-- Each node's degree `[10000, 1]`, then `max (·, 1e-32) ^ (−1/2)`. -/
def rInv (a : A S320000x1) (dst : W S320000) : A S10000x1 :=
  Host.powf
    (maximumf
      (Host.scatterAdd scatter_S10000x1_S320000x1_S320000x1_1_0_0_1 (splat S10000x1 bcast_S_S10000x1 0x00000000#32) (colIx dst) a)
      (splat S10000x1 bcast_S_S10000x1 0x0A4FB11F#32))
    (splat S10000x1 bcast_S_S10000x1 0xBF000000#32)
def rCol (x : A S10000x1) (v : W S320000) : A S320000x1 :=
  Host.gather gather_S10000x1_S320000x1_S320000x1_1_0_n_n_0_1_11 x (wrapIx v)
/-- Each edge's weight. -/
def rNa (inv : A S10000x1) (a : A S320000x1) (src dst : W S320000) : A S320000x1 :=
  mulf (mulf (rCol inv src) a) (rCol inv dst)
/-- The new node features `[10000, 64]`. -/
def rX (x : A S10000x64) (na : A S320000x1) (src dst : W S320000) : A S10000x64 :=
  shapeCast S10000x64
    (Host.scatterAdd scatter_S10000x1x64_S320000x1_S320000x1x64_12_0_0_1
      (splat S10000x1x64 bcast_S_S10000x1x64 0x00000000#32) (colIx dst)
      (mulf
        (shapeCast S320000x1x64 (Host.gather gather_S10000x64_S320000x1_S320000x64_1_0_n_n_0_1_164 x (wrapIx src))
          shapeCasts_S320000x64_S320000x1x64)
        (broadcastInDim S320000x1x64 ![0, 1, 2] bcast_S320000x1x1_S320000x1x64_0_1_2
          (broadcastInDim S320000x1x1 ![0, 1] bcast_S320000x1_S320000x1x1_0_1 na))))
    shapeCasts_S10000x1x64_S10000x64

/-- The new features of a round. -/
def rXNew (w : BitVec 32) (att : A S1x64) (src dst : W S320000) (x : A S10000x64) (z : A S10000x1x64) : A S10000x64 :=
  let a := rA (rZsum (rZs w z) src dst) att
  rX x (rNa (rInv a dst) a src dst) src dst
/-- The new state of a round, `[10000, 1, 64]`: `z + hh · (Σ hatt · elu ([hh, zs]) + hb)`. -/
def rZNew (w : BitVec 32) (att : A S1x64) (hatt : A S1x128) (hb : A S1) (src dst : W S320000) (x : A S10000x64)
    (z : A S10000x1x64) : A S10000x1x64 :=
  let hh : A S10000x1x64 := shapeCast S10000x1x64 (rXNew w att src dst x z) shapeCasts_S10000x64_S10000x1x64
  let g : A S10000x1x128 :=
    concatenate S10000x1x128 2 [⟨S10000x1x64, hh⟩, ⟨S10000x1x64, rZs w z⟩] concatenates_S10000x1x64_S10000x1x64_S10000x1x128_d2
  addf z
    (mulf hh
      (rSpread
        (addf
          (Host.reduceAdd
            (mulf
              (broadcastInDim S10000x1x128 ![0, 1, 2] bcast_S1x1x128_S10000x1x128_0_1_2
                (broadcastInDim S1x1x128 ![1, 2] bcast_S1x128_S1x1x128_1_2 hatt))
              (rElu S10000x1x128 bcast_S_S10000x1x128 g))
            (constant S_ .f32 0x00000000#32) reducesTo_S10000x1x128_S10000x1_d2 h_S_)
          (rScoreBias hb))))

/-! ## The readout -/

/-- The last state as `[10000, 64]` through one more ELU. -/
def rZf (z : A S10000x1x64) : A S10000x64 :=
  rElu S10000x64 bcast_S_S10000x64 (shapeCast S10000x64 z shapeCasts_S10000x1x64_S10000x64)

/-- Mean over each graph's nodes, then the linear head. -/
def rOut (zf : A S10000x64) (batch : W S10000) (wh : A S64x1) (bh : A S1) : A S64x1 :=
  addf
    (Host.dotGeneral dot_S64x64_S64x1_S64x1_1_0_0_1_n_n none
      (Host.divf
        (Host.scatterAdd scatter_S64x64_S10000x1_S10000x64_1_0_0_1
          (broadcastInDim S64x64 ![] bcast_S_S64x64 (constant S_ .f32 0x00000000#32))
          (broadcastInDim S10000x1 ![0] bcast_S10000_S10000x1_0 batch) zf)
        (broadcastInDim S64x64 ![0, 1] bcast_S64x1_S64x64_0_1
          (broadcastInDim S64x1 ![0] bcast_S64_S64x1_0
            (maximumf
              (Host.scatterAdd scatter_S64_S10000x1_S10000_n_0_0_1
                (broadcastInDim S64 ![] bcast_S_S64 (constant S_ .f32 0x00000000#32))
                (broadcastInDim S10000x1 ![0] bcast_S10000_S10000x1_0 batch)
                (broadcastInDim S10000 ![] bcast_S_S10000 (constant S_ .f32 0x3F800000#32)))
              (broadcastInDim S64 ![] bcast_S_S64 (constant S_ .f32 0x3F800000#32))))))
      wh)
    (broadcastInDim S64x1 ![0, 1] bcast_S1x1_S64x1_0_1 (broadcastInDim S1x1 ![1] bcast_S1_S1x1_1 bh))

/-! ## The whole program as one function of its arguments -/

/-- A round's parameters: its constant, the edge-score vector, the gate vector and the gate bias. -/
structure RP where
  w : BitVec 32
  att : A S1x64
  hatt : A S1x128
  hb : A S1

/-- One round on the pair (features `[10000, 64]`, state `[10000, 1, 64]`). -/
def rStep (src dst : W S320000) (s : A S10000x64 × A S10000x1x64) (p : RP) : A S10000x64 × A S10000x1x64 :=
  (rXNew p.w p.att src dst s.1 s.2, rZNew p.w p.att p.hatt p.hb src dst s.1 s.2)

/-- The first eight rounds' parameters, in order. -/
def rParams (a7 : A S9x1x64) (a10 : A S9x1x128) (a11 : A S9x1) : List RP :=
  [ ⟨0x3F317220#32, rAtt 0 slices_S9x1x64_S1x1x64_0_0_0 a7, rHatt 0 slices_S9x1x128_S1x1x128_0_0_0 a10, rHb 0 slices_S9x1_S1x1_0_0 a11⟩,
    ⟨0x3ECF9936#32, rAtt 1 slices_S9x1x64_S1x1x64_1_0_0 a7, rHatt 1 slices_S9x1x128_S1x1x128_1_0_0 a10, rHb 1 slices_S9x1_S1x1_1_0 a11⟩,
    ⟨0x3E934B2A#32, rAtt 2 slices_S9x1x64_S1x1x64_2_0_0 a7, rHatt 2 slices_S9x1x128_S1x1x128_2_0_0 a10, rHb 2 slices_S9x1_S1x1_2_0 a11⟩,
    ⟨0x3E647FF4#32, rAtt 3 slices_S9x1x64_S1x1x64_3_0_0 a7, rHatt 3 slices_S9x1x128_S1x1x128_3_0_0 a10, rHb 3 slices_S9x1_S1x1_3_0 a11⟩,
    ⟨0x3E3AB2B8#32, rAtt 4 slices_S9x1x64_S1x1x64_4_0_0 a7, rHatt 4 slices_S9x1x128_S1x1x128_4_0_0 a10, rHb 4 slices_S9x1_S1x1_4_0 a11⟩,
    ⟨0x3E1DD9E7#32, rAtt 5 slices_S9x1x64_S1x1x64_5_0_0 a7, rHatt 5 slices_S9x1x128_S1x1x128_5_0_0 a10, rHb 5 slices_S9x1_S1x1_5_0 a11⟩,
    ⟨0x3E08BCAF#32, rAtt 6 slices_S9x1x64_S1x1x64_6_0_0 a7, rHatt 6 slices_S9x1x128_S1x1x128_6_0_0 a10, rHb 6 slices_S9x1_S1x1_6_0 a11⟩,
    ⟨0x3DF138B3#32, rAtt 7 slices_S9x1x64_S1x1x64_7_0_0 a7, rHatt 7 slices_S9x1x128_S1x1x128_7_0_0 a10, rHb 7 slices_S9x1_S1x1_7_0 a11⟩ ]
/-- The ninth round's. -/
def rLastP (a7 : A S9x1x64) (a10 : A S9x1x128) (a11 : A S9x1) : RP :=
  ⟨0x3DD7C7BA#32, rAtt 8 slices_S9x1x64_S1x1x64_8_0_0 a7, rHatt 8 slices_S9x1x128_S1x1x128_8_0_0 a10, rHb 8 slices_S9x1_S1x1_8_0 a11⟩

/-- The program's result as a function of its fourteen argument arrays. -/
def rVal (x : A S10000x739) (ei : W S2x320000) (batch : W S10000) (w0 : A S739x64) (b0 : A S64) (w1 : A S64x64) (b1 : A S64)
    (a7 : A S9x1x64) (att0 : A S1x64) (bias0 : A S1) (a10 : A S9x1x128) (a11 : A S9x1) (wh : A S64x1) (bh : A S1) : A S64x1 :=
  let X0 := rX0 x w0 b0 w1 b1
  let s := (rParams a7 a10 a11).foldl (rStep (rSrc ei) (rDst ei)) (X0, rZ0 X0 att0 bias0)
  rOut (rZf (rZNew (rLastP a7 a10 a11).w (rLastP a7 a10 a11).att (rLastP a7 a10 a11).hatt (rLastP a7 a10 a11).hb (rSrc ei) (rDst ei) s.1 s.2))
    batch wh bh

end Cert.ReferenceIdeal.RGlue

end
-- ==== Proof.RFoldKept.lean ====
/-
  What the modules of the reference's rounds share. What is carried unchanged through the rounds: the edges' two ends,
  cut out of the edge list once, and the arguments the rounds and the readout read. How a stretch of operations is cut
  into windows read one at a time. Two stages of a round named on their own: the edge scores before the softplus, and
  the new state as a function of the new features.
-/
import proofs.«404001_j15436112461850_3_alg».proof.Proof.RGlue
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-- What every round and the readout find where the first stretch left it, of contents `W` reached from the launch
    contents `V`: the edges' sources and targets as cut out of the edge list, and the arguments read after the first
    stretch (the graph of each node, the three stacked parameter arrays, the head's matrix and bias) as launched. -/
structure Kept (V W : Valuation τ sig (Elt Ideal)) : Prop where
  src : W (main_v1 : DevRef τ sig) = RGlue.rSrc (V (main_arg1 : DevRef τ sig))
  dst : W (main_v3 : DevRef τ sig) = RGlue.rDst (V (main_arg1 : DevRef τ sig))
  a2 : W (main_arg2 : DevRef τ sig) = V (main_arg2 : DevRef τ sig)
  a7 : W (main_arg7 : DevRef τ sig) = V (main_arg7 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)
  a13 : W (main_arg13 : DevRef τ sig) = V (main_arg13 : DevRef τ sig)

/-! ## Cutting a stretch of operations into windows -/

/-- Two stretches one after the other: the second's fold over the first's. -/
theorem after_append {F : FTy → Type} [FloatOps F] (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A stretch is its first `n` operations, then the rest. -/
theorem after_take {F : FTy → Type} [FloatOps F] (l : List (HloOp τ sig (Elt F))) (n : Nat) (V : Valuation τ sig (Elt F)) :
    after (l.drop n) (after (l.take n) V) = after l V := by
  rw [← after_append, List.take_append_drop]

/-- A stretch from its `a`-th operation on is its next `n` operations, then the rest. -/
theorem after_take_drop {F : FTy → Type} [FloatOps F] (l : List (HloOp τ sig (Elt F))) (a n b : Nat) (h : a + n = b)
    (V : Valuation τ sig (Elt F)) :
    after (l.drop b) (after ((l.drop a).take n) V) = after (l.drop a) V := by
  subst h
  rw [← after_append, ← List.drop_drop, List.take_append_drop]

/-! ## A round's new state from its new features -/

/-- A round's new state `[10000, 1, 64]` from the round's new features `xn`, the scaled state `zs` and the state `z`:
    `z + hh · (Σ hatt · elu ([hh, zs]) + hb)` with `hh` the new features as `[10000, 1, 64]`. -/
def rZTail (xn : RGlue.A S10000x64) (zs z : RGlue.A S10000x1x64) (hatt : RGlue.A S1x128) (hb : RGlue.A S1) :
    RGlue.A S10000x1x64 :=
  let hh : RGlue.A S10000x1x64 := shapeCast S10000x1x64 xn shapeCasts_S10000x64_S10000x1x64
  let g : RGlue.A S10000x1x128 :=
    concatenate S10000x1x128 2 [⟨S10000x1x64, hh⟩, ⟨S10000x1x64, zs⟩] concatenates_S10000x1x64_S10000x1x64_S10000x1x128_d2
  addf z
    (mulf hh
      (RGlue.rSpread
        (addf
          (Host.reduceAdd
            (mulf
              (broadcastInDim S10000x1x128 ![0, 1, 2] bcast_S1x1x128_S10000x1x128_0_1_2
                (broadcastInDim S1x1x128 ![1, 2] bcast_S1x128_S1x1x128_1_2 hatt))
              (RGlue.rElu S10000x1x128 bcast_S_S10000x1x128 g))
            (constant S_ .f32 0x00000000#32) reducesTo_S10000x1x128_S10000x1_d2 h_S_)
          (RGlue.rScoreBias hb))))

/-- The round's state function is that, of the round's new features and the scaled state. -/
theorem rZNew_eq (w : BitVec 32) (att : RGlue.A S1x64) (hatt : RGlue.A S1x128) (hb : RGlue.A S1) (src dst : RGlue.W S320000)
    (x : RGlue.A S10000x64) (z : RGlue.A S10000x1x64) :
    RGlue.rZNew w att hatt hb src dst x z = rZTail (RGlue.rXNew w att src dst x z) (RGlue.rZs w z) z hatt hb := rfl

/-! ## The edge scores before the softplus -/

/-- Each edge's score `[320000, 1]` before the softplus: `Σ att · elu (zsum)`. -/
def rScore (zsum : RGlue.A S320000x1x64) (att : RGlue.A S1x64) : RGlue.A S320000x1 :=
  Host.reduceAdd
    (mulf
      (broadcastInDim S320000x1x64 ![0, 1, 2] bcast_S1x1x64_S320000x1x64_0_1_2
        (broadcastInDim S1x1x64 ![1, 2] bcast_S1x64_S1x1x64_1_2 att))
      (RGlue.rElu S320000x1x64 bcast_S_S320000x1x64 zsum))
    (constant S_ .f32 0x00000000#32) reducesTo_S320000x1x64_S320000x1_d2 h_S_

/-- The edge scores are the softplus of that, plus ε. -/
theorem rA_eq (zsum : RGlue.A S320000x1x64) (att : RGlue.A S1x64) :
    RGlue.rA zsum att
      = addf (RGlue.rSoftplus (rScore zsum att)) (RGlue.splat S320000x1 bcast_S_S320000x1 0x358637BD#32) := rfl

end Cert.ReferenceIdeal.RFold

end
-- ==== Proof.RFoldInit.lean ====
/-
  The reference's first stretch read off its operations, in two windows: the edges' two ends cut out of the edge list and
  the node features after the two affine maps with the ELU between; then round zero on those features. From ANY contents
  the stretch leaves each as its function of the arguments; it writes no argument.
-/
import proofs.«404001_j15436112461850_3_alg».proof.Proof.RFoldKept
import proofs.«404001_j15436112461850_3_alg».proof.Proof.RefRun.Init
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The two windows -/

/-- Operations 0 … 26: the edges' sources and targets, and the node features. -/
def init_win1 : List (HloOp τ sig (Elt Ideal)) := (RefRun.opsInit (F := Ideal)).take 27
/-- Operations 27 … 53: the state after round zero. -/
def init_win2 : List (HloOp τ sig (Elt Ideal)) := (RefRun.opsInit (F := Ideal)).drop 27

/-- The stretch is its two windows, one after the other. -/
theorem init_cut (V : Valuation τ sig (Elt Ideal)) :
    after (RefRun.opsInit (F := Ideal)) V = after init_win2 (after init_win1 V) := by
  unfold init_win1 init_win2
  rw [after_take]

set_option maxRecDepth 8192 in
set_option maxHeartbeats 2000000 in
/-- Window 1 leaves the edges' ends and the node features, of the arguments it found; it keeps the two arguments round
    zero reads. -/
theorem init_res1 (U : Valuation τ sig (Elt Ideal)) :
    after init_win1 U (main_v1 : DevRef τ sig) = RGlue.rSrc (U (main_arg1 : DevRef τ sig))
    ∧ after init_win1 U (main_v3 : DevRef τ sig) = RGlue.rDst (U (main_arg1 : DevRef τ sig))
    ∧ after init_win1 U (main_v12 : DevRef τ sig) = RGlue.rX0 (U (main_arg0 : DevRef τ sig)) (U (main_arg3 : DevRef τ sig)) (U (main_arg4 : DevRef τ sig)) (U (main_arg5 : DevRef τ sig)) (U (main_arg6 : DevRef τ sig))
    ∧ after init_win1 U (main_arg8 : DevRef τ sig) = U (main_arg8 : DevRef τ sig)
    ∧ after init_win1 U (main_arg9 : DevRef τ sig) = U (main_arg9 : DevRef τ sig) := by
  simp only [init_win1, RefRun.opsInit, List.take_succ_cons, List.take_zero]
  refine ⟨?_, ?_, ?_, ?_, ?_⟩ <;> after_results_simp <;> rfl

set_option maxRecDepth 8192 in
set_option maxHeartbeats 2000000 in
/-- Window 2 leaves the state after round zero, of the features it found; it keeps the edges' ends and the features. -/
theorem init_res2 (U : Valuation τ sig (Elt Ideal)) :
    after init_win2 U (main_v24 : DevRef τ sig) = RGlue.rZ0 (U (main_v12 : DevRef τ sig)) (U (main_arg8 : DevRef τ sig)) (U (main_arg9 : DevRef τ sig))
    ∧ after init_win2 U (main_v1 : DevRef τ sig) = U (main_v1 : DevRef τ sig)
    ∧ after init_win2 U (main_v3 : DevRef τ sig) = U (main_v3 : DevRef τ sig)
    ∧ after init_win2 U (main_v12 : DevRef τ sig) = U (main_v12 : DevRef τ sig) := by
  simp only [init_win2, RefRun.opsInit, List.drop_succ_cons, List.drop_zero]
  refine ⟨?_, ?_, ?_, ?_⟩ <;> after_results_simp <;> rfl

/-! ## The stretch -/

/-- The edges' sources after the first stretch. -/
theorem init_src (V : Valuation τ sig (Elt Ideal)) :
    after (RefRun.opsInit (F := Ideal)) V (main_v1 : DevRef τ sig) = RGlue.rSrc (V (main_arg1 : DevRef τ sig)) := by
  rw [init_cut, (init_res2 _).2.1, (init_res1 V).1]

/-- The edges' targets after the first stretch. -/
theorem init_dst (V : Valuation τ sig (Elt Ideal)) :
    after (RefRun.opsInit (F := Ideal)) V (main_v3 : DevRef τ sig) = RGlue.rDst (V (main_arg1 : DevRef τ sig)) := by
  rw [init_cut, (init_res2 _).2.2.1, (init_res1 V).2.1]

/-- The node features after the first stretch. -/
theorem init_x (V : Valuation τ sig (Elt Ideal)) :
    after (RefRun.opsInit (F := Ideal)) V (main_v12 : DevRef τ sig) = RGlue.rX0 (V (main_arg0 : DevRef τ sig)) (V (main_arg3 : DevRef τ sig)) (V (main_arg4 : DevRef τ sig)) (V (main_arg5 : DevRef τ sig)) (V (main_arg6 : DevRef τ sig)) := by
  rw [init_cut, (init_res2 _).2.2.2, (init_res1 V).2.2.1]

/-- The state after the first stretch: round zero on those features. -/
theorem init_z (V : Valuation τ sig (Elt Ideal)) :
    after (RefRun.opsInit (F := Ideal)) V (main_v24 : DevRef τ sig)
      = RGlue.rZ0 (RGlue.rX0 (V (main_arg0 : DevRef τ sig)) (V (main_arg3 : DevRef τ sig)) (V (main_arg4 : DevRef τ sig)) (V (main_arg5 : DevRef τ sig)) (V (main_arg6 : DevRef τ sig)))
          (V (main_arg8 : DevRef τ sig)) (V (main_arg9 : DevRef τ sig)) := by
  rw [init_cut, (init_res2 _).1, (init_res1 V).2.2.1, (init_res1 V).2.2.2.1, (init_res1 V).2.2.2.2]

/-- After the first stretch the edges' ends are in place and the arguments are as launched. -/
theorem init_kept (V : Valuation τ sig (Elt Ideal)) : Kept V (after (RefRun.opsInit (F := Ideal)) V) where
  src := init_src V
  dst := init_dst V
  a2 := RefRun.opsInit_kept V main_arg2 (by decide)
  a7 := RefRun.opsInit_kept V main_arg7 (by decide)
  a10 := RefRun.opsInit_kept V main_arg10 (by decide)
  a11 := RefRun.opsInit_kept V main_arg11 (by decide)
  a12 := RefRun.opsInit_kept V main_arg12 (by decide)
  a13 := RefRun.opsInit_kept V main_arg13 (by decide)

end Cert.ReferenceIdeal.RFold

end
-- ==== Proof.RFoldL0.lean ====
/-
  Round 0 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 0). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L0
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l0_win1 : List (HloOp τ sig (Elt Ideal)) := (RefRun.opsL0 (F := Ideal)).take 22
/-- Operations 22 … 43: the edge scores before the softplus. -/
def l0_win2 : List (HloOp τ sig (Elt Ideal)) := ((RefRun.opsL0 (F := Ideal)).drop 22).take 22
/-- Operations 44 … 60: the edge scores. -/
def l0_win3 : List (HloOp τ sig (Elt Ideal)) := ((RefRun.opsL0 (F := Ideal)).drop 44).take 17
/-- Operations 61 … 90: the nodes' degrees to the power −1/2, and the edge weights. -/
def l0_win4 : List (HloOp τ sig (Elt Ideal)) := ((RefRun.opsL0 (F := Ideal)).drop 61).take 30
/-- Operations 91 … 108: the new node features. -/
def l0_win5 : List (HloOp τ sig (Elt Ideal)) := ((RefRun.opsL0 (F := Ideal)).drop 91).take 18
/-- Operations 109 … 141: the new state. -/
def l0_win6 : List (HloOp τ sig (Elt Ideal)) := (RefRun.opsL0 (F := Ideal)).drop 109

/-- The stretch is its six windows, one after the other. -/
theorem l0_cut (W : Valuation τ sig (Elt Ideal)) :
    after (RefRun.opsL0 (F := Ideal)) W
      = after l0_win6 (after l0_win5 (after l0_win4 (after l0_win3 (after l0_win2 (after l0_win1 W))))) := by
  unfold l0_win1 l0_win2 l0_win3 l0_win4 l0_win5 l0_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l0_res1 (U : Valuation τ sig (Elt Ideal)) :
    after l0_win1 U (main_v26 : DevRef τ sig) = RGlue.rZs 0x3F317220#32 (U (main_v24 : DevRef τ sig))
    ∧ after l0_win1 U (main_v41 : DevRef τ sig)
        = RGlue.rZsum (RGlue.rZs 0x3F317220#32 (U (main_v24 : DevRef τ sig))) (U (main_v1 : DevRef τ sig)) (U (main_v3 : DevRef τ sig))
    ∧ after l0_win1 U (main_v12 : DevRef τ sig) = U (main_v12 : DevRef τ sig)
    ∧ after l0_win1 U (main_v24 : DevRef τ sig) = U (main_v24 : DevRef τ sig)
    ∧ after l0_win1 U (main_v1 : DevRef τ sig) = U (main_v1 : DevRef τ sig)
    ∧ after l0_win1 U (main_v3 : DevRef τ sig) = U (main_v3 : DevRef τ sig)
    ∧ after l0_win1 U (main_arg7 : DevRef τ sig) = U (main_arg7 : DevRef τ sig)
    ∧ after l0_win1 U (main_arg10 : DevRef τ sig) = U (main_arg10 : DevRef τ sig)
    ∧ after l0_win1 U (main_arg11 : DevRef τ sig) = U (main_arg11 : DevRef τ sig) := by
  simp only [l0_win1, RefRun.opsL0, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l0_res2 (U : Valuation τ sig (Elt Ideal)) :
    after l0_win2 U (main_v48 : DevRef τ sig) = rScore (U (main_v41 : DevRef τ sig)) (RGlue.rAtt 0 slices_S9x1x64_S1x1x64_0_0_0 (U (main_arg7 : DevRef τ sig)))
    ∧ after l0_win2 U (main_v12 : DevRef τ sig) = U (main_v12 : DevRef τ sig)
    ∧ after l0_win2 U (main_v24 : DevRef τ sig) = U (main_v24 : DevRef τ sig)
    ∧ after l0_win2 U (main_v26 : DevRef τ sig) = U (main_v26 : DevRef τ sig)
    ∧ after l0_win2 U (main_v1 : DevRef τ sig) = U (main_v1 : DevRef τ sig)
    ∧ after l0_win2 U (main_v3 : DevRef τ sig) = U (main_v3 : DevRef τ sig)
    ∧ after l0_win2 U (main_arg10 : DevRef τ sig) = U (main_arg10 : DevRef τ sig)
    ∧ after l0_win2 U (main_arg11 : DevRef τ sig) = U (main_arg11 : DevRef τ sig) := by
  simp only [l0_win2, RefRun.opsL0, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l0_res3 (U : Valuation τ sig (Elt Ideal)) :
    after l0_win3 U (main_v51 : DevRef τ sig)
        = addf (RGlue.rSoftplus (U (main_v48 : DevRef τ sig))) (RGlue.splat S320000x1 bcast_S_S320000x1 0x358637BD#32)
    ∧ after l0_win3 U (main_v12 : DevRef τ sig) = U (main_v12 : DevRef τ sig)
    ∧ after l0_win3 U (main_v24 : DevRef τ sig) = U (main_v24 : DevRef τ sig)
    ∧ after l0_win3 U (main_v26 : DevRef τ sig) = U (main_v26 : DevRef τ sig)
    ∧ after l0_win3 U (main_v1 : DevRef τ sig) = U (main_v1 : DevRef τ sig)
    ∧ after l0_win3 U (main_v3 : DevRef τ sig) = U (main_v3 : DevRef τ sig)
    ∧ after l0_win3 U (main_arg10 : DevRef τ sig) = U (main_arg10 : DevRef τ sig)
    ∧ after l0_win3 U (main_arg11 : DevRef τ sig) = U (main_arg11 : DevRef τ sig) := by
  simp only [l0_win3, RefRun.opsL0, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l0_res4 (U : Valuation τ sig (Elt Ideal)) :
    after l0_win4 U (main_v74 : DevRef τ sig)
        = RGlue.rNa (RGlue.rInv (U (main_v51 : DevRef τ sig)) (U (main_v3 : DevRef τ sig))) (U (main_v51 : DevRef τ sig)) (U (main_v1 : DevRef τ sig)) (U (main_v3 : DevRef τ sig))
    ∧ after l0_win4 U (main_v12 : DevRef τ sig) = U (main_v12 : DevRef τ sig)
    ∧ after l0_win4 U (main_v24 : DevRef τ sig) = U (main_v24 : DevRef τ sig)
    ∧ after l0_win4 U (main_v26 : DevRef τ sig) = U (main_v26 : DevRef τ sig)
    ∧ after l0_win4 U (main_v1 : DevRef τ sig) = U (main_v1 : DevRef τ sig)
    ∧ after l0_win4 U (main_v3 : DevRef τ sig) = U (main_v3 : DevRef τ sig)
    ∧ after l0_win4 U (main_arg10 : DevRef τ sig) = U (main_arg10 : DevRef τ sig)
    ∧ after l0_win4 U (main_arg11 : DevRef τ sig) = U (main_arg11 : DevRef τ sig) := by
  simp only [l0_win4, RefRun.opsL0, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l0_res5 (U : Valuation τ sig (Elt Ideal)) :
    after l0_win5 U (main_v89 : DevRef τ sig) = RGlue.rX (U (main_v12 : DevRef τ sig)) (U (main_v74 : DevRef τ sig)) (U (main_v1 : DevRef τ sig)) (U (main_v3 : DevRef τ sig))
    ∧ after l0_win5 U (main_v24 : DevRef τ sig) = U (main_v24 : DevRef τ sig)
    ∧ after l0_win5 U (main_v26 : DevRef τ sig) = U (main_v26 : DevRef τ sig)
    ∧ after l0_win5 U (main_arg10 : DevRef τ sig) = U (main_arg10 : DevRef τ sig)
    ∧ after l0_win5 U (main_arg11 : DevRef τ sig) = U (main_arg11 : DevRef τ sig) := by
  simp only [l0_win5, RefRun.opsL0, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l0_res6 (U : Valuation τ sig (Elt Ideal)) :
    after l0_win6 U (main_v107 : DevRef τ sig)
        = rZTail (U (main_v89 : DevRef τ sig)) (U (main_v26 : DevRef τ sig)) (U (main_v24 : DevRef τ sig)) (RGlue.rHatt 0 slices_S9x1x128_S1x1x128_0_0_0 (U (main_arg10 : DevRef τ sig))) (RGlue.rHb 0 slices_S9x1_S1x1_0_0 (U (main_arg11 : DevRef τ sig)))
    ∧ after l0_win6 U (main_v89 : DevRef τ sig) = U (main_v89 : DevRef τ sig) := by
  simp only [l0_win6, RefRun.opsL0, List.drop_succ_cons, List.drop_zero]
  refine ⟨?_, ?_⟩ <;> after_results_simp <;> rfl

/-! ## The round -/

/-- The stretch leaves the round's new features and new state, of what it found. -/
theorem l0_xz (W : Valuation τ sig (Elt Ideal)) :
    after (RefRun.opsL0 (F := Ideal)) W (main_v89 : DevRef τ sig)
        = RGlue.rXNew 0x3F317220#32 (RGlue.rAtt 0 slices_S9x1x64_S1x1x64_0_0_0 (W (main_arg7 : DevRef τ sig)))
            (W (main_v1 : DevRef τ sig)) (W (main_v3 : DevRef τ sig)) (W (main_v12 : DevRef τ sig)) (W (main_v24 : DevRef τ sig))
    ∧ after (RefRun.opsL0 (F := Ideal)) W (main_v107 : DevRef τ sig)
        = RGlue.rZNew 0x3F317220#32 (RGlue.rAtt 0 slices_S9x1x64_S1x1x64_0_0_0 (W (main_arg7 : DevRef τ sig)))
            (RGlue.rHatt 0 slices_S9x1x128_S1x1x128_0_0_0 (W (main_arg10 : DevRef τ sig))) (RGlue.rHb 0 slices_S9x1_S1x1_0_0 (W (main_arg11 : DevRef τ sig)))
            (W (main_v1 : DevRef τ sig)) (W (main_v3 : DevRef τ sig)) (W (main_v12 : DevRef τ sig)) (W (main_v24 : DevRef τ sig)) := by
  rw [l0_cut]
  have r1 := l0_res1 W
  generalize after l0_win1 W = U1 at r1 ⊢
  have r2 := l0_res2 U1
  generalize after l0_win2 U1 = U2 at r2 ⊢
  have r3 := l0_res3 U2
  generalize after l0_win3 U2 = U3 at r3 ⊢
  have r4 := l0_res4 U3
  generalize after l0_win4 U3 = U4 at r4 ⊢
  have r5 := l0_res5 U4
  generalize after l0_win5 U4 = U5 at r5 ⊢
  have r6 := l0_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v89 : DevRef τ sig)
      = RGlue.rXNew 0x3F317220#32 (RGlue.rAtt 0 slices_S9x1x64_S1x1x64_0_0_0 (W (main_arg7 : DevRef τ sig)))
          (W (main_v1 : DevRef τ sig)) (W (main_v3 : DevRef τ sig)) (W (main_v12 : DevRef τ sig)) (W (main_v24 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l0_x (W : Valuation τ sig (Elt Ideal)) :
    after (RefRun.opsL0 (F := Ideal)) W (main_v89 : DevRef τ sig)
      = RGlue.rXNew 0x3F317220#32 (RGlue.rAtt 0 slices_S9x1x64_S1x1x64_0_0_0 (W (main_arg7 : DevRef τ sig)))
          (W (main_v1 : DevRef τ sig)) (W (main_v3 : DevRef τ sig)) (W (main_v12 : DevRef τ sig)) (W (main_v24 : DevRef τ sig)) := (l0_xz W).1

/-- The new state: the round's state function of what the stretch found. -/
theorem l0_z (W : Valuation τ sig (Elt Ideal)) :
    after (RefRun.opsL0 (F := Ideal)) W (main_v107 : DevRef τ sig)
      = RGlue.rZNew 0x3F317220#32 (RGlue.rAtt 0 slices_S9x1x64_S1x1x64_0_0_0 (W (main_arg7 : DevRef τ sig)))
          (RGlue.rHatt 0 slices_S9x1x128_S1x1x128_0_0_0 (W (main_arg10 : DevRef τ sig))) (RGlue.rHb 0 slices_S9x1_S1x1_0_0 (W (main_arg11 : DevRef τ sig)))
          (W (main_v1 : DevRef τ sig)) (W (main_v3 : DevRef τ sig)) (W (main_v12 : DevRef τ sig)) (W (main_v24 : DevRef τ sig)) := (l0_xz W).2

/-- The stretch writes neither the edges' ends nor an argument: what is carried stays carried. -/
theorem l0_kept {V W : Valuation τ sig (Elt Ideal)} (hk : Kept V W) : Kept V (after (RefRun.opsL0 (F := Ideal)) W) where
  src := (RefRun.opsL0_kept W main_v1 (by decide)).trans hk.src
  dst := (RefRun.opsL0_kept W main_v3 (by decide)).trans hk.dst
  a2 := (RefRun.opsL0_kept W main_arg2 (by decide)).trans hk.a2
  a7 := (RefRun.opsL0_kept W main_arg7 (by decide)).trans hk.a7
  a10 := (RefRun.opsL0_kept W main_arg10 (by decide)).trans hk.a10
  a11 := (RefRun.opsL0_kept W main_arg11 (by decide)).trans hk.a11
  a12 := (RefRun.opsL0_kept W main_arg12 (by decide)).trans hk.a12
  a13 := (RefRun.opsL0_kept W main_arg13 (by decide)).trans hk.a13

/-- The round as a step on the pair (features, state): from contents carrying the edges' ends and the arguments and
    holding the pair `s`, the stretch leaves the round's step of `s` with row 0 of the stacked parameters. -/
theorem l0_step {V W : Valuation τ sig (Elt Ideal)} (hk : Kept V W) (s : RGlue.A S10000x64 × RGlue.A S10000x1x64)
    (hx : W (main_v12 : DevRef τ sig) = s.1) (hz : W (main_v24 : DevRef τ sig) = s.2) :
    after (RefRun.opsL0 (F := Ideal)) W (main_v89 : DevRef τ sig)
        = (RGlue.rStep (RGlue.rSrc (V (main_arg1 : DevRef τ sig))) (RGlue.rDst (V (main_arg1 : DevRef τ sig))) s
            ⟨0x3F317220#32, RGlue.rAtt 0 slices_S9x1x64_S1x1x64_0_0_0 (V (main_arg7 : DevRef τ sig)),
              RGlue.rHatt 0 slices_S9x1x128_S1x1x128_0_0_0 (V (main_arg10 : DevRef τ sig)), RGlue.rHb 0 slices_S9x1_S1x1_0_0 (V (main_arg11 : DevRef τ sig))⟩).1
      ∧ after (RefRun.opsL0 (F := Ideal)) W (main_v107 : DevRef τ sig)
        = (RGlue.rStep (RGlue.rSrc (V (main_arg1 : DevRef τ sig))) (RGlue.rDst (V (main_arg1 : DevRef τ sig))) s
            ⟨0x3F317220#32, RGlue.rAtt 0 slices_S9x1x64_S1x1x64_0_0_0 (V (main_arg7 : DevRef τ sig)),
              RGlue.rHatt 0 slices_S9x1x128_S1x1x128_0_0_0 (V (main_arg10 : DevRef τ sig)), RGlue.rHb 0 slices_S9x1_S1x1_0_0 (V (main_arg11 : DevRef τ sig))⟩).2 := by
  rw [l0_x, l0_z, hk.src, hk.dst, hk.a7, hk.a10, hk.a11, hx, hz]
  exact ⟨rfl, rfl⟩

end Cert.ReferenceIdeal.RFold

end
-- ==== Proof.RFoldL1.lean ====
/-
  Round 1 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 1). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L1
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l1_win1 : List (HloOp τ sig (Elt Ideal)) := (RefRun.opsL1 (F := Ideal)).take 22
/-- Operations 22 … 43: the edge scores before the softplus. -/
def l1_win2 : List (HloOp τ sig (Elt Ideal)) := ((RefRun.opsL1 (F := Ideal)).drop 22).take 22
/-- Operations 44 … 60: the edge scores. -/
def l1_win3 : List (HloOp τ sig (Elt Ideal)) := ((RefRun.opsL1 (F := Ideal)).drop 44).take 17
/-- Operations 61 … 90: the nodes' degrees to the power −1/2, and the edge weights. -/
def l1_win4 : List (HloOp τ sig (Elt Ideal)) := ((RefRun.opsL1 (F := Ideal)).drop 61).take 30
/-- Operations 91 … 108: the new node features. -/
def l1_win5 : List (HloOp τ sig (Elt Ideal)) := ((RefRun.opsL1 (F := Ideal)).drop 91).take 18
/-- Operations 109 … 141: the new state. -/
def l1_win6 : List (HloOp τ sig (Elt Ideal)) := (RefRun.opsL1 (F := Ideal)).drop 109

/-- The stretch is its six windows, one after the other. -/
theorem l1_cut (W : Valuation τ sig (Elt Ideal)) :
    after (RefRun.opsL1 (F := Ideal)) W
      = after l1_win6 (after l1_win5 (after l1_win4 (after l1_win3 (after l1_win2 (after l1_win1 W))))) := by
  unfold l1_win1 l1_win2 l1_win3 l1_win4 l1_win5 l1_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l1_res1 (U : Valuation τ sig (Elt Ideal)) :
    after l1_win1 U (main_v109 : DevRef τ sig) = RGlue.rZs 0x3ECF9936#32 (U (main_v107 : DevRef τ sig))
    ∧ after l1_win1 U (main_v124 : DevRef τ sig)
        = RGlue.rZsum (RGlue.rZs 0x3ECF9936#32 (U (main_v107 : DevRef τ sig))) (U (main_v1 : DevRef τ sig)) (U (main_v3 : DevRef τ sig))
    ∧ after l1_win1 U (main_v89 : DevRef τ sig) = U (main_v89 : DevRef τ sig)
    ∧ after l1_win1 U (main_v107 : DevRef τ sig) = U (main_v107 : DevRef τ sig)
    ∧ after l1_win1 U (main_v1 : DevRef τ sig) = U (main_v1 : DevRef τ sig)
    ∧ after l1_win1 U (main_v3 : DevRef τ sig) = U (main_v3 : DevRef τ sig)
    ∧ after l1_win1 U (main_arg7 : DevRef τ sig) = U (main_arg7 : DevRef τ sig)
    ∧ after l1_win1 U (main_arg10 : DevRef τ sig) = U (main_arg10 : DevRef τ sig)
    ∧ after l1_win1 U (main_arg11 : DevRef τ sig) = U (main_arg11 : DevRef τ sig) := by
  simp only [l1_win1, RefRun.opsL1, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l1_res2 (U : Valuation τ sig (Elt Ideal)) :
    after l1_win2 U (main_v131 : DevRef τ sig) = rScore (U (main_v124 : DevRef τ sig)) (RGlue.rAtt 1 slices_S9x1x64_S1x1x64_1_0_0 (U (main_arg7 : DevRef τ sig)))
    ∧ after l1_win2 U (main_v89 : DevRef τ sig) = U (main_v89 : DevRef τ sig)
    ∧ after l1_win2 U (main_v107 : DevRef τ sig) = U (main_v107 : DevRef τ sig)
    ∧ after l1_win2 U (main_v109 : DevRef τ sig) = U (main_v109 : DevRef τ sig)
    ∧ after l1_win2 U (main_v1 : DevRef τ sig) = U (main_v1 : DevRef τ sig)
    ∧ after l1_win2 U (main_v3 : DevRef τ sig) = U (main_v3 : DevRef τ sig)
    ∧ after l1_win2 U (main_arg10 : DevRef τ sig) = U (main_arg10 : DevRef τ sig)
    ∧ after l1_win2 U (main_arg11 : DevRef τ sig) = U (main_arg11 : DevRef τ sig) := by
  simp only [l1_win2, RefRun.opsL1, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l1_res3 (U : Valuation τ sig (Elt Ideal)) :
    after l1_win3 U (main_v134 : DevRef τ sig)
        = addf (RGlue.rSoftplus (U (main_v131 : DevRef τ sig))) (RGlue.splat S320000x1 bcast_S_S320000x1 0x358637BD#32)
    ∧ after l1_win3 U (main_v89 : DevRef τ sig) = U (main_v89 : DevRef τ sig)
    ∧ after l1_win3 U (main_v107 : DevRef τ sig) = U (main_v107 : DevRef τ sig)
    ∧ after l1_win3 U (main_v109 : DevRef τ sig) = U (main_v109 : DevRef τ sig)
    ∧ after l1_win3 U (main_v1 : DevRef τ sig) = U (main_v1 : DevRef τ sig)
    ∧ after l1_win3 U (main_v3 : DevRef τ sig) = U (main_v3 : DevRef τ sig)
    ∧ after l1_win3 U (main_arg10 : DevRef τ sig) = U (main_arg10 : DevRef τ sig)
    ∧ after l1_win3 U (main_arg11 : DevRef τ sig) = U (main_arg11 : DevRef τ sig) := by
  simp only [l1_win3, RefRun.opsL1, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l1_res4 (U : Valuation τ sig (Elt Ideal)) :
    after l1_win4 U (main_v157 : DevRef τ sig)
        = RGlue.rNa (RGlue.rInv (U (main_v134 : DevRef τ sig)) (U (main_v3 : DevRef τ sig))) (U (main_v134 : DevRef τ sig)) (U (main_v1 : DevRef τ sig)) (U (main_v3 : DevRef τ sig))
    ∧ after l1_win4 U (main_v89 : DevRef τ sig) = U (main_v89 : DevRef τ sig)
    ∧ after l1_win4 U (main_v107 : DevRef τ sig) = U (main_v107 : DevRef τ sig)
    ∧ after l1_win4 U (main_v109 : DevRef τ sig) = U (main_v109 : DevRef τ sig)
    ∧ after l1_win4 U (main_v1 : DevRef τ sig) = U (main_v1 : DevRef τ sig)
    ∧ after l1_win4 U (main_v3 : DevRef τ sig) = U (main_v3 : DevRef τ sig)
    ∧ after l1_win4 U (main_arg10 : DevRef τ sig) = U (main_arg10 : DevRef τ sig)
    ∧ after l1_win4 U (main_arg11 : DevRef τ sig) = U (main_arg11 : DevRef τ sig) := by
  simp only [l1_win4, RefRun.opsL1, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l1_res5 (U : Valuation τ sig (Elt Ideal)) :
    after l1_win5 U (main_v172 : DevRef τ sig) = RGlue.rX (U (main_v89 : DevRef τ sig)) (U (main_v157 : DevRef τ sig)) (U (main_v1 : DevRef τ sig)) (U (main_v3 : DevRef τ sig))
    ∧ after l1_win5 U (main_v107 : DevRef τ sig) = U (main_v107 : DevRef τ sig)
    ∧ after l1_win5 U (main_v109 : DevRef τ sig) = U (main_v109 : DevRef τ sig)
    ∧ after l1_win5 U (main_arg10 : DevRef τ sig) = U (main_arg10 : DevRef τ sig)
    ∧ after l1_win5 U (main_arg11 : DevRef τ sig) = U (main_arg11 : DevRef τ sig) := by
  simp only [l1_win5, RefRun.opsL1, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l1_res6 (U : Valuation τ sig (Elt Ideal)) :
    after l1_win6 U (main_v190 : DevRef τ sig)
        = rZTail (U (main_v172 : DevRef τ sig)) (U (main_v109 : DevRef τ sig)) (U (main_v107 : DevRef τ sig)) (RGlue.rHatt 1 slices_S9x1x128_S1x1x128_1_0_0 (U (main_arg10 : DevRef τ sig))) (RGlue.rHb 1 slices_S9x1_S1x1_1_0 (U (main_arg11 : DevRef τ sig)))
    ∧ after l1_win6 U (main_v172 : DevRef τ sig) = U (main_v172 : DevRef τ sig) := by
  simp only [l1_win6, RefRun.opsL1, List.drop_succ_cons, List.drop_zero]
  refine ⟨?_, ?_⟩ <;> after_results_simp <;> rfl

/-! ## The round -/

/-- The stretch leaves the round's new features and new state, of what it found. -/
theorem l1_xz (W : Valuation τ sig (Elt Ideal)) :
    after (RefRun.opsL1 (F := Ideal)) W (main_v172 : DevRef τ sig)
        = RGlue.rXNew 0x3ECF9936#32 (RGlue.rAtt 1 slices_S9x1x64_S1x1x64_1_0_0 (W (main_arg7 : DevRef τ sig)))
            (W (main_v1 : DevRef τ sig)) (W (main_v3 : DevRef τ sig)) (W (main_v89 : DevRef τ sig)) (W (main_v107 : DevRef τ sig))
    ∧ after (RefRun.opsL1 (F := Ideal)) W (main_v190 : DevRef τ sig)
        = RGlue.rZNew 0x3ECF9936#32 (RGlue.rAtt 1 slices_S9x1x64_S1x1x64_1_0_0 (W (main_arg7 : DevRef τ sig)))
            (RGlue.rHatt 1 slices_S9x1x128_S1x1x128_1_0_0 (W (main_arg10 : DevRef τ sig))) (RGlue.rHb 1 slices_S9x1_S1x1_1_0 (W (main_arg11 : DevRef τ sig)))
            (W (main_v1 : DevRef τ sig)) (W (main_v3 : DevRef τ sig)) (W (main_v89 : DevRef τ sig)) (W (main_v107 : DevRef τ sig)) := by
  rw [l1_cut]
  have r1 := l1_res1 W
  generalize after l1_win1 W = U1 at r1 ⊢
  have r2 := l1_res2 U1
  generalize after l1_win2 U1 = U2 at r2 ⊢
  have r3 := l1_res3 U2
  generalize after l1_win3 U2 = U3 at r3 ⊢
  have r4 := l1_res4 U3
  generalize after l1_win4 U3 = U4 at r4 ⊢
  have r5 := l1_res5 U4
  generalize after l1_win5 U4 = U5 at r5 ⊢
  have r6 := l1_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v172 : DevRef τ sig)
      = RGlue.rXNew 0x3ECF9936#32 (RGlue.rAtt 1 slices_S9x1x64_S1x1x64_1_0_0 (W (main_arg7 : DevRef τ sig)))
          (W (main_v1 : DevRef τ sig)) (W (main_v3 : DevRef τ sig)) (W (main_v89 : DevRef τ sig)) (W (main_v107 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l1_x (W : Valuation τ sig (Elt Ideal)) :
    after (RefRun.opsL1 (F := Ideal)) W (main_v172 : DevRef τ sig)
      = RGlue.rXNew 0x3ECF9936#32 (RGlue.rAtt 1 slices_S9x1x64_S1x1x64_1_0_0 (W (main_arg7 : DevRef τ sig)))
          (W (main_v1 : DevRef τ sig)) (W (main_v3 : DevRef τ sig)) (W (main_v89 : DevRef τ sig)) (W (main_v107 : DevRef τ sig)) := (l1_xz W).1

/-- The new state: the round's state function of what the stretch found. -/
theorem l1_z (W : Valuation τ sig (Elt Ideal)) :
    after (RefRun.opsL1 (F := Ideal)) W (main_v190 : DevRef τ sig)
      = RGlue.rZNew 0x3ECF9936#32 (RGlue.rAtt 1 slices_S9x1x64_S1x1x64_1_0_0 (W (main_arg7 : DevRef τ sig)))
          (RGlue.rHatt 1 slices_S9x1x128_S1x1x128_1_0_0 (W (main_arg10 : DevRef τ sig))) (RGlue.rHb 1 slices_S9x1_S1x1_1_0 (W (main_arg11 : DevRef τ sig)))
          (W (main_v1 : DevRef τ sig)) (W (main_v3 : DevRef τ sig)) (W (main_v89 : DevRef τ sig)) (W (main_v107 : DevRef τ sig)) := (l1_xz W).2

/-- The stretch writes neither the edges' ends nor an argument: what is carried stays carried. -/
theorem l1_kept {V W : Valuation τ sig (Elt Ideal)} (hk : Kept V W) : Kept V (after (RefRun.opsL1 (F := Ideal)) W) where
  src := (RefRun.opsL1_kept W main_v1 (by decide)).trans hk.src
  dst := (RefRun.opsL1_kept W main_v3 (by decide)).trans hk.dst
  a2 := (RefRun.opsL1_kept W main_arg2 (by decide)).trans hk.a2
  a7 := (RefRun.opsL1_kept W main_arg7 (by decide)).trans hk.a7
  a10 := (RefRun.opsL1_kept W main_arg10 (by decide)).trans hk.a10
  a11 := (RefRun.opsL1_kept W main_arg11 (by decide)).trans hk.a11
  a12 := (RefRun.opsL1_kept W main_arg12 (by decide)).trans hk.a12
  a13 := (RefRun.opsL1_kept W main_arg13 (by decide)).trans hk.a13

/-- The round as a step on the pair (features, state): from contents carrying the edges' ends and the arguments and
    holding the pair `s`, the stretch leaves the round's step of `s` with row 1 of the stacked parameters. -/
theorem l1_step {V W : Valuation τ sig (Elt Ideal)} (hk : Kept V W) (s : RGlue.A S10000x64 × RGlue.A S10000x1x64)
    (hx : W (main_v89 : DevRef τ sig) = s.1) (hz : W (main_v107 : DevRef τ sig) = s.2) :
    after (RefRun.opsL1 (F := Ideal)) W (main_v172 : DevRef τ sig)
        = (RGlue.rStep (RGlue.rSrc (V (main_arg1 : DevRef τ sig))) (RGlue.rDst (V (main_arg1 : DevRef τ sig))) s
            ⟨0x3ECF9936#32, RGlue.rAtt 1 slices_S9x1x64_S1x1x64_1_0_0 (V (main_arg7 : DevRef τ sig)),
              RGlue.rHatt 1 slices_S9x1x128_S1x1x128_1_0_0 (V (main_arg10 : DevRef τ sig)), RGlue.rHb 1 slices_S9x1_S1x1_1_0 (V (main_arg11 : DevRef τ sig))⟩).1
      ∧ after (RefRun.opsL1 (F := Ideal)) W (main_v190 : DevRef τ sig)
        = (RGlue.rStep (RGlue.rSrc (V (main_arg1 : DevRef τ sig))) (RGlue.rDst (V (main_arg1 : DevRef τ sig))) s
            ⟨0x3ECF9936#32, RGlue.rAtt 1 slices_S9x1x64_S1x1x64_1_0_0 (V (main_arg7 : DevRef τ sig)),
              RGlue.rHatt 1 slices_S9x1x128_S1x1x128_1_0_0 (V (main_arg10 : DevRef τ sig)), RGlue.rHb 1 slices_S9x1_S1x1_1_0 (V (main_arg11 : DevRef τ sig))⟩).2 := by
  rw [l1_x, l1_z, hk.src, hk.dst, hk.a7, hk.a10, hk.a11, hx, hz]
  exact ⟨rfl, rfl⟩

end Cert.ReferenceIdeal.RFold

end
-- ==== Proof.RFoldL2.lean ====
/-
  Round 2 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 2). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L2
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l2_win1 : List (HloOp τ sig (Elt Ideal)) := (RefRun.opsL2 (F := Ideal)).take 22
/-- Operations 22 … 43: the edge scores before the softplus. -/
def l2_win2 : List (HloOp τ sig (Elt Ideal)) := ((RefRun.opsL2 (F := Ideal)).drop 22).take 22
/-- Operations 44 … 60: the edge scores. -/
def l2_win3 : List (HloOp τ sig (Elt Ideal)) := ((RefRun.opsL2 (F := Ideal)).drop 44).take 17
/-- Operations 61 … 90: the nodes' degrees to the power −1/2, and the edge weights. -/
def l2_win4 : List (HloOp τ sig (Elt Ideal)) := ((RefRun.opsL2 (F := Ideal)).drop 61).take 30
/-- Operations 91 … 108: the new node features. -/
def l2_win5 : List (HloOp τ sig (Elt Ideal)) := ((RefRun.opsL2 (F := Ideal)).drop 91).take 18
/-- Operations 109 … 141: the new state. -/
def l2_win6 : List (HloOp τ sig (Elt Ideal)) := (RefRun.opsL2 (F := Ideal)).drop 109

/-- The stretch is its six windows, one after the other. -/
theorem l2_cut (W : Valuation τ sig (Elt Ideal)) :
    after (RefRun.opsL2 (F := Ideal)) W
      = after l2_win6 (after l2_win5 (after l2_win4 (after l2_win3 (after l2_win2 (after l2_win1 W))))) := by
  unfold l2_win1 l2_win2 l2_win3 l2_win4 l2_win5 l2_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l2_res1 (U : Valuation τ sig (Elt Ideal)) :
    after l2_win1 U (main_v192 : DevRef τ sig) = RGlue.rZs 0x3E934B2A#32 (U (main_v190 : DevRef τ sig))
    ∧ after l2_win1 U (main_v207 : DevRef τ sig)
        = RGlue.rZsum (RGlue.rZs 0x3E934B2A#32 (U (main_v190 : DevRef τ sig))) (U (main_v1 : DevRef τ sig)) (U (main_v3 : DevRef τ sig))
    ∧ after l2_win1 U (main_v172 : DevRef τ sig) = U (main_v172 : DevRef τ sig)
    ∧ after l2_win1 U (main_v190 : DevRef τ sig) = U (main_v190 : DevRef τ sig)
    ∧ after l2_win1 U (main_v1 : DevRef τ sig) = U (main_v1 : DevRef τ sig)
    ∧ after l2_win1 U (main_v3 : DevRef τ sig) = U (main_v3 : DevRef τ sig)
    ∧ after l2_win1 U (main_arg7 : DevRef τ sig) = U (main_arg7 : DevRef τ sig)
    ∧ after l2_win1 U (main_arg10 : DevRef τ sig) = U (main_arg10 : DevRef τ sig)
    ∧ after l2_win1 U (main_arg11 : DevRef τ sig) = U (main_arg11 : DevRef τ sig) := by
  simp only [l2_win1, RefRun.opsL2, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l2_res2 (U : Valuation τ sig (Elt Ideal)) :
    after l2_win2 U (main_v214 : DevRef τ sig) = rScore (U (main_v207 : DevRef τ sig)) (RGlue.rAtt 2 slices_S9x1x64_S1x1x64_2_0_0 (U (main_arg7 : DevRef τ sig)))
    ∧ after l2_win2 U (main_v172 : DevRef τ sig) = U (main_v172 : DevRef τ sig)
    ∧ after l2_win2 U (main_v190 : DevRef τ sig) = U (main_v190 : DevRef τ sig)
    ∧ after l2_win2 U (main_v192 : DevRef τ sig) = U (main_v192 : DevRef τ sig)
    ∧ after l2_win2 U (main_v1 : DevRef τ sig) = U (main_v1 : DevRef τ sig)
    ∧ after l2_win2 U (main_v3 : DevRef τ sig) = U (main_v3 : DevRef τ sig)
    ∧ after l2_win2 U (main_arg10 : DevRef τ sig) = U (main_arg10 : DevRef τ sig)
    ∧ after l2_win2 U (main_arg11 : DevRef τ sig) = U (main_arg11 : DevRef τ sig) := by
  simp only [l2_win2, RefRun.opsL2, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l2_res3 (U : Valuation τ sig (Elt Ideal)) :
    after l2_win3 U (main_v217 : DevRef τ sig)
        = addf (RGlue.rSoftplus (U (main_v214 : DevRef τ sig))) (RGlue.splat S320000x1 bcast_S_S320000x1 0x358637BD#32)
    ∧ after l2_win3 U (main_v172 : DevRef τ sig) = U (main_v172 : DevRef τ sig)
    ∧ after l2_win3 U (main_v190 : DevRef τ sig) = U (main_v190 : DevRef τ sig)
    ∧ after l2_win3 U (main_v192 : DevRef τ sig) = U (main_v192 : DevRef τ sig)
    ∧ after l2_win3 U (main_v1 : DevRef τ sig) = U (main_v1 : DevRef τ sig)
    ∧ after l2_win3 U (main_v3 : DevRef τ sig) = U (main_v3 : DevRef τ sig)
    ∧ after l2_win3 U (main_arg10 : DevRef τ sig) = U (main_arg10 : DevRef τ sig)
    ∧ after l2_win3 U (main_arg11 : DevRef τ sig) = U (main_arg11 : DevRef τ sig) := by
  simp only [l2_win3, RefRun.opsL2, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l2_res4 (U : Valuation τ sig (Elt Ideal)) :
    after l2_win4 U (main_v240 : DevRef τ sig)
        = RGlue.rNa (RGlue.rInv (U (main_v217 : DevRef τ sig)) (U (main_v3 : DevRef τ sig))) (U (main_v217 : DevRef τ sig)) (U (main_v1 : DevRef τ sig)) (U (main_v3 : DevRef τ sig))
    ∧ after l2_win4 U (main_v172 : DevRef τ sig) = U (main_v172 : DevRef τ sig)
    ∧ after l2_win4 U (main_v190 : DevRef τ sig) = U (main_v190 : DevRef τ sig)
    ∧ after l2_win4 U (main_v192 : DevRef τ sig) = U (main_v192 : DevRef τ sig)
    ∧ after l2_win4 U (main_v1 : DevRef τ sig) = U (main_v1 : DevRef τ sig)
    ∧ after l2_win4 U (main_v3 : DevRef τ sig) = U (main_v3 : DevRef τ sig)
    ∧ after l2_win4 U (main_arg10 : DevRef τ sig) = U (main_arg10 : DevRef τ sig)
    ∧ after l2_win4 U (main_arg11 : DevRef τ sig) = U (main_arg11 : DevRef τ sig) := by
  simp only [l2_win4, RefRun.opsL2, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l2_res5 (U : Valuation τ sig (Elt Ideal)) :
    after l2_win5 U (main_v255 : DevRef τ sig) = RGlue.rX (U (main_v172 : DevRef τ sig)) (U (main_v240 : DevRef τ sig)) (U (main_v1 : DevRef τ sig)) (U (main_v3 : DevRef τ sig))
    ∧ after l2_win5 U (main_v190 : DevRef τ sig) = U (main_v190 : DevRef τ sig)
    ∧ after l2_win5 U (main_v192 : DevRef τ sig) = U (main_v192 : DevRef τ sig)
    ∧ after l2_win5 U (main_arg10 : DevRef τ sig) = U (main_arg10 : DevRef τ sig)
    ∧ after l2_win5 U (main_arg11 : DevRef τ sig) = U (main_arg11 : DevRef τ sig) := by
  simp only [l2_win5, RefRun.opsL2, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l2_res6 (U : Valuation τ sig (Elt Ideal)) :
    after l2_win6 U (main_v273 : DevRef τ sig)
        = rZTail (U (main_v255 : DevRef τ sig)) (U (main_v192 : DevRef τ sig)) (U (main_v190 : DevRef τ sig)) (RGlue.rHatt 2 slices_S9x1x128_S1x1x128_2_0_0 (U (main_arg10 : DevRef τ sig))) (RGlue.rHb 2 slices_S9x1_S1x1_2_0 (U (main_arg11 : DevRef τ sig)))
    ∧ after l2_win6 U (main_v255 : DevRef τ sig) = U (main_v255 : DevRef τ sig) := by
  simp only [l2_win6, RefRun.opsL2, List.drop_succ_cons, List.drop_zero]
  refine ⟨?_, ?_⟩ <;> after_results_simp <;> rfl

/-! ## The round -/

/-- The stretch leaves the round's new features and new state, of what it found. -/
theorem l2_xz (W : Valuation τ sig (Elt Ideal)) :
    after (RefRun.opsL2 (F := Ideal)) W (main_v255 : DevRef τ sig)
        = RGlue.rXNew 0x3E934B2A#32 (RGlue.rAtt 2 slices_S9x1x64_S1x1x64_2_0_0 (W (main_arg7 : DevRef τ sig)))
            (W (main_v1 : DevRef τ sig)) (W (main_v3 : DevRef τ sig)) (W (main_v172 : DevRef τ sig)) (W (main_v190 : DevRef τ sig))
    ∧ after (RefRun.opsL2 (F := Ideal)) W (main_v273 : DevRef τ sig)
        = RGlue.rZNew 0x3E934B2A#32 (RGlue.rAtt 2 slices_S9x1x64_S1x1x64_2_0_0 (W (main_arg7 : DevRef τ sig)))
            (RGlue.rHatt 2 slices_S9x1x128_S1x1x128_2_0_0 (W (main_arg10 : DevRef τ sig))) (RGlue.rHb 2 slices_S9x1_S1x1_2_0 (W (main_arg11 : DevRef τ sig)))
            (W (main_v1 : DevRef τ sig)) (W (main_v3 : DevRef τ sig)) (W (main_v172 : DevRef τ sig)) (W (main_v190 : DevRef τ sig)) := by
  rw [l2_cut]
  have r1 := l2_res1 W
  generalize after l2_win1 W = U1 at r1 ⊢
  have r2 := l2_res2 U1
  generalize after l2_win2 U1 = U2 at r2 ⊢
  have r3 := l2_res3 U2
  generalize after l2_win3 U2 = U3 at r3 ⊢
  have r4 := l2_res4 U3
  generalize after l2_win4 U3 = U4 at r4 ⊢
  have r5 := l2_res5 U4
  generalize after l2_win5 U4 = U5 at r5 ⊢
  have r6 := l2_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v255 : DevRef τ sig)
      = RGlue.rXNew 0x3E934B2A#32 (RGlue.rAtt 2 slices_S9x1x64_S1x1x64_2_0_0 (W (main_arg7 : DevRef τ sig)))
          (W (main_v1 : DevRef τ sig)) (W (main_v3 : DevRef τ sig)) (W (main_v172 : DevRef τ sig)) (W (main_v190 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l2_x (W : Valuation τ sig (Elt Ideal)) :
    after (RefRun.opsL2 (F := Ideal)) W (main_v255 : DevRef τ sig)
      = RGlue.rXNew 0x3E934B2A#32 (RGlue.rAtt 2 slices_S9x1x64_S1x1x64_2_0_0 (W (main_arg7 : DevRef τ sig)))
          (W (main_v1 : DevRef τ sig)) (W (main_v3 : DevRef τ sig)) (W (main_v172 : DevRef τ sig)) (W (main_v190 : DevRef τ sig)) := (l2_xz W).1

/-- The new state: the round's state function of what the stretch found. -/
theorem l2_z (W : Valuation τ sig (Elt Ideal)) :
    after (RefRun.opsL2 (F := Ideal)) W (main_v273 : DevRef τ sig)
      = RGlue.rZNew 0x3E934B2A#32 (RGlue.rAtt 2 slices_S9x1x64_S1x1x64_2_0_0 (W (main_arg7 : DevRef τ sig)))
          (RGlue.rHatt 2 slices_S9x1x128_S1x1x128_2_0_0 (W (main_arg10 : DevRef τ sig))) (RGlue.rHb 2 slices_S9x1_S1x1_2_0 (W (main_arg11 : DevRef τ sig)))
          (W (main_v1 : DevRef τ sig)) (W (main_v3 : DevRef τ sig)) (W (main_v172 : DevRef τ sig)) (W (main_v190 : DevRef τ sig)) := (l2_xz W).2

/-- The stretch writes neither the edges' ends nor an argument: what is carried stays carried. -/
theorem l2_kept {V W : Valuation τ sig (Elt Ideal)} (hk : Kept V W) : Kept V (after (RefRun.opsL2 (F := Ideal)) W) where
  src := (RefRun.opsL2_kept W main_v1 (by decide)).trans hk.src
  dst := (RefRun.opsL2_kept W main_v3 (by decide)).trans hk.dst
  a2 := (RefRun.opsL2_kept W main_arg2 (by decide)).trans hk.a2
  a7 := (RefRun.opsL2_kept W main_arg7 (by decide)).trans hk.a7
  a10 := (RefRun.opsL2_kept W main_arg10 (by decide)).trans hk.a10
  a11 := (RefRun.opsL2_kept W main_arg11 (by decide)).trans hk.a11
  a12 := (RefRun.opsL2_kept W main_arg12 (by decide)).trans hk.a12
  a13 := (RefRun.opsL2_kept W main_arg13 (by decide)).trans hk.a13

/-- The round as a step on the pair (features, state): from contents carrying the edges' ends and the arguments and
    holding the pair `s`, the stretch leaves the round's step of `s` with row 2 of the stacked parameters. -/
theorem l2_step {V W : Valuation τ sig (Elt Ideal)} (hk : Kept V W) (s : RGlue.A S10000x64 × RGlue.A S10000x1x64)
    (hx : W (main_v172 : DevRef τ sig) = s.1) (hz : W (main_v190 : DevRef τ sig) = s.2) :
    after (RefRun.opsL2 (F := Ideal)) W (main_v255 : DevRef τ sig)
        = (RGlue.rStep (RGlue.rSrc (V (main_arg1 : DevRef τ sig))) (RGlue.rDst (V (main_arg1 : DevRef τ sig))) s
            ⟨0x3E934B2A#32, RGlue.rAtt 2 slices_S9x1x64_S1x1x64_2_0_0 (V (main_arg7 : DevRef τ sig)),
              RGlue.rHatt 2 slices_S9x1x128_S1x1x128_2_0_0 (V (main_arg10 : DevRef τ sig)), RGlue.rHb 2 slices_S9x1_S1x1_2_0 (V (main_arg11 : DevRef τ sig))⟩).1
      ∧ after (RefRun.opsL2 (F := Ideal)) W (main_v273 : DevRef τ sig)
        = (RGlue.rStep (RGlue.rSrc (V (main_arg1 : DevRef τ sig))) (RGlue.rDst (V (main_arg1 : DevRef τ sig))) s
            ⟨0x3E934B2A#32, RGlue.rAtt 2 slices_S9x1x64_S1x1x64_2_0_0 (V (main_arg7 : DevRef τ sig)),
              RGlue.rHatt 2 slices_S9x1x128_S1x1x128_2_0_0 (V (main_arg10 : DevRef τ sig)), RGlue.rHb 2 slices_S9x1_S1x1_2_0 (V (main_arg11 : DevRef τ sig))⟩).2 := by
  rw [l2_x, l2_z, hk.src, hk.dst, hk.a7, hk.a10, hk.a11, hx, hz]
  exact ⟨rfl, rfl⟩

end Cert.ReferenceIdeal.RFold

end
-- ==== Proof.RFoldL3.lean ====
/-
  Round 3 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 3). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L3
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l3_win1 : List (HloOp τ sig (Elt Ideal)) := (RefRun.opsL3 (F := Ideal)).take 22
/-- Operations 22 … 43: the edge scores before the softplus. -/
def l3_win2 : List (HloOp τ sig (Elt Ideal)) := ((RefRun.opsL3 (F := Ideal)).drop 22).take 22
/-- Operations 44 … 60: the edge scores. -/
def l3_win3 : List (HloOp τ sig (Elt Ideal)) := ((RefRun.opsL3 (F := Ideal)).drop 44).take 17
/-- Operations 61 … 90: the nodes' degrees to the power −1/2, and the edge weights. -/
def l3_win4 : List (HloOp τ sig (Elt Ideal)) := ((RefRun.opsL3 (F := Ideal)).drop 61).take 30
/-- Operations 91 … 108: the new node features. -/
def l3_win5 : List (HloOp τ sig (Elt Ideal)) := ((RefRun.opsL3 (F := Ideal)).drop 91).take 18
/-- Operations 109 … 141: the new state. -/
def l3_win6 : List (HloOp τ sig (Elt Ideal)) := (RefRun.opsL3 (F := Ideal)).drop 109

/-- The stretch is its six windows, one after the other. -/
theorem l3_cut (W : Valuation τ sig (Elt Ideal)) :
    after (RefRun.opsL3 (F := Ideal)) W
      = after l3_win6 (after l3_win5 (after l3_win4 (after l3_win3 (after l3_win2 (after l3_win1 W))))) := by
  unfold l3_win1 l3_win2 l3_win3 l3_win4 l3_win5 l3_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l3_res1 (U : Valuation τ sig (Elt Ideal)) :
    after l3_win1 U (main_v275 : DevRef τ sig) = RGlue.rZs 0x3E647FF4#32 (U (main_v273 : DevRef τ sig))
    ∧ after l3_win1 U (main_v290 : DevRef τ sig)
        = RGlue.rZsum (RGlue.rZs 0x3E647FF4#32 (U (main_v273 : DevRef τ sig))) (U (main_v1 : DevRef τ sig)) (U (main_v3 : DevRef τ sig))
    ∧ after l3_win1 U (main_v255 : DevRef τ sig) = U (main_v255 : DevRef τ sig)
    ∧ after l3_win1 U (main_v273 : DevRef τ sig) = U (main_v273 : DevRef τ sig)
    ∧ after l3_win1 U (main_v1 : DevRef τ sig) = U (main_v1 : DevRef τ sig)
    ∧ after l3_win1 U (main_v3 : DevRef τ sig) = U (main_v3 : DevRef τ sig)
    ∧ after l3_win1 U (main_arg7 : DevRef τ sig) = U (main_arg7 : DevRef τ sig)
    ∧ after l3_win1 U (main_arg10 : DevRef τ sig) = U (main_arg10 : DevRef τ sig)
    ∧ after l3_win1 U (main_arg11 : DevRef τ sig) = U (main_arg11 : DevRef τ sig) := by
  simp only [l3_win1, RefRun.opsL3, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l3_res2 (U : Valuation τ sig (Elt Ideal)) :
    after l3_win2 U (main_v297 : DevRef τ sig) = rScore (U (main_v290 : DevRef τ sig)) (RGlue.rAtt 3 slices_S9x1x64_S1x1x64_3_0_0 (U (main_arg7 : DevRef τ sig)))
    ∧ after l3_win2 U (main_v255 : DevRef τ sig) = U (main_v255 : DevRef τ sig)
    ∧ after l3_win2 U (main_v273 : DevRef τ sig) = U (main_v273 : DevRef τ sig)
    ∧ after l3_win2 U (main_v275 : DevRef τ sig) = U (main_v275 : DevRef τ sig)
    ∧ after l3_win2 U (main_v1 : DevRef τ sig) = U (main_v1 : DevRef τ sig)
    ∧ after l3_win2 U (main_v3 : DevRef τ sig) = U (main_v3 : DevRef τ sig)
    ∧ after l3_win2 U (main_arg10 : DevRef τ sig) = U (main_arg10 : DevRef τ sig)
    ∧ after l3_win2 U (main_arg11 : DevRef τ sig) = U (main_arg11 : DevRef τ sig) := by
  simp only [l3_win2, RefRun.opsL3, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l3_res3 (U : Valuation τ sig (Elt Ideal)) :
    after l3_win3 U (main_v300 : DevRef τ sig)
        = addf (RGlue.rSoftplus (U (main_v297 : DevRef τ sig))) (RGlue.splat S320000x1 bcast_S_S320000x1 0x358637BD#32)
    ∧ after l3_win3 U (main_v255 : DevRef τ sig) = U (main_v255 : DevRef τ sig)
    ∧ after l3_win3 U (main_v273 : DevRef τ sig) = U (main_v273 : DevRef τ sig)
    ∧ after l3_win3 U (main_v275 : DevRef τ sig) = U (main_v275 : DevRef τ sig)
    ∧ after l3_win3 U (main_v1 : DevRef τ sig) = U (main_v1 : DevRef τ sig)
    ∧ after l3_win3 U (main_v3 : DevRef τ sig) = U (main_v3 : DevRef τ sig)
    ∧ after l3_win3 U (main_arg10 : DevRef τ sig) = U (main_arg10 : DevRef τ sig)
    ∧ after l3_win3 U (main_arg11 : DevRef τ sig) = U (main_arg11 : DevRef τ sig) := by
  simp only [l3_win3, RefRun.opsL3, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l3_res4 (U : Valuation τ sig (Elt Ideal)) :
    after l3_win4 U (main_v323 : DevRef τ sig)
        = RGlue.rNa (RGlue.rInv (U (main_v300 : DevRef τ sig)) (U (main_v3 : DevRef τ sig))) (U (main_v300 : DevRef τ sig)) (U (main_v1 : DevRef τ sig)) (U (main_v3 : DevRef τ sig))
    ∧ after l3_win4 U (main_v255 : DevRef τ sig) = U (main_v255 : DevRef τ sig)
    ∧ after l3_win4 U (main_v273 : DevRef τ sig) = U (main_v273 : DevRef τ sig)
    ∧ after l3_win4 U (main_v275 : DevRef τ sig) = U (main_v275 : DevRef τ sig)
    ∧ after l3_win4 U (main_v1 : DevRef τ sig) = U (main_v1 : DevRef τ sig)
    ∧ after l3_win4 U (main_v3 : DevRef τ sig) = U (main_v3 : DevRef τ sig)
    ∧ after l3_win4 U (main_arg10 : DevRef τ sig) = U (main_arg10 : DevRef τ sig)
    ∧ after l3_win4 U (main_arg11 : DevRef τ sig) = U (main_arg11 : DevRef τ sig) := by
  simp only [l3_win4, RefRun.opsL3, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l3_res5 (U : Valuation τ sig (Elt Ideal)) :
    after l3_win5 U (main_v338 : DevRef τ sig) = RGlue.rX (U (main_v255 : DevRef τ sig)) (U (main_v323 : DevRef τ sig)) (U (main_v1 : DevRef τ sig)) (U (main_v3 : DevRef τ sig))
    ∧ after l3_win5 U (main_v273 : DevRef τ sig) = U (main_v273 : DevRef τ sig)
    ∧ after l3_win5 U (main_v275 : DevRef τ sig) = U (main_v275 : DevRef τ sig)
    ∧ after l3_win5 U (main_arg10 : DevRef τ sig) = U (main_arg10 : DevRef τ sig)
    ∧ after l3_win5 U (main_arg11 : DevRef τ sig) = U (main_arg11 : DevRef τ sig) := by
  simp only [l3_win5, RefRun.opsL3, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l3_res6 (U : Valuation τ sig (Elt Ideal)) :
    after l3_win6 U (main_v356 : DevRef τ sig)
        = rZTail (U (main_v338 : DevRef τ sig)) (U (main_v275 : DevRef τ sig)) (U (main_v273 : DevRef τ sig)) (RGlue.rHatt 3 slices_S9x1x128_S1x1x128_3_0_0 (U (main_arg10 : DevRef τ sig))) (RGlue.rHb 3 slices_S9x1_S1x1_3_0 (U (main_arg11 : DevRef τ sig)))
    ∧ after l3_win6 U (main_v338 : DevRef τ sig) = U (main_v338 : DevRef τ sig) := by
  simp only [l3_win6, RefRun.opsL3, List.drop_succ_cons, List.drop_zero]
  refine ⟨?_, ?_⟩ <;> after_results_simp <;> rfl

/-! ## The round -/

/-- The stretch leaves the round's new features and new state, of what it found. -/
theorem l3_xz (W : Valuation τ sig (Elt Ideal)) :
    after (RefRun.opsL3 (F := Ideal)) W (main_v338 : DevRef τ sig)
        = RGlue.rXNew 0x3E647FF4#32 (RGlue.rAtt 3 slices_S9x1x64_S1x1x64_3_0_0 (W (main_arg7 : DevRef τ sig)))
            (W (main_v1 : DevRef τ sig)) (W (main_v3 : DevRef τ sig)) (W (main_v255 : DevRef τ sig)) (W (main_v273 : DevRef τ sig))
    ∧ after (RefRun.opsL3 (F := Ideal)) W (main_v356 : DevRef τ sig)
        = RGlue.rZNew 0x3E647FF4#32 (RGlue.rAtt 3 slices_S9x1x64_S1x1x64_3_0_0 (W (main_arg7 : DevRef τ sig)))
            (RGlue.rHatt 3 slices_S9x1x128_S1x1x128_3_0_0 (W (main_arg10 : DevRef τ sig))) (RGlue.rHb 3 slices_S9x1_S1x1_3_0 (W (main_arg11 : DevRef τ sig)))
            (W (main_v1 : DevRef τ sig)) (W (main_v3 : DevRef τ sig)) (W (main_v255 : DevRef τ sig)) (W (main_v273 : DevRef τ sig)) := by
  rw [l3_cut]
  have r1 := l3_res1 W
  generalize after l3_win1 W = U1 at r1 ⊢
  have r2 := l3_res2 U1
  generalize after l3_win2 U1 = U2 at r2 ⊢
  have r3 := l3_res3 U2
  generalize after l3_win3 U2 = U3 at r3 ⊢
  have r4 := l3_res4 U3
  generalize after l3_win4 U3 = U4 at r4 ⊢
  have r5 := l3_res5 U4
  generalize after l3_win5 U4 = U5 at r5 ⊢
  have r6 := l3_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v338 : DevRef τ sig)
      = RGlue.rXNew 0x3E647FF4#32 (RGlue.rAtt 3 slices_S9x1x64_S1x1x64_3_0_0 (W (main_arg7 : DevRef τ sig)))
          (W (main_v1 : DevRef τ sig)) (W (main_v3 : DevRef τ sig)) (W (main_v255 : DevRef τ sig)) (W (main_v273 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l3_x (W : Valuation τ sig (Elt Ideal)) :
    after (RefRun.opsL3 (F := Ideal)) W (main_v338 : DevRef τ sig)
      = RGlue.rXNew 0x3E647FF4#32 (RGlue.rAtt 3 slices_S9x1x64_S1x1x64_3_0_0 (W (main_arg7 : DevRef τ sig)))
          (W (main_v1 : DevRef τ sig)) (W (main_v3 : DevRef τ sig)) (W (main_v255 : DevRef τ sig)) (W (main_v273 : DevRef τ sig)) := (l3_xz W).1

/-- The new state: the round's state function of what the stretch found. -/
theorem l3_z (W : Valuation τ sig (Elt Ideal)) :
    after (RefRun.opsL3 (F := Ideal)) W (main_v356 : DevRef τ sig)
      = RGlue.rZNew 0x3E647FF4#32 (RGlue.rAtt 3 slices_S9x1x64_S1x1x64_3_0_0 (W (main_arg7 : DevRef τ sig)))
          (RGlue.rHatt 3 slices_S9x1x128_S1x1x128_3_0_0 (W (main_arg10 : DevRef τ sig))) (RGlue.rHb 3 slices_S9x1_S1x1_3_0 (W (main_arg11 : DevRef τ sig)))
          (W (main_v1 : DevRef τ sig)) (W (main_v3 : DevRef τ sig)) (W (main_v255 : DevRef τ sig)) (W (main_v273 : DevRef τ sig)) := (l3_xz W).2

/-- The stretch writes neither the edges' ends nor an argument: what is carried stays carried. -/
theorem l3_kept {V W : Valuation τ sig (Elt Ideal)} (hk : Kept V W) : Kept V (after (RefRun.opsL3 (F := Ideal)) W) where
  src := (RefRun.opsL3_kept W main_v1 (by decide)).trans hk.src
  dst := (RefRun.opsL3_kept W main_v3 (by decide)).trans hk.dst
  a2 := (RefRun.opsL3_kept W main_arg2 (by decide)).trans hk.a2
  a7 := (RefRun.opsL3_kept W main_arg7 (by decide)).trans hk.a7
  a10 := (RefRun.opsL3_kept W main_arg10 (by decide)).trans hk.a10
  a11 := (RefRun.opsL3_kept W main_arg11 (by decide)).trans hk.a11
  a12 := (RefRun.opsL3_kept W main_arg12 (by decide)).trans hk.a12
  a13 := (RefRun.opsL3_kept W main_arg13 (by decide)).trans hk.a13

/-- The round as a step on the pair (features, state): from contents carrying the edges' ends and the arguments and
    holding the pair `s`, the stretch leaves the round's step of `s` with row 3 of the stacked parameters. -/
theorem l3_step {V W : Valuation τ sig (Elt Ideal)} (hk : Kept V W) (s : RGlue.A S10000x64 × RGlue.A S10000x1x64)
    (hx : W (main_v255 : DevRef τ sig) = s.1) (hz : W (main_v273 : DevRef τ sig) = s.2) :
    after (RefRun.opsL3 (F := Ideal)) W (main_v338 : DevRef τ sig)
        = (RGlue.rStep (RGlue.rSrc (V (main_arg1 : DevRef τ sig))) (RGlue.rDst (V (main_arg1 : DevRef τ sig))) s
            ⟨0x3E647FF4#32, RGlue.rAtt 3 slices_S9x1x64_S1x1x64_3_0_0 (V (main_arg7 : DevRef τ sig)),
              RGlue.rHatt 3 slices_S9x1x128_S1x1x128_3_0_0 (V (main_arg10 : DevRef τ sig)), RGlue.rHb 3 slices_S9x1_S1x1_3_0 (V (main_arg11 : DevRef τ sig))⟩).1
      ∧ after (RefRun.opsL3 (F := Ideal)) W (main_v356 : DevRef τ sig)
        = (RGlue.rStep (RGlue.rSrc (V (main_arg1 : DevRef τ sig))) (RGlue.rDst (V (main_arg1 : DevRef τ sig))) s
            ⟨0x3E647FF4#32, RGlue.rAtt 3 slices_S9x1x64_S1x1x64_3_0_0 (V (main_arg7 : DevRef τ sig)),
              RGlue.rHatt 3 slices_S9x1x128_S1x1x128_3_0_0 (V (main_arg10 : DevRef τ sig)), RGlue.rHb 3 slices_S9x1_S1x1_3_0 (V (main_arg11 : DevRef τ sig))⟩).2 := by
  rw [l3_x, l3_z, hk.src, hk.dst, hk.a7, hk.a10, hk.a11, hx, hz]
  exact ⟨rfl, rfl⟩

end Cert.ReferenceIdeal.RFold

end
-- ==== Proof.RFoldL4.lean ====
/-
  Round 4 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 4). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L4
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l4_win1 : List (HloOp τ sig (Elt Ideal)) := (RefRun.opsL4 (F := Ideal)).take 22
/-- Operations 22 … 43: the edge scores before the softplus. -/
def l4_win2 : List (HloOp τ sig (Elt Ideal)) := ((RefRun.opsL4 (F := Ideal)).drop 22).take 22
/-- Operations 44 … 60: the edge scores. -/
def l4_win3 : List (HloOp τ sig (Elt Ideal)) := ((RefRun.opsL4 (F := Ideal)).drop 44).take 17
/-- Operations 61 … 90: the nodes' degrees to the power −1/2, and the edge weights. -/
def l4_win4 : List (HloOp τ sig (Elt Ideal)) := ((RefRun.opsL4 (F := Ideal)).drop 61).take 30
/-- Operations 91 … 108: the new node features. -/
def l4_win5 : List (HloOp τ sig (Elt Ideal)) := ((RefRun.opsL4 (F := Ideal)).drop 91).take 18
/-- Operations 109 … 141: the new state. -/
def l4_win6 : List (HloOp τ sig (Elt Ideal)) := (RefRun.opsL4 (F := Ideal)).drop 109

/-- The stretch is its six windows, one after the other. -/
theorem l4_cut (W : Valuation τ sig (Elt Ideal)) :
    after (RefRun.opsL4 (F := Ideal)) W
      = after l4_win6 (after l4_win5 (after l4_win4 (after l4_win3 (after l4_win2 (after l4_win1 W))))) := by
  unfold l4_win1 l4_win2 l4_win3 l4_win4 l4_win5 l4_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l4_res1 (U : Valuation τ sig (Elt Ideal)) :
    after l4_win1 U (main_v358 : DevRef τ sig) = RGlue.rZs 0x3E3AB2B8#32 (U (main_v356 : DevRef τ sig))
    ∧ after l4_win1 U (main_v373 : DevRef τ sig)
        = RGlue.rZsum (RGlue.rZs 0x3E3AB2B8#32 (U (main_v356 : DevRef τ sig))) (U (main_v1 : DevRef τ sig)) (U (main_v3 : DevRef τ sig))
    ∧ after l4_win1 U (main_v338 : DevRef τ sig) = U (main_v338 : DevRef τ sig)
    ∧ after l4_win1 U (main_v356 : DevRef τ sig) = U (main_v356 : DevRef τ sig)
    ∧ after l4_win1 U (main_v1 : DevRef τ sig) = U (main_v1 : DevRef τ sig)
    ∧ after l4_win1 U (main_v3 : DevRef τ sig) = U (main_v3 : DevRef τ sig)
    ∧ after l4_win1 U (main_arg7 : DevRef τ sig) = U (main_arg7 : DevRef τ sig)
    ∧ after l4_win1 U (main_arg10 : DevRef τ sig) = U (main_arg10 : DevRef τ sig)
    ∧ after l4_win1 U (main_arg11 : DevRef τ sig) = U (main_arg11 : DevRef τ sig) := by
  simp only [l4_win1, RefRun.opsL4, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l4_res2 (U : Valuation τ sig (Elt Ideal)) :
    after l4_win2 U (main_v380 : DevRef τ sig) = rScore (U (main_v373 : DevRef τ sig)) (RGlue.rAtt 4 slices_S9x1x64_S1x1x64_4_0_0 (U (main_arg7 : DevRef τ sig)))
    ∧ after l4_win2 U (main_v338 : DevRef τ sig) = U (main_v338 : DevRef τ sig)
    ∧ after l4_win2 U (main_v356 : DevRef τ sig) = U (main_v356 : DevRef τ sig)
    ∧ after l4_win2 U (main_v358 : DevRef τ sig) = U (main_v358 : DevRef τ sig)
    ∧ after l4_win2 U (main_v1 : DevRef τ sig) = U (main_v1 : DevRef τ sig)
    ∧ after l4_win2 U (main_v3 : DevRef τ sig) = U (main_v3 : DevRef τ sig)
    ∧ after l4_win2 U (main_arg10 : DevRef τ sig) = U (main_arg10 : DevRef τ sig)
    ∧ after l4_win2 U (main_arg11 : DevRef τ sig) = U (main_arg11 : DevRef τ sig) := by
  simp only [l4_win2, RefRun.opsL4, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l4_res3 (U : Valuation τ sig (Elt Ideal)) :
    after l4_win3 U (main_v383 : DevRef τ sig)
        = addf (RGlue.rSoftplus (U (main_v380 : DevRef τ sig))) (RGlue.splat S320000x1 bcast_S_S320000x1 0x358637BD#32)
    ∧ after l4_win3 U (main_v338 : DevRef τ sig) = U (main_v338 : DevRef τ sig)
    ∧ after l4_win3 U (main_v356 : DevRef τ sig) = U (main_v356 : DevRef τ sig)
    ∧ after l4_win3 U (main_v358 : DevRef τ sig) = U (main_v358 : DevRef τ sig)
    ∧ after l4_win3 U (main_v1 : DevRef τ sig) = U (main_v1 : DevRef τ sig)
    ∧ after l4_win3 U (main_v3 : DevRef τ sig) = U (main_v3 : DevRef τ sig)
    ∧ after l4_win3 U (main_arg10 : DevRef τ sig) = U (main_arg10 : DevRef τ sig)
    ∧ after l4_win3 U (main_arg11 : DevRef τ sig) = U (main_arg11 : DevRef τ sig) := by
  simp only [l4_win3, RefRun.opsL4, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l4_res4 (U : Valuation τ sig (Elt Ideal)) :
    after l4_win4 U (main_v406 : DevRef τ sig)
        = RGlue.rNa (RGlue.rInv (U (main_v383 : DevRef τ sig)) (U (main_v3 : DevRef τ sig))) (U (main_v383 : DevRef τ sig)) (U (main_v1 : DevRef τ sig)) (U (main_v3 : DevRef τ sig))
    ∧ after l4_win4 U (main_v338 : DevRef τ sig) = U (main_v338 : DevRef τ sig)
    ∧ after l4_win4 U (main_v356 : DevRef τ sig) = U (main_v356 : DevRef τ sig)
    ∧ after l4_win4 U (main_v358 : DevRef τ sig) = U (main_v358 : DevRef τ sig)
    ∧ after l4_win4 U (main_v1 : DevRef τ sig) = U (main_v1 : DevRef τ sig)
    ∧ after l4_win4 U (main_v3 : DevRef τ sig) = U (main_v3 : DevRef τ sig)
    ∧ after l4_win4 U (main_arg10 : DevRef τ sig) = U (main_arg10 : DevRef τ sig)
    ∧ after l4_win4 U (main_arg11 : DevRef τ sig) = U (main_arg11 : DevRef τ sig) := by
  simp only [l4_win4, RefRun.opsL4, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l4_res5 (U : Valuation τ sig (Elt Ideal)) :
    after l4_win5 U (main_v421 : DevRef τ sig) = RGlue.rX (U (main_v338 : DevRef τ sig)) (U (main_v406 : DevRef τ sig)) (U (main_v1 : DevRef τ sig)) (U (main_v3 : DevRef τ sig))
    ∧ after l4_win5 U (main_v356 : DevRef τ sig) = U (main_v356 : DevRef τ sig)
    ∧ after l4_win5 U (main_v358 : DevRef τ sig) = U (main_v358 : DevRef τ sig)
    ∧ after l4_win5 U (main_arg10 : DevRef τ sig) = U (main_arg10 : DevRef τ sig)
    ∧ after l4_win5 U (main_arg11 : DevRef τ sig) = U (main_arg11 : DevRef τ sig) := by
  simp only [l4_win5, RefRun.opsL4, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l4_res6 (U : Valuation τ sig (Elt Ideal)) :
    after l4_win6 U (main_v439 : DevRef τ sig)
        = rZTail (U (main_v421 : DevRef τ sig)) (U (main_v358 : DevRef τ sig)) (U (main_v356 : DevRef τ sig)) (RGlue.rHatt 4 slices_S9x1x128_S1x1x128_4_0_0 (U (main_arg10 : DevRef τ sig))) (RGlue.rHb 4 slices_S9x1_S1x1_4_0 (U (main_arg11 : DevRef τ sig)))
    ∧ after l4_win6 U (main_v421 : DevRef τ sig) = U (main_v421 : DevRef τ sig) := by
  simp only [l4_win6, RefRun.opsL4, List.drop_succ_cons, List.drop_zero]
  refine ⟨?_, ?_⟩ <;> after_results_simp <;> rfl

/-! ## The round -/

/-- The stretch leaves the round's new features and new state, of what it found. -/
theorem l4_xz (W : Valuation τ sig (Elt Ideal)) :
    after (RefRun.opsL4 (F := Ideal)) W (main_v421 : DevRef τ sig)
        = RGlue.rXNew 0x3E3AB2B8#32 (RGlue.rAtt 4 slices_S9x1x64_S1x1x64_4_0_0 (W (main_arg7 : DevRef τ sig)))
            (W (main_v1 : DevRef τ sig)) (W (main_v3 : DevRef τ sig)) (W (main_v338 : DevRef τ sig)) (W (main_v356 : DevRef τ sig))
    ∧ after (RefRun.opsL4 (F := Ideal)) W (main_v439 : DevRef τ sig)
        = RGlue.rZNew 0x3E3AB2B8#32 (RGlue.rAtt 4 slices_S9x1x64_S1x1x64_4_0_0 (W (main_arg7 : DevRef τ sig)))
            (RGlue.rHatt 4 slices_S9x1x128_S1x1x128_4_0_0 (W (main_arg10 : DevRef τ sig))) (RGlue.rHb 4 slices_S9x1_S1x1_4_0 (W (main_arg11 : DevRef τ sig)))
            (W (main_v1 : DevRef τ sig)) (W (main_v3 : DevRef τ sig)) (W (main_v338 : DevRef τ sig)) (W (main_v356 : DevRef τ sig)) := by
  rw [l4_cut]
  have r1 := l4_res1 W
  generalize after l4_win1 W = U1 at r1 ⊢
  have r2 := l4_res2 U1
  generalize after l4_win2 U1 = U2 at r2 ⊢
  have r3 := l4_res3 U2
  generalize after l4_win3 U2 = U3 at r3 ⊢
  have r4 := l4_res4 U3
  generalize after l4_win4 U3 = U4 at r4 ⊢
  have r5 := l4_res5 U4
  generalize after l4_win5 U4 = U5 at r5 ⊢
  have r6 := l4_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v421 : DevRef τ sig)
      = RGlue.rXNew 0x3E3AB2B8#32 (RGlue.rAtt 4 slices_S9x1x64_S1x1x64_4_0_0 (W (main_arg7 : DevRef τ sig)))
          (W (main_v1 : DevRef τ sig)) (W (main_v3 : DevRef τ sig)) (W (main_v338 : DevRef τ sig)) (W (main_v356 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l4_x (W : Valuation τ sig (Elt Ideal)) :
    after (RefRun.opsL4 (F := Ideal)) W (main_v421 : DevRef τ sig)
      = RGlue.rXNew 0x3E3AB2B8#32 (RGlue.rAtt 4 slices_S9x1x64_S1x1x64_4_0_0 (W (main_arg7 : DevRef τ sig)))
          (W (main_v1 : DevRef τ sig)) (W (main_v3 : DevRef τ sig)) (W (main_v338 : DevRef τ sig)) (W (main_v356 : DevRef τ sig)) := (l4_xz W).1

/-- The new state: the round's state function of what the stretch found. -/
theorem l4_z (W : Valuation τ sig (Elt Ideal)) :
    after (RefRun.opsL4 (F := Ideal)) W (main_v439 : DevRef τ sig)
      = RGlue.rZNew 0x3E3AB2B8#32 (RGlue.rAtt 4 slices_S9x1x64_S1x1x64_4_0_0 (W (main_arg7 : DevRef τ sig)))
          (RGlue.rHatt 4 slices_S9x1x128_S1x1x128_4_0_0 (W (main_arg10 : DevRef τ sig))) (RGlue.rHb 4 slices_S9x1_S1x1_4_0 (W (main_arg11 : DevRef τ sig)))
          (W (main_v1 : DevRef τ sig)) (W (main_v3 : DevRef τ sig)) (W (main_v338 : DevRef τ sig)) (W (main_v356 : DevRef τ sig)) := (l4_xz W).2

/-- The stretch writes neither the edges' ends nor an argument: what is carried stays carried. -/
theorem l4_kept {V W : Valuation τ sig (Elt Ideal)} (hk : Kept V W) : Kept V (after (RefRun.opsL4 (F := Ideal)) W) where
  src := (RefRun.opsL4_kept W main_v1 (by decide)).trans hk.src
  dst := (RefRun.opsL4_kept W main_v3 (by decide)).trans hk.dst
  a2 := (RefRun.opsL4_kept W main_arg2 (by decide)).trans hk.a2
  a7 := (RefRun.opsL4_kept W main_arg7 (by decide)).trans hk.a7
  a10 := (RefRun.opsL4_kept W main_arg10 (by decide)).trans hk.a10
  a11 := (RefRun.opsL4_kept W main_arg11 (by decide)).trans hk.a11
  a12 := (RefRun.opsL4_kept W main_arg12 (by decide)).trans hk.a12
  a13 := (RefRun.opsL4_kept W main_arg13 (by decide)).trans hk.a13

/-- The round as a step on the pair (features, state): from contents carrying the edges' ends and the arguments and
    holding the pair `s`, the stretch leaves the round's step of `s` with row 4 of the stacked parameters. -/
theorem l4_step {V W : Valuation τ sig (Elt Ideal)} (hk : Kept V W) (s : RGlue.A S10000x64 × RGlue.A S10000x1x64)
    (hx : W (main_v338 : DevRef τ sig) = s.1) (hz : W (main_v356 : DevRef τ sig) = s.2) :
    after (RefRun.opsL4 (F := Ideal)) W (main_v421 : DevRef τ sig)
        = (RGlue.rStep (RGlue.rSrc (V (main_arg1 : DevRef τ sig))) (RGlue.rDst (V (main_arg1 : DevRef τ sig))) s
            ⟨0x3E3AB2B8#32, RGlue.rAtt 4 slices_S9x1x64_S1x1x64_4_0_0 (V (main_arg7 : DevRef τ sig)),
              RGlue.rHatt 4 slices_S9x1x128_S1x1x128_4_0_0 (V (main_arg10 : DevRef τ sig)), RGlue.rHb 4 slices_S9x1_S1x1_4_0 (V (main_arg11 : DevRef τ sig))⟩).1
      ∧ after (RefRun.opsL4 (F := Ideal)) W (main_v439 : DevRef τ sig)
        = (RGlue.rStep (RGlue.rSrc (V (main_arg1 : DevRef τ sig))) (RGlue.rDst (V (main_arg1 : DevRef τ sig))) s
            ⟨0x3E3AB2B8#32, RGlue.rAtt 4 slices_S9x1x64_S1x1x64_4_0_0 (V (main_arg7 : DevRef τ sig)),
              RGlue.rHatt 4 slices_S9x1x128_S1x1x128_4_0_0 (V (main_arg10 : DevRef τ sig)), RGlue.rHb 4 slices_S9x1_S1x1_4_0 (V (main_arg11 : DevRef τ sig))⟩).2 := by
  rw [l4_x, l4_z, hk.src, hk.dst, hk.a7, hk.a10, hk.a11, hx, hz]
  exact ⟨rfl, rfl⟩

end Cert.ReferenceIdeal.RFold

end
-- ==== Proof.RFoldL5.lean ====
/-
  Round 5 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 5). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L5
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l5_win1 : List (HloOp τ sig (Elt Ideal)) := (RefRun.opsL5 (F := Ideal)).take 22
/-- Operations 22 … 43: the edge scores before the softplus. -/
def l5_win2 : List (HloOp τ sig (Elt Ideal)) := ((RefRun.opsL5 (F := Ideal)).drop 22).take 22
/-- Operations 44 … 60: the edge scores. -/
def l5_win3 : List (HloOp τ sig (Elt Ideal)) := ((RefRun.opsL5 (F := Ideal)).drop 44).take 17
/-- Operations 61 … 90: the nodes' degrees to the power −1/2, and the edge weights. -/
def l5_win4 : List (HloOp τ sig (Elt Ideal)) := ((RefRun.opsL5 (F := Ideal)).drop 61).take 30
/-- Operations 91 … 108: the new node features. -/
def l5_win5 : List (HloOp τ sig (Elt Ideal)) := ((RefRun.opsL5 (F := Ideal)).drop 91).take 18
/-- Operations 109 … 141: the new state. -/
def l5_win6 : List (HloOp τ sig (Elt Ideal)) := (RefRun.opsL5 (F := Ideal)).drop 109

/-- The stretch is its six windows, one after the other. -/
theorem l5_cut (W : Valuation τ sig (Elt Ideal)) :
    after (RefRun.opsL5 (F := Ideal)) W
      = after l5_win6 (after l5_win5 (after l5_win4 (after l5_win3 (after l5_win2 (after l5_win1 W))))) := by
  unfold l5_win1 l5_win2 l5_win3 l5_win4 l5_win5 l5_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l5_res1 (U : Valuation τ sig (Elt Ideal)) :
    after l5_win1 U (main_v441 : DevRef τ sig) = RGlue.rZs 0x3E1DD9E7#32 (U (main_v439 : DevRef τ sig))
    ∧ after l5_win1 U (main_v456 : DevRef τ sig)
        = RGlue.rZsum (RGlue.rZs 0x3E1DD9E7#32 (U (main_v439 : DevRef τ sig))) (U (main_v1 : DevRef τ sig)) (U (main_v3 : DevRef τ sig))
    ∧ after l5_win1 U (main_v421 : DevRef τ sig) = U (main_v421 : DevRef τ sig)
    ∧ after l5_win1 U (main_v439 : DevRef τ sig) = U (main_v439 : DevRef τ sig)
    ∧ after l5_win1 U (main_v1 : DevRef τ sig) = U (main_v1 : DevRef τ sig)
    ∧ after l5_win1 U (main_v3 : DevRef τ sig) = U (main_v3 : DevRef τ sig)
    ∧ after l5_win1 U (main_arg7 : DevRef τ sig) = U (main_arg7 : DevRef τ sig)
    ∧ after l5_win1 U (main_arg10 : DevRef τ sig) = U (main_arg10 : DevRef τ sig)
    ∧ after l5_win1 U (main_arg11 : DevRef τ sig) = U (main_arg11 : DevRef τ sig) := by
  simp only [l5_win1, RefRun.opsL5, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l5_res2 (U : Valuation τ sig (Elt Ideal)) :
    after l5_win2 U (main_v463 : DevRef τ sig) = rScore (U (main_v456 : DevRef τ sig)) (RGlue.rAtt 5 slices_S9x1x64_S1x1x64_5_0_0 (U (main_arg7 : DevRef τ sig)))
    ∧ after l5_win2 U (main_v421 : DevRef τ sig) = U (main_v421 : DevRef τ sig)
    ∧ after l5_win2 U (main_v439 : DevRef τ sig) = U (main_v439 : DevRef τ sig)
    ∧ after l5_win2 U (main_v441 : DevRef τ sig) = U (main_v441 : DevRef τ sig)
    ∧ after l5_win2 U (main_v1 : DevRef τ sig) = U (main_v1 : DevRef τ sig)
    ∧ after l5_win2 U (main_v3 : DevRef τ sig) = U (main_v3 : DevRef τ sig)
    ∧ after l5_win2 U (main_arg10 : DevRef τ sig) = U (main_arg10 : DevRef τ sig)
    ∧ after l5_win2 U (main_arg11 : DevRef τ sig) = U (main_arg11 : DevRef τ sig) := by
  simp only [l5_win2, RefRun.opsL5, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l5_res3 (U : Valuation τ sig (Elt Ideal)) :
    after l5_win3 U (main_v466 : DevRef τ sig)
        = addf (RGlue.rSoftplus (U (main_v463 : DevRef τ sig))) (RGlue.splat S320000x1 bcast_S_S320000x1 0x358637BD#32)
    ∧ after l5_win3 U (main_v421 : DevRef τ sig) = U (main_v421 : DevRef τ sig)
    ∧ after l5_win3 U (main_v439 : DevRef τ sig) = U (main_v439 : DevRef τ sig)
    ∧ after l5_win3 U (main_v441 : DevRef τ sig) = U (main_v441 : DevRef τ sig)
    ∧ after l5_win3 U (main_v1 : DevRef τ sig) = U (main_v1 : DevRef τ sig)
    ∧ after l5_win3 U (main_v3 : DevRef τ sig) = U (main_v3 : DevRef τ sig)
    ∧ after l5_win3 U (main_arg10 : DevRef τ sig) = U (main_arg10 : DevRef τ sig)
    ∧ after l5_win3 U (main_arg11 : DevRef τ sig) = U (main_arg11 : DevRef τ sig) := by
  simp only [l5_win3, RefRun.opsL5, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l5_res4 (U : Valuation τ sig (Elt Ideal)) :
    after l5_win4 U (main_v489 : DevRef τ sig)
        = RGlue.rNa (RGlue.rInv (U (main_v466 : DevRef τ sig)) (U (main_v3 : DevRef τ sig))) (U (main_v466 : DevRef τ sig)) (U (main_v1 : DevRef τ sig)) (U (main_v3 : DevRef τ sig))
    ∧ after l5_win4 U (main_v421 : DevRef τ sig) = U (main_v421 : DevRef τ sig)
    ∧ after l5_win4 U (main_v439 : DevRef τ sig) = U (main_v439 : DevRef τ sig)
    ∧ after l5_win4 U (main_v441 : DevRef τ sig) = U (main_v441 : DevRef τ sig)
    ∧ after l5_win4 U (main_v1 : DevRef τ sig) = U (main_v1 : DevRef τ sig)
    ∧ after l5_win4 U (main_v3 : DevRef τ sig) = U (main_v3 : DevRef τ sig)
    ∧ after l5_win4 U (main_arg10 : DevRef τ sig) = U (main_arg10 : DevRef τ sig)
    ∧ after l5_win4 U (main_arg11 : DevRef τ sig) = U (main_arg11 : DevRef τ sig) := by
  simp only [l5_win4, RefRun.opsL5, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l5_res5 (U : Valuation τ sig (Elt Ideal)) :
    after l5_win5 U (main_v504 : DevRef τ sig) = RGlue.rX (U (main_v421 : DevRef τ sig)) (U (main_v489 : DevRef τ sig)) (U (main_v1 : DevRef τ sig)) (U (main_v3 : DevRef τ sig))
    ∧ after l5_win5 U (main_v439 : DevRef τ sig) = U (main_v439 : DevRef τ sig)
    ∧ after l5_win5 U (main_v441 : DevRef τ sig) = U (main_v441 : DevRef τ sig)
    ∧ after l5_win5 U (main_arg10 : DevRef τ sig) = U (main_arg10 : DevRef τ sig)
    ∧ after l5_win5 U (main_arg11 : DevRef τ sig) = U (main_arg11 : DevRef τ sig) := by
  simp only [l5_win5, RefRun.opsL5, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l5_res6 (U : Valuation τ sig (Elt Ideal)) :
    after l5_win6 U (main_v522 : DevRef τ sig)
        = rZTail (U (main_v504 : DevRef τ sig)) (U (main_v441 : DevRef τ sig)) (U (main_v439 : DevRef τ sig)) (RGlue.rHatt 5 slices_S9x1x128_S1x1x128_5_0_0 (U (main_arg10 : DevRef τ sig))) (RGlue.rHb 5 slices_S9x1_S1x1_5_0 (U (main_arg11 : DevRef τ sig)))
    ∧ after l5_win6 U (main_v504 : DevRef τ sig) = U (main_v504 : DevRef τ sig) := by
  simp only [l5_win6, RefRun.opsL5, List.drop_succ_cons, List.drop_zero]
  refine ⟨?_, ?_⟩ <;> after_results_simp <;> rfl

/-! ## The round -/

/-- The stretch leaves the round's new features and new state, of what it found. -/
theorem l5_xz (W : Valuation τ sig (Elt Ideal)) :
    after (RefRun.opsL5 (F := Ideal)) W (main_v504 : DevRef τ sig)
        = RGlue.rXNew 0x3E1DD9E7#32 (RGlue.rAtt 5 slices_S9x1x64_S1x1x64_5_0_0 (W (main_arg7 : DevRef τ sig)))
            (W (main_v1 : DevRef τ sig)) (W (main_v3 : DevRef τ sig)) (W (main_v421 : DevRef τ sig)) (W (main_v439 : DevRef τ sig))
    ∧ after (RefRun.opsL5 (F := Ideal)) W (main_v522 : DevRef τ sig)
        = RGlue.rZNew 0x3E1DD9E7#32 (RGlue.rAtt 5 slices_S9x1x64_S1x1x64_5_0_0 (W (main_arg7 : DevRef τ sig)))
            (RGlue.rHatt 5 slices_S9x1x128_S1x1x128_5_0_0 (W (main_arg10 : DevRef τ sig))) (RGlue.rHb 5 slices_S9x1_S1x1_5_0 (W (main_arg11 : DevRef τ sig)))
            (W (main_v1 : DevRef τ sig)) (W (main_v3 : DevRef τ sig)) (W (main_v421 : DevRef τ sig)) (W (main_v439 : DevRef τ sig)) := by
  rw [l5_cut]
  have r1 := l5_res1 W
  generalize after l5_win1 W = U1 at r1 ⊢
  have r2 := l5_res2 U1
  generalize after l5_win2 U1 = U2 at r2 ⊢
  have r3 := l5_res3 U2
  generalize after l5_win3 U2 = U3 at r3 ⊢
  have r4 := l5_res4 U3
  generalize after l5_win4 U3 = U4 at r4 ⊢
  have r5 := l5_res5 U4
  generalize after l5_win5 U4 = U5 at r5 ⊢
  have r6 := l5_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v504 : DevRef τ sig)
      = RGlue.rXNew 0x3E1DD9E7#32 (RGlue.rAtt 5 slices_S9x1x64_S1x1x64_5_0_0 (W (main_arg7 : DevRef τ sig)))
          (W (main_v1 : DevRef τ sig)) (W (main_v3 : DevRef τ sig)) (W (main_v421 : DevRef τ sig)) (W (main_v439 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l5_x (W : Valuation τ sig (Elt Ideal)) :
    after (RefRun.opsL5 (F := Ideal)) W (main_v504 : DevRef τ sig)
      = RGlue.rXNew 0x3E1DD9E7#32 (RGlue.rAtt 5 slices_S9x1x64_S1x1x64_5_0_0 (W (main_arg7 : DevRef τ sig)))
          (W (main_v1 : DevRef τ sig)) (W (main_v3 : DevRef τ sig)) (W (main_v421 : DevRef τ sig)) (W (main_v439 : DevRef τ sig)) := (l5_xz W).1

/-- The new state: the round's state function of what the stretch found. -/
theorem l5_z (W : Valuation τ sig (Elt Ideal)) :
    after (RefRun.opsL5 (F := Ideal)) W (main_v522 : DevRef τ sig)
      = RGlue.rZNew 0x3E1DD9E7#32 (RGlue.rAtt 5 slices_S9x1x64_S1x1x64_5_0_0 (W (main_arg7 : DevRef τ sig)))
          (RGlue.rHatt 5 slices_S9x1x128_S1x1x128_5_0_0 (W (main_arg10 : DevRef τ sig))) (RGlue.rHb 5 slices_S9x1_S1x1_5_0 (W (main_arg11 : DevRef τ sig)))
          (W (main_v1 : DevRef τ sig)) (W (main_v3 : DevRef τ sig)) (W (main_v421 : DevRef τ sig)) (W (main_v439 : DevRef τ sig)) := (l5_xz W).2

/-- The stretch writes neither the edges' ends nor an argument: what is carried stays carried. -/
theorem l5_kept {V W : Valuation τ sig (Elt Ideal)} (hk : Kept V W) : Kept V (after (RefRun.opsL5 (F := Ideal)) W) where
  src := (RefRun.opsL5_kept W main_v1 (by decide)).trans hk.src
  dst := (RefRun.opsL5_kept W main_v3 (by decide)).trans hk.dst
  a2 := (RefRun.opsL5_kept W main_arg2 (by decide)).trans hk.a2
  a7 := (RefRun.opsL5_kept W main_arg7 (by decide)).trans hk.a7
  a10 := (RefRun.opsL5_kept W main_arg10 (by decide)).trans hk.a10
  a11 := (RefRun.opsL5_kept W main_arg11 (by decide)).trans hk.a11
  a12 := (RefRun.opsL5_kept W main_arg12 (by decide)).trans hk.a12
  a13 := (RefRun.opsL5_kept W main_arg13 (by decide)).trans hk.a13

/-- The round as a step on the pair (features, state): from contents carrying the edges' ends and the arguments and
    holding the pair `s`, the stretch leaves the round's step of `s` with row 5 of the stacked parameters. -/
theorem l5_step {V W : Valuation τ sig (Elt Ideal)} (hk : Kept V W) (s : RGlue.A S10000x64 × RGlue.A S10000x1x64)
    (hx : W (main_v421 : DevRef τ sig) = s.1) (hz : W (main_v439 : DevRef τ sig) = s.2) :
    after (RefRun.opsL5 (F := Ideal)) W (main_v504 : DevRef τ sig)
        = (RGlue.rStep (RGlue.rSrc (V (main_arg1 : DevRef τ sig))) (RGlue.rDst (V (main_arg1 : DevRef τ sig))) s
            ⟨0x3E1DD9E7#32, RGlue.rAtt 5 slices_S9x1x64_S1x1x64_5_0_0 (V (main_arg7 : DevRef τ sig)),
              RGlue.rHatt 5 slices_S9x1x128_S1x1x128_5_0_0 (V (main_arg10 : DevRef τ sig)), RGlue.rHb 5 slices_S9x1_S1x1_5_0 (V (main_arg11 : DevRef τ sig))⟩).1
      ∧ after (RefRun.opsL5 (F := Ideal)) W (main_v522 : DevRef τ sig)
        = (RGlue.rStep (RGlue.rSrc (V (main_arg1 : DevRef τ sig))) (RGlue.rDst (V (main_arg1 : DevRef τ sig))) s
            ⟨0x3E1DD9E7#32, RGlue.rAtt 5 slices_S9x1x64_S1x1x64_5_0_0 (V (main_arg7 : DevRef τ sig)),
              RGlue.rHatt 5 slices_S9x1x128_S1x1x128_5_0_0 (V (main_arg10 : DevRef τ sig)), RGlue.rHb 5 slices_S9x1_S1x1_5_0 (V (main_arg11 : DevRef τ sig))⟩).2 := by
  rw [l5_x, l5_z, hk.src, hk.dst, hk.a7, hk.a10, hk.a11, hx, hz]
  exact ⟨rfl, rfl⟩

end Cert.ReferenceIdeal.RFold

end
-- ==== Proof.RFoldL6.lean ====
/-
  Round 6 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 6). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L6
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l6_win1 : List (HloOp τ sig (Elt Ideal)) := (RefRun.opsL6 (F := Ideal)).take 22
/-- Operations 22 … 43: the edge scores before the softplus. -/
def l6_win2 : List (HloOp τ sig (Elt Ideal)) := ((RefRun.opsL6 (F := Ideal)).drop 22).take 22
/-- Operations 44 … 60: the edge scores. -/
def l6_win3 : List (HloOp τ sig (Elt Ideal)) := ((RefRun.opsL6 (F := Ideal)).drop 44).take 17
/-- Operations 61 … 90: the nodes' degrees to the power −1/2, and the edge weights. -/
def l6_win4 : List (HloOp τ sig (Elt Ideal)) := ((RefRun.opsL6 (F := Ideal)).drop 61).take 30
/-- Operations 91 … 108: the new node features. -/
def l6_win5 : List (HloOp τ sig (Elt Ideal)) := ((RefRun.opsL6 (F := Ideal)).drop 91).take 18
/-- Operations 109 … 141: the new state. -/
def l6_win6 : List (HloOp τ sig (Elt Ideal)) := (RefRun.opsL6 (F := Ideal)).drop 109

/-- The stretch is its six windows, one after the other. -/
theorem l6_cut (W : Valuation τ sig (Elt Ideal)) :
    after (RefRun.opsL6 (F := Ideal)) W
      = after l6_win6 (after l6_win5 (after l6_win4 (after l6_win3 (after l6_win2 (after l6_win1 W))))) := by
  unfold l6_win1 l6_win2 l6_win3 l6_win4 l6_win5 l6_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l6_res1 (U : Valuation τ sig (Elt Ideal)) :
    after l6_win1 U (main_v524 : DevRef τ sig) = RGlue.rZs 0x3E08BCAF#32 (U (main_v522 : DevRef τ sig))
    ∧ after l6_win1 U (main_v539 : DevRef τ sig)
        = RGlue.rZsum (RGlue.rZs 0x3E08BCAF#32 (U (main_v522 : DevRef τ sig))) (U (main_v1 : DevRef τ sig)) (U (main_v3 : DevRef τ sig))
    ∧ after l6_win1 U (main_v504 : DevRef τ sig) = U (main_v504 : DevRef τ sig)
    ∧ after l6_win1 U (main_v522 : DevRef τ sig) = U (main_v522 : DevRef τ sig)
    ∧ after l6_win1 U (main_v1 : DevRef τ sig) = U (main_v1 : DevRef τ sig)
    ∧ after l6_win1 U (main_v3 : DevRef τ sig) = U (main_v3 : DevRef τ sig)
    ∧ after l6_win1 U (main_arg7 : DevRef τ sig) = U (main_arg7 : DevRef τ sig)
    ∧ after l6_win1 U (main_arg10 : DevRef τ sig) = U (main_arg10 : DevRef τ sig)
    ∧ after l6_win1 U (main_arg11 : DevRef τ sig) = U (main_arg11 : DevRef τ sig) := by
  simp only [l6_win1, RefRun.opsL6, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l6_res2 (U : Valuation τ sig (Elt Ideal)) :
    after l6_win2 U (main_v546 : DevRef τ sig) = rScore (U (main_v539 : DevRef τ sig)) (RGlue.rAtt 6 slices_S9x1x64_S1x1x64_6_0_0 (U (main_arg7 : DevRef τ sig)))
    ∧ after l6_win2 U (main_v504 : DevRef τ sig) = U (main_v504 : DevRef τ sig)
    ∧ after l6_win2 U (main_v522 : DevRef τ sig) = U (main_v522 : DevRef τ sig)
    ∧ after l6_win2 U (main_v524 : DevRef τ sig) = U (main_v524 : DevRef τ sig)
    ∧ after l6_win2 U (main_v1 : DevRef τ sig) = U (main_v1 : DevRef τ sig)
    ∧ after l6_win2 U (main_v3 : DevRef τ sig) = U (main_v3 : DevRef τ sig)
    ∧ after l6_win2 U (main_arg10 : DevRef τ sig) = U (main_arg10 : DevRef τ sig)
    ∧ after l6_win2 U (main_arg11 : DevRef τ sig) = U (main_arg11 : DevRef τ sig) := by
  simp only [l6_win2, RefRun.opsL6, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l6_res3 (U : Valuation τ sig (Elt Ideal)) :
    after l6_win3 U (main_v549 : DevRef τ sig)
        = addf (RGlue.rSoftplus (U (main_v546 : DevRef τ sig))) (RGlue.splat S320000x1 bcast_S_S320000x1 0x358637BD#32)
    ∧ after l6_win3 U (main_v504 : DevRef τ sig) = U (main_v504 : DevRef τ sig)
    ∧ after l6_win3 U (main_v522 : DevRef τ sig) = U (main_v522 : DevRef τ sig)
    ∧ after l6_win3 U (main_v524 : DevRef τ sig) = U (main_v524 : DevRef τ sig)
    ∧ after l6_win3 U (main_v1 : DevRef τ sig) = U (main_v1 : DevRef τ sig)
    ∧ after l6_win3 U (main_v3 : DevRef τ sig) = U (main_v3 : DevRef τ sig)
    ∧ after l6_win3 U (main_arg10 : DevRef τ sig) = U (main_arg10 : DevRef τ sig)
    ∧ after l6_win3 U (main_arg11 : DevRef τ sig) = U (main_arg11 : DevRef τ sig) := by
  simp only [l6_win3, RefRun.opsL6, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l6_res4 (U : Valuation τ sig (Elt Ideal)) :
    after l6_win4 U (main_v572 : DevRef τ sig)
        = RGlue.rNa (RGlue.rInv (U (main_v549 : DevRef τ sig)) (U (main_v3 : DevRef τ sig))) (U (main_v549 : DevRef τ sig)) (U (main_v1 : DevRef τ sig)) (U (main_v3 : DevRef τ sig))
    ∧ after l6_win4 U (main_v504 : DevRef τ sig) = U (main_v504 : DevRef τ sig)
    ∧ after l6_win4 U (main_v522 : DevRef τ sig) = U (main_v522 : DevRef τ sig)
    ∧ after l6_win4 U (main_v524 : DevRef τ sig) = U (main_v524 : DevRef τ sig)
    ∧ after l6_win4 U (main_v1 : DevRef τ sig) = U (main_v1 : DevRef τ sig)
    ∧ after l6_win4 U (main_v3 : DevRef τ sig) = U (main_v3 : DevRef τ sig)
    ∧ after l6_win4 U (main_arg10 : DevRef τ sig) = U (main_arg10 : DevRef τ sig)
    ∧ after l6_win4 U (main_arg11 : DevRef τ sig) = U (main_arg11 : DevRef τ sig) := by
  simp only [l6_win4, RefRun.opsL6, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l6_res5 (U : Valuation τ sig (Elt Ideal)) :
    after l6_win5 U (main_v587 : DevRef τ sig) = RGlue.rX (U (main_v504 : DevRef τ sig)) (U (main_v572 : DevRef τ sig)) (U (main_v1 : DevRef τ sig)) (U (main_v3 : DevRef τ sig))
    ∧ after l6_win5 U (main_v522 : DevRef τ sig) = U (main_v522 : DevRef τ sig)
    ∧ after l6_win5 U (main_v524 : DevRef τ sig) = U (main_v524 : DevRef τ sig)
    ∧ after l6_win5 U (main_arg10 : DevRef τ sig) = U (main_arg10 : DevRef τ sig)
    ∧ after l6_win5 U (main_arg11 : DevRef τ sig) = U (main_arg11 : DevRef τ sig) := by
  simp only [l6_win5, RefRun.opsL6, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l6_res6 (U : Valuation τ sig (Elt Ideal)) :
    after l6_win6 U (main_v605 : DevRef τ sig)
        = rZTail (U (main_v587 : DevRef τ sig)) (U (main_v524 : DevRef τ sig)) (U (main_v522 : DevRef τ sig)) (RGlue.rHatt 6 slices_S9x1x128_S1x1x128_6_0_0 (U (main_arg10 : DevRef τ sig))) (RGlue.rHb 6 slices_S9x1_S1x1_6_0 (U (main_arg11 : DevRef τ sig)))
    ∧ after l6_win6 U (main_v587 : DevRef τ sig) = U (main_v587 : DevRef τ sig) := by
  simp only [l6_win6, RefRun.opsL6, List.drop_succ_cons, List.drop_zero]
  refine ⟨?_, ?_⟩ <;> after_results_simp <;> rfl

/-! ## The round -/

/-- The stretch leaves the round's new features and new state, of what it found. -/
theorem l6_xz (W : Valuation τ sig (Elt Ideal)) :
    after (RefRun.opsL6 (F := Ideal)) W (main_v587 : DevRef τ sig)
        = RGlue.rXNew 0x3E08BCAF#32 (RGlue.rAtt 6 slices_S9x1x64_S1x1x64_6_0_0 (W (main_arg7 : DevRef τ sig)))
            (W (main_v1 : DevRef τ sig)) (W (main_v3 : DevRef τ sig)) (W (main_v504 : DevRef τ sig)) (W (main_v522 : DevRef τ sig))
    ∧ after (RefRun.opsL6 (F := Ideal)) W (main_v605 : DevRef τ sig)
        = RGlue.rZNew 0x3E08BCAF#32 (RGlue.rAtt 6 slices_S9x1x64_S1x1x64_6_0_0 (W (main_arg7 : DevRef τ sig)))
            (RGlue.rHatt 6 slices_S9x1x128_S1x1x128_6_0_0 (W (main_arg10 : DevRef τ sig))) (RGlue.rHb 6 slices_S9x1_S1x1_6_0 (W (main_arg11 : DevRef τ sig)))
            (W (main_v1 : DevRef τ sig)) (W (main_v3 : DevRef τ sig)) (W (main_v504 : DevRef τ sig)) (W (main_v522 : DevRef τ sig)) := by
  rw [l6_cut]
  have r1 := l6_res1 W
  generalize after l6_win1 W = U1 at r1 ⊢
  have r2 := l6_res2 U1
  generalize after l6_win2 U1 = U2 at r2 ⊢
  have r3 := l6_res3 U2
  generalize after l6_win3 U2 = U3 at r3 ⊢
  have r4 := l6_res4 U3
  generalize after l6_win4 U3 = U4 at r4 ⊢
  have r5 := l6_res5 U4
  generalize after l6_win5 U4 = U5 at r5 ⊢
  have r6 := l6_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v587 : DevRef τ sig)
      = RGlue.rXNew 0x3E08BCAF#32 (RGlue.rAtt 6 slices_S9x1x64_S1x1x64_6_0_0 (W (main_arg7 : DevRef τ sig)))
          (W (main_v1 : DevRef τ sig)) (W (main_v3 : DevRef τ sig)) (W (main_v504 : DevRef τ sig)) (W (main_v522 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l6_x (W : Valuation τ sig (Elt Ideal)) :
    after (RefRun.opsL6 (F := Ideal)) W (main_v587 : DevRef τ sig)
      = RGlue.rXNew 0x3E08BCAF#32 (RGlue.rAtt 6 slices_S9x1x64_S1x1x64_6_0_0 (W (main_arg7 : DevRef τ sig)))
          (W (main_v1 : DevRef τ sig)) (W (main_v3 : DevRef τ sig)) (W (main_v504 : DevRef τ sig)) (W (main_v522 : DevRef τ sig)) := (l6_xz W).1

/-- The new state: the round's state function of what the stretch found. -/
theorem l6_z (W : Valuation τ sig (Elt Ideal)) :
    after (RefRun.opsL6 (F := Ideal)) W (main_v605 : DevRef τ sig)
      = RGlue.rZNew 0x3E08BCAF#32 (RGlue.rAtt 6 slices_S9x1x64_S1x1x64_6_0_0 (W (main_arg7 : DevRef τ sig)))
          (RGlue.rHatt 6 slices_S9x1x128_S1x1x128_6_0_0 (W (main_arg10 : DevRef τ sig))) (RGlue.rHb 6 slices_S9x1_S1x1_6_0 (W (main_arg11 : DevRef τ sig)))
          (W (main_v1 : DevRef τ sig)) (W (main_v3 : DevRef τ sig)) (W (main_v504 : DevRef τ sig)) (W (main_v522 : DevRef τ sig)) := (l6_xz W).2

/-- The stretch writes neither the edges' ends nor an argument: what is carried stays carried. -/
theorem l6_kept {V W : Valuation τ sig (Elt Ideal)} (hk : Kept V W) : Kept V (after (RefRun.opsL6 (F := Ideal)) W) where
  src := (RefRun.opsL6_kept W main_v1 (by decide)).trans hk.src
  dst := (RefRun.opsL6_kept W main_v3 (by decide)).trans hk.dst
  a2 := (RefRun.opsL6_kept W main_arg2 (by decide)).trans hk.a2
  a7 := (RefRun.opsL6_kept W main_arg7 (by decide)).trans hk.a7
  a10 := (RefRun.opsL6_kept W main_arg10 (by decide)).trans hk.a10
  a11 := (RefRun.opsL6_kept W main_arg11 (by decide)).trans hk.a11
  a12 := (RefRun.opsL6_kept W main_arg12 (by decide)).trans hk.a12
  a13 := (RefRun.opsL6_kept W main_arg13 (by decide)).trans hk.a13

/-- The round as a step on the pair (features, state): from contents carrying the edges' ends and the arguments and
    holding the pair `s`, the stretch leaves the round's step of `s` with row 6 of the stacked parameters. -/
theorem l6_step {V W : Valuation τ sig (Elt Ideal)} (hk : Kept V W) (s : RGlue.A S10000x64 × RGlue.A S10000x1x64)
    (hx : W (main_v504 : DevRef τ sig) = s.1) (hz : W (main_v522 : DevRef τ sig) = s.2) :
    after (RefRun.opsL6 (F := Ideal)) W (main_v587 : DevRef τ sig)
        = (RGlue.rStep (RGlue.rSrc (V (main_arg1 : DevRef τ sig))) (RGlue.rDst (V (main_arg1 : DevRef τ sig))) s
            ⟨0x3E08BCAF#32, RGlue.rAtt 6 slices_S9x1x64_S1x1x64_6_0_0 (V (main_arg7 : DevRef τ sig)),
              RGlue.rHatt 6 slices_S9x1x128_S1x1x128_6_0_0 (V (main_arg10 : DevRef τ sig)), RGlue.rHb 6 slices_S9x1_S1x1_6_0 (V (main_arg11 : DevRef τ sig))⟩).1
      ∧ after (RefRun.opsL6 (F := Ideal)) W (main_v605 : DevRef τ sig)
        = (RGlue.rStep (RGlue.rSrc (V (main_arg1 : DevRef τ sig))) (RGlue.rDst (V (main_arg1 : DevRef τ sig))) s
            ⟨0x3E08BCAF#32, RGlue.rAtt 6 slices_S9x1x64_S1x1x64_6_0_0 (V (main_arg7 : DevRef τ sig)),
              RGlue.rHatt 6 slices_S9x1x128_S1x1x128_6_0_0 (V (main_arg10 : DevRef τ sig)), RGlue.rHb 6 slices_S9x1_S1x1_6_0 (V (main_arg11 : DevRef τ sig))⟩).2 := by
  rw [l6_x, l6_z, hk.src, hk.dst, hk.a7, hk.a10, hk.a11, hx, hz]
  exact ⟨rfl, rfl⟩

end Cert.ReferenceIdeal.RFold

end
-- ==== Proof.RFoldL7.lean ====
/-
  Round 7 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 7). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L7
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l7_win1 : List (HloOp τ sig (Elt Ideal)) := (RefRun.opsL7 (F := Ideal)).take 22
/-- Operations 22 … 43: the edge scores before the softplus. -/
def l7_win2 : List (HloOp τ sig (Elt Ideal)) := ((RefRun.opsL7 (F := Ideal)).drop 22).take 22
/-- Operations 44 … 60: the edge scores. -/
def l7_win3 : List (HloOp τ sig (Elt Ideal)) := ((RefRun.opsL7 (F := Ideal)).drop 44).take 17
/-- Operations 61 … 90: the nodes' degrees to the power −1/2, and the edge weights. -/
def l7_win4 : List (HloOp τ sig (Elt Ideal)) := ((RefRun.opsL7 (F := Ideal)).drop 61).take 30
/-- Operations 91 … 108: the new node features. -/
def l7_win5 : List (HloOp τ sig (Elt Ideal)) := ((RefRun.opsL7 (F := Ideal)).drop 91).take 18
/-- Operations 109 … 141: the new state. -/
def l7_win6 : List (HloOp τ sig (Elt Ideal)) := (RefRun.opsL7 (F := Ideal)).drop 109

/-- The stretch is its six windows, one after the other. -/
theorem l7_cut (W : Valuation τ sig (Elt Ideal)) :
    after (RefRun.opsL7 (F := Ideal)) W
      = after l7_win6 (after l7_win5 (after l7_win4 (after l7_win3 (after l7_win2 (after l7_win1 W))))) := by
  unfold l7_win1 l7_win2 l7_win3 l7_win4 l7_win5 l7_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l7_res1 (U : Valuation τ sig (Elt Ideal)) :
    after l7_win1 U (main_v607 : DevRef τ sig) = RGlue.rZs 0x3DF138B3#32 (U (main_v605 : DevRef τ sig))
    ∧ after l7_win1 U (main_v622 : DevRef τ sig)
        = RGlue.rZsum (RGlue.rZs 0x3DF138B3#32 (U (main_v605 : DevRef τ sig))) (U (main_v1 : DevRef τ sig)) (U (main_v3 : DevRef τ sig))
    ∧ after l7_win1 U (main_v587 : DevRef τ sig) = U (main_v587 : DevRef τ sig)
    ∧ after l7_win1 U (main_v605 : DevRef τ sig) = U (main_v605 : DevRef τ sig)
    ∧ after l7_win1 U (main_v1 : DevRef τ sig) = U (main_v1 : DevRef τ sig)
    ∧ after l7_win1 U (main_v3 : DevRef τ sig) = U (main_v3 : DevRef τ sig)
    ∧ after l7_win1 U (main_arg7 : DevRef τ sig) = U (main_arg7 : DevRef τ sig)
    ∧ after l7_win1 U (main_arg10 : DevRef τ sig) = U (main_arg10 : DevRef τ sig)
    ∧ after l7_win1 U (main_arg11 : DevRef τ sig) = U (main_arg11 : DevRef τ sig) := by
  simp only [l7_win1, RefRun.opsL7, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l7_res2 (U : Valuation τ sig (Elt Ideal)) :
    after l7_win2 U (main_v629 : DevRef τ sig) = rScore (U (main_v622 : DevRef τ sig)) (RGlue.rAtt 7 slices_S9x1x64_S1x1x64_7_0_0 (U (main_arg7 : DevRef τ sig)))
    ∧ after l7_win2 U (main_v587 : DevRef τ sig) = U (main_v587 : DevRef τ sig)
    ∧ after l7_win2 U (main_v605 : DevRef τ sig) = U (main_v605 : DevRef τ sig)
    ∧ after l7_win2 U (main_v607 : DevRef τ sig) = U (main_v607 : DevRef τ sig)
    ∧ after l7_win2 U (main_v1 : DevRef τ sig) = U (main_v1 : DevRef τ sig)
    ∧ after l7_win2 U (main_v3 : DevRef τ sig) = U (main_v3 : DevRef τ sig)
    ∧ after l7_win2 U (main_arg10 : DevRef τ sig) = U (main_arg10 : DevRef τ sig)
    ∧ after l7_win2 U (main_arg11 : DevRef τ sig) = U (main_arg11 : DevRef τ sig) := by
  simp only [l7_win2, RefRun.opsL7, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l7_res3 (U : Valuation τ sig (Elt Ideal)) :
    after l7_win3 U (main_v632 : DevRef τ sig)
        = addf (RGlue.rSoftplus (U (main_v629 : DevRef τ sig))) (RGlue.splat S320000x1 bcast_S_S320000x1 0x358637BD#32)
    ∧ after l7_win3 U (main_v587 : DevRef τ sig) = U (main_v587 : DevRef τ sig)
    ∧ after l7_win3 U (main_v605 : DevRef τ sig) = U (main_v605 : DevRef τ sig)
    ∧ after l7_win3 U (main_v607 : DevRef τ sig) = U (main_v607 : DevRef τ sig)
    ∧ after l7_win3 U (main_v1 : DevRef τ sig) = U (main_v1 : DevRef τ sig)
    ∧ after l7_win3 U (main_v3 : DevRef τ sig) = U (main_v3 : DevRef τ sig)
    ∧ after l7_win3 U (main_arg10 : DevRef τ sig) = U (main_arg10 : DevRef τ sig)
    ∧ after l7_win3 U (main_arg11 : DevRef τ sig) = U (main_arg11 : DevRef τ sig) := by
  simp only [l7_win3, RefRun.opsL7, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l7_res4 (U : Valuation τ sig (Elt Ideal)) :
    after l7_win4 U (main_v655 : DevRef τ sig)
        = RGlue.rNa (RGlue.rInv (U (main_v632 : DevRef τ sig)) (U (main_v3 : DevRef τ sig))) (U (main_v632 : DevRef τ sig)) (U (main_v1 : DevRef τ sig)) (U (main_v3 : DevRef τ sig))
    ∧ after l7_win4 U (main_v587 : DevRef τ sig) = U (main_v587 : DevRef τ sig)
    ∧ after l7_win4 U (main_v605 : DevRef τ sig) = U (main_v605 : DevRef τ sig)
    ∧ after l7_win4 U (main_v607 : DevRef τ sig) = U (main_v607 : DevRef τ sig)
    ∧ after l7_win4 U (main_v1 : DevRef τ sig) = U (main_v1 : DevRef τ sig)
    ∧ after l7_win4 U (main_v3 : DevRef τ sig) = U (main_v3 : DevRef τ sig)
    ∧ after l7_win4 U (main_arg10 : DevRef τ sig) = U (main_arg10 : DevRef τ sig)
    ∧ after l7_win4 U (main_arg11 : DevRef τ sig) = U (main_arg11 : DevRef τ sig) := by
  simp only [l7_win4, RefRun.opsL7, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l7_res5 (U : Valuation τ sig (Elt Ideal)) :
    after l7_win5 U (main_v670 : DevRef τ sig) = RGlue.rX (U (main_v587 : DevRef τ sig)) (U (main_v655 : DevRef τ sig)) (U (main_v1 : DevRef τ sig)) (U (main_v3 : DevRef τ sig))
    ∧ after l7_win5 U (main_v605 : DevRef τ sig) = U (main_v605 : DevRef τ sig)
    ∧ after l7_win5 U (main_v607 : DevRef τ sig) = U (main_v607 : DevRef τ sig)
    ∧ after l7_win5 U (main_arg10 : DevRef τ sig) = U (main_arg10 : DevRef τ sig)
    ∧ after l7_win5 U (main_arg11 : DevRef τ sig) = U (main_arg11 : DevRef τ sig) := by
  simp only [l7_win5, RefRun.opsL7, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l7_res6 (U : Valuation τ sig (Elt Ideal)) :
    after l7_win6 U (main_v688 : DevRef τ sig)
        = rZTail (U (main_v670 : DevRef τ sig)) (U (main_v607 : DevRef τ sig)) (U (main_v605 : DevRef τ sig)) (RGlue.rHatt 7 slices_S9x1x128_S1x1x128_7_0_0 (U (main_arg10 : DevRef τ sig))) (RGlue.rHb 7 slices_S9x1_S1x1_7_0 (U (main_arg11 : DevRef τ sig)))
    ∧ after l7_win6 U (main_v670 : DevRef τ sig) = U (main_v670 : DevRef τ sig) := by
  simp only [l7_win6, RefRun.opsL7, List.drop_succ_cons, List.drop_zero]
  refine ⟨?_, ?_⟩ <;> after_results_simp <;> rfl

/-! ## The round -/

/-- The stretch leaves the round's new features and new state, of what it found. -/
theorem l7_xz (W : Valuation τ sig (Elt Ideal)) :
    after (RefRun.opsL7 (F := Ideal)) W (main_v670 : DevRef τ sig)
        = RGlue.rXNew 0x3DF138B3#32 (RGlue.rAtt 7 slices_S9x1x64_S1x1x64_7_0_0 (W (main_arg7 : DevRef τ sig)))
            (W (main_v1 : DevRef τ sig)) (W (main_v3 : DevRef τ sig)) (W (main_v587 : DevRef τ sig)) (W (main_v605 : DevRef τ sig))
    ∧ after (RefRun.opsL7 (F := Ideal)) W (main_v688 : DevRef τ sig)
        = RGlue.rZNew 0x3DF138B3#32 (RGlue.rAtt 7 slices_S9x1x64_S1x1x64_7_0_0 (W (main_arg7 : DevRef τ sig)))
            (RGlue.rHatt 7 slices_S9x1x128_S1x1x128_7_0_0 (W (main_arg10 : DevRef τ sig))) (RGlue.rHb 7 slices_S9x1_S1x1_7_0 (W (main_arg11 : DevRef τ sig)))
            (W (main_v1 : DevRef τ sig)) (W (main_v3 : DevRef τ sig)) (W (main_v587 : DevRef τ sig)) (W (main_v605 : DevRef τ sig)) := by
  rw [l7_cut]
  have r1 := l7_res1 W
  generalize after l7_win1 W = U1 at r1 ⊢
  have r2 := l7_res2 U1
  generalize after l7_win2 U1 = U2 at r2 ⊢
  have r3 := l7_res3 U2
  generalize after l7_win3 U2 = U3 at r3 ⊢
  have r4 := l7_res4 U3
  generalize after l7_win4 U3 = U4 at r4 ⊢
  have r5 := l7_res5 U4
  generalize after l7_win5 U4 = U5 at r5 ⊢
  have r6 := l7_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v670 : DevRef τ sig)
      = RGlue.rXNew 0x3DF138B3#32 (RGlue.rAtt 7 slices_S9x1x64_S1x1x64_7_0_0 (W (main_arg7 : DevRef τ sig)))
          (W (main_v1 : DevRef τ sig)) (W (main_v3 : DevRef τ sig)) (W (main_v587 : DevRef τ sig)) (W (main_v605 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l7_x (W : Valuation τ sig (Elt Ideal)) :
    after (RefRun.opsL7 (F := Ideal)) W (main_v670 : DevRef τ sig)
      = RGlue.rXNew 0x3DF138B3#32 (RGlue.rAtt 7 slices_S9x1x64_S1x1x64_7_0_0 (W (main_arg7 : DevRef τ sig)))
          (W (main_v1 : DevRef τ sig)) (W (main_v3 : DevRef τ sig)) (W (main_v587 : DevRef τ sig)) (W (main_v605 : DevRef τ sig)) := (l7_xz W).1

/-- The new state: the round's state function of what the stretch found. -/
theorem l7_z (W : Valuation τ sig (Elt Ideal)) :
    after (RefRun.opsL7 (F := Ideal)) W (main_v688 : DevRef τ sig)
      = RGlue.rZNew 0x3DF138B3#32 (RGlue.rAtt 7 slices_S9x1x64_S1x1x64_7_0_0 (W (main_arg7 : DevRef τ sig)))
          (RGlue.rHatt 7 slices_S9x1x128_S1x1x128_7_0_0 (W (main_arg10 : DevRef τ sig))) (RGlue.rHb 7 slices_S9x1_S1x1_7_0 (W (main_arg11 : DevRef τ sig)))
          (W (main_v1 : DevRef τ sig)) (W (main_v3 : DevRef τ sig)) (W (main_v587 : DevRef τ sig)) (W (main_v605 : DevRef τ sig)) := (l7_xz W).2

/-- The stretch writes neither the edges' ends nor an argument: what is carried stays carried. -/
theorem l7_kept {V W : Valuation τ sig (Elt Ideal)} (hk : Kept V W) : Kept V (after (RefRun.opsL7 (F := Ideal)) W) where
  src := (RefRun.opsL7_kept W main_v1 (by decide)).trans hk.src
  dst := (RefRun.opsL7_kept W main_v3 (by decide)).trans hk.dst
  a2 := (RefRun.opsL7_kept W main_arg2 (by decide)).trans hk.a2
  a7 := (RefRun.opsL7_kept W main_arg7 (by decide)).trans hk.a7
  a10 := (RefRun.opsL7_kept W main_arg10 (by decide)).trans hk.a10
  a11 := (RefRun.opsL7_kept W main_arg11 (by decide)).trans hk.a11
  a12 := (RefRun.opsL7_kept W main_arg12 (by decide)).trans hk.a12
  a13 := (RefRun.opsL7_kept W main_arg13 (by decide)).trans hk.a13

/-- The round as a step on the pair (features, state): from contents carrying the edges' ends and the arguments and
    holding the pair `s`, the stretch leaves the round's step of `s` with row 7 of the stacked parameters. -/
theorem l7_step {V W : Valuation τ sig (Elt Ideal)} (hk : Kept V W) (s : RGlue.A S10000x64 × RGlue.A S10000x1x64)
    (hx : W (main_v587 : DevRef τ sig) = s.1) (hz : W (main_v605 : DevRef τ sig) = s.2) :
    after (RefRun.opsL7 (F := Ideal)) W (main_v670 : DevRef τ sig)
        = (RGlue.rStep (RGlue.rSrc (V (main_arg1 : DevRef τ sig))) (RGlue.rDst (V (main_arg1 : DevRef τ sig))) s
            ⟨0x3DF138B3#32, RGlue.rAtt 7 slices_S9x1x64_S1x1x64_7_0_0 (V (main_arg7 : DevRef τ sig)),
              RGlue.rHatt 7 slices_S9x1x128_S1x1x128_7_0_0 (V (main_arg10 : DevRef τ sig)), RGlue.rHb 7 slices_S9x1_S1x1_7_0 (V (main_arg11 : DevRef τ sig))⟩).1
      ∧ after (RefRun.opsL7 (F := Ideal)) W (main_v688 : DevRef τ sig)
        = (RGlue.rStep (RGlue.rSrc (V (main_arg1 : DevRef τ sig))) (RGlue.rDst (V (main_arg1 : DevRef τ sig))) s
            ⟨0x3DF138B3#32, RGlue.rAtt 7 slices_S9x1x64_S1x1x64_7_0_0 (V (main_arg7 : DevRef τ sig)),
              RGlue.rHatt 7 slices_S9x1x128_S1x1x128_7_0_0 (V (main_arg10 : DevRef τ sig)), RGlue.rHb 7 slices_S9x1_S1x1_7_0 (V (main_arg11 : DevRef τ sig))⟩).2 := by
  rw [l7_x, l7_z, hk.src, hk.dst, hk.a7, hk.a10, hk.a11, hx, hz]
  exact ⟨rfl, rfl⟩

end Cert.ReferenceIdeal.RFold

end
-- ==== Proof.RFoldL8.lean ====
/-
  Round 8 of the reference read off its stretch of operations. The stretch is cut into six windows, one per stage of
  the round: the state scaled and summed along the edges; the edge scores before the softplus; the edge scores; the edge
  weights; the new node features; the new state. Each window, from ANY contents, leaves its stage's function of what it
  found, and does not write what the later windows still read. Chained, the stretch leaves at the buffers of its new
  features and new state the round's two functions of what it found at the buffers of the features, the state, the
  edges' two ends and the three stacked parameter arrays (of which it cuts row 8). So from contents that carry the edges'
  ends and the arguments unchanged and hold a pair (features, state), the stretch leaves the round's step of that pair,
  and still carries the rest.
-/
import proofs.«404001_j15436112461850_3_alg».proof.Proof.RFoldKept
import proofs.«404001_j15436112461850_3_alg».proof.Proof.RefRun.L8
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

/-! ## The six windows -/

/-- Operations 0 … 21: the state times the round's constant, and each edge's sum of its ends' scaled states. -/
def l8_win1 : List (HloOp τ sig (Elt Ideal)) := (RefRun.opsL8 (F := Ideal)).take 22
/-- Operations 22 … 43: the edge scores before the softplus. -/
def l8_win2 : List (HloOp τ sig (Elt Ideal)) := ((RefRun.opsL8 (F := Ideal)).drop 22).take 22
/-- Operations 44 … 60: the edge scores. -/
def l8_win3 : List (HloOp τ sig (Elt Ideal)) := ((RefRun.opsL8 (F := Ideal)).drop 44).take 17
/-- Operations 61 … 90: the nodes' degrees to the power −1/2, and the edge weights. -/
def l8_win4 : List (HloOp τ sig (Elt Ideal)) := ((RefRun.opsL8 (F := Ideal)).drop 61).take 30
/-- Operations 91 … 108: the new node features. -/
def l8_win5 : List (HloOp τ sig (Elt Ideal)) := ((RefRun.opsL8 (F := Ideal)).drop 91).take 18
/-- Operations 109 … 141: the new state. -/
def l8_win6 : List (HloOp τ sig (Elt Ideal)) := (RefRun.opsL8 (F := Ideal)).drop 109

/-- The stretch is its six windows, one after the other. -/
theorem l8_cut (W : Valuation τ sig (Elt Ideal)) :
    after (RefRun.opsL8 (F := Ideal)) W
      = after l8_win6 (after l8_win5 (after l8_win4 (after l8_win3 (after l8_win2 (after l8_win1 W))))) := by
  unfold l8_win1 l8_win2 l8_win3 l8_win4 l8_win5 l8_win6
  rw [after_take_drop _ 91 18 109 rfl, after_take_drop _ 61 30 91 rfl, after_take_drop _ 44 17 61 rfl,
    after_take_drop _ 22 22 44 rfl, after_take]

/-! ## Each window read off -/

set_option maxRecDepth 8192 in
set_option maxHeartbeats 2000000 in
/-- Window 1 leaves the scaled state and the edges' sums; it keeps the features, the state, the edges' ends and the
    stacked parameters. -/
theorem l8_res1 (U : Valuation τ sig (Elt Ideal)) :
    after l8_win1 U (main_v690 : DevRef τ sig) = RGlue.rZs 0x3DD7C7BA#32 (U (main_v688 : DevRef τ sig))
    ∧ after l8_win1 U (main_v705 : DevRef τ sig)
        = RGlue.rZsum (RGlue.rZs 0x3DD7C7BA#32 (U (main_v688 : DevRef τ sig))) (U (main_v1 : DevRef τ sig)) (U (main_v3 : DevRef τ sig))
    ∧ after l8_win1 U (main_v670 : DevRef τ sig) = U (main_v670 : DevRef τ sig)
    ∧ after l8_win1 U (main_v688 : DevRef τ sig) = U (main_v688 : DevRef τ sig)
    ∧ after l8_win1 U (main_v1 : DevRef τ sig) = U (main_v1 : DevRef τ sig)
    ∧ after l8_win1 U (main_v3 : DevRef τ sig) = U (main_v3 : DevRef τ sig)
    ∧ after l8_win1 U (main_arg7 : DevRef τ sig) = U (main_arg7 : DevRef τ sig)
    ∧ after l8_win1 U (main_arg10 : DevRef τ sig) = U (main_arg10 : DevRef τ sig)
    ∧ after l8_win1 U (main_arg11 : DevRef τ sig) = U (main_arg11 : DevRef τ sig) := by
  simp only [l8_win1, RefRun.opsL8, List.take_succ_cons, List.take_zero]
  refine ⟨?_, ?_, ?_, ?_, ?_, ?_, ?_, ?_, ?_⟩ <;> after_results_simp <;> rfl

set_option maxRecDepth 8192 in
set_option maxHeartbeats 2000000 in
/-- Window 2 leaves the edge scores before the softplus, of the edges' sums it found; it keeps the features, the state
    and its scaling, the edges' ends and the two stacked parameters read later. -/
theorem l8_res2 (U : Valuation τ sig (Elt Ideal)) :
    after l8_win2 U (main_v712 : DevRef τ sig) = rScore (U (main_v705 : DevRef τ sig)) (RGlue.rAtt 8 slices_S9x1x64_S1x1x64_8_0_0 (U (main_arg7 : DevRef τ sig)))
    ∧ after l8_win2 U (main_v670 : DevRef τ sig) = U (main_v670 : DevRef τ sig)
    ∧ after l8_win2 U (main_v688 : DevRef τ sig) = U (main_v688 : DevRef τ sig)
    ∧ after l8_win2 U (main_v690 : DevRef τ sig) = U (main_v690 : DevRef τ sig)
    ∧ after l8_win2 U (main_v1 : DevRef τ sig) = U (main_v1 : DevRef τ sig)
    ∧ after l8_win2 U (main_v3 : DevRef τ sig) = U (main_v3 : DevRef τ sig)
    ∧ after l8_win2 U (main_arg10 : DevRef τ sig) = U (main_arg10 : DevRef τ sig)
    ∧ after l8_win2 U (main_arg11 : DevRef τ sig) = U (main_arg11 : DevRef τ sig) := by
  simp only [l8_win2, RefRun.opsL8, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 3 leaves the edge scores: the softplus of what it found, plus ε; it keeps the same. -/
theorem l8_res3 (U : Valuation τ sig (Elt Ideal)) :
    after l8_win3 U (main_v715 : DevRef τ sig)
        = addf (RGlue.rSoftplus (U (main_v712 : DevRef τ sig))) (RGlue.splat S320000x1 bcast_S_S320000x1 0x358637BD#32)
    ∧ after l8_win3 U (main_v670 : DevRef τ sig) = U (main_v670 : DevRef τ sig)
    ∧ after l8_win3 U (main_v688 : DevRef τ sig) = U (main_v688 : DevRef τ sig)
    ∧ after l8_win3 U (main_v690 : DevRef τ sig) = U (main_v690 : DevRef τ sig)
    ∧ after l8_win3 U (main_v1 : DevRef τ sig) = U (main_v1 : DevRef τ sig)
    ∧ after l8_win3 U (main_v3 : DevRef τ sig) = U (main_v3 : DevRef τ sig)
    ∧ after l8_win3 U (main_arg10 : DevRef τ sig) = U (main_arg10 : DevRef τ sig)
    ∧ after l8_win3 U (main_arg11 : DevRef τ sig) = U (main_arg11 : DevRef τ sig) := by
  simp only [l8_win3, RefRun.opsL8, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 4 leaves the edge weights of the edge scores it found; it keeps the same. -/
theorem l8_res4 (U : Valuation τ sig (Elt Ideal)) :
    after l8_win4 U (main_v738 : DevRef τ sig)
        = RGlue.rNa (RGlue.rInv (U (main_v715 : DevRef τ sig)) (U (main_v3 : DevRef τ sig))) (U (main_v715 : DevRef τ sig)) (U (main_v1 : DevRef τ sig)) (U (main_v3 : DevRef τ sig))
    ∧ after l8_win4 U (main_v670 : DevRef τ sig) = U (main_v670 : DevRef τ sig)
    ∧ after l8_win4 U (main_v688 : DevRef τ sig) = U (main_v688 : DevRef τ sig)
    ∧ after l8_win4 U (main_v690 : DevRef τ sig) = U (main_v690 : DevRef τ sig)
    ∧ after l8_win4 U (main_v1 : DevRef τ sig) = U (main_v1 : DevRef τ sig)
    ∧ after l8_win4 U (main_v3 : DevRef τ sig) = U (main_v3 : DevRef τ sig)
    ∧ after l8_win4 U (main_arg10 : DevRef τ sig) = U (main_arg10 : DevRef τ sig)
    ∧ after l8_win4 U (main_arg11 : DevRef τ sig) = U (main_arg11 : DevRef τ sig) := by
  simp only [l8_win4, RefRun.opsL8, List.drop_succ_cons, List.drop_zero, List.take_succ_cons, List.take_zero]
  refine ⟨?_, ?_, ?_, ?_, ?_, ?_, ?_, ?_⟩ <;> after_results_simp <;> rfl

set_option maxRecDepth 8192 in
set_option maxHeartbeats 2000000 in
/-- Window 5 leaves the new node features, of the features and the edge weights it found; it keeps the state and its
    scaling and the two stacked parameters read later. -/
theorem l8_res5 (U : Valuation τ sig (Elt Ideal)) :
    after l8_win5 U (main_v753 : DevRef τ sig) = RGlue.rX (U (main_v670 : DevRef τ sig)) (U (main_v738 : DevRef τ sig)) (U (main_v1 : DevRef τ sig)) (U (main_v3 : DevRef τ sig))
    ∧ after l8_win5 U (main_v688 : DevRef τ sig) = U (main_v688 : DevRef τ sig)
    ∧ after l8_win5 U (main_v690 : DevRef τ sig) = U (main_v690 : DevRef τ sig)
    ∧ after l8_win5 U (main_arg10 : DevRef τ sig) = U (main_arg10 : DevRef τ sig)
    ∧ after l8_win5 U (main_arg11 : DevRef τ sig) = U (main_arg11 : DevRef τ sig) := by
  simp only [l8_win5, RefRun.opsL8, List.drop_succ_cons, List.drop_zero, List.take_succ_cons, List.take_zero]
  refine ⟨?_, ?_, ?_, ?_, ?_⟩ <;> after_results_simp <;> rfl

set_option maxRecDepth 8192 in
set_option maxHeartbeats 2000000 in
/-- Window 6 leaves the new state, of the new features, the scaled state and the state it found; it keeps the new
    features. -/
theorem l8_res6 (U : Valuation τ sig (Elt Ideal)) :
    after l8_win6 U (main_v771 : DevRef τ sig)
        = rZTail (U (main_v753 : DevRef τ sig)) (U (main_v690 : DevRef τ sig)) (U (main_v688 : DevRef τ sig)) (RGlue.rHatt 8 slices_S9x1x128_S1x1x128_8_0_0 (U (main_arg10 : DevRef τ sig))) (RGlue.rHb 8 slices_S9x1_S1x1_8_0 (U (main_arg11 : DevRef τ sig)))
    ∧ after l8_win6 U (main_v753 : DevRef τ sig) = U (main_v753 : DevRef τ sig) := by
  simp only [l8_win6, RefRun.opsL8, List.drop_succ_cons, List.drop_zero]
  refine ⟨?_, ?_⟩ <;> after_results_simp <;> rfl

/-! ## The round -/

/-- The stretch leaves the round's new features and new state, of what it found. -/
theorem l8_xz (W : Valuation τ sig (Elt Ideal)) :
    after (RefRun.opsL8 (F := Ideal)) W (main_v753 : DevRef τ sig)
        = RGlue.rXNew 0x3DD7C7BA#32 (RGlue.rAtt 8 slices_S9x1x64_S1x1x64_8_0_0 (W (main_arg7 : DevRef τ sig)))
            (W (main_v1 : DevRef τ sig)) (W (main_v3 : DevRef τ sig)) (W (main_v670 : DevRef τ sig)) (W (main_v688 : DevRef τ sig))
    ∧ after (RefRun.opsL8 (F := Ideal)) W (main_v771 : DevRef τ sig)
        = RGlue.rZNew 0x3DD7C7BA#32 (RGlue.rAtt 8 slices_S9x1x64_S1x1x64_8_0_0 (W (main_arg7 : DevRef τ sig)))
            (RGlue.rHatt 8 slices_S9x1x128_S1x1x128_8_0_0 (W (main_arg10 : DevRef τ sig))) (RGlue.rHb 8 slices_S9x1_S1x1_8_0 (W (main_arg11 : DevRef τ sig)))
            (W (main_v1 : DevRef τ sig)) (W (main_v3 : DevRef τ sig)) (W (main_v670 : DevRef τ sig)) (W (main_v688 : DevRef τ sig)) := by
  rw [l8_cut]
  have r1 := l8_res1 W
  generalize after l8_win1 W = U1 at r1 ⊢
  have r2 := l8_res2 U1
  generalize after l8_win2 U1 = U2 at r2 ⊢
  have r3 := l8_res3 U2
  generalize after l8_win3 U2 = U3 at r3 ⊢
  have r4 := l8_res4 U3
  generalize after l8_win4 U3 = U4 at r4 ⊢
  have r5 := l8_res5 U4
  generalize after l8_win5 U4 = U5 at r5 ⊢
  have r6 := l8_res6 U5
  obtain ⟨hzs, hzsum, k12, k24, k1, k3, k7, k10, k11⟩ := r1
  obtain ⟨hs, m12, m24, m26, m1, m3, m10, m11⟩ := r2
  obtain ⟨ha, n12, n24, n26, n1, n3, n10, n11⟩ := r3
  obtain ⟨hna, o12, o24, o26, o1, o3, o10, o11⟩ := r4
  obtain ⟨hx, p24, p26, p10, p11⟩ := r5
  obtain ⟨hz, q89⟩ := r6
  have ex : U5 (main_v753 : DevRef τ sig)
      = RGlue.rXNew 0x3DD7C7BA#32 (RGlue.rAtt 8 slices_S9x1x64_S1x1x64_8_0_0 (W (main_arg7 : DevRef τ sig)))
          (W (main_v1 : DevRef τ sig)) (W (main_v3 : DevRef τ sig)) (W (main_v670 : DevRef τ sig)) (W (main_v688 : DevRef τ sig)) := by
    rw [hx, o12, hna, o1, o3, n12, ha, n1, n3, m12, hs, m1, m3, k12, hzsum, k1, k3, k7, ← rA_eq]
    rfl
  refine ⟨q89.trans ex, ?_⟩
  rw [hz, ex, p26, o26, n26, m26, hzs, p24, o24, n24, m24, k24, p10, o10, n10, m10, k10, p11, o11, n11, m11, k11,
    rZNew_eq]

/-- The new node features: the round's feature function of what the stretch found. -/
theorem l8_x (W : Valuation τ sig (Elt Ideal)) :
    after (RefRun.opsL8 (F := Ideal)) W (main_v753 : DevRef τ sig)
      = RGlue.rXNew 0x3DD7C7BA#32 (RGlue.rAtt 8 slices_S9x1x64_S1x1x64_8_0_0 (W (main_arg7 : DevRef τ sig)))
          (W (main_v1 : DevRef τ sig)) (W (main_v3 : DevRef τ sig)) (W (main_v670 : DevRef τ sig)) (W (main_v688 : DevRef τ sig)) := (l8_xz W).1

/-- The new state: the round's state function of what the stretch found. -/
theorem l8_z (W : Valuation τ sig (Elt Ideal)) :
    after (RefRun.opsL8 (F := Ideal)) W (main_v771 : DevRef τ sig)
      = RGlue.rZNew 0x3DD7C7BA#32 (RGlue.rAtt 8 slices_S9x1x64_S1x1x64_8_0_0 (W (main_arg7 : DevRef τ sig)))
          (RGlue.rHatt 8 slices_S9x1x128_S1x1x128_8_0_0 (W (main_arg10 : DevRef τ sig))) (RGlue.rHb 8 slices_S9x1_S1x1_8_0 (W (main_arg11 : DevRef τ sig)))
          (W (main_v1 : DevRef τ sig)) (W (main_v3 : DevRef τ sig)) (W (main_v670 : DevRef τ sig)) (W (main_v688 : DevRef τ sig)) := (l8_xz W).2

/-- The stretch writes neither the edges' ends nor an argument: what is carried stays carried. -/
theorem l8_kept {V W : Valuation τ sig (Elt Ideal)} (hk : Kept V W) : Kept V (after (RefRun.opsL8 (F := Ideal)) W) where
  src := (RefRun.opsL8_kept W main_v1 (by decide)).trans hk.src
  dst := (RefRun.opsL8_kept W main_v3 (by decide)).trans hk.dst
  a2 := (RefRun.opsL8_kept W main_arg2 (by decide)).trans hk.a2
  a7 := (RefRun.opsL8_kept W main_arg7 (by decide)).trans hk.a7
  a10 := (RefRun.opsL8_kept W main_arg10 (by decide)).trans hk.a10
  a11 := (RefRun.opsL8_kept W main_arg11 (by decide)).trans hk.a11
  a12 := (RefRun.opsL8_kept W main_arg12 (by decide)).trans hk.a12
  a13 := (RefRun.opsL8_kept W main_arg13 (by decide)).trans hk.a13

/-- The round as a step on the pair (features, state): from contents carrying the edges' ends and the arguments and
    holding the pair `s`, the stretch leaves the round's step of `s` with row 8 of the stacked parameters. -/
theorem l8_step {V W : Valuation τ sig (Elt Ideal)} (hk : Kept V W) (s : RGlue.A S10000x64 × RGlue.A S10000x1x64)
    (hx : W (main_v670 : DevRef τ sig) = s.1) (hz : W (main_v688 : DevRef τ sig) = s.2) :
    after (RefRun.opsL8 (F := Ideal)) W (main_v753 : DevRef τ sig)
        = (RGlue.rStep (RGlue.rSrc (V (main_arg1 : DevRef τ sig))) (RGlue.rDst (V (main_arg1 : DevRef τ sig))) s
            ⟨0x3DD7C7BA#32, RGlue.rAtt 8 slices_S9x1x64_S1x1x64_8_0_0 (V (main_arg7 : DevRef τ sig)),
              RGlue.rHatt 8 slices_S9x1x128_S1x1x128_8_0_0 (V (main_arg10 : DevRef τ sig)), RGlue.rHb 8 slices_S9x1_S1x1_8_0 (V (main_arg11 : DevRef τ sig))⟩).1
      ∧ after (RefRun.opsL8 (F := Ideal)) W (main_v771 : DevRef τ sig)
        = (RGlue.rStep (RGlue.rSrc (V (main_arg1 : DevRef τ sig))) (RGlue.rDst (V (main_arg1 : DevRef τ sig))) s
            ⟨0x3DD7C7BA#32, RGlue.rAtt 8 slices_S9x1x64_S1x1x64_8_0_0 (V (main_arg7 : DevRef τ sig)),
              RGlue.rHatt 8 slices_S9x1x128_S1x1x128_8_0_0 (V (main_arg10 : DevRef τ sig)), RGlue.rHb 8 slices_S9x1_S1x1_8_0 (V (main_arg11 : DevRef τ sig))⟩).2 := by
  rw [l8_x, l8_z, hk.src, hk.dst, hk.a7, hk.a10, hk.a11, hx, hz]
  exact ⟨rfl, rfl⟩

end Cert.ReferenceIdeal.RFold

end
-- ==== Proof.RFoldOut.lean ====
/-
  The reference's readout read off its stretch of operations: from ANY contents it leaves, at the result's buffer, the
  readout (one more ELU of the state, the mean over each graph's nodes, the linear head) of what it found at the
  state's buffer and at the three arguments it reads.
-/
import proofs.«404001_j15436112461850_3_alg».proof.Proof.RGlue
import proofs.«404001_j15436112461850_3_alg».proof.Proof.RefRun.Out
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

set_option maxRecDepth 100000 in
/-- The result: the stretch's operations composed, which are the readout's function term for term. -/
theorem out_value (W : Valuation τ sig (Elt Ideal)) :
    after (RefRun.opsOut (F := Ideal)) W (main_v789 : DevRef τ sig)
      = RGlue.rOut (RGlue.rZf (W (main_v771 : DevRef τ sig))) (W (main_arg2 : DevRef τ sig)) (W (main_arg12 : DevRef τ sig)) (W (main_arg13 : DevRef τ sig)) := by
  after_results_simp
  rfl

end Cert.ReferenceIdeal.RFold

end
-- ==== Proof.RFold.lean ====
/-
  The reference's result as ONE function of its arguments. Its line of operations is the first stretch, nine rounds and
  the readout, one after the other; each stretch, from any contents, leaves its function of what it found (the modules
  imported here), the edges' ends and the arguments are carried through, and the pair (features, state) goes through the
  rounds' steps in order: eight steps folded over the list of the first eight rounds' parameters, the ninth round's new
  state, the readout.
-/
import proofs.«404001_j15436112461850_3_alg».proof.Proof.RFoldInit
import proofs.«404001_j15436112461850_3_alg».proof.Proof.RFoldL0
import proofs.«404001_j15436112461850_3_alg».proof.Proof.RFoldL1
import proofs.«404001_j15436112461850_3_alg».proof.Proof.RFoldL2
import proofs.«404001_j15436112461850_3_alg».proof.Proof.RFoldL3
import proofs.«404001_j15436112461850_3_alg».proof.Proof.RFoldL4
import proofs.«404001_j15436112461850_3_alg».proof.Proof.RFoldL5
import proofs.«404001_j15436112461850_3_alg».proof.Proof.RFoldL6
import proofs.«404001_j15436112461850_3_alg».proof.Proof.RFoldL7
import proofs.«404001_j15436112461850_3_alg».proof.Proof.RFoldL8
import proofs.«404001_j15436112461850_3_alg».proof.Proof.RFoldOut
import proofs.«404001_j15436112461850_3_alg».proof.Proof.RefRun

noncomputable section

namespace Cert.ReferenceIdeal.RFold

open Cert.ReferenceIdeal Cert.ReferenceIdeal.Gen Idealize.ShloMosaic Idealize.ShloMosaic.TcCoe Idealize.SL.Sem Idealize.ShloMosaic.StableHlo

section Chain

variable (V : Valuation τ sig (Elt Ideal))

/-! ## The contents after each stretch -/

/-- The contents after the first stretch. -/
abbrev C0 : Valuation τ sig (Elt Ideal) := after (RefRun.opsInit (F := Ideal)) V
/-- The contents after round 0. -/
abbrev C1 : Valuation τ sig (Elt Ideal) := after (RefRun.opsL0 (F := Ideal)) (C0 V)
/-- The contents after round 1. -/
abbrev C2 : Valuation τ sig (Elt Ideal) := after (RefRun.opsL1 (F := Ideal)) (C1 V)
/-- The contents after round 2. -/
abbrev C3 : Valuation τ sig (Elt Ideal) := after (RefRun.opsL2 (F := Ideal)) (C2 V)
/-- The contents after round 3. -/
abbrev C4 : Valuation τ sig (Elt Ideal) := after (RefRun.opsL3 (F := Ideal)) (C3 V)
/-- The contents after round 4. -/
abbrev C5 : Valuation τ sig (Elt Ideal) := after (RefRun.opsL4 (F := Ideal)) (C4 V)
/-- The contents after round 5. -/
abbrev C6 : Valuation τ sig (Elt Ideal) := after (RefRun.opsL5 (F := Ideal)) (C5 V)
/-- The contents after round 6. -/
abbrev C7 : Valuation τ sig (Elt Ideal) := after (RefRun.opsL6 (F := Ideal)) (C6 V)
/-- The contents after round 7. -/
abbrev C8 : Valuation τ sig (Elt Ideal) := after (RefRun.opsL7 (F := Ideal)) (C7 V)
/-- The contents after round 8. -/
abbrev C9 : Valuation τ sig (Elt Ideal) := after (RefRun.opsL8 (F := Ideal)) (C8 V)

/-- The whole line is the readout's stretch from the contents after the ninth round. -/
theorem ops_split : after (RefRun.ops (F := Ideal)) V = after (RefRun.opsOut (F := Ideal)) (C9 V) := by
  simp only [RefRun.ops, RefRun.after_append]

/-! ## What is carried -/

theorem kept0 : Kept V (C0 V) := init_kept V
theorem kept1 : Kept V (C1 V) := l0_kept (kept0 V)
theorem kept2 : Kept V (C2 V) := l1_kept (kept1 V)
theorem kept3 : Kept V (C3 V) := l2_kept (kept2 V)
theorem kept4 : Kept V (C4 V) := l3_kept (kept3 V)
theorem kept5 : Kept V (C5 V) := l4_kept (kept4 V)
theorem kept6 : Kept V (C6 V) := l5_kept (kept5 V)
theorem kept7 : Kept V (C7 V) := l6_kept (kept6 V)
theorem kept8 : Kept V (C8 V) := l7_kept (kept7 V)
theorem kept9 : Kept V (C9 V) := l8_kept (kept8 V)

/-! ## The pair (features, state) round by round -/

/-- Round 0's parameters: its constant and row 0 of the stacked arrays. -/
def P0 : RGlue.RP :=
  ⟨0x3F317220#32, RGlue.rAtt 0 slices_S9x1x64_S1x1x64_0_0_0 (V (main_arg7 : DevRef τ sig)),
    RGlue.rHatt 0 slices_S9x1x128_S1x1x128_0_0_0 (V (main_arg10 : DevRef τ sig)), RGlue.rHb 0 slices_S9x1_S1x1_0_0 (V (main_arg11 : DevRef τ sig))⟩
/-- Round 1's parameters: its constant and row 1 of the stacked arrays. -/
def P1 : RGlue.RP :=
  ⟨0x3ECF9936#32, RGlue.rAtt 1 slices_S9x1x64_S1x1x64_1_0_0 (V (main_arg7 : DevRef τ sig)),
    RGlue.rHatt 1 slices_S9x1x128_S1x1x128_1_0_0 (V (main_arg10 : DevRef τ sig)), RGlue.rHb 1 slices_S9x1_S1x1_1_0 (V (main_arg11 : DevRef τ sig))⟩
/-- Round 2's parameters: its constant and row 2 of the stacked arrays. -/
def P2 : RGlue.RP :=
  ⟨0x3E934B2A#32, RGlue.rAtt 2 slices_S9x1x64_S1x1x64_2_0_0 (V (main_arg7 : DevRef τ sig)),
    RGlue.rHatt 2 slices_S9x1x128_S1x1x128_2_0_0 (V (main_arg10 : DevRef τ sig)), RGlue.rHb 2 slices_S9x1_S1x1_2_0 (V (main_arg11 : DevRef τ sig))⟩
/-- Round 3's parameters: its constant and row 3 of the stacked arrays. -/
def P3 : RGlue.RP :=
  ⟨0x3E647FF4#32, RGlue.rAtt 3 slices_S9x1x64_S1x1x64_3_0_0 (V (main_arg7 : DevRef τ sig)),
    RGlue.rHatt 3 slices_S9x1x128_S1x1x128_3_0_0 (V (main_arg10 : DevRef τ sig)), RGlue.rHb 3 slices_S9x1_S1x1_3_0 (V (main_arg11 : DevRef τ sig))⟩
/-- Round 4's parameters: its constant and row 4 of the stacked arrays. -/
def P4 : RGlue.RP :=
  ⟨0x3E3AB2B8#32, RGlue.rAtt 4 slices_S9x1x64_S1x1x64_4_0_0 (V (main_arg7 : DevRef τ sig)),
    RGlue.rHatt 4 slices_S9x1x128_S1x1x128_4_0_0 (V (main_arg10 : DevRef τ sig)), RGlue.rHb 4 slices_S9x1_S1x1_4_0 (V (main_arg11 : DevRef τ sig))⟩
/-- Round 5's parameters: its constant and row 5 of the stacked arrays. -/
def P5 : RGlue.RP :=
  ⟨0x3E1DD9E7#32, RGlue.rAtt 5 slices_S9x1x64_S1x1x64_5_0_0 (V (main_arg7 : DevRef τ sig)),
    RGlue.rHatt 5 slices_S9x1x128_S1x1x128_5_0_0 (V (main_arg10 : DevRef τ sig)), RGlue.rHb 5 slices_S9x1_S1x1_5_0 (V (main_arg11 : DevRef τ sig))⟩
/-- Round 6's parameters: its constant and row 6 of the stacked arrays. -/
def P6 : RGlue.RP :=
  ⟨0x3E08BCAF#32, RGlue.rAtt 6 slices_S9x1x64_S1x1x64_6_0_0 (V (main_arg7 : DevRef τ sig)),
    RGlue.rHatt 6 slices_S9x1x128_S1x1x128_6_0_0 (V (main_arg10 : DevRef τ sig)), RGlue.rHb 6 slices_S9x1_S1x1_6_0 (V (main_arg11 : DevRef τ sig))⟩
/-- Round 7's parameters: its constant and row 7 of the stacked arrays. -/
def P7 : RGlue.RP :=
  ⟨0x3DF138B3#32, RGlue.rAtt 7 slices_S9x1x64_S1x1x64_7_0_0 (V (main_arg7 : DevRef τ sig)),
    RGlue.rHatt 7 slices_S9x1x128_S1x1x128_7_0_0 (V (main_arg10 : DevRef τ sig)), RGlue.rHb 7 slices_S9x1_S1x1_7_0 (V (main_arg11 : DevRef τ sig))⟩
/-- Round 8's parameters: its constant and row 8 of the stacked arrays. -/
def P8 : RGlue.RP :=
  ⟨0x3DD7C7BA#32, RGlue.rAtt 8 slices_S9x1x64_S1x1x64_8_0_0 (V (main_arg7 : DevRef τ sig)),
    RGlue.rHatt 8 slices_S9x1x128_S1x1x128_8_0_0 (V (main_arg10 : DevRef τ sig)), RGlue.rHb 8 slices_S9x1_S1x1_8_0 (V (main_arg11 : DevRef τ sig))⟩

/-- The pair after the first stretch. -/
def T0 : RGlue.A S10000x64 × RGlue.A S10000x1x64 :=
  (RGlue.rX0 (V (main_arg0 : DevRef τ sig)) (V (main_arg3 : DevRef τ sig)) (V (main_arg4 : DevRef τ sig)) (V (main_arg5 : DevRef τ sig)) (V (main_arg6 : DevRef τ sig)),
    RGlue.rZ0 (RGlue.rX0 (V (main_arg0 : DevRef τ sig)) (V (main_arg3 : DevRef τ sig)) (V (main_arg4 : DevRef τ sig)) (V (main_arg5 : DevRef τ sig)) (V (main_arg6 : DevRef τ sig)))
      (V (main_arg8 : DevRef τ sig)) (V (main_arg9 : DevRef τ sig)))
/-- The pair after round 0. -/
def T1 : RGlue.A S10000x64 × RGlue.A S10000x1x64 := RGlue.rStep (RGlue.rSrc (V (main_arg1 : DevRef τ sig))) (RGlue.rDst (V (main_arg1 : DevRef τ sig))) (T0 V) (P0 V)
/-- The pair after round 1. -/
def T2 : RGlue.A S10000x64 × RGlue.A S10000x1x64 := RGlue.rStep (RGlue.rSrc (V (main_arg1 : DevRef τ sig))) (RGlue.rDst (V (main_arg1 : DevRef τ sig))) (T1 V) (P1 V)
/-- The pair after round 2. -/
def T3 : RGlue.A S10000x64 × RGlue.A S10000x1x64 := RGlue.rStep (RGlue.rSrc (V (main_arg1 : DevRef τ sig))) (RGlue.rDst (V (main_arg1 : DevRef τ sig))) (T2 V) (P2 V)
/-- The pair after round 3. -/
def T4 : RGlue.A S10000x64 × RGlue.A S10000x1x64 := RGlue.rStep (RGlue.rSrc (V (main_arg1 : DevRef τ sig))) (RGlue.rDst (V (main_arg1 : DevRef τ sig))) (T3 V) (P3 V)
/-- The pair after round 4. -/
def T5 : RGlue.A S10000x64 × RGlue.A S10000x1x64 := RGlue.rStep (RGlue.rSrc (V (main_arg1 : DevRef τ sig))) (RGlue.rDst (V (main_arg1 : DevRef τ sig))) (T4 V) (P4 V)
/-- The pair after round 5. -/
def T6 : RGlue.A S10000x64 × RGlue.A S10000x1x64 := RGlue.rStep (RGlue.rSrc (V (main_arg1 : DevRef τ sig))) (RGlue.rDst (V (main_arg1 : DevRef τ sig))) (T5 V) (P5 V)
/-- The pair after round 6. -/
def T7 : RGlue.A S10000x64 × RGlue.A S10000x1x64 := RGlue.rStep (RGlue.rSrc (V (main_arg1 : DevRef τ sig))) (RGlue.rDst (V (main_arg1 : DevRef τ sig))) (T6 V) (P6 V)
/-- The pair after round 7. -/
def T8 : RGlue.A S10000x64 × RGlue.A S10000x1x64 := RGlue.rStep (RGlue.rSrc (V (main_arg1 : DevRef τ sig))) (RGlue.rDst (V (main_arg1 : DevRef τ sig))) (T7 V) (P7 V)
/-- The pair after round 8. -/
def T9 : RGlue.A S10000x64 × RGlue.A S10000x1x64 := RGlue.rStep (RGlue.rSrc (V (main_arg1 : DevRef τ sig))) (RGlue.rDst (V (main_arg1 : DevRef τ sig))) (T8 V) (P8 V)

theorem st0 : C0 V (main_v12 : DevRef τ sig) = (T0 V).1 ∧ C0 V (main_v24 : DevRef τ sig) = (T0 V).2 := ⟨init_x V, init_z V⟩
theorem st1 : C1 V (main_v89 : DevRef τ sig) = (T1 V).1 ∧ C1 V (main_v107 : DevRef τ sig) = (T1 V).2 :=
  l0_step (kept0 V) (T0 V) (st0 V).1 (st0 V).2
theorem st2 : C2 V (main_v172 : DevRef τ sig) = (T2 V).1 ∧ C2 V (main_v190 : DevRef τ sig) = (T2 V).2 :=
  l1_step (kept1 V) (T1 V) (st1 V).1 (st1 V).2
theorem st3 : C3 V (main_v255 : DevRef τ sig) = (T3 V).1 ∧ C3 V (main_v273 : DevRef τ sig) = (T3 V).2 :=
  l2_step (kept2 V) (T2 V) (st2 V).1 (st2 V).2
theorem st4 : C4 V (main_v338 : DevRef τ sig) = (T4 V).1 ∧ C4 V (main_v356 : DevRef τ sig) = (T4 V).2 :=
  l3_step (kept3 V) (T3 V) (st3 V).1 (st3 V).2
theorem st5 : C5 V (main_v421 : DevRef τ sig) = (T5 V).1 ∧ C5 V (main_v439 : DevRef τ sig) = (T5 V).2 :=
  l4_step (kept4 V) (T4 V) (st4 V).1 (st4 V).2
theorem st6 : C6 V (main_v504 : DevRef τ sig) = (T6 V).1 ∧ C6 V (main_v522 : DevRef τ sig) = (T6 V).2 :=
  l5_step (kept5 V) (T5 V) (st5 V).1 (st5 V).2
theorem st7 : C7 V (main_v587 : DevRef τ sig) = (T7 V).1 ∧ C7 V (main_v605 : DevRef τ sig) = (T7 V).2 :=
  l6_step (kept6 V) (T6 V) (st6 V).1 (st6 V).2
theorem st8 : C8 V (main_v670 : DevRef τ sig) = (T8 V).1 ∧ C8 V (main_v688 : DevRef τ sig) = (T8 V).2 :=
  l7_step (kept7 V) (T7 V) (st7 V).1 (st7 V).2
theorem st9 : C9 V (main_v753 : DevRef τ sig) = (T9 V).1 ∧ C9 V (main_v771 : DevRef τ sig) = (T9 V).2 :=
  l8_step (kept8 V) (T8 V) (st8 V).1 (st8 V).2

/-! ## The result -/

/-- The eight steps folded over the list of the first eight rounds' parameters are the pair after round 7. -/
theorem fold_eq :
    (RGlue.rParams (V (main_arg7 : DevRef τ sig)) (V (main_arg10 : DevRef τ sig)) (V (main_arg11 : DevRef τ sig))).foldl
        (RGlue.rStep (RGlue.rSrc (V (main_arg1 : DevRef τ sig))) (RGlue.rDst (V (main_arg1 : DevRef τ sig)))) (T0 V) = T8 V := rfl

/-- The program's function of its arguments is the readout of the ninth round's new state. -/
theorem val_eq :
    RGlue.rVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig))
      = RGlue.rOut (RGlue.rZf (T9 V).2) (V (main_arg2 : DevRef τ sig)) (V (main_arg12 : DevRef τ sig)) (V (main_arg13 : DevRef τ sig)) := by
  show RGlue.rOut (RGlue.rZf (RGlue.rStep (RGlue.rSrc (V (main_arg1 : DevRef τ sig))) (RGlue.rDst (V (main_arg1 : DevRef τ sig)))
      ((RGlue.rParams (V (main_arg7 : DevRef τ sig)) (V (main_arg10 : DevRef τ sig)) (V (main_arg11 : DevRef τ sig))).foldl
        (RGlue.rStep (RGlue.rSrc (V (main_arg1 : DevRef τ sig))) (RGlue.rDst (V (main_arg1 : DevRef τ sig)))) (T0 V))
      (RGlue.rLastP (V (main_arg7 : DevRef τ sig)) (V (main_arg10 : DevRef τ sig)) (V (main_arg11 : DevRef τ sig)))).2) _ _ _ = _
  rw [fold_eq]
  rfl

end Chain

/-- The reference's line of operations, from any contents, leaves at the result's buffer the program's function of the
    fourteen arguments found there. -/
theorem ref_value (V : Valuation τ sig (Elt Ideal)) :
    after (RefRun.ops (F := Ideal)) V (main_v789 : DevRef τ sig)
      = RGlue.rVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_split, out_value, (st9 V).2, (kept9 V).a2, (kept9 V).a12, (kept9 V).a13, val_eq]

end Cert.ReferenceIdeal.RFold

end
-- ==== Proof.BridgeDefs.lean ====
/-
  The reference keeps one attention head as an explicit unit axis: a node array `[10000, 64]` appears there as
  `[10000, 1, 64]`, an edge array `[320000, 64]` as `[320000, 1, 64]`. These are the two re-layouts, read at an index.
-/
import proofs.«404001_j15436112461850_3_alg».proof.Proof.KGlue
import proofs.«404001_j15436112461850_3_alg».proof.Proof.RGlue
import Idealize.ShloMosaic.Lib.Pipeline.Value

noncomputable section

namespace Cert.Bridge

open Idealize.ShloMosaic Idealize.ShloMosaic.ValueIdx

/-- A node array with the head axis inserted. -/
def r3 (z : Cert.KernelIdeal.KGlue.A Cert.KernelIdeal.S10000x64) : Cert.ReferenceIdeal.RGlue.A Cert.ReferenceIdeal.S10000x1x64 :=
  shapeCast Cert.ReferenceIdeal.S10000x1x64 z Cert.ReferenceIdeal.Facts₀.shapeCasts_S10000x64_S10000x1x64
/-- An edge array with the head axis inserted. -/
def r3E (z : Cert.KernelIdeal.KGlue.A Cert.KernelIdeal.S320000x64) : Cert.ReferenceIdeal.RGlue.A Cert.ReferenceIdeal.S320000x1x64 :=
  shapeCast Cert.ReferenceIdeal.S320000x1x64 z Cert.ReferenceIdeal.Facts₀.shapeCasts_S320000x64_S320000x1x64

end Cert.Bridge

end
-- ==== Proof.BridgeG.lean ====
/-
  Two stages of the bridge between the reference, which keeps the one attention head as a unit axis
  (`[10000, 1, 64]`, `[320000, 1, 64]`), and the kernel program (`[10000, 64]`, `[320000, 64]`): the state scaled by the
  round's constant, and each edge's sum of its two end points' scaled states. Both are proved index by index. A
  gather of rows at a column of start indices reads, at edge `e` and feature `c`, the operand's row
  `clamp (idx[e, 0])` at `c` (with the unit coordinate `0` in between on the reference's side): the same clamp on
  both sides, so the two gathers agree through the re-layout.
-/
import proofs.«404001_j15436112461850_3_alg».proof.Proof.KGlue
import proofs.«404001_j15436112461850_3_alg».proof.Proof.RGlue
import proofs.«404001_j15436112461850_3_alg».proof.Proof.BridgeDefs
import Idealize.ShloMosaic.Lib.ValueIdx
import Idealize.ShloMosaic.Lib.Pipeline.Value

noncomputable section

namespace Cert.Bridge.BridgeG

open Idealize.ShloMosaic Idealize.ShloMosaic.ValueIdx

section Gen
variable {α : Type}

/-- An `[a, b]` array cast to `[a, 1, b]` reads, at `(i, u, j)`, the operand at `(i, j)`: the unit axis in the middle does
    not move the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The dimension numbers of "rows of an `[N, C]` array at a column `[E, 1]` of start indices": offset axis `[1]`, the row
    axis collapsed and indexed, windows `[1, C]`. -/
abbrev rows2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The same over an operand `[N, 1, C]` and a result `[E, 1, C]`: offset axes `[1, 2]`, windows `[1, 1, C]`. -/
abbrev rows3 (N E C : Nat)
    (wf : GatherDims.WF ⟨3, ![N, 1, C]⟩ ⟨2, ![E, 1]⟩ ⟨3, ![E, 1, C]⟩ [1, 2] [0] [] [0] [] 1 ![1, 1, C]) :
    GatherDims ⟨3, ![N, 1, C]⟩ ⟨2, ![E, 1]⟩ ⟨3, ![E, 1, C]⟩ where
  offsetDims := [1, 2]
  collapsedSliceDims := [0]
  operandBatchingDims := []
  startIndicesBatchingDims := []
  startIndexMap := [0]
  indexVectorDim := 1
  sliceSizes := ![1, 1, C]
  wf := wf

/-- The gather of rows read at `(e, c)`: the operand's row at the start index `idx[e, 0]`, read signed and clamped into
    `[0, N − 1]`, at column `c`. -/
theorem gather_rows2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rows2 N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rows2 N E C wf).start (ix2 e c) idx 0 + (rows2 N E C wf).batchCoord (ix2 e c) 0
      + (rows2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2 N E C wf).startIndexMap from List.mem_singleton.mpr rfl)]
    have hsi : (rows2 N E C wf).siIdx (ix2 e c) ⟨List.idxOf (0 : Fin 2) (rows2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rows2 N E C wf).start (ix2 e c) idx 1 + (rows2 N E C wf).batchCoord (ix2 e c) 1
      + (rows2 N E C wf).offCoord (ix2 e c) 1 = c.val
    rw [GatherDims.batchCoord_eq_zero _ _ _ List.not_mem_nil]
    have hs : (rows2 N E C wf).start (ix2 e c) idx 1 = 0 := by
      unfold GatherDims.start
      exact dif_neg (show (1 : Fin 2) ∉ ([0] : List (Fin 2)) by decide)
    have ho : (rows2 N E C wf).offCoord (ix2 e c) 1 = c.val := by
      unfold GatherDims.offCoord
      rw [dif_pos ((GatherDims.mem_sKept _ _).2 ⟨(show (1 : Fin 2) ∉ ([0] : List (Fin 2)) by decide), List.not_mem_nil⟩)]
      rfl
    rw [hs, ho]; omega

/-- The same with the unit axis: at `(e, u, c)` the operand at `(clamp idx[e, 0], 0, c)`. -/
theorem gather_rows3_apply {N E C w : Nat} (hN : 0 < N)
    (wf : GatherDims.WF ⟨3, ![N, 1, C]⟩ ⟨2, ![E, 1]⟩ ⟨3, ![E, 1, C]⟩ [1, 2] [0] [] [0] [] 1 ![1, 1, C])
    (x : (⟨3, ![N, 1, C]⟩ : Shape).Idx → α) (idx : IVec ⟨2, ![E, 1]⟩ w) (e : Fin E) (u : Fin 1) (c : Fin C) :
    Host.gather (rows3 N E C wf) x idx (ix3 e u c)
      = x (ix3 ⟨min (idx (ix2 e (0 : Fin 1))).toInt.toNat (N - 1), by omega⟩ (0 : Fin 1) c) := by
  unfold Host.gather
  congr 1
  funext a
  refine Fin.ext ?_
  match a with
  | ⟨0, _⟩ =>
    show (rows3 N E C wf).start (ix3 e u c) idx 0 + (rows3 N E C wf).batchCoord (ix3 e u c) 0
      + (rows3 N E C wf).offCoord (ix3 e u c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3 N E C wf).startIndexMap from List.mem_singleton.mpr rfl)]
    have hsi : (rows3 N E C wf).siIdx (ix3 e u c) ⟨List.idxOf (0 : Fin 3) (rows3 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rows3 N E C wf).start (ix3 e u c) idx 1 + (rows3 N E C wf).batchCoord (ix3 e u c) 1
      + (rows3 N E C wf).offCoord (ix3 e u c) 1 = 0
    rw [GatherDims.batchCoord_eq_zero _ _ _ List.not_mem_nil]
    have hs : (rows3 N E C wf).start (ix3 e u c) idx 1 = 0 := by
      unfold GatherDims.start
      exact dif_neg (show (1 : Fin 3) ∉ ([0] : List (Fin 3)) by decide)
    have ho : (rows3 N E C wf).offCoord (ix3 e u c) 1 = u.val := by
      unfold GatherDims.offCoord
      rw [dif_pos ((GatherDims.mem_sKept _ _).2 ⟨(show (1 : Fin 3) ∉ ([0] : List (Fin 3)) by decide), List.not_mem_nil⟩)]
      rfl
    rw [hs, ho]; omega
  | ⟨2, _⟩ =>
    show (rows3 N E C wf).start (ix3 e u c) idx 2 + (rows3 N E C wf).batchCoord (ix3 e u c) 2
      + (rows3 N E C wf).offCoord (ix3 e u c) 2 = c.val
    rw [GatherDims.batchCoord_eq_zero _ _ _ List.not_mem_nil]
    have hs : (rows3 N E C wf).start (ix3 e u c) idx 2 = 0 := by
      unfold GatherDims.start
      exact dif_neg (show (2 : Fin 3) ∉ ([0] : List (Fin 3)) by decide)
    have ho : (rows3 N E C wf).offCoord (ix3 e u c) 2 = c.val := by
      unfold GatherDims.offCoord
      rw [dif_pos ((GatherDims.mem_sKept _ _).2 ⟨(show (2 : Fin 3) ∉ ([0] : List (Fin 3)) by decide), List.not_mem_nil⟩)]
      rfl
    rw [hs, ho]; omega

end Gen

/-! ## The two re-layouts read at an index -/

/-- A node array with the head axis inserted reads, at `(n, u, c)`, the array at `(n, c)`. -/
theorem r3_at (z : Cert.KernelIdeal.KGlue.A Cert.KernelIdeal.S10000x64) (n : Fin 10000) (u : Fin 1) (c : Fin 64) :
    r3 z (ix3 n u c) = z (ix2 n c) :=
  shapeCast_ab_a1b_apply z _ n u c

/-- An edge array with the head axis inserted reads, at `(e, u, c)`, the array at `(e, c)`. -/
theorem r3E_at (z : Cert.KernelIdeal.KGlue.A Cert.KernelIdeal.S320000x64) (e : Fin 320000) (u : Fin 1) (c : Fin 64) :
    r3E z (ix3 e u c) = z (ix2 e c) :=
  shapeCast_ab_a1b_apply z _ e u c

/-! ## The scaled state -/

/-- Scaling the state by the round's constant commutes with inserting the head axis: both sides read
    `Z (n, c) · w` at `(n, u, c)`. -/
theorem zs_eq (w : BitVec 32) (Z : Cert.KernelIdeal.KGlue.A Cert.KernelIdeal.S10000x64) :
    Cert.ReferenceIdeal.RGlue.rZs w (r3 Z) = r3 (Cert.KernelIdeal.KGlue.kZs w Z) := by
  funext i
  obtain ⟨n, u, c, rfl⟩ : ∃ n u c, i = ix3 n u c := ⟨i 0, i 1, i 2, eq_ix3 i⟩
  rw [r3_at]
  show r3 Z (ix3 n u c) * Ideal.ofBits .f32 w = Z (ix2 n c) * Ideal.ofBits .f32 w
  rw [r3_at]

/-! ## The gathered sums -/

/-- The kernel program's gather of rows read at `(e, c)`: row `clamp (idx[e, 0])` of the operand at column `c`. -/
theorem gatherK_apply (x : Cert.KernelIdeal.KGlue.A Cert.KernelIdeal.S10000x64) (idx : IVec Cert.KernelIdeal.S320000x1 32)
    (e : Fin 320000) (c : Fin 64) :
    Host.gather Cert.KernelIdeal.gather_S10000x64_S320000x1_S320000x64_1_0_n_n_0_1_164 x idx (ix2 e c)
      = x (ix2 ⟨min (idx (ix2 e (0 : Fin 1))).toInt.toNat (10000 - 1), by omega⟩ c) :=
  gather_rows2_apply (N := 10000) (E := 320000) (C := 64) (by decide)
    Cert.KernelIdeal.Facts₀.gather_S10000x64_S320000x1_S320000x64_1_0_n_n_0_1_164_wf x idx e c

/-- The reference's gather of rows read at `(e, u, c)`: the same row of the operand, at `(·, 0, c)`. -/
theorem gatherR_apply (x : Cert.ReferenceIdeal.RGlue.A Cert.ReferenceIdeal.S10000x1x64) (idx : IVec Cert.ReferenceIdeal.S320000x1 32)
    (e : Fin 320000) (u : Fin 1) (c : Fin 64) :
    Host.gather Cert.ReferenceIdeal.gather_S10000x1x64_S320000x1_S320000x1x64_12_0_n_n_0_1_1164 x idx (ix3 e u c)
      = x (ix3 ⟨min (idx (ix2 e (0 : Fin 1))).toInt.toNat (10000 - 1), by omega⟩ (0 : Fin 1) c) :=
  gather_rows3_apply (N := 10000) (E := 320000) (C := 64) (by decide)
    Cert.ReferenceIdeal.Facts₀.gather_S10000x1x64_S320000x1_S320000x1x64_12_0_n_n_0_1_1164_wf x idx e u c

/-- The reference's rows of the re-laid-out array are the kernel program's rows, re-laid out. -/
theorem rows_eq (zs : Cert.KernelIdeal.KGlue.A Cert.KernelIdeal.S10000x64) (v : IVec Cert.KernelIdeal.S320000 32) :
    Host.gather Cert.ReferenceIdeal.gather_S10000x1x64_S320000x1_S320000x1x64_12_0_n_n_0_1_1164 (r3 zs)
        (Cert.ReferenceIdeal.RGlue.wrapIx v)
      = r3E (Cert.KernelIdeal.KGlue.kRows zs v) := by
  funext i
  obtain ⟨e, u, c, rfl⟩ : ∃ e u c, i = ix3 e u c := ⟨i 0, i 1, i 2, eq_ix3 i⟩
  rw [r3E_at, gatherR_apply, r3_at]
  exact (gatherK_apply zs (Cert.KernelIdeal.KGlue.wrapIx v) e c).symm

/-- Each edge's sum of its end points' scaled states: the reference's, over the re-laid-out state, is the kernel
    program's, re-laid out. -/
theorem zsum_eq (zs : Cert.KernelIdeal.KGlue.A Cert.KernelIdeal.S10000x64) (src dst : IVec Cert.KernelIdeal.S320000 32) :
    Cert.ReferenceIdeal.RGlue.rZsum (r3 zs) src dst = r3E (Cert.KernelIdeal.KGlue.kZsum zs src dst) := by
  funext i
  obtain ⟨e, u, c, rfl⟩ : ∃ e u c, i = ix3 e u c := ⟨i 0, i 1, i 2, eq_ix3 i⟩
  rw [r3E_at]
  show Host.gather Cert.ReferenceIdeal.gather_S10000x1x64_S320000x1_S320000x1x64_12_0_n_n_0_1_1164 (r3 zs)
        (Cert.ReferenceIdeal.RGlue.wrapIx src) (ix3 e u c)
      + Host.gather Cert.ReferenceIdeal.gather_S10000x1x64_S320000x1_S320000x1x64_12_0_n_n_0_1_1164 (r3 zs)
        (Cert.ReferenceIdeal.RGlue.wrapIx dst) (ix3 e u c)
      = Cert.KernelIdeal.KGlue.kRows zs src (ix2 e c) + Cert.KernelIdeal.KGlue.kRows zs dst (ix2 e c)
  rw [rows_eq, rows_eq, r3E_at, r3E_at]

end Cert.Bridge.BridgeG

end
-- ==== Proof.BridgeSGen.lean ====
/-
  A float scatter with an `add` body is, at each operand index, the operand element plus the sum of the update
  elements whose result index (start index read signed off the scatter indices, plus window coordinate) is that
  index. The scatters of a round have one scalar start index per edge, naming the node (operand axis 0); the other
  operand axes are window axes. So an update element `(e, c…)` lands at `(n, c…)` exactly when edge `e`'s index
  word is `n`, and the sum at `(n, c…)` is the sum over those edges. Stated for three layouts of the operand:
  `[N]` (no window axis), `[N, C]` (one) and `[N, 1, C]` (two, the first a unit axis), over abstract sizes.
-/
import Idealize.ShloMosaic.Lib.ValueIdx
import Idealize.ShloMosaic.Lib.Pipeline.Value
import Idealize.ShloMosaic.PureOps.Ideal

noncomputable section

namespace Cert.Bridge.Scat
open Idealize.ShloMosaic Idealize.ShloMosaic.ValueIdx

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · constructor
    · intro he a
      have h0 := congrFun (Option.some.inj he) a
      have h1 := congrArg Fin.val h0
      simp only at h1
      have := (h a).1
      omega
    · intro H
      congr 1
      funext a
      refine Fin.ext ?_
      simp only
      have := H a
      omega
  · constructor
    · intro he; cases he
    · intro H
      exact absurd (fun a => by have := H a; have := (i a).isLt; constructor <;> omega) h

section A
variable (N E : Nat) (wf : ScatterDims.WF ⟨1, ![N]⟩ ⟨2, ![E, 1]⟩ ⟨1, ![E]⟩ [] [0] [0] 1)

abbrev dimsA : ScatterDims ⟨1, ![N]⟩ ⟨2, ![E, 1]⟩ ⟨1, ![E]⟩ where
  updateWindowDims := []
  insertedWindowDims := [0]
  scatterDimsToOperandDims := [0]
  indexVectorDim := 1
  wf := wf

theorem startA {w : Nat} (idx : IVec ⟨2, ![E, 1]⟩ w) (e : Fin E) :
    (dimsA N E wf).start (ix1 e) idx 0 = (idx (ix2 e 0)).toInt := by
  unfold ScatterDims.start
  rw [dif_pos (show (0 : Fin 1) ∈ (dimsA N E wf).scatterDimsToOperandDims from List.mem_singleton.mpr rfl)]
  have hsi : (dimsA N E wf).siIdx (ix1 e) ⟨List.idxOf (0 : Fin 1) (dimsA N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem windowA (e : Fin E) : (dimsA N E wf).window (ix1 e) 0 = 0 := by
  unfold ScatterDims.window
  rw [dif_neg]
  simp [ScatterDims.sKept, Shape.kept]

theorem resultA {w : Nat} (idx : IVec ⟨2, ![E, 1]⟩ w) (e : Fin E) (n : Fin N) :
    (dimsA N E wf).resultIdx? (ix1 e) idx = some (ix1 n) ↔ (idx (ix2 e 0)).toInt = (n.val : Int) := by
  rw [resultIdx?_eq_some_iff]
  constructor
  · intro H
    have := H 0
    rw [startA, windowA] at this
    simp only [Nat.cast_zero, add_zero] at this
    exact this
  · intro H a
    obtain rfl : a = 0 := Subsingleton.elim _ _
    rw [startA, windowA]
    simp only [Nat.cast_zero, add_zero]
    exact H

/-- The sum over the updates landing at node `n` is the sum over the edges whose index word is `n`. -/
theorem scatterA_apply {w : Nat} (x : (⟨1, ![N]⟩ : Shape).Idx → EReal) (idx : IVec ⟨2, ![E, 1]⟩ w)
    (upd : (⟨1, ![E]⟩ : Shape).Idx → EReal) (n : Fin N) :
    Ideal.hostScatterAdd (dimsA N E wf) x idx upd (ix1 n)
      = x (ix1 n) + ∑ e ∈ Finset.univ.filter (fun e : Fin E => (idx (ix2 e 0)).toInt = (n.val : Int)), upd (ix1 e) := by
  unfold Ideal.hostScatterAdd
  congr 1
  refine Finset.sum_nbij' (fun j => j 0) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultA N E wf idx e n).mp (Finset.mem_filter.mp hj).2⟩
  · intro e he
    exact Finset.mem_filter.mpr ⟨Finset.mem_univ _, (resultA N E wf idx e n).mpr (Finset.mem_filter.mp he).2⟩
  · intro j _
    exact (eq_ix1 j).symm
  · intro e _
    rfl
  · intro j _
    obtain ⟨e, rfl⟩ : ∃ e : Fin E, j = ix1 e := ⟨j 0, eq_ix1 j⟩
    rfl
/-- The same, for the host operation at the ideal instance. -/
theorem hostScatterA_apply {w : Nat} (x : FVec Ideal ⟨1, ![N]⟩ .f32) (idx : IVec ⟨2, ![E, 1]⟩ w)
    (upd : FVec Ideal ⟨1, ![E]⟩ .f32) (n : Fin N) :
    Host.scatterAdd (dimsA N E wf) x idx upd (ix1 n)
      = x (ix1 n) + ∑ e ∈ Finset.univ.filter (fun e : Fin E => (idx (ix2 e 0)).toInt = (n.val : Int)), upd (ix1 e) :=
  scatterA_apply N E wf x idx upd n
end A

section B
variable (N C E : Nat) (wf : ScatterDims.WF ⟨2, ![N, C]⟩ ⟨2, ![E, 1]⟩ ⟨2, ![E, C]⟩ [1] [0] [0] 1)

abbrev dimsB : ScatterDims ⟨2, ![N, C]⟩ ⟨2, ![E, 1]⟩ ⟨2, ![E, C]⟩ where
  updateWindowDims := [1]
  insertedWindowDims := [0]
  scatterDimsToOperandDims := [0]
  indexVectorDim := 1
  wf := wf

theorem startB0 {w : Nat} (idx : IVec ⟨2, ![E, 1]⟩ w) (e : Fin E) (c : Fin C) :
    (dimsB N C E wf).start (ix2 e c) idx 0 = (idx (ix2 e 0)).toInt := by
  unfold ScatterDims.start
  rw [dif_pos (show (0 : Fin 2) ∈ (dimsB N C E wf).scatterDimsToOperandDims from List.mem_singleton.mpr rfl)]
  have hsi : (dimsB N C E wf).siIdx (ix2 e c) ⟨List.idxOf (0 : Fin 2) (dimsB N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem startB1 {w : Nat} (idx : IVec ⟨2, ![E, 1]⟩ w) (e : Fin E) (c : Fin C) :
    (dimsB N C E wf).start (ix2 e c) idx 1 = 0 := by
  unfold ScatterDims.start
  rw [dif_neg]
  simp

theorem windowB0 (e : Fin E) (c : Fin C) : (dimsB N C E wf).window (ix2 e c) 0 = 0 := by
  unfold ScatterDims.window
  rw [dif_neg]
  simp [ScatterDims.sKept, Shape.kept]

theorem windowB1 (e : Fin E) (c : Fin C) : (dimsB N C E wf).window (ix2 e c) 1 = c.val := by
  unfold ScatterDims.window
  rw [dif_pos (show (1 : Fin 2) ∈ (dimsB N C E wf).sKept from by simp [ScatterDims.sKept, Shape.kept])]
  rfl

theorem resultB {w : Nat} (idx : IVec ⟨2, ![E, 1]⟩ w) (e : Fin E) (c c' : Fin C) (n : Fin N) :
    (dimsB N C E wf).resultIdx? (ix2 e c) idx = some (ix2 n c') ↔ (idx (ix2 e 0)).toInt = (n.val : Int) ∧ c = c' := by
  rw [resultIdx?_eq_some_iff]
  constructor
  · intro H
    have h0 := H 0
    have h1 := H 1
    rw [startB0, windowB0] at h0
    rw [startB1, windowB1] at h1
    simp only [Nat.cast_zero, add_zero] at h0
    simp only [zero_add] at h1
    exact ⟨h0, Fin.ext (Nat.cast_inj.mp h1)⟩
  · rintro ⟨H, rfl⟩ a
    match a with
    | ⟨0, _⟩ =>
      exact (by rw [startB0, windowB0]; simp only [Nat.cast_zero, add_zero]; exact H :
        (dimsB N C E wf).start (ix2 e c) idx 0 + (((dimsB N C E wf).window (ix2 e c) 0 : Nat) : Int) = (((ix2 n c : (⟨2, ![N, C]⟩ : Shape).Idx) 0).val : Int))
    | ⟨1, _⟩ =>
      exact (by rw [startB1, windowB1]; simp only [zero_add]; rfl :
        (dimsB N C E wf).start (ix2 e c) idx 1 + (((dimsB N C E wf).window (ix2 e c) 1 : Nat) : Int) = (((ix2 n c : (⟨2, ![N, C]⟩ : Shape).Idx) 1).val : Int))

theorem scatterB_apply {w : Nat} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dimsB N C E wf) x idx upd (ix2 n c)
      = x (ix2 n c) + ∑ e ∈ Finset.univ.filter (fun e : Fin E => (idx (ix2 e 0)).toInt = (n.val : Int)), upd (ix2 e c) := by
  unfold Ideal.hostScatterAdd
  congr 1
  refine Finset.sum_nbij' (fun j => j 0) (fun e => ix2 e c) ?_ ?_ ?_ ?_ ?_
  · intro j hj
    obtain ⟨e, c', rfl⟩ : ∃ (e : Fin E) (c' : Fin C), j = ix2 e c' := ⟨j 0, j 1, eq_ix2 j⟩
    exact Finset.mem_filter.mpr ⟨Finset.mem_univ _, ((resultB N C E wf idx e c' c n).mp (Finset.mem_filter.mp hj).2).1⟩
  · intro e he
    exact Finset.mem_filter.mpr ⟨Finset.mem_univ _, (resultB N C E wf idx e c c n).mpr ⟨(Finset.mem_filter.mp he).2, rfl⟩⟩
  · intro j hj
    obtain ⟨e, c', rfl⟩ : ∃ (e : Fin E) (c' : Fin C), j = ix2 e c' := ⟨j 0, j 1, eq_ix2 j⟩
    obtain rfl := ((resultB N C E wf idx e c' c n).mp (Finset.mem_filter.mp hj).2).2
    rfl
  · intro e _
    rfl
  · intro j hj
    obtain ⟨e, c', rfl⟩ : ∃ (e : Fin E) (c' : Fin C), j = ix2 e c' := ⟨j 0, j 1, eq_ix2 j⟩
    obtain rfl := ((resultB N C E wf idx e c' c n).mp (Finset.mem_filter.mp hj).2).2
    rfl
/-- The same, for the host operation at the ideal instance. -/
theorem hostScatterB_apply {w : Nat} (x : FVec Ideal ⟨2, ![N, C]⟩ .f32) (idx : IVec ⟨2, ![E, 1]⟩ w)
    (upd : FVec Ideal ⟨2, ![E, C]⟩ .f32) (n : Fin N) (c : Fin C) :
    Host.scatterAdd (dimsB N C E wf) x idx upd (ix2 n c)
      = x (ix2 n c) + ∑ e ∈ Finset.univ.filter (fun e : Fin E => (idx (ix2 e 0)).toInt = (n.val : Int)), upd (ix2 e c) :=
  scatterB_apply N C E wf x idx upd n c
end B

section C
variable (N C E : Nat) (wf : ScatterDims.WF ⟨3, ![N, 1, C]⟩ ⟨2, ![E, 1]⟩ ⟨3, ![E, 1, C]⟩ [1, 2] [0] [0] 1)

abbrev dimsC : ScatterDims ⟨3, ![N, 1, C]⟩ ⟨2, ![E, 1]⟩ ⟨3, ![E, 1, C]⟩ where
  updateWindowDims := [1, 2]
  insertedWindowDims := [0]
  scatterDimsToOperandDims := [0]
  indexVectorDim := 1
  wf := wf

theorem startC0 {w : Nat} (idx : IVec ⟨2, ![E, 1]⟩ w) (e : Fin E) (u : Fin 1) (c : Fin C) :
    (dimsC N C E wf).start (ix3 e u c) idx 0 = (idx (ix2 e 0)).toInt := by
  unfold ScatterDims.start
  rw [dif_pos (show (0 : Fin 3) ∈ (dimsC N C E wf).scatterDimsToOperandDims from List.mem_singleton.mpr rfl)]
  have hsi : (dimsC N C E wf).siIdx (ix3 e u c) ⟨List.idxOf (0 : Fin 3) (dimsC N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem startC1 {w : Nat} (idx : IVec ⟨2, ![E, 1]⟩ w) (e : Fin E) (u : Fin 1) (c : Fin C) :
    (dimsC N C E wf).start (ix3 e u c) idx 1 = 0 := by
  unfold ScatterDims.start
  rw [dif_neg]
  simp

theorem startC2 {w : Nat} (idx : IVec ⟨2, ![E, 1]⟩ w) (e : Fin E) (u : Fin 1) (c : Fin C) :
    (dimsC N C E wf).start (ix3 e u c) idx 2 = 0 := by
  unfold ScatterDims.start
  rw [dif_neg]
  simp

theorem windowC0 (e : Fin E) (u : Fin 1) (c : Fin C) : (dimsC N C E wf).window (ix3 e u c) 0 = 0 := by
  unfold ScatterDims.window
  rw [dif_neg]
  simp [ScatterDims.sKept, Shape.kept]

theorem windowC1 (e : Fin E) (u : Fin 1) (c : Fin C) : (dimsC N C E wf).window (ix3 e u c) 1 = u.val := by
  unfold ScatterDims.window
  rw [dif_pos (show (1 : Fin 3) ∈ (dimsC N C E wf).sKept from by simp [ScatterDims.sKept, Shape.kept])]
  rfl

theorem windowC2 (e : Fin E) (u : Fin 1) (c : Fin C) : (dimsC N C E wf).window (ix3 e u c) 2 = c.val := by
  unfold ScatterDims.window
  rw [dif_pos (show (2 : Fin 3) ∈ (dimsC N C E wf).sKept from by simp [ScatterDims.sKept, Shape.kept])]
  rfl

theorem resultC {w : Nat} (idx : IVec ⟨2, ![E, 1]⟩ w) (e : Fin E) (u u' : Fin 1) (c c' : Fin C) (n : Fin N) :
    (dimsC N C E wf).resultIdx? (ix3 e u c) idx = some (ix3 n u' c') ↔ (idx (ix2 e 0)).toInt = (n.val : Int) ∧ c = c' := by
  rw [resultIdx?_eq_some_iff]
  constructor
  · intro H
    have h0 := H 0
    have h2 := H 2
    rw [startC0, windowC0] at h0
    rw [startC2, windowC2] at h2
    simp only [Nat.cast_zero, add_zero] at h0
    simp only [zero_add] at h2
    exact ⟨h0, Fin.ext (Nat.cast_inj.mp h2)⟩
  · rintro ⟨H, rfl⟩ a
    match a with
    | ⟨0, _⟩ =>
      exact (by rw [startC0, windowC0]; simp only [Nat.cast_zero, add_zero]; exact H :
        (dimsC N C E wf).start (ix3 e u c) idx 0 + (((dimsC N C E wf).window (ix3 e u c) 0 : Nat) : Int) = (((ix3 n u' c : (⟨3, ![N, 1, C]⟩ : Shape).Idx) 0).val : Int))
    | ⟨1, _⟩ =>
      exact (by rw [startC1, windowC1, Subsingleton.elim u u']; simp only [zero_add]; rfl :
        (dimsC N C E wf).start (ix3 e u c) idx 1 + (((dimsC N C E wf).window (ix3 e u c) 1 : Nat) : Int) = (((ix3 n u' c : (⟨3, ![N, 1, C]⟩ : Shape).Idx) 1).val : Int))
    | ⟨2, _⟩ =>
      exact (by rw [startC2, windowC2]; simp only [zero_add]; rfl :
        (dimsC N C E wf).start (ix3 e u c) idx 2 + (((dimsC N C E wf).window (ix3 e u c) 2 : Nat) : Int) = (((ix3 n u' c : (⟨3, ![N, 1, C]⟩ : Shape).Idx) 2).val : Int))

theorem scatterC_apply {w : Nat} (x : (⟨3, ![N, 1, C]⟩ : Shape).Idx → EReal) (idx : IVec ⟨2, ![E, 1]⟩ w)
    (upd : (⟨3, ![E, 1, C]⟩ : Shape).Idx → EReal) (n : Fin N) (c : Fin C) :
    Ideal.hostScatterAdd (dimsC N C E wf) x idx upd (ix3 n 0 c)
      = x (ix3 n 0 c) + ∑ e ∈ Finset.univ.filter (fun e : Fin E => (idx (ix2 e 0)).toInt = (n.val : Int)), upd (ix3 e 0 c) := by
  unfold Ideal.hostScatterAdd
  congr 1
  refine Finset.sum_nbij' (fun j => j 0) (fun e => ix3 e 0 c) ?_ ?_ ?_ ?_ ?_
  · intro j hj
    obtain ⟨e, u, c', rfl⟩ : ∃ (e : Fin E) (u : Fin 1) (c' : Fin C), j = ix3 e u c' := ⟨j 0, j 1, j 2, eq_ix3 j⟩
    exact Finset.mem_filter.mpr ⟨Finset.mem_univ _, ((resultC N C E wf idx e u 0 c' c n).mp (Finset.mem_filter.mp hj).2).1⟩
  · intro e he
    exact Finset.mem_filter.mpr ⟨Finset.mem_univ _, (resultC N C E wf idx e 0 0 c c n).mpr ⟨(Finset.mem_filter.mp he).2, rfl⟩⟩
  · intro j hj
    obtain ⟨e, u, c', rfl⟩ : ∃ (e : Fin E) (u : Fin 1) (c' : Fin C), j = ix3 e u c' := ⟨j 0, j 1, j 2, eq_ix3 j⟩
    obtain rfl := ((resultC N C E wf idx e u 0 c' c n).mp (Finset.mem_filter.mp hj).2).2
    obtain rfl : u = 0 := Subsingleton.elim _ _
    rfl
  · intro e _
    rfl
  · intro j hj
    obtain ⟨e, u, c', rfl⟩ : ∃ (e : Fin E) (u : Fin 1) (c' : Fin C), j = ix3 e u c' := ⟨j 0, j 1, j 2, eq_ix3 j⟩
    obtain rfl := ((resultC N C E wf idx e u 0 c' c n).mp (Finset.mem_filter.mp hj).2).2
    obtain rfl : u = 0 := Subsingleton.elim _ _
    rfl
/-- The same, for the host operation at the ideal instance. -/
theorem hostScatterC_apply {w : Nat} (x : FVec Ideal ⟨3, ![N, 1, C]⟩ .f32) (idx : IVec ⟨2, ![E, 1]⟩ w)
    (upd : FVec Ideal ⟨3, ![E, 1, C]⟩ .f32) (n : Fin N) (c : Fin C) :
    Host.scatterAdd (dimsC N C E wf) x idx upd (ix3 n 0 c)
      = x (ix3 n 0 c) + ∑ e ∈ Finset.univ.filter (fun e : Fin E => (idx (ix2 e 0)).toInt = (n.val : Int)), upd (ix3 e 0 c) :=
  scatterC_apply N C E wf x idx upd n c
end C

end Cert.Bridge.Scat

end
-- ==== Proof.BridgeS.lean ====
/-
  The two scatter-sums of a round, the reference's against the kernel program's.

  Every scatter here has one scalar start index per edge, naming the node (operand axis 0), the other operand axes
  being window axes; so the sum at `(n, c…)` ranges over the edges whose index word is `n`. The reference carries a
  unit head axis (`[10000, 1]`, `[10000, 1, 64]`) where the kernel program has `[10000]`, `[10000, 64]`; both sums
  range over the same edges, and their terms agree edge by edge.
-/
import proofs.«404001_j15436112461850_3_alg».proof.Proof.KGlue
import proofs.«404001_j15436112461850_3_alg».proof.Proof.RGlue
import proofs.«404001_j15436112461850_3_alg».proof.Proof.BridgeSGen
import Idealize.ShloMosaic.Lib.ValueIdx
import Idealize.ShloMosaic.Lib.Pipeline.Value
import Idealize.ShloMosaic.PureOps.Ideal

noncomputable section

namespace Cert.Bridge.BridgeS

open Idealize.ShloMosaic Idealize.ShloMosaic.ValueIdx

/-- The two programs' columns of scatter indices are one term. -/
theorem colIx_eq (dst : IVec Cert.KernelIdeal.S320000 32) :
    Cert.ReferenceIdeal.RGlue.colIx dst = Cert.KernelIdeal.KGlue.colIx dst := rfl

/-- The two programs' gathers of the source rows are one term. -/
theorem rows_eq (x : Cert.KernelIdeal.KGlue.A Cert.KernelIdeal.S10000x64) (src : IVec Cert.KernelIdeal.S320000 32) :
    Host.gather Cert.ReferenceIdeal.gather_S10000x64_S320000x1_S320000x64_1_0_n_n_0_1_164 x (Cert.ReferenceIdeal.RGlue.wrapIx src)
      = Cert.KernelIdeal.KGlue.kRows x src := rfl

/-- A splat of a constant reads the constant everywhere. -/
theorem splat_apply (s : Shape) (h : (⟨0, ![]⟩ : Shape).BroadcastsInDim s (![] : Fin 0 → Fin s.rank)) (w : BitVec 32) (j : s.Idx) :
    broadcastInDim s ![] h (constant (F := Ideal) (⟨0, ![]⟩ : Shape) .f32 w) j = Ideal.ofBits .f32 w := rfl

/-- `max (·, ·) ^ ·` of arrays, read at an index. -/
theorem powmax_apply {s : Shape} (X S1 S2 : FVec Ideal s .f32) (i : s.Idx) :
    Host.powf (maximumf X S1) S2 i = FloatOps.hostPowf (F := Ideal) (φ := .f32) (max (X i) (S1 i)) (S2 i) := rfl

/-- Each node's sum of the scores of the edges arriving at it: the reference's column `[10000, 1]` read at `(n, 0)`
    is the kernel program's vector `[10000]` read at `n`. Both are zero plus the sum, over the edges whose
    destination word is `n`, of the edge's score. -/
theorem adj_eq (a : Cert.KernelIdeal.KGlue.A Cert.KernelIdeal.S320000x1) (dst : IVec Cert.KernelIdeal.S320000 32) (n : Fin 10000) :
    Host.scatterAdd Cert.ReferenceIdeal.scatter_S10000x1_S320000x1_S320000x1_1_0_0_1
        (Cert.ReferenceIdeal.RGlue.splat Cert.ReferenceIdeal.S10000x1 Cert.ReferenceIdeal.Facts₀.bcast_S_S10000x1 0x00000000#32)
        (Cert.ReferenceIdeal.RGlue.colIx dst) a (ix2 n (0 : Fin 1))
      = Cert.KernelIdeal.KGlue.kAdj a dst (ix1 n) := by
  unfold Cert.KernelIdeal.KGlue.kAdj
  rw [colIx_eq]
  refine (Scat.hostScatterB_apply 10000 1 320000 Cert.ReferenceIdeal.Facts₀.scatter_S10000x1_S320000x1_S320000x1_1_0_0_1_wf
    _ _ _ n (0 : Fin 1)).trans ?_
  refine Eq.trans ?_ (Scat.hostScatterA_apply 10000 320000 Cert.KernelIdeal.Facts₀.scatter_S10000_S320000x1_S320000_n_0_0_1_wf
    _ _ _ n).symm
  refine congrArg₂ (fun (p q : EReal) => p + q) ((splat_apply _ _ _ _).trans (splat_apply _ _ _ _).symm)
    (Finset.sum_congr rfl fun e _ => ?_)
  exact (shapeCast_apply _ _ (ix1 e) (ix2 e (0 : Fin 1))
    (by rw [Shape.rowMajor_val_one, Shape.rowMajor_val_two]; show e.val * 1 + 0 = e.val; omega)).symm

/-- (Bd) The inverse square roots of the degrees agree. -/
theorem inv_eq (a : Cert.KernelIdeal.KGlue.A Cert.KernelIdeal.S320000x1) (dst : IVec Cert.KernelIdeal.S320000 32) :
    Cert.ReferenceIdeal.RGlue.rInv a dst = Cert.KernelIdeal.KGlue.kInv (Cert.KernelIdeal.KGlue.kAdj a dst) := by
  funext i
  obtain ⟨n, u, rfl⟩ : ∃ (n : Fin 10000) (u : Fin 1), i = ix2 n u := ⟨i 0, i 1, eq_ix2 i⟩
  obtain rfl : u = 0 := Subsingleton.elim _ _
  unfold Cert.KernelIdeal.KGlue.kInv
  refine Eq.trans ?_ (shapeCast_apply _ _ (ix2 n (0 : Fin 1)) (ix1 n)
    (by rw [Shape.rowMajor_val_one, Shape.rowMajor_val_two]; show n.val = n.val * 1 + 0; omega)).symm
  unfold Cert.ReferenceIdeal.RGlue.rInv
  refine (powmax_apply _ _ _ _).trans ?_
  refine Eq.trans ?_ (powmax_apply _ _ _ _).symm
  rw [adj_eq a dst n]
  exact congrArg₂ (fun (p q : EReal) => FloatOps.hostPowf (F := Ideal) (φ := .f32) (max (Cert.KernelIdeal.KGlue.kAdj a dst (ix1 n)) p) q)
    ((splat_apply _ _ _ _).trans (splat_apply _ _ _ _).symm) ((splat_apply _ _ _ _).trans (splat_apply _ _ _ _).symm)

/-- The reference's weighted source row at edge `e`, head `0`, feature `c`. -/
theorem updR_apply (G : Cert.KernelIdeal.KGlue.A Cert.KernelIdeal.S320000x64) (na : Cert.KernelIdeal.KGlue.A Cert.KernelIdeal.S320000x1) (e : Fin 320000) (c : Fin 64) :
    mulf
        (shapeCast Cert.ReferenceIdeal.S320000x1x64 G Cert.ReferenceIdeal.Facts₀.shapeCasts_S320000x64_S320000x1x64)
        (broadcastInDim Cert.ReferenceIdeal.S320000x1x64 ![0, 1, 2] Cert.ReferenceIdeal.Facts₀.bcast_S320000x1x1_S320000x1x64_0_1_2
          (broadcastInDim Cert.ReferenceIdeal.S320000x1x1 ![0, 1] Cert.ReferenceIdeal.Facts₀.bcast_S320000x1_S320000x1x1_0_1 na))
        (ix3 e (0 : Fin 1) c)
      = G (ix2 e c) * na (ix2 e (0 : Fin 1)) :=
  congrArg₂ (fun (p q : EReal) => p * q)
    (shapeCast_apply G Cert.ReferenceIdeal.Facts₀.shapeCasts_S320000x64_S320000x1x64 (ix3 e (0 : Fin 1) c) (ix2 e c)
      (by rw [Shape.rowMajor_val_three, Shape.rowMajor_val_two]; show e.val * 64 + c.val = (e.val * 1 + 0) * 64 + c.val; omega))
    ((broadcastInDim_apply ![0, 1, 2] Cert.ReferenceIdeal.Facts₀.bcast_S320000x1x1_S320000x1x64_0_1_2
        (broadcastInDim Cert.ReferenceIdeal.S320000x1x1 ![0, 1] Cert.ReferenceIdeal.Facts₀.bcast_S320000x1_S320000x1x1_0_1 na)
        (ix3 e (0 : Fin 1) c) (ix3 e (0 : Fin 1) (0 : Fin 1))
        (fun b => match b with | ⟨0, _⟩ => rfl | ⟨1, _⟩ => rfl | ⟨2, _⟩ => rfl)).trans
      (broadcastInDim_apply ![0, 1] Cert.ReferenceIdeal.Facts₀.bcast_S320000x1_S320000x1x1_0_1 na
        (ix3 e (0 : Fin 1) (0 : Fin 1)) (ix2 e (0 : Fin 1)) (fun b => match b with | ⟨0, _⟩ => rfl | ⟨1, _⟩ => rfl)))

/-- The kernel program's at edge `e`, feature `c`. -/
theorem updK_apply (G : Cert.KernelIdeal.KGlue.A Cert.KernelIdeal.S320000x64) (na : Cert.KernelIdeal.KGlue.A Cert.KernelIdeal.S320000x1) (e : Fin 320000) (c : Fin 64) :
    mulf G (broadcastInDim Cert.KernelIdeal.S320000x64 ![0, 1] Cert.KernelIdeal.Facts₀.bcast_S320000x1_S320000x64_0_1 na) (ix2 e c)
      = G (ix2 e c) * na (ix2 e (0 : Fin 1)) :=
  congrArg (fun q : EReal => G (ix2 e c) * q)
    (broadcastInDim_apply ![0, 1] Cert.KernelIdeal.Facts₀.bcast_S320000x1_S320000x64_0_1 na (ix2 e c) (ix2 e (0 : Fin 1))
      (fun b => match b with | ⟨0, _⟩ => rfl | ⟨1, _⟩ => rfl))

/-- (Bf) The new node features agree: at node `n` and feature `c`, zero plus the sum, over the edges whose
    destination word is `n`, of the source row's feature `c` times the edge's weight. -/
theorem x_eq (x : Cert.KernelIdeal.KGlue.A Cert.KernelIdeal.S10000x64) (na : Cert.KernelIdeal.KGlue.A Cert.KernelIdeal.S320000x1)
    (src dst : IVec Cert.KernelIdeal.S320000 32) :
    Cert.ReferenceIdeal.RGlue.rX x na src dst = Cert.KernelIdeal.KGlue.kX x na src dst := by
  funext i
  obtain ⟨n, c, rfl⟩ : ∃ (n : Fin 10000) (c : Fin 64), i = ix2 n c := ⟨i 0, i 1, eq_ix2 i⟩
  unfold Cert.ReferenceIdeal.RGlue.rX
  refine (shapeCast_apply _ _ (ix2 n c) (ix3 n (0 : Fin 1) c)
    (by rw [Shape.rowMajor_val_three, Shape.rowMajor_val_two]; show (n.val * 1 + 0) * 64 + c.val = n.val * 64 + c.val; omega)).trans ?_
  unfold Cert.KernelIdeal.KGlue.kX
  rw [colIx_eq, rows_eq]
  refine (Scat.hostScatterC_apply 10000 64 320000 Cert.ReferenceIdeal.Facts₀.scatter_S10000x1x64_S320000x1_S320000x1x64_12_0_0_1_wf
    _ _ _ n c).trans ?_
  refine Eq.trans ?_ (Scat.hostScatterB_apply 10000 64 320000 Cert.KernelIdeal.Facts₀.scatter_S10000x64_S320000x1_S320000x64_1_0_0_1_wf
    _ _ _ n c).symm
  refine congrArg₂ (fun (p q : EReal) => p + q) ((splat_apply _ _ _ _).trans (splat_apply _ _ _ _).symm)
    (Finset.sum_congr rfl fun e _ => ?_)
  exact (updR_apply (Cert.KernelIdeal.KGlue.kRows x src) na e c).trans (updK_apply (Cert.KernelIdeal.KGlue.kRows x src) na e c).symm

end Cert.Bridge.BridgeS

end
-- ==== Proof.BridgeScalar.lean ====
/-
  The two scalar functions of the computation, ELU and softplus, as the reference writes them over whole arrays, read
  at an index: each is the mathematics' scalar function (`Spec.eluS`, `Spec.softplusS`) of the element there.

  ELU: the reference computes `x` where `x > 0`, else `1 · (exp y − 1)` with `y = 0` where `x > 0`, else `x`;
  where `x > 0` fails, `y = x = min x 0` and `1 · t = t`. Softplus: the reference guards with `d ≠ d` (unordered or
  unequal), the mathematics with `d ≠ d` (ordered and unequal), `d = x − 0`: on the extended reals both are false; and
  `−|d| = 0 − |d|`.

  Also the two re-layouts that insert the head axis, read at an index: `[n, c] ↦ [n, 0, c]`.
-/
import proofs.«404001_j15436112461850_3_alg».proof.Proof.KGlue
import proofs.«404001_j15436112461850_3_alg».proof.Proof.RGlue
import proofs.«404001_j15436112461850_3_alg».proof.Proof.BridgeDefs
import Idealize.ShloMosaic.PureOps.Ideal.Laws
import Idealize.ShloMosaic.Lib.ValueIdx
import Idealize.ShloMosaic.Lib.Pipeline.Value

noncomputable section

open scoped BigOperators

namespace Cert.Bridge.Scalar

open Idealize.ShloMosaic Idealize.ShloMosaic.ValueIdx

/-- The word `0x3F800000` is the extended real `1`. -/
theorem ofBits_one_f32 : Ideal.ofBits .f32 0x3F800000#32 = 1 := by
  simp [Ideal.ofBits, Ideal.ieee, -EReal.coe_mul]; norm_num

/-- `x > y` as a bit, where it holds … -/
theorem cmp_ogt_of_lt {x y : EReal} (h : y < x) : Ideal.cmp .ogt x y = 1#1 := by simp [Ideal.cmp, h]
/-- … and where it fails. -/
theorem cmp_ogt_of_not_lt {x y : EReal} (h : ¬ y < x) : Ideal.cmp .ogt x y = 0#1 := by simp [Ideal.cmp, h]
/-- No extended real differs from itself: the unordered-or-unequal test … -/
theorem cmp_une_self (d : EReal) : Ideal.cmp .une d d = 0#1 := by simp [Ideal.cmp]
/-- … and the ordered-and-unequal one. -/
theorem cmp_one_self (d : EReal) : Ideal.cmp .one d d = 0#1 := by simp [Ideal.cmp]

/-- The reference's ELU on one extended real is the mathematics' ELU. -/
theorem elu_scalar (v : Cert.Spec.E) :
    Scalar.select (FloatOps.cmpf .ogt v (Ideal.ofBits .f32 0x00000000#32)) v
      (FloatOps.mulf (Ideal.ofBits .f32 0x3F800000#32)
        (FloatOps.hostUnary .expm1
          (Scalar.select (FloatOps.cmpf .ogt v (Ideal.ofBits .f32 0x00000000#32)) (Ideal.ofBits .f32 0x00000000#32) v)))
    = Cert.Spec.eluS v := by
  unfold Cert.Spec.eluS Cert.Spec.zeroE Cert.Spec.oneE
  rw [Ideal.ofBits_zero_f32, ofBits_one_f32]
  show Scalar.select (Ideal.cmp .ogt v 0) v (1 * (Ideal.exp (Scalar.select (Ideal.cmp .ogt v 0) 0 v) - 1))
    = Scalar.select (Ideal.cmp .ogt v 0) v (Ideal.exp (min v 0) - 1)
  by_cases h : (0 : EReal) < v
  · rw [cmp_ogt_of_lt h]; simp only [select_one]
  · rw [cmp_ogt_of_not_lt h]; simp only [select_zero]
    rw [one_mul, min_eq_left (not_lt.mp h)]

/-- The reference's softplus on one extended real is the mathematics' softplus. -/
theorem softplus_scalar (x : Cert.Spec.E) :
    Scalar.select (FloatOps.cmpf .une (x - Ideal.ofBits .f32 0x00000000#32) (x - Ideal.ofBits .f32 0x00000000#32))
      (x + Ideal.ofBits .f32 0x00000000#32)
      (max x (Ideal.ofBits .f32 0x00000000#32) +
        FloatOps.hostUnary .log1p (FloatOps.hostUnary .exp
          (FloatOps.hostNegf (FloatOps.hostAbsf (x - Ideal.ofBits .f32 0x00000000#32)))))
    = Cert.Spec.softplusS x := by
  unfold Cert.Spec.softplusS Cert.Spec.zeroE
  show Scalar.select (Ideal.cmp .une _ _) _ _ = Scalar.select (Ideal.cmp .one _ _) _ _
  rw [cmp_une_self, cmp_one_self]; simp only [select_zero]
  show _ + Ideal.log1p (Ideal.exp (-(FloatOps.absf (x - Ideal.ofBits .f32 0x00000000#32))))
    = _ + Ideal.log1p (Ideal.exp (Ideal.ofBits .f32 0x00000000#32 - FloatOps.absf (x - Ideal.ofBits .f32 0x00000000#32)))
  rw [Ideal.ofBits_zero_f32, zero_sub]

/-- The reference's ELU over any shape, at an index. -/
theorem elu_apply (s : Shape) (h : Cert.ReferenceIdeal.S_.BroadcastsInDim s (![] : Fin 0 → Fin s.rank))
    (x : Cert.ReferenceIdeal.RGlue.A s) (i : s.Idx) :
    Cert.ReferenceIdeal.RGlue.rElu s h x i = Cert.Spec.eluS (x i) :=
  elu_scalar (x i)

/-- The reference's softplus over the edge scores, at an index. -/
theorem softplus_apply (x : Cert.ReferenceIdeal.RGlue.A Cert.ReferenceIdeal.S320000x1) (i : Cert.ReferenceIdeal.S320000x1.Idx) :
    Cert.ReferenceIdeal.RGlue.rSoftplus x i = Cert.Spec.softplusS (x i) :=
  softplus_scalar (x i)

/-- A splat of a word over any shape reads the word's extended real everywhere. -/
theorem splat_apply (s : Shape) (h : Cert.ReferenceIdeal.S_.BroadcastsInDim s (![] : Fin 0 → Fin s.rank)) (w : BitVec 32)
    (i : s.Idx) : Cert.ReferenceIdeal.RGlue.splat s h w i = Ideal.ofBits .f32 w := rfl

/-- `[10000, 64]` viewed as `[10000, 1, 64]`, at `(n, 0, c)`: both sit at row-major position `n · 64 + c`. -/
theorem cast3_apply (h : Cert.KernelIdeal.S10000x64.ShapeCasts Cert.ReferenceIdeal.S10000x1x64)
    (z : FVec Ideal Cert.KernelIdeal.S10000x64 .f32) (n : Fin 10000) (u : Fin 1) (c : Fin 64) :
    shapeCast Cert.ReferenceIdeal.S10000x1x64 z h (ix3 n u c) = z (ix2 n c) := by
  refine shapeCast_apply z h (ix3 n u c) (ix2 n c) ?_
  rw [Shape.rowMajor_val_two, Shape.rowMajor_val_three]
  have hu : u.val = 0 := by omega
  show n.val * 64 + c.val = (n.val * 1 + u.val) * 64 + c.val
  rw [hu]; omega

/-- `[320000, 64]` viewed as `[320000, 1, 64]`, at `(e, 0, c)`. -/
theorem cast3E_apply (h : Cert.KernelIdeal.S320000x64.ShapeCasts Cert.ReferenceIdeal.S320000x1x64)
    (z : FVec Ideal Cert.KernelIdeal.S320000x64 .f32) (e : Fin 320000) (u : Fin 1) (c : Fin 64) :
    shapeCast Cert.ReferenceIdeal.S320000x1x64 z h (ix3 e u c) = z (ix2 e c) := by
  refine shapeCast_apply z h (ix3 e u c) (ix2 e c) ?_
  rw [Shape.rowMajor_val_two, Shape.rowMajor_val_three]
  have hu : u.val = 0 := by omega
  show e.val * 64 + c.val = (e.val * 1 + u.val) * 64 + c.val
  rw [hu]; omega

/-- A node array with the head axis inserted, at `(n, 0, c)`. -/
theorem r3_apply (z : Cert.KernelIdeal.KGlue.A Cert.KernelIdeal.S10000x64) (n : Fin 10000) (u : Fin 1) (c : Fin 64) :
    Cert.Bridge.r3 z (ix3 n u c) = z (ix2 n c) :=
  cast3_apply _ z n u c

/-- An edge array with the head axis inserted, at `(e, 0, c)`. -/
theorem r3E_apply (z : Cert.KernelIdeal.KGlue.A Cert.KernelIdeal.S320000x64) (e : Fin 320000) (u : Fin 1) (c : Fin 64) :
    Cert.Bridge.r3E z (ix3 e u c) = z (ix2 e c) :=
  cast3E_apply _ z e u c

end Cert.Bridge.Scalar

end
-- ==== Proof.BridgeP.lean ====
/-
  A round's edge scores: the reference's `softplus (Σ_k att[0, k] · elu (zsum[e, 0, k])) + ε` over the edge array with
  the head axis, against the mathematics' `softplus (Σ_k att[0, k] · elu (zsum[e, k])) + ε`.

  Read at `(e, 0)`: the sum over the last axis of a `[320000, 1, 64]` array is the zero word's `0` plus the sum over
  `k : Fin 64` of the entries `(e, 0, k)`; the attention row broadcast through `[1, 1, 64]` reads `att[0, k]` there;
  the ELU and the softplus are the scalar functions of the entries; and the edge array with the head axis inserted reads
  `zsum[e, k]` at `(e, 0, k)`.
-/
import proofs.«404001_j15436112461850_3_alg».proof.Proof.KGlue
import proofs.«404001_j15436112461850_3_alg».proof.Proof.RGlue
import proofs.«404001_j15436112461850_3_alg».proof.Proof.BridgeDefs
import proofs.«404001_j15436112461850_3_alg».proof.Proof.BridgeScalar
import Idealize.ShloMosaic.PureOps.Ideal.Laws
import Idealize.ShloMosaic.Lib.ValueIdx
import Idealize.ShloMosaic.Lib.Pipeline.Value

noncomputable section

open scoped BigOperators

namespace Cert.Bridge.BridgeP

open Idealize.ShloMosaic Idealize.ShloMosaic.ValueIdx

/-- The sum over the last axis of a `[320000, 1, 64]` array, at `(e, b)`: the initial value plus `Σ_k x[e, b, k]`. -/
theorem reduce_last_apply (h' : Cert.ReferenceIdeal.S320000x1x64.ReducesTo [2] Cert.ReferenceIdeal.S320000x1)
    (hu : 0 < Cert.ReferenceIdeal.S_.numel)
    (x : FVec Ideal Cert.ReferenceIdeal.S320000x1x64 .f32) (init : FVec Ideal Cert.ReferenceIdeal.S_ .f32)
    (e : Fin 320000) (b : Fin 1) :
    Host.reduceAdd x init h' hu (ix2 e b) = init (Shape.Idx.first hu) + ∑ k : Fin 64, x (ix3 e b k) := by
  have h : Cert.ReferenceIdeal.S320000x1x64.Reduces [2] Cert.ReferenceIdeal.S320000x1 := by decide
  show Ideal.hostReduceAdd h' x _ _ = _
  rw [Ideal.hostReduceAdd_single h' h]
  refine congrArg _ (Finset.sum_congr rfl fun k _ => congrArg x ?_)
  funext c
  match c with
  | ⟨0, _⟩ => rfl
  | ⟨1, _⟩ => rfl
  | ⟨2, _⟩ => rfl

/-- A row `[1, 64]` broadcast to `[320000, 1, 64]` through `[1, 1, 64]`, at `(e, b, k)`: the row's entry `k`. -/
theorem bcast_row_apply
    (h1 : Cert.ReferenceIdeal.S1x64.BroadcastsInDim Cert.ReferenceIdeal.S1x1x64 (![1, 2] : Fin 2 → Fin Cert.ReferenceIdeal.S1x1x64.rank))
    (h2 : Cert.ReferenceIdeal.S1x1x64.BroadcastsInDim Cert.ReferenceIdeal.S320000x1x64
      (![0, 1, 2] : Fin 3 → Fin Cert.ReferenceIdeal.S320000x1x64.rank))
    (att : FVec Ideal Cert.ReferenceIdeal.S1x64 .f32) (e : Fin 320000) (b : Fin 1) (k : Fin 64) :
    broadcastInDim Cert.ReferenceIdeal.S320000x1x64 ![0, 1, 2] h2 (broadcastInDim Cert.ReferenceIdeal.S1x1x64 ![1, 2] h1 att) (ix3 e b k)
      = att (ix2 0 k) := by
  refine (broadcastInDim_apply _ h2 _ (ix3 e b k) (ix3 0 0 k) ?_).trans ?_
  · intro a
    match a with
    | ⟨0, _⟩ => rfl
    | ⟨1, _⟩ => rfl
    | ⟨2, _⟩ => rfl
  · refine broadcastInDim_apply _ h1 _ (ix3 0 0 k) (ix2 0 k) ?_
    intro a
    match a with
    | ⟨0, _⟩ => rfl
    | ⟨1, _⟩ => rfl

/-- One term of an edge's sum: `att[0, k] · elu (zsum[e, k])`. -/
theorem term_apply
    (h1 : Cert.ReferenceIdeal.S1x64.BroadcastsInDim Cert.ReferenceIdeal.S1x1x64 (![1, 2] : Fin 2 → Fin Cert.ReferenceIdeal.S1x1x64.rank))
    (h2 : Cert.ReferenceIdeal.S1x1x64.BroadcastsInDim Cert.ReferenceIdeal.S320000x1x64
      (![0, 1, 2] : Fin 3 → Fin Cert.ReferenceIdeal.S320000x1x64.rank))
    (h3 : Cert.ReferenceIdeal.S_.BroadcastsInDim Cert.ReferenceIdeal.S320000x1x64
      (![] : Fin 0 → Fin Cert.ReferenceIdeal.S320000x1x64.rank))
    (zsum : Cert.KernelIdeal.KGlue.A Cert.KernelIdeal.S320000x64) (att : Cert.KernelIdeal.KGlue.A Cert.KernelIdeal.S1x64)
    (e : Fin 320000) (b : Fin 1) (k : Fin 64) :
    mulf
      (broadcastInDim Cert.ReferenceIdeal.S320000x1x64 ![0, 1, 2] h2
        (broadcastInDim Cert.ReferenceIdeal.S1x1x64 ![1, 2] h1 att))
      (Cert.ReferenceIdeal.RGlue.rElu Cert.ReferenceIdeal.S320000x1x64 h3 (Cert.Bridge.r3E zsum)) (ix3 e b k)
      = att (ix2 0 k) * Cert.Spec.eluS (zsum (ix2 e k)) := by
  rw [mulf_apply, bcast_row_apply, Cert.Bridge.Scalar.elu_apply, Cert.Bridge.Scalar.r3E_apply]

/-- The edge scores: the reference's, on the edge sums with the head axis inserted, are the mathematics'. -/
theorem a_eq (zsum : Cert.KernelIdeal.KGlue.A Cert.KernelIdeal.S320000x64) (att : Cert.KernelIdeal.KGlue.A Cert.KernelIdeal.S1x64) :
    Cert.ReferenceIdeal.RGlue.rA (Cert.Bridge.r3E zsum) att = Cert.Spec.specA zsum att := by
  refine Cert.Spec.ext2 (n := 320000) (m := 1) (fun e b => ?_)
  unfold Cert.ReferenceIdeal.RGlue.rA
  rw [addf_apply, Cert.Bridge.Scalar.softplus_apply, reduce_last_apply, constant_apply, Ideal.ofBits_zero_f32, zero_add]
  exact congrArg (fun t => Cert.Spec.softplusS t + Cert.Spec.epsE)
    (Finset.sum_congr rfl fun k _ => term_apply _ _ _ zsum att e b k)

end Cert.Bridge.BridgeP

end
-- ==== Proof.BridgeU.lean ====
/-
  The gates of the node state: a node's score `Σ_k att[0, k] · elu (·[n, k]) + bias`, which the reference computes on
  arrays that keep the one attention head as a unit axis (`[10000, 1, 64]`, `[10000, 1, 128]`) by a broadcast of the
  weight row, an ELU, a product, a sum over the last axis from zero, a broadcast bias and a spread of the score over
  the 64 features, against the same score stated coordinate by coordinate on `[10000, 64]` arrays.

  Read at an index `(n, u, c)` with `u` the unit coordinate: a re-laid array `[10000, 64] ↦ [10000, 1, 64]` reads
  `(n, c)`; the twice-broadcast weight row reads `att[0, k]`; the sum over the last axis is `0 + Σ_k`; the
  concatenation `[x, zs]` along the last axis reads `x[n, k]` for `k < 64` and `zs[n, k − 64]` otherwise; the
  spread score reads the score of node `n`, and the broadcast bias its one element.

  Three statements follow: the state after round zero (`z0_eq`), the state after a round (`znew_eq`), and the
  closing ELU of the last round (`zf_eq`, `last_eq`).
-/
import proofs.«404001_j15436112461850_3_alg».proof.Proof.KGlue
import proofs.«404001_j15436112461850_3_alg».proof.Proof.RGlue
import proofs.«404001_j15436112461850_3_alg».proof.Proof.BridgeDefs
import proofs.«404001_j15436112461850_3_alg».proof.Proof.BridgeScalar
import Idealize.ShloMosaic.Lib.Pipeline.Value
import Idealize.ShloMosaic.Lib.IdealHost
import Idealize.ShloMosaic.Lib.ValueIdx
import Idealize.ShloMosaic.PureOps.Ideal.Laws

noncomputable section

open scoped BigOperators

namespace Cert.Bridge.BridgeU

open Idealize.ShloMosaic Idealize.ShloMosaic.ValueIdx
open Cert.ReferenceIdeal Cert.ReferenceIdeal.Facts₀

/-! ## Layout operations over a unit middle axis, read at an index -/

section Generic
variable {α : Type}

/-- `[a, b]` re-laid as `[a, 1, b]`, read at `(n, u, c)`: the entry `(n, c)`. -/
theorem cast_ab_a1b_apply {a b : ℕ} (x : (⟨2, ![a, b]⟩ : Shape).Idx → α)
    (h : (⟨2, ![a, b]⟩ : Shape).ShapeCasts ⟨3, ![a, 1, b]⟩) (n : Fin a) (u : Fin 1) (c : Fin b) :
    shapeCast ⟨3, ![a, 1, b]⟩ x h (ix3 n u c) = x (ix2 n c) := by
  refine shapeCast_apply x h _ _ ?_
  rw [Shape.rowMajor_val_two, Shape.rowMajor_val_three]
  obtain rfl : u = 0 := Subsingleton.elim _ _
  show n.val * b + c.val = (n.val * 1 + 0) * b + c.val
  simp

/-- `[a, 1, b]` re-laid as `[a, b]`, read at `(n, c)`: the entry `(n, 0, c)`. -/
theorem cast_a1b_ab_apply {a b : ℕ} (x : (⟨3, ![a, 1, b]⟩ : Shape).Idx → α)
    (h : (⟨3, ![a, 1, b]⟩ : Shape).ShapeCasts ⟨2, ![a, b]⟩) (n : Fin a) (c : Fin b) :
    shapeCast ⟨2, ![a, b]⟩ x h (ix2 n c) = x (ix3 n 0 c) := by
  refine shapeCast_apply x h _ _ ?_
  rw [Shape.rowMajor_val_two, Shape.rowMajor_val_three]
  show (n.val * 1 + 0) * b + c.val = n.val * b + c.val
  simp

/-- A row `[1, K]` broadcast to `[1, 1, K]` and then to `[N, 1, K]`, read at `(n, u, k)`: the row's entry `k`. -/
theorem bcast_row3_apply {N K : ℕ} (v : (⟨2, ![1, K]⟩ : Shape).Idx → α)
    (h' : (⟨2, ![1, K]⟩ : Shape).BroadcastsInDim ⟨3, ![1, 1, K]⟩ ![1, 2])
    (h : (⟨3, ![1, 1, K]⟩ : Shape).BroadcastsInDim ⟨3, ![N, 1, K]⟩ ![0, 1, 2]) (n : Fin N) (u : Fin 1) (k : Fin K) :
    broadcastInDim ⟨3, ![N, 1, K]⟩ ![0, 1, 2] h (broadcastInDim ⟨3, ![1, 1, K]⟩ ![1, 2] h' v) (ix3 n u k) = v (ix2 0 k) := by
  refine (broadcastInDim_apply _ h _ (ix3 n u k) (ix3 0 0 k) ?_).trans ?_
  · intro a
    match a with
    | ⟨0, _⟩ => rfl
    | ⟨1, _⟩ => rfl
    | ⟨2, _⟩ =>
      show k.val = if K = 1 then 0 else k.val
      split
      · next hK => have := k.isLt; omega
      · rfl
  · refine broadcastInDim_apply _ h' _ (ix3 0 0 k) (ix2 0 k) ?_
    intro a
    match a with
    | ⟨0, _⟩ => rfl
    | ⟨1, _⟩ =>
      show k.val = if K = 1 then 0 else k.val
      split
      · next hK => have := k.isLt; omega
      · rfl

/-- A column `[N, 1]` broadcast to `[N, 1, 1]` and then to `[N, 1, C]`, read at `(n, u, c)`: the column's entry `n`. -/
theorem bcast_col3_apply {N C : ℕ} (s : (⟨2, ![N, 1]⟩ : Shape).Idx → α)
    (h' : (⟨2, ![N, 1]⟩ : Shape).BroadcastsInDim ⟨3, ![N, 1, 1]⟩ ![0, 1])
    (h : (⟨3, ![N, 1, 1]⟩ : Shape).BroadcastsInDim ⟨3, ![N, 1, C]⟩ ![0, 1, 2]) (n : Fin N) (u : Fin 1) (c : Fin C) :
    broadcastInDim ⟨3, ![N, 1, C]⟩ ![0, 1, 2] h (broadcastInDim ⟨3, ![N, 1, 1]⟩ ![0, 1] h' s) (ix3 n u c) = s (ix2 n 0) := by
  refine (broadcastInDim_apply _ h _ (ix3 n u c) (ix3 n 0 0) ?_).trans ?_
  · intro a
    match a with
    | ⟨0, _⟩ =>
      show n.val = if N = 1 then 0 else n.val
      split
      · next hN => have := n.isLt; omega
      · rfl
    | ⟨1, _⟩ => rfl
    | ⟨2, _⟩ => rfl
  · refine broadcastInDim_apply _ h' _ (ix3 n 0 0) (ix2 n 0) ?_
    intro a
    match a with
    | ⟨0, _⟩ =>
      show n.val = if N = 1 then 0 else n.val
      split
      · next hN => have := n.isLt; omega
      · rfl
    | ⟨1, _⟩ => rfl

/-- A one-element array `[1]` broadcast to `[1, 1]` and then to `[N, 1]`, read anywhere: its element. -/
theorem bcast_one2_apply {N : ℕ} (b : (⟨1, ![1]⟩ : Shape).Idx → α)
    (h' : (⟨1, ![1]⟩ : Shape).BroadcastsInDim ⟨2, ![1, 1]⟩ ![1])
    (h : (⟨2, ![1, 1]⟩ : Shape).BroadcastsInDim ⟨2, ![N, 1]⟩ ![0, 1]) (n : Fin N) (u : Fin 1) :
    broadcastInDim ⟨2, ![N, 1]⟩ ![0, 1] h (broadcastInDim ⟨2, ![1, 1]⟩ ![1] h' b) (ix2 n u) = b (ix1 0) := by
  refine (broadcastInDim_apply _ h _ (ix2 n u) (ix2 0 0) ?_).trans ?_
  · intro a
    match a with
    | ⟨0, _⟩ => rfl
    | ⟨1, _⟩ => rfl
  · refine broadcastInDim_apply _ h' _ (ix2 0 0) (ix1 0) ?_
    intro a
    match a with
    | ⟨0, _⟩ => rfl

/-- Two `[N, 1, 64]` arrays laid end to end along the last axis, read at `(n, u, k)` with `k < 64`: the first. -/
theorem cat_last_apply_left {N : ℕ} (x₁ x₂ : (⟨3, ![N, 1, 64]⟩ : Shape).Idx → α)
    (h : Shape.Concatenates [⟨3, ![N, 1, 64]⟩, ⟨3, ![N, 1, 64]⟩] ⟨3, ![N, 1, 128]⟩ 2)
    (n : Fin N) (u : Fin 1) (k : Fin 128) (hk : k.val < 64) :
    concatenate ⟨3, ![N, 1, 128]⟩ 2 [⟨⟨3, ![N, 1, 64]⟩, x₁⟩, ⟨⟨3, ![N, 1, 64]⟩, x₂⟩] h (ix3 n u k) = x₁ (ix3 n u ⟨k.val, hk⟩) :=
  concatenate_pair_apply_left 2 x₁ x₂ h (ix3 n u k) rfl (ix3 n u ⟨k.val, hk⟩)
    (fun b => match b with | ⟨0, _⟩ => rfl | ⟨1, _⟩ => rfl | ⟨2, _⟩ => rfl)

/-- … with `64 ≤ k`: the second, at `k − 64`. -/
theorem cat_last_apply_right {N : ℕ} (x₁ x₂ : (⟨3, ![N, 1, 64]⟩ : Shape).Idx → α)
    (h : Shape.Concatenates [⟨3, ![N, 1, 64]⟩, ⟨3, ![N, 1, 64]⟩] ⟨3, ![N, 1, 128]⟩ 2)
    (n : Fin N) (u : Fin 1) (k : Fin 128) (hk : ¬ k.val < 64) :
    concatenate ⟨3, ![N, 1, 128]⟩ 2 [⟨⟨3, ![N, 1, 64]⟩, x₁⟩, ⟨⟨3, ![N, 1, 64]⟩, x₂⟩] h (ix3 n u k)
      = x₂ (ix3 n u ⟨k.val - 64, by omega⟩) :=
  concatenate_pair_apply_right 2 x₁ x₂ h (ix3 n u k) rfl rfl (ix3 n u ⟨k.val - 64, by omega⟩)
    (fun b hb => match b, hb with
      | ⟨0, _⟩, _ => rfl
      | ⟨1, _⟩, _ => rfl
      | ⟨2, _⟩, hb => absurd rfl hb)
    (by show k.val - 64 + 64 = k.val; omega)

end Generic

/-- The host's sum over the last axis of `[N, 1, K]` from a scalar initial value, read at `(n, u)`: the initial value
    plus the sum over the `K` entries of row `(n, u)`. -/
theorem reduce_last_apply {N K : ℕ} (x : FVec Ideal (⟨3, ![N, 1, K]⟩ : Shape) .f32)
    (init : FVec Ideal (⟨0, ![]⟩ : Shape) .f32)
    (h : (⟨3, ![N, 1, K]⟩ : Shape).ReducesTo [2] ⟨2, ![N, 1]⟩) (hu : 0 < (⟨0, ![]⟩ : Shape).numel) (n : Fin N) (u : Fin 1) :
    Host.reduceAdd x init h hu (ix2 n u) = init ix0 + ∑ k : Fin K, x (ix3 n u k) := by
  have hR : (⟨3, ![N, 1, K]⟩ : Shape).Reduces [2] ⟨2, ![N, 1]⟩ := ⟨h.1, Nat.zero_lt_two, h.2⟩
  rw [hostReduceAdd_apply, Ideal.hostReduceAdd_single h hR]
  rw [eq_ix0 (Shape.Idx.first hu)]
  show init ix0 + ∑ k : Fin K, x (hR.lift (ix2 n u) k) = _
  congr 1
  refine Finset.sum_congr rfl fun k _ => congrArg x ?_
  funext c
  match c with
  | ⟨0, _⟩ => exact Fin.ext rfl
  | ⟨1, _⟩ => exact Fin.ext rfl
  | ⟨2, _⟩ => exact Fin.ext rfl

/-! ## The reference's score pieces, read at an index -/

/-- A per-node score spread over the head's features, at `(n, u, c)`: the score of node `n`. -/
theorem rSpread_at (s : RGlue.A S10000x1) (n : Fin 10000) (u : Fin 1) (c : Fin 64) :
    RGlue.rSpread s (ix3 n u c) = s (ix2 n 0) := by
  unfold RGlue.rSpread
  exact bcast_col3_apply s _ _ n u c

/-- A one-element bias added to every node's score, at `(n, u)`: the element. -/
theorem rScoreBias_at (b : RGlue.A S1) (n : Fin 10000) (u : Fin 1) : RGlue.rScoreBias b (ix2 n u) = b (ix1 0) := by
  unfold RGlue.rScoreBias
  exact bcast_one2_apply b _ _ n u

/-- The one-element bias `[1]` as `[1, 1]`, at `(0, 0)`: the element. -/
theorem kOne_at (b : Cert.KernelIdeal.KGlue.A Cert.KernelIdeal.S1) : Cert.KernelIdeal.KGlue.kOne b (ix2 0 0) = b (ix1 0) := by
  unfold Cert.KernelIdeal.KGlue.kOne
  refine shapeCast_apply b _ (ix2 0 0) (ix1 0) ?_
  rw [Shape.rowMajor_val_two, Shape.rowMajor_val_one]
  rfl

/-- The reference's `[x, zs]` along the last axis, at `(n, u, k)`: `x[n, k]` for `k < 64`, else `zs[n, k − 64]`. -/
theorem cat_at (x zs : Cert.KernelIdeal.KGlue.A Cert.KernelIdeal.S10000x64) (n : Fin 10000) (u : Fin 1) (k : Fin 128) :
    concatenate S10000x1x128 2 [⟨S10000x1x64, r3 x⟩, ⟨S10000x1x64, r3 zs⟩]
        concatenates_S10000x1x64_S10000x1x64_S10000x1x128_d2 (ix3 n u k)
      = Cert.Spec.catAt x zs n k := by
  unfold Cert.Spec.catAt
  split
  · next hk =>
    exact (cat_last_apply_left (r3 x) (r3 zs) _ n u k hk).trans (Cert.Bridge.Scalar.r3_apply x n u ⟨k.val, hk⟩)
  · next hk =>
    exact (cat_last_apply_right (r3 x) (r3 zs) _ n u k hk).trans
      (Cert.Bridge.Scalar.r3_apply zs n u ⟨k.val - 64, by omega⟩)

/-- The score sum of round zero at node `n`: `Σ_k att[0, k] · elu (h[n, k])`. -/
theorem gate_sum (h : Cert.KernelIdeal.KGlue.A Cert.KernelIdeal.S10000x64) (att : Cert.KernelIdeal.KGlue.A Cert.KernelIdeal.S1x64)
    (n : Fin 10000) (u : Fin 1) :
    Host.reduceAdd
        (mulf
          (broadcastInDim S10000x1x64 ![0, 1, 2] bcast_S1x1x64_S10000x1x64_0_1_2
            (broadcastInDim S1x1x64 ![1, 2] bcast_S1x64_S1x1x64_1_2 att))
          (RGlue.rElu S10000x1x64 bcast_S_S10000x1x64 (r3 h)))
        (constant S_ .f32 0x00000000#32) reducesTo_S10000x1x64_S10000x1_d2 h_S_ (ix2 n u)
      = ∑ k : Fin 64, att (ix2 0 k) * Cert.Spec.eluS (h (ix2 n k)) := by
  refine (reduce_last_apply _ _ _ _ n u).trans ?_
  rw [constant_apply, Ideal.ofBits_zero_f32, zero_add]
  refine Finset.sum_congr rfl fun k _ => ?_
  rw [mulf_apply, bcast_row3_apply att _ _ n u k, Cert.Bridge.Scalar.elu_apply, Cert.Bridge.Scalar.r3_apply]

/-- The score sum of a round at node `n`: `Σ_k hatt[0, k] · elu ([x, zs][n, k])`. -/
theorem gate2_sum (x zs : Cert.KernelIdeal.KGlue.A Cert.KernelIdeal.S10000x64)
    (hatt : Cert.KernelIdeal.KGlue.A Cert.KernelIdeal.S1x128) (n : Fin 10000) (u : Fin 1) :
    Host.reduceAdd
        (mulf
          (broadcastInDim S10000x1x128 ![0, 1, 2] bcast_S1x1x128_S10000x1x128_0_1_2
            (broadcastInDim S1x1x128 ![1, 2] bcast_S1x128_S1x1x128_1_2 hatt))
          (RGlue.rElu S10000x1x128 bcast_S_S10000x1x128
            (concatenate S10000x1x128 2 [⟨S10000x1x64, r3 x⟩, ⟨S10000x1x64, r3 zs⟩]
              concatenates_S10000x1x64_S10000x1x64_S10000x1x128_d2)))
        (constant S_ .f32 0x00000000#32) reducesTo_S10000x1x128_S10000x1_d2 h_S_ (ix2 n u)
      = ∑ k : Fin 128, hatt (ix2 0 k) * Cert.Spec.eluS (Cert.Spec.catAt x zs n k) := by
  refine (reduce_last_apply _ _ _ _ n u).trans ?_
  rw [constant_apply, Ideal.ofBits_zero_f32, zero_add]
  refine Finset.sum_congr rfl fun k _ => ?_
  rw [mulf_apply, bcast_row3_apply hatt _ _ n u k, Cert.Bridge.Scalar.elu_apply, cat_at]

/-! ## The three statements -/

/-- The reference's state after round zero is its own text with the features re-laid once. -/
theorem rZ0_unfold (h : RGlue.A S10000x64) (att : RGlue.A S1x64) (bias : RGlue.A S1) :
    RGlue.rZ0 h att bias
      = mulf (r3 h)
          (RGlue.rSpread
            (addf
              (Host.reduceAdd
                (mulf
                  (broadcastInDim S10000x1x64 ![0, 1, 2] bcast_S1x1x64_S10000x1x64_0_1_2
                    (broadcastInDim S1x1x64 ![1, 2] bcast_S1x64_S1x1x64_1_2 att))
                  (RGlue.rElu S10000x1x64 bcast_S_S10000x1x64 (r3 h)))
                (constant S_ .f32 0x00000000#32) reducesTo_S10000x1x64_S10000x1_d2 h_S_)
              (RGlue.rScoreBias bias))) := rfl

/-- THE STATE AFTER ROUND ZERO: the reference's `[10000, 1, 64]` array is the features times their gate, re-laid. -/
theorem z0_eq (h : Cert.KernelIdeal.KGlue.A Cert.KernelIdeal.S10000x64) (att0 : Cert.KernelIdeal.KGlue.A Cert.KernelIdeal.S1x64)
    (bias0 : Cert.KernelIdeal.KGlue.A Cert.KernelIdeal.S1) :
    RGlue.rZ0 h att0 bias0 = r3 (Cert.Spec.specZ0 h att0 (Cert.KernelIdeal.KGlue.kOne bias0)) := by
  rw [rZ0_unfold]
  funext i
  obtain ⟨n, u, c, rfl⟩ : ∃ (n : Fin 10000) (u : Fin 1) (c : Fin 64), i = ix3 n u c := ⟨i 0, i 1, i 2, eq_ix3 i⟩
  rw [mulf_apply, rSpread_at, addf_apply, rScoreBias_at, gate_sum, Cert.Bridge.Scalar.r3_apply,
    Cert.Bridge.Scalar.r3_apply, ← kOne_at bias0]
  rfl

/-- THE STATE AFTER A ROUND: `z + x · (Σ hatt · elu ([x, zs]) + hb)` on the reference's `[10000, 1, 64]` arrays is the
    coordinatewise update, re-laid. The bias is one element on both sides (`hb`). -/
theorem znew_eq (X' Z zs : Cert.KernelIdeal.KGlue.A Cert.KernelIdeal.S10000x64)
    (hatt : Cert.KernelIdeal.KGlue.A Cert.KernelIdeal.S1x128) (hbK : Cert.KernelIdeal.KGlue.A Cert.KernelIdeal.S1x1)
    (hbR : RGlue.A S1) (hb : hbK (ix2 0 0) = hbR (ix1 0)) :
    addf (r3 Z)
        (mulf (r3 X')
          (RGlue.rSpread
            (addf
              (Host.reduceAdd
                (mulf
                  (broadcastInDim S10000x1x128 ![0, 1, 2] bcast_S1x1x128_S10000x1x128_0_1_2
                    (broadcastInDim S1x1x128 ![1, 2] bcast_S1x128_S1x1x128_1_2 hatt))
                  (RGlue.rElu S10000x1x128 bcast_S_S10000x1x128
                    (concatenate S10000x1x128 2 [⟨S10000x1x64, r3 X'⟩, ⟨S10000x1x64, r3 zs⟩]
                      concatenates_S10000x1x64_S10000x1x64_S10000x1x128_d2)))
                (constant S_ .f32 0x00000000#32) reducesTo_S10000x1x128_S10000x1_d2 h_S_)
              (RGlue.rScoreBias hbR))))
      = r3 (Cert.Spec.specUpd X' Z zs hatt hbK) := by
  funext i
  obtain ⟨n, u, c, rfl⟩ : ∃ (n : Fin 10000) (u : Fin 1) (c : Fin 64), i = ix3 n u c := ⟨i 0, i 1, i 2, eq_ix3 i⟩
  rw [addf_apply, mulf_apply, rSpread_at, addf_apply, rScoreBias_at, gate2_sum, Cert.Bridge.Scalar.r3_apply,
    Cert.Bridge.Scalar.r3_apply, Cert.Bridge.Scalar.r3_apply, ← hb]
  rfl

/-- THE CLOSING ELU: the reference drops the head axis and applies ELU; on a re-laid array that is ELU of each entry. -/
theorem zf_eq (U : Cert.KernelIdeal.KGlue.A Cert.KernelIdeal.S10000x64) :
    RGlue.rZf (r3 U) = fun i => Cert.Spec.eluS (U i) := by
  funext i
  exact (Cert.Bridge.Scalar.elu_apply _ _ _ i).trans
    (congrArg Cert.Spec.eluS (congrFun (shapeCast_shapeCast U _ _) i))

/-- So the last round's state through the closing ELU is the coordinatewise last update. -/
theorem last_eq (X' Z zs : Cert.KernelIdeal.KGlue.A Cert.KernelIdeal.S10000x64)
    (hatt : Cert.KernelIdeal.KGlue.A Cert.KernelIdeal.S1x128) (hbK : Cert.KernelIdeal.KGlue.A Cert.KernelIdeal.S1x1) :
    RGlue.rZf (r3 (Cert.Spec.specUpd X' Z zs hatt hbK)) = Cert.Spec.specUpdLast X' Z zs hatt hbK := by
  rw [zf_eq]
  exact Cert.Spec.ext2 fun _ _ => rfl

end Cert.Bridge.BridgeU

end
-- ==== Proof.BridgeI.lean ====
/-
  The first stage of both programs is the same two affine maps with an ELU between them,
  `elu (x · w0 + b0) · w1 + b1`. The reference writes it with two matrix products on whole arrays and each bias
  vector `[64]` broadcast down the 10000 rows; the kernel program's stage is stated at a node `n` and a feature `c`
  as the sum over the contracted coordinate plus the bias row `[1, 64]` at `(0, c)`. Read at `(n, c)` the two agree:
  a matrix product on the extended reals is the plain sum over the contracted coordinate, a broadcast bias is the
  vector at `c`, and so is the vector reshaped to a row.
-/
import proofs.«404001_j15436112461850_3_alg».proof.Proof.KGlue
import proofs.«404001_j15436112461850_3_alg».proof.Proof.RGlue
import proofs.«404001_j15436112461850_3_alg».proof.Proof.BridgeScalar
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Cert.Bridge.BridgeI

open Idealize.ShloMosaic Idealize.ShloMosaic.ValueIdx

/-! ## Layout operations and a matrix product, read at an index -/

/-- A vector `[n]` laid as the row `[1, n]` by a broadcast along axis 1, read at `(0, c)`. -/
theorem rowOf_apply {α : Type} {n : Nat} (h : (⟨1, ![n]⟩ : Shape).BroadcastsInDim ⟨2, ![1, n]⟩ ![1])
    (b : (⟨1, ![n]⟩ : Shape).Idx → α) (c : Fin n) :
    broadcastInDim ⟨2, ![1, n]⟩ ![1] h b (ix2 (0 : Fin 1) c) = b (ix1 c) := by
  refine broadcastInDim_apply ![1] h b (ix2 (0 : Fin 1) c) (ix1 c) ?_
  intro a
  fin_cases a
  show c.val = if n = 1 then 0 else c.val
  split_ifs with hn
  · have := c.isLt; omega
  · rfl

/-- A vector `[n]` added to every row of an `[m, n]` array: the broadcast read at `(r, c)` is the vector at `c`. -/
theorem rowBias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_oneRow_apply, rowOf_apply]

/-- A vector `[n]` reshaped to the row `[1, n]`, read at `(0, c)`. -/
theorem castRow_apply {α : Type} {n : Nat} (h : (⟨1, ![n]⟩ : Shape).ShapeCasts ⟨2, ![1, n]⟩)
    (b : (⟨1, ![n]⟩ : Shape).Idx → α) (c : Fin n) :
    shapeCast ⟨2, ![1, n]⟩ b h (ix2 (0 : Fin 1) c) = b (ix1 c) := by
  refine shapeCast_apply b h (ix2 (0 : Fin 1) c) (ix1 c) ?_
  rw [Shape.rowMajor_val_one, Shape.rowMajor_val_two]
  show c.val = 0 * n + c.val
  omega

/-- A matrix product `[m, k] · [k, n]` on the extended reals, read at `(a, b)`: the sum over the contracted coordinate. -/
theorem dot_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

/-! ## The two programs' pieces at `(n, c)` -/

/-- The reference's bias, a vector `[64]` broadcast down the rows, read at `(n, c)`. -/
theorem rRowBias_apply (b : Cert.ReferenceIdeal.RGlue.A Cert.ReferenceIdeal.S64) (n : Fin 10000) (c : Fin 64) :
    Cert.ReferenceIdeal.RGlue.rRowBias b (ix2 n c) = b (ix1 c) :=
  rowBias_apply _ _ b n c

/-- The kernel program's bias, the vector reshaped to a row `[1, 64]`, read at `(0, c)`. -/
theorem kRow_apply (b : Cert.KernelIdeal.KGlue.A Cert.KernelIdeal.S64) (c : Fin 64) :
    Cert.KernelIdeal.KGlue.kRow b (ix2 (0 : Fin 1) c) = b (ix1 c) :=
  castRow_apply _ b c

/-- The first matrix product `[10000, 739] · [739, 64]` at `(n, k)`. -/
theorem dot0_apply (x : Cert.ReferenceIdeal.RGlue.A Cert.ReferenceIdeal.S10000x739)
    (w0 : Cert.ReferenceIdeal.RGlue.A Cert.ReferenceIdeal.S739x64) (n : Fin 10000) (k : Fin 64) :
    Host.dotGeneral Cert.ReferenceIdeal.dot_S10000x739_S739x64_S10000x64_1_0_0_1_n_n none x w0 (ix2 n k)
      = ∑ j : Fin 739, x (ix2 n j) * w0 (ix2 j k) :=
  dot_apply _ rfl x w0 n k

/-- The second matrix product `[10000, 64] · [64, 64]` at `(n, c)`. -/
theorem dot1_apply (h : Cert.ReferenceIdeal.RGlue.A Cert.ReferenceIdeal.S10000x64)
    (w1 : Cert.ReferenceIdeal.RGlue.A Cert.ReferenceIdeal.S64x64) (n : Fin 10000) (c : Fin 64) :
    Host.dotGeneral Cert.ReferenceIdeal.dot_S10000x64_S64x64_S10000x64_1_0_0_1_n_n none h w1 (ix2 n c)
      = ∑ k : Fin 64, h (ix2 n k) * w1 (ix2 k c) :=
  dot_apply _ rfl h w1 n c

/-! ## The stage -/

/-- The node features after the first stage: the reference's array is the one the kernel program's stage is stated as. -/
theorem x0_eq (x : Cert.ReferenceIdeal.RGlue.A Cert.ReferenceIdeal.S10000x739)
    (w0 : Cert.ReferenceIdeal.RGlue.A Cert.ReferenceIdeal.S739x64) (b0 : Cert.ReferenceIdeal.RGlue.A Cert.ReferenceIdeal.S64)
    (w1 : Cert.ReferenceIdeal.RGlue.A Cert.ReferenceIdeal.S64x64) (b1 : Cert.ReferenceIdeal.RGlue.A Cert.ReferenceIdeal.S64) :
    Cert.ReferenceIdeal.RGlue.rX0 x w0 b0 w1 b1
      = Cert.Spec.specX0 x w0 (Cert.KernelIdeal.KGlue.kRow b0) w1 (Cert.KernelIdeal.KGlue.kRow b1) := by
  refine Cert.Spec.ext2 fun n c => ?_
  rw [Cert.Spec.specX0, Cert.Spec.of2_ix2, Cert.Spec.h2At, Cert.ReferenceIdeal.RGlue.rX0, addf_apply, rRowBias_apply,
    dot1_apply, kRow_apply]
  congr 1
  refine Finset.sum_congr rfl fun k _ => ?_
  rw [Cert.Bridge.Scalar.elu_apply, addf_apply, dot0_apply, rRowBias_apply, Cert.Spec.h1At, kRow_apply]

end Cert.Bridge.BridgeI

end
-- ==== Proof.Bridge.lean ====
/-
  The reference's function of the arguments is the kernel program's.

  A round maps (features, state) to (features, state); the reference carries the state with the head axis
  inserted (`r3`). Stage by stage the two rounds agree: the scaled state and the gathered sums (BridgeG), the edge
  scores (BridgeP), the degree normalisation and the scatter-summed features (BridgeS), the gated update (BridgeU).
  So one round preserves "same features, state related by `r3`" (`step_eq`), the eight rounds do by induction over
  the list of their parameters (`fold_eq`), and the first stage (BridgeI, BridgeU) and the readout close the rest.
-/
import proofs.«404001_j15436112461850_3_alg».proof.Proof.BridgeDefs
import proofs.«404001_j15436112461850_3_alg».proof.Proof.BridgeG
import proofs.«404001_j15436112461850_3_alg».proof.Proof.BridgeS
import proofs.«404001_j15436112461850_3_alg».proof.Proof.BridgeP
import proofs.«404001_j15436112461850_3_alg».proof.Proof.BridgeU
import proofs.«404001_j15436112461850_3_alg».proof.Proof.BridgeI
import Idealize.ShloMosaic.Lib.ValueLayout
import Mathlib.Data.List.Forall2

noncomputable section

namespace Cert.Bridge

open Idealize.ShloMosaic Idealize.ShloMosaic.ValueIdx
open Cert.KernelIdeal.KGlue hiding A W wrapIx colIx
open Cert.ReferenceIdeal.RGlue hiding A W wrapIx colIx

local notation "KA" => Cert.KernelIdeal.KGlue.A
local notation "Nd64" => Cert.KernelIdeal.S10000x64
local notation "Ed" => Cert.KernelIdeal.S320000

/-- A round's parameters on the two sides are the same arrays; the gate bias is `[1, 1]` on one side, `[1]` on the other. -/
def PRel (pk : KP) (pr : RP) : Prop :=
  pr.w = pk.w ∧ pr.att = pk.att ∧ pr.hatt = pk.hatt ∧ pk.hb (ix2 0 0) = pr.hb (ix1 0)

/-- The new features of a round agree. -/
theorem xnew_eq (w : BitVec 32) (att : KA Cert.KernelIdeal.S1x64) (src dst : IVec Ed 32) (X Z : KA Nd64) :
    rXNew w att src dst X (r3 Z) = kXNew w att src dst X Z := by
  unfold rXNew kXNew
  dsimp only
  rw [BridgeG.zs_eq, BridgeG.zsum_eq, BridgeP.a_eq, BridgeS.inv_eq]
  exact BridgeS.x_eq _ _ _ _

/-- One round preserves the relation. -/
theorem step_eq {pk : KP} {pr : RP} (h : PRel pk pr) (src dst : IVec Ed 32) (X Z : KA Nd64) :
    rStep src dst (X, r3 Z) pr = ((kStep src dst (X, Z) pk).1, r3 (kStep src dst (X, Z) pk).2) := by
  obtain ⟨hw, ha, hh, hb⟩ := h
  unfold rStep kStep
  dsimp only
  rw [hw, ha, hh]
  refine Prod.ext (xnew_eq _ _ _ _ _ _) ?_
  show rZNew pk.w pk.att pk.hatt pr.hb src dst X (r3 Z) = r3 (kZNew pk.w pk.att pk.hatt pk.hb src dst X Z)
  unfold rZNew kZNew
  dsimp only
  rw [xnew_eq, BridgeG.zs_eq]
  exact BridgeU.znew_eq _ _ _ _ _ _ hb

/-- So do any number of rounds with related parameters. -/
theorem fold_eq (src dst : IVec Ed 32) (lk : List KP) (lr : List RP) (h : List.Forall₂ PRel lk lr) : ∀ (X Z : KA Nd64),
    lr.foldl (rStep src dst) (X, r3 Z)
      = ((lk.foldl (kStep src dst) (X, Z)).1, r3 (lk.foldl (kStep src dst) (X, Z)).2) := by
  induction h with
  | nil => intro X Z; rfl
  | cons h1 _ ih =>
    intro X Z
    simp only [List.foldl_cons]
    rw [step_eq h1]
    exact ih _ _

/-- The gate bias cut out of `[9, 1]`: as `[1, 1]` at `(0, 0)` it is the `[1]` form at `0`. -/
theorem hb_eq (i : Nat) (hK : Cert.KernelIdeal.S9x1.Slices ![i, 0] Cert.KernelIdeal.S1x1)
    (hR : Cert.ReferenceIdeal.S9x1.Slices ![i, 0] Cert.ReferenceIdeal.S1x1) (a11 : KA Cert.KernelIdeal.S9x1) :
    kHb i hK a11 (ix2 0 0) = rHb i hR a11 (ix1 0) :=
  shapeCast_a_1a_apply _ _ 0 0

/-- Every round's parameters are related. -/
theorem prel (i : Nat) (w : BitVec 32)
    (h7K : Cert.KernelIdeal.S9x1x64.Slices ![i, 0, 0] Cert.KernelIdeal.S1x1x64) (h7R : Cert.ReferenceIdeal.S9x1x64.Slices ![i, 0, 0] Cert.ReferenceIdeal.S1x1x64)
    (h10K : Cert.KernelIdeal.S9x1x128.Slices ![i, 0, 0] Cert.KernelIdeal.S1x1x128) (h10R : Cert.ReferenceIdeal.S9x1x128.Slices ![i, 0, 0] Cert.ReferenceIdeal.S1x1x128)
    (h11K : Cert.KernelIdeal.S9x1.Slices ![i, 0] Cert.KernelIdeal.S1x1) (h11R : Cert.ReferenceIdeal.S9x1.Slices ![i, 0] Cert.ReferenceIdeal.S1x1)
    (a7 : KA Cert.KernelIdeal.S9x1x64) (a10 : KA Cert.KernelIdeal.S9x1x128) (a11 : KA Cert.KernelIdeal.S9x1) :
    PRel ⟨w, kAtt i h7K a7, kHatt i h10K a10, kHb i h11K a11⟩ ⟨w, rAtt i h7R a7, rHatt i h10R a10, rHb i h11R a11⟩ :=
  show _ ∧ _ ∧ _ ∧ _ from ⟨rfl, rfl, rfl, hb_eq i h11K h11R a11⟩

/-- The whole reference is the whole kernel program, as functions of the fourteen arguments. -/
theorem val_eq (x : KA Cert.KernelIdeal.S10000x739) (ei : IVec Cert.KernelIdeal.S2x320000 32) (batch : IVec Cert.KernelIdeal.S10000 32)
    (w0 : KA Cert.KernelIdeal.S739x64) (b0 : KA Cert.KernelIdeal.S64) (w1 : KA Cert.KernelIdeal.S64x64) (b1 : KA Cert.KernelIdeal.S64)
    (a7 : KA Cert.KernelIdeal.S9x1x64) (att0 : KA Cert.KernelIdeal.S1x64) (bias0 : KA Cert.KernelIdeal.S1)
    (a10 : KA Cert.KernelIdeal.S9x1x128) (a11 : KA Cert.KernelIdeal.S9x1) (wh : KA Cert.KernelIdeal.S64x1) (bh : KA Cert.KernelIdeal.S1) :
    rVal x ei batch w0 b0 w1 b1 a7 att0 bias0 a10 a11 wh bh = kVal x ei batch w0 b0 w1 b1 a7 att0 bias0 a10 a11 wh bh := by
  unfold rVal kVal
  dsimp only
  rw [BridgeI.x0_eq, BridgeU.z0_eq]
  rw [show rSrc ei = kSrc ei from rfl, show rDst ei = kDst ei from rfl]
  rw [fold_eq (kSrc ei) (kDst ei) (kParams a7 a10 a11) (rParams a7 a10 a11)
    (by
      unfold kParams rParams
      exact .cons (prel 0 _ _ _ _ _ _ _ a7 a10 a11) (.cons (prel 1 _ _ _ _ _ _ _ a7 a10 a11) (.cons (prel 2 _ _ _ _ _ _ _ a7 a10 a11)
        (.cons (prel 3 _ _ _ _ _ _ _ a7 a10 a11) (.cons (prel 4 _ _ _ _ _ _ _ a7 a10 a11) (.cons (prel 5 _ _ _ _ _ _ _ a7 a10 a11)
        (.cons (prel 6 _ _ _ _ _ _ _ a7 a10 a11) (.cons (prel 7 _ _ _ _ _ _ _ a7 a10 a11) .nil))))))))]
  dsimp only
  -- the last round: the state update under the head axis, then the closing ELU
  have hlast := prel 8 0x3DD7C7BA#32 Cert.KernelIdeal.Facts₀.slices_S9x1x64_S1x1x64_8_0_0 Cert.ReferenceIdeal.Facts₀.slices_S9x1x64_S1x1x64_8_0_0
    Cert.KernelIdeal.Facts₀.slices_S9x1x128_S1x1x128_8_0_0 Cert.ReferenceIdeal.Facts₀.slices_S9x1x128_S1x1x128_8_0_0
    Cert.KernelIdeal.Facts₀.slices_S9x1_S1x1_8_0 Cert.ReferenceIdeal.Facts₀.slices_S9x1_S1x1_8_0 a7 a10 a11
  generalize (kParams a7 a10 a11).foldl (kStep (kSrc ei) (kDst ei))
    (Cert.Spec.specX0 x w0 (kRow b0) w1 (kRow b1),
      Cert.Spec.specZ0 (Cert.Spec.specX0 x w0 (kRow b0) w1 (kRow b1)) att0 (kOne bias0)) = s
  have hz := congrArg Prod.snd (step_eq hlast (kSrc ei) (kDst ei) s.1 s.2)
  refine congrArg (fun zf => kOut zf batch wh bh) ?_
  show rZf (rZNew _ _ _ _ (kSrc ei) (kDst ei) s.1 (r3 s.2)) = kZLast _ _ _ _ (kSrc ei) (kDst ei) s.1 s.2
  exact (congrArg rZf hz).trans (BridgeU.last_eq _ _ _ _ _)

end Cert.Bridge

end
-- ==== Proof.lean ====
/-
  The certificate: the kernel program of nineteen pallas_calls among host operations and the plain reference compute
  the same `[64, 1]` array on the extended reals.

  Both idealized programs are read back as ONE function of their fourteen argument arrays: the kernel program's
  run leaves its result at the fold of buffer contents through @main (Proof/KRun.lean), which Proof/KFold.lean reads
  as `KGlue.kVal` — each call's output array a whole-array function (Proof/Spec.lean, Proof/KReg*.lean), each host
  stretch the program's own operations —; the reference's run (Proof/RefRun.lean) leaves its result at the fold of
  its operations, which Proof/RFold.lean reads as `RGlue.rVal`. Proof/Bridge.lean shows the two functions equal:
  the first stage's two matrix products and ELU, nine rounds of edge scores (softplus of a weighted ELU), degree
  normalisation, scatter-summed features and gated state update, and the pooled readout agree stage by stage, the
  reference's explicit head axis of extent one being a re-layout. The word-level program's frame and the idealized
  one's are generated; the reference's frame is its run with the result dropped; nothing was rewritten by the ideal
  pass, so `preserves` is trivial.
-/
import proofs.«404001_j15436112461850_3_alg».proof.Defs
import proofs.«404001_j15436112461850_3_alg».proof.Proof.Gen.Kernel
import proofs.«404001_j15436112461850_3_alg».proof.Proof.Gen.Kernel.Skeleton
import proofs.«404001_j15436112461850_3_alg».proof.Proof.Gen.Kernel.Launch
import proofs.«404001_j15436112461850_3_alg».proof.Proof.Gen.Kernel.Points
import proofs.«404001_j15436112461850_3_alg».proof.Proof.FrameK.Run
import proofs.«404001_j15436112461850_3_alg».proof.Proof.Gen.KernelIdeal
import proofs.«404001_j15436112461850_3_alg».proof.Proof.Gen.KernelIdeal.Skeleton
import proofs.«404001_j15436112461850_3_alg».proof.Proof.Gen.KernelIdeal.Launch
import proofs.«404001_j15436112461850_3_alg».proof.Proof.Gen.KernelIdeal.Points
import proofs.«404001_j15436112461850_3_alg».proof.Proof.FrameKI.Run
import proofs.«404001_j15436112461850_3_alg».proof.Proof.Gen.ReferenceIdeal
import proofs.«404001_j15436112461850_3_alg».proof.Proof.Gen.Pre_finite_inputs
import proofs.«404001_j15436112461850_3_alg».proof.Proof.KRun
import proofs.«404001_j15436112461850_3_alg».proof.Proof.KFold
import proofs.«404001_j15436112461850_3_alg».proof.Proof.RefRun
import proofs.«404001_j15436112461850_3_alg».proof.Proof.RFold
import proofs.«404001_j15436112461850_3_alg».proof.Proof.Bridge
import Idealize.ShloMosaic.Adequacy
import Idealize.ShloMosaic.Init

noncomputable section

namespace Cert.Proof

open Idealize.ShloMosaic Idealize.SL.Sem

/-- The reference's frame: its run, the result dropped, each argument read back through the fold of its operations,
    none of which writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _)⟩)
    (Cert.ReferenceIdeal.RefRun.run (F := Ideal) m ρ)

/-- The two idealized programs end with equal results: the kernel program's at `kVal` of its arguments, the
    reference's at `rVal` of its own, the arguments agree, and the two functions are one. -/
theorem algebraic : Cert.algebraic_KernelIdeal_ReferenceIdeal := by
  intro m ρ m' ρ' _ hagree
  refine ⟨fun c => Cert.KernelIdeal.Gen.W39 (F := Ideal) m ρ c (Proc.devRef .tc Cert.KernelIdeal.main_v590),
    Cert.KernelIdeal.KRun.run_value (F := Ideal) m ρ, ?_⟩
  refine (θ_run Cert.ReferenceIdeal.defs _ _).mono
    (fun r h c => ⟨?_, (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _)⟩)
    (Cert.ReferenceIdeal.RefRun.run (F := Ideal) m' ρ')
  refine (h c Cert.ReferenceIdeal.main_v789).trans ((Cert.ReferenceIdeal.RFold.ref_value _).trans ?_)
  obtain ⟨e0, e1, e2, e3, e4, e5, e6, e7, e8, e9, e10, e11, e12, e13⟩ := hagree c
  -- the reference's function at its own arguments is the same function at the kernel program's, argument by argument
  have hargs := congr (congr (congr (congr (congr (congr (congr (congr (congr (congr (congr (congr (congr (congrArg Cert.ReferenceIdeal.RGlue.rVal e0) e1) e2) e3) e4) e5) e6) e7) e8) e9) e10) e11) e12) e13
  exact hargs.trans ((Cert.Bridge.val_eq _ _ _ _ _ _ _ _ _ _ _ _ _ _).trans (Cert.KernelIdeal.KFold.kernel_value m ρ c).symm)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
